-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v82)) (v2 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3276) = v0 c
          ∧ r.2.mem ((c.tc : Thread Cert.ReferenceIdeal.nD Cert.ReferenceIdeal.τ).loc Cert.ReferenceIdeal.main_v3265) = v1 c
          ∧ r.2.mem ((c.tc : Thread Cert.ReferenceIdeal.nD Cert.ReferenceIdeal.τ).loc Cert.ReferenceIdeal.main_v3387) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x131072x3 : Shape := ⟨3, ![32, 131072, 3]⟩
abbrev S32x131072 : Shape := ⟨2, ![32, 131072]⟩
abbrev S32 : Shape := ⟨1, ![32]⟩
abbrev S32x5 : Shape := ⟨2, ![32, 5]⟩
abbrev S_ : Shape := ⟨0, ![]⟩

class Facts : Prop where
  bcast_S_S32x131072x3 : S_.BroadcastsInDim S32x131072x3 (![] : Fin 0 → Fin S32x131072x3.rank)
  reducesTo_S32x131072x3_S_d0_1_2 : S32x131072x3.ReducesTo [0, 1, 2] S_
  h_S_ : 0 < S_.numel
  bcast_S_S32x131072 : S_.BroadcastsInDim S32x131072 (![] : Fin 0 → Fin S32x131072.rank)
  reducesTo_S32x131072_S_d0_1 : S32x131072.ReducesTo [0, 1] S_
  bcast_S_S32 : S_.BroadcastsInDim S32 (![] : Fin 0 → Fin S32.rank)
  reducesTo_S32_S_d0 : S32.ReducesTo [0] S_
  bcast_S_S32x5 : S_.BroadcastsInDim S32x5 (![] : Fin 0 → Fin S32x5.rank)
  reducesTo_S32x5_S_d0_1 : S32x5.ReducesTo [0, 1] S_
  reducesTo_S_S_d : S_.ReducesTo [] S_

variable [Facts]

def fn_part2 {F : FTy → Type} [FloatOps F] (main_arg7 : FVec F S32x5 .f32) (main_arg8 : FVec F S_ .f32) (main_v33 : IVec S_ 1) : IVec S_ 1 :=
  let main_v34 : FVec F S32x5 .f32 := Host.absf main_arg7
  let main_cst_12 : FVec F S_ .f32 := constant S_ .f32 0x7F800000#32
  let main_v35 : FVec F S32x5 .f32 := broadcastInDim S32x5 ![] bcast_S_S32x5 main_cst_12
  let main_v36 : IVec S32x5 1 := cmpf .olt main_v34 main_v35
  let main_c_13 : IVec S_ 1 := constantI S_ 1 1#1
  let main_v37 : IVec S_ 1 := (fun x v => Host.reduce IntOp.andi x v reducesTo_S32x5_S_d0_1 h_S_) main_v36 main_c_13
  let main_v38 : IVec S_ 1 := andi main_v33 main_v37
  let main_v39 : FVec F S_ .f32 := Host.absf main_arg8
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  main_v42

def fn_part1 {F : FTy → Type} [FloatOps F] (main_arg4 : FVec F S32 .f32) (main_arg5 : FVec F S32x5 .f32) (main_arg6 : FVec F S32x5 .f32) (main_arg7 : FVec F S32x5 .f32) (main_arg8 : FVec F S_ .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x5 .f32 := Host.absf main_arg5
  let main_cst_8 : FVec F S_ .f32 := constant S_ .f32 0x7F800000#32
  let main_v25 : FVec F S32x5 .f32 := broadcastInDim S32x5 ![] bcast_S_S32x5 main_cst_8
  let main_v26 : IVec S32x5 1 := cmpf .olt main_v24 main_v25
  let main_c_9 : IVec S_ 1 := constantI S_ 1 1#1
  let main_v27 : IVec S_ 1 := (fun x v => Host.reduce IntOp.andi x v reducesTo_S32x5_S_d0_1 h_S_) main_v26 main_c_9
  let main_v28 : IVec S_ 1 := andi main_v23 main_v27
  let main_v29 : FVec F S32x5 .f32 := Host.absf main_arg6
  let main_cst_10 : FVec F S_ .f32 := constant S_ .f32 0x7F800000#32
  let main_v30 : FVec F S32x5 .f32 := broadcastInDim S32x5 ![] bcast_S_S32x5 main_cst_10
  let main_v31 : IVec S32x5 1 := cmpf .olt main_v29 main_v30
  let main_c_11 : IVec S_ 1 := constantI S_ 1 1#1
  let main_v32 : IVec S_ 1 := (fun x v => Host.reduce IntOp.andi x v reducesTo_S32x5_S_d0_1 h_S_) main_v31 main_c_11
  let main_v33 : IVec S_ 1 := andi main_v28 main_v32
  fn_part2 (F := F) main_arg7 main_arg8 main_v33

def fn {F : FTy → Type} [FloatOps F] (main_arg0 : FVec F S32x131072x3 .f32) (main_arg1 : FVec F S32x131072x3 .f32) (main_arg2 : FVec F S32x131072 .f32) (main_arg3 : FVec F S32 .f32) (main_arg4 : FVec F S32 .f32) (main_arg5 : FVec F S32x5 .f32) (main_arg6 : FVec F S32x5 .f32) (main_arg7 : FVec F S32x5 .f32) (main_arg8 : FVec F S_ .f32) : IVec S_ 1 :=
  let main_v0 : FVec F S32x131072x3 .f32 := Host.absf main_arg0
  let main_cst : FVec F S_ .f32 := constant S_ .f32 0x7F800000#32
  let main_v1 : FVec F S32x131072x3 .f32 := broadcastInDim S32x131072x3 ![] bcast_S_S32x131072x3 main_cst
  let main_v2 : IVec S32x131072x3 1 := cmpf .olt main_v0 main_v1
  let main_c : IVec S_ 1 := constantI S_ 1 1#1
  let main_v3 : IVec S_ 1 := (fun x v => Host.reduce IntOp.andi x v reducesTo_S32x131072x3_S_d0_1_2 h_S_) main_v2 main_c
  let main_v4 : FVec F S32x131072x3 .f32 := Host.absf main_arg1
  let main_cst_0 : FVec F S_ .f32 := constant S_ .f32 0x7F800000#32
  let main_v5 : FVec F S32x131072x3 .f32 := broadcastInDim S32x131072x3 ![] bcast_S_S32x131072x3 main_cst_0
  let main_v6 : IVec S32x131072x3 1 := cmpf .olt main_v4 main_v5
  let main_c_1 : IVec S_ 1 := constantI S_ 1 1#1
  let main_v7 : IVec S_ 1 := (fun x v => Host.reduce IntOp.andi x v reducesTo_S32x131072x3_S_d0_1_2 h_S_) main_v6 main_c_1
  let main_v8 : IVec S_ 1 := andi main_v3 main_v7
  let main_v9 : FVec F S32x131072 .f32 := Host.absf main_arg2
  let main_cst_2 : FVec F S_ .f32 := constant S_ .f32 0x7F800000#32
  let main_v10 : FVec F S32x131072 .f32 := broadcastInDim S32x131072 ![] bcast_S_S32x131072 main_cst_2
  let main_v11 : IVec S32x131072 1 := cmpf .olt main_v9 main_v10
  let main_c_3 : IVec S_ 1 := constantI S_ 1 1#1
  let main_v12 : IVec S_ 1 := (fun x v => Host.reduce IntOp.andi x v reducesTo_S32x131072_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_v13 main_v16
-- ==== Kernel.lean ====
abbrev S32x131072x3 : Shape := ⟨3, ![32, 131072, 3]⟩
abbrev S32x131072 : Shape := ⟨2, ![32, 131072]⟩
abbrev S32 : Shape := ⟨1, ![32]⟩
abbrev S32x5 : Shape := ⟨2, ![32, 5]⟩
abbrev S_ : Shape := ⟨0, ![]⟩
abbrev S32x1 : Shape := ⟨2, ![32, 1]⟩
abbrev S32x14 : Shape := ⟨2, ![32, 14]⟩
abbrev S32x1x393216 : Shape := ⟨3, ![32, 1, 393216]⟩
abbrev S32x393216 : Shape := ⟨2, ![32, 393216]⟩
abbrev S32x1x5 : Shape := ⟨3, ![32, 1, 5]⟩
abbrev S32x1x1 : Shape := ⟨3, ![32, 1, 1]⟩
abbrev S32x1x14 : Shape := ⟨3, ![32, 1, 14]⟩
abbrev S2x1x393216 : Shape := ⟨3, ![2, 1, 393216]⟩
abbrev S2x1x5 : Shape := ⟨3, ![2, 1, 5]⟩
abbrev S2x1x1 : Shape := ⟨3, ![2, 1, 1]⟩
abbrev S2x1x14 : Shape := ⟨3, ![2, 1, 14]⟩
abbrev S2x1 : Shape := ⟨2, ![2, 1]⟩

abbrev nBuf : Space → Nat
  | .hbm => 123
  | .vmem => 20
  | .smem => 0
  | _ => 0

abbrev bufTy : (tb : Table) → Fin (tcTables nBuf tb) → BufTy
  | .hbm, ⟨0, _⟩ => ⟨S32x131072x3, .f32⟩
  | .hbm, ⟨1, _⟩ => ⟨S32x131072x3, .f32⟩
  | .hbm, ⟨2, _⟩ => ⟨S32x131072, .f32⟩
  | .hbm, ⟨3, _⟩ => ⟨S32, .f32⟩
  | .hbm, ⟨4, _⟩ => ⟨S32, .f32⟩
  | .hbm, ⟨5, _⟩ => ⟨S32x5, .f32⟩
  | .hbm, ⟨6, _⟩ => ⟨S32x5, .f32⟩
  | .hbm, ⟨7, _⟩ => ⟨S32x5, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S32x1, .f32⟩
  | .hbm, ⟨94, _⟩ => ⟨S32x1, .f32⟩
  | .hbm, ⟨95, _⟩ => ⟨S32x1, .f32⟩
  | .hbm, ⟨96, _⟩ => ⟨S32x1, .f32⟩
  | .hbm, ⟨97, _⟩ => ⟨S32x1, .f32⟩
  | .hbm, ⟨98, _⟩ => ⟨S32x1, .f32⟩
  | .hbm, ⟨99, _⟩ => ⟨S32x1, .f32⟩
  | .hbm, ⟨100, _⟩ => ⟨S32x1, .f32⟩
  | .hbm, ⟨101, _⟩ => ⟨S32x1, .f32⟩
  | .hbm, ⟨102, _⟩ => ⟨S32x1, .f32⟩
  | .hbm, ⟨103, _⟩ => ⟨S32x1, .f32⟩
  | .hbm, ⟨104, _⟩ => ⟨S32x1, .f32⟩
  | .hbm, ⟨105, _⟩ => ⟨S32x1, .f32⟩
  | .hbm, ⟨106, _⟩ => ⟨S32x1, .f32⟩
  | .hbm, ⟨107, _⟩ => ⟨S32x14, .f32⟩
  | .hbm, ⟨108, _⟩ => ⟨S32x1x393216, .f32⟩
  | .hbm, ⟨109, _⟩ => ⟨S32x131072x3, .f32⟩
  | .hbm, ⟨110, _⟩ => ⟨S32x393216, .f32⟩
  | .hbm, ⟨111, _⟩ => ⟨S32x1x393216, .f32⟩
  | .hbm, ⟨112, _⟩ => ⟨S32x1x5, .f32⟩
  | .hbm, ⟨113, _⟩ => ⟨S32x1x5, .f32⟩
  | .hbm, ⟨114, _⟩ => ⟨S32x1x5, .f32⟩
  | .hbm, ⟨115, _⟩ => ⟨S32x1x1, .f32⟩
  | .hbm, ⟨116, _⟩ => ⟨S32x1x14, .f32⟩
  | .hbm, ⟨117, _⟩ => ⟨S32x1x393216, .f32⟩
  | .hbm, ⟨118, _⟩ => ⟨S32x1x5, .f32⟩
  | .hbm, ⟨119, _⟩ => ⟨S32x1x5, .f32⟩
  | .hbm, ⟨120, _⟩ => ⟨S32x131072x3, .f32⟩
  | .hbm, ⟨121, _⟩ => ⟨S32x5, .f32⟩
  | .hbm, ⟨122, _⟩ => ⟨S32x5, .f32⟩
  | .local _ .vmem, ⟨0, _⟩ => ⟨S2x1x393216, .f32⟩
  | .local _ .vmem, ⟨1, _⟩ => ⟨S2x1x393216, .f32⟩
  | .local _ .vmem, ⟨2, _⟩ => ⟨S2x1x393216, .f32⟩
  | .local _ .vmem, ⟨3, _⟩ => ⟨S2x1x393216, .f32⟩
  | .local _ .vmem, ⟨4, _⟩ => ⟨S2x1x5, .f32⟩
  | .local _ .vmem, ⟨5, _⟩ => ⟨S2x1x5, .f32⟩
  | .local _ .vmem, ⟨6, _⟩ => ⟨S2x1x5, .f32⟩
  | .local _ .vmem, ⟨7, _⟩ => ⟨S2x1x5, .f32⟩
  | .local _ .vmem, ⟨8, _⟩ => ⟨S2x1x5, .f32⟩
  | .local _ .vmem, ⟨9, _⟩ => ⟨S2x1x5, .f32⟩
  | .local _ .vmem, ⟨10, _⟩ => ⟨S2x1x1, .f32⟩
  | .local _ .vmem, ⟨11, _⟩ => ⟨S2x1x1, .f32⟩
  | .local _ .vmem, ⟨12, _⟩ => ⟨S2x1x14, .f32⟩
  | .local _ .vmem, ⟨13, _⟩ => ⟨S2x1x14, .f32⟩
  | .local _ .vmem, ⟨14, _⟩ => ⟨S2x1x393216, .f32⟩
  | .local _ .vmem, ⟨15, _⟩ => ⟨S2x1x393216, .f32⟩
  | .local _ .vmem, ⟨16, _⟩ => ⟨S2x1x5, .f32⟩
  | .local _ .vmem, ⟨17, _⟩ => ⟨S2x1x5, .f32⟩
  | .local _ .vmem, ⟨18, _⟩ => ⟨S2x1x5, .f32⟩
  | .local _ .vmem, ⟨19, _⟩ => ⟨S2x1x5, .f32⟩
  | _, _ => ⟨S32x131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_cst_8 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_9 : Ref sig .tc := ⟨.hbm, 39, rfl⟩
abbrev main_v20 : Ref sig .tc := ⟨.hbm, 40, rfl⟩
abbrev main_cst_10 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_cst_12 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_13 : Ref sig .tc := ⟨.hbm, 51, rfl⟩
abbrev main_v28 : Ref sig .tc := ⟨.hbm, 52, rfl⟩
abbrev main_cst_14 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_15 : Ref sig .tc := ⟨.hbm, 57, rfl⟩
abbrev main_v32 : Ref sig .tc := ⟨.hbm, 58, rfl⟩
abbrev main_cst_16 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_17 : Ref sig .tc := ⟨.hbm, 63, rfl⟩
abbrev main_v36 : Ref sig .tc := ⟨.hbm, 64, rfl⟩
abbrev main_cst_18 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_19 : Ref sig .tc := ⟨.hbm, 69, rfl⟩
abbrev main_v40 : Ref sig .tc := ⟨.hbm, 70, rfl⟩
abbrev main_cst_20 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_21 : Ref sig .tc := ⟨.hbm, 75, rfl⟩
abbrev main_v44 : Ref sig .tc := ⟨.hbm, 76, rfl⟩
abbrev main_cst_22 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_23 : Ref sig .tc := ⟨.hbm, 81, rfl⟩
abbrev main_v48 : Ref sig .tc := ⟨.hbm, 82, rfl⟩
abbrev main_cst_24 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_25 : Ref sig .tc := ⟨.hbm, 87, rfl⟩
abbrev main_v52 : Ref sig .tc := ⟨.hbm, 88, rfl⟩
abbrev main_cst_26 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80_0 : Ref sig .tc := ⟨.hbm, 117, rfl⟩
abbrev main_v80_1 : Ref sig .tc := ⟨.hbm, 118, rfl⟩
abbrev main_v80_2 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x393216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x393216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x393216 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  concatenates_S32x1_S32x1_S32x1_S32x1_S32x1_S32x1_S32x1_S32x1_S32x1_S32x1_S32x1_S32x1_S32x1_S32x1_S32x14_d1 : Shape.Concatenates [S32x1, S32x1, S32x1, S32x1, S32x1, S32x1, S32x1, S32x1, S32x1, S32x1, S32x1, S32x1, S32x1, S32x1] S32x14 1
  shapeCasts_S32x131072x3_S32x1x393216 : S32x131072x3.ShapeCasts S32x1x393216
  bcast_S32x131072_S32x131072x3_0_1 : S32x131072.BroadcastsInDim S32x131072x3 (![0, 1] : Fin 2 → Fin S32x131072x3.rank)
  shapeCasts_S32x131072x3_S32x393216 : S32x131072x3.ShapeCasts S32x393216
  shapeCasts_S32x393216_S32x1x393216 : S32x393216.ShapeCasts S32x1x393216
  shapeCasts_S32x5_S32x1x5 : S32x5.ShapeCasts S32x1x5
  shapeCasts_S32_S32x1x1 : S32.ShapeCasts S32x1x1
  shapeCasts_S32x14_S32x1x14 : S32x14.ShapeCasts S32x1x14
  inb_S2x1x393216_S2x1x393216_0_0_0 : ∀ a, (![0, 0, 0] : Fin 3 → Nat) a + S2x1x393216.size a ≤ S2x1x393216.size a
  h_S2x1x393216 : 0 < S2x1x393216.numel
  shapeCasts_S2x1x393216_S2x1x393216 : S2x1x393216.ShapeCasts S2x1x393216
  inb_S2x1x1_S2x1x1_0_0_0 : ∀ a, (![0, 0, 0] : Fin 3 → Nat) a + S2x1x1.size a ≤ S2x1x1.size a
  h_S2x1x1 : 0 < S2x1x1.numel
  shapeCasts_S2x1x1_S2x1x1 : S2x1x1.ShapeCasts S2x1x1
  inb_S2x1x5_S2x1x1_0_0_0 : ∀ a, (![0, 0, 0] : Fin 3 → Nat) a + S2x1x1.size a ≤ S2x1x5.size a
  inb_S2x1x5_S2x1x1_0_0_1 : ∀ a, (![0, 0, 1] : Fin 3 → Nat) a + S2x1x1.size a ≤ S2x1x5.size a
  inb_S2x1x5_S2x1x1_0_0_2 : ∀ a, (![0, 0, 2] : Fin 3 → Nat) a + S2x1x1.size a ≤ S2x1x5.size a
  inb_S2x1x5_S2x1x1_0_0_3 : ∀ a, (![0, 0, 3] : Fin 3 → Nat) a + S2x1x1.size a ≤ S2x1x5.size a
  inb_S2x1x5_S2x1x1_0_0_4 : ∀ a, (![0, 0, 4] : Fin 3 → Nat) a + S2x1x1.size a ≤ S2x1x5.size a
  inb_S2x1x14_S2x1x1_0_0_0 : ∀ a, (![0, 0, 0] : Fin 3 → Nat) a + S2x1x1.size a ≤ S2x1x14.size a
  reduces_S2x1x393216_S2x1 : S2x1x393216.Reduces [2] S2x1
  shapeCasts_S2x1_S2x1x1 : S2x1.ShapeCasts S2x1x1
  broadcasts_S2x1x1_S2x1x393216 : S2x1x1.Broadcasts S2x1x393216
  inb_S2x1x14_S2x1x1_0_0_1 : ∀ a, (![0, 0, 1] : Fin 3 → Nat) a + S2x1x1.size a ≤ S2x1x14.size a
  inb_S2x1x14_S2x1x1_0_0_2 : ∀ a, (![0, 0, 2] : Fin 3 → Nat) a + S2x1x1.size a ≤ S2x1x14.size a
  inb_S2x1x14_S2x1x1_0_0_3 : ∀ a, (![0, 0, 3] : Fin 3 → Nat) a + S2x1x1.size a ≤ S2x1x14.size a
  inb_S2x1x14_S2x1x1_0_0_4 : ∀ a, (![0, 0, 4] : Fin 3 → Nat) a + S2x1x1.size a ≤ S2x1x14.size a
  inb_S2x1x14_S2x1x1_0_0_5 : ∀ a, (![0, 0, 5] : Fin 3 → Nat) a + S2x1x1.size a ≤ S2x1x14.size a
  inb_S2x1x14_S2x1x1_0_0_6 : ∀ a, (![0, 0, 6] : Fin 3 → Nat) a + S2x1x1.size a ≤ S2x1x14.size a
  inb_S2x1x14_S2x1x1_0_0_7 : ∀ a, (![0, 0, 7] : Fin 3 → Nat) a + S2x1x1.size a ≤ S2x1x14.size a
  inb_S2x1x14_S2x1x1_0_0_8 : ∀ a, (![0, 0, 8] : Fin 3 → Nat) a + S2x1x1.size a ≤ S2x1x14.size a
  inb_S2x1x14_S2x1x1_0_0_9 : ∀ a, (![0, 0, 9] : Fin 3 → Nat) a + S2x1x1.size a ≤ S2x1x14.size a
  inb_S2x1x14_S2x1x1_0_0_10 : ∀ a, (![0, 0, 10] : Fin 3 → Nat) a + S2x1x1.size a ≤ S2x1x14.size a
  inb_S2x1x14_S2x1x1_0_0_11 : ∀ a, (![0, 0, 11] : Fin 3 → Nat) a + S2x1x1.size a ≤ S2x1x14.size a
  inb_S2x1x14_S2x1x1_0_0_12 : ∀ a, (![0, 0, 12] : Fin 3 → Nat) a + S2x1x1.size a ≤ S2x1x14.size a
  inb_S2x1x14_S2x1x1_0_0_13 : ∀ a, (![0, 0, 13] : Fin 3 → Nat) a + S2x1x1.size a ≤ S2x1x14.size a
  concatenates_S2x1x1_S2x1x1_S2x1x1_S2x1x1_S2x1x1_S2x1x5_d2 : Shape.Concatenates [S2x1x1, S2x1x1, S2x1x1, S2x1x1, S2x1x1] S2x1x5 2
  inb_S2x1x5_S2x1x5_0_0_0 : ∀ a, (![0, 0, 0] : Fin 3 → Nat) a + S2x1x5.size a ≤ S2x1x5.size a
  h_S2x1x5 : 0 < S2x1x5.numel
  shapeCasts_S32x1x393216_S32x131072x3 : S32x1x393216.ShapeCasts S32x131072x3
  shapeCasts_S32x1x5_S32x5 : S32x1x5.ShapeCasts S32x5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x393216.size a ≤ S32x1x393216.size a
  hwx0_0 : ∀ i : grid0.Coords, EltTy.bits .f32 = 32 ∨ (Rect.block (s := S32x1x393216) S2x1x393216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x393216.size a ≤ S32x1x393216.size a
  hwx0_1 : ∀ i : grid0.Coords, EltTy.bits .f32 = 32 ∨ (Rect.block (s := S32x1x393216) S2x1x393216.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x5.size a ≤ S32x1x5.size a
  hwx0_2 : ∀ i : grid0.Coords, EltTy.bits .f32 = 32 ∨ (Rect.block (s := S32x1x5) S2x1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x5.size a ≤ S32x1x5.size a
  hwx0_3 : ∀ i : grid0.Coords, EltTy.bits .f32 = 32 ∨ (Rect.block (s := S32x1x5) S2x1x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x5.size a ≤ S32x1x5.size a
  hwx0_4 : ∀ i : grid0.Coords, EltTy.bits .f32 = 32 ∨ (Rect.block (s := S32x1x5) S2x1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x1.size a ≤ S32x1x1.size a
  hwx0_5 : ∀ i : grid0.Coords, EltTy.bits .f32 = 32 ∨ (Rect.block (s := S32x1x1) S2x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x14.size a ≤ S32x1x14.size a
  hwx0_6 : ∀ i : grid0.Coords, EltTy.bits .f32 = 32 ∨ (Rect.block (s := S32x1x14) S2x1x14.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1x393216.size a ≤ S32x1x393216.size a
  hwx0_7 : ∀ i : grid0.Coords, EltTy.bits .f32 = 32 ∨ (Rect.block (s := S32x1x393216) S2x1x393216.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x5.size a ≤ S32x1x5.size a
  hwx0_8 : ∀ i : grid0.Coords, EltTy.bits .f32 = 32 ∨ (Rect.block (s := S32x1x5) S2x1x5.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x5.size a ≤ S32x1x5.size a
  hwx0_9 : ∀ i : grid0.Coords, EltTy.bits .f32 = 32 ∨ (Rect.block (s := S32x1x5) S2x1x5.size (cc0_transform_9 i) (hinb0_9 i)).WholeWords (EltTy.packing .f32)

variable [Facts₀]

abbrev win0_0 : Pipeline.Window sig grid0 :=
  Pipeline.Window.ofSpec (Memref.whole main_v71) S2x1x393216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S2x1x393216.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S2x1x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v76) S2x1x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v77) S2x1x5.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v78) S2x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v79) S2x1x14.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v80_0) S2x1x393216.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v80_1) S2x1x5.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v80_2) S2x1x5.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where
  halias0_7 : Pipeline.Aliased win0 0 7
  halias0_8 : Pipeline.Aliased win0 3 8
  halias0_9 : Pipeline.Aliased win0 2 9

variable [Facts]
-- ==== ReferenceIdeal.lean ====
abbrev S32x131072x3 : Shape := ⟨3, ![32, 131072, 3]⟩
abbrev S32x131072 : Shape := ⟨2, ![32, 131072]⟩
abbrev S32 : Shape := ⟨1, ![32]⟩
abbrev S32x5 : Shape := ⟨2, ![32, 5]⟩
abbrev S_ : Shape := ⟨0, ![]⟩
abbrev S32x4 : Shape := ⟨2, ![32, 4]⟩
abbrev S32x1 : Shape := ⟨2, ![32, 1]⟩
abbrev S32x131072x1 : Shape := ⟨3, ![32, 131072, 1]⟩
abbrev S1 : Shape := ⟨1, ![1]⟩
abbrev S32x1x1 : Shape := ⟨3, ![32, 1, 1]⟩

abbrev nBuf : Space → Nat
  | .hbm => 3873
  | .vmem => 0
  | .smem => 0
  | _ => 0

abbrev hbmTy0_0 (i : Nat) : BufTy := match i % 128 with
  | 0 => ⟨S32x131072x3, .f32⟩
  | 1 => ⟨S32x131072x3, .f32⟩
  | 2 => ⟨S32x131072, .f32⟩
  | 3 => ⟨S32, .f32⟩
  | 4 => ⟨S32, .f32⟩
  | 5 => ⟨S32x5, .f32⟩
  | 6 => ⟨S32x5, .f32⟩
  | 7 => ⟨S32x5, .f32⟩
  | 8 => ⟨S_, .f32⟩
  | 9 => ⟨S_, .f32⟩
  | 10 => ⟨S_, .f32⟩
  | 11 => ⟨S_, .f32⟩
  | 12 => ⟨S_, .f32⟩
  | 13 => ⟨S32, .f32⟩
  | 14 => ⟨S32, .f32⟩
  | 15 => ⟨S32x5, .f32⟩
  | 16 => ⟨S32x5, .f32⟩
  | 17 => ⟨S32x4, .f32⟩
  | 18 => ⟨S32x1, .f32⟩
  | 19 => ⟨S32x4, .f32⟩
  | 20 => ⟨S32x4, .f32⟩
  | 21 => ⟨S32x131072x3, .f32⟩
  | 22 => ⟨S32x131072x1, .f32⟩
  | 23 => ⟨S32x131072x3, .f32⟩
  | 24 => ⟨S32x131072x3, .f32⟩
  | 25 => ⟨S_, .f32⟩
  | 26 => ⟨S32, .f32⟩
  | 27 => ⟨S_, .f32⟩
  | 28 => ⟨S32, .f32⟩
  | 29 => ⟨S32, .f32⟩
  | 30 => ⟨S32, .f32⟩
  | 31 => ⟨S32x1, .f32⟩
  | 32 => ⟨S32x5, .f32⟩
  | 33 => ⟨S32x1, .f32⟩
  | 34 => ⟨S32, .f32⟩
  | 35 => ⟨S_, .f32⟩
  | 36 => ⟨S32, .f32⟩
  | 37 => ⟨S32, .f32⟩
  | 38 => ⟨S32, .f32⟩
  | 39 => ⟨S_, .i32⟩
  | 40 => ⟨S1, .i32⟩
  | 41 => ⟨S32x5, .f32⟩
  | 42 => ⟨S32x1, .f32⟩
  | 43 => ⟨S32, .f32⟩
  | 44 => ⟨S32, .f32⟩
  | 45 => ⟨S32x1, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S32, .f32⟩
  | 53 => ⟨S32x1, .f32⟩
  | 54 => ⟨S32, .f32⟩
  | 55 => ⟨S32, .f32⟩
  | 56 => ⟨S32x1, .f32⟩
  | 57 => ⟨S32, .f32⟩
  | 58 => ⟨S_, .f32⟩
  | 59 => ⟨S32, .f32⟩
  | 60 => ⟨S32, .f32⟩
  | 61 => ⟨S32, .f32⟩
  | 62 => ⟨S32, .f32⟩
  | 63 => ⟨S32, .f32⟩
  | 64 => ⟨S_, .i32⟩
  | 65 => ⟨S1, .i32⟩
  | 66 => ⟨S32x5, .f32⟩
  | 67 => ⟨S32x1, .f32⟩
  | 68 => ⟨S32, .f32⟩
  | 69 => ⟨S32, .f32⟩
  | 70 => ⟨S32x1, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S32, .f32⟩
  | 78 => ⟨S32x1, .f32⟩
  | 79 => ⟨S32, .f32⟩
  | 80 => ⟨S32, .f32⟩
  | 81 => ⟨S32x1, .f32⟩
  | 82 => ⟨S32, .f32⟩
  | 83 => ⟨S_, .f32⟩
  | 84 => ⟨S32, .f32⟩
  | 85 => ⟨S32, .f32⟩
  | 86 => ⟨S32, .f32⟩
  | 87 => ⟨S32, .f32⟩
  | 88 => ⟨S32, .f32⟩
  | 89 => ⟨S_, .i32⟩
  | 90 => ⟨S1, .i32⟩
  | 91 => ⟨S32x5, .f32⟩
  | 92 => ⟨S32x1, .f32⟩
  | 93 => ⟨S32, .f32⟩
  | 94 => ⟨S32, .f32⟩
  | 95 => ⟨S32x1, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S32, .f32⟩
  | 103 => ⟨S32x1, .f32⟩
  | 104 => ⟨S32, .f32⟩
  | 105 => ⟨S32, .f32⟩
  | 106 => ⟨S32x1, .f32⟩
  | 107 => ⟨S32, .f32⟩
  | 108 => ⟨S_, .f32⟩
  | 109 => ⟨S32, .f32⟩
  | 110 => ⟨S32, .f32⟩
  | 111 => ⟨S32, .f32⟩
  | 112 => ⟨S32, .f32⟩
  | 113 => ⟨S32, .f32⟩
  | 114 => ⟨S_, .i32⟩
  | 115 => ⟨S1, .i32⟩
  | 116 => ⟨S32x5, .f32⟩
  | 117 => ⟨S32x1, .f32⟩
  | 118 => ⟨S32, .f32⟩
  | 119 => ⟨S32, .f32⟩
  | 120 => ⟨S32x1, .f32⟩
  | 121 => ⟨S32, .f32⟩
  | 122 => ⟨S32, .f32⟩
  | 123 => ⟨S_, .f32⟩
  | 124 => ⟨S32, .f32⟩
  | 125 => ⟨S32, .f32⟩
  | 126 => ⟨S32, .f32⟩
  | 127 => ⟨S32, .f32⟩
  | _ => ⟨S32x131072x3, .f32⟩

abbrev hbmTy0_1 (i : Nat) : BufTy := match i % 128 with
  | 0 => ⟨S32x1, .f32⟩
  | 1 => ⟨S32, .f32⟩
  | 2 => ⟨S32, .f32⟩
  | 3 => ⟨S32x1, .f32⟩
  | 4 => ⟨S32, .f32⟩
  | 5 => ⟨S_, .f32⟩
  | 6 => ⟨S32, .f32⟩
  | 7 => ⟨S32, .f32⟩
  | 8 => ⟨S32, .f32⟩
  | 9 => ⟨S32, .f32⟩
  | 10 => ⟨S32, .f32⟩
  | 11 => ⟨S_, .i32⟩
  | 12 => ⟨S1, .i32⟩
  | 13 => ⟨S32x5, .f32⟩
  | 14 => ⟨S32x5, .f32⟩
  | 15 => ⟨S32x1, .f32⟩
  | 16 => ⟨S32x5, .f32⟩
  | 17 => ⟨S32x5, .f32⟩
  | 18 => ⟨S32x5, .f32⟩
  | 19 => ⟨S32x1, .f32⟩
  | 20 => ⟨S32, .f32⟩
  | 21 => ⟨S32, .f32⟩
  | 22 => ⟨S32x1, .f32⟩
  | 23 => ⟨S32, .f32⟩
  | 24 => ⟨S32, .f32⟩
  | 25 => ⟨S32, .f32⟩
  | 26 => ⟨S32, .f32⟩
  | 27 => ⟨S32x1x1, .f32⟩
  | 28 => ⟨S32x131072x3, .f32⟩
  | 29 => ⟨S32x131072x3, .f32⟩
  | 30 => ⟨S32x5, .f32⟩
  | 31 => ⟨S32x5, .f32⟩
  | 32 => ⟨S32x4, .f32⟩
  | 33 => ⟨S32x1, .f32⟩
  | 34 => ⟨S32x4, .f32⟩
  | 35 => ⟨S32x4, .f32⟩
  | 36 => ⟨S32x131072x3, .f32⟩
  | 37 => ⟨S32x131072x1, .f32⟩
  | 38 => ⟨S32x131072x3, .f32⟩
  | 39 => ⟨S32x131072x3, .f32⟩
  | 40 => ⟨S_, .f32⟩
  | 41 => ⟨S32, .f32⟩
  | 42 => ⟨S_, .f32⟩
  | 43 => ⟨S32, .f32⟩
  | 44 => ⟨S32, .f32⟩
  | 45 => ⟨S32, .f32⟩
  | 46 => ⟨S32x1, .f32⟩
  | 47 => ⟨S32x5, .f32⟩
  | 48 => ⟨S32x1, .f32⟩
  | 49 => ⟨S32, .f32⟩
  | 50 => ⟨S32, .f32⟩
  | 51 => ⟨S32x1, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S32, .f32⟩
  | 59 => ⟨S32x1, .f32⟩
  | 60 => ⟨S32, .f32⟩
  | 61 => ⟨S32, .f32⟩
  | 62 => ⟨S32x1, .f32⟩
  | 63 => ⟨S32, .f32⟩
  | 64 => ⟨S_, .f32⟩
  | 65 => ⟨S32, .f32⟩
  | 66 => ⟨S32, .f32⟩
  | 67 => ⟨S32, .f32⟩
  | 68 => ⟨S32, .f32⟩
  | 69 => ⟨S32, .f32⟩
  | 70 => ⟨S_, .i32⟩
  | 71 => ⟨S1, .i32⟩
  | 72 => ⟨S32x5, .f32⟩
  | 73 => ⟨S32x1, .f32⟩
  | 74 => ⟨S32, .f32⟩
  | 75 => ⟨S32, .f32⟩
  | 76 => ⟨S32x1, .f32⟩
  | 77 => ⟨S32, .f32⟩
  | 78 => ⟨S32, .f32⟩
  | 79 => ⟨S_, .f32⟩
  | 80 => ⟨S32, .f32⟩
  | 81 => ⟨S32, .f32⟩
  | 82 => ⟨S32, .f32⟩
  | 83 => ⟨S32, .f32⟩
  | 84 => ⟨S32x1, .f32⟩
  | 85 => ⟨S32, .f32⟩
  | 86 => ⟨S32, .f32⟩
  | 87 => ⟨S32x1, .f32⟩
  | 88 => ⟨S32, .f32⟩
  | 89 => ⟨S_, .f32⟩
  | 90 => ⟨S32, .f32⟩
  | 91 => ⟨S32, .f32⟩
  | 92 => ⟨S32, .f32⟩
  | 93 => ⟨S32, .f32⟩
  | 94 => ⟨S32, .f32⟩
  | 95 => ⟨S_, .i32⟩
  | 96 => ⟨S1, .i32⟩
  | 97 => ⟨S32x5, .f32⟩
  | 98 => ⟨S32x1, .f32⟩
  | 99 => ⟨S32, .f32⟩
  | 100 => ⟨S32, .f32⟩
  | 101 => ⟨S32x1, .f32⟩
  | 102 => ⟨S32, .f32⟩
  | 103 => ⟨S32, .f32⟩
  | 104 => ⟨S_, .f32⟩
  | 105 => ⟨S32, .f32⟩
  | 106 => ⟨S32, .f32⟩
  | 107 => ⟨S32, .f32⟩
  | 108 => ⟨S32, .f32⟩
  | 109 => ⟨S32x1, .f32⟩
  | 110 => ⟨S32, .f32⟩
  | 111 => ⟨S32, .f32⟩
  | 112 => ⟨S32x1, .f32⟩
  | 113 => ⟨S32, .f32⟩
  | 114 => ⟨S_, .f32⟩
  | 115 => ⟨S32, .f32⟩
  | 116 => ⟨S32, .f32⟩
  | 117 => ⟨S32, .f32⟩
  | 118 => ⟨S32, .f32⟩
  | 119 => ⟨S32, .f32⟩
  | 120 => ⟨S_, .i32⟩
  | 121 => ⟨S1, .i32⟩
  | 122 => ⟨S32x5, .f32⟩
  | 123 => ⟨S32x1, .f32⟩
  | 124 => ⟨S32, .f32⟩
  | 125 => ⟨S32, .f32⟩
  | 126 => ⟨S32x1, .f32⟩
  | 127 => ⟨S32, .f32⟩
  | _ => ⟨S32x131072x3, .f32⟩

abbrev hbmTy0_2 (i : Nat) : BufTy := match i % 128 with
  | 0 => ⟨S32, .f32⟩
  | 1 => ⟨S_, .f32⟩
  | 2 => ⟨S32, .f32⟩
  | 3 => ⟨S32, .f32⟩
  | 4 => ⟨S32, .f32⟩
  | 5 => ⟨S32, .f32⟩
  | 6 => ⟨S32x1, .f32⟩
  | 7 => ⟨S32, .f32⟩
  | 8 => ⟨S32, .f32⟩
  | 9 => ⟨S32x1, .f32⟩
  | 10 => ⟨S32, .f32⟩
  | 11 => ⟨S_, .f32⟩
  | 12 => ⟨S32, .f32⟩
  | 13 => ⟨S32, .f32⟩
  | 14 => ⟨S32, .f32⟩
  | 15 => ⟨S32, .f32⟩
  | 16 => ⟨S32, .f32⟩
  | 17 => ⟨S_, .i32⟩
  | 18 => ⟨S1, .i32⟩
  | 19 => ⟨S32x5, .f32⟩
  | 20 => ⟨S32x1, .f32⟩
  | 21 => ⟨S32, .f32⟩
  | 22 => ⟨S_, .f32⟩
  | 23 => ⟨S32, .f32⟩
  | 24 => ⟨S32, .f32⟩
  | 25 => ⟨S32, .f32⟩
  | 26 => ⟨S_, .i32⟩
  | 27 => ⟨S1, .i32⟩
  | 28 => ⟨S32x5, .f32⟩
  | 29 => ⟨S_, .f32⟩
  | 30 => ⟨S_, .f32⟩
  | 31 => ⟨S_, .f32⟩
  | 32 => ⟨S_, .f32⟩
  | 33 => ⟨S32, .f32⟩
  | 34 => ⟨S32, .f32⟩
  | 35 => ⟨S32x5, .f32⟩
  | 36 => ⟨S32x5, .f32⟩
  | 37 => ⟨S32x4, .f32⟩
  | 38 => ⟨S32x1, .f32⟩
  | 39 => ⟨S32x4, .f32⟩
  | 40 => ⟨S32x4, .f32⟩
  | 41 => ⟨S32x131072x3, .f32⟩
  | 42 => ⟨S32x131072x1, .f32⟩
  | 43 => ⟨S32x131072x3, .f32⟩
  | 44 => ⟨S32x131072x3, .f32⟩
  | 45 => ⟨S_, .f32⟩
  | 46 => ⟨S32, .f32⟩
  | 47 => ⟨S_, .f32⟩
  | 48 => ⟨S32, .f32⟩
  | 49 => ⟨S32, .f32⟩
  | 50 => ⟨S32, .f32⟩
  | 51 => ⟨S32x1, .f32⟩
  | 52 => ⟨S32x5, .f32⟩
  | 53 => ⟨S32x1, .f32⟩
  | 54 => ⟨S32, .f32⟩
  | 55 => ⟨S_, .f32⟩
  | 56 => ⟨S32, .f32⟩
  | 57 => ⟨S32, .f32⟩
  | 58 => ⟨S32, .f32⟩
  | 59 => ⟨S_, .i32⟩
  | 60 => ⟨S1, .i32⟩
  | 61 => ⟨S32x5, .f32⟩
  | 62 => ⟨S32x1, .f32⟩
  | 63 => ⟨S32, .f32⟩
  | 64 => ⟨S32, .f32⟩
  | 65 => ⟨S32x1, .f32⟩
  | 66 => ⟨S32, .f32⟩
  | 67 => ⟨S32, .f32⟩
  | 68 => ⟨S_, .f32⟩
  | 69 => ⟨S32, .f32⟩
  | 70 => ⟨S32, .f32⟩
  | 71 => ⟨S32, .f32⟩
  | 72 => ⟨S32, .f32⟩
  | 73 => ⟨S32x1, .f32⟩
  | 74 => ⟨S32, .f32⟩
  | 75 => ⟨S32, .f32⟩
  | 76 => ⟨S32x1, .f32⟩
  | 77 => ⟨S32, .f32⟩
  | 78 => ⟨S_, .f32⟩
  | 79 => ⟨S32, .f32⟩
  | 80 => ⟨S32, .f32⟩
  | 81 => ⟨S32, .f32⟩
  | 82 => ⟨S32, .f32⟩
  | 83 => ⟨S32, .f32⟩
  | 84 => ⟨S_, .i32⟩
  | 85 => ⟨S1, .i32⟩
  | 86 => ⟨S32x5, .f32⟩
  | 87 => ⟨S32x1, .f32⟩
  | 88 => ⟨S32, .f32⟩
  | 89 => ⟨S32, .f32⟩
  | 90 => ⟨S32x1, .f32⟩
  | 91 => ⟨S32, .f32⟩
  | 92 => ⟨S32, .f32⟩
  | 93 => ⟨S_, .f32⟩
  | 94 => ⟨S32, .f32⟩
  | 95 => ⟨S32, .f32⟩
  | 96 => ⟨S32, .f32⟩
  | 97 => ⟨S32, .f32⟩
  | 98 => ⟨S32x1, .f32⟩
  | 99 => ⟨S32, .f32⟩
  | 100 => ⟨S32, .f32⟩
  | 101 => ⟨S32x1, .f32⟩
  | 102 => ⟨S32, .f32⟩
  | 103 => ⟨S_, .f32⟩
  | 104 => ⟨S32, .f32⟩
  | 105 => ⟨S32, .f32⟩
  | 106 => ⟨S32, .f32⟩
  | 107 => ⟨S32, .f32⟩
  | 108 => ⟨S32, .f32⟩
  | 109 => ⟨S_, .i32⟩
  | 110 => ⟨S1, .i32⟩
  | 111 => ⟨S32x5, .f32⟩
  | 112 => ⟨S32x1, .f32⟩
  | 113 => ⟨S32, .f32⟩
  | 114 => ⟨S32, .f32⟩
  | 115 => ⟨S32x1, .f32⟩
  | 116 => ⟨S32, .f32⟩
  | 117 => ⟨S32, .f32⟩
  | 118 => ⟨S_, .f32⟩
  | 119 => ⟨S32, .f32⟩
  | 120 => ⟨S32, .f32⟩
  | 121 => ⟨S32, .f32⟩
  | 122 => ⟨S32, .f32⟩
  | 123 => ⟨S32x1, .f32⟩
  | 124 => ⟨S32, .f32⟩
  | 125 => ⟨S32, .f32⟩
  | 126 => ⟨S32x1, .f32⟩
  | 127 => ⟨S32, .f32⟩
  | _ => ⟨S32x131072x3, .f32⟩

abbrev hbmTy0_3 (i : Nat) : BufTy := match i % 128 with
  | 0 => ⟨S_, .f32⟩
  | 1 => ⟨S32, .f32⟩
  | 2 => ⟨S32, .f32⟩
  | 3 => ⟨S32, .f32⟩
  | 4 => ⟨S32, .f32⟩
  | 5 => ⟨S32, .f32⟩
  | 6 => ⟨S_, .i32⟩
  | 7 => ⟨S1, .i32⟩
  | 8 => ⟨S32x5, .f32⟩
  | 9 => ⟨S32x1, .f32⟩
  | 10 => ⟨S32, .f32⟩
  | 11 => ⟨S32, .f32⟩
  | 12 => ⟨S32x1, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S32, .f32⟩
  | 20 => ⟨S32x1, .f32⟩
  | 21 => ⟨S32, .f32⟩
  | 22 => ⟨S32, .f32⟩
  | 23 => ⟨S32x1, .f32⟩
  | 24 => ⟨S32, .f32⟩
  | 25 => ⟨S_, .f32⟩
  | 26 => ⟨S32, .f32⟩
  | 27 => ⟨S32, .f32⟩
  | 28 => ⟨S32, .f32⟩
  | 29 => ⟨S32, .f32⟩
  | 30 => ⟨S32, .f32⟩
  | 31 => ⟨S_, .i32⟩
  | 32 => ⟨S1, .i32⟩
  | 33 => ⟨S32x5, .f32⟩
  | 34 => ⟨S32x5, .f32⟩
  | 35 => ⟨S32x1, .f32⟩
  | 36 => ⟨S32x5, .f32⟩
  | 37 => ⟨S32x5, .f32⟩
  | 38 => ⟨S32x5, .f32⟩
  | 39 => ⟨S32x1, .f32⟩
  | 40 => ⟨S32, .f32⟩
  | 41 => ⟨S32, .f32⟩
  | 42 => ⟨S32x1, .f32⟩
  | 43 => ⟨S32, .f32⟩
  | 44 => ⟨S32, .f32⟩
  | 45 => ⟨S32, .f32⟩
  | 46 => ⟨S32, .f32⟩
  | 47 => ⟨S32x1x1, .f32⟩
  | 48 => ⟨S32x131072x3, .f32⟩
  | 49 => ⟨S32x131072x3, .f32⟩
  | 50 => ⟨S32x5, .f32⟩
  | 51 => ⟨S32x5, .f32⟩
  | 52 => ⟨S32x4, .f32⟩
  | 53 => ⟨S32x1, .f32⟩
  | 54 => ⟨S32x4, .f32⟩
  | 55 => ⟨S32x4, .f32⟩
  | 56 => ⟨S32x131072x3, .f32⟩
  | 57 => ⟨S32x131072x1, .f32⟩
  | 58 => ⟨S32x131072x3, .f32⟩
  | 59 => ⟨S32x131072x3, .f32⟩
  | 60 => ⟨S_, .f32⟩
  | 61 => ⟨S32, .f32⟩
  | 62 => ⟨S_, .f32⟩
  | 63 => ⟨S32, .f32⟩
  | 64 => ⟨S32, .f32⟩
  | 65 => ⟨S32, .f32⟩
  | 66 => ⟨S32x1, .f32⟩
  | 67 => ⟨S32x5, .f32⟩
  | 68 => ⟨S32x1, .f32⟩
  | 69 => ⟨S32, .f32⟩
  | 70 => ⟨S32, .f32⟩
  | 71 => ⟨S32x1, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S32, .f32⟩
  | 79 => ⟨S32x1, .f32⟩
  | 80 => ⟨S32, .f32⟩
  | 81 => ⟨S32, .f32⟩
  | 82 => ⟨S32x1, .f32⟩
  | 83 => ⟨S32, .f32⟩
  | 84 => ⟨S_, .f32⟩
  | 85 => ⟨S32, .f32⟩
  | 86 => ⟨S32, .f32⟩
  | 87 => ⟨S32, .f32⟩
  | 88 => ⟨S32, .f32⟩
  | 89 => ⟨S32, .f32⟩
  | 90 => ⟨S_, .i32⟩
  | 91 => ⟨S1, .i32⟩
  | 92 => ⟨S32x5, .f32⟩
  | 93 => ⟨S32x1, .f32⟩
  | 94 => ⟨S32, .f32⟩
  | 95 => ⟨S32, .f32⟩
  | 96 => ⟨S32x1, .f32⟩
  | 97 => ⟨S32, .f32⟩
  | 98 => ⟨S32, .f32⟩
  | 99 => ⟨S_, .f32⟩
  | 100 => ⟨S32, .f32⟩
  | 101 => ⟨S32, .f32⟩
  | 102 => ⟨S32, .f32⟩
  | 103 => ⟨S32, .f32⟩
  | 104 => ⟨S32x1, .f32⟩
  | 105 => ⟨S32, .f32⟩
  | 106 => ⟨S32, .f32⟩
  | 107 => ⟨S32x1, .f32⟩
  | 108 => ⟨S32, .f32⟩
  | 109 => ⟨S_, .f32⟩
  | 110 => ⟨S32, .f32⟩
  | 111 => ⟨S32, .f32⟩
  | 112 => ⟨S32, .f32⟩
  | 113 => ⟨S32, .f32⟩
  | 114 => ⟨S32, .f32⟩
  | 115 => ⟨S_, .i32⟩
  | 116 => ⟨S1, .i32⟩
  | 117 => ⟨S32x5, .f32⟩
  | 118 => ⟨S32x1, .f32⟩
  | 119 => ⟨S32, .f32⟩
  | 120 => ⟨S32, .f32⟩
  | 121 => ⟨S32x1, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S32x131072x3, .f32⟩

abbrev hbmTy0_4 (i : Nat) : BufTy := match i % 128 with
  | 0 => ⟨S32, .f32⟩
  | 1 => ⟨S32x1, .f32⟩
  | 2 => ⟨S32, .f32⟩
  | 3 => ⟨S32, .f32⟩
  | 4 => ⟨S32x1, .f32⟩
  | 5 => ⟨S32, .f32⟩
  | 6 => ⟨S_, .f32⟩
  | 7 => ⟨S32, .f32⟩
  | 8 => ⟨S32, .f32⟩
  | 9 => ⟨S32, .f32⟩
  | 10 => ⟨S32, .f32⟩
  | 11 => ⟨S32, .f32⟩
  | 12 => ⟨S_, .i32⟩
  | 13 => ⟨S1, .i32⟩
  | 14 => ⟨S32x5, .f32⟩
  | 15 => ⟨S32x1, .f32⟩
  | 16 => ⟨S32, .f32⟩
  | 17 => ⟨S32, .f32⟩
  | 18 => ⟨S32x1, .f32⟩
  | 19 => ⟨S32, .f32⟩
  | 20 => ⟨S32, .f32⟩
  | 21 => ⟨S_, .f32⟩
  | 22 => ⟨S32, .f32⟩
  | 23 => ⟨S32, .f32⟩
  | 24 => ⟨S32, .f32⟩
  | 25 => ⟨S32, .f32⟩
  | 26 => ⟨S32x1, .f32⟩
  | 27 => ⟨S32, .f32⟩
  | 28 => ⟨S32, .f32⟩
  | 29 => ⟨S32x1, .f32⟩
  | 30 => ⟨S32, .f32⟩
  | 31 => ⟨S_, .f32⟩
  | 32 => ⟨S32, .f32⟩
  | 33 => ⟨S32, .f32⟩
  | 34 => ⟨S32, .f32⟩
  | 35 => ⟨S32, .f32⟩
  | 36 => ⟨S32, .f32⟩
  | 37 => ⟨S_, .i32⟩
  | 38 => ⟨S1, .i32⟩
  | 39 => ⟨S32x5, .f32⟩
  | 40 => ⟨S32x1, .f32⟩
  | 41 => ⟨S32, .f32⟩
  | 42 => ⟨S_, .f32⟩
  | 43 => ⟨S32, .f32⟩
  | 44 => ⟨S32, .f32⟩
  | 45 => ⟨S32, .f32⟩
  | 46 => ⟨S_, .i32⟩
  | 47 => ⟨S1, .i32⟩
  | 48 => ⟨S32x5, .f32⟩
  | 49 => ⟨S_, .f32⟩
  | 50 => ⟨S_, .f32⟩
  | 51 => ⟨S_, .f32⟩
  | 52 => ⟨S_, .f32⟩
  | 53 => ⟨S32, .f32⟩
  | 54 => ⟨S32, .f32⟩
  | 55 => ⟨S32x5, .f32⟩
  | 56 => ⟨S32x5, .f32⟩
  | 57 => ⟨S32x4, .f32⟩
  | 58 => ⟨S32x1, .f32⟩
  | 59 => ⟨S32x4, .f32⟩
  | 60 => ⟨S32x4, .f32⟩
  | 61 => ⟨S32x131072x3, .f32⟩
  | 62 => ⟨S32x131072x1, .f32⟩
  | 63 => ⟨S32x131072x3, .f32⟩
  | 64 => ⟨S32x131072x3, .f32⟩
  | 65 => ⟨S_, .f32⟩
  | 66 => ⟨S32, .f32⟩
  | 67 => ⟨S_, .f32⟩
  | 68 => ⟨S32, .f32⟩
  | 69 => ⟨S32, .f32⟩
  | 70 => ⟨S32, .f32⟩
  | 71 => ⟨S32x1, .f32⟩
  | 72 => ⟨S32x5, .f32⟩
  | 73 => ⟨S32x1, .f32⟩
  | 74 => ⟨S32, .f32⟩
  | 75 => ⟨S_, .f32⟩
  | 76 => ⟨S32, .f32⟩
  | 77 => ⟨S32, .f32⟩
  | 78 => ⟨S32, .f32⟩
  | 79 => ⟨S_, .i32⟩
  | 80 => ⟨S1, .i32⟩
  | 81 => ⟨S32x5, .f32⟩
  | 82 => ⟨S32x1, .f32⟩
  | 83 => ⟨S32, .f32⟩
  | 84 => ⟨S32, .f32⟩
  | 85 => ⟨S32x1, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S32, .f32⟩
  | 93 => ⟨S32x1, .f32⟩
  | 94 => ⟨S32, .f32⟩
  | 95 => ⟨S32, .f32⟩
  | 96 => ⟨S32x1, .f32⟩
  | 97 => ⟨S32, .f32⟩
  | 98 => ⟨S_, .f32⟩
  | 99 => ⟨S32, .f32⟩
  | 100 => ⟨S32, .f32⟩
  | 101 => ⟨S32, .f32⟩
  | 102 => ⟨S32, .f32⟩
  | 103 => ⟨S32, .f32⟩
  | 104 => ⟨S_, .i32⟩
  | 105 => ⟨S1, .i32⟩
  | 106 => ⟨S32x5, .f32⟩
  | 107 => ⟨S32x1, .f32⟩
  | 108 => ⟨S32, .f32⟩
  | 109 => ⟨S32, .f32⟩
  | 110 => ⟨S32x1, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S32, .f32⟩
  | 118 => ⟨S32x1, .f32⟩
  | 119 => ⟨S32, .f32⟩
  | 120 => ⟨S32, .f32⟩
  | 121 => ⟨S32x1, .f32⟩
  | 122 => ⟨S32, .f32⟩
  | 123 => ⟨S_, .f32⟩
  | 124 => ⟨S32, .f32⟩
  | 125 => ⟨S32, .f32⟩
  | 126 => ⟨S32, .f32⟩
  | 127 => ⟨S32, .f32⟩
  | _ => ⟨S32x131072x3, .f32⟩

abbrev hbmTy0_5 (i : Nat) : BufTy := match i % 128 with
  | 0 => ⟨S32, .f32⟩
  | 1 => ⟨S_, .i32⟩
  | 2 => ⟨S1, .i32⟩
  | 3 => ⟨S32x5, .f32⟩
  | 4 => ⟨S32x1, .f32⟩
  | 5 => ⟨S32, .f32⟩
  | 6 => ⟨S32, .f32⟩
  | 7 => ⟨S32x1, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S32, .f32⟩
  | 15 => ⟨S32x1, .f32⟩
  | 16 => ⟨S32, .f32⟩
  | 17 => ⟨S32, .f32⟩
  | 18 => ⟨S32x1, .f32⟩
  | 19 => ⟨S32, .f32⟩
  | 20 => ⟨S_, .f32⟩
  | 21 => ⟨S32, .f32⟩
  | 22 => ⟨S32, .f32⟩
  | 23 => ⟨S32, .f32⟩
  | 24 => ⟨S32, .f32⟩
  | 25 => ⟨S32, .f32⟩
  | 26 => ⟨S_, .i32⟩
  | 27 => ⟨S1, .i32⟩
  | 28 => ⟨S32x5, .f32⟩
  | 29 => ⟨S32x1, .f32⟩
  | 30 => ⟨S32, .f32⟩
  | 31 => ⟨S32, .f32⟩
  | 32 => ⟨S32x1, .f32⟩
  | 33 => ⟨S32, .f32⟩
  | 34 => ⟨S32, .f32⟩
  | 35 => ⟨S_, .f32⟩
  | 36 => ⟨S32, .f32⟩
  | 37 => ⟨S32, .f32⟩
  | 38 => ⟨S32, .f32⟩
  | 39 => ⟨S32, .f32⟩
  | 40 => ⟨S32x1, .f32⟩
  | 41 => ⟨S32, .f32⟩
  | 42 => ⟨S32, .f32⟩
  | 43 => ⟨S32x1, .f32⟩
  | 44 => ⟨S32, .f32⟩
  | 45 => ⟨S_, .f32⟩
  | 46 => ⟨S32, .f32⟩
  | 47 => ⟨S32, .f32⟩
  | 48 => ⟨S32, .f32⟩
  | 49 => ⟨S32, .f32⟩
  | 50 => ⟨S32, .f32⟩
  | 51 => ⟨S_, .i32⟩
  | 52 => ⟨S1, .i32⟩
  | 53 => ⟨S32x5, .f32⟩
  | 54 => ⟨S32x5, .f32⟩
  | 55 => ⟨S32x1, .f32⟩
  | 56 => ⟨S32x5, .f32⟩
  | 57 => ⟨S32x5, .f32⟩
  | 58 => ⟨S32x5, .f32⟩
  | 59 => ⟨S32x1, .f32⟩
  | 60 => ⟨S32, .f32⟩
  | 61 => ⟨S32, .f32⟩
  | 62 => ⟨S32x1, .f32⟩
  | 63 => ⟨S32, .f32⟩
  | 64 => ⟨S32, .f32⟩
  | 65 => ⟨S32, .f32⟩
  | 66 => ⟨S32, .f32⟩
  | 67 => ⟨S32x1x1, .f32⟩
  | 68 => ⟨S32x131072x3, .f32⟩
  | 69 => ⟨S32x131072x3, .f32⟩
  | 70 => ⟨S32x5, .f32⟩
  | 71 => ⟨S32x5, .f32⟩
  | 72 => ⟨S32x4, .f32⟩
  | 73 => ⟨S32x1, .f32⟩
  | 74 => ⟨S32x4, .f32⟩
  | 75 => ⟨S32x4, .f32⟩
  | 76 => ⟨S32x131072x3, .f32⟩
  | 77 => ⟨S32x131072x1, .f32⟩
  | 78 => ⟨S32x131072x3, .f32⟩
  | 79 => ⟨S32x131072x3, .f32⟩
  | 80 => ⟨S_, .f32⟩
  | 81 => ⟨S32, .f32⟩
  | 82 => ⟨S_, .f32⟩
  | 83 => ⟨S32, .f32⟩
  | 84 => ⟨S32, .f32⟩
  | 85 => ⟨S32, .f32⟩
  | 86 => ⟨S32x1, .f32⟩
  | 87 => ⟨S32x5, .f32⟩
  | 88 => ⟨S32x1, .f32⟩
  | 89 => ⟨S32, .f32⟩
  | 90 => ⟨S32, .f32⟩
  | 91 => ⟨S32x1, .f32⟩
  | 92 => ⟨S32, .f32⟩
  | 93 => ⟨S32, .f32⟩
  | 94 => ⟨S_, .f32⟩
  | 95 => ⟨S32, .f32⟩
  | 96 => ⟨S32, .f32⟩
  | 97 => ⟨S32, .f32⟩
  | 98 => ⟨S32, .f32⟩
  | 99 => ⟨S32x1, .f32⟩
  | 100 => ⟨S32, .f32⟩
  | 101 => ⟨S32, .f32⟩
  | 102 => ⟨S32x1, .f32⟩
  | 103 => ⟨S32, .f32⟩
  | 104 => ⟨S_, .f32⟩
  | 105 => ⟨S32, .f32⟩
  | 106 => ⟨S32, .f32⟩
  | 107 => ⟨S32, .f32⟩
  | 108 => ⟨S32, .f32⟩
  | 109 => ⟨S32, .f32⟩
  | 110 => ⟨S_, .i32⟩
  | 111 => ⟨S1, .i32⟩
  | 112 => ⟨S32x5, .f32⟩
  | 113 => ⟨S32x1, .f32⟩
  | 114 => ⟨S32, .f32⟩
  | 115 => ⟨S32, .f32⟩
  | 116 => ⟨S32x1, .f32⟩
  | 117 => ⟨S32, .f32⟩
  | 118 => ⟨S32, .f32⟩
  | 119 => ⟨S_, .f32⟩
  | 120 => ⟨S32, .f32⟩
  | 121 => ⟨S32, .f32⟩
  | 122 => ⟨S32, .f32⟩
  | 123 => ⟨S32, .f32⟩
  | 124 => ⟨S32x1, .f32⟩
  | 125 => ⟨S32, .f32⟩
  | 126 => ⟨S32, .f32⟩
  | 127 => ⟨S32x1, .f32⟩
  | _ => ⟨S32x131072x3, .f32⟩

abbrev hbmTy0_6 (i : Nat) : BufTy := match i % 128 with
  | 0 => ⟨S32, .f32⟩
  | 1 => ⟨S_, .f32⟩
  | 2 => ⟨S32, .f32⟩
  | 3 => ⟨S32, .f32⟩
  | 4 => ⟨S32, .f32⟩
  | 5 => ⟨S32, .f32⟩
  | 6 => ⟨S32, .f32⟩
  | 7 => ⟨S_, .i32⟩
  | 8 => ⟨S1, .i32⟩
  | 9 => ⟨S32x5, .f32⟩
  | 10 => ⟨S32x1, .f32⟩
  | 11 => ⟨S32, .f32⟩
  | 12 => ⟨S32, .f32⟩
  | 13 => ⟨S32x1, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S32, .f32⟩
  | 21 => ⟨S32x1, .f32⟩
  | 22 => ⟨S32, .f32⟩
  | 23 => ⟨S32, .f32⟩
  | 24 => ⟨S32x1, .f32⟩
  | 25 => ⟨S32, .f32⟩
  | 26 => ⟨S_, .f32⟩
  | 27 => ⟨S32, .f32⟩
  | 28 => ⟨S32, .f32⟩
  | 29 => ⟨S32, .f32⟩
  | 30 => ⟨S32, .f32⟩
  | 31 => ⟨S32, .f32⟩
  | 32 => ⟨S_, .i32⟩
  | 33 => ⟨S1, .i32⟩
  | 34 => ⟨S32x5, .f32⟩
  | 35 => ⟨S32x1, .f32⟩
  | 36 => ⟨S32, .f32⟩
  | 37 => ⟨S32, .f32⟩
  | 38 => ⟨S32x1, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S32, .f32⟩
  | 46 => ⟨S32x1, .f32⟩
  | 47 => ⟨S32, .f32⟩
  | 48 => ⟨S32, .f32⟩
  | 49 => ⟨S32x1, .f32⟩
  | 50 => ⟨S32, .f32⟩
  | 51 => ⟨S_, .f32⟩
  | 52 => ⟨S32, .f32⟩
  | 53 => ⟨S32, .f32⟩
  | 54 => ⟨S32, .f32⟩
  | 55 => ⟨S32, .f32⟩
  | 56 => ⟨S32, .f32⟩
  | 57 => ⟨S_, .i32⟩
  | 58 => ⟨S1, .i32⟩
  | 59 => ⟨S32x5, .f32⟩
  | 60 => ⟨S32x1, .f32⟩
  | 61 => ⟨S32, .f32⟩
  | 62 => ⟨S_, .f32⟩
  | 63 => ⟨S32, .f32⟩
  | 64 => ⟨S32, .f32⟩
  | 65 => ⟨S32, .f32⟩
  | 66 => ⟨S_, .i32⟩
  | 67 => ⟨S1, .i32⟩
  | 68 => ⟨S32x5, .f32⟩
  | 69 => ⟨S_, .f32⟩
  | 70 => ⟨S_, .f32⟩
  | 71 => ⟨S_, .f32⟩
  | 72 => ⟨S_, .f32⟩
  | 73 => ⟨S32, .f32⟩
  | 74 => ⟨S32, .f32⟩
  | 75 => ⟨S32x5, .f32⟩
  | 76 => ⟨S32x5, .f32⟩
  | 77 => ⟨S32x4, .f32⟩
  | 78 => ⟨S32x1, .f32⟩
  | 79 => ⟨S32x4, .f32⟩
  | 80 => ⟨S32x4, .f32⟩
  | 81 => ⟨S32x131072x3, .f32⟩
  | 82 => ⟨S32x131072x1, .f32⟩
  | 83 => ⟨S32x131072x3, .f32⟩
  | 84 => ⟨S32x131072x3, .f32⟩
  | 85 => ⟨S_, .f32⟩
  | 86 => ⟨S32, .f32⟩
  | 87 => ⟨S_, .f32⟩
  | 88 => ⟨S32, .f32⟩
  | 89 => ⟨S32, .f32⟩
  | 90 => ⟨S32, .f32⟩
  | 91 => ⟨S32x1, .f32⟩
  | 92 => ⟨S32x5, .f32⟩
  | 93 => ⟨S32x1, .f32⟩
  | 94 => ⟨S32, .f32⟩
  | 95 => ⟨S_, .f32⟩
  | 96 => ⟨S32, .f32⟩
  | 97 => ⟨S32, .f32⟩
  | 98 => ⟨S32, .f32⟩
  | 99 => ⟨S_, .i32⟩
  | 100 => ⟨S1, .i32⟩
  | 101 => ⟨S32x5, .f32⟩
  | 102 => ⟨S32x1, .f32⟩
  | 103 => ⟨S32, .f32⟩
  | 104 => ⟨S32, .f32⟩
  | 105 => ⟨S32x1, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S32, .f32⟩
  | 113 => ⟨S32x1, .f32⟩
  | 114 => ⟨S32, .f32⟩
  | 115 => ⟨S32, .f32⟩
  | 116 => ⟨S32x1, .f32⟩
  | 117 => ⟨S32, .f32⟩
  | 118 => ⟨S_, .f32⟩
  | 119 => ⟨S32, .f32⟩
  | 120 => ⟨S32, .f32⟩
  | 121 => ⟨S32, .f32⟩
  | 122 => ⟨S32, .f32⟩
  | 123 => ⟨S32, .f32⟩
  | 124 => ⟨S_, .i32⟩
  | 125 => ⟨S1, .i32⟩
  | 126 => ⟨S32x5, .f32⟩
  | 127 => ⟨S32x1, .f32⟩
  | _ => ⟨S32x131072x3, .f32⟩

abbrev hbmTy0_7 (i : Nat) : BufTy := match i % 128 with
  | 0 => ⟨S32, .f32⟩
  | 1 => ⟨S32, .f32⟩
  | 2 => ⟨S32x1, .f32⟩
  | 3 => ⟨S32, .f32⟩
  | 4 => ⟨S32, .f32⟩
  | 5 => ⟨S_, .f32⟩
  | 6 => ⟨S32, .f32⟩
  | 7 => ⟨S32, .f32⟩
  | 8 => ⟨S32, .f32⟩
  | 9 => ⟨S32, .f32⟩
  | 10 => ⟨S32x1, .f32⟩
  | 11 => ⟨S32, .f32⟩
  | 12 => ⟨S32, .f32⟩
  | 13 => ⟨S32x1, .f32⟩
  | 14 => ⟨S32, .f32⟩
  | 15 => ⟨S_, .f32⟩
  | 16 => ⟨S32, .f32⟩
  | 17 => ⟨S32, .f32⟩
  | 18 => ⟨S32, .f32⟩
  | 19 => ⟨S32, .f32⟩
  | 20 => ⟨S32, .f32⟩
  | 21 => ⟨S_, .i32⟩
  | 22 => ⟨S1, .i32⟩
  | 23 => ⟨S32x5, .f32⟩
  | 24 => ⟨S32x1, .f32⟩
  | 25 => ⟨S32, .f32⟩
  | 26 => ⟨S32, .f32⟩
  | 27 => ⟨S32x1, .f32⟩
  | 28 => ⟨S32, .f32⟩
  | 29 => ⟨S32, .f32⟩
  | 30 => ⟨S_, .f32⟩
  | 31 => ⟨S32, .f32⟩
  | 32 => ⟨S32, .f32⟩
  | 33 => ⟨S32, .f32⟩
  | 34 => ⟨S32, .f32⟩
  | 35 => ⟨S32x1, .f32⟩
  | 36 => ⟨S32, .f32⟩
  | 37 => ⟨S32, .f32⟩
  | 38 => ⟨S32x1, .f32⟩
  | 39 => ⟨S32, .f32⟩
  | 40 => ⟨S_, .f32⟩
  | 41 => ⟨S32, .f32⟩
  | 42 => ⟨S32, .f32⟩
  | 43 => ⟨S32, .f32⟩
  | 44 => ⟨S32, .f32⟩
  | 45 => ⟨S32, .f32⟩
  | 46 => ⟨S_, .i32⟩
  | 47 => ⟨S1, .i32⟩
  | 48 => ⟨S32x5, .f32⟩
  | 49 => ⟨S32x1, .f32⟩
  | 50 => ⟨S32, .f32⟩
  | 51 => ⟨S32, .f32⟩
  | 52 => ⟨S32x1, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S32, .f32⟩
  | 60 => ⟨S32x1, .f32⟩
  | 61 => ⟨S32, .f32⟩
  | 62 => ⟨S32, .f32⟩
  | 63 => ⟨S32x1, .f32⟩
  | 64 => ⟨S32, .f32⟩
  | 65 => ⟨S_, .f32⟩
  | 66 => ⟨S32, .f32⟩
  | 67 => ⟨S32, .f32⟩
  | 68 => ⟨S32, .f32⟩
  | 69 => ⟨S32, .f32⟩
  | 70 => ⟨S32, .f32⟩
  | 71 => ⟨S_, .i32⟩
  | 72 => ⟨S1, .i32⟩
  | 73 => ⟨S32x5, .f32⟩
  | 74 => ⟨S32x5, .f32⟩
  | 75 => ⟨S32x1, .f32⟩
  | 76 => ⟨S32x5, .f32⟩
  | 77 => ⟨S32x5, .f32⟩
  | 78 => ⟨S32x5, .f32⟩
  | 79 => ⟨S32x1, .f32⟩
  | 80 => ⟨S32, .f32⟩
  | 81 => ⟨S32, .f32⟩
  | 82 => ⟨S32x1, .f32⟩
  | 83 => ⟨S32, .f32⟩
  | 84 => ⟨S32, .f32⟩
  | 85 => ⟨S32, .f32⟩
  | 86 => ⟨S32, .f32⟩
  | 87 => ⟨S32x1x1, .f32⟩
  | 88 => ⟨S32x131072x3, .f32⟩
  | 89 => ⟨S32x131072x3, .f32⟩
  | 90 => ⟨S32x5, .f32⟩
  | 91 => ⟨S32x5, .f32⟩
  | 92 => ⟨S32x4, .f32⟩
  | 93 => ⟨S32x1, .f32⟩
  | 94 => ⟨S32x4, .f32⟩
  | 95 => ⟨S32x4, .f32⟩
  | 96 => ⟨S32x131072x3, .f32⟩
  | 97 => ⟨S32x131072x1, .f32⟩
  | 98 => ⟨S32x131072x3, .f32⟩
  | 99 => ⟨S32x131072x3, .f32⟩
  | 100 => ⟨S_, .f32⟩
  | 101 => ⟨S32, .f32⟩
  | 102 => ⟨S_, .f32⟩
  | 103 => ⟨S32, .f32⟩
  | 104 => ⟨S32, .f32⟩
  | 105 => ⟨S32, .f32⟩
  | 106 => ⟨S32x1, .f32⟩
  | 107 => ⟨S32x5, .f32⟩
  | 108 => ⟨S32x1, .f32⟩
  | 109 => ⟨S32, .f32⟩
  | 110 => ⟨S32, .f32⟩
  | 111 => ⟨S32x1, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S32, .f32⟩
  | 119 => ⟨S32x1, .f32⟩
  | 120 => ⟨S32, .f32⟩
  | 121 => ⟨S32, .f32⟩
  | 122 => ⟨S32x1, .f32⟩
  | 123 => ⟨S32, .f32⟩
  | 124 => ⟨S_, .f32⟩
  | 125 => ⟨S32, .f32⟩
  | 126 => ⟨S32, .f32⟩
  | 127 => ⟨S32, .f32⟩
  | _ => ⟨S32x131072x3, .f32⟩

abbrev hbmTy0_8 (i : Nat) : BufTy := match i % 128 with
  | 0 => ⟨S32, .f32⟩
  | 1 => ⟨S32, .f32⟩
  | 2 => ⟨S_, .i32⟩
  | 3 => ⟨S1, .i32⟩
  | 4 => ⟨S32x5, .f32⟩
  | 5 => ⟨S32x1, .f32⟩
  | 6 => ⟨S32, .f32⟩
  | 7 => ⟨S32, .f32⟩
  | 8 => ⟨S32x1, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S32, .f32⟩
  | 16 => ⟨S32x1, .f32⟩
  | 17 => ⟨S32, .f32⟩
  | 18 => ⟨S32, .f32⟩
  | 19 => ⟨S32x1, .f32⟩
  | 20 => ⟨S32, .f32⟩
  | 21 => ⟨S_, .f32⟩
  | 22 => ⟨S32, .f32⟩
  | 23 => ⟨S32, .f32⟩
  | 24 => ⟨S32, .f32⟩
  | 25 => ⟨S32, .f32⟩
  | 26 => ⟨S32, .f32⟩
  | 27 => ⟨S_, .i32⟩
  | 28 => ⟨S1, .i32⟩
  | 29 => ⟨S32x5, .f32⟩
  | 30 => ⟨S32x1, .f32⟩
  | 31 => ⟨S32, .f32⟩
  | 32 => ⟨S32, .f32⟩
  | 33 => ⟨S32x1, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S32, .f32⟩
  | 41 => ⟨S32x1, .f32⟩
  | 42 => ⟨S32, .f32⟩
  | 43 => ⟨S32, .f32⟩
  | 44 => ⟨S32x1, .f32⟩
  | 45 => ⟨S32, .f32⟩
  | 46 => ⟨S_, .f32⟩
  | 47 => ⟨S32, .f32⟩
  | 48 => ⟨S32, .f32⟩
  | 49 => ⟨S32, .f32⟩
  | 50 => ⟨S32, .f32⟩
  | 51 => ⟨S32, .f32⟩
  | 52 => ⟨S_, .i32⟩
  | 53 => ⟨S1, .i32⟩
  | 54 => ⟨S32x5, .f32⟩
  | 55 => ⟨S32x1, .f32⟩
  | 56 => ⟨S32, .f32⟩
  | 57 => ⟨S32, .f32⟩
  | 58 => ⟨S32x1, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S32, .f32⟩
  | 66 => ⟨S32x1, .f32⟩
  | 67 => ⟨S32, .f32⟩
  | 68 => ⟨S32, .f32⟩
  | 69 => ⟨S32x1, .f32⟩
  | 70 => ⟨S32, .f32⟩
  | 71 => ⟨S_, .f32⟩
  | 72 => ⟨S32, .f32⟩
  | 73 => ⟨S32, .f32⟩
  | 74 => ⟨S32, .f32⟩
  | 75 => ⟨S32, .f32⟩
  | 76 => ⟨S32, .f32⟩
  | 77 => ⟨S_, .i32⟩
  | 78 => ⟨S1, .i32⟩
  | 79 => ⟨S32x5, .f32⟩
  | 80 => ⟨S32x1, .f32⟩
  | 81 => ⟨S32, .f32⟩
  | 82 => ⟨S_, .f32⟩
  | 83 => ⟨S32, .f32⟩
  | 84 => ⟨S32, .f32⟩
  | 85 => ⟨S32, .f32⟩
  | 86 => ⟨S_, .i32⟩
  | 87 => ⟨S1, .i32⟩
  | 88 => ⟨S32x5, .f32⟩
  | 89 => ⟨S_, .f32⟩
  | 90 => ⟨S_, .f32⟩
  | 91 => ⟨S_, .f32⟩
  | 92 => ⟨S_, .f32⟩
  | 93 => ⟨S32, .f32⟩
  | 94 => ⟨S32, .f32⟩
  | 95 => ⟨S32x5, .f32⟩
  | 96 => ⟨S32x5, .f32⟩
  | 97 => ⟨S32x4, .f32⟩
  | 98 => ⟨S32x1, .f32⟩
  | 99 => ⟨S32x4, .f32⟩
  | 100 => ⟨S32x4, .f32⟩
  | 101 => ⟨S32x131072x3, .f32⟩
  | 102 => ⟨S32x131072x1, .f32⟩
  | 103 => ⟨S32x131072x3, .f32⟩
  | 104 => ⟨S32x131072x3, .f32⟩
  | 105 => ⟨S_, .f32⟩
  | 106 => ⟨S32, .f32⟩
  | 107 => ⟨S_, .f32⟩
  | 108 => ⟨S32, .f32⟩
  | 109 => ⟨S32, .f32⟩
  | 110 => ⟨S32, .f32⟩
  | 111 => ⟨S32x1, .f32⟩
  | 112 => ⟨S32x5, .f32⟩
  | 113 => ⟨S32x1, .f32⟩
  | 114 => ⟨S32, .f32⟩
  | 115 => ⟨S_, .f32⟩
  | 116 => ⟨S32, .f32⟩
  | 117 => ⟨S32, .f32⟩
  | 118 => ⟨S32, .f32⟩
  | 119 => ⟨S_, .i32⟩
  | 120 => ⟨S1, .i32⟩
  | 121 => ⟨S32x5, .f32⟩
  | 122 => ⟨S32x1, .f32⟩
  | 123 => ⟨S32, .f32⟩
  | 124 => ⟨S32, .f32⟩
  | 125 => ⟨S32x1, .f32⟩
  | 126 => ⟨S32, .f32⟩
  | 127 => ⟨S32, .f32⟩
  | _ => ⟨S32x131072x3, .f32⟩

abbrev hbmTy0_9 (i : Nat) : BufTy := match i % 128 with
  | 0 => ⟨S_, .f32⟩
  | 1 => ⟨S32, .f32⟩
  | 2 => ⟨S32, .f32⟩
  | 3 => ⟨S32, .f32⟩
  | 4 => ⟨S32, .f32⟩
  | 5 => ⟨S32x1, .f32⟩
  | 6 => ⟨S32, .f32⟩
  | 7 => ⟨S32, .f32⟩
  | 8 => ⟨S32x1, .f32⟩
  | 9 => ⟨S32, .f32⟩
  | 10 => ⟨S_, .f32⟩
  | 11 => ⟨S32, .f32⟩
  | 12 => ⟨S32, .f32⟩
  | 13 => ⟨S32, .f32⟩
  | 14 => ⟨S32, .f32⟩
  | 15 => ⟨S32, .f32⟩
  | 16 => ⟨S_, .i32⟩
  | 17 => ⟨S1, .i32⟩
  | 18 => ⟨S32x5, .f32⟩
  | 19 => ⟨S32x1, .f32⟩
  | 20 => ⟨S32, .f32⟩
  | 21 => ⟨S32, .f32⟩
  | 22 => ⟨S32x1, .f32⟩
  | 23 => ⟨S32, .f32⟩
  | 24 => ⟨S32, .f32⟩
  | 25 => ⟨S_, .f32⟩
  | 26 => ⟨S32, .f32⟩
  | 27 => ⟨S32, .f32⟩
  | 28 => ⟨S32, .f32⟩
  | 29 => ⟨S32, .f32⟩
  | 30 => ⟨S32x1, .f32⟩
  | 31 => ⟨S32, .f32⟩
  | 32 => ⟨S32, .f32⟩
  | 33 => ⟨S32x1, .f32⟩
  | 34 => ⟨S32, .f32⟩
  | 35 => ⟨S_, .f32⟩
  | 36 => ⟨S32, .f32⟩
  | 37 => ⟨S32, .f32⟩
  | 38 => ⟨S32, .f32⟩
  | 39 => ⟨S32, .f32⟩
  | 40 => ⟨S32, .f32⟩
  | 41 => ⟨S_, .i32⟩
  | 42 => ⟨S1, .i32⟩
  | 43 => ⟨S32x5, .f32⟩
  | 44 => ⟨S32x1, .f32⟩
  | 45 => ⟨S32, .f32⟩
  | 46 => ⟨S32, .f32⟩
  | 47 => ⟨S32x1, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S32, .f32⟩
  | 55 => ⟨S32x1, .f32⟩
  | 56 => ⟨S32, .f32⟩
  | 57 => ⟨S32, .f32⟩
  | 58 => ⟨S32x1, .f32⟩
  | 59 => ⟨S32, .f32⟩
  | 60 => ⟨S_, .f32⟩
  | 61 => ⟨S32, .f32⟩
  | 62 => ⟨S32, .f32⟩
  | 63 => ⟨S32, .f32⟩
  | 64 => ⟨S32, .f32⟩
  | 65 => ⟨S32, .f32⟩
  | 66 => ⟨S_, .i32⟩
  | 67 => ⟨S1, .i32⟩
  | 68 => ⟨S32x5, .f32⟩
  | 69 => ⟨S32x1, .f32⟩
  | 70 => ⟨S32, .f32⟩
  | 71 => ⟨S32, .f32⟩
  | 72 => ⟨S32x1, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S32, .f32⟩
  | 80 => ⟨S32x1, .f32⟩
  | 81 => ⟨S32, .f32⟩
  | 82 => ⟨S32, .f32⟩
  | 83 => ⟨S32x1, .f32⟩
  | 84 => ⟨S32, .f32⟩
  | 85 => ⟨S_, .f32⟩
  | 86 => ⟨S32, .f32⟩
  | 87 => ⟨S32, .f32⟩
  | 88 => ⟨S32, .f32⟩
  | 89 => ⟨S32, .f32⟩
  | 90 => ⟨S32, .f32⟩
  | 91 => ⟨S_, .i32⟩
  | 92 => ⟨S1, .i32⟩
  | 93 => ⟨S32x5, .f32⟩
  | 94 => ⟨S32x5, .f32⟩
  | 95 => ⟨S32x1, .f32⟩
  | 96 => ⟨S32x5, .f32⟩
  | 97 => ⟨S32x5, .f32⟩
  | 98 => ⟨S32x5, .f32⟩
  | 99 => ⟨S32x1, .f32⟩
  | 100 => ⟨S32, .f32⟩
  | 101 => ⟨S32, .f32⟩
  | 102 => ⟨S32x1, .f32⟩
  | 103 => ⟨S32, .f32⟩
  | 104 => ⟨S32, .f32⟩
  | 105 => ⟨S32, .f32⟩
  | 106 => ⟨S32, .f32⟩
  | 107 => ⟨S32x1x1, .f32⟩
  | 108 => ⟨S32x131072x3, .f32⟩
  | 109 => ⟨S32x131072x3, .f32⟩
  | 110 => ⟨S32x5, .f32⟩
  | 111 => ⟨S32x5, .f32⟩
  | 112 => ⟨S32x4, .f32⟩
  | 113 => ⟨S32x1, .f32⟩
  | 114 => ⟨S32x4, .f32⟩
  | 115 => ⟨S32x4, .f32⟩
  | 116 => ⟨S32x131072x3, .f32⟩
  | 117 => ⟨S32x131072x1, .f32⟩
  | 118 => ⟨S32x131072x3, .f32⟩
  | 119 => ⟨S32x131072x3, .f32⟩
  | 120 => ⟨S_, .f32⟩
  | 121 => ⟨S32, .f32⟩
  | 122 => ⟨S_, .f32⟩
  | 123 => ⟨S32, .f32⟩
  | 124 => ⟨S32, .f32⟩
  | 125 => ⟨S32, .f32⟩
  | 126 => ⟨S32x1, .f32⟩
  | 127 => ⟨S32x5, .f32⟩
  | _ => ⟨S32x131072x3, .f32⟩

abbrev hbmTy0_10 (i : Nat) : BufTy := match i % 128 with
  | 0 => ⟨S32x1, .f32⟩
  | 1 => ⟨S32, .f32⟩
  | 2 => ⟨S32, .f32⟩
  | 3 => ⟨S32x1, .f32⟩
  | 4 => ⟨S32, .f32⟩
  | 5 => ⟨S32, .f32⟩
  | 6 => ⟨S_, .f32⟩
  | 7 => ⟨S32, .f32⟩
  | 8 => ⟨S32, .f32⟩
  | 9 => ⟨S32, .f32⟩
  | 10 => ⟨S32, .f32⟩
  | 11 => ⟨S32x1, .f32⟩
  | 12 => ⟨S32, .f32⟩
  | 13 => ⟨S32, .f32⟩
  | 14 => ⟨S32x1, .f32⟩
  | 15 => ⟨S32, .f32⟩
  | 16 => ⟨S_, .f32⟩
  | 17 => ⟨S32, .f32⟩
  | 18 => ⟨S32, .f32⟩
  | 19 => ⟨S32, .f32⟩
  | 20 => ⟨S32, .f32⟩
  | 21 => ⟨S32, .f32⟩
  | 22 => ⟨S_, .i32⟩
  | 23 => ⟨S1, .i32⟩
  | 24 => ⟨S32x5, .f32⟩
  | 25 => ⟨S32x1, .f32⟩
  | 26 => ⟨S32, .f32⟩
  | 27 => ⟨S32, .f32⟩
  | 28 => ⟨S32x1, .f32⟩
  | 29 => ⟨S32, .f32⟩
  | 30 => ⟨S32, .f32⟩
  | 31 => ⟨S_, .f32⟩
  | 32 => ⟨S32, .f32⟩
  | 33 => ⟨S32, .f32⟩
  | 34 => ⟨S32, .f32⟩
  | 35 => ⟨S32, .f32⟩
  | 36 => ⟨S32x1, .f32⟩
  | 37 => ⟨S32, .f32⟩
  | 38 => ⟨S32, .f32⟩
  | 39 => ⟨S32x1, .f32⟩
  | 40 => ⟨S32, .f32⟩
  | 41 => ⟨S_, .f32⟩
  | 42 => ⟨S32, .f32⟩
  | 43 => ⟨S32, .f32⟩
  | 44 => ⟨S32, .f32⟩
  | 45 => ⟨S32, .f32⟩
  | 46 => ⟨S32, .f32⟩
  | 47 => ⟨S_, .i32⟩
  | 48 => ⟨S1, .i32⟩
  | 49 => ⟨S32x5, .f32⟩
  | 50 => ⟨S32x1, .f32⟩
  | 51 => ⟨S32, .f32⟩
  | 52 => ⟨S32, .f32⟩
  | 53 => ⟨S32x1, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S32, .f32⟩
  | 61 => ⟨S32x1, .f32⟩
  | 62 => ⟨S32, .f32⟩
  | 63 => ⟨S32, .f32⟩
  | 64 => ⟨S32x1, .f32⟩
  | 65 => ⟨S32, .f32⟩
  | 66 => ⟨S_, .f32⟩
  | 67 => ⟨S32, .f32⟩
  | 68 => ⟨S32, .f32⟩
  | 69 => ⟨S32, .f32⟩
  | 70 => ⟨S32, .f32⟩
  | 71 => ⟨S32, .f32⟩
  | 72 => ⟨S_, .i32⟩
  | 73 => ⟨S1, .i32⟩
  | 74 => ⟨S32x5, .f32⟩
  | 75 => ⟨S32x1, .f32⟩
  | 76 => ⟨S32, .f32⟩
  | 77 => ⟨S32, .f32⟩
  | 78 => ⟨S32x1, .f32⟩
  | 79 => ⟨S32, .f32⟩
  | 80 => ⟨S32, .f32⟩
  | 81 => ⟨S_, .f32⟩
  | 82 => ⟨S32, .f32⟩
  | 83 => ⟨S32, .f32⟩
  | 84 => ⟨S32, .f32⟩
  | 85 => ⟨S32, .f32⟩
  | 86 => ⟨S32x1, .f32⟩
  | 87 => ⟨S32, .f32⟩
  | 88 => ⟨S32, .f32⟩
  | 89 => ⟨S32x1, .f32⟩
  | 90 => ⟨S32, .f32⟩
  | 91 => ⟨S_, .f32⟩
  | 92 => ⟨S32, .f32⟩
  | 93 => ⟨S32, .f32⟩
  | 94 => ⟨S32, .f32⟩
  | 95 => ⟨S32, .f32⟩
  | 96 => ⟨S32, .f32⟩
  | 97 => ⟨S_, .i32⟩
  | 98 => ⟨S1, .i32⟩
  | 99 => ⟨S32x5, .f32⟩
  | 100 => ⟨S32x1, .f32⟩
  | 101 => ⟨S32, .f32⟩
  | 102 => ⟨S_, .f32⟩
  | 103 => ⟨S32, .f32⟩
  | 104 => ⟨S32, .f32⟩
  | 105 => ⟨S32, .f32⟩
  | 106 => ⟨S_, .i32⟩
  | 107 => ⟨S1, .i32⟩
  | 108 => ⟨S32x5, .f32⟩
  | 109 => ⟨S_, .f32⟩
  | 110 => ⟨S_, .f32⟩
  | 111 => ⟨S_, .f32⟩
  | 112 => ⟨S_, .f32⟩
  | 113 => ⟨S32, .f32⟩
  | 114 => ⟨S32, .f32⟩
  | 115 => ⟨S32x5, .f32⟩
  | 116 => ⟨S32x5, .f32⟩
  | 117 => ⟨S32x4, .f32⟩
  | 118 => ⟨S32x1, .f32⟩
  | 119 => ⟨S32x4, .f32⟩
  | 120 => ⟨S32x4, .f32⟩
  | 121 => ⟨S32x131072x3, .f32⟩
  | 122 => ⟨S32x131072x1, .f32⟩
  | 123 => ⟨S32x131072x3, .f32⟩
  | 124 => ⟨S32x131072x3, .f32⟩
  | 125 => ⟨S_, .f32⟩
  | 126 => ⟨S32, .f32⟩
  | 127 => ⟨S_, .f32⟩
  | _ => ⟨S32x131072x3, .f32⟩

abbrev hbmTy0_11 (i : Nat) : BufTy := match i % 128 with
  | 0 => ⟨S32, .f32⟩
  | 1 => ⟨S32, .f32⟩
  | 2 => ⟨S32, .f32⟩
  | 3 => ⟨S32x1, .f32⟩
  | 4 => ⟨S32x5, .f32⟩
  | 5 => ⟨S32x1, .f32⟩
  | 6 => ⟨S32, .f32⟩
  | 7 => ⟨S_, .f32⟩
  | 8 => ⟨S32, .f32⟩
  | 9 => ⟨S32, .f32⟩
  | 10 => ⟨S32, .f32⟩
  | 11 => ⟨S_, .i32⟩
  | 12 => ⟨S1, .i32⟩
  | 13 => ⟨S32x5, .f32⟩
  | 14 => ⟨S32x1, .f32⟩
  | 15 => ⟨S32, .f32⟩
  | 16 => ⟨S32, .f32⟩
  | 17 => ⟨S32x1, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S32, .f32⟩
  | 25 => ⟨S32x1, .f32⟩
  | 26 => ⟨S32, .f32⟩
  | 27 => ⟨S32, .f32⟩
  | 28 => ⟨S32x1, .f32⟩
  | 29 => ⟨S32, .f32⟩
  | 30 => ⟨S_, .f32⟩
  | 31 => ⟨S32, .f32⟩
  | 32 => ⟨S32, .f32⟩
  | 33 => ⟨S32, .f32⟩
  | 34 => ⟨S32, .f32⟩
  | 35 => ⟨S32, .f32⟩
  | 36 => ⟨S_, .i32⟩
  | 37 => ⟨S1, .i32⟩
  | 38 => ⟨S32x5, .f32⟩
  | 39 => ⟨S32x1, .f32⟩
  | 40 => ⟨S32, .f32⟩
  | 41 => ⟨S32, .f32⟩
  | 42 => ⟨S32x1, .f32⟩
  | 43 => ⟨S32, .f32⟩
  | 44 => ⟨S32, .f32⟩
  | 45 => ⟨S_, .f32⟩
  | 46 => ⟨S32, .f32⟩
  | 47 => ⟨S32, .f32⟩
  | 48 => ⟨S32, .f32⟩
  | 49 => ⟨S32, .f32⟩
  | 50 => ⟨S32x1, .f32⟩
  | 51 => ⟨S32, .f32⟩
  | 52 => ⟨S32, .f32⟩
  | 53 => ⟨S32x1, .f32⟩
  | 54 => ⟨S32, .f32⟩
  | 55 => ⟨S_, .f32⟩
  | 56 => ⟨S32, .f32⟩
  | 57 => ⟨S32, .f32⟩
  | 58 => ⟨S32, .f32⟩
  | 59 => ⟨S32, .f32⟩
  | 60 => ⟨S32, .f32⟩
  | 61 => ⟨S_, .i32⟩
  | 62 => ⟨S1, .i32⟩
  | 63 => ⟨S32x5, .f32⟩
  | 64 => ⟨S32x1, .f32⟩
  | 65 => ⟨S32, .f32⟩
  | 66 => ⟨S32, .f32⟩
  | 67 => ⟨S32x1, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S32, .f32⟩
  | 75 => ⟨S32x1, .f32⟩
  | 76 => ⟨S32, .f32⟩
  | 77 => ⟨S32, .f32⟩
  | 78 => ⟨S32x1, .f32⟩
  | 79 => ⟨S32, .f32⟩
  | 80 => ⟨S_, .f32⟩
  | 81 => ⟨S32, .f32⟩
  | 82 => ⟨S32, .f32⟩
  | 83 => ⟨S32, .f32⟩
  | 84 => ⟨S32, .f32⟩
  | 85 => ⟨S32, .f32⟩
  | 86 => ⟨S_, .i32⟩
  | 87 => ⟨S1, .i32⟩
  | 88 => ⟨S32x5, .f32⟩
  | 89 => ⟨S32x1, .f32⟩
  | 90 => ⟨S32, .f32⟩
  | 91 => ⟨S32, .f32⟩
  | 92 => ⟨S32x1, .f32⟩
  | 93 => ⟨S32, .f32⟩
  | 94 => ⟨S32, .f32⟩
  | 95 => ⟨S_, .f32⟩
  | 96 => ⟨S32, .f32⟩
  | 97 => ⟨S32, .f32⟩
  | 98 => ⟨S32, .f32⟩
  | 99 => ⟨S32, .f32⟩
  | 100 => ⟨S32x1, .f32⟩
  | 101 => ⟨S32, .f32⟩
  | 102 => ⟨S32, .f32⟩
  | 103 => ⟨S32x1, .f32⟩
  | 104 => ⟨S32, .f32⟩
  | 105 => ⟨S_, .f32⟩
  | 106 => ⟨S32, .f32⟩
  | 107 => ⟨S32, .f32⟩
  | 108 => ⟨S32, .f32⟩
  | 109 => ⟨S32, .f32⟩
  | 110 => ⟨S32, .f32⟩
  | 111 => ⟨S_, .i32⟩
  | 112 => ⟨S1, .i32⟩
  | 113 => ⟨S32x5, .f32⟩
  | 114 => ⟨S32x5, .f32⟩
  | 115 => ⟨S32x1, .f32⟩
  | 116 => ⟨S32x5, .f32⟩
  | 117 => ⟨S32x5, .f32⟩
  | 118 => ⟨S32x5, .f32⟩
  | 119 => ⟨S32x1, .f32⟩
  | 120 => ⟨S32, .f32⟩
  | 121 => ⟨S32, .f32⟩
  | 122 => ⟨S32x1, .f32⟩
  | 123 => ⟨S32, .f32⟩
  | 124 => ⟨S32, .f32⟩
  | 125 => ⟨S32, .f32⟩
  | 126 => ⟨S32, .f32⟩
  | 127 => ⟨S32x1x1, .f32⟩
  | _ => ⟨S32x131072x3, .f32⟩

abbrev hbmTy0_12 (i : Nat) : BufTy := match i % 128 with
  | 0 => ⟨S32x131072x3, .f32⟩
  | 1 => ⟨S32x131072x3, .f32⟩
  | 2 => ⟨S32x5, .f32⟩
  | 3 => ⟨S32x5, .f32⟩
  | 4 => ⟨S32x4, .f32⟩
  | 5 => ⟨S32x1, .f32⟩
  | 6 => ⟨S32x4, .f32⟩
  | 7 => ⟨S32x4, .f32⟩
  | 8 => ⟨S32x131072x3, .f32⟩
  | 9 => ⟨S32x131072x1, .f32⟩
  | 10 => ⟨S32x131072x3, .f32⟩
  | 11 => ⟨S32x131072x3, .f32⟩
  | 12 => ⟨S_, .f32⟩
  | 13 => ⟨S32, .f32⟩
  | 14 => ⟨S_, .f32⟩
  | 15 => ⟨S32, .f32⟩
  | 16 => ⟨S32, .f32⟩
  | 17 => ⟨S32, .f32⟩
  | 18 => ⟨S32x1, .f32⟩
  | 19 => ⟨S32x5, .f32⟩
  | 20 => ⟨S32x1, .f32⟩
  | 21 => ⟨S32, .f32⟩
  | 22 => ⟨S32, .f32⟩
  | 23 => ⟨S32x1, .f32⟩
  | 24 => ⟨S32, .f32⟩
  | 25 => ⟨S32, .f32⟩
  | 26 => ⟨S_, .f32⟩
  | 27 => ⟨S32, .f32⟩
  | 28 => ⟨S32, .f32⟩
  | 29 => ⟨S32, .f32⟩
  | 30 => ⟨S32, .f32⟩
  | 31 => ⟨S32x1, .f32⟩
  | 32 => ⟨S32, .f32⟩
  | 33 => ⟨S32, .f32⟩
  | 34 => ⟨S32x1, .f32⟩
  | 35 => ⟨S32, .f32⟩
  | 36 => ⟨S_, .f32⟩
  | 37 => ⟨S32, .f32⟩
  | 38 => ⟨S32, .f32⟩
  | 39 => ⟨S32, .f32⟩
  | 40 => ⟨S32, .f32⟩
  | 41 => ⟨S32, .f32⟩
  | 42 => ⟨S_, .i32⟩
  | 43 => ⟨S1, .i32⟩
  | 44 => ⟨S32x5, .f32⟩
  | 45 => ⟨S32x1, .f32⟩
  | 46 => ⟨S32, .f32⟩
  | 47 => ⟨S32, .f32⟩
  | 48 => ⟨S32x1, .f32⟩
  | 49 => ⟨S32, .f32⟩
  | 50 => ⟨S32, .f32⟩
  | 51 => ⟨S_, .f32⟩
  | 52 => ⟨S32, .f32⟩
  | 53 => ⟨S32, .f32⟩
  | 54 => ⟨S32, .f32⟩
  | 55 => ⟨S32, .f32⟩
  | 56 => ⟨S32x1, .f32⟩
  | 57 => ⟨S32, .f32⟩
  | 58 => ⟨S32, .f32⟩
  | 59 => ⟨S32x1, .f32⟩
  | 60 => ⟨S32, .f32⟩
  | 61 => ⟨S_, .f32⟩
  | 62 => ⟨S32, .f32⟩
  | 63 => ⟨S32, .f32⟩
  | 64 => ⟨S32, .f32⟩
  | 65 => ⟨S32, .f32⟩
  | 66 => ⟨S32, .f32⟩
  | 67 => ⟨S_, .i32⟩
  | 68 => ⟨S1, .i32⟩
  | 69 => ⟨S32x5, .f32⟩
  | 70 => ⟨S32x1, .f32⟩
  | 71 => ⟨S32, .f32⟩
  | 72 => ⟨S32, .f32⟩
  | 73 => ⟨S32x1, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S32, .f32⟩
  | 81 => ⟨S32x1, .f32⟩
  | 82 => ⟨S32, .f32⟩
  | 83 => ⟨S32, .f32⟩
  | 84 => ⟨S32x1, .f32⟩
  | 85 => ⟨S32, .f32⟩
  | 86 => ⟨S_, .f32⟩
  | 87 => ⟨S32, .f32⟩
  | 88 => ⟨S32, .f32⟩
  | 89 => ⟨S32, .f32⟩
  | 90 => ⟨S32, .f32⟩
  | 91 => ⟨S32, .f32⟩
  | 92 => ⟨S_, .i32⟩
  | 93 => ⟨S1, .i32⟩
  | 94 => ⟨S32x5, .f32⟩
  | 95 => ⟨S32x1, .f32⟩
  | 96 => ⟨S32, .f32⟩
  | 97 => ⟨S32, .f32⟩
  | 98 => ⟨S32x1, .f32⟩
  | 99 => ⟨S32, .f32⟩
  | 100 => ⟨S32, .f32⟩
  | 101 => ⟨S_, .f32⟩
  | 102 => ⟨S32, .f32⟩
  | 103 => ⟨S32, .f32⟩
  | 104 => ⟨S32, .f32⟩
  | 105 => ⟨S32, .f32⟩
  | 106 => ⟨S32x1, .f32⟩
  | 107 => ⟨S32, .f32⟩
  | 108 => ⟨S32, .f32⟩
  | 109 => ⟨S32x1, .f32⟩
  | 110 => ⟨S32, .f32⟩
  | 111 => ⟨S_, .f32⟩
  | 112 => ⟨S32, .f32⟩
  | 113 => ⟨S32, .f32⟩
  | 114 => ⟨S32, .f32⟩
  | 115 => ⟨S32, .f32⟩
  | 116 => ⟨S32, .f32⟩
  | 117 => ⟨S_, .i32⟩
  | 118 => ⟨S1, .i32⟩
  | 119 => ⟨S32x5, .f32⟩
  | 120 => ⟨S32x1, .f32⟩
  | 121 => ⟨S32, .f32⟩
  | 122 => ⟨S_, .f32⟩
  | 123 => ⟨S32, .f32⟩
  | 124 => ⟨S32, .f32⟩
  | 125 => ⟨S32, .f32⟩
  | 126 => ⟨S_, .i32⟩
  | 127 => ⟨S1, .i32⟩
  | _ => ⟨S32x131072x3, .f32⟩

abbrev hbmTy0_13 (i : Nat) : BufTy := match i % 128 with
  | 0 => ⟨S32x5, .f32⟩
  | 1 => ⟨S_, .f32⟩
  | 2 => ⟨S_, .f32⟩
  | 3 => ⟨S_, .f32⟩
  | 4 => ⟨S_, .f32⟩
  | 5 => ⟨S32, .f32⟩
  | 6 => ⟨S32, .f32⟩
  | 7 => ⟨S32x5, .f32⟩
  | 8 => ⟨S32x5, .f32⟩
  | 9 => ⟨S32x4, .f32⟩
  | 10 => ⟨S32x1, .f32⟩
  | 11 => ⟨S32x4, .f32⟩
  | 12 => ⟨S32x4, .f32⟩
  | 13 => ⟨S32x131072x3, .f32⟩
  | 14 => ⟨S32x131072x1, .f32⟩
  | 15 => ⟨S32x131072x3, .f32⟩
  | 16 => ⟨S32x131072x3, .f32⟩
  | 17 => ⟨S_, .f32⟩
  | 18 => ⟨S32, .f32⟩
  | 19 => ⟨S_, .f32⟩
  | 20 => ⟨S32, .f32⟩
  | 21 => ⟨S32, .f32⟩
  | 22 => ⟨S32, .f32⟩
  | 23 => ⟨S32x1, .f32⟩
  | 24 => ⟨S32x5, .f32⟩
  | 25 => ⟨S32x1, .f32⟩
  | 26 => ⟨S32, .f32⟩
  | 27 => ⟨S_, .f32⟩
  | 28 => ⟨S32, .f32⟩
  | 29 => ⟨S32, .f32⟩
  | 30 => ⟨S32, .f32⟩
  | 31 => ⟨S_, .i32⟩
  | 32 => ⟨S1, .i32⟩
  | 33 => ⟨S32x5, .f32⟩
  | 34 => ⟨S32x1, .f32⟩
  | 35 => ⟨S32, .f32⟩
  | 36 => ⟨S32, .f32⟩
  | 37 => ⟨S32x1, .f32⟩
  | 38 => ⟨S32, .f32⟩
  | 39 => ⟨S32, .f32⟩
  | 40 => ⟨S_, .f32⟩
  | 41 => ⟨S32, .f32⟩
  | 42 => ⟨S32, .f32⟩
  | 43 => ⟨S32, .f32⟩
  | 44 => ⟨S32, .f32⟩
  | 45 => ⟨S32x1, .f32⟩
  | 46 => ⟨S32, .f32⟩
  | 47 => ⟨S32, .f32⟩
  | 48 => ⟨S32x1, .f32⟩
  | 49 => ⟨S32, .f32⟩
  | 50 => ⟨S_, .f32⟩
  | 51 => ⟨S32, .f32⟩
  | 52 => ⟨S32, .f32⟩
  | 53 => ⟨S32, .f32⟩
  | 54 => ⟨S32, .f32⟩
  | 55 => ⟨S32, .f32⟩
  | 56 => ⟨S_, .i32⟩
  | 57 => ⟨S1, .i32⟩
  | 58 => ⟨S32x5, .f32⟩
  | 59 => ⟨S32x1, .f32⟩
  | 60 => ⟨S32, .f32⟩
  | 61 => ⟨S32, .f32⟩
  | 62 => ⟨S32x1, .f32⟩
  | 63 => ⟨S32, .f32⟩
  | 64 => ⟨S32, .f32⟩
  | 65 => ⟨S_, .f32⟩
  | 66 => ⟨S32, .f32⟩
  | 67 => ⟨S32, .f32⟩
  | 68 => ⟨S32, .f32⟩
  | 69 => ⟨S32, .f32⟩
  | 70 => ⟨S32x1, .f32⟩
  | 71 => ⟨S32, .f32⟩
  | 72 => ⟨S32, .f32⟩
  | 73 => ⟨S32x1, .f32⟩
  | 74 => ⟨S32, .f32⟩
  | 75 => ⟨S_, .f32⟩
  | 76 => ⟨S32, .f32⟩
  | 77 => ⟨S32, .f32⟩
  | 78 => ⟨S32, .f32⟩
  | 79 => ⟨S32, .f32⟩
  | 80 => ⟨S32, .f32⟩
  | 81 => ⟨S_, .i32⟩
  | 82 => ⟨S1, .i32⟩
  | 83 => ⟨S32x5, .f32⟩
  | 84 => ⟨S32x1, .f32⟩
  | 85 => ⟨S32, .f32⟩
  | 86 => ⟨S32, .f32⟩
  | 87 => ⟨S32x1, .f32⟩
  | 88 => ⟨S32, .f32⟩
  | 89 => ⟨S32, .f32⟩
  | 90 => ⟨S_, .f32⟩
  | 91 => ⟨S32, .f32⟩
  | 92 => ⟨S32, .f32⟩
  | 93 => ⟨S32, .f32⟩
  | 94 => ⟨S32, .f32⟩
  | 95 => ⟨S32x1, .f32⟩
  | 96 => ⟨S32, .f32⟩
  | 97 => ⟨S32, .f32⟩
  | 98 => ⟨S32x1, .f32⟩
  | 99 => ⟨S32, .f32⟩
  | 100 => ⟨S_, .f32⟩
  | 101 => ⟨S32, .f32⟩
  | 102 => ⟨S32, .f32⟩
  | 103 => ⟨S32, .f32⟩
  | 104 => ⟨S32, .f32⟩
  | 105 => ⟨S32, .f32⟩
  | 106 => ⟨S_, .i32⟩
  | 107 => ⟨S1, .i32⟩
  | 108 => ⟨S32x5, .f32⟩
  | 109 => ⟨S32x1, .f32⟩
  | 110 => ⟨S32, .f32⟩
  | 111 => ⟨S32, .f32⟩
  | 112 => ⟨S32x1, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S32, .f32⟩
  | 120 => ⟨S32x1, .f32⟩
  | 121 => ⟨S32, .f32⟩
  | 122 => ⟨S32, .f32⟩
  | 123 => ⟨S32x1, .f32⟩
  | 124 => ⟨S32, .f32⟩
  | 125 => ⟨S_, .f32⟩
  | 126 => ⟨S32, .f32⟩
  | 127 => ⟨S32, .f32⟩
  | _ => ⟨S32x131072x3, .f32⟩

abbrev hbmTy0_14 (i : Nat) : BufTy := match i % 128 with
  | 0 => ⟨S32, .f32⟩
  | 1 => ⟨S32, .f32⟩
  | 2 => ⟨S32, .f32⟩
  | 3 => ⟨S_, .i32⟩
  | 4 => ⟨S1, .i32⟩
  | 5 => ⟨S32x5, .f32⟩
  | 6 => ⟨S32x5, .f32⟩
  | 7 => ⟨S32x1, .f32⟩
  | 8 => ⟨S32x5, .f32⟩
  | 9 => ⟨S32x5, .f32⟩
  | 10 => ⟨S32x5, .f32⟩
  | 11 => ⟨S32x1, .f32⟩
  | 12 => ⟨S32, .f32⟩
  | 13 => ⟨S32, .f32⟩
  | 14 => ⟨S32x1, .f32⟩
  | 15 => ⟨S32, .f32⟩
  | 16 => ⟨S32, .f32⟩
  | 17 => ⟨S32, .f32⟩
  | 18 => ⟨S32, .f32⟩
  | 19 => ⟨S32x1x1, .f32⟩
  | 20 => ⟨S32x131072x3, .f32⟩
  | 21 => ⟨S32x131072x3, .f32⟩
  | 22 => ⟨S32x5, .f32⟩
  | 23 => ⟨S32x5, .f32⟩
  | 24 => ⟨S32x4, .f32⟩
  | 25 => ⟨S32x1, .f32⟩
  | 26 => ⟨S32x4, .f32⟩
  | 27 => ⟨S32x4, .f32⟩
  | 28 => ⟨S32x131072x3, .f32⟩
  | 29 => ⟨S32x131072x1, .f32⟩
  | 30 => ⟨S32x131072x3, .f32⟩
  | 31 => ⟨S32x131072x3, .f32⟩
  | 32 => ⟨S_, .f32⟩
  | 33 => ⟨S32, .f32⟩
  | 34 => ⟨S_, .f32⟩
  | 35 => ⟨S32, .f32⟩
  | 36 => ⟨S32, .f32⟩
  | 37 => ⟨S32, .f32⟩
  | 38 => ⟨S32x1, .f32⟩
  | 39 => ⟨S32x5, .f32⟩
  | 40 => ⟨S32x1, .f32⟩
  | 41 => ⟨S32, .f32⟩
  | 42 => ⟨S32, .f32⟩
  | 43 => ⟨S32x1, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S32, .f32⟩
  | 51 => ⟨S32x1, .f32⟩
  | 52 => ⟨S32, .f32⟩
  | 53 => ⟨S32, .f32⟩
  | 54 => ⟨S32x1, .f32⟩
  | 55 => ⟨S32, .f32⟩
  | 56 => ⟨S_, .f32⟩
  | 57 => ⟨S32, .f32⟩
  | 58 => ⟨S32, .f32⟩
  | 59 => ⟨S32, .f32⟩
  | 60 => ⟨S32, .f32⟩
  | 61 => ⟨S32, .f32⟩
  | 62 => ⟨S_, .i32⟩
  | 63 => ⟨S1, .i32⟩
  | 64 => ⟨S32x5, .f32⟩
  | 65 => ⟨S32x1, .f32⟩
  | 66 => ⟨S32, .f32⟩
  | 67 => ⟨S32, .f32⟩
  | 68 => ⟨S32x1, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S32, .f32⟩
  | 76 => ⟨S32x1, .f32⟩
  | 77 => ⟨S32, .f32⟩
  | 78 => ⟨S32, .f32⟩
  | 79 => ⟨S32x1, .f32⟩
  | 80 => ⟨S32, .f32⟩
  | 81 => ⟨S_, .f32⟩
  | 82 => ⟨S32, .f32⟩
  | 83 => ⟨S32, .f32⟩
  | 84 => ⟨S32, .f32⟩
  | 85 => ⟨S32, .f32⟩
  | 86 => ⟨S32, .f32⟩
  | 87 => ⟨S_, .i32⟩
  | 88 => ⟨S1, .i32⟩
  | 89 => ⟨S32x5, .f32⟩
  | 90 => ⟨S32x1, .f32⟩
  | 91 => ⟨S32, .f32⟩
  | 92 => ⟨S32, .f32⟩
  | 93 => ⟨S32x1, .f32⟩
  | 94 => ⟨S32, .f32⟩
  | 95 => ⟨S32, .f32⟩
  | 96 => ⟨S_, .f32⟩
  | 97 => ⟨S32, .f32⟩
  | 98 => ⟨S32, .f32⟩
  | 99 => ⟨S32, .f32⟩
  | 100 => ⟨S32, .f32⟩
  | 101 => ⟨S32x1, .f32⟩
  | 102 => ⟨S32, .f32⟩
  | 103 => ⟨S32, .f32⟩
  | 104 => ⟨S32x1, .f32⟩
  | 105 => ⟨S32, .f32⟩
  | 106 => ⟨S_, .f32⟩
  | 107 => ⟨S32, .f32⟩
  | 108 => ⟨S32, .f32⟩
  | 109 => ⟨S32, .f32⟩
  | 110 => ⟨S32, .f32⟩
  | 111 => ⟨S32, .f32⟩
  | 112 => ⟨S_, .i32⟩
  | 113 => ⟨S1, .i32⟩
  | 114 => ⟨S32x5, .f32⟩
  | 115 => ⟨S32x1, .f32⟩
  | 116 => ⟨S32, .f32⟩
  | 117 => ⟨S32, .f32⟩
  | 118 => ⟨S32x1, .f32⟩
  | 119 => ⟨S32, .f32⟩
  | 120 => ⟨S32, .f32⟩
  | 121 => ⟨S_, .f32⟩
  | 122 => ⟨S32, .f32⟩
  | 123 => ⟨S32, .f32⟩
  | 124 => ⟨S32, .f32⟩
  | 125 => ⟨S32, .f32⟩
  | 126 => ⟨S32x1, .f32⟩
  | 127 => ⟨S32, .f32⟩
  | _ => ⟨S32x131072x3, .f32⟩

abbrev hbmTy0_15 (i : Nat) : BufTy := match i % 128 with
  | 0 => ⟨S32, .f32⟩
  | 1 => ⟨S32x1, .f32⟩
  | 2 => ⟨S32, .f32⟩
  | 3 => ⟨S_, .f32⟩
  | 4 => ⟨S32, .f32⟩
  | 5 => ⟨S32, .f32⟩
  | 6 => ⟨S32, .f32⟩
  | 7 => ⟨S32, .f32⟩
  | 8 => ⟨S32, .f32⟩
  | 9 => ⟨S_, .i32⟩
  | 10 => ⟨S1, .i32⟩
  | 11 => ⟨S32x5, .f32⟩
  | 12 => ⟨S32x1, .f32⟩
  | 13 => ⟨S32, .f32⟩
  | 14 => ⟨S_, .f32⟩
  | 15 => ⟨S32, .f32⟩
  | 16 => ⟨S32, .f32⟩
  | 17 => ⟨S32, .f32⟩
  | 18 => ⟨S_, .i32⟩
  | 19 => ⟨S1, .i32⟩
  | 20 => ⟨S32x5, .f32⟩
  | 21 => ⟨S_, .f32⟩
  | 22 => ⟨S_, .f32⟩
  | 23 => ⟨S_, .f32⟩
  | 24 => ⟨S_, .f32⟩
  | 25 => ⟨S32, .f32⟩
  | 26 => ⟨S32, .f32⟩
  | 27 => ⟨S32x5, .f32⟩
  | 28 => ⟨S32x5, .f32⟩
  | 29 => ⟨S32x4, .f32⟩
  | 30 => ⟨S32x1, .f32⟩
  | 31 => ⟨S32x4, .f32⟩
  | 32 => ⟨S32x4, .f32⟩
  | 33 => ⟨S32x131072x3, .f32⟩
  | 34 => ⟨S32x131072x1, .f32⟩
  | 35 => ⟨S32x131072x3, .f32⟩
  | 36 => ⟨S32x131072x3, .f32⟩
  | 37 => ⟨S_, .f32⟩
  | 38 => ⟨S32, .f32⟩
  | 39 => ⟨S_, .f32⟩
  | 40 => ⟨S32, .f32⟩
  | 41 => ⟨S32, .f32⟩
  | 42 => ⟨S32, .f32⟩
  | 43 => ⟨S32x1, .f32⟩
  | 44 => ⟨S32x5, .f32⟩
  | 45 => ⟨S32x1, .f32⟩
  | 46 => ⟨S32, .f32⟩
  | 47 => ⟨S_, .f32⟩
  | 48 => ⟨S32, .f32⟩
  | 49 => ⟨S32, .f32⟩
  | 50 => ⟨S32, .f32⟩
  | 51 => ⟨S_, .i32⟩
  | 52 => ⟨S1, .i32⟩
  | 53 => ⟨S32x5, .f32⟩
  | 54 => ⟨S32x1, .f32⟩
  | 55 => ⟨S32, .f32⟩
  | 56 => ⟨S32, .f32⟩
  | 57 => ⟨S32x1, .f32⟩
  | 58 => ⟨S32, .f32⟩
  | 59 => ⟨S32, .f32⟩
  | 60 => ⟨S_, .f32⟩
  | 61 => ⟨S32, .f32⟩
  | 62 => ⟨S32, .f32⟩
  | 63 => ⟨S32, .f32⟩
  | 64 => ⟨S32, .f32⟩
  | 65 => ⟨S32x1, .f32⟩
  | 66 => ⟨S32, .f32⟩
  | 67 => ⟨S32, .f32⟩
  | 68 => ⟨S32x1, .f32⟩
  | 69 => ⟨S32, .f32⟩
  | 70 => ⟨S_, .f32⟩
  | 71 => ⟨S32, .f32⟩
  | 72 => ⟨S32, .f32⟩
  | 73 => ⟨S32, .f32⟩
  | 74 => ⟨S32, .f32⟩
  | 75 => ⟨S32, .f32⟩
  | 76 => ⟨S_, .i32⟩
  | 77 => ⟨S1, .i32⟩
  | 78 => ⟨S32x5, .f32⟩
  | 79 => ⟨S32x1, .f32⟩
  | 80 => ⟨S32, .f32⟩
  | 81 => ⟨S32, .f32⟩
  | 82 => ⟨S32x1, .f32⟩
  | 83 => ⟨S32, .f32⟩
  | 84 => ⟨S32, .f32⟩
  | 85 => ⟨S_, .f32⟩
  | 86 => ⟨S32, .f32⟩
  | 87 => ⟨S32, .f32⟩
  | 88 => ⟨S32, .f32⟩
  | 89 => ⟨S32, .f32⟩
  | 90 => ⟨S32x1, .f32⟩
  | 91 => ⟨S32, .f32⟩
  | 92 => ⟨S32, .f32⟩
  | 93 => ⟨S32x1, .f32⟩
  | 94 => ⟨S32, .f32⟩
  | 95 => ⟨S_, .f32⟩
  | 96 => ⟨S32, .f32⟩
  | 97 => ⟨S32, .f32⟩
  | 98 => ⟨S32, .f32⟩
  | 99 => ⟨S32, .f32⟩
  | 100 => ⟨S32, .f32⟩
  | 101 => ⟨S_, .i32⟩
  | 102 => ⟨S1, .i32⟩
  | 103 => ⟨S32x5, .f32⟩
  | 104 => ⟨S32x1, .f32⟩
  | 105 => ⟨S32, .f32⟩
  | 106 => ⟨S32, .f32⟩
  | 107 => ⟨S32x1, .f32⟩
  | 108 => ⟨S32, .f32⟩
  | 109 => ⟨S32, .f32⟩
  | 110 => ⟨S_, .f32⟩
  | 111 => ⟨S32, .f32⟩
  | 112 => ⟨S32, .f32⟩
  | 113 => ⟨S32, .f32⟩
  | 114 => ⟨S32, .f32⟩
  | 115 => ⟨S32x1, .f32⟩
  | 116 => ⟨S32, .f32⟩
  | 117 => ⟨S32, .f32⟩
  | 118 => ⟨S32x1, .f32⟩
  | 119 => ⟨S32, .f32⟩
  | 120 => ⟨S_, .f32⟩
  | 121 => ⟨S32, .f32⟩
  | 122 => ⟨S32, .f32⟩
  | 123 => ⟨S32, .f32⟩
  | 124 => ⟨S32, .f32⟩
  | 125 => ⟨S32, .f32⟩
  | 126 => ⟨S_, .i32⟩
  | 127 => ⟨S1, .i32⟩
  | _ => ⟨S32x131072x3, .f32⟩

abbrev hbmTy0_16 (i : Nat) : BufTy := match i % 128 with
  | 0 => ⟨S32x5, .f32⟩
  | 1 => ⟨S32x1, .f32⟩
  | 2 => ⟨S32, .f32⟩
  | 3 => ⟨S32, .f32⟩
  | 4 => ⟨S32x1, .f32⟩
  | 5 => ⟨S32, .f32⟩
  | 6 => ⟨S32, .f32⟩
  | 7 => ⟨S_, .f32⟩
  | 8 => ⟨S32, .f32⟩
  | 9 => ⟨S32, .f32⟩
  | 10 => ⟨S32, .f32⟩
  | 11 => ⟨S32, .f32⟩
  | 12 => ⟨S32x1, .f32⟩
  | 13 => ⟨S32, .f32⟩
  | 14 => ⟨S32, .f32⟩
  | 15 => ⟨S32x1, .f32⟩
  | 16 => ⟨S32, .f32⟩
  | 17 => ⟨S_, .f32⟩
  | 18 => ⟨S32, .f32⟩
  | 19 => ⟨S32, .f32⟩
  | 20 => ⟨S32, .f32⟩
  | 21 => ⟨S32, .f32⟩
  | 22 => ⟨S32, .f32⟩
  | 23 => ⟨S_, .i32⟩
  | 24 => ⟨S1, .i32⟩
  | 25 => ⟨S32x5, .f32⟩
  | 26 => ⟨S32x5, .f32⟩
  | 27 => ⟨S32x1, .f32⟩
  | 28 => ⟨S32x5, .f32⟩
  | 29 => ⟨S32x5, .f32⟩
  | 30 => ⟨S32x5, .f32⟩
  | 31 => ⟨S32x1, .f32⟩
  | 32 => ⟨S32, .f32⟩
  | 33 => ⟨S32, .f32⟩
  | 34 => ⟨S32x1, .f32⟩
  | 35 => ⟨S32, .f32⟩
  | 36 => ⟨S32, .f32⟩
  | 37 => ⟨S32, .f32⟩
  | 38 => ⟨S32, .f32⟩
  | 39 => ⟨S32x1x1, .f32⟩
  | 40 => ⟨S32x131072x3, .f32⟩
  | 41 => ⟨S32x131072x3, .f32⟩
  | 42 => ⟨S32x5, .f32⟩
  | 43 => ⟨S32x5, .f32⟩
  | 44 => ⟨S32x4, .f32⟩
  | 45 => ⟨S32x1, .f32⟩
  | 46 => ⟨S32x4, .f32⟩
  | 47 => ⟨S32x4, .f32⟩
  | 48 => ⟨S32x131072x3, .f32⟩
  | 49 => ⟨S32x131072x1, .f32⟩
  | 50 => ⟨S32x131072x3, .f32⟩
  | 51 => ⟨S32x131072x3, .f32⟩
  | 52 => ⟨S_, .f32⟩
  | 53 => ⟨S32, .f32⟩
  | 54 => ⟨S_, .f32⟩
  | 55 => ⟨S32, .f32⟩
  | 56 => ⟨S32, .f32⟩
  | 57 => ⟨S32, .f32⟩
  | 58 => ⟨S32x1, .f32⟩
  | 59 => ⟨S32x5, .f32⟩
  | 60 => ⟨S32x1, .f32⟩
  | 61 => ⟨S32, .f32⟩
  | 62 => ⟨S32, .f32⟩
  | 63 => ⟨S32x1, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S32, .f32⟩
  | 71 => ⟨S32x1, .f32⟩
  | 72 => ⟨S32, .f32⟩
  | 73 => ⟨S32, .f32⟩
  | 74 => ⟨S32x1, .f32⟩
  | 75 => ⟨S32, .f32⟩
  | 76 => ⟨S_, .f32⟩
  | 77 => ⟨S32, .f32⟩
  | 78 => ⟨S32, .f32⟩
  | 79 => ⟨S32, .f32⟩
  | 80 => ⟨S32, .f32⟩
  | 81 => ⟨S32, .f32⟩
  | 82 => ⟨S_, .i32⟩
  | 83 => ⟨S1, .i32⟩
  | 84 => ⟨S32x5, .f32⟩
  | 85 => ⟨S32x1, .f32⟩
  | 86 => ⟨S32, .f32⟩
  | 87 => ⟨S32, .f32⟩
  | 88 => ⟨S32x1, .f32⟩
  | 89 => ⟨S32, .f32⟩
  | 90 => ⟨S32, .f32⟩
  | 91 => ⟨S_, .f32⟩
  | 92 => ⟨S32, .f32⟩
  | 93 => ⟨S32, .f32⟩
  | 94 => ⟨S32, .f32⟩
  | 95 => ⟨S32, .f32⟩
  | 96 => ⟨S32x1, .f32⟩
  | 97 => ⟨S32, .f32⟩
  | 98 => ⟨S32, .f32⟩
  | 99 => ⟨S32x1, .f32⟩
  | 100 => ⟨S32, .f32⟩
  | 101 => ⟨S_, .f32⟩
  | 102 => ⟨S32, .f32⟩
  | 103 => ⟨S32, .f32⟩
  | 104 => ⟨S32, .f32⟩
  | 105 => ⟨S32, .f32⟩
  | 106 => ⟨S32, .f32⟩
  | 107 => ⟨S_, .i32⟩
  | 108 => ⟨S1, .i32⟩
  | 109 => ⟨S32x5, .f32⟩
  | 110 => ⟨S32x1, .f32⟩
  | 111 => ⟨S32, .f32⟩
  | 112 => ⟨S32, .f32⟩
  | 113 => ⟨S32x1, .f32⟩
  | 114 => ⟨S32, .f32⟩
  | 115 => ⟨S32, .f32⟩
  | 116 => ⟨S_, .f32⟩
  | 117 => ⟨S32, .f32⟩
  | 118 => ⟨S32, .f32⟩
  | 119 => ⟨S32, .f32⟩
  | 120 => ⟨S32, .f32⟩
  | 121 => ⟨S32x1, .f32⟩
  | 122 => ⟨S32, .f32⟩
  | 123 => ⟨S32, .f32⟩
  | 124 => ⟨S32x1, .f32⟩
  | 125 => ⟨S32, .f32⟩
  | 126 => ⟨S_, .f32⟩
  | 127 => ⟨S32, .f32⟩
  | _ => ⟨S32x131072x3, .f32⟩

abbrev hbmTy0_17 (i : Nat) : BufTy := match i % 128 with
  | 0 => ⟨S32, .f32⟩
  | 1 => ⟨S32, .f32⟩
  | 2 => ⟨S32, .f32⟩
  | 3 => ⟨S32, .f32⟩
  | 4 => ⟨S_, .i32⟩
  | 5 => ⟨S1, .i32⟩
  | 6 => ⟨S32x5, .f32⟩
  | 7 => ⟨S32x1, .f32⟩
  | 8 => ⟨S32, .f32⟩
  | 9 => ⟨S32, .f32⟩
  | 10 => ⟨S32x1, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S32, .f32⟩
  | 18 => ⟨S32x1, .f32⟩
  | 19 => ⟨S32, .f32⟩
  | 20 => ⟨S32, .f32⟩
  | 21 => ⟨S32x1, .f32⟩
  | 22 => ⟨S32, .f32⟩
  | 23 => ⟨S_, .f32⟩
  | 24 => ⟨S32, .f32⟩
  | 25 => ⟨S32, .f32⟩
  | 26 => ⟨S32, .f32⟩
  | 27 => ⟨S32, .f32⟩
  | 28 => ⟨S32, .f32⟩
  | 29 => ⟨S_, .i32⟩
  | 30 => ⟨S1, .i32⟩
  | 31 => ⟨S32x5, .f32⟩
  | 32 => ⟨S32x1, .f32⟩
  | 33 => ⟨S32, .f32⟩
  | 34 => ⟨S_, .f32⟩
  | 35 => ⟨S32, .f32⟩
  | 36 => ⟨S32, .f32⟩
  | 37 => ⟨S32, .f32⟩
  | 38 => ⟨S_, .i32⟩
  | 39 => ⟨S1, .i32⟩
  | 40 => ⟨S32x5, .f32⟩
  | 41 => ⟨S_, .f32⟩
  | 42 => ⟨S_, .f32⟩
  | 43 => ⟨S_, .f32⟩
  | 44 => ⟨S_, .f32⟩
  | 45 => ⟨S32, .f32⟩
  | 46 => ⟨S32, .f32⟩
  | 47 => ⟨S32x5, .f32⟩
  | 48 => ⟨S32x5, .f32⟩
  | 49 => ⟨S32x4, .f32⟩
  | 50 => ⟨S32x1, .f32⟩
  | 51 => ⟨S32x4, .f32⟩
  | 52 => ⟨S32x4, .f32⟩
  | 53 => ⟨S32x131072x3, .f32⟩
  | 54 => ⟨S32x131072x1, .f32⟩
  | 55 => ⟨S32x131072x3, .f32⟩
  | 56 => ⟨S32x131072x3, .f32⟩
  | 57 => ⟨S_, .f32⟩
  | 58 => ⟨S32, .f32⟩
  | 59 => ⟨S_, .f32⟩
  | 60 => ⟨S32, .f32⟩
  | 61 => ⟨S32, .f32⟩
  | 62 => ⟨S32, .f32⟩
  | 63 => ⟨S32x1, .f32⟩
  | 64 => ⟨S32x5, .f32⟩
  | 65 => ⟨S32x1, .f32⟩
  | 66 => ⟨S32, .f32⟩
  | 67 => ⟨S_, .f32⟩
  | 68 => ⟨S32, .f32⟩
  | 69 => ⟨S32, .f32⟩
  | 70 => ⟨S32, .f32⟩
  | 71 => ⟨S_, .i32⟩
  | 72 => ⟨S1, .i32⟩
  | 73 => ⟨S32x5, .f32⟩
  | 74 => ⟨S32x1, .f32⟩
  | 75 => ⟨S32, .f32⟩
  | 76 => ⟨S32, .f32⟩
  | 77 => ⟨S32x1, .f32⟩
  | 78 => ⟨S32, .f32⟩
  | 79 => ⟨S32, .f32⟩
  | 80 => ⟨S_, .f32⟩
  | 81 => ⟨S32, .f32⟩
  | 82 => ⟨S32, .f32⟩
  | 83 => ⟨S32, .f32⟩
  | 84 => ⟨S32, .f32⟩
  | 85 => ⟨S32x1, .f32⟩
  | 86 => ⟨S32, .f32⟩
  | 87 => ⟨S32, .f32⟩
  | 88 => ⟨S32x1, .f32⟩
  | 89 => ⟨S32, .f32⟩
  | 90 => ⟨S_, .f32⟩
  | 91 => ⟨S32, .f32⟩
  | 92 => ⟨S32, .f32⟩
  | 93 => ⟨S32, .f32⟩
  | 94 => ⟨S32, .f32⟩
  | 95 => ⟨S32, .f32⟩
  | 96 => ⟨S_, .i32⟩
  | 97 => ⟨S1, .i32⟩
  | 98 => ⟨S32x5, .f32⟩
  | 99 => ⟨S32x1, .f32⟩
  | 100 => ⟨S32, .f32⟩
  | 101 => ⟨S32, .f32⟩
  | 102 => ⟨S32x1, .f32⟩
  | 103 => ⟨S32, .f32⟩
  | 104 => ⟨S32, .f32⟩
  | 105 => ⟨S_, .f32⟩
  | 106 => ⟨S32, .f32⟩
  | 107 => ⟨S32, .f32⟩
  | 108 => ⟨S32, .f32⟩
  | 109 => ⟨S32, .f32⟩
  | 110 => ⟨S32x1, .f32⟩
  | 111 => ⟨S32, .f32⟩
  | 112 => ⟨S32, .f32⟩
  | 113 => ⟨S32x1, .f32⟩
  | 114 => ⟨S32, .f32⟩
  | 115 => ⟨S_, .f32⟩
  | 116 => ⟨S32, .f32⟩
  | 117 => ⟨S32, .f32⟩
  | 118 => ⟨S32, .f32⟩
  | 119 => ⟨S32, .f32⟩
  | 120 => ⟨S32, .f32⟩
  | 121 => ⟨S_, .i32⟩
  | 122 => ⟨S1, .i32⟩
  | 123 => ⟨S32x5, .f32⟩
  | 124 => ⟨S32x1, .f32⟩
  | 125 => ⟨S32, .f32⟩
  | 126 => ⟨S32, .f32⟩
  | 127 => ⟨S32x1, .f32⟩
  | _ => ⟨S32x131072x3, .f32⟩

abbrev hbmTy0_18 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S32, .f32⟩
  | 6 => ⟨S32, .f32⟩
  | 7 => ⟨S32x1, .f32⟩
  | 8 => ⟨S32, .f32⟩
  | 9 => ⟨S32, .f32⟩
  | 10 => ⟨S32x1, .f32⟩
  | 11 => ⟨S32, .f32⟩
  | 12 => ⟨S_, .f32⟩
  | 13 => ⟨S32, .f32⟩
  | 14 => ⟨S32, .f32⟩
  | 15 => ⟨S32, .f32⟩
  | 16 => ⟨S32, .f32⟩
  | 17 => ⟨S32, .f32⟩
  | 18 => ⟨S_, .i32⟩
  | 19 => ⟨S1, .i32⟩
  | 20 => ⟨S32x5, .f32⟩
  | 21 => ⟨S32x1, .f32⟩
  | 22 => ⟨S32, .f32⟩
  | 23 => ⟨S32, .f32⟩
  | 24 => ⟨S32x1, .f32⟩
  | 25 => ⟨S32, .f32⟩
  | 26 => ⟨S32, .f32⟩
  | 27 => ⟨S_, .f32⟩
  | 28 => ⟨S32, .f32⟩
  | 29 => ⟨S32, .f32⟩
  | 30 => ⟨S32, .f32⟩
  | 31 => ⟨S32, .f32⟩
  | 32 => ⟨S32x1, .f32⟩
  | 33 => ⟨S32, .f32⟩
  | 34 => ⟨S32, .f32⟩
  | 35 => ⟨S32x1, .f32⟩
  | 36 => ⟨S32, .f32⟩
  | 37 => ⟨S_, .f32⟩
  | 38 => ⟨S32, .f32⟩
  | 39 => ⟨S32, .f32⟩
  | 40 => ⟨S32, .f32⟩
  | 41 => ⟨S32, .f32⟩
  | 42 => ⟨S32, .f32⟩
  | 43 => ⟨S_, .i32⟩
  | 44 => ⟨S1, .i32⟩
  | 45 => ⟨S32x5, .f32⟩
  | 46 => ⟨S32x5, .f32⟩
  | 47 => ⟨S32x1, .f32⟩
  | 48 => ⟨S32x5, .f32⟩
  | 49 => ⟨S32x5, .f32⟩
  | 50 => ⟨S32x5, .f32⟩
  | 51 => ⟨S32x1, .f32⟩
  | 52 => ⟨S32, .f32⟩
  | 53 => ⟨S32, .f32⟩
  | 54 => ⟨S32x1, .f32⟩
  | 55 => ⟨S32, .f32⟩
  | 56 => ⟨S32, .f32⟩
  | 57 => ⟨S32, .f32⟩
  | 58 => ⟨S32, .f32⟩
  | 59 => ⟨S32x1x1, .f32⟩
  | 60 => ⟨S32x131072x3, .f32⟩
  | 61 => ⟨S32x131072x3, .f32⟩
  | 62 => ⟨S32x5, .f32⟩
  | 63 => ⟨S32x5, .f32⟩
  | 64 => ⟨S32x4, .f32⟩
  | 65 => ⟨S32x1, .f32⟩
  | 66 => ⟨S32x4, .f32⟩
  | 67 => ⟨S32x4, .f32⟩
  | 68 => ⟨S32x131072x3, .f32⟩
  | 69 => ⟨S32x131072x1, .f32⟩
  | 70 => ⟨S32x131072x3, .f32⟩
  | 71 => ⟨S32x131072x3, .f32⟩
  | 72 => ⟨S_, .f32⟩
  | 73 => ⟨S32, .f32⟩
  | 74 => ⟨S_, .f32⟩
  | 75 => ⟨S32, .f32⟩
  | 76 => ⟨S32, .f32⟩
  | 77 => ⟨S32, .f32⟩
  | 78 => ⟨S32x1, .f32⟩
  | 79 => ⟨S32x5, .f32⟩
  | 80 => ⟨S32x1, .f32⟩
  | 81 => ⟨S32, .f32⟩
  | 82 => ⟨S32, .f32⟩
  | 83 => ⟨S32x1, .f32⟩
  | 84 => ⟨S32, .f32⟩
  | 85 => ⟨S32, .f32⟩
  | 86 => ⟨S_, .f32⟩
  | 87 => ⟨S32, .f32⟩
  | 88 => ⟨S32, .f32⟩
  | 89 => ⟨S32, .f32⟩
  | 90 => ⟨S32, .f32⟩
  | 91 => ⟨S32x1, .f32⟩
  | 92 => ⟨S32, .f32⟩
  | 93 => ⟨S32, .f32⟩
  | 94 => ⟨S32x1, .f32⟩
  | 95 => ⟨S32, .f32⟩
  | 96 => ⟨S_, .f32⟩
  | 97 => ⟨S32, .f32⟩
  | 98 => ⟨S32, .f32⟩
  | 99 => ⟨S32, .f32⟩
  | 100 => ⟨S32, .f32⟩
  | 101 => ⟨S32, .f32⟩
  | 102 => ⟨S_, .i32⟩
  | 103 => ⟨S1, .i32⟩
  | 104 => ⟨S32x5, .f32⟩
  | 105 => ⟨S32x1, .f32⟩
  | 106 => ⟨S32, .f32⟩
  | 107 => ⟨S32, .f32⟩
  | 108 => ⟨S32x1, .f32⟩
  | 109 => ⟨S32, .f32⟩
  | 110 => ⟨S32, .f32⟩
  | 111 => ⟨S_, .f32⟩
  | 112 => ⟨S32, .f32⟩
  | 113 => ⟨S32, .f32⟩
  | 114 => ⟨S32, .f32⟩
  | 115 => ⟨S32, .f32⟩
  | 116 => ⟨S32x1, .f32⟩
  | 117 => ⟨S32, .f32⟩
  | 118 => ⟨S32, .f32⟩
  | 119 => ⟨S32x1, .f32⟩
  | 120 => ⟨S32, .f32⟩
  | 121 => ⟨S_, .f32⟩
  | 122 => ⟨S32, .f32⟩
  | 123 => ⟨S32, .f32⟩
  | 124 => ⟨S32, .f32⟩
  | 125 => ⟨S32, .f32⟩
  | 126 => ⟨S32, .f32⟩
  | 127 => ⟨S_, .i32⟩
  | _ => ⟨S32x131072x3, .f32⟩

abbrev hbmTy0_19 (i : Nat) : BufTy := match i % 128 with
  | 0 => ⟨S1, .i32⟩
  | 1 => ⟨S32x5, .f32⟩
  | 2 => ⟨S32x1, .f32⟩
  | 3 => ⟨S32, .f32⟩
  | 4 => ⟨S32, .f32⟩
  | 5 => ⟨S32x1, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S32, .f32⟩
  | 13 => ⟨S32x1, .f32⟩
  | 14 => ⟨S32, .f32⟩
  | 15 => ⟨S32, .f32⟩
  | 16 => ⟨S32x1, .f32⟩
  | 17 => ⟨S32, .f32⟩
  | 18 => ⟨S_, .f32⟩
  | 19 => ⟨S32, .f32⟩
  | 20 => ⟨S32, .f32⟩
  | 21 => ⟨S32, .f32⟩
  | 22 => ⟨S32, .f32⟩
  | 23 => ⟨S32, .f32⟩
  | 24 => ⟨S_, .i32⟩
  | 25 => ⟨S1, .i32⟩
  | 26 => ⟨S32x5, .f32⟩
  | 27 => ⟨S32x1, .f32⟩
  | 28 => ⟨S32, .f32⟩
  | 29 => ⟨S32, .f32⟩
  | 30 => ⟨S32x1, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S32, .f32⟩
  | 38 => ⟨S32x1, .f32⟩
  | 39 => ⟨S32, .f32⟩
  | 40 => ⟨S32, .f32⟩
  | 41 => ⟨S32x1, .f32⟩
  | 42 => ⟨S32, .f32⟩
  | 43 => ⟨S_, .f32⟩
  | 44 => ⟨S32, .f32⟩
  | 45 => ⟨S32, .f32⟩
  | 46 => ⟨S32, .f32⟩
  | 47 => ⟨S32, .f32⟩
  | 48 => ⟨S32, .f32⟩
  | 49 => ⟨S_, .i32⟩
  | 50 => ⟨S1, .i32⟩
  | 51 => ⟨S32x5, .f32⟩
  | 52 => ⟨S32x1, .f32⟩
  | 53 => ⟨S32, .f32⟩
  | 54 => ⟨S_, .f32⟩
  | 55 => ⟨S32, .f32⟩
  | 56 => ⟨S32, .f32⟩
  | 57 => ⟨S32, .f32⟩
  | 58 => ⟨S_, .i32⟩
  | 59 => ⟨S1, .i32⟩
  | 60 => ⟨S32x5, .f32⟩
  | 61 => ⟨S_, .f32⟩
  | 62 => ⟨S_, .f32⟩
  | 63 => ⟨S_, .f32⟩
  | 64 => ⟨S_, .f32⟩
  | 65 => ⟨S32, .f32⟩
  | 66 => ⟨S32, .f32⟩
  | 67 => ⟨S32x5, .f32⟩
  | 68 => ⟨S32x5, .f32⟩
  | 69 => ⟨S32x4, .f32⟩
  | 70 => ⟨S32x1, .f32⟩
  | 71 => ⟨S32x4, .f32⟩
  | 72 => ⟨S32x4, .f32⟩
  | 73 => ⟨S32x131072x3, .f32⟩
  | 74 => ⟨S32x131072x1, .f32⟩
  | 75 => ⟨S32x131072x3, .f32⟩
  | 76 => ⟨S32x131072x3, .f32⟩
  | 77 => ⟨S_, .f32⟩
  | 78 => ⟨S32, .f32⟩
  | 79 => ⟨S_, .f32⟩
  | 80 => ⟨S32, .f32⟩
  | 81 => ⟨S32, .f32⟩
  | 82 => ⟨S32, .f32⟩
  | 83 => ⟨S32x1, .f32⟩
  | 84 => ⟨S32x5, .f32⟩
  | 85 => ⟨S32x1, .f32⟩
  | 86 => ⟨S32, .f32⟩
  | 87 => ⟨S_, .f32⟩
  | 88 => ⟨S32, .f32⟩
  | 89 => ⟨S32, .f32⟩
  | 90 => ⟨S32, .f32⟩
  | 91 => ⟨S_, .i32⟩
  | 92 => ⟨S1, .i32⟩
  | 93 => ⟨S32x5, .f32⟩
  | 94 => ⟨S32x1, .f32⟩
  | 95 => ⟨S32, .f32⟩
  | 96 => ⟨S32, .f32⟩
  | 97 => ⟨S32x1, .f32⟩
  | 98 => ⟨S32, .f32⟩
  | 99 => ⟨S32, .f32⟩
  | 100 => ⟨S_, .f32⟩
  | 101 => ⟨S32, .f32⟩
  | 102 => ⟨S32, .f32⟩
  | 103 => ⟨S32, .f32⟩
  | 104 => ⟨S32, .f32⟩
  | 105 => ⟨S32x1, .f32⟩
  | 106 => ⟨S32, .f32⟩
  | 107 => ⟨S32, .f32⟩
  | 108 => ⟨S32x1, .f32⟩
  | 109 => ⟨S32, .f32⟩
  | 110 => ⟨S_, .f32⟩
  | 111 => ⟨S32, .f32⟩
  | 112 => ⟨S32, .f32⟩
  | 113 => ⟨S32, .f32⟩
  | 114 => ⟨S32, .f32⟩
  | 115 => ⟨S32, .f32⟩
  | 116 => ⟨S_, .i32⟩
  | 117 => ⟨S1, .i32⟩
  | 118 => ⟨S32x5, .f32⟩
  | 119 => ⟨S32x1, .f32⟩
  | 120 => ⟨S32, .f32⟩
  | 121 => ⟨S32, .f32⟩
  | 122 => ⟨S32x1, .f32⟩
  | 123 => ⟨S32, .f32⟩
  | 124 => ⟨S32, .f32⟩
  | 125 => ⟨S_, .f32⟩
  | 126 => ⟨S32, .f32⟩
  | 127 => ⟨S32, .f32⟩
  | _ => ⟨S32x131072x3, .f32⟩

abbrev hbmTy0_20 (i : Nat) : BufTy := match i % 128 with
  | 0 => ⟨S32, .f32⟩
  | 1 => ⟨S32, .f32⟩
  | 2 => ⟨S32x1, .f32⟩
  | 3 => ⟨S32, .f32⟩
  | 4 => ⟨S32, .f32⟩
  | 5 => ⟨S32x1, .f32⟩
  | 6 => ⟨S32, .f32⟩
  | 7 => ⟨S_, .f32⟩
  | 8 => ⟨S32, .f32⟩
  | 9 => ⟨S32, .f32⟩
  | 10 => ⟨S32, .f32⟩
  | 11 => ⟨S32, .f32⟩
  | 12 => ⟨S32, .f32⟩
  | 13 => ⟨S_, .i32⟩
  | 14 => ⟨S1, .i32⟩
  | 15 => ⟨S32x5, .f32⟩
  | 16 => ⟨S32x1, .f32⟩
  | 17 => ⟨S32, .f32⟩
  | 18 => ⟨S32, .f32⟩
  | 19 => ⟨S32x1, .f32⟩
  | 20 => ⟨S32, .f32⟩
  | 21 => ⟨S32, .f32⟩
  | 22 => ⟨S_, .f32⟩
  | 23 => ⟨S32, .f32⟩
  | 24 => ⟨S32, .f32⟩
  | 25 => ⟨S32, .f32⟩
  | 26 => ⟨S32, .f32⟩
  | 27 => ⟨S32x1, .f32⟩
  | 28 => ⟨S32, .f32⟩
  | 29 => ⟨S32, .f32⟩
  | 30 => ⟨S32x1, .f32⟩
  | 31 => ⟨S32, .f32⟩
  | 32 => ⟨S_, .f32⟩
  | 33 => ⟨S32, .f32⟩
  | 34 => ⟨S32, .f32⟩
  | 35 => ⟨S32, .f32⟩
  | 36 => ⟨S32, .f32⟩
  | 37 => ⟨S32, .f32⟩
  | 38 => ⟨S_, .i32⟩
  | 39 => ⟨S1, .i32⟩
  | 40 => ⟨S32x5, .f32⟩
  | 41 => ⟨S32x1, .f32⟩
  | 42 => ⟨S32, .f32⟩
  | 43 => ⟨S32, .f32⟩
  | 44 => ⟨S32x1, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S32, .f32⟩
  | 52 => ⟨S32x1, .f32⟩
  | 53 => ⟨S32, .f32⟩
  | 54 => ⟨S32, .f32⟩
  | 55 => ⟨S32x1, .f32⟩
  | 56 => ⟨S32, .f32⟩
  | 57 => ⟨S_, .f32⟩
  | 58 => ⟨S32, .f32⟩
  | 59 => ⟨S32, .f32⟩
  | 60 => ⟨S32, .f32⟩
  | 61 => ⟨S32, .f32⟩
  | 62 => ⟨S32, .f32⟩
  | 63 => ⟨S_, .i32⟩
  | 64 => ⟨S1, .i32⟩
  | 65 => ⟨S32x5, .f32⟩
  | 66 => ⟨S32x5, .f32⟩
  | 67 => ⟨S32x1, .f32⟩
  | 68 => ⟨S32x5, .f32⟩
  | 69 => ⟨S32x5, .f32⟩
  | 70 => ⟨S32x5, .f32⟩
  | 71 => ⟨S32x1, .f32⟩
  | 72 => ⟨S32, .f32⟩
  | 73 => ⟨S32, .f32⟩
  | 74 => ⟨S32x1, .f32⟩
  | 75 => ⟨S32, .f32⟩
  | 76 => ⟨S32, .f32⟩
  | 77 => ⟨S32, .f32⟩
  | 78 => ⟨S32, .f32⟩
  | 79 => ⟨S32x1x1, .f32⟩
  | 80 => ⟨S32x131072x3, .f32⟩
  | 81 => ⟨S32x131072x3, .f32⟩
  | 82 => ⟨S32x5, .f32⟩
  | 83 => ⟨S32x5, .f32⟩
  | 84 => ⟨S32x4, .f32⟩
  | 85 => ⟨S32x1, .f32⟩
  | 86 => ⟨S32x4, .f32⟩
  | 87 => ⟨S32x4, .f32⟩
  | 88 => ⟨S32x131072x3, .f32⟩
  | 89 => ⟨S32x131072x1, .f32⟩
  | 90 => ⟨S32x131072x3, .f32⟩
  | 91 => ⟨S32x131072x3, .f32⟩
  | 92 => ⟨S_, .f32⟩
  | 93 => ⟨S32, .f32⟩
  | 94 => ⟨S_, .f32⟩
  | 95 => ⟨S32, .f32⟩
  | 96 => ⟨S32, .f32⟩
  | 97 => ⟨S32, .f32⟩
  | 98 => ⟨S32x1, .f32⟩
  | 99 => ⟨S32x5, .f32⟩
  | 100 => ⟨S32x1, .f32⟩
  | 101 => ⟨S32, .f32⟩
  | 102 => ⟨S32, .f32⟩
  | 103 => ⟨S32x1, .f32⟩
  | 104 => ⟨S32, .f32⟩
  | 105 => ⟨S32, .f32⟩
  | 106 => ⟨S_, .f32⟩
  | 107 => ⟨S32, .f32⟩
  | 108 => ⟨S32, .f32⟩
  | 109 => ⟨S32, .f32⟩
  | 110 => ⟨S32, .f32⟩
  | 111 => ⟨S32x1, .f32⟩
  | 112 => ⟨S32, .f32⟩
  | 113 => ⟨S32, .f32⟩
  | 114 => ⟨S32x1, .f32⟩
  | 115 => ⟨S32, .f32⟩
  | 116 => ⟨S_, .f32⟩
  | 117 => ⟨S32, .f32⟩
  | 118 => ⟨S32, .f32⟩
  | 119 => ⟨S32, .f32⟩
  | 120 => ⟨S32, .f32⟩
  | 121 => ⟨S32, .f32⟩
  | 122 => ⟨S_, .i32⟩
  | 123 => ⟨S1, .i32⟩
  | 124 => ⟨S32x5, .f32⟩
  | 125 => ⟨S32x1, .f32⟩
  | 126 => ⟨S32, .f32⟩
  | 127 => ⟨S32, .f32⟩
  | _ => ⟨S32x131072x3, .f32⟩

abbrev hbmTy0_21 (i : Nat) : BufTy := match i % 128 with
  | 0 => ⟨S32x1, .f32⟩
  | 1 => ⟨S32, .f32⟩
  | 2 => ⟨S32, .f32⟩
  | 3 => ⟨S_, .f32⟩
  | 4 => ⟨S32, .f32⟩
  | 5 => ⟨S32, .f32⟩
  | 6 => ⟨S32, .f32⟩
  | 7 => ⟨S32, .f32⟩
  | 8 => ⟨S32x1, .f32⟩
  | 9 => ⟨S32, .f32⟩
  | 10 => ⟨S32, .f32⟩
  | 11 => ⟨S32x1, .f32⟩
  | 12 => ⟨S32, .f32⟩
  | 13 => ⟨S_, .f32⟩
  | 14 => ⟨S32, .f32⟩
  | 15 => ⟨S32, .f32⟩
  | 16 => ⟨S32, .f32⟩
  | 17 => ⟨S32, .f32⟩
  | 18 => ⟨S32, .f32⟩
  | 19 => ⟨S_, .i32⟩
  | 20 => ⟨S1, .i32⟩
  | 21 => ⟨S32x5, .f32⟩
  | 22 => ⟨S32x1, .f32⟩
  | 23 => ⟨S32, .f32⟩
  | 24 => ⟨S32, .f32⟩
  | 25 => ⟨S32x1, .f32⟩
  | 26 => ⟨S32, .f32⟩
  | 27 => ⟨S32, .f32⟩
  | 28 => ⟨S_, .f32⟩
  | 29 => ⟨S32, .f32⟩
  | 30 => ⟨S32, .f32⟩
  | 31 => ⟨S32, .f32⟩
  | 32 => ⟨S32, .f32⟩
  | 33 => ⟨S32x1, .f32⟩
  | 34 => ⟨S32, .f32⟩
  | 35 => ⟨S32, .f32⟩
  | 36 => ⟨S32x1, .f32⟩
  | 37 => ⟨S32, .f32⟩
  | 38 => ⟨S_, .f32⟩
  | 39 => ⟨S32, .f32⟩
  | 40 => ⟨S32, .f32⟩
  | 41 => ⟨S32, .f32⟩
  | 42 => ⟨S32, .f32⟩
  | 43 => ⟨S32, .f32⟩
  | 44 => ⟨S_, .i32⟩
  | 45 => ⟨S1, .i32⟩
  | 46 => ⟨S32x5, .f32⟩
  | 47 => ⟨S32x1, .f32⟩
  | 48 => ⟨S32, .f32⟩
  | 49 => ⟨S32, .f32⟩
  | 50 => ⟨S32x1, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S32, .f32⟩
  | 58 => ⟨S32x1, .f32⟩
  | 59 => ⟨S32, .f32⟩
  | 60 => ⟨S32, .f32⟩
  | 61 => ⟨S32x1, .f32⟩
  | 62 => ⟨S32, .f32⟩
  | 63 => ⟨S_, .f32⟩
  | 64 => ⟨S32, .f32⟩
  | 65 => ⟨S32, .f32⟩
  | 66 => ⟨S32, .f32⟩
  | 67 => ⟨S32, .f32⟩
  | 68 => ⟨S32, .f32⟩
  | 69 => ⟨S_, .i32⟩
  | 70 => ⟨S1, .i32⟩
  | 71 => ⟨S32x5, .f32⟩
  | 72 => ⟨S32x1, .f32⟩
  | 73 => ⟨S32, .f32⟩
  | 74 => ⟨S_, .f32⟩
  | 75 => ⟨S32, .f32⟩
  | 76 => ⟨S32, .f32⟩
  | 77 => ⟨S32, .f32⟩
  | 78 => ⟨S_, .i32⟩
  | 79 => ⟨S1, .i32⟩
  | 80 => ⟨S32x5, .f32⟩
  | 81 => ⟨S_, .f32⟩
  | 82 => ⟨S_, .f32⟩
  | 83 => ⟨S_, .f32⟩
  | 84 => ⟨S_, .f32⟩
  | 85 => ⟨S32, .f32⟩
  | 86 => ⟨S32, .f32⟩
  | 87 => ⟨S32x5, .f32⟩
  | 88 => ⟨S32x5, .f32⟩
  | 89 => ⟨S32x4, .f32⟩
  | 90 => ⟨S32x1, .f32⟩
  | 91 => ⟨S32x4, .f32⟩
  | 92 => ⟨S32x4, .f32⟩
  | 93 => ⟨S32x131072x3, .f32⟩
  | 94 => ⟨S32x131072x1, .f32⟩
  | 95 => ⟨S32x131072x3, .f32⟩
  | 96 => ⟨S32x131072x3, .f32⟩
  | 97 => ⟨S_, .f32⟩
  | 98 => ⟨S32, .f32⟩
  | 99 => ⟨S_, .f32⟩
  | 100 => ⟨S32, .f32⟩
  | 101 => ⟨S32, .f32⟩
  | 102 => ⟨S32, .f32⟩
  | 103 => ⟨S32x1, .f32⟩
  | 104 => ⟨S32x5, .f32⟩
  | 105 => ⟨S32x1, .f32⟩
  | 106 => ⟨S32, .f32⟩
  | 107 => ⟨S_, .f32⟩
  | 108 => ⟨S32, .f32⟩
  | 109 => ⟨S32, .f32⟩
  | 110 => ⟨S32, .f32⟩
  | 111 => ⟨S_, .i32⟩
  | 112 => ⟨S1, .i32⟩
  | 113 => ⟨S32x5, .f32⟩
  | 114 => ⟨S32x1, .f32⟩
  | 115 => ⟨S32, .f32⟩
  | 116 => ⟨S32, .f32⟩
  | 117 => ⟨S32x1, .f32⟩
  | 118 => ⟨S32, .f32⟩
  | 119 => ⟨S32, .f32⟩
  | 120 => ⟨S_, .f32⟩
  | 121 => ⟨S32, .f32⟩
  | 122 => ⟨S32, .f32⟩
  | 123 => ⟨S32, .f32⟩
  | 124 => ⟨S32, .f32⟩
  | 125 => ⟨S32x1, .f32⟩
  | 126 => ⟨S32, .f32⟩
  | 127 => ⟨S32, .f32⟩
  | _ => ⟨S32x131072x3, .f32⟩

abbrev hbmTy0_22 (i : Nat) : BufTy := match i % 128 with
  | 0 => ⟨S32x1, .f32⟩
  | 1 => ⟨S32, .f32⟩
  | 2 => ⟨S_, .f32⟩
  | 3 => ⟨S32, .f32⟩
  | 4 => ⟨S32, .f32⟩
  | 5 => ⟨S32, .f32⟩
  | 6 => ⟨S32, .f32⟩
  | 7 => ⟨S32, .f32⟩
  | 8 => ⟨S_, .i32⟩
  | 9 => ⟨S1, .i32⟩
  | 10 => ⟨S32x5, .f32⟩
  | 11 => ⟨S32x1, .f32⟩
  | 12 => ⟨S32, .f32⟩
  | 13 => ⟨S32, .f32⟩
  | 14 => ⟨S32x1, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S32, .f32⟩
  | 22 => ⟨S32x1, .f32⟩
  | 23 => ⟨S32, .f32⟩
  | 24 => ⟨S32, .f32⟩
  | 25 => ⟨S32x1, .f32⟩
  | 26 => ⟨S32, .f32⟩
  | 27 => ⟨S_, .f32⟩
  | 28 => ⟨S32, .f32⟩
  | 29 => ⟨S32, .f32⟩
  | 30 => ⟨S32, .f32⟩
  | 31 => ⟨S32, .f32⟩
  | 32 => ⟨S32, .f32⟩
  | 33 => ⟨S_, .i32⟩
  | 34 => ⟨S1, .i32⟩
  | 35 => ⟨S32x5, .f32⟩
  | 36 => ⟨S32x1, .f32⟩
  | 37 => ⟨S32, .f32⟩
  | 38 => ⟨S32, .f32⟩
  | 39 => ⟨S32x1, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S32, .f32⟩
  | 47 => ⟨S32x1, .f32⟩
  | 48 => ⟨S32, .f32⟩
  | 49 => ⟨S32, .f32⟩
  | 50 => ⟨S32x1, .f32⟩
  | 51 => ⟨S32, .f32⟩
  | 52 => ⟨S_, .f32⟩
  | 53 => ⟨S32, .f32⟩
  | 54 => ⟨S32, .f32⟩
  | 55 => ⟨S32, .f32⟩
  | 56 => ⟨S32, .f32⟩
  | 57 => ⟨S32, .f32⟩
  | 58 => ⟨S_, .i32⟩
  | 59 => ⟨S1, .i32⟩
  | 60 => ⟨S32x5, .f32⟩
  | 61 => ⟨S32x1, .f32⟩
  | 62 => ⟨S32, .f32⟩
  | 63 => ⟨S32, .f32⟩
  | 64 => ⟨S32x1, .f32⟩
  | 65 => ⟨S32, .f32⟩
  | 66 => ⟨S32, .f32⟩
  | 67 => ⟨S_, .f32⟩
  | 68 => ⟨S32, .f32⟩
  | 69 => ⟨S32, .f32⟩
  | 70 => ⟨S32, .f32⟩
  | 71 => ⟨S32, .f32⟩
  | 72 => ⟨S32x1, .f32⟩
  | 73 => ⟨S32, .f32⟩
  | 74 => ⟨S32, .f32⟩
  | 75 => ⟨S32x1, .f32⟩
  | 76 => ⟨S32, .f32⟩
  | 77 => ⟨S_, .f32⟩
  | 78 => ⟨S32, .f32⟩
  | 79 => ⟨S32, .f32⟩
  | 80 => ⟨S32, .f32⟩
  | 81 => ⟨S32, .f32⟩
  | 82 => ⟨S32, .f32⟩
  | 83 => ⟨S_, .i32⟩
  | 84 => ⟨S1, .i32⟩
  | 85 => ⟨S32x5, .f32⟩
  | 86 => ⟨S32x5, .f32⟩
  | 87 => ⟨S32x1, .f32⟩
  | 88 => ⟨S32x5, .f32⟩
  | 89 => ⟨S32x5, .f32⟩
  | 90 => ⟨S32x5, .f32⟩
  | 91 => ⟨S32x1, .f32⟩
  | 92 => ⟨S32, .f32⟩
  | 93 => ⟨S32, .f32⟩
  | 94 => ⟨S32x1, .f32⟩
  | 95 => ⟨S32, .f32⟩
  | 96 => ⟨S32, .f32⟩
  | 97 => ⟨S32, .f32⟩
  | 98 => ⟨S32, .f32⟩
  | 99 => ⟨S32x1x1, .f32⟩
  | 100 => ⟨S32x131072x3, .f32⟩
  | 101 => ⟨S32x131072x3, .f32⟩
  | 102 => ⟨S32x5, .f32⟩
  | 103 => ⟨S32x5, .f32⟩
  | 104 => ⟨S32x4, .f32⟩
  | 105 => ⟨S32x1, .f32⟩
  | 106 => ⟨S32x4, .f32⟩
  | 107 => ⟨S32x4, .f32⟩
  | 108 => ⟨S32x131072x3, .f32⟩
  | 109 => ⟨S32x131072x1, .f32⟩
  | 110 => ⟨S32x131072x3, .f32⟩
  | 111 => ⟨S32x131072x3, .f32⟩
  | 112 => ⟨S_, .f32⟩
  | 113 => ⟨S32, .f32⟩
  | 114 => ⟨S_, .f32⟩
  | 115 => ⟨S32, .f32⟩
  | 116 => ⟨S32, .f32⟩
  | 117 => ⟨S32, .f32⟩
  | 118 => ⟨S32x1, .f32⟩
  | 119 => ⟨S32x5, .f32⟩
  | 120 => ⟨S32x1, .f32⟩
  | 121 => ⟨S32, .f32⟩
  | 122 => ⟨S32, .f32⟩
  | 123 => ⟨S32x1, .f32⟩
  | 124 => ⟨S32, .f32⟩
  | 125 => ⟨S32, .f32⟩
  | 126 => ⟨S_, .f32⟩
  | 127 => ⟨S32, .f32⟩
  | _ => ⟨S32x131072x3, .f32⟩

abbrev hbmTy0_23 (i : Nat) : BufTy := match i % 128 with
  | 0 => ⟨S32, .f32⟩
  | 1 => ⟨S32, .f32⟩
  | 2 => ⟨S32, .f32⟩
  | 3 => ⟨S32x1, .f32⟩
  | 4 => ⟨S32, .f32⟩
  | 5 => ⟨S32, .f32⟩
  | 6 => ⟨S32x1, .f32⟩
  | 7 => ⟨S32, .f32⟩
  | 8 => ⟨S_, .f32⟩
  | 9 => ⟨S32, .f32⟩
  | 10 => ⟨S32, .f32⟩
  | 11 => ⟨S32, .f32⟩
  | 12 => ⟨S32, .f32⟩
  | 13 => ⟨S32, .f32⟩
  | 14 => ⟨S_, .i32⟩
  | 15 => ⟨S1, .i32⟩
  | 16 => ⟨S32x5, .f32⟩
  | 17 => ⟨S32x1, .f32⟩
  | 18 => ⟨S32, .f32⟩
  | 19 => ⟨S32, .f32⟩
  | 20 => ⟨S32x1, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S32, .f32⟩
  | 28 => ⟨S32x1, .f32⟩
  | 29 => ⟨S32, .f32⟩
  | 30 => ⟨S32, .f32⟩
  | 31 => ⟨S32x1, .f32⟩
  | 32 => ⟨S32, .f32⟩
  | 33 => ⟨S_, .f32⟩
  | 34 => ⟨S32, .f32⟩
  | 35 => ⟨S32, .f32⟩
  | 36 => ⟨S32, .f32⟩
  | 37 => ⟨S32, .f32⟩
  | 38 => ⟨S32, .f32⟩
  | 39 => ⟨S_, .i32⟩
  | 40 => ⟨S1, .i32⟩
  | 41 => ⟨S32x5, .f32⟩
  | 42 => ⟨S32x1, .f32⟩
  | 43 => ⟨S32, .f32⟩
  | 44 => ⟨S32, .f32⟩
  | 45 => ⟨S32x1, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S32, .f32⟩
  | 53 => ⟨S32x1, .f32⟩
  | 54 => ⟨S32, .f32⟩
  | 55 => ⟨S32, .f32⟩
  | 56 => ⟨S32x1, .f32⟩
  | 57 => ⟨S32, .f32⟩
  | 58 => ⟨S_, .f32⟩
  | 59 => ⟨S32, .f32⟩
  | 60 => ⟨S32, .f32⟩
  | 61 => ⟨S32, .f32⟩
  | 62 => ⟨S32, .f32⟩
  | 63 => ⟨S32, .f32⟩
  | 64 => ⟨S_, .i32⟩
  | 65 => ⟨S1, .i32⟩
  | 66 => ⟨S32x5, .f32⟩
  | 67 => ⟨S32x1, .f32⟩
  | 68 => ⟨S32, .f32⟩
  | 69 => ⟨S32, .f32⟩
  | 70 => ⟨S32x1, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S32, .f32⟩
  | 78 => ⟨S32x1, .f32⟩
  | 79 => ⟨S32, .f32⟩
  | 80 => ⟨S32, .f32⟩
  | 81 => ⟨S32x1, .f32⟩
  | 82 => ⟨S32, .f32⟩
  | 83 => ⟨S_, .f32⟩
  | 84 => ⟨S32, .f32⟩
  | 85 => ⟨S32, .f32⟩
  | 86 => ⟨S32, .f32⟩
  | 87 => ⟨S32, .f32⟩
  | 88 => ⟨S32, .f32⟩
  | 89 => ⟨S_, .i32⟩
  | 90 => ⟨S1, .i32⟩
  | 91 => ⟨S32x5, .f32⟩
  | 92 => ⟨S32x1, .f32⟩
  | 93 => ⟨S32, .f32⟩
  | 94 => ⟨S_, .f32⟩
  | 95 => ⟨S32, .f32⟩
  | 96 => ⟨S32, .f32⟩
  | 97 => ⟨S32, .f32⟩
  | 98 => ⟨S_, .i32⟩
  | 99 => ⟨S1, .i32⟩
  | 100 => ⟨S32x5, .f32⟩
  | 101 => ⟨S_, .f32⟩
  | 102 => ⟨S_, .f32⟩
  | 103 => ⟨S_, .f32⟩
  | 104 => ⟨S_, .f32⟩
  | 105 => ⟨S32, .f32⟩
  | 106 => ⟨S32, .f32⟩
  | 107 => ⟨S32x5, .f32⟩
  | 108 => ⟨S32x5, .f32⟩
  | 109 => ⟨S32x4, .f32⟩
  | 110 => ⟨S32x1, .f32⟩
  | 111 => ⟨S32x4, .f32⟩
  | 112 => ⟨S32x4, .f32⟩
  | 113 => ⟨S32x131072x3, .f32⟩
  | 114 => ⟨S32x131072x1, .f32⟩
  | 115 => ⟨S32x131072x3, .f32⟩
  | 116 => ⟨S32x131072x3, .f32⟩
  | 117 => ⟨S_, .f32⟩
  | 118 => ⟨S32, .f32⟩
  | 119 => ⟨S_, .f32⟩
  | 120 => ⟨S32, .f32⟩
  | 121 => ⟨S32, .f32⟩
  | 122 => ⟨S32, .f32⟩
  | 123 => ⟨S32x1, .f32⟩
  | 124 => ⟨S32x5, .f32⟩
  | 125 => ⟨S32x1, .f32⟩
  | 126 => ⟨S32, .f32⟩
  | 127 => ⟨S_, .f32⟩
  | _ => ⟨S32x131072x3, .f32⟩

abbrev hbmTy0_24 (i : Nat) : BufTy := match i % 128 with
  | 0 => ⟨S32, .f32⟩
  | 1 => ⟨S32, .f32⟩
  | 2 => ⟨S32, .f32⟩
  | 3 => ⟨S_, .i32⟩
  | 4 => ⟨S1, .i32⟩
  | 5 => ⟨S32x5, .f32⟩
  | 6 => ⟨S32x1, .f32⟩
  | 7 => ⟨S32, .f32⟩
  | 8 => ⟨S32, .f32⟩
  | 9 => ⟨S32x1, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S32, .f32⟩
  | 17 => ⟨S32x1, .f32⟩
  | 18 => ⟨S32, .f32⟩
  | 19 => ⟨S32, .f32⟩
  | 20 => ⟨S32x1, .f32⟩
  | 21 => ⟨S32, .f32⟩
  | 22 => ⟨S_, .f32⟩
  | 23 => ⟨S32, .f32⟩
  | 24 => ⟨S32, .f32⟩
  | 25 => ⟨S32, .f32⟩
  | 26 => ⟨S32, .f32⟩
  | 27 => ⟨S32, .f32⟩
  | 28 => ⟨S_, .i32⟩
  | 29 => ⟨S1, .i32⟩
  | 30 => ⟨S32x5, .f32⟩
  | 31 => ⟨S32x1, .f32⟩
  | 32 => ⟨S32, .f32⟩
  | 33 => ⟨S32, .f32⟩
  | 34 => ⟨S32x1, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S32, .f32⟩
  | 42 => ⟨S32x1, .f32⟩
  | 43 => ⟨S32, .f32⟩
  | 44 => ⟨S32, .f32⟩
  | 45 => ⟨S32x1, .f32⟩
  | 46 => ⟨S32, .f32⟩
  | 47 => ⟨S_, .f32⟩
  | 48 => ⟨S32, .f32⟩
  | 49 => ⟨S32, .f32⟩
  | 50 => ⟨S32, .f32⟩
  | 51 => ⟨S32, .f32⟩
  | 52 => ⟨S32, .f32⟩
  | 53 => ⟨S_, .i32⟩
  | 54 => ⟨S1, .i32⟩
  | 55 => ⟨S32x5, .f32⟩
  | 56 => ⟨S32x1, .f32⟩
  | 57 => ⟨S32, .f32⟩
  | 58 => ⟨S32, .f32⟩
  | 59 => ⟨S32x1, .f32⟩
  | 60 => ⟨S32, .f32⟩
  | 61 => ⟨S32, .f32⟩
  | 62 => ⟨S_, .f32⟩
  | 63 => ⟨S32, .f32⟩
  | 64 => ⟨S32, .f32⟩
  | 65 => ⟨S32, .f32⟩
  | 66 => ⟨S32, .f32⟩
  | 67 => ⟨S32x1, .f32⟩
  | 68 => ⟨S32, .f32⟩
  | 69 => ⟨S32, .f32⟩
  | 70 => ⟨S32x1, .f32⟩
  | 71 => ⟨S32, .f32⟩
  | 72 => ⟨S_, .f32⟩
  | 73 => ⟨S32, .f32⟩
  | 74 => ⟨S32, .f32⟩
  | 75 => ⟨S32, .f32⟩
  | 76 => ⟨S32, .f32⟩
  | 77 => ⟨S32, .f32⟩
  | 78 => ⟨S_, .i32⟩
  | 79 => ⟨S1, .i32⟩
  | 80 => ⟨S32x5, .f32⟩
  | 81 => ⟨S32x1, .f32⟩
  | 82 => ⟨S32, .f32⟩
  | 83 => ⟨S32, .f32⟩
  | 84 => ⟨S32x1, .f32⟩
  | 85 => ⟨S32, .f32⟩
  | 86 => ⟨S32, .f32⟩
  | 87 => ⟨S_, .f32⟩
  | 88 => ⟨S32, .f32⟩
  | 89 => ⟨S32, .f32⟩
  | 90 => ⟨S32, .f32⟩
  | 91 => ⟨S32, .f32⟩
  | 92 => ⟨S32x1, .f32⟩
  | 93 => ⟨S32, .f32⟩
  | 94 => ⟨S32, .f32⟩
  | 95 => ⟨S32x1, .f32⟩
  | 96 => ⟨S32, .f32⟩
  | 97 => ⟨S_, .f32⟩
  | 98 => ⟨S32, .f32⟩
  | 99 => ⟨S32, .f32⟩
  | 100 => ⟨S32, .f32⟩
  | 101 => ⟨S32, .f32⟩
  | 102 => ⟨S32, .f32⟩
  | 103 => ⟨S_, .i32⟩
  | 104 => ⟨S1, .i32⟩
  | 105 => ⟨S32x5, .f32⟩
  | 106 => ⟨S32x5, .f32⟩
  | 107 => ⟨S32x1, .f32⟩
  | 108 => ⟨S32x5, .f32⟩
  | 109 => ⟨S32x5, .f32⟩
  | 110 => ⟨S32x5, .f32⟩
  | 111 => ⟨S32x1, .f32⟩
  | 112 => ⟨S32, .f32⟩
  | 113 => ⟨S32, .f32⟩
  | 114 => ⟨S32x1, .f32⟩
  | 115 => ⟨S32, .f32⟩
  | 116 => ⟨S32, .f32⟩
  | 117 => ⟨S32, .f32⟩
  | 118 => ⟨S32, .f32⟩
  | 119 => ⟨S32x1x1, .f32⟩
  | 120 => ⟨S32x131072x3, .f32⟩
  | 121 => ⟨S32x131072x3, .f32⟩
  | 122 => ⟨S32x5, .f32⟩
  | 123 => ⟨S32x5, .f32⟩
  | 124 => ⟨S32x4, .f32⟩
  | 125 => ⟨S32x1, .f32⟩
  | 126 => ⟨S32x4, .f32⟩
  | 127 => ⟨S32x4, .f32⟩
  | _ => ⟨S32x131072x3, .f32⟩

abbrev hbmTy0_25 (i : Nat) : BufTy := match i % 128 with
  | 0 => ⟨S32x131072x3, .f32⟩
  | 1 => ⟨S32x131072x1, .f32⟩
  | 2 => ⟨S32x131072x3, .f32⟩
  | 3 => ⟨S32x131072x3, .f32⟩
  | 4 => ⟨S_, .f32⟩
  | 5 => ⟨S32, .f32⟩
  | 6 => ⟨S_, .f32⟩
  | 7 => ⟨S32, .f32⟩
  | 8 => ⟨S32, .f32⟩
  | 9 => ⟨S32, .f32⟩
  | 10 => ⟨S32x1, .f32⟩
  | 11 => ⟨S32x5, .f32⟩
  | 12 => ⟨S32x1, .f32⟩
  | 13 => ⟨S32, .f32⟩
  | 14 => ⟨S32, .f32⟩
  | 15 => ⟨S32x1, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S32, .f32⟩
  | 23 => ⟨S32x1, .f32⟩
  | 24 => ⟨S32, .f32⟩
  | 25 => ⟨S32, .f32⟩
  | 26 => ⟨S32x1, .f32⟩
  | 27 => ⟨S32, .f32⟩
  | 28 => ⟨S_, .f32⟩
  | 29 => ⟨S32, .f32⟩
  | 30 => ⟨S32, .f32⟩
  | 31 => ⟨S32, .f32⟩
  | 32 => ⟨S32, .f32⟩
  | 33 => ⟨S32, .f32⟩
  | 34 => ⟨S_, .i32⟩
  | 35 => ⟨S1, .i32⟩
  | 36 => ⟨S32x5, .f32⟩
  | 37 => ⟨S32x1, .f32⟩
  | 38 => ⟨S32, .f32⟩
  | 39 => ⟨S32, .f32⟩
  | 40 => ⟨S32x1, .f32⟩
  | 41 => ⟨S32, .f32⟩
  | 42 => ⟨S32, .f32⟩
  | 43 => ⟨S_, .f32⟩
  | 44 => ⟨S32, .f32⟩
  | 45 => ⟨S32, .f32⟩
  | 46 => ⟨S32, .f32⟩
  | 47 => ⟨S32, .f32⟩
  | 48 => ⟨S32x1, .f32⟩
  | 49 => ⟨S32, .f32⟩
  | 50 => ⟨S32, .f32⟩
  | 51 => ⟨S32x1, .f32⟩
  | 52 => ⟨S32, .f32⟩
  | 53 => ⟨S_, .f32⟩
  | 54 => ⟨S32, .f32⟩
  | 55 => ⟨S32, .f32⟩
  | 56 => ⟨S32, .f32⟩
  | 57 => ⟨S32, .f32⟩
  | 58 => ⟨S32, .f32⟩
  | 59 => ⟨S_, .i32⟩
  | 60 => ⟨S1, .i32⟩
  | 61 => ⟨S32x5, .f32⟩
  | 62 => ⟨S32x1, .f32⟩
  | 63 => ⟨S32, .f32⟩
  | 64 => ⟨S32, .f32⟩
  | 65 => ⟨S32x1, .f32⟩
  | 66 => ⟨S32, .f32⟩
  | 67 => ⟨S32, .f32⟩
  | 68 => ⟨S_, .f32⟩
  | 69 => ⟨S32, .f32⟩
  | 70 => ⟨S32, .f32⟩
  | 71 => ⟨S32, .f32⟩
  | 72 => ⟨S32, .f32⟩
  | 73 => ⟨S32x1, .f32⟩
  | 74 => ⟨S32, .f32⟩
  | 75 => ⟨S32, .f32⟩
  | 76 => ⟨S32x1, .f32⟩
  | 77 => ⟨S32, .f32⟩
  | 78 => ⟨S_, .f32⟩
  | 79 => ⟨S32, .f32⟩
  | 80 => ⟨S32, .f32⟩
  | 81 => ⟨S32, .f32⟩
  | 82 => ⟨S32, .f32⟩
  | 83 => ⟨S32, .f32⟩
  | 84 => ⟨S_, .i32⟩
  | 85 => ⟨S1, .i32⟩
  | 86 => ⟨S32x5, .f32⟩
  | 87 => ⟨S32x1, .f32⟩
  | 88 => ⟨S32, .f32⟩
  | 89 => ⟨S32, .f32⟩
  | 90 => ⟨S32x1, .f32⟩
  | 91 => ⟨S32, .f32⟩
  | 92 => ⟨S32, .f32⟩
  | 93 => ⟨S_, .f32⟩
  | 94 => ⟨S32, .f32⟩
  | 95 => ⟨S32, .f32⟩
  | 96 => ⟨S32, .f32⟩
  | 97 => ⟨S32, .f32⟩
  | 98 => ⟨S32x1, .f32⟩
  | 99 => ⟨S32, .f32⟩
  | 100 => ⟨S32, .f32⟩
  | 101 => ⟨S32x1, .f32⟩
  | 102 => ⟨S32, .f32⟩
  | 103 => ⟨S_, .f32⟩
  | 104 => ⟨S32, .f32⟩
  | 105 => ⟨S32, .f32⟩
  | 106 => ⟨S32, .f32⟩
  | 107 => ⟨S32, .f32⟩
  | 108 => ⟨S32, .f32⟩
  | 109 => ⟨S_, .i32⟩
  | 110 => ⟨S1, .i32⟩
  | 111 => ⟨S32x5, .f32⟩
  | 112 => ⟨S32x1, .f32⟩
  | 113 => ⟨S32, .f32⟩
  | 114 => ⟨S_, .f32⟩
  | 115 => ⟨S32, .f32⟩
  | 116 => ⟨S32, .f32⟩
  | 117 => ⟨S32, .f32⟩
  | 118 => ⟨S_, .i32⟩
  | 119 => ⟨S1, .i32⟩
  | 120 => ⟨S32x5, .f32⟩
  | 121 => ⟨S_, .f32⟩
  | 122 => ⟨S_, .f32⟩
  | 123 => ⟨S_, .f32⟩
  | 124 => ⟨S_, .f32⟩
  | 125 => ⟨S32, .f32⟩
  | 126 => ⟨S32, .f32⟩
  | 127 => ⟨S32x5, .f32⟩
  | _ => ⟨S32x131072x3, .f32⟩

abbrev hbmTy0_26 (i : Nat) : BufTy := match i % 128 with
  | 0 => ⟨S32x5, .f32⟩
  | 1 => ⟨S32x4, .f32⟩
  | 2 => ⟨S32x1, .f32⟩
  | 3 => ⟨S32x4, .f32⟩
  | 4 => ⟨S32x4, .f32⟩
  | 5 => ⟨S32x131072x3, .f32⟩
  | 6 => ⟨S32x131072x1, .f32⟩
  | 7 => ⟨S32x131072x3, .f32⟩
  | 8 => ⟨S32x131072x3, .f32⟩
  | 9 => ⟨S_, .f32⟩
  | 10 => ⟨S32, .f32⟩
  | 11 => ⟨S_, .f32⟩
  | 12 => ⟨S32, .f32⟩
  | 13 => ⟨S32, .f32⟩
  | 14 => ⟨S32, .f32⟩
  | 15 => ⟨S32x1, .f32⟩
  | 16 => ⟨S32x5, .f32⟩
  | 17 => ⟨S32x1, .f32⟩
  | 18 => ⟨S32, .f32⟩
  | 19 => ⟨S_, .f32⟩
  | 20 => ⟨S32, .f32⟩
  | 21 => ⟨S32, .f32⟩
  | 22 => ⟨S32, .f32⟩
  | 23 => ⟨S_, .i32⟩
  | 24 => ⟨S1, .i32⟩
  | 25 => ⟨S32x5, .f32⟩
  | 26 => ⟨S32x1, .f32⟩
  | 27 => ⟨S32, .f32⟩
  | 28 => ⟨S32, .f32⟩
  | 29 => ⟨S32x1, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S32, .f32⟩
  | 37 => ⟨S32x1, .f32⟩
  | 38 => ⟨S32, .f32⟩
  | 39 => ⟨S32, .f32⟩
  | 40 => ⟨S32x1, .f32⟩
  | 41 => ⟨S32, .f32⟩
  | 42 => ⟨S_, .f32⟩
  | 43 => ⟨S32, .f32⟩
  | 44 => ⟨S32, .f32⟩
  | 45 => ⟨S32, .f32⟩
  | 46 => ⟨S32, .f32⟩
  | 47 => ⟨S32, .f32⟩
  | 48 => ⟨S_, .i32⟩
  | 49 => ⟨S1, .i32⟩
  | 50 => ⟨S32x5, .f32⟩
  | 51 => ⟨S32x1, .f32⟩
  | 52 => ⟨S32, .f32⟩
  | 53 => ⟨S32, .f32⟩
  | 54 => ⟨S32x1, .f32⟩
  | 55 => ⟨S32, .f32⟩
  | 56 => ⟨S32, .f32⟩
  | 57 => ⟨S_, .f32⟩
  | 58 => ⟨S32, .f32⟩
  | 59 => ⟨S32, .f32⟩
  | 60 => ⟨S32, .f32⟩
  | 61 => ⟨S32, .f32⟩
  | 62 => ⟨S32x1, .f32⟩
  | 63 => ⟨S32, .f32⟩
  | 64 => ⟨S32, .f32⟩
  | 65 => ⟨S32x1, .f32⟩
  | 66 => ⟨S32, .f32⟩
  | 67 => ⟨S_, .f32⟩
  | 68 => ⟨S32, .f32⟩
  | 69 => ⟨S32, .f32⟩
  | 70 => ⟨S32, .f32⟩
  | 71 => ⟨S32, .f32⟩
  | 72 => ⟨S32, .f32⟩
  | 73 => ⟨S_, .i32⟩
  | 74 => ⟨S1, .i32⟩
  | 75 => ⟨S32x5, .f32⟩
  | 76 => ⟨S32x1, .f32⟩
  | 77 => ⟨S32, .f32⟩
  | 78 => ⟨S32, .f32⟩
  | 79 => ⟨S32x1, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S32, .f32⟩
  | 87 => ⟨S32x1, .f32⟩
  | 88 => ⟨S32, .f32⟩
  | 89 => ⟨S32, .f32⟩
  | 90 => ⟨S32x1, .f32⟩
  | 91 => ⟨S32, .f32⟩
  | 92 => ⟨S_, .f32⟩
  | 93 => ⟨S32, .f32⟩
  | 94 => ⟨S32, .f32⟩
  | 95 => ⟨S32, .f32⟩
  | 96 => ⟨S32, .f32⟩
  | 97 => ⟨S32, .f32⟩
  | 98 => ⟨S_, .i32⟩
  | 99 => ⟨S1, .i32⟩
  | 100 => ⟨S32x5, .f32⟩
  | 101 => ⟨S32x1, .f32⟩
  | 102 => ⟨S32, .f32⟩
  | 103 => ⟨S32, .f32⟩
  | 104 => ⟨S32x1, .f32⟩
  | 105 => ⟨S32, .f32⟩
  | 106 => ⟨S32, .f32⟩
  | 107 => ⟨S_, .f32⟩
  | 108 => ⟨S32, .f32⟩
  | 109 => ⟨S32, .f32⟩
  | 110 => ⟨S32, .f32⟩
  | 111 => ⟨S32, .f32⟩
  | 112 => ⟨S32x1, .f32⟩
  | 113 => ⟨S32, .f32⟩
  | 114 => ⟨S32, .f32⟩
  | 115 => ⟨S32x1, .f32⟩
  | 116 => ⟨S32, .f32⟩
  | 117 => ⟨S_, .f32⟩
  | 118 => ⟨S32, .f32⟩
  | 119 => ⟨S32, .f32⟩
  | 120 => ⟨S32, .f32⟩
  | 121 => ⟨S32, .f32⟩
  | 122 => ⟨S32, .f32⟩
  | 123 => ⟨S_, .i32⟩
  | 124 => ⟨S1, .i32⟩
  | 125 => ⟨S32x5, .f32⟩
  | 126 => ⟨S32x5, .f32⟩
  | 127 => ⟨S32x1, .f32⟩
  | _ => ⟨S32x131072x3, .f32⟩

abbrev hbmTy0_27 (i : Nat) : BufTy := match i % 128 with
  | 0 => ⟨S32x5, .f32⟩
  | 1 => ⟨S32x5, .f32⟩
  | 2 => ⟨S32x5, .f32⟩
  | 3 => ⟨S32x1, .f32⟩
  | 4 => ⟨S32, .f32⟩
  | 5 => ⟨S32, .f32⟩
  | 6 => ⟨S32x1, .f32⟩
  | 7 => ⟨S32, .f32⟩
  | 8 => ⟨S32, .f32⟩
  | 9 => ⟨S32, .f32⟩
  | 10 => ⟨S32, .f32⟩
  | 11 => ⟨S32x1x1, .f32⟩
  | 12 => ⟨S32x131072x3, .f32⟩
  | 13 => ⟨S32x131072x3, .f32⟩
  | 14 => ⟨S32x5, .f32⟩
  | 15 => ⟨S32x5, .f32⟩
  | 16 => ⟨S32x4, .f32⟩
  | 17 => ⟨S32x1, .f32⟩
  | 18 => ⟨S32x4, .f32⟩
  | 19 => ⟨S32x4, .f32⟩
  | 20 => ⟨S32x131072x3, .f32⟩
  | 21 => ⟨S32x131072x1, .f32⟩
  | 22 => ⟨S32x131072x3, .f32⟩
  | 23 => ⟨S32x131072x3, .f32⟩
  | 24 => ⟨S_, .f32⟩
  | 25 => ⟨S32, .f32⟩
  | 26 => ⟨S_, .f32⟩
  | 27 => ⟨S32, .f32⟩
  | 28 => ⟨S32, .f32⟩
  | 29 => ⟨S32, .f32⟩
  | 30 => ⟨S32x1, .f32⟩
  | 31 => ⟨S32x5, .f32⟩
  | 32 => ⟨S32x1, .f32⟩
  | 33 => ⟨S32, .f32⟩
  | 34 => ⟨S32, .f32⟩
  | 35 => ⟨S32x1, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S32, .f32⟩
  | 43 => ⟨S32x1, .f32⟩
  | 44 => ⟨S32, .f32⟩
  | 45 => ⟨S32, .f32⟩
  | 46 => ⟨S32x1, .f32⟩
  | 47 => ⟨S32, .f32⟩
  | 48 => ⟨S_, .f32⟩
  | 49 => ⟨S32, .f32⟩
  | 50 => ⟨S32, .f32⟩
  | 51 => ⟨S32, .f32⟩
  | 52 => ⟨S32, .f32⟩
  | 53 => ⟨S32, .f32⟩
  | 54 => ⟨S_, .i32⟩
  | 55 => ⟨S1, .i32⟩
  | 56 => ⟨S32x5, .f32⟩
  | 57 => ⟨S32x1, .f32⟩
  | 58 => ⟨S32, .f32⟩
  | 59 => ⟨S32, .f32⟩
  | 60 => ⟨S32x1, .f32⟩
  | 61 => ⟨S32, .f32⟩
  | 62 => ⟨S32, .f32⟩
  | 63 => ⟨S_, .f32⟩
  | 64 => ⟨S32, .f32⟩
  | 65 => ⟨S32, .f32⟩
  | 66 => ⟨S32, .f32⟩
  | 67 => ⟨S32, .f32⟩
  | 68 => ⟨S32x1, .f32⟩
  | 69 => ⟨S32, .f32⟩
  | 70 => ⟨S32, .f32⟩
  | 71 => ⟨S32x1, .f32⟩
  | 72 => ⟨S32, .f32⟩
  | 73 => ⟨S_, .f32⟩
  | 74 => ⟨S32, .f32⟩
  | 75 => ⟨S32, .f32⟩
  | 76 => ⟨S32, .f32⟩
  | 77 => ⟨S32, .f32⟩
  | 78 => ⟨S32, .f32⟩
  | 79 => ⟨S_, .i32⟩
  | 80 => ⟨S1, .i32⟩
  | 81 => ⟨S32x5, .f32⟩
  | 82 => ⟨S32x1, .f32⟩
  | 83 => ⟨S32, .f32⟩
  | 84 => ⟨S32, .f32⟩
  | 85 => ⟨S32x1, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S32, .f32⟩
  | 93 => ⟨S32x1, .f32⟩
  | 94 => ⟨S32, .f32⟩
  | 95 => ⟨S32, .f32⟩
  | 96 => ⟨S32x1, .f32⟩
  | 97 => ⟨S32, .f32⟩
  | 98 => ⟨S_, .f32⟩
  | 99 => ⟨S32, .f32⟩
  | 100 => ⟨S32, .f32⟩
  | 101 => ⟨S32, .f32⟩
  | 102 => ⟨S32, .f32⟩
  | 103 => ⟨S32, .f32⟩
  | 104 => ⟨S_, .i32⟩
  | 105 => ⟨S1, .i32⟩
  | 106 => ⟨S32x5, .f32⟩
  | 107 => ⟨S32x1, .f32⟩
  | 108 => ⟨S32, .f32⟩
  | 109 => ⟨S32, .f32⟩
  | 110 => ⟨S32x1, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S32, .f32⟩
  | 118 => ⟨S32x1, .f32⟩
  | 119 => ⟨S32, .f32⟩
  | 120 => ⟨S32, .f32⟩
  | 121 => ⟨S32x1, .f32⟩
  | 122 => ⟨S32, .f32⟩
  | 123 => ⟨S_, .f32⟩
  | 124 => ⟨S32, .f32⟩
  | 125 => ⟨S32, .f32⟩
  | 126 => ⟨S32, .f32⟩
  | 127 => ⟨S32, .f32⟩
  | _ => ⟨S32x131072x3, .f32⟩

abbrev hbmTy0_28 (i : Nat) : BufTy := match i % 128 with
  | 0 => ⟨S32, .f32⟩
  | 1 => ⟨S_, .i32⟩
  | 2 => ⟨S1, .i32⟩
  | 3 => ⟨S32x5, .f32⟩
  | 4 => ⟨S32x1, .f32⟩
  | 5 => ⟨S32, .f32⟩
  | 6 => ⟨S_, .f32⟩
  | 7 => ⟨S32, .f32⟩
  | 8 => ⟨S32, .f32⟩
  | 9 => ⟨S32, .f32⟩
  | 10 => ⟨S_, .i32⟩
  | 11 => ⟨S1, .i32⟩
  | 12 => ⟨S32x5, .f32⟩
  | 13 => ⟨S_, .f32⟩
  | 14 => ⟨S_, .f32⟩
  | 15 => ⟨S_, .f32⟩
  | 16 => ⟨S_, .f32⟩
  | 17 => ⟨S32, .f32⟩
  | 18 => ⟨S32, .f32⟩
  | 19 => ⟨S32x5, .f32⟩
  | 20 => ⟨S32x5, .f32⟩
  | 21 => ⟨S32x4, .f32⟩
  | 22 => ⟨S32x1, .f32⟩
  | 23 => ⟨S32x4, .f32⟩
  | 24 => ⟨S32x4, .f32⟩
  | 25 => ⟨S32x131072x3, .f32⟩
  | 26 => ⟨S32x131072x1, .f32⟩
  | 27 => ⟨S32x131072x3, .f32⟩
  | 28 => ⟨S32x131072x3, .f32⟩
  | 29 => ⟨S_, .f32⟩
  | 30 => ⟨S32, .f32⟩
  | 31 => ⟨S_, .f32⟩
  | 32 => ⟨S32, .f32⟩
  | 33 => ⟨S32, .f32⟩
  | 34 => ⟨S32, .f32⟩
  | 35 => ⟨S32x1, .f32⟩
  | 36 => ⟨S32x5, .f32⟩
  | 37 => ⟨S32x1, .f32⟩
  | 38 => ⟨S32, .f32⟩
  | 39 => ⟨S_, .f32⟩
  | 40 => ⟨S32, .f32⟩
  | 41 => ⟨S32, .f32⟩
  | 42 => ⟨S32, .f32⟩
  | 43 => ⟨S_, .i32⟩
  | 44 => ⟨S1, .i32⟩
  | 45 => ⟨S32x5, .f32⟩
  | 46 => ⟨S32x1, .f32⟩
  | 47 => ⟨S32, .f32⟩
  | 48 => ⟨S32, .f32⟩
  | 49 => ⟨S32x1, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S32, .f32⟩
  | 57 => ⟨S32x1, .f32⟩
  | 58 => ⟨S32, .f32⟩
  | 59 => ⟨S32, .f32⟩
  | 60 => ⟨S32x1, .f32⟩
  | 61 => ⟨S32, .f32⟩
  | 62 => ⟨S_, .f32⟩
  | 63 => ⟨S32, .f32⟩
  | 64 => ⟨S32, .f32⟩
  | 65 => ⟨S32, .f32⟩
  | 66 => ⟨S32, .f32⟩
  | 67 => ⟨S32, .f32⟩
  | 68 => ⟨S_, .i32⟩
  | 69 => ⟨S1, .i32⟩
  | 70 => ⟨S32x5, .f32⟩
  | 71 => ⟨S32x1, .f32⟩
  | 72 => ⟨S32, .f32⟩
  | 73 => ⟨S32, .f32⟩
  | 74 => ⟨S32x1, .f32⟩
  | 75 => ⟨S32, .f32⟩
  | 76 => ⟨S32, .f32⟩
  | 77 => ⟨S_, .f32⟩
  | 78 => ⟨S32, .f32⟩
  | 79 => ⟨S32, .f32⟩
  | 80 => ⟨S32, .f32⟩
  | 81 => ⟨S32, .f32⟩
  | 82 => ⟨S32x1, .f32⟩
  | 83 => ⟨S32, .f32⟩
  | 84 => ⟨S32, .f32⟩
  | 85 => ⟨S32x1, .f32⟩
  | 86 => ⟨S32, .f32⟩
  | 87 => ⟨S_, .f32⟩
  | 88 => ⟨S32, .f32⟩
  | 89 => ⟨S32, .f32⟩
  | 90 => ⟨S32, .f32⟩
  | 91 => ⟨S32, .f32⟩
  | 92 => ⟨S32, .f32⟩
  | 93 => ⟨S_, .i32⟩
  | 94 => ⟨S1, .i32⟩
  | 95 => ⟨S32x5, .f32⟩
  | 96 => ⟨S32x1, .f32⟩
  | 97 => ⟨S32, .f32⟩
  | 98 => ⟨S32, .f32⟩
  | 99 => ⟨S32x1, .f32⟩
  | 100 => ⟨S32, .f32⟩
  | 101 => ⟨S32, .f32⟩
  | 102 => ⟨S_, .f32⟩
  | 103 => ⟨S32, .f32⟩
  | 104 => ⟨S32, .f32⟩
  | 105 => ⟨S32, .f32⟩
  | 106 => ⟨S32, .f32⟩
  | 107 => ⟨S32x1, .f32⟩
  | 108 => ⟨S32, .f32⟩
  | 109 => ⟨S32, .f32⟩
  | 110 => ⟨S32x1, .f32⟩
  | 111 => ⟨S32, .f32⟩
  | 112 => ⟨S_, .f32⟩
  | 113 => ⟨S32, .f32⟩
  | 114 => ⟨S32, .f32⟩
  | 115 => ⟨S32, .f32⟩
  | 116 => ⟨S32, .f32⟩
  | 117 => ⟨S32, .f32⟩
  | 118 => ⟨S_, .i32⟩
  | 119 => ⟨S1, .i32⟩
  | 120 => ⟨S32x5, .f32⟩
  | 121 => ⟨S32x1, .f32⟩
  | 122 => ⟨S32, .f32⟩
  | 123 => ⟨S32, .f32⟩
  | 124 => ⟨S32x1, .f32⟩
  | 125 => ⟨S32, .f32⟩
  | 126 => ⟨S32, .f32⟩
  | 127 => ⟨S_, .f32⟩
  | _ => ⟨S32x131072x3, .f32⟩

abbrev hbmTy0_29 (i : Nat) : BufTy := match i % 128 with
  | 0 => ⟨S32, .f32⟩
  | 1 => ⟨S32, .f32⟩
  | 2 => ⟨S32, .f32⟩
  | 3 => ⟨S32, .f32⟩
  | 4 => ⟨S32x1, .f32⟩
  | 5 => ⟨S32, .f32⟩
  | 6 => ⟨S32, .f32⟩
  | 7 => ⟨S32x1, .f32⟩
  | 8 => ⟨S32, .f32⟩
  | 9 => ⟨S_, .f32⟩
  | 10 => ⟨S32, .f32⟩
  | 11 => ⟨S32, .f32⟩
  | 12 => ⟨S32, .f32⟩
  | 13 => ⟨S32, .f32⟩
  | 14 => ⟨S32, .f32⟩
  | 15 => ⟨S_, .i32⟩
  | 16 => ⟨S1, .i32⟩
  | 17 => ⟨S32x5, .f32⟩
  | 18 => ⟨S32x5, .f32⟩
  | 19 => ⟨S32x1, .f32⟩
  | 20 => ⟨S32x5, .f32⟩
  | 21 => ⟨S32x5, .f32⟩
  | 22 => ⟨S32x5, .f32⟩
  | 23 => ⟨S32x1, .f32⟩
  | 24 => ⟨S32, .f32⟩
  | 25 => ⟨S32, .f32⟩
  | 26 => ⟨S32x1, .f32⟩
  | 27 => ⟨S32, .f32⟩
  | 28 => ⟨S32, .f32⟩
  | 29 => ⟨S32, .f32⟩
  | 30 => ⟨S32, .f32⟩
  | 31 => ⟨S32x1x1, .f32⟩
  | 32 => ⟨S32x131072x3, .f32⟩
  | 33 => ⟨S32x131072x3, .f32⟩
  | 34 => ⟨S32x5, .f32⟩
  | 35 => ⟨S32x5, .f32⟩
  | 36 => ⟨S32x4, .f32⟩
  | 37 => ⟨S32x1, .f32⟩
  | 38 => ⟨S32x4, .f32⟩
  | 39 => ⟨S32x4, .f32⟩
  | 40 => ⟨S32x131072x3, .f32⟩
  | 41 => ⟨S32x131072x1, .f32⟩
  | 42 => ⟨S32x131072x3, .f32⟩
  | 43 => ⟨S32x131072x3, .f32⟩
  | 44 => ⟨S_, .f32⟩
  | 45 => ⟨S32, .f32⟩
  | 46 => ⟨S_, .f32⟩
  | 47 => ⟨S32, .f32⟩
  | 48 => ⟨S32, .f32⟩
  | 49 => ⟨S32, .f32⟩
  | 50 => ⟨S32x1, .f32⟩
  | 51 => ⟨S32x5, .f32⟩
  | 52 => ⟨S32x1, .f32⟩
  | 53 => ⟨S32, .f32⟩
  | 54 => ⟨S32, .f32⟩
  | 55 => ⟨S32x1, .f32⟩
  | 56 => ⟨S32, .f32⟩
  | 57 => ⟨S32, .f32⟩
  | 58 => ⟨S_, .f32⟩
  | 59 => ⟨S32, .f32⟩
  | 60 => ⟨S32, .f32⟩
  | 61 => ⟨S32, .f32⟩
  | 62 => ⟨S32, .f32⟩
  | 63 => ⟨S32x1, .f32⟩
  | 64 => ⟨S32, .f32⟩
  | 65 => ⟨S32, .f32⟩
  | 66 => ⟨S32x1, .f32⟩
  | 67 => ⟨S32, .f32⟩
  | 68 => ⟨S_, .f32⟩
  | 69 => ⟨S32, .f32⟩
  | 70 => ⟨S32, .f32⟩
  | 71 => ⟨S32, .f32⟩
  | 72 => ⟨S32, .f32⟩
  | 73 => ⟨S32, .f32⟩
  | 74 => ⟨S_, .i32⟩
  | 75 => ⟨S1, .i32⟩
  | 76 => ⟨S32x5, .f32⟩
  | 77 => ⟨S32x1, .f32⟩
  | 78 => ⟨S32, .f32⟩
  | 79 => ⟨S32, .f32⟩
  | 80 => ⟨S32x1, .f32⟩
  | 81 => ⟨S32, .f32⟩
  | 82 => ⟨S32, .f32⟩
  | 83 => ⟨S_, .f32⟩
  | 84 => ⟨S32, .f32⟩
  | 85 => ⟨S32, .f32⟩
  | 86 => ⟨S32, .f32⟩
  | 87 => ⟨S32, .f32⟩
  | 88 => ⟨S32x1, .f32⟩
  | 89 => ⟨S32, .f32⟩
  | 90 => ⟨S32, .f32⟩
  | 91 => ⟨S32x1, .f32⟩
  | 92 => ⟨S32, .f32⟩
  | 93 => ⟨S_, .f32⟩
  | 94 => ⟨S32, .f32⟩
  | 95 => ⟨S32, .f32⟩
  | 96 => ⟨S32, .f32⟩
  | 97 => ⟨S32, .f32⟩
  | 98 => ⟨S32, .f32⟩
  | 99 => ⟨S_, .i32⟩
  | 100 => ⟨S1, .i32⟩
  | 101 => ⟨S32x5, .f32⟩
  | 102 => ⟨S32x1, .f32⟩
  | 103 => ⟨S32, .f32⟩
  | 104 => ⟨S32, .f32⟩
  | 105 => ⟨S32x1, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S32, .f32⟩
  | 113 => ⟨S32x1, .f32⟩
  | 114 => ⟨S32, .f32⟩
  | 115 => ⟨S32, .f32⟩
  | 116 => ⟨S32x1, .f32⟩
  | 117 => ⟨S32, .f32⟩
  | 118 => ⟨S_, .f32⟩
  | 119 => ⟨S32, .f32⟩
  | 120 => ⟨S32, .f32⟩
  | 121 => ⟨S32, .f32⟩
  | 122 => ⟨S32, .f32⟩
  | 123 => ⟨S32, .f32⟩
  | 124 => ⟨S_, .i32⟩
  | 125 => ⟨S1, .i32⟩
  | 126 => ⟨S32x5, .f32⟩
  | 127 => ⟨S32x1, .f32⟩
  | _ => ⟨S32x131072x3, .f32⟩

abbrev hbmTy0_30 (i : Nat) : BufTy := match i % 128 with
  | 0 => ⟨S32, .f32⟩
  | 1 => ⟨S32, .f32⟩
  | 2 => ⟨S32x1, .f32⟩
  | 3 => ⟨S32, .f32⟩
  | 4 => ⟨S32, .f32⟩
  | 5 => ⟨S_, .f32⟩
  | 6 => ⟨S32, .f32⟩
  | 7 => ⟨S32, .f32⟩
  | 8 => ⟨S32, .f32⟩
  | 9 => ⟨S32, .f32⟩
  | 10 => ⟨S32x1, .f32⟩
  | 11 => ⟨S32, .f32⟩
  | 12 => ⟨S32, .f32⟩
  | 13 => ⟨S32x1, .f32⟩
  | 14 => ⟨S32, .f32⟩
  | 15 => ⟨S_, .f32⟩
  | 16 => ⟨S32, .f32⟩
  | 17 => ⟨S32, .f32⟩
  | 18 => ⟨S32, .f32⟩
  | 19 => ⟨S32, .f32⟩
  | 20 => ⟨S32, .f32⟩
  | 21 => ⟨S_, .i32⟩
  | 22 => ⟨S1, .i32⟩
  | 23 => ⟨S32x5, .f32⟩
  | 24 => ⟨S32x1, .f32⟩
  | 25 => ⟨S32, .f32⟩
  | 26 => ⟨S_, .f32⟩
  | 27 => ⟨S32, .f32⟩
  | 28 => ⟨S32, .f32⟩
  | 29 => ⟨S32, .f32⟩
  | 30 => ⟨S_, .i32⟩
  | 31 => ⟨S1, .i32⟩
  | 32 => ⟨S32x5, .f32⟩
  | _ => ⟨S32x131072x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | _ => ⟨S32x131072x3, .f32⟩

abbrev bufTy : (tb : Table) → Fin (tcTables nBuf tb) → BufTy
  | .hbm, ⟨i, _⟩ => hbmTy i
  | _, _ => ⟨S32x131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_11 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_c_12 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_14 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_15 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_16 : Ref sig .tc := ⟨.hbm, 168, rfl⟩
abbrev main_v141 : Ref sig .tc := ⟨.hbm, 169, rfl⟩
abbrev main_cst_17 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_cst_18 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_19 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_c_20 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_cst_21 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_cst_22 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_c_23 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_cst_24 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_cst_25 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_c_26 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_cst_27 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_cst_28 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_c_29 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_cst_30 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_c_31 : Ref sig .tc := ⟨.hbm, 282, rfl⟩
abbrev main_v240 : Ref sig .tc := ⟨.hbm, 283, rfl⟩
abbrev main_v241 : Ref sig .tc := ⟨.hbm, 284, rfl⟩
abbrev main_cst_32 : Ref sig .tc := ⟨.hbm, 285, rfl⟩
abbrev main_v242 : Ref sig .tc := ⟨.hbm, 286, rfl⟩
abbrev main_cst_33 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_cst_34 : Ref sig .tc := ⟨.hbm, 301, rfl⟩
abbrev main_v256 : Ref sig .tc := ⟨.hbm, 302, rfl⟩
abbrev main_cst_35 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_cst_36 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_c_37 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_cst_38 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_cst_39 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_c_40 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_cst_41 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_cst_42 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_c_43 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_cst_44 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_cst_45 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_c_46 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_cst_47 : Ref sig .tc := ⟨.hbm, 399, rfl⟩
abbrev main_v341 : Ref sig .tc := ⟨.hbm, 400, rfl⟩
abbrev main_v342 : Ref sig .tc := ⟨.hbm, 401, rfl⟩
abbrev main_v343 : Ref sig .tc := ⟨.hbm, 402, rfl⟩
abbrev main_v344 : Ref sig .tc := ⟨.hbm, 403, rfl⟩
abbrev main_v345 : Ref sig .tc := ⟨.hbm, 404, rfl⟩
abbrev main_v346 : Ref sig .tc := ⟨.hbm, 405, rfl⟩
abbrev main_v347 : Ref sig .tc := ⟨.hbm, 406, rfl⟩
abbrev main_v348 : Ref sig .tc := ⟨.hbm, 407, rfl⟩
abbrev main_v349 : Ref sig .tc := ⟨.hbm, 408, rfl⟩
abbrev main_cst_48 : Ref sig .tc := ⟨.hbm, 409, rfl⟩
abbrev main_v350 : Ref sig .tc := ⟨.hbm, 410, rfl⟩
abbrev main_v351 : Ref sig .tc := ⟨.hbm, 411, rfl⟩
abbrev main_v352 : Ref sig .tc := ⟨.hbm, 412, rfl⟩
abbrev main_v353 : Ref sig .tc := ⟨.hbm, 413, rfl⟩
abbrev main_v354 : Ref sig .tc := ⟨.hbm, 414, rfl⟩
abbrev main_c_49 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_v362 : Ref sig .tc := ⟨.hbm, 423, rfl⟩
abbrev main_v363 : Ref sig .tc := ⟨.hbm, 424, rfl⟩
abbrev main_v364 : Ref sig .tc := ⟨.hbm, 425, rfl⟩
abbrev main_v365 : Ref sig .tc := ⟨.hbm, 426, rfl⟩
abbrev main_v366 : Ref sig .tc := ⟨.hbm, 427, rfl⟩
abbrev main_v367 : Ref sig .tc := ⟨.hbm, 428, rfl⟩
abbrev main_v368 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_v380 : Ref sig .tc := ⟨.hbm, 441, rfl⟩
abbrev main_v381 : Ref sig .tc := ⟨.hbm, 442, rfl⟩
abbrev main_v382 : Ref sig .tc := ⟨.hbm, 443, rfl⟩
abbrev main_cst_50 : Ref sig .tc := ⟨.hbm, 444, rfl⟩
abbrev main_v383 : Ref sig .tc := ⟨.hbm, 445, rfl⟩
abbrev main_cst_51 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_v387 : Ref sig .tc := ⟨.hbm, 450, rfl⟩
abbrev main_v388 : Ref sig .tc := ⟨.hbm, 451, rfl⟩
abbrev main_v389 : Ref sig .tc := ⟨.hbm, 452, rfl⟩
abbrev main_v390 : Ref sig .tc := ⟨.hbm, 453, rfl⟩
abbrev main_v391 : Ref sig .tc := ⟨.hbm, 454, rfl⟩
abbrev main_v392 : Ref sig .tc := ⟨.hbm, 455, rfl⟩
abbrev main_v393 : Ref sig .tc := ⟨.hbm, 456, rfl⟩
abbrev main_v394 : Ref sig .tc := ⟨.hbm, 457, rfl⟩
abbrev main_cst_52 : Ref sig .tc := ⟨.hbm, 458, rfl⟩
abbrev main_v395 : Ref sig .tc := ⟨.hbm, 459, rfl⟩
abbrev main_v396 : Ref sig .tc := ⟨.hbm, 460, rfl⟩
abbrev main_v397 : Ref sig .tc := ⟨.hbm, 461, rfl⟩
abbrev main_v398 : Ref sig .tc := ⟨.hbm, 462, rfl⟩
abbrev main_v399 : Ref sig .tc := ⟨.hbm, 463, rfl⟩
abbrev main_v400 : Ref sig .tc := ⟨.hbm, 464, rfl⟩
abbrev main_v401 : Ref sig .tc := ⟨.hbm, 465, rfl⟩
abbrev main_v402 : Ref sig .tc := ⟨.hbm, 466, rfl⟩
abbrev main_v403 : Ref sig .tc := ⟨.hbm, 467, rfl⟩
abbrev main_cst_53 : Ref sig .tc := ⟨.hbm, 468, rfl⟩
abbrev main_v404 : Ref sig .tc := ⟨.hbm, 469, rfl⟩
abbrev main_v405 : Ref sig .tc := ⟨.hbm, 470, rfl⟩
abbrev main_v406 : Ref sig .tc := ⟨.hbm, 471, rfl⟩
abbrev main_v407 : Ref sig .tc := ⟨.hbm, 472, rfl⟩
abbrev main_v408 : Ref sig .tc := ⟨.hbm, 473, rfl⟩
abbrev main_c_54 : Ref sig .tc := ⟨.hbm, 474, rfl⟩
abbrev main_v409 : Ref sig .tc := ⟨.hbm, 475, rfl⟩
abbrev main_v410 : Ref sig .tc := ⟨.hbm, 476, rfl⟩
abbrev main_v411 : Ref sig .tc := ⟨.hbm, 477, rfl⟩
abbrev main_v412 : Ref sig .tc := ⟨.hbm, 478, rfl⟩
abbrev main_v413 : Ref sig .tc := ⟨.hbm, 479, rfl⟩
abbrev main_v414 : Ref sig .tc := ⟨.hbm, 480, rfl⟩
abbrev main_v415 : Ref sig .tc := ⟨.hbm, 481, rfl⟩
abbrev main_v416 : Ref sig .tc := ⟨.hbm, 482, rfl⟩
abbrev main_cst_55 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_cst_56 : Ref sig .tc := ⟨.hbm, 493, rfl⟩
abbrev main_v426 : Ref sig .tc := ⟨.hbm, 494, rfl⟩
abbrev main_v427 : Ref sig .tc := ⟨.hbm, 495, rfl⟩
abbrev main_v428 : Ref sig .tc := ⟨.hbm, 496, rfl⟩
abbrev main_v429 : Ref sig .tc := ⟨.hbm, 497, rfl⟩
abbrev main_v430 : Ref sig .tc := ⟨.hbm, 498, rfl⟩
abbrev main_c_57 : Ref sig .tc := ⟨.hbm, 499, rfl⟩
abbrev main_v431 : Ref sig .tc := ⟨.hbm, 500, rfl⟩
abbrev main_v432 : Ref sig .tc := ⟨.hbm, 501, rfl⟩
abbrev main_v433 : Ref sig .tc := ⟨.hbm, 502, rfl⟩
abbrev main_v434 : Ref sig .tc := ⟨.hbm, 503, rfl⟩
abbrev main_v435 : Ref sig .tc := ⟨.hbm, 504, rfl⟩
abbrev main_v436 : Ref sig .tc := ⟨.hbm, 505, rfl⟩
abbrev main_v437 : Ref sig .tc := ⟨.hbm, 506, rfl⟩
abbrev main_v438 : Ref sig .tc := ⟨.hbm, 507, rfl⟩
abbrev main_cst_58 : Ref sig .tc := ⟨.hbm, 508, rfl⟩
abbrev main_v439 : Ref sig .tc := ⟨.hbm, 509, rfl⟩
abbrev main_v440 : Ref sig .tc := ⟨.hbm, 510, rfl⟩
abbrev main_v441 : Ref sig .tc := ⟨.hbm, 511, rfl⟩
abbrev main_v442 : Ref sig .tc := ⟨.hbm, 512, rfl⟩
abbrev main_v443 : Ref sig .tc := ⟨.hbm, 513, rfl⟩
abbrev main_v444 : Ref sig .tc := ⟨.hbm, 514, rfl⟩
abbrev main_v445 : Ref sig .tc := ⟨.hbm, 515, rfl⟩
abbrev main_v446 : Ref sig .tc := ⟨.hbm, 516, rfl⟩
abbrev main_v447 : Ref sig .tc := ⟨.hbm, 517, rfl⟩
abbrev main_cst_59 : Ref sig .tc := ⟨.hbm, 518, rfl⟩
abbrev main_v448 : Ref sig .tc := ⟨.hbm, 519, rfl⟩
abbrev main_v449 : Ref sig .tc := ⟨.hbm, 520, rfl⟩
abbrev main_v450 : Ref sig .tc := ⟨.hbm, 521, rfl⟩
abbrev main_v451 : Ref sig .tc := ⟨.hbm, 522, rfl⟩
abbrev main_v452 : Ref sig .tc := ⟨.hbm, 523, rfl⟩
abbrev main_c_60 : Ref sig .tc := ⟨.hbm, 524, rfl⟩
abbrev main_v453 : Ref sig .tc := ⟨.hbm, 525, rfl⟩
abbrev main_v454 : Ref sig .tc := ⟨.hbm, 526, rfl⟩
abbrev main_v455 : Ref sig .tc := ⟨.hbm, 527, rfl⟩
abbrev main_v456 : Ref sig .tc := ⟨.hbm, 528, rfl⟩
abbrev main_v457 : Ref sig .tc := ⟨.hbm, 529, rfl⟩
abbrev main_v458 : Ref sig .tc := ⟨.hbm, 530, rfl⟩
abbrev main_v459 : Ref sig .tc := ⟨.hbm, 531, rfl⟩
abbrev main_v460 : Ref sig .tc := ⟨.hbm, 532, rfl⟩
abbrev main_cst_61 : Ref sig .tc := ⟨.hbm, 533, rfl⟩
abbrev main_v461 : Ref sig .tc := ⟨.hbm, 534, rfl⟩
abbrev main_v462 : Ref sig .tc := ⟨.hbm, 535, rfl⟩
abbrev main_v463 : Ref sig .tc := ⟨.hbm, 536, rfl⟩
abbrev main_v464 : Ref sig .tc := ⟨.hbm, 537, rfl⟩
abbrev main_v465 : Ref sig .tc := ⟨.hbm, 538, rfl⟩
abbrev main_v466 : Ref sig .tc := ⟨.hbm, 539, rfl⟩
abbrev main_v467 : Ref sig .tc := ⟨.hbm, 540, rfl⟩
abbrev main_v468 : Ref sig .tc := ⟨.hbm, 541, rfl⟩
abbrev main_v469 : Ref sig .tc := ⟨.hbm, 542, rfl⟩
abbrev main_cst_62 : Ref sig .tc := ⟨.hbm, 543, rfl⟩
abbrev main_v470 : Ref sig .tc := ⟨.hbm, 544, rfl⟩
abbrev main_v471 : Ref sig .tc := ⟨.hbm, 545, rfl⟩
abbrev main_v472 : Ref sig .tc := ⟨.hbm, 546, rfl⟩
abbrev main_v473 : Ref sig .tc := ⟨.hbm, 547, rfl⟩
abbrev main_v474 : Ref sig .tc := ⟨.hbm, 548, rfl⟩
abbrev main_c_63 : Ref sig .tc := ⟨.hbm, 549, rfl⟩
abbrev main_v475 : Ref sig .tc := ⟨.hbm, 550, rfl⟩
abbrev main_v476 : Ref sig .tc := ⟨.hbm, 551, rfl⟩
abbrev main_v477 : Ref sig .tc := ⟨.hbm, 552, rfl⟩
abbrev main_v478 : Ref sig .tc := ⟨.hbm, 553, rfl⟩
abbrev main_cst_64 : Ref sig .tc := ⟨.hbm, 554, rfl⟩
abbrev main_v479 : Ref sig .tc := ⟨.hbm, 555, rfl⟩
abbrev main_v480 : Ref sig .tc := ⟨.hbm, 556, rfl⟩
abbrev main_v481 : Ref sig .tc := ⟨.hbm, 557, rfl⟩
abbrev main_c_65 : Ref sig .tc := ⟨.hbm, 558, rfl⟩
abbrev main_v482 : Ref sig .tc := ⟨.hbm, 559, rfl⟩
abbrev main_v483 : Ref sig .tc := ⟨.hbm, 560, rfl⟩
abbrev main_cst_66 : Ref sig .tc := ⟨.hbm, 561, rfl⟩
abbrev main_v484 : Ref sig .tc := ⟨.hbm, 562, rfl⟩
abbrev main_cst_67 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_v488 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩
abbrev main_v495 : Ref sig .tc := ⟨.hbm, 574, rfl⟩
abbrev main_v496 : Ref sig .tc := ⟨.hbm, 575, rfl⟩
abbrev main_v497 : Ref sig .tc := ⟨.hbm, 576, rfl⟩
abbrev main_cst_68 : Ref sig .tc := ⟨.hbm, 577, rfl⟩
abbrev main_v498 : Ref sig .tc := ⟨.hbm, 578, rfl⟩
abbrev main_cst_69 : Ref sig .tc := ⟨.hbm, 579, rfl⟩
abbrev main_v499 : Ref sig .tc := ⟨.hbm, 580, rfl⟩
abbrev main_v500 : Ref sig .tc := ⟨.hbm, 581, rfl⟩
abbrev main_v501 : Ref sig .tc := ⟨.hbm, 582, rfl⟩
abbrev main_v502 : Ref sig .tc := ⟨.hbm, 583, rfl⟩
abbrev main_v503 : Ref sig .tc := ⟨.hbm, 584, rfl⟩
abbrev main_v504 : Ref sig .tc := ⟨.hbm, 585, rfl⟩
abbrev main_v505 : Ref sig .tc := ⟨.hbm, 586, rfl⟩
abbrev main_cst_70 : Ref sig .tc := ⟨.hbm, 587, rfl⟩
abbrev main_v506 : Ref sig .tc := ⟨.hbm, 588, rfl⟩
abbrev main_v507 : Ref sig .tc := ⟨.hbm, 589, rfl⟩
abbrev main_v508 : Ref sig .tc := ⟨.hbm, 590, rfl⟩
abbrev main_c_71 : Ref sig .tc := ⟨.hbm, 591, rfl⟩
abbrev main_v509 : Ref sig .tc := ⟨.hbm, 592, rfl⟩
abbrev main_v510 : Ref sig .tc := ⟨.hbm, 593, rfl⟩
abbrev main_v511 : Ref sig .tc := ⟨.hbm, 594, rfl⟩
abbrev main_v512 : Ref sig .tc := ⟨.hbm, 595, rfl⟩
abbrev main_v513 : Ref sig .tc := ⟨.hbm, 596, rfl⟩
abbrev main_v514 : Ref sig .tc := ⟨.hbm, 597, rfl⟩
abbrev main_v515 : Ref sig .tc := ⟨.hbm, 598, rfl⟩
abbrev main_v516 : Ref sig .tc := ⟨.hbm, 599, rfl⟩
abbrev main_cst_72 : Ref sig .tc := ⟨.hbm, 600, rfl⟩
abbrev main_v517 : Ref sig .tc := ⟨.hbm, 601, rfl⟩
abbrev main_v518 : Ref sig .tc := ⟨.hbm, 602, rfl⟩
abbrev main_v519 : Ref sig .tc := ⟨.hbm, 603, rfl⟩
abbrev main_v520 : Ref sig .tc := ⟨.hbm, 604, rfl⟩
abbrev main_v521 : Ref sig .tc := ⟨.hbm, 605, rfl⟩
abbrev main_v522 : Ref sig .tc := ⟨.hbm, 606, rfl⟩
abbrev main_v523 : Ref sig .tc := ⟨.hbm, 607, rfl⟩
abbrev main_v524 : Ref sig .tc := ⟨.hbm, 608, rfl⟩
abbrev main_v525 : Ref sig .tc := ⟨.hbm, 609, rfl⟩
abbrev main_cst_73 : Ref sig .tc := ⟨.hbm, 610, rfl⟩
abbrev main_v526 : Ref sig .tc := ⟨.hbm, 611, rfl⟩
abbrev main_v527 : Ref sig .tc := ⟨.hbm, 612, rfl⟩
abbrev main_v528 : Ref sig .tc := ⟨.hbm, 613, rfl⟩
abbrev main_v529 : Ref sig .tc := ⟨.hbm, 614, rfl⟩
abbrev main_v530 : Ref sig .tc := ⟨.hbm, 615, rfl⟩
abbrev main_c_74 : Ref sig .tc := ⟨.hbm, 616, rfl⟩
abbrev main_v531 : Ref sig .tc := ⟨.hbm, 617, rfl⟩
abbrev main_v532 : Ref sig .tc := ⟨.hbm, 618, rfl⟩
abbrev main_v533 : Ref sig .tc := ⟨.hbm, 619, rfl⟩
abbrev main_v534 : Ref sig .tc := ⟨.hbm, 620, rfl⟩
abbrev main_v535 : Ref sig .tc := ⟨.hbm, 621, rfl⟩
abbrev main_v536 : Ref sig .tc := ⟨.hbm, 622, rfl⟩
abbrev main_v537 : Ref sig .tc := ⟨.hbm, 623, rfl⟩
abbrev main_v538 : Ref sig .tc := ⟨.hbm, 624, rfl⟩
abbrev main_cst_75 : Ref sig .tc := ⟨.hbm, 625, rfl⟩
abbrev main_v539 : Ref sig .tc := ⟨.hbm, 626, rfl⟩
abbrev main_v540 : Ref sig .tc := ⟨.hbm, 627, rfl⟩
abbrev main_v541 : Ref sig .tc := ⟨.hbm, 628, rfl⟩
abbrev main_v542 : Ref sig .tc := ⟨.hbm, 629, rfl⟩
abbrev main_v543 : Ref sig .tc := ⟨.hbm, 630, rfl⟩
abbrev main_v544 : Ref sig .tc := ⟨.hbm, 631, rfl⟩
abbrev main_v545 : Ref sig .tc := ⟨.hbm, 632, rfl⟩
abbrev main_v546 : Ref sig .tc := ⟨.hbm, 633, rfl⟩
abbrev main_v547 : Ref sig .tc := ⟨.hbm, 634, rfl⟩
abbrev main_cst_76 : Ref sig .tc := ⟨.hbm, 635, rfl⟩
abbrev main_v548 : Ref sig .tc := ⟨.hbm, 636, rfl⟩
abbrev main_v549 : Ref sig .tc := ⟨.hbm, 637, rfl⟩
abbrev main_v550 : Ref sig .tc := ⟨.hbm, 638, rfl⟩
abbrev main_v551 : Ref sig .tc := ⟨.hbm, 639, rfl⟩
abbrev main_v552 : Ref sig .tc := ⟨.hbm, 640, rfl⟩
abbrev main_c_77 : Ref sig .tc := ⟨.hbm, 641, rfl⟩
abbrev main_v553 : Ref sig .tc := ⟨.hbm, 642, rfl⟩
abbrev main_v554 : Ref sig .tc := ⟨.hbm, 643, rfl⟩
abbrev main_v555 : Ref sig .tc := ⟨.hbm, 644, rfl⟩
abbrev main_v556 : Ref sig .tc := ⟨.hbm, 645, rfl⟩
abbrev main_v557 : Ref sig .tc := ⟨.hbm, 646, rfl⟩
abbrev main_v558 : Ref sig .tc := ⟨.hbm, 647, rfl⟩
abbrev main_v559 : Ref sig .tc := ⟨.hbm, 648, rfl⟩
abbrev main_v560 : Ref sig .tc := ⟨.hbm, 649, rfl⟩
abbrev main_cst_78 : Ref sig .tc := ⟨.hbm, 650, rfl⟩
abbrev main_v561 : Ref sig .tc := ⟨.hbm, 651, rfl⟩
abbrev main_v562 : Ref sig .tc := ⟨.hbm, 652, rfl⟩
abbrev main_v563 : Ref sig .tc := ⟨.hbm, 653, rfl⟩
abbrev main_v564 : Ref sig .tc := ⟨.hbm, 654, rfl⟩
abbrev main_v565 : Ref sig .tc := ⟨.hbm, 655, rfl⟩
abbrev main_v566 : Ref sig .tc := ⟨.hbm, 656, rfl⟩
abbrev main_v567 : Ref sig .tc := ⟨.hbm, 657, rfl⟩
abbrev main_v568 : Ref sig .tc := ⟨.hbm, 658, rfl⟩
abbrev main_v569 : Ref sig .tc := ⟨.hbm, 659, rfl⟩
abbrev main_cst_79 : Ref sig .tc := ⟨.hbm, 660, rfl⟩
abbrev main_v570 : Ref sig .tc := ⟨.hbm, 661, rfl⟩
abbrev main_v571 : Ref sig .tc := ⟨.hbm, 662, rfl⟩
abbrev main_v572 : Ref sig .tc := ⟨.hbm, 663, rfl⟩
abbrev main_v573 : Ref sig .tc := ⟨.hbm, 664, rfl⟩
abbrev main_v574 : Ref sig .tc := ⟨.hbm, 665, rfl⟩
abbrev main_c_80 : Ref sig .tc := ⟨.hbm, 666, rfl⟩
abbrev main_v575 : Ref sig .tc := ⟨.hbm, 667, rfl⟩
abbrev main_v576 : Ref sig .tc := ⟨.hbm, 668, rfl⟩
abbrev main_v577 : Ref sig .tc := ⟨.hbm, 669, rfl⟩
abbrev main_v578 : Ref sig .tc := ⟨.hbm, 670, rfl⟩
abbrev main_v579 : Ref sig .tc := ⟨.hbm, 671, rfl⟩
abbrev main_v580 : Ref sig .tc := ⟨.hbm, 672, rfl⟩
abbrev main_v581 : Ref sig .tc := ⟨.hbm, 673, rfl⟩
abbrev main_v582 : Ref sig .tc := ⟨.hbm, 674, rfl⟩
abbrev main_cst_81 : Ref sig .tc := ⟨.hbm, 675, rfl⟩
abbrev main_v583 : Ref sig .tc := ⟨.hbm, 676, rfl⟩
abbrev main_v584 : Ref sig .tc := ⟨.hbm, 677, rfl⟩
abbrev main_v585 : Ref sig .tc := ⟨.hbm, 678, rfl⟩
abbrev main_v586 : Ref sig .tc := ⟨.hbm, 679, rfl⟩
abbrev main_v587 : Ref sig .tc := ⟨.hbm, 680, rfl⟩
abbrev main_v588 : Ref sig .tc := ⟨.hbm, 681, rfl⟩
abbrev main_v589 : Ref sig .tc := ⟨.hbm, 682, rfl⟩
abbrev main_v590 : Ref sig .tc := ⟨.hbm, 683, rfl⟩
abbrev main_v591 : Ref sig .tc := ⟨.hbm, 684, rfl⟩
abbrev main_cst_82 : Ref sig .tc := ⟨.hbm, 685, rfl⟩
abbrev main_v592 : Ref sig .tc := ⟨.hbm, 686, rfl⟩
abbrev main_v593 : Ref sig .tc := ⟨.hbm, 687, rfl⟩
abbrev main_v594 : Ref sig .tc := ⟨.hbm, 688, rfl⟩
abbrev main_v595 : Ref sig .tc := ⟨.hbm, 689, rfl⟩
abbrev main_v596 : Ref sig .tc := ⟨.hbm, 690, rfl⟩
abbrev main_c_83 : Ref sig .tc := ⟨.hbm, 691, rfl⟩
abbrev main_v597 : Ref sig .tc := ⟨.hbm, 692, rfl⟩
abbrev main_v598 : Ref sig .tc := ⟨.hbm, 693, rfl⟩
abbrev main_v599 : Ref sig .tc := ⟨.hbm, 694, rfl⟩
abbrev main_v600 : Ref sig .tc := ⟨.hbm, 695, rfl⟩
abbrev main_v601 : Ref sig .tc := ⟨.hbm, 696, rfl⟩
abbrev main_v602 : Ref sig .tc := ⟨.hbm, 697, rfl⟩
abbrev main_v603 : Ref sig .tc := ⟨.hbm, 698, rfl⟩
abbrev main_v604 : Ref sig .tc := ⟨.hbm, 699, rfl⟩
abbrev main_v605 : Ref sig .tc := ⟨.hbm, 700, rfl⟩
abbrev main_v606 : Ref sig .tc := ⟨.hbm, 701, rfl⟩
abbrev main_v607 : Ref sig .tc := ⟨.hbm, 702, rfl⟩
abbrev main_v608 : Ref sig .tc := ⟨.hbm, 703, rfl⟩
abbrev main_v609 : Ref sig .tc := ⟨.hbm, 704, rfl⟩
abbrev main_v610 : Ref sig .tc := ⟨.hbm, 705, rfl⟩
abbrev main_v611 : Ref sig .tc := ⟨.hbm, 706, rfl⟩
abbrev main_v612 : Ref sig .tc := ⟨.hbm, 707, rfl⟩
abbrev main_v613 : Ref sig .tc := ⟨.hbm, 708, rfl⟩
abbrev main_v614 : Ref sig .tc := ⟨.hbm, 709, rfl⟩
abbrev main_v615 : Ref sig .tc := ⟨.hbm, 710, rfl⟩
abbrev main_v616 : Ref sig .tc := ⟨.hbm, 711, rfl⟩
abbrev main_v617 : Ref sig .tc := ⟨.hbm, 712, rfl⟩
abbrev main_v618 : Ref sig .tc := ⟨.hbm, 713, rfl⟩
abbrev main_v619 : Ref sig .tc := ⟨.hbm, 714, rfl⟩
abbrev main_v620 : Ref sig .tc := ⟨.hbm, 715, rfl⟩
abbrev main_v621 : Ref sig .tc := ⟨.hbm, 716, rfl⟩
abbrev main_v622 : Ref sig .tc := ⟨.hbm, 717, rfl⟩
abbrev main_v623 : Ref sig .tc := ⟨.hbm, 718, rfl⟩
abbrev main_v624 : Ref sig .tc := ⟨.hbm, 719, rfl⟩
abbrev main_cst_84 : Ref sig .tc := ⟨.hbm, 720, rfl⟩
abbrev main_v625 : Ref sig .tc := ⟨.hbm, 721, rfl⟩
abbrev main_cst_85 : Ref sig .tc := ⟨.hbm, 722, rfl⟩
abbrev main_v626 : Ref sig .tc := ⟨.hbm, 723, rfl⟩
abbrev main_v627 : Ref sig .tc := ⟨.hbm, 724, rfl⟩
abbrev main_v628 : Ref sig .tc := ⟨.hbm, 725, rfl⟩
abbrev main_v629 : Ref sig .tc := ⟨.hbm, 726, rfl⟩
abbrev main_v630 : Ref sig .tc := ⟨.hbm, 727, rfl⟩
abbrev main_v631 : Ref sig .tc := ⟨.hbm, 728, rfl⟩
abbrev main_v632 : Ref sig .tc := ⟨.hbm, 729, rfl⟩
abbrev main_v633 : Ref sig .tc := ⟨.hbm, 730, rfl⟩
abbrev main_v634 : Ref sig .tc := ⟨.hbm, 731, rfl⟩
abbrev main_v635 : Ref sig .tc := ⟨.hbm, 732, rfl⟩
abbrev main_v636 : Ref sig .tc := ⟨.hbm, 733, rfl⟩
abbrev main_cst_86 : Ref sig .tc := ⟨.hbm, 734, rfl⟩
abbrev main_v637 : Ref sig .tc := ⟨.hbm, 735, rfl⟩
abbrev main_v638 : Ref sig .tc := ⟨.hbm, 736, rfl⟩
abbrev main_v639 : Ref sig .tc := ⟨.hbm, 737, rfl⟩
abbrev main_v640 : Ref sig .tc := ⟨.hbm, 738, rfl⟩
abbrev main_v641 : Ref sig .tc := ⟨.hbm, 739, rfl⟩
abbrev main_v642 : Ref sig .tc := ⟨.hbm, 740, rfl⟩
abbrev main_v643 : Ref sig .tc := ⟨.hbm, 741, rfl⟩
abbrev main_v644 : Ref sig .tc := ⟨.hbm, 742, rfl⟩
abbrev main_v645 : Ref sig .tc := ⟨.hbm, 743, rfl⟩
abbrev main_cst_87 : Ref sig .tc := ⟨.hbm, 744, rfl⟩
abbrev main_v646 : Ref sig .tc := ⟨.hbm, 745, rfl⟩
abbrev main_v647 : Ref sig .tc := ⟨.hbm, 746, rfl⟩
abbrev main_v648 : Ref sig .tc := ⟨.hbm, 747, rfl⟩
abbrev main_v649 : Ref sig .tc := ⟨.hbm, 748, rfl⟩
abbrev main_v650 : Ref sig .tc := ⟨.hbm, 749, rfl⟩
abbrev main_c_88 : Ref sig .tc := ⟨.hbm, 750, rfl⟩
abbrev main_v651 : Ref sig .tc := ⟨.hbm, 751, rfl⟩
abbrev main_v652 : Ref sig .tc := ⟨.hbm, 752, rfl⟩
abbrev main_v653 : Ref sig .tc := ⟨.hbm, 753, rfl⟩
abbrev main_v654 : Ref sig .tc := ⟨.hbm, 754, rfl⟩
abbrev main_v655 : Ref sig .tc := ⟨.hbm, 755, rfl⟩
abbrev main_v656 : Ref sig .tc := ⟨.hbm, 756, rfl⟩
abbrev main_v657 : Ref sig .tc := ⟨.hbm, 757, rfl⟩
abbrev main_v658 : Ref sig .tc := ⟨.hbm, 758, rfl⟩
abbrev main_cst_89 : Ref sig .tc := ⟨.hbm, 759, rfl⟩
abbrev main_v659 : Ref sig .tc := ⟨.hbm, 760, rfl⟩
abbrev main_v660 : Ref sig .tc := ⟨.hbm, 761, rfl⟩
abbrev main_v661 : Ref sig .tc := ⟨.hbm, 762, rfl⟩
abbrev main_v662 : Ref sig .tc := ⟨.hbm, 763, rfl⟩
abbrev main_v663 : Ref sig .tc := ⟨.hbm, 764, rfl⟩
abbrev main_v664 : Ref sig .tc := ⟨.hbm, 765, rfl⟩
abbrev main_v665 : Ref sig .tc := ⟨.hbm, 766, rfl⟩
abbrev main_v666 : Ref sig .tc := ⟨.hbm, 767, rfl⟩
abbrev main_v667 : Ref sig .tc := ⟨.hbm, 768, rfl⟩
abbrev main_cst_90 : Ref sig .tc := ⟨.hbm, 769, rfl⟩
abbrev main_v668 : Ref sig .tc := ⟨.hbm, 770, rfl⟩
abbrev main_v669 : Ref sig .tc := ⟨.hbm, 771, rfl⟩
abbrev main_v670 : Ref sig .tc := ⟨.hbm, 772, rfl⟩
abbrev main_v671 : Ref sig .tc := ⟨.hbm, 773, rfl⟩
abbrev main_v672 : Ref sig .tc := ⟨.hbm, 774, rfl⟩
abbrev main_c_91 : Ref sig .tc := ⟨.hbm, 775, rfl⟩
abbrev main_v673 : Ref sig .tc := ⟨.hbm, 776, rfl⟩
abbrev main_v674 : Ref sig .tc := ⟨.hbm, 777, rfl⟩
abbrev main_v675 : Ref sig .tc := ⟨.hbm, 778, rfl⟩
abbrev main_v676 : Ref sig .tc := ⟨.hbm, 779, rfl⟩
abbrev main_v677 : Ref sig .tc := ⟨.hbm, 780, rfl⟩
abbrev main_v678 : Ref sig .tc := ⟨.hbm, 781, rfl⟩
abbrev main_v679 : Ref sig .tc := ⟨.hbm, 782, rfl⟩
abbrev main_v680 : Ref sig .tc := ⟨.hbm, 783, rfl⟩
abbrev main_cst_92 : Ref sig .tc := ⟨.hbm, 784, rfl⟩
abbrev main_v681 : Ref sig .tc := ⟨.hbm, 785, rfl⟩
abbrev main_v682 : Ref sig .tc := ⟨.hbm, 786, rfl⟩
abbrev main_v683 : Ref sig .tc := ⟨.hbm, 787, rfl⟩
abbrev main_v684 : Ref sig .tc := ⟨.hbm, 788, rfl⟩
abbrev main_v685 : Ref sig .tc := ⟨.hbm, 789, rfl⟩
abbrev main_v686 : Ref sig .tc := ⟨.hbm, 790, rfl⟩
abbrev main_v687 : Ref sig .tc := ⟨.hbm, 791, rfl⟩
abbrev main_v688 : Ref sig .tc := ⟨.hbm, 792, rfl⟩
abbrev main_v689 : Ref sig .tc := ⟨.hbm, 793, rfl⟩
abbrev main_cst_93 : Ref sig .tc := ⟨.hbm, 794, rfl⟩
abbrev main_v690 : Ref sig .tc := ⟨.hbm, 795, rfl⟩
abbrev main_v691 : Ref sig .tc := ⟨.hbm, 796, rfl⟩
abbrev main_v692 : Ref sig .tc := ⟨.hbm, 797, rfl⟩
abbrev main_v693 : Ref sig .tc := ⟨.hbm, 798, rfl⟩
abbrev main_v694 : Ref sig .tc := ⟨.hbm, 799, rfl⟩
abbrev main_c_94 : Ref sig .tc := ⟨.hbm, 800, rfl⟩
abbrev main_v695 : Ref sig .tc := ⟨.hbm, 801, rfl⟩
abbrev main_v696 : Ref sig .tc := ⟨.hbm, 802, rfl⟩
abbrev main_v697 : Ref sig .tc := ⟨.hbm, 803, rfl⟩
abbrev main_v698 : Ref sig .tc := ⟨.hbm, 804, rfl⟩
abbrev main_v699 : Ref sig .tc := ⟨.hbm, 805, rfl⟩
abbrev main_v700 : Ref sig .tc := ⟨.hbm, 806, rfl⟩
abbrev main_v701 : Ref sig .tc := ⟨.hbm, 807, rfl⟩
abbrev main_v702 : Ref sig .tc := ⟨.hbm, 808, rfl⟩
abbrev main_cst_95 : Ref sig .tc := ⟨.hbm, 809, rfl⟩
abbrev main_v703 : Ref sig .tc := ⟨.hbm, 810, rfl⟩
abbrev main_v704 : Ref sig .tc := ⟨.hbm, 811, rfl⟩
abbrev main_v705 : Ref sig .tc := ⟨.hbm, 812, rfl⟩
abbrev main_v706 : Ref sig .tc := ⟨.hbm, 813, rfl⟩
abbrev main_v707 : Ref sig .tc := ⟨.hbm, 814, rfl⟩
abbrev main_v708 : Ref sig .tc := ⟨.hbm, 815, rfl⟩
abbrev main_v709 : Ref sig .tc := ⟨.hbm, 816, rfl⟩
abbrev main_v710 : Ref sig .tc := ⟨.hbm, 817, rfl⟩
abbrev main_v711 : Ref sig .tc := ⟨.hbm, 818, rfl⟩
abbrev main_cst_96 : Ref sig .tc := ⟨.hbm, 819, rfl⟩
abbrev main_v712 : Ref sig .tc := ⟨.hbm, 820, rfl⟩
abbrev main_v713 : Ref sig .tc := ⟨.hbm, 821, rfl⟩
abbrev main_v714 : Ref sig .tc := ⟨.hbm, 822, rfl⟩
abbrev main_v715 : Ref sig .tc := ⟨.hbm, 823, rfl⟩
abbrev main_v716 : Ref sig .tc := ⟨.hbm, 824, rfl⟩
abbrev main_c_97 : Ref sig .tc := ⟨.hbm, 825, rfl⟩
abbrev main_v717 : Ref sig .tc := ⟨.hbm, 826, rfl⟩
abbrev main_v718 : Ref sig .tc := ⟨.hbm, 827, rfl⟩
abbrev main_v719 : Ref sig .tc := ⟨.hbm, 828, rfl⟩
abbrev main_v720 : Ref sig .tc := ⟨.hbm, 829, rfl⟩
abbrev main_cst_98 : Ref sig .tc := ⟨.hbm, 830, rfl⟩
abbrev main_v721 : Ref sig .tc := ⟨.hbm, 831, rfl⟩
abbrev main_v722 : Ref sig .tc := ⟨.hbm, 832, rfl⟩
abbrev main_v723 : Ref sig .tc := ⟨.hbm, 833, rfl⟩
abbrev main_c_99 : Ref sig .tc := ⟨.hbm, 834, rfl⟩
abbrev main_v724 : Ref sig .tc := ⟨.hbm, 835, rfl⟩
abbrev main_v725 : Ref sig .tc := ⟨.hbm, 836, rfl⟩
abbrev main_cst_100 : Ref sig .tc := ⟨.hbm, 837, rfl⟩
abbrev main_v726 : Ref sig .tc := ⟨.hbm, 838, rfl⟩
abbrev main_cst_101 : Ref sig .tc := ⟨.hbm, 839, rfl⟩
abbrev main_v727 : Ref sig .tc := ⟨.hbm, 840, rfl⟩
abbrev main_v728 : Ref sig .tc := ⟨.hbm, 841, rfl⟩
abbrev main_v729 : Ref sig .tc := ⟨.hbm, 842, rfl⟩
abbrev main_v730 : Ref sig .tc := ⟨.hbm, 843, rfl⟩
abbrev main_v731 : Ref sig .tc := ⟨.hbm, 844, rfl⟩
abbrev main_v732 : Ref sig .tc := ⟨.hbm, 845, rfl⟩
abbrev main_v733 : Ref sig .tc := ⟨.hbm, 846, rfl⟩
abbrev main_v734 : Ref sig .tc := ⟨.hbm, 847, rfl⟩
abbrev main_v735 : Ref sig .tc := ⟨.hbm, 848, rfl⟩
abbrev main_v736 : Ref sig .tc := ⟨.hbm, 849, rfl⟩
abbrev main_v737 : Ref sig .tc := ⟨.hbm, 850, rfl⟩
abbrev main_v738 : Ref sig .tc := ⟨.hbm, 851, rfl⟩
abbrev main_v739 : Ref sig .tc := ⟨.hbm, 852, rfl⟩
abbrev main_cst_102 : Ref sig .tc := ⟨.hbm, 853, rfl⟩
abbrev main_v740 : Ref sig .tc := ⟨.hbm, 854, rfl⟩
abbrev main_cst_103 : Ref sig .tc := ⟨.hbm, 855, rfl⟩
abbrev main_v741 : Ref sig .tc := ⟨.hbm, 856, rfl⟩
abbrev main_v742 : Ref sig .tc := ⟨.hbm, 857, rfl⟩
abbrev main_v743 : Ref sig .tc := ⟨.hbm, 858, rfl⟩
abbrev main_v744 : Ref sig .tc := ⟨.hbm, 859, rfl⟩
abbrev main_v745 : Ref sig .tc := ⟨.hbm, 860, rfl⟩
abbrev main_v746 : Ref sig .tc := ⟨.hbm, 861, rfl⟩
abbrev main_v747 : Ref sig .tc := ⟨.hbm, 862, rfl⟩
abbrev main_cst_104 : Ref sig .tc := ⟨.hbm, 863, rfl⟩
abbrev main_v748 : Ref sig .tc := ⟨.hbm, 864, rfl⟩
abbrev main_v749 : Ref sig .tc := ⟨.hbm, 865, rfl⟩
abbrev main_v750 : Ref sig .tc := ⟨.hbm, 866, rfl⟩
abbrev main_c_105 : Ref sig .tc := ⟨.hbm, 867, rfl⟩
abbrev main_v751 : Ref sig .tc := ⟨.hbm, 868, rfl⟩
abbrev main_v752 : Ref sig .tc := ⟨.hbm, 869, rfl⟩
abbrev main_v753 : Ref sig .tc := ⟨.hbm, 870, rfl⟩
abbrev main_v754 : Ref sig .tc := ⟨.hbm, 871, rfl⟩
abbrev main_v755 : Ref sig .tc := ⟨.hbm, 872, rfl⟩
abbrev main_v756 : Ref sig .tc := ⟨.hbm, 873, rfl⟩
abbrev main_v757 : Ref sig .tc := ⟨.hbm, 874, rfl⟩
abbrev main_v758 : Ref sig .tc := ⟨.hbm, 875, rfl⟩
abbrev main_cst_106 : Ref sig .tc := ⟨.hbm, 876, rfl⟩
abbrev main_v759 : Ref sig .tc := ⟨.hbm, 877, rfl⟩
abbrev main_v760 : Ref sig .tc := ⟨.hbm, 878, rfl⟩
abbrev main_v761 : Ref sig .tc := ⟨.hbm, 879, rfl⟩
abbrev main_v762 : Ref sig .tc := ⟨.hbm, 880, rfl⟩
abbrev main_v763 : Ref sig .tc := ⟨.hbm, 881, rfl⟩
abbrev main_v764 : Ref sig .tc := ⟨.hbm, 882, rfl⟩
abbrev main_v765 : Ref sig .tc := ⟨.hbm, 883, rfl⟩
abbrev main_v766 : Ref sig .tc := ⟨.hbm, 884, rfl⟩
abbrev main_v767 : Ref sig .tc := ⟨.hbm, 885, rfl⟩
abbrev main_cst_107 : Ref sig .tc := ⟨.hbm, 886, rfl⟩
abbrev main_v768 : Ref sig .tc := ⟨.hbm, 887, rfl⟩
abbrev main_v769 : Ref sig .tc := ⟨.hbm, 888, rfl⟩
abbrev main_v770 : Ref sig .tc := ⟨.hbm, 889, rfl⟩
abbrev main_v771 : Ref sig .tc := ⟨.hbm, 890, rfl⟩
abbrev main_v772 : Ref sig .tc := ⟨.hbm, 891, rfl⟩
abbrev main_c_108 : Ref sig .tc := ⟨.hbm, 892, rfl⟩
abbrev main_v773 : Ref sig .tc := ⟨.hbm, 893, rfl⟩
abbrev main_v774 : Ref sig .tc := ⟨.hbm, 894, rfl⟩
abbrev main_v775 : Ref sig .tc := ⟨.hbm, 895, rfl⟩
abbrev main_v776 : Ref sig .tc := ⟨.hbm, 896, rfl⟩
abbrev main_v777 : Ref sig .tc := ⟨.hbm, 897, rfl⟩
abbrev main_v778 : Ref sig .tc := ⟨.hbm, 898, rfl⟩
abbrev main_v779 : Ref sig .tc := ⟨.hbm, 899, rfl⟩
abbrev main_v780 : Ref sig .tc := ⟨.hbm, 900, rfl⟩
abbrev main_cst_109 : Ref sig .tc := ⟨.hbm, 901, rfl⟩
abbrev main_v781 : Ref sig .tc := ⟨.hbm, 902, rfl⟩
abbrev main_v782 : Ref sig .tc := ⟨.hbm, 903, rfl⟩
abbrev main_v783 : Ref sig .tc := ⟨.hbm, 904, rfl⟩
abbrev main_v784 : Ref sig .tc := ⟨.hbm, 905, rfl⟩
abbrev main_v785 : Ref sig .tc := ⟨.hbm, 906, rfl⟩
abbrev main_v786 : Ref sig .tc := ⟨.hbm, 907, rfl⟩
abbrev main_v787 : Ref sig .tc := ⟨.hbm, 908, rfl⟩
abbrev main_v788 : Ref sig .tc := ⟨.hbm, 909, rfl⟩
abbrev main_v789 : Ref sig .tc := ⟨.hbm, 910, rfl⟩
abbrev main_cst_110 : Ref sig .tc := ⟨.hbm, 911, rfl⟩
abbrev main_v790 : Ref sig .tc := ⟨.hbm, 912, rfl⟩
abbrev main_v791 : Ref sig .tc := ⟨.hbm, 913, rfl⟩
abbrev main_v792 : Ref sig .tc := ⟨.hbm, 914, rfl⟩
abbrev main_v793 : Ref sig .tc := ⟨.hbm, 915, rfl⟩
abbrev main_v794 : Ref sig .tc := ⟨.hbm, 916, rfl⟩
abbrev main_c_111 : Ref sig .tc := ⟨.hbm, 917, rfl⟩
abbrev main_v795 : Ref sig .tc := ⟨.hbm, 918, rfl⟩
abbrev main_v796 : Ref sig .tc := ⟨.hbm, 919, rfl⟩
abbrev main_v797 : Ref sig .tc := ⟨.hbm, 920, rfl⟩
abbrev main_v798 : Ref sig .tc := ⟨.hbm, 921, rfl⟩
abbrev main_v799 : Ref sig .tc := ⟨.hbm, 922, rfl⟩
abbrev main_v800 : Ref sig .tc := ⟨.hbm, 923, rfl⟩
abbrev main_v801 : Ref sig .tc := ⟨.hbm, 924, rfl⟩
abbrev main_v802 : Ref sig .tc := ⟨.hbm, 925, rfl⟩
abbrev main_cst_112 : Ref sig .tc := ⟨.hbm, 926, rfl⟩
abbrev main_v803 : Ref sig .tc := ⟨.hbm, 927, rfl⟩
abbrev main_v804 : Ref sig .tc := ⟨.hbm, 928, rfl⟩
abbrev main_v805 : Ref sig .tc := ⟨.hbm, 929, rfl⟩
abbrev main_v806 : Ref sig .tc := ⟨.hbm, 930, rfl⟩
abbrev main_v807 : Ref sig .tc := ⟨.hbm, 931, rfl⟩
abbrev main_v808 : Ref sig .tc := ⟨.hbm, 932, rfl⟩
abbrev main_v809 : Ref sig .tc := ⟨.hbm, 933, rfl⟩
abbrev main_v810 : Ref sig .tc := ⟨.hbm, 934, rfl⟩
abbrev main_v811 : Ref sig .tc := ⟨.hbm, 935, rfl⟩
abbrev main_cst_113 : Ref sig .tc := ⟨.hbm, 936, rfl⟩
abbrev main_v812 : Ref sig .tc := ⟨.hbm, 937, rfl⟩
abbrev main_v813 : Ref sig .tc := ⟨.hbm, 938, rfl⟩
abbrev main_v814 : Ref sig .tc := ⟨.hbm, 939, rfl⟩
abbrev main_v815 : Ref sig .tc := ⟨.hbm, 940, rfl⟩
abbrev main_v816 : Ref sig .tc := ⟨.hbm, 941, rfl⟩
abbrev main_c_114 : Ref sig .tc := ⟨.hbm, 942, rfl⟩
abbrev main_v817 : Ref sig .tc := ⟨.hbm, 943, rfl⟩
abbrev main_v818 : Ref sig .tc := ⟨.hbm, 944, rfl⟩
abbrev main_v819 : Ref sig .tc := ⟨.hbm, 945, rfl⟩
abbrev main_v820 : Ref sig .tc := ⟨.hbm, 946, rfl⟩
abbrev main_v821 : Ref sig .tc := ⟨.hbm, 947, rfl⟩
abbrev main_v822 : Ref sig .tc := ⟨.hbm, 948, rfl⟩
abbrev main_v823 : Ref sig .tc := ⟨.hbm, 949, rfl⟩
abbrev main_v824 : Ref sig .tc := ⟨.hbm, 950, rfl⟩
abbrev main_cst_115 : Ref sig .tc := ⟨.hbm, 951, rfl⟩
abbrev main_v825 : Ref sig .tc := ⟨.hbm, 952, rfl⟩
abbrev main_v826 : Ref sig .tc := ⟨.hbm, 953, rfl⟩
abbrev main_v827 : Ref sig .tc := ⟨.hbm, 954, rfl⟩
abbrev main_v828 : Ref sig .tc := ⟨.hbm, 955, rfl⟩
abbrev main_v829 : Ref sig .tc := ⟨.hbm, 956, rfl⟩
abbrev main_v830 : Ref sig .tc := ⟨.hbm, 957, rfl⟩
abbrev main_v831 : Ref sig .tc := ⟨.hbm, 958, rfl⟩
abbrev main_v832 : Ref sig .tc := ⟨.hbm, 959, rfl⟩
abbrev main_v833 : Ref sig .tc := ⟨.hbm, 960, rfl⟩
abbrev main_cst_116 : Ref sig .tc := ⟨.hbm, 961, rfl⟩
abbrev main_v834 : Ref sig .tc := ⟨.hbm, 962, rfl⟩
abbrev main_v835 : Ref sig .tc := ⟨.hbm, 963, rfl⟩
abbrev main_v836 : Ref sig .tc := ⟨.hbm, 964, rfl⟩
abbrev main_v837 : Ref sig .tc := ⟨.hbm, 965, rfl⟩
abbrev main_v838 : Ref sig .tc := ⟨.hbm, 966, rfl⟩
abbrev main_c_117 : Ref sig .tc := ⟨.hbm, 967, rfl⟩
abbrev main_v839 : Ref sig .tc := ⟨.hbm, 968, rfl⟩
abbrev main_v840 : Ref sig .tc := ⟨.hbm, 969, rfl⟩
abbrev main_v841 : Ref sig .tc := ⟨.hbm, 970, rfl⟩
abbrev main_v842 : Ref sig .tc := ⟨.hbm, 971, rfl⟩
abbrev main_v843 : Ref sig .tc := ⟨.hbm, 972, rfl⟩
abbrev main_v844 : Ref sig .tc := ⟨.hbm, 973, rfl⟩
abbrev main_v845 : Ref sig .tc := ⟨.hbm, 974, rfl⟩
abbrev main_v846 : Ref sig .tc := ⟨.hbm, 975, rfl⟩
abbrev main_v847 : Ref sig .tc := ⟨.hbm, 976, rfl⟩
abbrev main_v848 : Ref sig .tc := ⟨.hbm, 977, rfl⟩
abbrev main_v849 : Ref sig .tc := ⟨.hbm, 978, rfl⟩
abbrev main_v850 : Ref sig .tc := ⟨.hbm, 979, rfl⟩
abbrev main_v851 : Ref sig .tc := ⟨.hbm, 980, rfl⟩
abbrev main_v852 : Ref sig .tc := ⟨.hbm, 981, rfl⟩
abbrev main_v853 : Ref sig .tc := ⟨.hbm, 982, rfl⟩
abbrev main_v854 : Ref sig .tc := ⟨.hbm, 983, rfl⟩
abbrev main_v855 : Ref sig .tc := ⟨.hbm, 984, rfl⟩
abbrev main_v856 : Ref sig .tc := ⟨.hbm, 985, rfl⟩
abbrev main_v857 : Ref sig .tc := ⟨.hbm, 986, rfl⟩
abbrev main_v858 : Ref sig .tc := ⟨.hbm, 987, rfl⟩
abbrev main_v859 : Ref sig .tc := ⟨.hbm, 988, rfl⟩
abbrev main_v860 : Ref sig .tc := ⟨.hbm, 989, rfl⟩
abbrev main_v861 : Ref sig .tc := ⟨.hbm, 990, rfl⟩
abbrev main_v862 : Ref sig .tc := ⟨.hbm, 991, rfl⟩
abbrev main_v863 : Ref sig .tc := ⟨.hbm, 992, rfl⟩
abbrev main_v864 : Ref sig .tc := ⟨.hbm, 993, rfl⟩
abbrev main_v865 : Ref sig .tc := ⟨.hbm, 994, rfl⟩
abbrev main_v866 : Ref sig .tc := ⟨.hbm, 995, rfl⟩
abbrev main_cst_118 : Ref sig .tc := ⟨.hbm, 996, rfl⟩
abbrev main_v867 : Ref sig .tc := ⟨.hbm, 997, rfl⟩
abbrev main_cst_119 : Ref sig .tc := ⟨.hbm, 998, rfl⟩
abbrev main_v868 : Ref sig .tc := ⟨.hbm, 999, rfl⟩
abbrev main_v869 : Ref sig .tc := ⟨.hbm, 1000, rfl⟩
abbrev main_v870 : Ref sig .tc := ⟨.hbm, 1001, rfl⟩
abbrev main_v871 : Ref sig .tc := ⟨.hbm, 1002, rfl⟩
abbrev main_v872 : Ref sig .tc := ⟨.hbm, 1003, rfl⟩
abbrev main_v873 : Ref sig .tc := ⟨.hbm, 1004, rfl⟩
abbrev main_v874 : Ref sig .tc := ⟨.hbm, 1005, rfl⟩
abbrev main_v875 : Ref sig .tc := ⟨.hbm, 1006, rfl⟩
abbrev main_v876 : Ref sig .tc := ⟨.hbm, 1007, rfl⟩
abbrev main_v877 : Ref sig .tc := ⟨.hbm, 1008, rfl⟩
abbrev main_v878 : Ref sig .tc := ⟨.hbm, 1009, rfl⟩
abbrev main_cst_120 : Ref sig .tc := ⟨.hbm, 1010, rfl⟩
abbrev main_v879 : Ref sig .tc := ⟨.hbm, 1011, rfl⟩
abbrev main_v880 : Ref sig .tc := ⟨.hbm, 1012, rfl⟩
abbrev main_v881 : Ref sig .tc := ⟨.hbm, 1013, rfl⟩
abbrev main_v882 : Ref sig .tc := ⟨.hbm, 1014, rfl⟩
abbrev main_v883 : Ref sig .tc := ⟨.hbm, 1015, rfl⟩
abbrev main_v884 : Ref sig .tc := ⟨.hbm, 1016, rfl⟩
abbrev main_v885 : Ref sig .tc := ⟨.hbm, 1017, rfl⟩
abbrev main_v886 : Ref sig .tc := ⟨.hbm, 1018, rfl⟩
abbrev main_v887 : Ref sig .tc := ⟨.hbm, 1019, rfl⟩
abbrev main_cst_121 : Ref sig .tc := ⟨.hbm, 1020, rfl⟩
abbrev main_v888 : Ref sig .tc := ⟨.hbm, 1021, rfl⟩
abbrev main_v889 : Ref sig .tc := ⟨.hbm, 1022, rfl⟩
abbrev main_v890 : Ref sig .tc := ⟨.hbm, 1023, rfl⟩
abbrev main_v891 : Ref sig .tc := ⟨.hbm, 1024, rfl⟩
abbrev main_v892 : Ref sig .tc := ⟨.hbm, 1025, rfl⟩
abbrev main_c_122 : Ref sig .tc := ⟨.hbm, 1026, rfl⟩
abbrev main_v893 : Ref sig .tc := ⟨.hbm, 1027, rfl⟩
abbrev main_v894 : Ref sig .tc := ⟨.hbm, 1028, rfl⟩
abbrev main_v895 : Ref sig .tc := ⟨.hbm, 1029, rfl⟩
abbrev main_v896 : Ref sig .tc := ⟨.hbm, 1030, rfl⟩
abbrev main_v897 : Ref sig .tc := ⟨.hbm, 1031, rfl⟩
abbrev main_v898 : Ref sig .tc := ⟨.hbm, 1032, rfl⟩
abbrev main_v899 : Ref sig .tc := ⟨.hbm, 1033, rfl⟩
abbrev main_v900 : Ref sig .tc := ⟨.hbm, 1034, rfl⟩
abbrev main_cst_123 : Ref sig .tc := ⟨.hbm, 1035, rfl⟩
abbrev main_v901 : Ref sig .tc := ⟨.hbm, 1036, rfl⟩
abbrev main_v902 : Ref sig .tc := ⟨.hbm, 1037, rfl⟩
abbrev main_v903 : Ref sig .tc := ⟨.hbm, 1038, rfl⟩
abbrev main_v904 : Ref sig .tc := ⟨.hbm, 1039, rfl⟩
abbrev main_v905 : Ref sig .tc := ⟨.hbm, 1040, rfl⟩
abbrev main_v906 : Ref sig .tc := ⟨.hbm, 1041, rfl⟩
abbrev main_v907 : Ref sig .tc := ⟨.hbm, 1042, rfl⟩
abbrev main_v908 : Ref sig .tc := ⟨.hbm, 1043, rfl⟩
abbrev main_v909 : Ref sig .tc := ⟨.hbm, 1044, rfl⟩
abbrev main_cst_124 : Ref sig .tc := ⟨.hbm, 1045, rfl⟩
abbrev main_v910 : Ref sig .tc := ⟨.hbm, 1046, rfl⟩
abbrev main_v911 : Ref sig .tc := ⟨.hbm, 1047, rfl⟩
abbrev main_v912 : Ref sig .tc := ⟨.hbm, 1048, rfl⟩
abbrev main_v913 : Ref sig .tc := ⟨.hbm, 1049, rfl⟩
abbrev main_v914 : Ref sig .tc := ⟨.hbm, 1050, rfl⟩
abbrev main_c_125 : Ref sig .tc := ⟨.hbm, 1051, rfl⟩
abbrev main_v915 : Ref sig .tc := ⟨.hbm, 1052, rfl⟩
abbrev main_v916 : Ref sig .tc := ⟨.hbm, 1053, rfl⟩
abbrev main_v917 : Ref sig .tc := ⟨.hbm, 1054, rfl⟩
abbrev main_v918 : Ref sig .tc := ⟨.hbm, 1055, rfl⟩
abbrev main_v919 : Ref sig .tc := ⟨.hbm, 1056, rfl⟩
abbrev main_v920 : Ref sig .tc := ⟨.hbm, 1057, rfl⟩
abbrev main_v921 : Ref sig .tc := ⟨.hbm, 1058, rfl⟩
abbrev main_v922 : Ref sig .tc := ⟨.hbm, 1059, rfl⟩
abbrev main_cst_126 : Ref sig .tc := ⟨.hbm, 1060, rfl⟩
abbrev main_v923 : Ref sig .tc := ⟨.hbm, 1061, rfl⟩
abbrev main_v924 : Ref sig .tc := ⟨.hbm, 1062, rfl⟩
abbrev main_v925 : Ref sig .tc := ⟨.hbm, 1063, rfl⟩
abbrev main_v926 : Ref sig .tc := ⟨.hbm, 1064, rfl⟩
abbrev main_v927 : Ref sig .tc := ⟨.hbm, 1065, rfl⟩
abbrev main_v928 : Ref sig .tc := ⟨.hbm, 1066, rfl⟩
abbrev main_v929 : Ref sig .tc := ⟨.hbm, 1067, rfl⟩
abbrev main_v930 : Ref sig .tc := ⟨.hbm, 1068, rfl⟩
abbrev main_v931 : Ref sig .tc := ⟨.hbm, 1069, rfl⟩
abbrev main_cst_127 : Ref sig .tc := ⟨.hbm, 1070, rfl⟩
abbrev main_v932 : Ref sig .tc := ⟨.hbm, 1071, rfl⟩
abbrev main_v933 : Ref sig .tc := ⟨.hbm, 1072, rfl⟩
abbrev main_v934 : Ref sig .tc := ⟨.hbm, 1073, rfl⟩
abbrev main_v935 : Ref sig .tc := ⟨.hbm, 1074, rfl⟩
abbrev main_v936 : Ref sig .tc := ⟨.hbm, 1075, rfl⟩
abbrev main_c_128 : Ref sig .tc := ⟨.hbm, 1076, rfl⟩
abbrev main_v937 : Ref sig .tc := ⟨.hbm, 1077, rfl⟩
abbrev main_v938 : Ref sig .tc := ⟨.hbm, 1078, rfl⟩
abbrev main_v939 : Ref sig .tc := ⟨.hbm, 1079, rfl⟩
abbrev main_v940 : Ref sig .tc := ⟨.hbm, 1080, rfl⟩
abbrev main_v941 : Ref sig .tc := ⟨.hbm, 1081, rfl⟩
abbrev main_v942 : Ref sig .tc := ⟨.hbm, 1082, rfl⟩
abbrev main_v943 : Ref sig .tc := ⟨.hbm, 1083, rfl⟩
abbrev main_v944 : Ref sig .tc := ⟨.hbm, 1084, rfl⟩
abbrev main_cst_129 : Ref sig .tc := ⟨.hbm, 1085, rfl⟩
abbrev main_v945 : Ref sig .tc := ⟨.hbm, 1086, rfl⟩
abbrev main_v946 : Ref sig .tc := ⟨.hbm, 1087, rfl⟩
abbrev main_v947 : Ref sig .tc := ⟨.hbm, 1088, rfl⟩
abbrev main_v948 : Ref sig .tc := ⟨.hbm, 1089, rfl⟩
abbrev main_v949 : Ref sig .tc := ⟨.hbm, 1090, rfl⟩
abbrev main_v950 : Ref sig .tc := ⟨.hbm, 1091, rfl⟩
abbrev main_v951 : Ref sig .tc := ⟨.hbm, 1092, rfl⟩
abbrev main_v952 : Ref sig .tc := ⟨.hbm, 1093, rfl⟩
abbrev main_v953 : Ref sig .tc := ⟨.hbm, 1094, rfl⟩
abbrev main_cst_130 : Ref sig .tc := ⟨.hbm, 1095, rfl⟩
abbrev main_v954 : Ref sig .tc := ⟨.hbm, 1096, rfl⟩
abbrev main_v955 : Ref sig .tc := ⟨.hbm, 1097, rfl⟩
abbrev main_v956 : Ref sig .tc := ⟨.hbm, 1098, rfl⟩
abbrev main_v957 : Ref sig .tc := ⟨.hbm, 1099, rfl⟩
abbrev main_v958 : Ref sig .tc := ⟨.hbm, 1100, rfl⟩
abbrev main_c_131 : Ref sig .tc := ⟨.hbm, 1101, rfl⟩
abbrev main_v959 : Ref sig .tc := ⟨.hbm, 1102, rfl⟩
abbrev main_v960 : Ref sig .tc := ⟨.hbm, 1103, rfl⟩
abbrev main_v961 : Ref sig .tc := ⟨.hbm, 1104, rfl⟩
abbrev main_v962 : Ref sig .tc := ⟨.hbm, 1105, rfl⟩
abbrev main_cst_132 : Ref sig .tc := ⟨.hbm, 1106, rfl⟩
abbrev main_v963 : Ref sig .tc := ⟨.hbm, 1107, rfl⟩
abbrev main_v964 : Ref sig .tc := ⟨.hbm, 1108, rfl⟩
abbrev main_v965 : Ref sig .tc := ⟨.hbm, 1109, rfl⟩
abbrev main_c_133 : Ref sig .tc := ⟨.hbm, 1110, rfl⟩
abbrev main_v966 : Ref sig .tc := ⟨.hbm, 1111, rfl⟩
abbrev main_v967 : Ref sig .tc := ⟨.hbm, 1112, rfl⟩
abbrev main_cst_134 : Ref sig .tc := ⟨.hbm, 1113, rfl⟩
abbrev main_v968 : Ref sig .tc := ⟨.hbm, 1114, rfl⟩
abbrev main_cst_135 : Ref sig .tc := ⟨.hbm, 1115, rfl⟩
abbrev main_v969 : Ref sig .tc := ⟨.hbm, 1116, rfl⟩
abbrev main_v970 : Ref sig .tc := ⟨.hbm, 1117, rfl⟩
abbrev main_v971 : Ref sig .tc := ⟨.hbm, 1118, rfl⟩
abbrev main_v972 : Ref sig .tc := ⟨.hbm, 1119, rfl⟩
abbrev main_v973 : Ref sig .tc := ⟨.hbm, 1120, rfl⟩
abbrev main_v974 : Ref sig .tc := ⟨.hbm, 1121, rfl⟩
abbrev main_v975 : Ref sig .tc := ⟨.hbm, 1122, rfl⟩
abbrev main_v976 : Ref sig .tc := ⟨.hbm, 1123, rfl⟩
abbrev main_v977 : Ref sig .tc := ⟨.hbm, 1124, rfl⟩
abbrev main_v978 : Ref sig .tc := ⟨.hbm, 1125, rfl⟩
abbrev main_v979 : Ref sig .tc := ⟨.hbm, 1126, rfl⟩
abbrev main_v980 : Ref sig .tc := ⟨.hbm, 1127, rfl⟩
abbrev main_v981 : Ref sig .tc := ⟨.hbm, 1128, rfl⟩
abbrev main_cst_136 : Ref sig .tc := ⟨.hbm, 1129, rfl⟩
abbrev main_v982 : Ref sig .tc := ⟨.hbm, 1130, rfl⟩
abbrev main_cst_137 : Ref sig .tc := ⟨.hbm, 1131, rfl⟩
abbrev main_v983 : Ref sig .tc := ⟨.hbm, 1132, rfl⟩
abbrev main_v984 : Ref sig .tc := ⟨.hbm, 1133, rfl⟩
abbrev main_v985 : Ref sig .tc := ⟨.hbm, 1134, rfl⟩
abbrev main_v986 : Ref sig .tc := ⟨.hbm, 1135, rfl⟩
abbrev main_v987 : Ref sig .tc := ⟨.hbm, 1136, rfl⟩
abbrev main_v988 : Ref sig .tc := ⟨.hbm, 1137, rfl⟩
abbrev main_v989 : Ref sig .tc := ⟨.hbm, 1138, rfl⟩
abbrev main_cst_138 : Ref sig .tc := ⟨.hbm, 1139, rfl⟩
abbrev main_v990 : Ref sig .tc := ⟨.hbm, 1140, rfl⟩
abbrev main_v991 : Ref sig .tc := ⟨.hbm, 1141, rfl⟩
abbrev main_v992 : Ref sig .tc := ⟨.hbm, 1142, rfl⟩
abbrev main_c_139 : Ref sig .tc := ⟨.hbm, 1143, rfl⟩
abbrev main_v993 : Ref sig .tc := ⟨.hbm, 1144, rfl⟩
abbrev main_v994 : Ref sig .tc := ⟨.hbm, 1145, rfl⟩
abbrev main_v995 : Ref sig .tc := ⟨.hbm, 1146, rfl⟩
abbrev main_v996 : Ref sig .tc := ⟨.hbm, 1147, rfl⟩
abbrev main_v997 : Ref sig .tc := ⟨.hbm, 1148, rfl⟩
abbrev main_v998 : Ref sig .tc := ⟨.hbm, 1149, rfl⟩
abbrev main_v999 : Ref sig .tc := ⟨.hbm, 1150, rfl⟩
abbrev main_v1000 : Ref sig .tc := ⟨.hbm, 1151, rfl⟩
abbrev main_cst_140 : Ref sig .tc := ⟨.hbm, 1152, rfl⟩
abbrev main_v1001 : Ref sig .tc := ⟨.hbm, 1153, rfl⟩
abbrev main_v1002 : Ref sig .tc := ⟨.hbm, 1154, rfl⟩
abbrev main_v1003 : Ref sig .tc := ⟨.hbm, 1155, rfl⟩
abbrev main_v1004 : Ref sig .tc := ⟨.hbm, 1156, rfl⟩
abbrev main_v1005 : Ref sig .tc := ⟨.hbm, 1157, rfl⟩
abbrev main_v1006 : Ref sig .tc := ⟨.hbm, 1158, rfl⟩
abbrev main_v1007 : Ref sig .tc := ⟨.hbm, 1159, rfl⟩
abbrev main_v1008 : Ref sig .tc := ⟨.hbm, 1160, rfl⟩
abbrev main_v1009 : Ref sig .tc := ⟨.hbm, 1161, rfl⟩
abbrev main_cst_141 : Ref sig .tc := ⟨.hbm, 1162, rfl⟩
abbrev main_v1010 : Ref sig .tc := ⟨.hbm, 1163, rfl⟩
abbrev main_v1011 : Ref sig .tc := ⟨.hbm, 1164, rfl⟩
abbrev main_v1012 : Ref sig .tc := ⟨.hbm, 1165, rfl⟩
abbrev main_v1013 : Ref sig .tc := ⟨.hbm, 1166, rfl⟩
abbrev main_v1014 : Ref sig .tc := ⟨.hbm, 1167, rfl⟩
abbrev main_c_142 : Ref sig .tc := ⟨.hbm, 1168, rfl⟩
abbrev main_v1015 : Ref sig .tc := ⟨.hbm, 1169, rfl⟩
abbrev main_v1016 : Ref sig .tc := ⟨.hbm, 1170, rfl⟩
abbrev main_v1017 : Ref sig .tc := ⟨.hbm, 1171, rfl⟩
abbrev main_v1018 : Ref sig .tc := ⟨.hbm, 1172, rfl⟩
abbrev main_v1019 : Ref sig .tc := ⟨.hbm, 1173, rfl⟩
abbrev main_v1020 : Ref sig .tc := ⟨.hbm, 1174, rfl⟩
abbrev main_v1021 : Ref sig .tc := ⟨.hbm, 1175, rfl⟩
abbrev main_v1022 : Ref sig .tc := ⟨.hbm, 1176, rfl⟩
abbrev main_cst_143 : Ref sig .tc := ⟨.hbm, 1177, rfl⟩
abbrev main_v1023 : Ref sig .tc := ⟨.hbm, 1178, rfl⟩
abbrev main_v1024 : Ref sig .tc := ⟨.hbm, 1179, rfl⟩
abbrev main_v1025 : Ref sig .tc := ⟨.hbm, 1180, rfl⟩
abbrev main_v1026 : Ref sig .tc := ⟨.hbm, 1181, rfl⟩
abbrev main_v1027 : Ref sig .tc := ⟨.hbm, 1182, rfl⟩
abbrev main_v1028 : Ref sig .tc := ⟨.hbm, 1183, rfl⟩
abbrev main_v1029 : Ref sig .tc := ⟨.hbm, 1184, rfl⟩
abbrev main_v1030 : Ref sig .tc := ⟨.hbm, 1185, rfl⟩
abbrev main_v1031 : Ref sig .tc := ⟨.hbm, 1186, rfl⟩
abbrev main_cst_144 : Ref sig .tc := ⟨.hbm, 1187, rfl⟩
abbrev main_v1032 : Ref sig .tc := ⟨.hbm, 1188, rfl⟩
abbrev main_v1033 : Ref sig .tc := ⟨.hbm, 1189, rfl⟩
abbrev main_v1034 : Ref sig .tc := ⟨.hbm, 1190, rfl⟩
abbrev main_v1035 : Ref sig .tc := ⟨.hbm, 1191, rfl⟩
abbrev main_v1036 : Ref sig .tc := ⟨.hbm, 1192, rfl⟩
abbrev main_c_145 : Ref sig .tc := ⟨.hbm, 1193, rfl⟩
abbrev main_v1037 : Ref sig .tc := ⟨.hbm, 1194, rfl⟩
abbrev main_v1038 : Ref sig .tc := ⟨.hbm, 1195, rfl⟩
abbrev main_v1039 : Ref sig .tc := ⟨.hbm, 1196, rfl⟩
abbrev main_v1040 : Ref sig .tc := ⟨.hbm, 1197, rfl⟩
abbrev main_v1041 : Ref sig .tc := ⟨.hbm, 1198, rfl⟩
abbrev main_v1042 : Ref sig .tc := ⟨.hbm, 1199, rfl⟩
abbrev main_v1043 : Ref sig .tc := ⟨.hbm, 1200, rfl⟩
abbrev main_v1044 : Ref sig .tc := ⟨.hbm, 1201, rfl⟩
abbrev main_cst_146 : Ref sig .tc := ⟨.hbm, 1202, rfl⟩
abbrev main_v1045 : Ref sig .tc := ⟨.hbm, 1203, rfl⟩
abbrev main_v1046 : Ref sig .tc := ⟨.hbm, 1204, rfl⟩
abbrev main_v1047 : Ref sig .tc := ⟨.hbm, 1205, rfl⟩
abbrev main_v1048 : Ref sig .tc := ⟨.hbm, 1206, rfl⟩
abbrev main_v1049 : Ref sig .tc := ⟨.hbm, 1207, rfl⟩
abbrev main_v1050 : Ref sig .tc := ⟨.hbm, 1208, rfl⟩
abbrev main_v1051 : Ref sig .tc := ⟨.hbm, 1209, rfl⟩
abbrev main_v1052 : Ref sig .tc := ⟨.hbm, 1210, rfl⟩
abbrev main_v1053 : Ref sig .tc := ⟨.hbm, 1211, rfl⟩
abbrev main_cst_147 : Ref sig .tc := ⟨.hbm, 1212, rfl⟩
abbrev main_v1054 : Ref sig .tc := ⟨.hbm, 1213, rfl⟩
abbrev main_v1055 : Ref sig .tc := ⟨.hbm, 1214, rfl⟩
abbrev main_v1056 : Ref sig .tc := ⟨.hbm, 1215, rfl⟩
abbrev main_v1057 : Ref sig .tc := ⟨.hbm, 1216, rfl⟩
abbrev main_v1058 : Ref sig .tc := ⟨.hbm, 1217, rfl⟩
abbrev main_c_148 : Ref sig .tc := ⟨.hbm, 1218, rfl⟩
abbrev main_v1059 : Ref sig .tc := ⟨.hbm, 1219, rfl⟩
abbrev main_v1060 : Ref sig .tc := ⟨.hbm, 1220, rfl⟩
abbrev main_v1061 : Ref sig .tc := ⟨.hbm, 1221, rfl⟩
abbrev main_v1062 : Ref sig .tc := ⟨.hbm, 1222, rfl⟩
abbrev main_v1063 : Ref sig .tc := ⟨.hbm, 1223, rfl⟩
abbrev main_v1064 : Ref sig .tc := ⟨.hbm, 1224, rfl⟩
abbrev main_v1065 : Ref sig .tc := ⟨.hbm, 1225, rfl⟩
abbrev main_v1066 : Ref sig .tc := ⟨.hbm, 1226, rfl⟩
abbrev main_cst_149 : Ref sig .tc := ⟨.hbm, 1227, rfl⟩
abbrev main_v1067 : Ref sig .tc := ⟨.hbm, 1228, rfl⟩
abbrev main_v1068 : Ref sig .tc := ⟨.hbm, 1229, rfl⟩
abbrev main_v1069 : Ref sig .tc := ⟨.hbm, 1230, rfl⟩
abbrev main_v1070 : Ref sig .tc := ⟨.hbm, 1231, rfl⟩
abbrev main_v1071 : Ref sig .tc := ⟨.hbm, 1232, rfl⟩
abbrev main_v1072 : Ref sig .tc := ⟨.hbm, 1233, rfl⟩
abbrev main_v1073 : Ref sig .tc := ⟨.hbm, 1234, rfl⟩
abbrev main_v1074 : Ref sig .tc := ⟨.hbm, 1235, rfl⟩
abbrev main_v1075 : Ref sig .tc := ⟨.hbm, 1236, rfl⟩
abbrev main_cst_150 : Ref sig .tc := ⟨.hbm, 1237, rfl⟩
abbrev main_v1076 : Ref sig .tc := ⟨.hbm, 1238, rfl⟩
abbrev main_v1077 : Ref sig .tc := ⟨.hbm, 1239, rfl⟩
abbrev main_v1078 : Ref sig .tc := ⟨.hbm, 1240, rfl⟩
abbrev main_v1079 : Ref sig .tc := ⟨.hbm, 1241, rfl⟩
abbrev main_v1080 : Ref sig .tc := ⟨.hbm, 1242, rfl⟩
abbrev main_c_151 : Ref sig .tc := ⟨.hbm, 1243, rfl⟩
abbrev main_v1081 : Ref sig .tc := ⟨.hbm, 1244, rfl⟩
abbrev main_v1082 : Ref sig .tc := ⟨.hbm, 1245, rfl⟩
abbrev main_v1083 : Ref sig .tc := ⟨.hbm, 1246, rfl⟩
abbrev main_v1084 : Ref sig .tc := ⟨.hbm, 1247, rfl⟩
abbrev main_v1085 : Ref sig .tc := ⟨.hbm, 1248, rfl⟩
abbrev main_v1086 : Ref sig .tc := ⟨.hbm, 1249, rfl⟩
abbrev main_v1087 : Ref sig .tc := ⟨.hbm, 1250, rfl⟩
abbrev main_v1088 : Ref sig .tc := ⟨.hbm, 1251, rfl⟩
abbrev main_v1089 : Ref sig .tc := ⟨.hbm, 1252, rfl⟩
abbrev main_v1090 : Ref sig .tc := ⟨.hbm, 1253, rfl⟩
abbrev main_v1091 : Ref sig .tc := ⟨.hbm, 1254, rfl⟩
abbrev main_v1092 : Ref sig .tc := ⟨.hbm, 1255, rfl⟩
abbrev main_v1093 : Ref sig .tc := ⟨.hbm, 1256, rfl⟩
abbrev main_v1094 : Ref sig .tc := ⟨.hbm, 1257, rfl⟩
abbrev main_v1095 : Ref sig .tc := ⟨.hbm, 1258, rfl⟩
abbrev main_v1096 : Ref sig .tc := ⟨.hbm, 1259, rfl⟩
abbrev main_v1097 : Ref sig .tc := ⟨.hbm, 1260, rfl⟩
abbrev main_v1098 : Ref sig .tc := ⟨.hbm, 1261, rfl⟩
abbrev main_v1099 : Ref sig .tc := ⟨.hbm, 1262, rfl⟩
abbrev main_v1100 : Ref sig .tc := ⟨.hbm, 1263, rfl⟩
abbrev main_v1101 : Ref sig .tc := ⟨.hbm, 1264, rfl⟩
abbrev main_v1102 : Ref sig .tc := ⟨.hbm, 1265, rfl⟩
abbrev main_v1103 : Ref sig .tc := ⟨.hbm, 1266, rfl⟩
abbrev main_v1104 : Ref sig .tc := ⟨.hbm, 1267, rfl⟩
abbrev main_v1105 : Ref sig .tc := ⟨.hbm, 1268, rfl⟩
abbrev main_v1106 : Ref sig .tc := ⟨.hbm, 1269, rfl⟩
abbrev main_v1107 : Ref sig .tc := ⟨.hbm, 1270, rfl⟩
abbrev main_v1108 : Ref sig .tc := ⟨.hbm, 1271, rfl⟩
abbrev main_cst_152 : Ref sig .tc := ⟨.hbm, 1272, rfl⟩
abbrev main_v1109 : Ref sig .tc := ⟨.hbm, 1273, rfl⟩
abbrev main_cst_153 : Ref sig .tc := ⟨.hbm, 1274, rfl⟩
abbrev main_v1110 : Ref sig .tc := ⟨.hbm, 1275, rfl⟩
abbrev main_v1111 : Ref sig .tc := ⟨.hbm, 1276, rfl⟩
abbrev main_v1112 : Ref sig .tc := ⟨.hbm, 1277, rfl⟩
abbrev main_v1113 : Ref sig .tc := ⟨.hbm, 1278, rfl⟩
abbrev main_v1114 : Ref sig .tc := ⟨.hbm, 1279, rfl⟩
abbrev main_v1115 : Ref sig .tc := ⟨.hbm, 1280, rfl⟩
abbrev main_v1116 : Ref sig .tc := ⟨.hbm, 1281, rfl⟩
abbrev main_v1117 : Ref sig .tc := ⟨.hbm, 1282, rfl⟩
abbrev main_v1118 : Ref sig .tc := ⟨.hbm, 1283, rfl⟩
abbrev main_v1119 : Ref sig .tc := ⟨.hbm, 1284, rfl⟩
abbrev main_v1120 : Ref sig .tc := ⟨.hbm, 1285, rfl⟩
abbrev main_cst_154 : Ref sig .tc := ⟨.hbm, 1286, rfl⟩
abbrev main_v1121 : Ref sig .tc := ⟨.hbm, 1287, rfl⟩
abbrev main_v1122 : Ref sig .tc := ⟨.hbm, 1288, rfl⟩
abbrev main_v1123 : Ref sig .tc := ⟨.hbm, 1289, rfl⟩
abbrev main_v1124 : Ref sig .tc := ⟨.hbm, 1290, rfl⟩
abbrev main_v1125 : Ref sig .tc := ⟨.hbm, 1291, rfl⟩
abbrev main_v1126 : Ref sig .tc := ⟨.hbm, 1292, rfl⟩
abbrev main_v1127 : Ref sig .tc := ⟨.hbm, 1293, rfl⟩
abbrev main_v1128 : Ref sig .tc := ⟨.hbm, 1294, rfl⟩
abbrev main_v1129 : Ref sig .tc := ⟨.hbm, 1295, rfl⟩
abbrev main_cst_155 : Ref sig .tc := ⟨.hbm, 1296, rfl⟩
abbrev main_v1130 : Ref sig .tc := ⟨.hbm, 1297, rfl⟩
abbrev main_v1131 : Ref sig .tc := ⟨.hbm, 1298, rfl⟩
abbrev main_v1132 : Ref sig .tc := ⟨.hbm, 1299, rfl⟩
abbrev main_v1133 : Ref sig .tc := ⟨.hbm, 1300, rfl⟩
abbrev main_v1134 : Ref sig .tc := ⟨.hbm, 1301, rfl⟩
abbrev main_c_156 : Ref sig .tc := ⟨.hbm, 1302, rfl⟩
abbrev main_v1135 : Ref sig .tc := ⟨.hbm, 1303, rfl⟩
abbrev main_v1136 : Ref sig .tc := ⟨.hbm, 1304, rfl⟩
abbrev main_v1137 : Ref sig .tc := ⟨.hbm, 1305, rfl⟩
abbrev main_v1138 : Ref sig .tc := ⟨.hbm, 1306, rfl⟩
abbrev main_v1139 : Ref sig .tc := ⟨.hbm, 1307, rfl⟩
abbrev main_v1140 : Ref sig .tc := ⟨.hbm, 1308, rfl⟩
abbrev main_v1141 : Ref sig .tc := ⟨.hbm, 1309, rfl⟩
abbrev main_v1142 : Ref sig .tc := ⟨.hbm, 1310, rfl⟩
abbrev main_cst_157 : Ref sig .tc := ⟨.hbm, 1311, rfl⟩
abbrev main_v1143 : Ref sig .tc := ⟨.hbm, 1312, rfl⟩
abbrev main_v1144 : Ref sig .tc := ⟨.hbm, 1313, rfl⟩
abbrev main_v1145 : Ref sig .tc := ⟨.hbm, 1314, rfl⟩
abbrev main_v1146 : Ref sig .tc := ⟨.hbm, 1315, rfl⟩
abbrev main_v1147 : Ref sig .tc := ⟨.hbm, 1316, rfl⟩
abbrev main_v1148 : Ref sig .tc := ⟨.hbm, 1317, rfl⟩
abbrev main_v1149 : Ref sig .tc := ⟨.hbm, 1318, rfl⟩
abbrev main_v1150 : Ref sig .tc := ⟨.hbm, 1319, rfl⟩
abbrev main_v1151 : Ref sig .tc := ⟨.hbm, 1320, rfl⟩
abbrev main_cst_158 : Ref sig .tc := ⟨.hbm, 1321, rfl⟩
abbrev main_v1152 : Ref sig .tc := ⟨.hbm, 1322, rfl⟩
abbrev main_v1153 : Ref sig .tc := ⟨.hbm, 1323, rfl⟩
abbrev main_v1154 : Ref sig .tc := ⟨.hbm, 1324, rfl⟩
abbrev main_v1155 : Ref sig .tc := ⟨.hbm, 1325, rfl⟩
abbrev main_v1156 : Ref sig .tc := ⟨.hbm, 1326, rfl⟩
abbrev main_c_159 : Ref sig .tc := ⟨.hbm, 1327, rfl⟩
abbrev main_v1157 : Ref sig .tc := ⟨.hbm, 1328, rfl⟩
abbrev main_v1158 : Ref sig .tc := ⟨.hbm, 1329, rfl⟩
abbrev main_v1159 : Ref sig .tc := ⟨.hbm, 1330, rfl⟩
abbrev main_v1160 : Ref sig .tc := ⟨.hbm, 1331, rfl⟩
abbrev main_v1161 : Ref sig .tc := ⟨.hbm, 1332, rfl⟩
abbrev main_v1162 : Ref sig .tc := ⟨.hbm, 1333, rfl⟩
abbrev main_v1163 : Ref sig .tc := ⟨.hbm, 1334, rfl⟩
abbrev main_v1164 : Ref sig .tc := ⟨.hbm, 1335, rfl⟩
abbrev main_cst_160 : Ref sig .tc := ⟨.hbm, 1336, rfl⟩
abbrev main_v1165 : Ref sig .tc := ⟨.hbm, 1337, rfl⟩
abbrev main_v1166 : Ref sig .tc := ⟨.hbm, 1338, rfl⟩
abbrev main_v1167 : Ref sig .tc := ⟨.hbm, 1339, rfl⟩
abbrev main_v1168 : Ref sig .tc := ⟨.hbm, 1340, rfl⟩
abbrev main_v1169 : Ref sig .tc := ⟨.hbm, 1341, rfl⟩
abbrev main_v1170 : Ref sig .tc := ⟨.hbm, 1342, rfl⟩
abbrev main_v1171 : Ref sig .tc := ⟨.hbm, 1343, rfl⟩
abbrev main_v1172 : Ref sig .tc := ⟨.hbm, 1344, rfl⟩
abbrev main_v1173 : Ref sig .tc := ⟨.hbm, 1345, rfl⟩
abbrev main_cst_161 : Ref sig .tc := ⟨.hbm, 1346, rfl⟩
abbrev main_v1174 : Ref sig .tc := ⟨.hbm, 1347, rfl⟩
abbrev main_v1175 : Ref sig .tc := ⟨.hbm, 1348, rfl⟩
abbrev main_v1176 : Ref sig .tc := ⟨.hbm, 1349, rfl⟩
abbrev main_v1177 : Ref sig .tc := ⟨.hbm, 1350, rfl⟩
abbrev main_v1178 : Ref sig .tc := ⟨.hbm, 1351, rfl⟩
abbrev main_c_162 : Ref sig .tc := ⟨.hbm, 1352, rfl⟩
abbrev main_v1179 : Ref sig .tc := ⟨.hbm, 1353, rfl⟩
abbrev main_v1180 : Ref sig .tc := ⟨.hbm, 1354, rfl⟩
abbrev main_v1181 : Ref sig .tc := ⟨.hbm, 1355, rfl⟩
abbrev main_v1182 : Ref sig .tc := ⟨.hbm, 1356, rfl⟩
abbrev main_v1183 : Ref sig .tc := ⟨.hbm, 1357, rfl⟩
abbrev main_v1184 : Ref sig .tc := ⟨.hbm, 1358, rfl⟩
abbrev main_v1185 : Ref sig .tc := ⟨.hbm, 1359, rfl⟩
abbrev main_v1186 : Ref sig .tc := ⟨.hbm, 1360, rfl⟩
abbrev main_cst_163 : Ref sig .tc := ⟨.hbm, 1361, rfl⟩
abbrev main_v1187 : Ref sig .tc := ⟨.hbm, 1362, rfl⟩
abbrev main_v1188 : Ref sig .tc := ⟨.hbm, 1363, rfl⟩
abbrev main_v1189 : Ref sig .tc := ⟨.hbm, 1364, rfl⟩
abbrev main_v1190 : Ref sig .tc := ⟨.hbm, 1365, rfl⟩
abbrev main_v1191 : Ref sig .tc := ⟨.hbm, 1366, rfl⟩
abbrev main_v1192 : Ref sig .tc := ⟨.hbm, 1367, rfl⟩
abbrev main_v1193 : Ref sig .tc := ⟨.hbm, 1368, rfl⟩
abbrev main_v1194 : Ref sig .tc := ⟨.hbm, 1369, rfl⟩
abbrev main_v1195 : Ref sig .tc := ⟨.hbm, 1370, rfl⟩
abbrev main_cst_164 : Ref sig .tc := ⟨.hbm, 1371, rfl⟩
abbrev main_v1196 : Ref sig .tc := ⟨.hbm, 1372, rfl⟩
abbrev main_v1197 : Ref sig .tc := ⟨.hbm, 1373, rfl⟩
abbrev main_v1198 : Ref sig .tc := ⟨.hbm, 1374, rfl⟩
abbrev main_v1199 : Ref sig .tc := ⟨.hbm, 1375, rfl⟩
abbrev main_v1200 : Ref sig .tc := ⟨.hbm, 1376, rfl⟩
abbrev main_c_165 : Ref sig .tc := ⟨.hbm, 1377, rfl⟩
abbrev main_v1201 : Ref sig .tc := ⟨.hbm, 1378, rfl⟩
abbrev main_v1202 : Ref sig .tc := ⟨.hbm, 1379, rfl⟩
abbrev main_v1203 : Ref sig .tc := ⟨.hbm, 1380, rfl⟩
abbrev main_v1204 : Ref sig .tc := ⟨.hbm, 1381, rfl⟩
abbrev main_cst_166 : Ref sig .tc := ⟨.hbm, 1382, rfl⟩
abbrev main_v1205 : Ref sig .tc := ⟨.hbm, 1383, rfl⟩
abbrev main_v1206 : Ref sig .tc := ⟨.hbm, 1384, rfl⟩
abbrev main_v1207 : Ref sig .tc := ⟨.hbm, 1385, rfl⟩
abbrev main_c_167 : Ref sig .tc := ⟨.hbm, 1386, rfl⟩
abbrev main_v1208 : Ref sig .tc := ⟨.hbm, 1387, rfl⟩
abbrev main_v1209 : Ref sig .tc := ⟨.hbm, 1388, rfl⟩
abbrev main_cst_168 : Ref sig .tc := ⟨.hbm, 1389, rfl⟩
abbrev main_v1210 : Ref sig .tc := ⟨.hbm, 1390, rfl⟩
abbrev main_cst_169 : Ref sig .tc := ⟨.hbm, 1391, rfl⟩
abbrev main_v1211 : Ref sig .tc := ⟨.hbm, 1392, rfl⟩
abbrev main_v1212 : Ref sig .tc := ⟨.hbm, 1393, rfl⟩
abbrev main_v1213 : Ref sig .tc := ⟨.hbm, 1394, rfl⟩
abbrev main_v1214 : Ref sig .tc := ⟨.hbm, 1395, rfl⟩
abbrev main_v1215 : Ref sig .tc := ⟨.hbm, 1396, rfl⟩
abbrev main_v1216 : Ref sig .tc := ⟨.hbm, 1397, rfl⟩
abbrev main_v1217 : Ref sig .tc := ⟨.hbm, 1398, rfl⟩
abbrev main_v1218 : Ref sig .tc := ⟨.hbm, 1399, rfl⟩
abbrev main_v1219 : Ref sig .tc := ⟨.hbm, 1400, rfl⟩
abbrev main_v1220 : Ref sig .tc := ⟨.hbm, 1401, rfl⟩
abbrev main_v1221 : Ref sig .tc := ⟨.hbm, 1402, rfl⟩
abbrev main_v1222 : Ref sig .tc := ⟨.hbm, 1403, rfl⟩
abbrev main_v1223 : Ref sig .tc := ⟨.hbm, 1404, rfl⟩
abbrev main_cst_170 : Ref sig .tc := ⟨.hbm, 1405, rfl⟩
abbrev main_v1224 : Ref sig .tc := ⟨.hbm, 1406, rfl⟩
abbrev main_cst_171 : Ref sig .tc := ⟨.hbm, 1407, rfl⟩
abbrev main_v1225 : Ref sig .tc := ⟨.hbm, 1408, rfl⟩
abbrev main_v1226 : Ref sig .tc := ⟨.hbm, 1409, rfl⟩
abbrev main_v1227 : Ref sig .tc := ⟨.hbm, 1410, rfl⟩
abbrev main_v1228 : Ref sig .tc := ⟨.hbm, 1411, rfl⟩
abbrev main_v1229 : Ref sig .tc := ⟨.hbm, 1412, rfl⟩
abbrev main_v1230 : Ref sig .tc := ⟨.hbm, 1413, rfl⟩
abbrev main_v1231 : Ref sig .tc := ⟨.hbm, 1414, rfl⟩
abbrev main_cst_172 : Ref sig .tc := ⟨.hbm, 1415, rfl⟩
abbrev main_v1232 : Ref sig .tc := ⟨.hbm, 1416, rfl⟩
abbrev main_v1233 : Ref sig .tc := ⟨.hbm, 1417, rfl⟩
abbrev main_v1234 : Ref sig .tc := ⟨.hbm, 1418, rfl⟩
abbrev main_c_173 : Ref sig .tc := ⟨.hbm, 1419, rfl⟩
abbrev main_v1235 : Ref sig .tc := ⟨.hbm, 1420, rfl⟩
abbrev main_v1236 : Ref sig .tc := ⟨.hbm, 1421, rfl⟩
abbrev main_v1237 : Ref sig .tc := ⟨.hbm, 1422, rfl⟩
abbrev main_v1238 : Ref sig .tc := ⟨.hbm, 1423, rfl⟩
abbrev main_v1239 : Ref sig .tc := ⟨.hbm, 1424, rfl⟩
abbrev main_v1240 : Ref sig .tc := ⟨.hbm, 1425, rfl⟩
abbrev main_v1241 : Ref sig .tc := ⟨.hbm, 1426, rfl⟩
abbrev main_v1242 : Ref sig .tc := ⟨.hbm, 1427, rfl⟩
abbrev main_cst_174 : Ref sig .tc := ⟨.hbm, 1428, rfl⟩
abbrev main_v1243 : Ref sig .tc := ⟨.hbm, 1429, rfl⟩
abbrev main_v1244 : Ref sig .tc := ⟨.hbm, 1430, rfl⟩
abbrev main_v1245 : Ref sig .tc := ⟨.hbm, 1431, rfl⟩
abbrev main_v1246 : Ref sig .tc := ⟨.hbm, 1432, rfl⟩
abbrev main_v1247 : Ref sig .tc := ⟨.hbm, 1433, rfl⟩
abbrev main_v1248 : Ref sig .tc := ⟨.hbm, 1434, rfl⟩
abbrev main_v1249 : Ref sig .tc := ⟨.hbm, 1435, rfl⟩
abbrev main_v1250 : Ref sig .tc := ⟨.hbm, 1436, rfl⟩
abbrev main_v1251 : Ref sig .tc := ⟨.hbm, 1437, rfl⟩
abbrev main_cst_175 : Ref sig .tc := ⟨.hbm, 1438, rfl⟩
abbrev main_v1252 : Ref sig .tc := ⟨.hbm, 1439, rfl⟩
abbrev main_v1253 : Ref sig .tc := ⟨.hbm, 1440, rfl⟩
abbrev main_v1254 : Ref sig .tc := ⟨.hbm, 1441, rfl⟩
abbrev main_v1255 : Ref sig .tc := ⟨.hbm, 1442, rfl⟩
abbrev main_v1256 : Ref sig .tc := ⟨.hbm, 1443, rfl⟩
abbrev main_c_176 : Ref sig .tc := ⟨.hbm, 1444, rfl⟩
abbrev main_v1257 : Ref sig .tc := ⟨.hbm, 1445, rfl⟩
abbrev main_v1258 : Ref sig .tc := ⟨.hbm, 1446, rfl⟩
abbrev main_v1259 : Ref sig .tc := ⟨.hbm, 1447, rfl⟩
abbrev main_v1260 : Ref sig .tc := ⟨.hbm, 1448, rfl⟩
abbrev main_v1261 : Ref sig .tc := ⟨.hbm, 1449, rfl⟩
abbrev main_v1262 : Ref sig .tc := ⟨.hbm, 1450, rfl⟩
abbrev main_v1263 : Ref sig .tc := ⟨.hbm, 1451, rfl⟩
abbrev main_v1264 : Ref sig .tc := ⟨.hbm, 1452, rfl⟩
abbrev main_cst_177 : Ref sig .tc := ⟨.hbm, 1453, rfl⟩
abbrev main_v1265 : Ref sig .tc := ⟨.hbm, 1454, rfl⟩
abbrev main_v1266 : Ref sig .tc := ⟨.hbm, 1455, rfl⟩
abbrev main_v1267 : Ref sig .tc := ⟨.hbm, 1456, rfl⟩
abbrev main_v1268 : Ref sig .tc := ⟨.hbm, 1457, rfl⟩
abbrev main_v1269 : Ref sig .tc := ⟨.hbm, 1458, rfl⟩
abbrev main_v1270 : Ref sig .tc := ⟨.hbm, 1459, rfl⟩
abbrev main_v1271 : Ref sig .tc := ⟨.hbm, 1460, rfl⟩
abbrev main_v1272 : Ref sig .tc := ⟨.hbm, 1461, rfl⟩
abbrev main_v1273 : Ref sig .tc := ⟨.hbm, 1462, rfl⟩
abbrev main_cst_178 : Ref sig .tc := ⟨.hbm, 1463, rfl⟩
abbrev main_v1274 : Ref sig .tc := ⟨.hbm, 1464, rfl⟩
abbrev main_v1275 : Ref sig .tc := ⟨.hbm, 1465, rfl⟩
abbrev main_v1276 : Ref sig .tc := ⟨.hbm, 1466, rfl⟩
abbrev main_v1277 : Ref sig .tc := ⟨.hbm, 1467, rfl⟩
abbrev main_v1278 : Ref sig .tc := ⟨.hbm, 1468, rfl⟩
abbrev main_c_179 : Ref sig .tc := ⟨.hbm, 1469, rfl⟩
abbrev main_v1279 : Ref sig .tc := ⟨.hbm, 1470, rfl⟩
abbrev main_v1280 : Ref sig .tc := ⟨.hbm, 1471, rfl⟩
abbrev main_v1281 : Ref sig .tc := ⟨.hbm, 1472, rfl⟩
abbrev main_v1282 : Ref sig .tc := ⟨.hbm, 1473, rfl⟩
abbrev main_v1283 : Ref sig .tc := ⟨.hbm, 1474, rfl⟩
abbrev main_v1284 : Ref sig .tc := ⟨.hbm, 1475, rfl⟩
abbrev main_v1285 : Ref sig .tc := ⟨.hbm, 1476, rfl⟩
abbrev main_v1286 : Ref sig .tc := ⟨.hbm, 1477, rfl⟩
abbrev main_cst_180 : Ref sig .tc := ⟨.hbm, 1478, rfl⟩
abbrev main_v1287 : Ref sig .tc := ⟨.hbm, 1479, rfl⟩
abbrev main_v1288 : Ref sig .tc := ⟨.hbm, 1480, rfl⟩
abbrev main_v1289 : Ref sig .tc := ⟨.hbm, 1481, rfl⟩
abbrev main_v1290 : Ref sig .tc := ⟨.hbm, 1482, rfl⟩
abbrev main_v1291 : Ref sig .tc := ⟨.hbm, 1483, rfl⟩
abbrev main_v1292 : Ref sig .tc := ⟨.hbm, 1484, rfl⟩
abbrev main_v1293 : Ref sig .tc := ⟨.hbm, 1485, rfl⟩
abbrev main_v1294 : Ref sig .tc := ⟨.hbm, 1486, rfl⟩
abbrev main_v1295 : Ref sig .tc := ⟨.hbm, 1487, rfl⟩
abbrev main_cst_181 : Ref sig .tc := ⟨.hbm, 1488, rfl⟩
abbrev main_v1296 : Ref sig .tc := ⟨.hbm, 1489, rfl⟩
abbrev main_v1297 : Ref sig .tc := ⟨.hbm, 1490, rfl⟩
abbrev main_v1298 : Ref sig .tc := ⟨.hbm, 1491, rfl⟩
abbrev main_v1299 : Ref sig .tc := ⟨.hbm, 1492, rfl⟩
abbrev main_v1300 : Ref sig .tc := ⟨.hbm, 1493, rfl⟩
abbrev main_c_182 : Ref sig .tc := ⟨.hbm, 1494, rfl⟩
abbrev main_v1301 : Ref sig .tc := ⟨.hbm, 1495, rfl⟩
abbrev main_v1302 : Ref sig .tc := ⟨.hbm, 1496, rfl⟩
abbrev main_v1303 : Ref sig .tc := ⟨.hbm, 1497, rfl⟩
abbrev main_v1304 : Ref sig .tc := ⟨.hbm, 1498, rfl⟩
abbrev main_v1305 : Ref sig .tc := ⟨.hbm, 1499, rfl⟩
abbrev main_v1306 : Ref sig .tc := ⟨.hbm, 1500, rfl⟩
abbrev main_v1307 : Ref sig .tc := ⟨.hbm, 1501, rfl⟩
abbrev main_v1308 : Ref sig .tc := ⟨.hbm, 1502, rfl⟩
abbrev main_cst_183 : Ref sig .tc := ⟨.hbm, 1503, rfl⟩
abbrev main_v1309 : Ref sig .tc := ⟨.hbm, 1504, rfl⟩
abbrev main_v1310 : Ref sig .tc := ⟨.hbm, 1505, rfl⟩
abbrev main_v1311 : Ref sig .tc := ⟨.hbm, 1506, rfl⟩
abbrev main_v1312 : Ref sig .tc := ⟨.hbm, 1507, rfl⟩
abbrev main_v1313 : Ref sig .tc := ⟨.hbm, 1508, rfl⟩
abbrev main_v1314 : Ref sig .tc := ⟨.hbm, 1509, rfl⟩
abbrev main_v1315 : Ref sig .tc := ⟨.hbm, 1510, rfl⟩
abbrev main_v1316 : Ref sig .tc := ⟨.hbm, 1511, rfl⟩
abbrev main_v1317 : Ref sig .tc := ⟨.hbm, 1512, rfl⟩
abbrev main_cst_184 : Ref sig .tc := ⟨.hbm, 1513, rfl⟩
abbrev main_v1318 : Ref sig .tc := ⟨.hbm, 1514, rfl⟩
abbrev main_v1319 : Ref sig .tc := ⟨.hbm, 1515, rfl⟩
abbrev main_v1320 : Ref sig .tc := ⟨.hbm, 1516, rfl⟩
abbrev main_v1321 : Ref sig .tc := ⟨.hbm, 1517, rfl⟩
abbrev main_v1322 : Ref sig .tc := ⟨.hbm, 1518, rfl⟩
abbrev main_c_185 : Ref sig .tc := ⟨.hbm, 1519, rfl⟩
abbrev main_v1323 : Ref sig .tc := ⟨.hbm, 1520, rfl⟩
abbrev main_v1324 : Ref sig .tc := ⟨.hbm, 1521, rfl⟩
abbrev main_v1325 : Ref sig .tc := ⟨.hbm, 1522, rfl⟩
abbrev main_v1326 : Ref sig .tc := ⟨.hbm, 1523, rfl⟩
abbrev main_v1327 : Ref sig .tc := ⟨.hbm, 1524, rfl⟩
abbrev main_v1328 : Ref sig .tc := ⟨.hbm, 1525, rfl⟩
abbrev main_v1329 : Ref sig .tc := ⟨.hbm, 1526, rfl⟩
abbrev main_v1330 : Ref sig .tc := ⟨.hbm, 1527, rfl⟩
abbrev main_v1331 : Ref sig .tc := ⟨.hbm, 1528, rfl⟩
abbrev main_v1332 : Ref sig .tc := ⟨.hbm, 1529, rfl⟩
abbrev main_v1333 : Ref sig .tc := ⟨.hbm, 1530, rfl⟩
abbrev main_v1334 : Ref sig .tc := ⟨.hbm, 1531, rfl⟩
abbrev main_v1335 : Ref sig .tc := ⟨.hbm, 1532, rfl⟩
abbrev main_v1336 : Ref sig .tc := ⟨.hbm, 1533, rfl⟩
abbrev main_v1337 : Ref sig .tc := ⟨.hbm, 1534, rfl⟩
abbrev main_v1338 : Ref sig .tc := ⟨.hbm, 1535, rfl⟩
abbrev main_v1339 : Ref sig .tc := ⟨.hbm, 1536, rfl⟩
abbrev main_v1340 : Ref sig .tc := ⟨.hbm, 1537, rfl⟩
abbrev main_v1341 : Ref sig .tc := ⟨.hbm, 1538, rfl⟩
abbrev main_v1342 : Ref sig .tc := ⟨.hbm, 1539, rfl⟩
abbrev main_v1343 : Ref sig .tc := ⟨.hbm, 1540, rfl⟩
abbrev main_v1344 : Ref sig .tc := ⟨.hbm, 1541, rfl⟩
abbrev main_v1345 : Ref sig .tc := ⟨.hbm, 1542, rfl⟩
abbrev main_v1346 : Ref sig .tc := ⟨.hbm, 1543, rfl⟩
abbrev main_v1347 : Ref sig .tc := ⟨.hbm, 1544, rfl⟩
abbrev main_v1348 : Ref sig .tc := ⟨.hbm, 1545, rfl⟩
abbrev main_v1349 : Ref sig .tc := ⟨.hbm, 1546, rfl⟩
abbrev main_v1350 : Ref sig .tc := ⟨.hbm, 1547, rfl⟩
abbrev main_cst_186 : Ref sig .tc := ⟨.hbm, 1548, rfl⟩
abbrev main_v1351 : Ref sig .tc := ⟨.hbm, 1549, rfl⟩
abbrev main_cst_187 : Ref sig .tc := ⟨.hbm, 1550, rfl⟩
abbrev main_v1352 : Ref sig .tc := ⟨.hbm, 1551, rfl⟩
abbrev main_v1353 : Ref sig .tc := ⟨.hbm, 1552, rfl⟩
abbrev main_v1354 : Ref sig .tc := ⟨.hbm, 1553, rfl⟩
abbrev main_v1355 : Ref sig .tc := ⟨.hbm, 1554, rfl⟩
abbrev main_v1356 : Ref sig .tc := ⟨.hbm, 1555, rfl⟩
abbrev main_v1357 : Ref sig .tc := ⟨.hbm, 1556, rfl⟩
abbrev main_v1358 : Ref sig .tc := ⟨.hbm, 1557, rfl⟩
abbrev main_v1359 : Ref sig .tc := ⟨.hbm, 1558, rfl⟩
abbrev main_v1360 : Ref sig .tc := ⟨.hbm, 1559, rfl⟩
abbrev main_v1361 : Ref sig .tc := ⟨.hbm, 1560, rfl⟩
abbrev main_v1362 : Ref sig .tc := ⟨.hbm, 1561, rfl⟩
abbrev main_cst_188 : Ref sig .tc := ⟨.hbm, 1562, rfl⟩
abbrev main_v1363 : Ref sig .tc := ⟨.hbm, 1563, rfl⟩
abbrev main_v1364 : Ref sig .tc := ⟨.hbm, 1564, rfl⟩
abbrev main_v1365 : Ref sig .tc := ⟨.hbm, 1565, rfl⟩
abbrev main_v1366 : Ref sig .tc := ⟨.hbm, 1566, rfl⟩
abbrev main_v1367 : Ref sig .tc := ⟨.hbm, 1567, rfl⟩
abbrev main_v1368 : Ref sig .tc := ⟨.hbm, 1568, rfl⟩
abbrev main_v1369 : Ref sig .tc := ⟨.hbm, 1569, rfl⟩
abbrev main_v1370 : Ref sig .tc := ⟨.hbm, 1570, rfl⟩
abbrev main_v1371 : Ref sig .tc := ⟨.hbm, 1571, rfl⟩
abbrev main_cst_189 : Ref sig .tc := ⟨.hbm, 1572, rfl⟩
abbrev main_v1372 : Ref sig .tc := ⟨.hbm, 1573, rfl⟩
abbrev main_v1373 : Ref sig .tc := ⟨.hbm, 1574, rfl⟩
abbrev main_v1374 : Ref sig .tc := ⟨.hbm, 1575, rfl⟩
abbrev main_v1375 : Ref sig .tc := ⟨.hbm, 1576, rfl⟩
abbrev main_v1376 : Ref sig .tc := ⟨.hbm, 1577, rfl⟩
abbrev main_c_190 : Ref sig .tc := ⟨.hbm, 1578, rfl⟩
abbrev main_v1377 : Ref sig .tc := ⟨.hbm, 1579, rfl⟩
abbrev main_v1378 : Ref sig .tc := ⟨.hbm, 1580, rfl⟩
abbrev main_v1379 : Ref sig .tc := ⟨.hbm, 1581, rfl⟩
abbrev main_v1380 : Ref sig .tc := ⟨.hbm, 1582, rfl⟩
abbrev main_v1381 : Ref sig .tc := ⟨.hbm, 1583, rfl⟩
abbrev main_v1382 : Ref sig .tc := ⟨.hbm, 1584, rfl⟩
abbrev main_v1383 : Ref sig .tc := ⟨.hbm, 1585, rfl⟩
abbrev main_v1384 : Ref sig .tc := ⟨.hbm, 1586, rfl⟩
abbrev main_cst_191 : Ref sig .tc := ⟨.hbm, 1587, rfl⟩
abbrev main_v1385 : Ref sig .tc := ⟨.hbm, 1588, rfl⟩
abbrev main_v1386 : Ref sig .tc := ⟨.hbm, 1589, rfl⟩
abbrev main_v1387 : Ref sig .tc := ⟨.hbm, 1590, rfl⟩
abbrev main_v1388 : Ref sig .tc := ⟨.hbm, 1591, rfl⟩
abbrev main_v1389 : Ref sig .tc := ⟨.hbm, 1592, rfl⟩
abbrev main_v1390 : Ref sig .tc := ⟨.hbm, 1593, rfl⟩
abbrev main_v1391 : Ref sig .tc := ⟨.hbm, 1594, rfl⟩
abbrev main_v1392 : Ref sig .tc := ⟨.hbm, 1595, rfl⟩
abbrev main_v1393 : Ref sig .tc := ⟨.hbm, 1596, rfl⟩
abbrev main_cst_192 : Ref sig .tc := ⟨.hbm, 1597, rfl⟩
abbrev main_v1394 : Ref sig .tc := ⟨.hbm, 1598, rfl⟩
abbrev main_v1395 : Ref sig .tc := ⟨.hbm, 1599, rfl⟩
abbrev main_v1396 : Ref sig .tc := ⟨.hbm, 1600, rfl⟩
abbrev main_v1397 : Ref sig .tc := ⟨.hbm, 1601, rfl⟩
abbrev main_v1398 : Ref sig .tc := ⟨.hbm, 1602, rfl⟩
abbrev main_c_193 : Ref sig .tc := ⟨.hbm, 1603, rfl⟩
abbrev main_v1399 : Ref sig .tc := ⟨.hbm, 1604, rfl⟩
abbrev main_v1400 : Ref sig .tc := ⟨.hbm, 1605, rfl⟩
abbrev main_v1401 : Ref sig .tc := ⟨.hbm, 1606, rfl⟩
abbrev main_v1402 : Ref sig .tc := ⟨.hbm, 1607, rfl⟩
abbrev main_v1403 : Ref sig .tc := ⟨.hbm, 1608, rfl⟩
abbrev main_v1404 : Ref sig .tc := ⟨.hbm, 1609, rfl⟩
abbrev main_v1405 : Ref sig .tc := ⟨.hbm, 1610, rfl⟩
abbrev main_v1406 : Ref sig .tc := ⟨.hbm, 1611, rfl⟩
abbrev main_cst_194 : Ref sig .tc := ⟨.hbm, 1612, rfl⟩
abbrev main_v1407 : Ref sig .tc := ⟨.hbm, 1613, rfl⟩
abbrev main_v1408 : Ref sig .tc := ⟨.hbm, 1614, rfl⟩
abbrev main_v1409 : Ref sig .tc := ⟨.hbm, 1615, rfl⟩
abbrev main_v1410 : Ref sig .tc := ⟨.hbm, 1616, rfl⟩
abbrev main_v1411 : Ref sig .tc := ⟨.hbm, 1617, rfl⟩
abbrev main_v1412 : Ref sig .tc := ⟨.hbm, 1618, rfl⟩
abbrev main_v1413 : Ref sig .tc := ⟨.hbm, 1619, rfl⟩
abbrev main_v1414 : Ref sig .tc := ⟨.hbm, 1620, rfl⟩
abbrev main_v1415 : Ref sig .tc := ⟨.hbm, 1621, rfl⟩
abbrev main_cst_195 : Ref sig .tc := ⟨.hbm, 1622, rfl⟩
abbrev main_v1416 : Ref sig .tc := ⟨.hbm, 1623, rfl⟩
abbrev main_v1417 : Ref sig .tc := ⟨.hbm, 1624, rfl⟩
abbrev main_v1418 : Ref sig .tc := ⟨.hbm, 1625, rfl⟩
abbrev main_v1419 : Ref sig .tc := ⟨.hbm, 1626, rfl⟩
abbrev main_v1420 : Ref sig .tc := ⟨.hbm, 1627, rfl⟩
abbrev main_c_196 : Ref sig .tc := ⟨.hbm, 1628, rfl⟩
abbrev main_v1421 : Ref sig .tc := ⟨.hbm, 1629, rfl⟩
abbrev main_v1422 : Ref sig .tc := ⟨.hbm, 1630, rfl⟩
abbrev main_v1423 : Ref sig .tc := ⟨.hbm, 1631, rfl⟩
abbrev main_v1424 : Ref sig .tc := ⟨.hbm, 1632, rfl⟩
abbrev main_v1425 : Ref sig .tc := ⟨.hbm, 1633, rfl⟩
abbrev main_v1426 : Ref sig .tc := ⟨.hbm, 1634, rfl⟩
abbrev main_v1427 : Ref sig .tc := ⟨.hbm, 1635, rfl⟩
abbrev main_v1428 : Ref sig .tc := ⟨.hbm, 1636, rfl⟩
abbrev main_cst_197 : Ref sig .tc := ⟨.hbm, 1637, rfl⟩
abbrev main_v1429 : Ref sig .tc := ⟨.hbm, 1638, rfl⟩
abbrev main_v1430 : Ref sig .tc := ⟨.hbm, 1639, rfl⟩
abbrev main_v1431 : Ref sig .tc := ⟨.hbm, 1640, rfl⟩
abbrev main_v1432 : Ref sig .tc := ⟨.hbm, 1641, rfl⟩
abbrev main_v1433 : Ref sig .tc := ⟨.hbm, 1642, rfl⟩
abbrev main_v1434 : Ref sig .tc := ⟨.hbm, 1643, rfl⟩
abbrev main_v1435 : Ref sig .tc := ⟨.hbm, 1644, rfl⟩
abbrev main_v1436 : Ref sig .tc := ⟨.hbm, 1645, rfl⟩
abbrev main_v1437 : Ref sig .tc := ⟨.hbm, 1646, rfl⟩
abbrev main_cst_198 : Ref sig .tc := ⟨.hbm, 1647, rfl⟩
abbrev main_v1438 : Ref sig .tc := ⟨.hbm, 1648, rfl⟩
abbrev main_v1439 : Ref sig .tc := ⟨.hbm, 1649, rfl⟩
abbrev main_v1440 : Ref sig .tc := ⟨.hbm, 1650, rfl⟩
abbrev main_v1441 : Ref sig .tc := ⟨.hbm, 1651, rfl⟩
abbrev main_v1442 : Ref sig .tc := ⟨.hbm, 1652, rfl⟩
abbrev main_c_199 : Ref sig .tc := ⟨.hbm, 1653, rfl⟩
abbrev main_v1443 : Ref sig .tc := ⟨.hbm, 1654, rfl⟩
abbrev main_v1444 : Ref sig .tc := ⟨.hbm, 1655, rfl⟩
abbrev main_v1445 : Ref sig .tc := ⟨.hbm, 1656, rfl⟩
abbrev main_v1446 : Ref sig .tc := ⟨.hbm, 1657, rfl⟩
abbrev main_cst_200 : Ref sig .tc := ⟨.hbm, 1658, rfl⟩
abbrev main_v1447 : Ref sig .tc := ⟨.hbm, 1659, rfl⟩
abbrev main_v1448 : Ref sig .tc := ⟨.hbm, 1660, rfl⟩
abbrev main_v1449 : Ref sig .tc := ⟨.hbm, 1661, rfl⟩
abbrev main_c_201 : Ref sig .tc := ⟨.hbm, 1662, rfl⟩
abbrev main_v1450 : Ref sig .tc := ⟨.hbm, 1663, rfl⟩
abbrev main_v1451 : Ref sig .tc := ⟨.hbm, 1664, rfl⟩
abbrev main_cst_202 : Ref sig .tc := ⟨.hbm, 1665, rfl⟩
abbrev main_v1452 : Ref sig .tc := ⟨.hbm, 1666, rfl⟩
abbrev main_cst_203 : Ref sig .tc := ⟨.hbm, 1667, rfl⟩
abbrev main_v1453 : Ref sig .tc := ⟨.hbm, 1668, rfl⟩
abbrev main_v1454 : Ref sig .tc := ⟨.hbm, 1669, rfl⟩
abbrev main_v1455 : Ref sig .tc := ⟨.hbm, 1670, rfl⟩
abbrev main_v1456 : Ref sig .tc := ⟨.hbm, 1671, rfl⟩
abbrev main_v1457 : Ref sig .tc := ⟨.hbm, 1672, rfl⟩
abbrev main_v1458 : Ref sig .tc := ⟨.hbm, 1673, rfl⟩
abbrev main_v1459 : Ref sig .tc := ⟨.hbm, 1674, rfl⟩
abbrev main_v1460 : Ref sig .tc := ⟨.hbm, 1675, rfl⟩
abbrev main_v1461 : Ref sig .tc := ⟨.hbm, 1676, rfl⟩
abbrev main_v1462 : Ref sig .tc := ⟨.hbm, 1677, rfl⟩
abbrev main_v1463 : Ref sig .tc := ⟨.hbm, 1678, rfl⟩
abbrev main_v1464 : Ref sig .tc := ⟨.hbm, 1679, rfl⟩
abbrev main_v1465 : Ref sig .tc := ⟨.hbm, 1680, rfl⟩
abbrev main_cst_204 : Ref sig .tc := ⟨.hbm, 1681, rfl⟩
abbrev main_v1466 : Ref sig .tc := ⟨.hbm, 1682, rfl⟩
abbrev main_cst_205 : Ref sig .tc := ⟨.hbm, 1683, rfl⟩
abbrev main_v1467 : Ref sig .tc := ⟨.hbm, 1684, rfl⟩
abbrev main_v1468 : Ref sig .tc := ⟨.hbm, 1685, rfl⟩
abbrev main_v1469 : Ref sig .tc := ⟨.hbm, 1686, rfl⟩
abbrev main_v1470 : Ref sig .tc := ⟨.hbm, 1687, rfl⟩
abbrev main_v1471 : Ref sig .tc := ⟨.hbm, 1688, rfl⟩
abbrev main_v1472 : Ref sig .tc := ⟨.hbm, 1689, rfl⟩
abbrev main_v1473 : Ref sig .tc := ⟨.hbm, 1690, rfl⟩
abbrev main_cst_206 : Ref sig .tc := ⟨.hbm, 1691, rfl⟩
abbrev main_v1474 : Ref sig .tc := ⟨.hbm, 1692, rfl⟩
abbrev main_v1475 : Ref sig .tc := ⟨.hbm, 1693, rfl⟩
abbrev main_v1476 : Ref sig .tc := ⟨.hbm, 1694, rfl⟩
abbrev main_c_207 : Ref sig .tc := ⟨.hbm, 1695, rfl⟩
abbrev main_v1477 : Ref sig .tc := ⟨.hbm, 1696, rfl⟩
abbrev main_v1478 : Ref sig .tc := ⟨.hbm, 1697, rfl⟩
abbrev main_v1479 : Ref sig .tc := ⟨.hbm, 1698, rfl⟩
abbrev main_v1480 : Ref sig .tc := ⟨.hbm, 1699, rfl⟩
abbrev main_v1481 : Ref sig .tc := ⟨.hbm, 1700, rfl⟩
abbrev main_v1482 : Ref sig .tc := ⟨.hbm, 1701, rfl⟩
abbrev main_v1483 : Ref sig .tc := ⟨.hbm, 1702, rfl⟩
abbrev main_v1484 : Ref sig .tc := ⟨.hbm, 1703, rfl⟩
abbrev main_cst_208 : Ref sig .tc := ⟨.hbm, 1704, rfl⟩
abbrev main_v1485 : Ref sig .tc := ⟨.hbm, 1705, rfl⟩
abbrev main_v1486 : Ref sig .tc := ⟨.hbm, 1706, rfl⟩
abbrev main_v1487 : Ref sig .tc := ⟨.hbm, 1707, rfl⟩
abbrev main_v1488 : Ref sig .tc := ⟨.hbm, 1708, rfl⟩
abbrev main_v1489 : Ref sig .tc := ⟨.hbm, 1709, rfl⟩
abbrev main_v1490 : Ref sig .tc := ⟨.hbm, 1710, rfl⟩
abbrev main_v1491 : Ref sig .tc := ⟨.hbm, 1711, rfl⟩
abbrev main_v1492 : Ref sig .tc := ⟨.hbm, 1712, rfl⟩
abbrev main_v1493 : Ref sig .tc := ⟨.hbm, 1713, rfl⟩
abbrev main_cst_209 : Ref sig .tc := ⟨.hbm, 1714, rfl⟩
abbrev main_v1494 : Ref sig .tc := ⟨.hbm, 1715, rfl⟩
abbrev main_v1495 : Ref sig .tc := ⟨.hbm, 1716, rfl⟩
abbrev main_v1496 : Ref sig .tc := ⟨.hbm, 1717, rfl⟩
abbrev main_v1497 : Ref sig .tc := ⟨.hbm, 1718, rfl⟩
abbrev main_v1498 : Ref sig .tc := ⟨.hbm, 1719, rfl⟩
abbrev main_c_210 : Ref sig .tc := ⟨.hbm, 1720, rfl⟩
abbrev main_v1499 : Ref sig .tc := ⟨.hbm, 1721, rfl⟩
abbrev main_v1500 : Ref sig .tc := ⟨.hbm, 1722, rfl⟩
abbrev main_v1501 : Ref sig .tc := ⟨.hbm, 1723, rfl⟩
abbrev main_v1502 : Ref sig .tc := ⟨.hbm, 1724, rfl⟩
abbrev main_v1503 : Ref sig .tc := ⟨.hbm, 1725, rfl⟩
abbrev main_v1504 : Ref sig .tc := ⟨.hbm, 1726, rfl⟩
abbrev main_v1505 : Ref sig .tc := ⟨.hbm, 1727, rfl⟩
abbrev main_v1506 : Ref sig .tc := ⟨.hbm, 1728, rfl⟩
abbrev main_cst_211 : Ref sig .tc := ⟨.hbm, 1729, rfl⟩
abbrev main_v1507 : Ref sig .tc := ⟨.hbm, 1730, rfl⟩
abbrev main_v1508 : Ref sig .tc := ⟨.hbm, 1731, rfl⟩
abbrev main_v1509 : Ref sig .tc := ⟨.hbm, 1732, rfl⟩
abbrev main_v1510 : Ref sig .tc := ⟨.hbm, 1733, rfl⟩
abbrev main_v1511 : Ref sig .tc := ⟨.hbm, 1734, rfl⟩
abbrev main_v1512 : Ref sig .tc := ⟨.hbm, 1735, rfl⟩
abbrev main_v1513 : Ref sig .tc := ⟨.hbm, 1736, rfl⟩
abbrev main_v1514 : Ref sig .tc := ⟨.hbm, 1737, rfl⟩
abbrev main_v1515 : Ref sig .tc := ⟨.hbm, 1738, rfl⟩
abbrev main_cst_212 : Ref sig .tc := ⟨.hbm, 1739, rfl⟩
abbrev main_v1516 : Ref sig .tc := ⟨.hbm, 1740, rfl⟩
abbrev main_v1517 : Ref sig .tc := ⟨.hbm, 1741, rfl⟩
abbrev main_v1518 : Ref sig .tc := ⟨.hbm, 1742, rfl⟩
abbrev main_v1519 : Ref sig .tc := ⟨.hbm, 1743, rfl⟩
abbrev main_v1520 : Ref sig .tc := ⟨.hbm, 1744, rfl⟩
abbrev main_c_213 : Ref sig .tc := ⟨.hbm, 1745, rfl⟩
abbrev main_v1521 : Ref sig .tc := ⟨.hbm, 1746, rfl⟩
abbrev main_v1522 : Ref sig .tc := ⟨.hbm, 1747, rfl⟩
abbrev main_v1523 : Ref sig .tc := ⟨.hbm, 1748, rfl⟩
abbrev main_v1524 : Ref sig .tc := ⟨.hbm, 1749, rfl⟩
abbrev main_v1525 : Ref sig .tc := ⟨.hbm, 1750, rfl⟩
abbrev main_v1526 : Ref sig .tc := ⟨.hbm, 1751, rfl⟩
abbrev main_v1527 : Ref sig .tc := ⟨.hbm, 1752, rfl⟩
abbrev main_v1528 : Ref sig .tc := ⟨.hbm, 1753, rfl⟩
abbrev main_cst_214 : Ref sig .tc := ⟨.hbm, 1754, rfl⟩
abbrev main_v1529 : Ref sig .tc := ⟨.hbm, 1755, rfl⟩
abbrev main_v1530 : Ref sig .tc := ⟨.hbm, 1756, rfl⟩
abbrev main_v1531 : Ref sig .tc := ⟨.hbm, 1757, rfl⟩
abbrev main_v1532 : Ref sig .tc := ⟨.hbm, 1758, rfl⟩
abbrev main_v1533 : Ref sig .tc := ⟨.hbm, 1759, rfl⟩
abbrev main_v1534 : Ref sig .tc := ⟨.hbm, 1760, rfl⟩
abbrev main_v1535 : Ref sig .tc := ⟨.hbm, 1761, rfl⟩
abbrev main_v1536 : Ref sig .tc := ⟨.hbm, 1762, rfl⟩
abbrev main_v1537 : Ref sig .tc := ⟨.hbm, 1763, rfl⟩
abbrev main_cst_215 : Ref sig .tc := ⟨.hbm, 1764, rfl⟩
abbrev main_v1538 : Ref sig .tc := ⟨.hbm, 1765, rfl⟩
abbrev main_v1539 : Ref sig .tc := ⟨.hbm, 1766, rfl⟩
abbrev main_v1540 : Ref sig .tc := ⟨.hbm, 1767, rfl⟩
abbrev main_v1541 : Ref sig .tc := ⟨.hbm, 1768, rfl⟩
abbrev main_v1542 : Ref sig .tc := ⟨.hbm, 1769, rfl⟩
abbrev main_c_216 : Ref sig .tc := ⟨.hbm, 1770, rfl⟩
abbrev main_v1543 : Ref sig .tc := ⟨.hbm, 1771, rfl⟩
abbrev main_v1544 : Ref sig .tc := ⟨.hbm, 1772, rfl⟩
abbrev main_v1545 : Ref sig .tc := ⟨.hbm, 1773, rfl⟩
abbrev main_v1546 : Ref sig .tc := ⟨.hbm, 1774, rfl⟩
abbrev main_v1547 : Ref sig .tc := ⟨.hbm, 1775, rfl⟩
abbrev main_v1548 : Ref sig .tc := ⟨.hbm, 1776, rfl⟩
abbrev main_v1549 : Ref sig .tc := ⟨.hbm, 1777, rfl⟩
abbrev main_v1550 : Ref sig .tc := ⟨.hbm, 1778, rfl⟩
abbrev main_cst_217 : Ref sig .tc := ⟨.hbm, 1779, rfl⟩
abbrev main_v1551 : Ref sig .tc := ⟨.hbm, 1780, rfl⟩
abbrev main_v1552 : Ref sig .tc := ⟨.hbm, 1781, rfl⟩
abbrev main_v1553 : Ref sig .tc := ⟨.hbm, 1782, rfl⟩
abbrev main_v1554 : Ref sig .tc := ⟨.hbm, 1783, rfl⟩
abbrev main_v1555 : Ref sig .tc := ⟨.hbm, 1784, rfl⟩
abbrev main_v1556 : Ref sig .tc := ⟨.hbm, 1785, rfl⟩
abbrev main_v1557 : Ref sig .tc := ⟨.hbm, 1786, rfl⟩
abbrev main_v1558 : Ref sig .tc := ⟨.hbm, 1787, rfl⟩
abbrev main_v1559 : Ref sig .tc := ⟨.hbm, 1788, rfl⟩
abbrev main_cst_218 : Ref sig .tc := ⟨.hbm, 1789, rfl⟩
abbrev main_v1560 : Ref sig .tc := ⟨.hbm, 1790, rfl⟩
abbrev main_v1561 : Ref sig .tc := ⟨.hbm, 1791, rfl⟩
abbrev main_v1562 : Ref sig .tc := ⟨.hbm, 1792, rfl⟩
abbrev main_v1563 : Ref sig .tc := ⟨.hbm, 1793, rfl⟩
abbrev main_v1564 : Ref sig .tc := ⟨.hbm, 1794, rfl⟩
abbrev main_c_219 : Ref sig .tc := ⟨.hbm, 1795, rfl⟩
abbrev main_v1565 : Ref sig .tc := ⟨.hbm, 1796, rfl⟩
abbrev main_v1566 : Ref sig .tc := ⟨.hbm, 1797, rfl⟩
abbrev main_v1567 : Ref sig .tc := ⟨.hbm, 1798, rfl⟩
abbrev main_v1568 : Ref sig .tc := ⟨.hbm, 1799, rfl⟩
abbrev main_v1569 : Ref sig .tc := ⟨.hbm, 1800, rfl⟩
abbrev main_v1570 : Ref sig .tc := ⟨.hbm, 1801, rfl⟩
abbrev main_v1571 : Ref sig .tc := ⟨.hbm, 1802, rfl⟩
abbrev main_v1572 : Ref sig .tc := ⟨.hbm, 1803, rfl⟩
abbrev main_v1573 : Ref sig .tc := ⟨.hbm, 1804, rfl⟩
abbrev main_v1574 : Ref sig .tc := ⟨.hbm, 1805, rfl⟩
abbrev main_v1575 : Ref sig .tc := ⟨.hbm, 1806, rfl⟩
abbrev main_v1576 : Ref sig .tc := ⟨.hbm, 1807, rfl⟩
abbrev main_v1577 : Ref sig .tc := ⟨.hbm, 1808, rfl⟩
abbrev main_v1578 : Ref sig .tc := ⟨.hbm, 1809, rfl⟩
abbrev main_v1579 : Ref sig .tc := ⟨.hbm, 1810, rfl⟩
abbrev main_v1580 : Ref sig .tc := ⟨.hbm, 1811, rfl⟩
abbrev main_v1581 : Ref sig .tc := ⟨.hbm, 1812, rfl⟩
abbrev main_v1582 : Ref sig .tc := ⟨.hbm, 1813, rfl⟩
abbrev main_v1583 : Ref sig .tc := ⟨.hbm, 1814, rfl⟩
abbrev main_v1584 : Ref sig .tc := ⟨.hbm, 1815, rfl⟩
abbrev main_v1585 : Ref sig .tc := ⟨.hbm, 1816, rfl⟩
abbrev main_v1586 : Ref sig .tc := ⟨.hbm, 1817, rfl⟩
abbrev main_v1587 : Ref sig .tc := ⟨.hbm, 1818, rfl⟩
abbrev main_v1588 : Ref sig .tc := ⟨.hbm, 1819, rfl⟩
abbrev main_v1589 : Ref sig .tc := ⟨.hbm, 1820, rfl⟩
abbrev main_v1590 : Ref sig .tc := ⟨.hbm, 1821, rfl⟩
abbrev main_v1591 : Ref sig .tc := ⟨.hbm, 1822, rfl⟩
abbrev main_v1592 : Ref sig .tc := ⟨.hbm, 1823, rfl⟩
abbrev main_cst_220 : Ref sig .tc := ⟨.hbm, 1824, rfl⟩
abbrev main_v1593 : Ref sig .tc := ⟨.hbm, 1825, rfl⟩
abbrev main_cst_221 : Ref sig .tc := ⟨.hbm, 1826, rfl⟩
abbrev main_v1594 : Ref sig .tc := ⟨.hbm, 1827, rfl⟩
abbrev main_v1595 : Ref sig .tc := ⟨.hbm, 1828, rfl⟩
abbrev main_v1596 : Ref sig .tc := ⟨.hbm, 1829, rfl⟩
abbrev main_v1597 : Ref sig .tc := ⟨.hbm, 1830, rfl⟩
abbrev main_v1598 : Ref sig .tc := ⟨.hbm, 1831, rfl⟩
abbrev main_v1599 : Ref sig .tc := ⟨.hbm, 1832, rfl⟩
abbrev main_v1600 : Ref sig .tc := ⟨.hbm, 1833, rfl⟩
abbrev main_v1601 : Ref sig .tc := ⟨.hbm, 1834, rfl⟩
abbrev main_v1602 : Ref sig .tc := ⟨.hbm, 1835, rfl⟩
abbrev main_v1603 : Ref sig .tc := ⟨.hbm, 1836, rfl⟩
abbrev main_v1604 : Ref sig .tc := ⟨.hbm, 1837, rfl⟩
abbrev main_cst_222 : Ref sig .tc := ⟨.hbm, 1838, rfl⟩
abbrev main_v1605 : Ref sig .tc := ⟨.hbm, 1839, rfl⟩
abbrev main_v1606 : Ref sig .tc := ⟨.hbm, 1840, rfl⟩
abbrev main_v1607 : Ref sig .tc := ⟨.hbm, 1841, rfl⟩
abbrev main_v1608 : Ref sig .tc := ⟨.hbm, 1842, rfl⟩
abbrev main_v1609 : Ref sig .tc := ⟨.hbm, 1843, rfl⟩
abbrev main_v1610 : Ref sig .tc := ⟨.hbm, 1844, rfl⟩
abbrev main_v1611 : Ref sig .tc := ⟨.hbm, 1845, rfl⟩
abbrev main_v1612 : Ref sig .tc := ⟨.hbm, 1846, rfl⟩
abbrev main_v1613 : Ref sig .tc := ⟨.hbm, 1847, rfl⟩
abbrev main_cst_223 : Ref sig .tc := ⟨.hbm, 1848, rfl⟩
abbrev main_v1614 : Ref sig .tc := ⟨.hbm, 1849, rfl⟩
abbrev main_v1615 : Ref sig .tc := ⟨.hbm, 1850, rfl⟩
abbrev main_v1616 : Ref sig .tc := ⟨.hbm, 1851, rfl⟩
abbrev main_v1617 : Ref sig .tc := ⟨.hbm, 1852, rfl⟩
abbrev main_v1618 : Ref sig .tc := ⟨.hbm, 1853, rfl⟩
abbrev main_c_224 : Ref sig .tc := ⟨.hbm, 1854, rfl⟩
abbrev main_v1619 : Ref sig .tc := ⟨.hbm, 1855, rfl⟩
abbrev main_v1620 : Ref sig .tc := ⟨.hbm, 1856, rfl⟩
abbrev main_v1621 : Ref sig .tc := ⟨.hbm, 1857, rfl⟩
abbrev main_v1622 : Ref sig .tc := ⟨.hbm, 1858, rfl⟩
abbrev main_v1623 : Ref sig .tc := ⟨.hbm, 1859, rfl⟩
abbrev main_v1624 : Ref sig .tc := ⟨.hbm, 1860, rfl⟩
abbrev main_v1625 : Ref sig .tc := ⟨.hbm, 1861, rfl⟩
abbrev main_v1626 : Ref sig .tc := ⟨.hbm, 1862, rfl⟩
abbrev main_cst_225 : Ref sig .tc := ⟨.hbm, 1863, rfl⟩
abbrev main_v1627 : Ref sig .tc := ⟨.hbm, 1864, rfl⟩
abbrev main_v1628 : Ref sig .tc := ⟨.hbm, 1865, rfl⟩
abbrev main_v1629 : Ref sig .tc := ⟨.hbm, 1866, rfl⟩
abbrev main_v1630 : Ref sig .tc := ⟨.hbm, 1867, rfl⟩
abbrev main_v1631 : Ref sig .tc := ⟨.hbm, 1868, rfl⟩
abbrev main_v1632 : Ref sig .tc := ⟨.hbm, 1869, rfl⟩
abbrev main_v1633 : Ref sig .tc := ⟨.hbm, 1870, rfl⟩
abbrev main_v1634 : Ref sig .tc := ⟨.hbm, 1871, rfl⟩
abbrev main_v1635 : Ref sig .tc := ⟨.hbm, 1872, rfl⟩
abbrev main_cst_226 : Ref sig .tc := ⟨.hbm, 1873, rfl⟩
abbrev main_v1636 : Ref sig .tc := ⟨.hbm, 1874, rfl⟩
abbrev main_v1637 : Ref sig .tc := ⟨.hbm, 1875, rfl⟩
abbrev main_v1638 : Ref sig .tc := ⟨.hbm, 1876, rfl⟩
abbrev main_v1639 : Ref sig .tc := ⟨.hbm, 1877, rfl⟩
abbrev main_v1640 : Ref sig .tc := ⟨.hbm, 1878, rfl⟩
abbrev main_c_227 : Ref sig .tc := ⟨.hbm, 1879, rfl⟩
abbrev main_v1641 : Ref sig .tc := ⟨.hbm, 1880, rfl⟩
abbrev main_v1642 : Ref sig .tc := ⟨.hbm, 1881, rfl⟩
abbrev main_v1643 : Ref sig .tc := ⟨.hbm, 1882, rfl⟩
abbrev main_v1644 : Ref sig .tc := ⟨.hbm, 1883, rfl⟩
abbrev main_v1645 : Ref sig .tc := ⟨.hbm, 1884, rfl⟩
abbrev main_v1646 : Ref sig .tc := ⟨.hbm, 1885, rfl⟩
abbrev main_v1647 : Ref sig .tc := ⟨.hbm, 1886, rfl⟩
abbrev main_v1648 : Ref sig .tc := ⟨.hbm, 1887, rfl⟩
abbrev main_cst_228 : Ref sig .tc := ⟨.hbm, 1888, rfl⟩
abbrev main_v1649 : Ref sig .tc := ⟨.hbm, 1889, rfl⟩
abbrev main_v1650 : Ref sig .tc := ⟨.hbm, 1890, rfl⟩
abbrev main_v1651 : Ref sig .tc := ⟨.hbm, 1891, rfl⟩
abbrev main_v1652 : Ref sig .tc := ⟨.hbm, 1892, rfl⟩
abbrev main_v1653 : Ref sig .tc := ⟨.hbm, 1893, rfl⟩
abbrev main_v1654 : Ref sig .tc := ⟨.hbm, 1894, rfl⟩
abbrev main_v1655 : Ref sig .tc := ⟨.hbm, 1895, rfl⟩
abbrev main_v1656 : Ref sig .tc := ⟨.hbm, 1896, rfl⟩
abbrev main_v1657 : Ref sig .tc := ⟨.hbm, 1897, rfl⟩
abbrev main_cst_229 : Ref sig .tc := ⟨.hbm, 1898, rfl⟩
abbrev main_v1658 : Ref sig .tc := ⟨.hbm, 1899, rfl⟩
abbrev main_v1659 : Ref sig .tc := ⟨.hbm, 1900, rfl⟩
abbrev main_v1660 : Ref sig .tc := ⟨.hbm, 1901, rfl⟩
abbrev main_v1661 : Ref sig .tc := ⟨.hbm, 1902, rfl⟩
abbrev main_v1662 : Ref sig .tc := ⟨.hbm, 1903, rfl⟩
abbrev main_c_230 : Ref sig .tc := ⟨.hbm, 1904, rfl⟩
abbrev main_v1663 : Ref sig .tc := ⟨.hbm, 1905, rfl⟩
abbrev main_v1664 : Ref sig .tc := ⟨.hbm, 1906, rfl⟩
abbrev main_v1665 : Ref sig .tc := ⟨.hbm, 1907, rfl⟩
abbrev main_v1666 : Ref sig .tc := ⟨.hbm, 1908, rfl⟩
abbrev main_v1667 : Ref sig .tc := ⟨.hbm, 1909, rfl⟩
abbrev main_v1668 : Ref sig .tc := ⟨.hbm, 1910, rfl⟩
abbrev main_v1669 : Ref sig .tc := ⟨.hbm, 1911, rfl⟩
abbrev main_v1670 : Ref sig .tc := ⟨.hbm, 1912, rfl⟩
abbrev main_cst_231 : Ref sig .tc := ⟨.hbm, 1913, rfl⟩
abbrev main_v1671 : Ref sig .tc := ⟨.hbm, 1914, rfl⟩
abbrev main_v1672 : Ref sig .tc := ⟨.hbm, 1915, rfl⟩
abbrev main_v1673 : Ref sig .tc := ⟨.hbm, 1916, rfl⟩
abbrev main_v1674 : Ref sig .tc := ⟨.hbm, 1917, rfl⟩
abbrev main_v1675 : Ref sig .tc := ⟨.hbm, 1918, rfl⟩
abbrev main_v1676 : Ref sig .tc := ⟨.hbm, 1919, rfl⟩
abbrev main_v1677 : Ref sig .tc := ⟨.hbm, 1920, rfl⟩
abbrev main_v1678 : Ref sig .tc := ⟨.hbm, 1921, rfl⟩
abbrev main_v1679 : Ref sig .tc := ⟨.hbm, 1922, rfl⟩
abbrev main_cst_232 : Ref sig .tc := ⟨.hbm, 1923, rfl⟩
abbrev main_v1680 : Ref sig .tc := ⟨.hbm, 1924, rfl⟩
abbrev main_v1681 : Ref sig .tc := ⟨.hbm, 1925, rfl⟩
abbrev main_v1682 : Ref sig .tc := ⟨.hbm, 1926, rfl⟩
abbrev main_v1683 : Ref sig .tc := ⟨.hbm, 1927, rfl⟩
abbrev main_v1684 : Ref sig .tc := ⟨.hbm, 1928, rfl⟩
abbrev main_c_233 : Ref sig .tc := ⟨.hbm, 1929, rfl⟩
abbrev main_v1685 : Ref sig .tc := ⟨.hbm, 1930, rfl⟩
abbrev main_v1686 : Ref sig .tc := ⟨.hbm, 1931, rfl⟩
abbrev main_v1687 : Ref sig .tc := ⟨.hbm, 1932, rfl⟩
abbrev main_v1688 : Ref sig .tc := ⟨.hbm, 1933, rfl⟩
abbrev main_cst_234 : Ref sig .tc := ⟨.hbm, 1934, rfl⟩
abbrev main_v1689 : Ref sig .tc := ⟨.hbm, 1935, rfl⟩
abbrev main_v1690 : Ref sig .tc := ⟨.hbm, 1936, rfl⟩
abbrev main_v1691 : Ref sig .tc := ⟨.hbm, 1937, rfl⟩
abbrev main_c_235 : Ref sig .tc := ⟨.hbm, 1938, rfl⟩
abbrev main_v1692 : Ref sig .tc := ⟨.hbm, 1939, rfl⟩
abbrev main_v1693 : Ref sig .tc := ⟨.hbm, 1940, rfl⟩
abbrev main_cst_236 : Ref sig .tc := ⟨.hbm, 1941, rfl⟩
abbrev main_v1694 : Ref sig .tc := ⟨.hbm, 1942, rfl⟩
abbrev main_cst_237 : Ref sig .tc := ⟨.hbm, 1943, rfl⟩
abbrev main_v1695 : Ref sig .tc := ⟨.hbm, 1944, rfl⟩
abbrev main_v1696 : Ref sig .tc := ⟨.hbm, 1945, rfl⟩
abbrev main_v1697 : Ref sig .tc := ⟨.hbm, 1946, rfl⟩
abbrev main_v1698 : Ref sig .tc := ⟨.hbm, 1947, rfl⟩
abbrev main_v1699 : Ref sig .tc := ⟨.hbm, 1948, rfl⟩
abbrev main_v1700 : Ref sig .tc := ⟨.hbm, 1949, rfl⟩
abbrev main_v1701 : Ref sig .tc := ⟨.hbm, 1950, rfl⟩
abbrev main_v1702 : Ref sig .tc := ⟨.hbm, 1951, rfl⟩
abbrev main_v1703 : Ref sig .tc := ⟨.hbm, 1952, rfl⟩
abbrev main_v1704 : Ref sig .tc := ⟨.hbm, 1953, rfl⟩
abbrev main_v1705 : Ref sig .tc := ⟨.hbm, 1954, rfl⟩
abbrev main_v1706 : Ref sig .tc := ⟨.hbm, 1955, rfl⟩
abbrev main_v1707 : Ref sig .tc := ⟨.hbm, 1956, rfl⟩
abbrev main_cst_238 : Ref sig .tc := ⟨.hbm, 1957, rfl⟩
abbrev main_v1708 : Ref sig .tc := ⟨.hbm, 1958, rfl⟩
abbrev main_cst_239 : Ref sig .tc := ⟨.hbm, 1959, rfl⟩
abbrev main_v1709 : Ref sig .tc := ⟨.hbm, 1960, rfl⟩
abbrev main_v1710 : Ref sig .tc := ⟨.hbm, 1961, rfl⟩
abbrev main_v1711 : Ref sig .tc := ⟨.hbm, 1962, rfl⟩
abbrev main_v1712 : Ref sig .tc := ⟨.hbm, 1963, rfl⟩
abbrev main_v1713 : Ref sig .tc := ⟨.hbm, 1964, rfl⟩
abbrev main_v1714 : Ref sig .tc := ⟨.hbm, 1965, rfl⟩
abbrev main_v1715 : Ref sig .tc := ⟨.hbm, 1966, rfl⟩
abbrev main_cst_240 : Ref sig .tc := ⟨.hbm, 1967, rfl⟩
abbrev main_v1716 : Ref sig .tc := ⟨.hbm, 1968, rfl⟩
abbrev main_v1717 : Ref sig .tc := ⟨.hbm, 1969, rfl⟩
abbrev main_v1718 : Ref sig .tc := ⟨.hbm, 1970, rfl⟩
abbrev main_c_241 : Ref sig .tc := ⟨.hbm, 1971, rfl⟩
abbrev main_v1719 : Ref sig .tc := ⟨.hbm, 1972, rfl⟩
abbrev main_v1720 : Ref sig .tc := ⟨.hbm, 1973, rfl⟩
abbrev main_v1721 : Ref sig .tc := ⟨.hbm, 1974, rfl⟩
abbrev main_v1722 : Ref sig .tc := ⟨.hbm, 1975, rfl⟩
abbrev main_v1723 : Ref sig .tc := ⟨.hbm, 1976, rfl⟩
abbrev main_v1724 : Ref sig .tc := ⟨.hbm, 1977, rfl⟩
abbrev main_v1725 : Ref sig .tc := ⟨.hbm, 1978, rfl⟩
abbrev main_v1726 : Ref sig .tc := ⟨.hbm, 1979, rfl⟩
abbrev main_cst_242 : Ref sig .tc := ⟨.hbm, 1980, rfl⟩
abbrev main_v1727 : Ref sig .tc := ⟨.hbm, 1981, rfl⟩
abbrev main_v1728 : Ref sig .tc := ⟨.hbm, 1982, rfl⟩
abbrev main_v1729 : Ref sig .tc := ⟨.hbm, 1983, rfl⟩
abbrev main_v1730 : Ref sig .tc := ⟨.hbm, 1984, rfl⟩
abbrev main_v1731 : Ref sig .tc := ⟨.hbm, 1985, rfl⟩
abbrev main_v1732 : Ref sig .tc := ⟨.hbm, 1986, rfl⟩
abbrev main_v1733 : Ref sig .tc := ⟨.hbm, 1987, rfl⟩
abbrev main_v1734 : Ref sig .tc := ⟨.hbm, 1988, rfl⟩
abbrev main_v1735 : Ref sig .tc := ⟨.hbm, 1989, rfl⟩
abbrev main_cst_243 : Ref sig .tc := ⟨.hbm, 1990, rfl⟩
abbrev main_v1736 : Ref sig .tc := ⟨.hbm, 1991, rfl⟩
abbrev main_v1737 : Ref sig .tc := ⟨.hbm, 1992, rfl⟩
abbrev main_v1738 : Ref sig .tc := ⟨.hbm, 1993, rfl⟩
abbrev main_v1739 : Ref sig .tc := ⟨.hbm, 1994, rfl⟩
abbrev main_v1740 : Ref sig .tc := ⟨.hbm, 1995, rfl⟩
abbrev main_c_244 : Ref sig .tc := ⟨.hbm, 1996, rfl⟩
abbrev main_v1741 : Ref sig .tc := ⟨.hbm, 1997, rfl⟩
abbrev main_v1742 : Ref sig .tc := ⟨.hbm, 1998, rfl⟩
abbrev main_v1743 : Ref sig .tc := ⟨.hbm, 1999, rfl⟩
abbrev main_v1744 : Ref sig .tc := ⟨.hbm, 2000, rfl⟩
abbrev main_v1745 : Ref sig .tc := ⟨.hbm, 2001, rfl⟩
abbrev main_v1746 : Ref sig .tc := ⟨.hbm, 2002, rfl⟩
abbrev main_v1747 : Ref sig .tc := ⟨.hbm, 2003, rfl⟩
abbrev main_v1748 : Ref sig .tc := ⟨.hbm, 2004, rfl⟩
abbrev main_cst_245 : Ref sig .tc := ⟨.hbm, 2005, rfl⟩
abbrev main_v1749 : Ref sig .tc := ⟨.hbm, 2006, rfl⟩
abbrev main_v1750 : Ref sig .tc := ⟨.hbm, 2007, rfl⟩
abbrev main_v1751 : Ref sig .tc := ⟨.hbm, 2008, rfl⟩
abbrev main_v1752 : Ref sig .tc := ⟨.hbm, 2009, rfl⟩
abbrev main_v1753 : Ref sig .tc := ⟨.hbm, 2010, rfl⟩
abbrev main_v1754 : Ref sig .tc := ⟨.hbm, 2011, rfl⟩
abbrev main_v1755 : Ref sig .tc := ⟨.hbm, 2012, rfl⟩
abbrev main_v1756 : Ref sig .tc := ⟨.hbm, 2013, rfl⟩
abbrev main_v1757 : Ref sig .tc := ⟨.hbm, 2014, rfl⟩
abbrev main_cst_246 : Ref sig .tc := ⟨.hbm, 2015, rfl⟩
abbrev main_v1758 : Ref sig .tc := ⟨.hbm, 2016, rfl⟩
abbrev main_v1759 : Ref sig .tc := ⟨.hbm, 2017, rfl⟩
abbrev main_v1760 : Ref sig .tc := ⟨.hbm, 2018, rfl⟩
abbrev main_v1761 : Ref sig .tc := ⟨.hbm, 2019, rfl⟩
abbrev main_v1762 : Ref sig .tc := ⟨.hbm, 2020, rfl⟩
abbrev main_c_247 : Ref sig .tc := ⟨.hbm, 2021, rfl⟩
abbrev main_v1763 : Ref sig .tc := ⟨.hbm, 2022, rfl⟩
abbrev main_v1764 : Ref sig .tc := ⟨.hbm, 2023, rfl⟩
abbrev main_v1765 : Ref sig .tc := ⟨.hbm, 2024, rfl⟩
abbrev main_v1766 : Ref sig .tc := ⟨.hbm, 2025, rfl⟩
abbrev main_v1767 : Ref sig .tc := ⟨.hbm, 2026, rfl⟩
abbrev main_v1768 : Ref sig .tc := ⟨.hbm, 2027, rfl⟩
abbrev main_v1769 : Ref sig .tc := ⟨.hbm, 2028, rfl⟩
abbrev main_v1770 : Ref sig .tc := ⟨.hbm, 2029, rfl⟩
abbrev main_cst_248 : Ref sig .tc := ⟨.hbm, 2030, rfl⟩
abbrev main_v1771 : Ref sig .tc := ⟨.hbm, 2031, rfl⟩
abbrev main_v1772 : Ref sig .tc := ⟨.hbm, 2032, rfl⟩
abbrev main_v1773 : Ref sig .tc := ⟨.hbm, 2033, rfl⟩
abbrev main_v1774 : Ref sig .tc := ⟨.hbm, 2034, rfl⟩
abbrev main_v1775 : Ref sig .tc := ⟨.hbm, 2035, rfl⟩
abbrev main_v1776 : Ref sig .tc := ⟨.hbm, 2036, rfl⟩
abbrev main_v1777 : Ref sig .tc := ⟨.hbm, 2037, rfl⟩
abbrev main_v1778 : Ref sig .tc := ⟨.hbm, 2038, rfl⟩
abbrev main_v1779 : Ref sig .tc := ⟨.hbm, 2039, rfl⟩
abbrev main_cst_249 : Ref sig .tc := ⟨.hbm, 2040, rfl⟩
abbrev main_v1780 : Ref sig .tc := ⟨.hbm, 2041, rfl⟩
abbrev main_v1781 : Ref sig .tc := ⟨.hbm, 2042, rfl⟩
abbrev main_v1782 : Ref sig .tc := ⟨.hbm, 2043, rfl⟩
abbrev main_v1783 : Ref sig .tc := ⟨.hbm, 2044, rfl⟩
abbrev main_v1784 : Ref sig .tc := ⟨.hbm, 2045, rfl⟩
abbrev main_c_250 : Ref sig .tc := ⟨.hbm, 2046, rfl⟩
abbrev main_v1785 : Ref sig .tc := ⟨.hbm, 2047, rfl⟩
abbrev main_v1786 : Ref sig .tc := ⟨.hbm, 2048, rfl⟩
abbrev main_v1787 : Ref sig .tc := ⟨.hbm, 2049, rfl⟩
abbrev main_v1788 : Ref sig .tc := ⟨.hbm, 2050, rfl⟩
abbrev main_v1789 : Ref sig .tc := ⟨.hbm, 2051, rfl⟩
abbrev main_v1790 : Ref sig .tc := ⟨.hbm, 2052, rfl⟩
abbrev main_v1791 : Ref sig .tc := ⟨.hbm, 2053, rfl⟩
abbrev main_v1792 : Ref sig .tc := ⟨.hbm, 2054, rfl⟩
abbrev main_cst_251 : Ref sig .tc := ⟨.hbm, 2055, rfl⟩
abbrev main_v1793 : Ref sig .tc := ⟨.hbm, 2056, rfl⟩
abbrev main_v1794 : Ref sig .tc := ⟨.hbm, 2057, rfl⟩
abbrev main_v1795 : Ref sig .tc := ⟨.hbm, 2058, rfl⟩
abbrev main_v1796 : Ref sig .tc := ⟨.hbm, 2059, rfl⟩
abbrev main_v1797 : Ref sig .tc := ⟨.hbm, 2060, rfl⟩
abbrev main_v1798 : Ref sig .tc := ⟨.hbm, 2061, rfl⟩
abbrev main_v1799 : Ref sig .tc := ⟨.hbm, 2062, rfl⟩
abbrev main_v1800 : Ref sig .tc := ⟨.hbm, 2063, rfl⟩
abbrev main_v1801 : Ref sig .tc := ⟨.hbm, 2064, rfl⟩
abbrev main_cst_252 : Ref sig .tc := ⟨.hbm, 2065, rfl⟩
abbrev main_v1802 : Ref sig .tc := ⟨.hbm, 2066, rfl⟩
abbrev main_v1803 : Ref sig .tc := ⟨.hbm, 2067, rfl⟩
abbrev main_v1804 : Ref sig .tc := ⟨.hbm, 2068, rfl⟩
abbrev main_v1805 : Ref sig .tc := ⟨.hbm, 2069, rfl⟩
abbrev main_v1806 : Ref sig .tc := ⟨.hbm, 2070, rfl⟩
abbrev main_c_253 : Ref sig .tc := ⟨.hbm, 2071, rfl⟩
abbrev main_v1807 : Ref sig .tc := ⟨.hbm, 2072, rfl⟩
abbrev main_v1808 : Ref sig .tc := ⟨.hbm, 2073, rfl⟩
abbrev main_v1809 : Ref sig .tc := ⟨.hbm, 2074, rfl⟩
abbrev main_v1810 : Ref sig .tc := ⟨.hbm, 2075, rfl⟩
abbrev main_v1811 : Ref sig .tc := ⟨.hbm, 2076, rfl⟩
abbrev main_v1812 : Ref sig .tc := ⟨.hbm, 2077, rfl⟩
abbrev main_v1813 : Ref sig .tc := ⟨.hbm, 2078, rfl⟩
abbrev main_v1814 : Ref sig .tc := ⟨.hbm, 2079, rfl⟩
abbrev main_v1815 : Ref sig .tc := ⟨.hbm, 2080, rfl⟩
abbrev main_v1816 : Ref sig .tc := ⟨.hbm, 2081, rfl⟩
abbrev main_v1817 : Ref sig .tc := ⟨.hbm, 2082, rfl⟩
abbrev main_v1818 : Ref sig .tc := ⟨.hbm, 2083, rfl⟩
abbrev main_v1819 : Ref sig .tc := ⟨.hbm, 2084, rfl⟩
abbrev main_v1820 : Ref sig .tc := ⟨.hbm, 2085, rfl⟩
abbrev main_v1821 : Ref sig .tc := ⟨.hbm, 2086, rfl⟩
abbrev main_v1822 : Ref sig .tc := ⟨.hbm, 2087, rfl⟩
abbrev main_v1823 : Ref sig .tc := ⟨.hbm, 2088, rfl⟩
abbrev main_v1824 : Ref sig .tc := ⟨.hbm, 2089, rfl⟩
abbrev main_v1825 : Ref sig .tc := ⟨.hbm, 2090, rfl⟩
abbrev main_v1826 : Ref sig .tc := ⟨.hbm, 2091, rfl⟩
abbrev main_v1827 : Ref sig .tc := ⟨.hbm, 2092, rfl⟩
abbrev main_v1828 : Ref sig .tc := ⟨.hbm, 2093, rfl⟩
abbrev main_v1829 : Ref sig .tc := ⟨.hbm, 2094, rfl⟩
abbrev main_v1830 : Ref sig .tc := ⟨.hbm, 2095, rfl⟩
abbrev main_v1831 : Ref sig .tc := ⟨.hbm, 2096, rfl⟩
abbrev main_v1832 : Ref sig .tc := ⟨.hbm, 2097, rfl⟩
abbrev main_v1833 : Ref sig .tc := ⟨.hbm, 2098, rfl⟩
abbrev main_v1834 : Ref sig .tc := ⟨.hbm, 2099, rfl⟩
abbrev main_cst_254 : Ref sig .tc := ⟨.hbm, 2100, rfl⟩
abbrev main_v1835 : Ref sig .tc := ⟨.hbm, 2101, rfl⟩
abbrev main_cst_255 : Ref sig .tc := ⟨.hbm, 2102, rfl⟩
abbrev main_v1836 : Ref sig .tc := ⟨.hbm, 2103, rfl⟩
abbrev main_v1837 : Ref sig .tc := ⟨.hbm, 2104, rfl⟩
abbrev main_v1838 : Ref sig .tc := ⟨.hbm, 2105, rfl⟩
abbrev main_v1839 : Ref sig .tc := ⟨.hbm, 2106, rfl⟩
abbrev main_v1840 : Ref sig .tc := ⟨.hbm, 2107, rfl⟩
abbrev main_v1841 : Ref sig .tc := ⟨.hbm, 2108, rfl⟩
abbrev main_v1842 : Ref sig .tc := ⟨.hbm, 2109, rfl⟩
abbrev main_v1843 : Ref sig .tc := ⟨.hbm, 2110, rfl⟩
abbrev main_v1844 : Ref sig .tc := ⟨.hbm, 2111, rfl⟩
abbrev main_v1845 : Ref sig .tc := ⟨.hbm, 2112, rfl⟩
abbrev main_v1846 : Ref sig .tc := ⟨.hbm, 2113, rfl⟩
abbrev main_cst_256 : Ref sig .tc := ⟨.hbm, 2114, rfl⟩
abbrev main_v1847 : Ref sig .tc := ⟨.hbm, 2115, rfl⟩
abbrev main_v1848 : Ref sig .tc := ⟨.hbm, 2116, rfl⟩
abbrev main_v1849 : Ref sig .tc := ⟨.hbm, 2117, rfl⟩
abbrev main_v1850 : Ref sig .tc := ⟨.hbm, 2118, rfl⟩
abbrev main_v1851 : Ref sig .tc := ⟨.hbm, 2119, rfl⟩
abbrev main_v1852 : Ref sig .tc := ⟨.hbm, 2120, rfl⟩
abbrev main_v1853 : Ref sig .tc := ⟨.hbm, 2121, rfl⟩
abbrev main_v1854 : Ref sig .tc := ⟨.hbm, 2122, rfl⟩
abbrev main_v1855 : Ref sig .tc := ⟨.hbm, 2123, rfl⟩
abbrev main_cst_257 : Ref sig .tc := ⟨.hbm, 2124, rfl⟩
abbrev main_v1856 : Ref sig .tc := ⟨.hbm, 2125, rfl⟩
abbrev main_v1857 : Ref sig .tc := ⟨.hbm, 2126, rfl⟩
abbrev main_v1858 : Ref sig .tc := ⟨.hbm, 2127, rfl⟩
abbrev main_v1859 : Ref sig .tc := ⟨.hbm, 2128, rfl⟩
abbrev main_v1860 : Ref sig .tc := ⟨.hbm, 2129, rfl⟩
abbrev main_c_258 : Ref sig .tc := ⟨.hbm, 2130, rfl⟩
abbrev main_v1861 : Ref sig .tc := ⟨.hbm, 2131, rfl⟩
abbrev main_v1862 : Ref sig .tc := ⟨.hbm, 2132, rfl⟩
abbrev main_v1863 : Ref sig .tc := ⟨.hbm, 2133, rfl⟩
abbrev main_v1864 : Ref sig .tc := ⟨.hbm, 2134, rfl⟩
abbrev main_v1865 : Ref sig .tc := ⟨.hbm, 2135, rfl⟩
abbrev main_v1866 : Ref sig .tc := ⟨.hbm, 2136, rfl⟩
abbrev main_v1867 : Ref sig .tc := ⟨.hbm, 2137, rfl⟩
abbrev main_v1868 : Ref sig .tc := ⟨.hbm, 2138, rfl⟩
abbrev main_cst_259 : Ref sig .tc := ⟨.hbm, 2139, rfl⟩
abbrev main_v1869 : Ref sig .tc := ⟨.hbm, 2140, rfl⟩
abbrev main_v1870 : Ref sig .tc := ⟨.hbm, 2141, rfl⟩
abbrev main_v1871 : Ref sig .tc := ⟨.hbm, 2142, rfl⟩
abbrev main_v1872 : Ref sig .tc := ⟨.hbm, 2143, rfl⟩
abbrev main_v1873 : Ref sig .tc := ⟨.hbm, 2144, rfl⟩
abbrev main_v1874 : Ref sig .tc := ⟨.hbm, 2145, rfl⟩
abbrev main_v1875 : Ref sig .tc := ⟨.hbm, 2146, rfl⟩
abbrev main_v1876 : Ref sig .tc := ⟨.hbm, 2147, rfl⟩
abbrev main_v1877 : Ref sig .tc := ⟨.hbm, 2148, rfl⟩
abbrev main_cst_260 : Ref sig .tc := ⟨.hbm, 2149, rfl⟩
abbrev main_v1878 : Ref sig .tc := ⟨.hbm, 2150, rfl⟩
abbrev main_v1879 : Ref sig .tc := ⟨.hbm, 2151, rfl⟩
abbrev main_v1880 : Ref sig .tc := ⟨.hbm, 2152, rfl⟩
abbrev main_v1881 : Ref sig .tc := ⟨.hbm, 2153, rfl⟩
abbrev main_v1882 : Ref sig .tc := ⟨.hbm, 2154, rfl⟩
abbrev main_c_261 : Ref sig .tc := ⟨.hbm, 2155, rfl⟩
abbrev main_v1883 : Ref sig .tc := ⟨.hbm, 2156, rfl⟩
abbrev main_v1884 : Ref sig .tc := ⟨.hbm, 2157, rfl⟩
abbrev main_v1885 : Ref sig .tc := ⟨.hbm, 2158, rfl⟩
abbrev main_v1886 : Ref sig .tc := ⟨.hbm, 2159, rfl⟩
abbrev main_v1887 : Ref sig .tc := ⟨.hbm, 2160, rfl⟩
abbrev main_v1888 : Ref sig .tc := ⟨.hbm, 2161, rfl⟩
abbrev main_v1889 : Ref sig .tc := ⟨.hbm, 2162, rfl⟩
abbrev main_v1890 : Ref sig .tc := ⟨.hbm, 2163, rfl⟩
abbrev main_cst_262 : Ref sig .tc := ⟨.hbm, 2164, rfl⟩
abbrev main_v1891 : Ref sig .tc := ⟨.hbm, 2165, rfl⟩
abbrev main_v1892 : Ref sig .tc := ⟨.hbm, 2166, rfl⟩
abbrev main_v1893 : Ref sig .tc := ⟨.hbm, 2167, rfl⟩
abbrev main_v1894 : Ref sig .tc := ⟨.hbm, 2168, rfl⟩
abbrev main_v1895 : Ref sig .tc := ⟨.hbm, 2169, rfl⟩
abbrev main_v1896 : Ref sig .tc := ⟨.hbm, 2170, rfl⟩
abbrev main_v1897 : Ref sig .tc := ⟨.hbm, 2171, rfl⟩
abbrev main_v1898 : Ref sig .tc := ⟨.hbm, 2172, rfl⟩
abbrev main_v1899 : Ref sig .tc := ⟨.hbm, 2173, rfl⟩
abbrev main_cst_263 : Ref sig .tc := ⟨.hbm, 2174, rfl⟩
abbrev main_v1900 : Ref sig .tc := ⟨.hbm, 2175, rfl⟩
abbrev main_v1901 : Ref sig .tc := ⟨.hbm, 2176, rfl⟩
abbrev main_v1902 : Ref sig .tc := ⟨.hbm, 2177, rfl⟩
abbrev main_v1903 : Ref sig .tc := ⟨.hbm, 2178, rfl⟩
abbrev main_v1904 : Ref sig .tc := ⟨.hbm, 2179, rfl⟩
abbrev main_c_264 : Ref sig .tc := ⟨.hbm, 2180, rfl⟩
abbrev main_v1905 : Ref sig .tc := ⟨.hbm, 2181, rfl⟩
abbrev main_v1906 : Ref sig .tc := ⟨.hbm, 2182, rfl⟩
abbrev main_v1907 : Ref sig .tc := ⟨.hbm, 2183, rfl⟩
abbrev main_v1908 : Ref sig .tc := ⟨.hbm, 2184, rfl⟩
abbrev main_v1909 : Ref sig .tc := ⟨.hbm, 2185, rfl⟩
abbrev main_v1910 : Ref sig .tc := ⟨.hbm, 2186, rfl⟩
abbrev main_v1911 : Ref sig .tc := ⟨.hbm, 2187, rfl⟩
abbrev main_v1912 : Ref sig .tc := ⟨.hbm, 2188, rfl⟩
abbrev main_cst_265 : Ref sig .tc := ⟨.hbm, 2189, rfl⟩
abbrev main_v1913 : Ref sig .tc := ⟨.hbm, 2190, rfl⟩
abbrev main_v1914 : Ref sig .tc := ⟨.hbm, 2191, rfl⟩
abbrev main_v1915 : Ref sig .tc := ⟨.hbm, 2192, rfl⟩
abbrev main_v1916 : Ref sig .tc := ⟨.hbm, 2193, rfl⟩
abbrev main_v1917 : Ref sig .tc := ⟨.hbm, 2194, rfl⟩
abbrev main_v1918 : Ref sig .tc := ⟨.hbm, 2195, rfl⟩
abbrev main_v1919 : Ref sig .tc := ⟨.hbm, 2196, rfl⟩
abbrev main_v1920 : Ref sig .tc := ⟨.hbm, 2197, rfl⟩
abbrev main_v1921 : Ref sig .tc := ⟨.hbm, 2198, rfl⟩
abbrev main_cst_266 : Ref sig .tc := ⟨.hbm, 2199, rfl⟩
abbrev main_v1922 : Ref sig .tc := ⟨.hbm, 2200, rfl⟩
abbrev main_v1923 : Ref sig .tc := ⟨.hbm, 2201, rfl⟩
abbrev main_v1924 : Ref sig .tc := ⟨.hbm, 2202, rfl⟩
abbrev main_v1925 : Ref sig .tc := ⟨.hbm, 2203, rfl⟩
abbrev main_v1926 : Ref sig .tc := ⟨.hbm, 2204, rfl⟩
abbrev main_c_267 : Ref sig .tc := ⟨.hbm, 2205, rfl⟩
abbrev main_v1927 : Ref sig .tc := ⟨.hbm, 2206, rfl⟩
abbrev main_v1928 : Ref sig .tc := ⟨.hbm, 2207, rfl⟩
abbrev main_v1929 : Ref sig .tc := ⟨.hbm, 2208, rfl⟩
abbrev main_v1930 : Ref sig .tc := ⟨.hbm, 2209, rfl⟩
abbrev main_cst_268 : Ref sig .tc := ⟨.hbm, 2210, rfl⟩
abbrev main_v1931 : Ref sig .tc := ⟨.hbm, 2211, rfl⟩
abbrev main_v1932 : Ref sig .tc := ⟨.hbm, 2212, rfl⟩
abbrev main_v1933 : Ref sig .tc := ⟨.hbm, 2213, rfl⟩
abbrev main_c_269 : Ref sig .tc := ⟨.hbm, 2214, rfl⟩
abbrev main_v1934 : Ref sig .tc := ⟨.hbm, 2215, rfl⟩
abbrev main_v1935 : Ref sig .tc := ⟨.hbm, 2216, rfl⟩
abbrev main_cst_270 : Ref sig .tc := ⟨.hbm, 2217, rfl⟩
abbrev main_v1936 : Ref sig .tc := ⟨.hbm, 2218, rfl⟩
abbrev main_cst_271 : Ref sig .tc := ⟨.hbm, 2219, rfl⟩
abbrev main_v1937 : Ref sig .tc := ⟨.hbm, 2220, rfl⟩
abbrev main_v1938 : Ref sig .tc := ⟨.hbm, 2221, rfl⟩
abbrev main_v1939 : Ref sig .tc := ⟨.hbm, 2222, rfl⟩
abbrev main_v1940 : Ref sig .tc := ⟨.hbm, 2223, rfl⟩
abbrev main_v1941 : Ref sig .tc := ⟨.hbm, 2224, rfl⟩
abbrev main_v1942 : Ref sig .tc := ⟨.hbm, 2225, rfl⟩
abbrev main_v1943 : Ref sig .tc := ⟨.hbm, 2226, rfl⟩
abbrev main_v1944 : Ref sig .tc := ⟨.hbm, 2227, rfl⟩
abbrev main_v1945 : Ref sig .tc := ⟨.hbm, 2228, rfl⟩
abbrev main_v1946 : Ref sig .tc := ⟨.hbm, 2229, rfl⟩
abbrev main_v1947 : Ref sig .tc := ⟨.hbm, 2230, rfl⟩
abbrev main_v1948 : Ref sig .tc := ⟨.hbm, 2231, rfl⟩
abbrev main_v1949 : Ref sig .tc := ⟨.hbm, 2232, rfl⟩
abbrev main_cst_272 : Ref sig .tc := ⟨.hbm, 2233, rfl⟩
abbrev main_v1950 : Ref sig .tc := ⟨.hbm, 2234, rfl⟩
abbrev main_cst_273 : Ref sig .tc := ⟨.hbm, 2235, rfl⟩
abbrev main_v1951 : Ref sig .tc := ⟨.hbm, 2236, rfl⟩
abbrev main_v1952 : Ref sig .tc := ⟨.hbm, 2237, rfl⟩
abbrev main_v1953 : Ref sig .tc := ⟨.hbm, 2238, rfl⟩
abbrev main_v1954 : Ref sig .tc := ⟨.hbm, 2239, rfl⟩
abbrev main_v1955 : Ref sig .tc := ⟨.hbm, 2240, rfl⟩
abbrev main_v1956 : Ref sig .tc := ⟨.hbm, 2241, rfl⟩
abbrev main_v1957 : Ref sig .tc := ⟨.hbm, 2242, rfl⟩
abbrev main_cst_274 : Ref sig .tc := ⟨.hbm, 2243, rfl⟩
abbrev main_v1958 : Ref sig .tc := ⟨.hbm, 2244, rfl⟩
abbrev main_v1959 : Ref sig .tc := ⟨.hbm, 2245, rfl⟩
abbrev main_v1960 : Ref sig .tc := ⟨.hbm, 2246, rfl⟩
abbrev main_c_275 : Ref sig .tc := ⟨.hbm, 2247, rfl⟩
abbrev main_v1961 : Ref sig .tc := ⟨.hbm, 2248, rfl⟩
abbrev main_v1962 : Ref sig .tc := ⟨.hbm, 2249, rfl⟩
abbrev main_v1963 : Ref sig .tc := ⟨.hbm, 2250, rfl⟩
abbrev main_v1964 : Ref sig .tc := ⟨.hbm, 2251, rfl⟩
abbrev main_v1965 : Ref sig .tc := ⟨.hbm, 2252, rfl⟩
abbrev main_v1966 : Ref sig .tc := ⟨.hbm, 2253, rfl⟩
abbrev main_v1967 : Ref sig .tc := ⟨.hbm, 2254, rfl⟩
abbrev main_v1968 : Ref sig .tc := ⟨.hbm, 2255, rfl⟩
abbrev main_cst_276 : Ref sig .tc := ⟨.hbm, 2256, rfl⟩
abbrev main_v1969 : Ref sig .tc := ⟨.hbm, 2257, rfl⟩
abbrev main_v1970 : Ref sig .tc := ⟨.hbm, 2258, rfl⟩
abbrev main_v1971 : Ref sig .tc := ⟨.hbm, 2259, rfl⟩
abbrev main_v1972 : Ref sig .tc := ⟨.hbm, 2260, rfl⟩
abbrev main_v1973 : Ref sig .tc := ⟨.hbm, 2261, rfl⟩
abbrev main_v1974 : Ref sig .tc := ⟨.hbm, 2262, rfl⟩
abbrev main_v1975 : Ref sig .tc := ⟨.hbm, 2263, rfl⟩
abbrev main_v1976 : Ref sig .tc := ⟨.hbm, 2264, rfl⟩
abbrev main_v1977 : Ref sig .tc := ⟨.hbm, 2265, rfl⟩
abbrev main_cst_277 : Ref sig .tc := ⟨.hbm, 2266, rfl⟩
abbrev main_v1978 : Ref sig .tc := ⟨.hbm, 2267, rfl⟩
abbrev main_v1979 : Ref sig .tc := ⟨.hbm, 2268, rfl⟩
abbrev main_v1980 : Ref sig .tc := ⟨.hbm, 2269, rfl⟩
abbrev main_v1981 : Ref sig .tc := ⟨.hbm, 2270, rfl⟩
abbrev main_v1982 : Ref sig .tc := ⟨.hbm, 2271, rfl⟩
abbrev main_c_278 : Ref sig .tc := ⟨.hbm, 2272, rfl⟩
abbrev main_v1983 : Ref sig .tc := ⟨.hbm, 2273, rfl⟩
abbrev main_v1984 : Ref sig .tc := ⟨.hbm, 2274, rfl⟩
abbrev main_v1985 : Ref sig .tc := ⟨.hbm, 2275, rfl⟩
abbrev main_v1986 : Ref sig .tc := ⟨.hbm, 2276, rfl⟩
abbrev main_v1987 : Ref sig .tc := ⟨.hbm, 2277, rfl⟩
abbrev main_v1988 : Ref sig .tc := ⟨.hbm, 2278, rfl⟩
abbrev main_v1989 : Ref sig .tc := ⟨.hbm, 2279, rfl⟩
abbrev main_v1990 : Ref sig .tc := ⟨.hbm, 2280, rfl⟩
abbrev main_cst_279 : Ref sig .tc := ⟨.hbm, 2281, rfl⟩
abbrev main_v1991 : Ref sig .tc := ⟨.hbm, 2282, rfl⟩
abbrev main_v1992 : Ref sig .tc := ⟨.hbm, 2283, rfl⟩
abbrev main_v1993 : Ref sig .tc := ⟨.hbm, 2284, rfl⟩
abbrev main_v1994 : Ref sig .tc := ⟨.hbm, 2285, rfl⟩
abbrev main_v1995 : Ref sig .tc := ⟨.hbm, 2286, rfl⟩
abbrev main_v1996 : Ref sig .tc := ⟨.hbm, 2287, rfl⟩
abbrev main_v1997 : Ref sig .tc := ⟨.hbm, 2288, rfl⟩
abbrev main_v1998 : Ref sig .tc := ⟨.hbm, 2289, rfl⟩
abbrev main_v1999 : Ref sig .tc := ⟨.hbm, 2290, rfl⟩
abbrev main_cst_280 : Ref sig .tc := ⟨.hbm, 2291, rfl⟩
abbrev main_v2000 : Ref sig .tc := ⟨.hbm, 2292, rfl⟩
abbrev main_v2001 : Ref sig .tc := ⟨.hbm, 2293, rfl⟩
abbrev main_v2002 : Ref sig .tc := ⟨.hbm, 2294, rfl⟩
abbrev main_v2003 : Ref sig .tc := ⟨.hbm, 2295, rfl⟩
abbrev main_v2004 : Ref sig .tc := ⟨.hbm, 2296, rfl⟩
abbrev main_c_281 : Ref sig .tc := ⟨.hbm, 2297, rfl⟩
abbrev main_v2005 : Ref sig .tc := ⟨.hbm, 2298, rfl⟩
abbrev main_v2006 : Ref sig .tc := ⟨.hbm, 2299, rfl⟩
abbrev main_v2007 : Ref sig .tc := ⟨.hbm, 2300, rfl⟩
abbrev main_v2008 : Ref sig .tc := ⟨.hbm, 2301, rfl⟩
abbrev main_v2009 : Ref sig .tc := ⟨.hbm, 2302, rfl⟩
abbrev main_v2010 : Ref sig .tc := ⟨.hbm, 2303, rfl⟩
abbrev main_v2011 : Ref sig .tc := ⟨.hbm, 2304, rfl⟩
abbrev main_v2012 : Ref sig .tc := ⟨.hbm, 2305, rfl⟩
abbrev main_cst_282 : Ref sig .tc := ⟨.hbm, 2306, rfl⟩
abbrev main_v2013 : Ref sig .tc := ⟨.hbm, 2307, rfl⟩
abbrev main_v2014 : Ref sig .tc := ⟨.hbm, 2308, rfl⟩
abbrev main_v2015 : Ref sig .tc := ⟨.hbm, 2309, rfl⟩
abbrev main_v2016 : Ref sig .tc := ⟨.hbm, 2310, rfl⟩
abbrev main_v2017 : Ref sig .tc := ⟨.hbm, 2311, rfl⟩
abbrev main_v2018 : Ref sig .tc := ⟨.hbm, 2312, rfl⟩
abbrev main_v2019 : Ref sig .tc := ⟨.hbm, 2313, rfl⟩
abbrev main_v2020 : Ref sig .tc := ⟨.hbm, 2314, rfl⟩
abbrev main_v2021 : Ref sig .tc := ⟨.hbm, 2315, rfl⟩
abbrev main_cst_283 : Ref sig .tc := ⟨.hbm, 2316, rfl⟩
abbrev main_v2022 : Ref sig .tc := ⟨.hbm, 2317, rfl⟩
abbrev main_v2023 : Ref sig .tc := ⟨.hbm, 2318, rfl⟩
abbrev main_v2024 : Ref sig .tc := ⟨.hbm, 2319, rfl⟩
abbrev main_v2025 : Ref sig .tc := ⟨.hbm, 2320, rfl⟩
abbrev main_v2026 : Ref sig .tc := ⟨.hbm, 2321, rfl⟩
abbrev main_c_284 : Ref sig .tc := ⟨.hbm, 2322, rfl⟩
abbrev main_v2027 : Ref sig .tc := ⟨.hbm, 2323, rfl⟩
abbrev main_v2028 : Ref sig .tc := ⟨.hbm, 2324, rfl⟩
abbrev main_v2029 : Ref sig .tc := ⟨.hbm, 2325, rfl⟩
abbrev main_v2030 : Ref sig .tc := ⟨.hbm, 2326, rfl⟩
abbrev main_v2031 : Ref sig .tc := ⟨.hbm, 2327, rfl⟩
abbrev main_v2032 : Ref sig .tc := ⟨.hbm, 2328, rfl⟩
abbrev main_v2033 : Ref sig .tc := ⟨.hbm, 2329, rfl⟩
abbrev main_v2034 : Ref sig .tc := ⟨.hbm, 2330, rfl⟩
abbrev main_cst_285 : Ref sig .tc := ⟨.hbm, 2331, rfl⟩
abbrev main_v2035 : Ref sig .tc := ⟨.hbm, 2332, rfl⟩
abbrev main_v2036 : Ref sig .tc := ⟨.hbm, 2333, rfl⟩
abbrev main_v2037 : Ref sig .tc := ⟨.hbm, 2334, rfl⟩
abbrev main_v2038 : Ref sig .tc := ⟨.hbm, 2335, rfl⟩
abbrev main_v2039 : Ref sig .tc := ⟨.hbm, 2336, rfl⟩
abbrev main_v2040 : Ref sig .tc := ⟨.hbm, 2337, rfl⟩
abbrev main_v2041 : Ref sig .tc := ⟨.hbm, 2338, rfl⟩
abbrev main_v2042 : Ref sig .tc := ⟨.hbm, 2339, rfl⟩
abbrev main_v2043 : Ref sig .tc := ⟨.hbm, 2340, rfl⟩
abbrev main_cst_286 : Ref sig .tc := ⟨.hbm, 2341, rfl⟩
abbrev main_v2044 : Ref sig .tc := ⟨.hbm, 2342, rfl⟩
abbrev main_v2045 : Ref sig .tc := ⟨.hbm, 2343, rfl⟩
abbrev main_v2046 : Ref sig .tc := ⟨.hbm, 2344, rfl⟩
abbrev main_v2047 : Ref sig .tc := ⟨.hbm, 2345, rfl⟩
abbrev main_v2048 : Ref sig .tc := ⟨.hbm, 2346, rfl⟩
abbrev main_c_287 : Ref sig .tc := ⟨.hbm, 2347, rfl⟩
abbrev main_v2049 : Ref sig .tc := ⟨.hbm, 2348, rfl⟩
abbrev main_v2050 : Ref sig .tc := ⟨.hbm, 2349, rfl⟩
abbrev main_v2051 : Ref sig .tc := ⟨.hbm, 2350, rfl⟩
abbrev main_v2052 : Ref sig .tc := ⟨.hbm, 2351, rfl⟩
abbrev main_v2053 : Ref sig .tc := ⟨.hbm, 2352, rfl⟩
abbrev main_v2054 : Ref sig .tc := ⟨.hbm, 2353, rfl⟩
abbrev main_v2055 : Ref sig .tc := ⟨.hbm, 2354, rfl⟩
abbrev main_v2056 : Ref sig .tc := ⟨.hbm, 2355, rfl⟩
abbrev main_v2057 : Ref sig .tc := ⟨.hbm, 2356, rfl⟩
abbrev main_v2058 : Ref sig .tc := ⟨.hbm, 2357, rfl⟩
abbrev main_v2059 : Ref sig .tc := ⟨.hbm, 2358, rfl⟩
abbrev main_v2060 : Ref sig .tc := ⟨.hbm, 2359, rfl⟩
abbrev main_v2061 : Ref sig .tc := ⟨.hbm, 2360, rfl⟩
abbrev main_v2062 : Ref sig .tc := ⟨.hbm, 2361, rfl⟩
abbrev main_v2063 : Ref sig .tc := ⟨.hbm, 2362, rfl⟩
abbrev main_v2064 : Ref sig .tc := ⟨.hbm, 2363, rfl⟩
abbrev main_v2065 : Ref sig .tc := ⟨.hbm, 2364, rfl⟩
abbrev main_v2066 : Ref sig .tc := ⟨.hbm, 2365, rfl⟩
abbrev main_v2067 : Ref sig .tc := ⟨.hbm, 2366, rfl⟩
abbrev main_v2068 : Ref sig .tc := ⟨.hbm, 2367, rfl⟩
abbrev main_v2069 : Ref sig .tc := ⟨.hbm, 2368, rfl⟩
abbrev main_v2070 : Ref sig .tc := ⟨.hbm, 2369, rfl⟩
abbrev main_v2071 : Ref sig .tc := ⟨.hbm, 2370, rfl⟩
abbrev main_v2072 : Ref sig .tc := ⟨.hbm, 2371, rfl⟩
abbrev main_v2073 : Ref sig .tc := ⟨.hbm, 2372, rfl⟩
abbrev main_v2074 : Ref sig .tc := ⟨.hbm, 2373, rfl⟩
abbrev main_v2075 : Ref sig .tc := ⟨.hbm, 2374, rfl⟩
abbrev main_v2076 : Ref sig .tc := ⟨.hbm, 2375, rfl⟩
abbrev main_cst_288 : Ref sig .tc := ⟨.hbm, 2376, rfl⟩
abbrev main_v2077 : Ref sig .tc := ⟨.hbm, 2377, rfl⟩
abbrev main_cst_289 : Ref sig .tc := ⟨.hbm, 2378, rfl⟩
abbrev main_v2078 : Ref sig .tc := ⟨.hbm, 2379, rfl⟩
abbrev main_v2079 : Ref sig .tc := ⟨.hbm, 2380, rfl⟩
abbrev main_v2080 : Ref sig .tc := ⟨.hbm, 2381, rfl⟩
abbrev main_v2081 : Ref sig .tc := ⟨.hbm, 2382, rfl⟩
abbrev main_v2082 : Ref sig .tc := ⟨.hbm, 2383, rfl⟩
abbrev main_v2083 : Ref sig .tc := ⟨.hbm, 2384, rfl⟩
abbrev main_v2084 : Ref sig .tc := ⟨.hbm, 2385, rfl⟩
abbrev main_v2085 : Ref sig .tc := ⟨.hbm, 2386, rfl⟩
abbrev main_v2086 : Ref sig .tc := ⟨.hbm, 2387, rfl⟩
abbrev main_v2087 : Ref sig .tc := ⟨.hbm, 2388, rfl⟩
abbrev main_v2088 : Ref sig .tc := ⟨.hbm, 2389, rfl⟩
abbrev main_cst_290 : Ref sig .tc := ⟨.hbm, 2390, rfl⟩
abbrev main_v2089 : Ref sig .tc := ⟨.hbm, 2391, rfl⟩
abbrev main_v2090 : Ref sig .tc := ⟨.hbm, 2392, rfl⟩
abbrev main_v2091 : Ref sig .tc := ⟨.hbm, 2393, rfl⟩
abbrev main_v2092 : Ref sig .tc := ⟨.hbm, 2394, rfl⟩
abbrev main_v2093 : Ref sig .tc := ⟨.hbm, 2395, rfl⟩
abbrev main_v2094 : Ref sig .tc := ⟨.hbm, 2396, rfl⟩
abbrev main_v2095 : Ref sig .tc := ⟨.hbm, 2397, rfl⟩
abbrev main_v2096 : Ref sig .tc := ⟨.hbm, 2398, rfl⟩
abbrev main_v2097 : Ref sig .tc := ⟨.hbm, 2399, rfl⟩
abbrev main_cst_291 : Ref sig .tc := ⟨.hbm, 2400, rfl⟩
abbrev main_v2098 : Ref sig .tc := ⟨.hbm, 2401, rfl⟩
abbrev main_v2099 : Ref sig .tc := ⟨.hbm, 2402, rfl⟩
abbrev main_v2100 : Ref sig .tc := ⟨.hbm, 2403, rfl⟩
abbrev main_v2101 : Ref sig .tc := ⟨.hbm, 2404, rfl⟩
abbrev main_v2102 : Ref sig .tc := ⟨.hbm, 2405, rfl⟩
abbrev main_c_292 : Ref sig .tc := ⟨.hbm, 2406, rfl⟩
abbrev main_v2103 : Ref sig .tc := ⟨.hbm, 2407, rfl⟩
abbrev main_v2104 : Ref sig .tc := ⟨.hbm, 2408, rfl⟩
abbrev main_v2105 : Ref sig .tc := ⟨.hbm, 2409, rfl⟩
abbrev main_v2106 : Ref sig .tc := ⟨.hbm, 2410, rfl⟩
abbrev main_v2107 : Ref sig .tc := ⟨.hbm, 2411, rfl⟩
abbrev main_v2108 : Ref sig .tc := ⟨.hbm, 2412, rfl⟩
abbrev main_v2109 : Ref sig .tc := ⟨.hbm, 2413, rfl⟩
abbrev main_v2110 : Ref sig .tc := ⟨.hbm, 2414, rfl⟩
abbrev main_cst_293 : Ref sig .tc := ⟨.hbm, 2415, rfl⟩
abbrev main_v2111 : Ref sig .tc := ⟨.hbm, 2416, rfl⟩
abbrev main_v2112 : Ref sig .tc := ⟨.hbm, 2417, rfl⟩
abbrev main_v2113 : Ref sig .tc := ⟨.hbm, 2418, rfl⟩
abbrev main_v2114 : Ref sig .tc := ⟨.hbm, 2419, rfl⟩
abbrev main_v2115 : Ref sig .tc := ⟨.hbm, 2420, rfl⟩
abbrev main_v2116 : Ref sig .tc := ⟨.hbm, 2421, rfl⟩
abbrev main_v2117 : Ref sig .tc := ⟨.hbm, 2422, rfl⟩
abbrev main_v2118 : Ref sig .tc := ⟨.hbm, 2423, rfl⟩
abbrev main_v2119 : Ref sig .tc := ⟨.hbm, 2424, rfl⟩
abbrev main_cst_294 : Ref sig .tc := ⟨.hbm, 2425, rfl⟩
abbrev main_v2120 : Ref sig .tc := ⟨.hbm, 2426, rfl⟩
abbrev main_v2121 : Ref sig .tc := ⟨.hbm, 2427, rfl⟩
abbrev main_v2122 : Ref sig .tc := ⟨.hbm, 2428, rfl⟩
abbrev main_v2123 : Ref sig .tc := ⟨.hbm, 2429, rfl⟩
abbrev main_v2124 : Ref sig .tc := ⟨.hbm, 2430, rfl⟩
abbrev main_c_295 : Ref sig .tc := ⟨.hbm, 2431, rfl⟩
abbrev main_v2125 : Ref sig .tc := ⟨.hbm, 2432, rfl⟩
abbrev main_v2126 : Ref sig .tc := ⟨.hbm, 2433, rfl⟩
abbrev main_v2127 : Ref sig .tc := ⟨.hbm, 2434, rfl⟩
abbrev main_v2128 : Ref sig .tc := ⟨.hbm, 2435, rfl⟩
abbrev main_v2129 : Ref sig .tc := ⟨.hbm, 2436, rfl⟩
abbrev main_v2130 : Ref sig .tc := ⟨.hbm, 2437, rfl⟩
abbrev main_v2131 : Ref sig .tc := ⟨.hbm, 2438, rfl⟩
abbrev main_v2132 : Ref sig .tc := ⟨.hbm, 2439, rfl⟩
abbrev main_cst_296 : Ref sig .tc := ⟨.hbm, 2440, rfl⟩
abbrev main_v2133 : Ref sig .tc := ⟨.hbm, 2441, rfl⟩
abbrev main_v2134 : Ref sig .tc := ⟨.hbm, 2442, rfl⟩
abbrev main_v2135 : Ref sig .tc := ⟨.hbm, 2443, rfl⟩
abbrev main_v2136 : Ref sig .tc := ⟨.hbm, 2444, rfl⟩
abbrev main_v2137 : Ref sig .tc := ⟨.hbm, 2445, rfl⟩
abbrev main_v2138 : Ref sig .tc := ⟨.hbm, 2446, rfl⟩
abbrev main_v2139 : Ref sig .tc := ⟨.hbm, 2447, rfl⟩
abbrev main_v2140 : Ref sig .tc := ⟨.hbm, 2448, rfl⟩
abbrev main_v2141 : Ref sig .tc := ⟨.hbm, 2449, rfl⟩
abbrev main_cst_297 : Ref sig .tc := ⟨.hbm, 2450, rfl⟩
abbrev main_v2142 : Ref sig .tc := ⟨.hbm, 2451, rfl⟩
abbrev main_v2143 : Ref sig .tc := ⟨.hbm, 2452, rfl⟩
abbrev main_v2144 : Ref sig .tc := ⟨.hbm, 2453, rfl⟩
abbrev main_v2145 : Ref sig .tc := ⟨.hbm, 2454, rfl⟩
abbrev main_v2146 : Ref sig .tc := ⟨.hbm, 2455, rfl⟩
abbrev main_c_298 : Ref sig .tc := ⟨.hbm, 2456, rfl⟩
abbrev main_v2147 : Ref sig .tc := ⟨.hbm, 2457, rfl⟩
abbrev main_v2148 : Ref sig .tc := ⟨.hbm, 2458, rfl⟩
abbrev main_v2149 : Ref sig .tc := ⟨.hbm, 2459, rfl⟩
abbrev main_v2150 : Ref sig .tc := ⟨.hbm, 2460, rfl⟩
abbrev main_v2151 : Ref sig .tc := ⟨.hbm, 2461, rfl⟩
abbrev main_v2152 : Ref sig .tc := ⟨.hbm, 2462, rfl⟩
abbrev main_v2153 : Ref sig .tc := ⟨.hbm, 2463, rfl⟩
abbrev main_v2154 : Ref sig .tc := ⟨.hbm, 2464, rfl⟩
abbrev main_cst_299 : Ref sig .tc := ⟨.hbm, 2465, rfl⟩
abbrev main_v2155 : Ref sig .tc := ⟨.hbm, 2466, rfl⟩
abbrev main_v2156 : Ref sig .tc := ⟨.hbm, 2467, rfl⟩
abbrev main_v2157 : Ref sig .tc := ⟨.hbm, 2468, rfl⟩
abbrev main_v2158 : Ref sig .tc := ⟨.hbm, 2469, rfl⟩
abbrev main_v2159 : Ref sig .tc := ⟨.hbm, 2470, rfl⟩
abbrev main_v2160 : Ref sig .tc := ⟨.hbm, 2471, rfl⟩
abbrev main_v2161 : Ref sig .tc := ⟨.hbm, 2472, rfl⟩
abbrev main_v2162 : Ref sig .tc := ⟨.hbm, 2473, rfl⟩
abbrev main_v2163 : Ref sig .tc := ⟨.hbm, 2474, rfl⟩
abbrev main_cst_300 : Ref sig .tc := ⟨.hbm, 2475, rfl⟩
abbrev main_v2164 : Ref sig .tc := ⟨.hbm, 2476, rfl⟩
abbrev main_v2165 : Ref sig .tc := ⟨.hbm, 2477, rfl⟩
abbrev main_v2166 : Ref sig .tc := ⟨.hbm, 2478, rfl⟩
abbrev main_v2167 : Ref sig .tc := ⟨.hbm, 2479, rfl⟩
abbrev main_v2168 : Ref sig .tc := ⟨.hbm, 2480, rfl⟩
abbrev main_c_301 : Ref sig .tc := ⟨.hbm, 2481, rfl⟩
abbrev main_v2169 : Ref sig .tc := ⟨.hbm, 2482, rfl⟩
abbrev main_v2170 : Ref sig .tc := ⟨.hbm, 2483, rfl⟩
abbrev main_v2171 : Ref sig .tc := ⟨.hbm, 2484, rfl⟩
abbrev main_v2172 : Ref sig .tc := ⟨.hbm, 2485, rfl⟩
abbrev main_cst_302 : Ref sig .tc := ⟨.hbm, 2486, rfl⟩
abbrev main_v2173 : Ref sig .tc := ⟨.hbm, 2487, rfl⟩
abbrev main_v2174 : Ref sig .tc := ⟨.hbm, 2488, rfl⟩
abbrev main_v2175 : Ref sig .tc := ⟨.hbm, 2489, rfl⟩
abbrev main_c_303 : Ref sig .tc := ⟨.hbm, 2490, rfl⟩
abbrev main_v2176 : Ref sig .tc := ⟨.hbm, 2491, rfl⟩
abbrev main_v2177 : Ref sig .tc := ⟨.hbm, 2492, rfl⟩
abbrev main_cst_304 : Ref sig .tc := ⟨.hbm, 2493, rfl⟩
abbrev main_v2178 : Ref sig .tc := ⟨.hbm, 2494, rfl⟩
abbrev main_cst_305 : Ref sig .tc := ⟨.hbm, 2495, rfl⟩
abbrev main_v2179 : Ref sig .tc := ⟨.hbm, 2496, rfl⟩
abbrev main_v2180 : Ref sig .tc := ⟨.hbm, 2497, rfl⟩
abbrev main_v2181 : Ref sig .tc := ⟨.hbm, 2498, rfl⟩
abbrev main_v2182 : Ref sig .tc := ⟨.hbm, 2499, rfl⟩
abbrev main_v2183 : Ref sig .tc := ⟨.hbm, 2500, rfl⟩
abbrev main_v2184 : Ref sig .tc := ⟨.hbm, 2501, rfl⟩
abbrev main_v2185 : Ref sig .tc := ⟨.hbm, 2502, rfl⟩
abbrev main_v2186 : Ref sig .tc := ⟨.hbm, 2503, rfl⟩
abbrev main_v2187 : Ref sig .tc := ⟨.hbm, 2504, rfl⟩
abbrev main_v2188 : Ref sig .tc := ⟨.hbm, 2505, rfl⟩
abbrev main_v2189 : Ref sig .tc := ⟨.hbm, 2506, rfl⟩
abbrev main_v2190 : Ref sig .tc := ⟨.hbm, 2507, rfl⟩
abbrev main_v2191 : Ref sig .tc := ⟨.hbm, 2508, rfl⟩
abbrev main_cst_306 : Ref sig .tc := ⟨.hbm, 2509, rfl⟩
abbrev main_v2192 : Ref sig .tc := ⟨.hbm, 2510, rfl⟩
abbrev main_cst_307 : Ref sig .tc := ⟨.hbm, 2511, rfl⟩
abbrev main_v2193 : Ref sig .tc := ⟨.hbm, 2512, rfl⟩
abbrev main_v2194 : Ref sig .tc := ⟨.hbm, 2513, rfl⟩
abbrev main_v2195 : Ref sig .tc := ⟨.hbm, 2514, rfl⟩
abbrev main_v2196 : Ref sig .tc := ⟨.hbm, 2515, rfl⟩
abbrev main_v2197 : Ref sig .tc := ⟨.hbm, 2516, rfl⟩
abbrev main_v2198 : Ref sig .tc := ⟨.hbm, 2517, rfl⟩
abbrev main_v2199 : Ref sig .tc := ⟨.hbm, 2518, rfl⟩
abbrev main_cst_308 : Ref sig .tc := ⟨.hbm, 2519, rfl⟩
abbrev main_v2200 : Ref sig .tc := ⟨.hbm, 2520, rfl⟩
abbrev main_v2201 : Ref sig .tc := ⟨.hbm, 2521, rfl⟩
abbrev main_v2202 : Ref sig .tc := ⟨.hbm, 2522, rfl⟩
abbrev main_c_309 : Ref sig .tc := ⟨.hbm, 2523, rfl⟩
abbrev main_v2203 : Ref sig .tc := ⟨.hbm, 2524, rfl⟩
abbrev main_v2204 : Ref sig .tc := ⟨.hbm, 2525, rfl⟩
abbrev main_v2205 : Ref sig .tc := ⟨.hbm, 2526, rfl⟩
abbrev main_v2206 : Ref sig .tc := ⟨.hbm, 2527, rfl⟩
abbrev main_v2207 : Ref sig .tc := ⟨.hbm, 2528, rfl⟩
abbrev main_v2208 : Ref sig .tc := ⟨.hbm, 2529, rfl⟩
abbrev main_v2209 : Ref sig .tc := ⟨.hbm, 2530, rfl⟩
abbrev main_v2210 : Ref sig .tc := ⟨.hbm, 2531, rfl⟩
abbrev main_cst_310 : Ref sig .tc := ⟨.hbm, 2532, rfl⟩
abbrev main_v2211 : Ref sig .tc := ⟨.hbm, 2533, rfl⟩
abbrev main_v2212 : Ref sig .tc := ⟨.hbm, 2534, rfl⟩
abbrev main_v2213 : Ref sig .tc := ⟨.hbm, 2535, rfl⟩
abbrev main_v2214 : Ref sig .tc := ⟨.hbm, 2536, rfl⟩
abbrev main_v2215 : Ref sig .tc := ⟨.hbm, 2537, rfl⟩
abbrev main_v2216 : Ref sig .tc := ⟨.hbm, 2538, rfl⟩
abbrev main_v2217 : Ref sig .tc := ⟨.hbm, 2539, rfl⟩
abbrev main_v2218 : Ref sig .tc := ⟨.hbm, 2540, rfl⟩
abbrev main_v2219 : Ref sig .tc := ⟨.hbm, 2541, rfl⟩
abbrev main_cst_311 : Ref sig .tc := ⟨.hbm, 2542, rfl⟩
abbrev main_v2220 : Ref sig .tc := ⟨.hbm, 2543, rfl⟩
abbrev main_v2221 : Ref sig .tc := ⟨.hbm, 2544, rfl⟩
abbrev main_v2222 : Ref sig .tc := ⟨.hbm, 2545, rfl⟩
abbrev main_v2223 : Ref sig .tc := ⟨.hbm, 2546, rfl⟩
abbrev main_v2224 : Ref sig .tc := ⟨.hbm, 2547, rfl⟩
abbrev main_c_312 : Ref sig .tc := ⟨.hbm, 2548, rfl⟩
abbrev main_v2225 : Ref sig .tc := ⟨.hbm, 2549, rfl⟩
abbrev main_v2226 : Ref sig .tc := ⟨.hbm, 2550, rfl⟩
abbrev main_v2227 : Ref sig .tc := ⟨.hbm, 2551, rfl⟩
abbrev main_v2228 : Ref sig .tc := ⟨.hbm, 2552, rfl⟩
abbrev main_v2229 : Ref sig .tc := ⟨.hbm, 2553, rfl⟩
abbrev main_v2230 : Ref sig .tc := ⟨.hbm, 2554, rfl⟩
abbrev main_v2231 : Ref sig .tc := ⟨.hbm, 2555, rfl⟩
abbrev main_v2232 : Ref sig .tc := ⟨.hbm, 2556, rfl⟩
abbrev main_cst_313 : Ref sig .tc := ⟨.hbm, 2557, rfl⟩
abbrev main_v2233 : Ref sig .tc := ⟨.hbm, 2558, rfl⟩
abbrev main_v2234 : Ref sig .tc := ⟨.hbm, 2559, rfl⟩
abbrev main_v2235 : Ref sig .tc := ⟨.hbm, 2560, rfl⟩
abbrev main_v2236 : Ref sig .tc := ⟨.hbm, 2561, rfl⟩
abbrev main_v2237 : Ref sig .tc := ⟨.hbm, 2562, rfl⟩
abbrev main_v2238 : Ref sig .tc := ⟨.hbm, 2563, rfl⟩
abbrev main_v2239 : Ref sig .tc := ⟨.hbm, 2564, rfl⟩
abbrev main_v2240 : Ref sig .tc := ⟨.hbm, 2565, rfl⟩
abbrev main_v2241 : Ref sig .tc := ⟨.hbm, 2566, rfl⟩
abbrev main_cst_314 : Ref sig .tc := ⟨.hbm, 2567, rfl⟩
abbrev main_v2242 : Ref sig .tc := ⟨.hbm, 2568, rfl⟩
abbrev main_v2243 : Ref sig .tc := ⟨.hbm, 2569, rfl⟩
abbrev main_v2244 : Ref sig .tc := ⟨.hbm, 2570, rfl⟩
abbrev main_v2245 : Ref sig .tc := ⟨.hbm, 2571, rfl⟩
abbrev main_v2246 : Ref sig .tc := ⟨.hbm, 2572, rfl⟩
abbrev main_c_315 : Ref sig .tc := ⟨.hbm, 2573, rfl⟩
abbrev main_v2247 : Ref sig .tc := ⟨.hbm, 2574, rfl⟩
abbrev main_v2248 : Ref sig .tc := ⟨.hbm, 2575, rfl⟩
abbrev main_v2249 : Ref sig .tc := ⟨.hbm, 2576, rfl⟩
abbrev main_v2250 : Ref sig .tc := ⟨.hbm, 2577, rfl⟩
abbrev main_v2251 : Ref sig .tc := ⟨.hbm, 2578, rfl⟩
abbrev main_v2252 : Ref sig .tc := ⟨.hbm, 2579, rfl⟩
abbrev main_v2253 : Ref sig .tc := ⟨.hbm, 2580, rfl⟩
abbrev main_v2254 : Ref sig .tc := ⟨.hbm, 2581, rfl⟩
abbrev main_cst_316 : Ref sig .tc := ⟨.hbm, 2582, rfl⟩
abbrev main_v2255 : Ref sig .tc := ⟨.hbm, 2583, rfl⟩
abbrev main_v2256 : Ref sig .tc := ⟨.hbm, 2584, rfl⟩
abbrev main_v2257 : Ref sig .tc := ⟨.hbm, 2585, rfl⟩
abbrev main_v2258 : Ref sig .tc := ⟨.hbm, 2586, rfl⟩
abbrev main_v2259 : Ref sig .tc := ⟨.hbm, 2587, rfl⟩
abbrev main_v2260 : Ref sig .tc := ⟨.hbm, 2588, rfl⟩
abbrev main_v2261 : Ref sig .tc := ⟨.hbm, 2589, rfl⟩
abbrev main_v2262 : Ref sig .tc := ⟨.hbm, 2590, rfl⟩
abbrev main_v2263 : Ref sig .tc := ⟨.hbm, 2591, rfl⟩
abbrev main_cst_317 : Ref sig .tc := ⟨.hbm, 2592, rfl⟩
abbrev main_v2264 : Ref sig .tc := ⟨.hbm, 2593, rfl⟩
abbrev main_v2265 : Ref sig .tc := ⟨.hbm, 2594, rfl⟩
abbrev main_v2266 : Ref sig .tc := ⟨.hbm, 2595, rfl⟩
abbrev main_v2267 : Ref sig .tc := ⟨.hbm, 2596, rfl⟩
abbrev main_v2268 : Ref sig .tc := ⟨.hbm, 2597, rfl⟩
abbrev main_c_318 : Ref sig .tc := ⟨.hbm, 2598, rfl⟩
abbrev main_v2269 : Ref sig .tc := ⟨.hbm, 2599, rfl⟩
abbrev main_v2270 : Ref sig .tc := ⟨.hbm, 2600, rfl⟩
abbrev main_v2271 : Ref sig .tc := ⟨.hbm, 2601, rfl⟩
abbrev main_v2272 : Ref sig .tc := ⟨.hbm, 2602, rfl⟩
abbrev main_v2273 : Ref sig .tc := ⟨.hbm, 2603, rfl⟩
abbrev main_v2274 : Ref sig .tc := ⟨.hbm, 2604, rfl⟩
abbrev main_v2275 : Ref sig .tc := ⟨.hbm, 2605, rfl⟩
abbrev main_v2276 : Ref sig .tc := ⟨.hbm, 2606, rfl⟩
abbrev main_cst_319 : Ref sig .tc := ⟨.hbm, 2607, rfl⟩
abbrev main_v2277 : Ref sig .tc := ⟨.hbm, 2608, rfl⟩
abbrev main_v2278 : Ref sig .tc := ⟨.hbm, 2609, rfl⟩
abbrev main_v2279 : Ref sig .tc := ⟨.hbm, 2610, rfl⟩
abbrev main_v2280 : Ref sig .tc := ⟨.hbm, 2611, rfl⟩
abbrev main_v2281 : Ref sig .tc := ⟨.hbm, 2612, rfl⟩
abbrev main_v2282 : Ref sig .tc := ⟨.hbm, 2613, rfl⟩
abbrev main_v2283 : Ref sig .tc := ⟨.hbm, 2614, rfl⟩
abbrev main_v2284 : Ref sig .tc := ⟨.hbm, 2615, rfl⟩
abbrev main_v2285 : Ref sig .tc := ⟨.hbm, 2616, rfl⟩
abbrev main_cst_320 : Ref sig .tc := ⟨.hbm, 2617, rfl⟩
abbrev main_v2286 : Ref sig .tc := ⟨.hbm, 2618, rfl⟩
abbrev main_v2287 : Ref sig .tc := ⟨.hbm, 2619, rfl⟩
abbrev main_v2288 : Ref sig .tc := ⟨.hbm, 2620, rfl⟩
abbrev main_v2289 : Ref sig .tc := ⟨.hbm, 2621, rfl⟩
abbrev main_v2290 : Ref sig .tc := ⟨.hbm, 2622, rfl⟩
abbrev main_c_321 : Ref sig .tc := ⟨.hbm, 2623, rfl⟩
abbrev main_v2291 : Ref sig .tc := ⟨.hbm, 2624, rfl⟩
abbrev main_v2292 : Ref sig .tc := ⟨.hbm, 2625, rfl⟩
abbrev main_v2293 : Ref sig .tc := ⟨.hbm, 2626, rfl⟩
abbrev main_v2294 : Ref sig .tc := ⟨.hbm, 2627, rfl⟩
abbrev main_v2295 : Ref sig .tc := ⟨.hbm, 2628, rfl⟩
abbrev main_v2296 : Ref sig .tc := ⟨.hbm, 2629, rfl⟩
abbrev main_v2297 : Ref sig .tc := ⟨.hbm, 2630, rfl⟩
abbrev main_v2298 : Ref sig .tc := ⟨.hbm, 2631, rfl⟩
abbrev main_v2299 : Ref sig .tc := ⟨.hbm, 2632, rfl⟩
abbrev main_v2300 : Ref sig .tc := ⟨.hbm, 2633, rfl⟩
abbrev main_v2301 : Ref sig .tc := ⟨.hbm, 2634, rfl⟩
abbrev main_v2302 : Ref sig .tc := ⟨.hbm, 2635, rfl⟩
abbrev main_v2303 : Ref sig .tc := ⟨.hbm, 2636, rfl⟩
abbrev main_v2304 : Ref sig .tc := ⟨.hbm, 2637, rfl⟩
abbrev main_v2305 : Ref sig .tc := ⟨.hbm, 2638, rfl⟩
abbrev main_v2306 : Ref sig .tc := ⟨.hbm, 2639, rfl⟩
abbrev main_v2307 : Ref sig .tc := ⟨.hbm, 2640, rfl⟩
abbrev main_v2308 : Ref sig .tc := ⟨.hbm, 2641, rfl⟩
abbrev main_v2309 : Ref sig .tc := ⟨.hbm, 2642, rfl⟩
abbrev main_v2310 : Ref sig .tc := ⟨.hbm, 2643, rfl⟩
abbrev main_v2311 : Ref sig .tc := ⟨.hbm, 2644, rfl⟩
abbrev main_v2312 : Ref sig .tc := ⟨.hbm, 2645, rfl⟩
abbrev main_v2313 : Ref sig .tc := ⟨.hbm, 2646, rfl⟩
abbrev main_v2314 : Ref sig .tc := ⟨.hbm, 2647, rfl⟩
abbrev main_v2315 : Ref sig .tc := ⟨.hbm, 2648, rfl⟩
abbrev main_v2316 : Ref sig .tc := ⟨.hbm, 2649, rfl⟩
abbrev main_v2317 : Ref sig .tc := ⟨.hbm, 2650, rfl⟩
abbrev main_v2318 : Ref sig .tc := ⟨.hbm, 2651, rfl⟩
abbrev main_cst_322 : Ref sig .tc := ⟨.hbm, 2652, rfl⟩
abbrev main_v2319 : Ref sig .tc := ⟨.hbm, 2653, rfl⟩
abbrev main_cst_323 : Ref sig .tc := ⟨.hbm, 2654, rfl⟩
abbrev main_v2320 : Ref sig .tc := ⟨.hbm, 2655, rfl⟩
abbrev main_v2321 : Ref sig .tc := ⟨.hbm, 2656, rfl⟩
abbrev main_v2322 : Ref sig .tc := ⟨.hbm, 2657, rfl⟩
abbrev main_v2323 : Ref sig .tc := ⟨.hbm, 2658, rfl⟩
abbrev main_v2324 : Ref sig .tc := ⟨.hbm, 2659, rfl⟩
abbrev main_v2325 : Ref sig .tc := ⟨.hbm, 2660, rfl⟩
abbrev main_v2326 : Ref sig .tc := ⟨.hbm, 2661, rfl⟩
abbrev main_v2327 : Ref sig .tc := ⟨.hbm, 2662, rfl⟩
abbrev main_v2328 : Ref sig .tc := ⟨.hbm, 2663, rfl⟩
abbrev main_v2329 : Ref sig .tc := ⟨.hbm, 2664, rfl⟩
abbrev main_v2330 : Ref sig .tc := ⟨.hbm, 2665, rfl⟩
abbrev main_cst_324 : Ref sig .tc := ⟨.hbm, 2666, rfl⟩
abbrev main_v2331 : Ref sig .tc := ⟨.hbm, 2667, rfl⟩
abbrev main_v2332 : Ref sig .tc := ⟨.hbm, 2668, rfl⟩
abbrev main_v2333 : Ref sig .tc := ⟨.hbm, 2669, rfl⟩
abbrev main_v2334 : Ref sig .tc := ⟨.hbm, 2670, rfl⟩
abbrev main_v2335 : Ref sig .tc := ⟨.hbm, 2671, rfl⟩
abbrev main_v2336 : Ref sig .tc := ⟨.hbm, 2672, rfl⟩
abbrev main_v2337 : Ref sig .tc := ⟨.hbm, 2673, rfl⟩
abbrev main_v2338 : Ref sig .tc := ⟨.hbm, 2674, rfl⟩
abbrev main_v2339 : Ref sig .tc := ⟨.hbm, 2675, rfl⟩
abbrev main_cst_325 : Ref sig .tc := ⟨.hbm, 2676, rfl⟩
abbrev main_v2340 : Ref sig .tc := ⟨.hbm, 2677, rfl⟩
abbrev main_v2341 : Ref sig .tc := ⟨.hbm, 2678, rfl⟩
abbrev main_v2342 : Ref sig .tc := ⟨.hbm, 2679, rfl⟩
abbrev main_v2343 : Ref sig .tc := ⟨.hbm, 2680, rfl⟩
abbrev main_v2344 : Ref sig .tc := ⟨.hbm, 2681, rfl⟩
abbrev main_c_326 : Ref sig .tc := ⟨.hbm, 2682, rfl⟩
abbrev main_v2345 : Ref sig .tc := ⟨.hbm, 2683, rfl⟩
abbrev main_v2346 : Ref sig .tc := ⟨.hbm, 2684, rfl⟩
abbrev main_v2347 : Ref sig .tc := ⟨.hbm, 2685, rfl⟩
abbrev main_v2348 : Ref sig .tc := ⟨.hbm, 2686, rfl⟩
abbrev main_v2349 : Ref sig .tc := ⟨.hbm, 2687, rfl⟩
abbrev main_v2350 : Ref sig .tc := ⟨.hbm, 2688, rfl⟩
abbrev main_v2351 : Ref sig .tc := ⟨.hbm, 2689, rfl⟩
abbrev main_v2352 : Ref sig .tc := ⟨.hbm, 2690, rfl⟩
abbrev main_cst_327 : Ref sig .tc := ⟨.hbm, 2691, rfl⟩
abbrev main_v2353 : Ref sig .tc := ⟨.hbm, 2692, rfl⟩
abbrev main_v2354 : Ref sig .tc := ⟨.hbm, 2693, rfl⟩
abbrev main_v2355 : Ref sig .tc := ⟨.hbm, 2694, rfl⟩
abbrev main_v2356 : Ref sig .tc := ⟨.hbm, 2695, rfl⟩
abbrev main_v2357 : Ref sig .tc := ⟨.hbm, 2696, rfl⟩
abbrev main_v2358 : Ref sig .tc := ⟨.hbm, 2697, rfl⟩
abbrev main_v2359 : Ref sig .tc := ⟨.hbm, 2698, rfl⟩
abbrev main_v2360 : Ref sig .tc := ⟨.hbm, 2699, rfl⟩
abbrev main_v2361 : Ref sig .tc := ⟨.hbm, 2700, rfl⟩
abbrev main_cst_328 : Ref sig .tc := ⟨.hbm, 2701, rfl⟩
abbrev main_v2362 : Ref sig .tc := ⟨.hbm, 2702, rfl⟩
abbrev main_v2363 : Ref sig .tc := ⟨.hbm, 2703, rfl⟩
abbrev main_v2364 : Ref sig .tc := ⟨.hbm, 2704, rfl⟩
abbrev main_v2365 : Ref sig .tc := ⟨.hbm, 2705, rfl⟩
abbrev main_v2366 : Ref sig .tc := ⟨.hbm, 2706, rfl⟩
abbrev main_c_329 : Ref sig .tc := ⟨.hbm, 2707, rfl⟩
abbrev main_v2367 : Ref sig .tc := ⟨.hbm, 2708, rfl⟩
abbrev main_v2368 : Ref sig .tc := ⟨.hbm, 2709, rfl⟩
abbrev main_v2369 : Ref sig .tc := ⟨.hbm, 2710, rfl⟩
abbrev main_v2370 : Ref sig .tc := ⟨.hbm, 2711, rfl⟩
abbrev main_v2371 : Ref sig .tc := ⟨.hbm, 2712, rfl⟩
abbrev main_v2372 : Ref sig .tc := ⟨.hbm, 2713, rfl⟩
abbrev main_v2373 : Ref sig .tc := ⟨.hbm, 2714, rfl⟩
abbrev main_v2374 : Ref sig .tc := ⟨.hbm, 2715, rfl⟩
abbrev main_cst_330 : Ref sig .tc := ⟨.hbm, 2716, rfl⟩
abbrev main_v2375 : Ref sig .tc := ⟨.hbm, 2717, rfl⟩
abbrev main_v2376 : Ref sig .tc := ⟨.hbm, 2718, rfl⟩
abbrev main_v2377 : Ref sig .tc := ⟨.hbm, 2719, rfl⟩
abbrev main_v2378 : Ref sig .tc := ⟨.hbm, 2720, rfl⟩
abbrev main_v2379 : Ref sig .tc := ⟨.hbm, 2721, rfl⟩
abbrev main_v2380 : Ref sig .tc := ⟨.hbm, 2722, rfl⟩
abbrev main_v2381 : Ref sig .tc := ⟨.hbm, 2723, rfl⟩
abbrev main_v2382 : Ref sig .tc := ⟨.hbm, 2724, rfl⟩
abbrev main_v2383 : Ref sig .tc := ⟨.hbm, 2725, rfl⟩
abbrev main_cst_331 : Ref sig .tc := ⟨.hbm, 2726, rfl⟩
abbrev main_v2384 : Ref sig .tc := ⟨.hbm, 2727, rfl⟩
abbrev main_v2385 : Ref sig .tc := ⟨.hbm, 2728, rfl⟩
abbrev main_v2386 : Ref sig .tc := ⟨.hbm, 2729, rfl⟩
abbrev main_v2387 : Ref sig .tc := ⟨.hbm, 2730, rfl⟩
abbrev main_v2388 : Ref sig .tc := ⟨.hbm, 2731, rfl⟩
abbrev main_c_332 : Ref sig .tc := ⟨.hbm, 2732, rfl⟩
abbrev main_v2389 : Ref sig .tc := ⟨.hbm, 2733, rfl⟩
abbrev main_v2390 : Ref sig .tc := ⟨.hbm, 2734, rfl⟩
abbrev main_v2391 : Ref sig .tc := ⟨.hbm, 2735, rfl⟩
abbrev main_v2392 : Ref sig .tc := ⟨.hbm, 2736, rfl⟩
abbrev main_v2393 : Ref sig .tc := ⟨.hbm, 2737, rfl⟩
abbrev main_v2394 : Ref sig .tc := ⟨.hbm, 2738, rfl⟩
abbrev main_v2395 : Ref sig .tc := ⟨.hbm, 2739, rfl⟩
abbrev main_v2396 : Ref sig .tc := ⟨.hbm, 2740, rfl⟩
abbrev main_cst_333 : Ref sig .tc := ⟨.hbm, 2741, rfl⟩
abbrev main_v2397 : Ref sig .tc := ⟨.hbm, 2742, rfl⟩
abbrev main_v2398 : Ref sig .tc := ⟨.hbm, 2743, rfl⟩
abbrev main_v2399 : Ref sig .tc := ⟨.hbm, 2744, rfl⟩
abbrev main_v2400 : Ref sig .tc := ⟨.hbm, 2745, rfl⟩
abbrev main_v2401 : Ref sig .tc := ⟨.hbm, 2746, rfl⟩
abbrev main_v2402 : Ref sig .tc := ⟨.hbm, 2747, rfl⟩
abbrev main_v2403 : Ref sig .tc := ⟨.hbm, 2748, rfl⟩
abbrev main_v2404 : Ref sig .tc := ⟨.hbm, 2749, rfl⟩
abbrev main_v2405 : Ref sig .tc := ⟨.hbm, 2750, rfl⟩
abbrev main_cst_334 : Ref sig .tc := ⟨.hbm, 2751, rfl⟩
abbrev main_v2406 : Ref sig .tc := ⟨.hbm, 2752, rfl⟩
abbrev main_v2407 : Ref sig .tc := ⟨.hbm, 2753, rfl⟩
abbrev main_v2408 : Ref sig .tc := ⟨.hbm, 2754, rfl⟩
abbrev main_v2409 : Ref sig .tc := ⟨.hbm, 2755, rfl⟩
abbrev main_v2410 : Ref sig .tc := ⟨.hbm, 2756, rfl⟩
abbrev main_c_335 : Ref sig .tc := ⟨.hbm, 2757, rfl⟩
abbrev main_v2411 : Ref sig .tc := ⟨.hbm, 2758, rfl⟩
abbrev main_v2412 : Ref sig .tc := ⟨.hbm, 2759, rfl⟩
abbrev main_v2413 : Ref sig .tc := ⟨.hbm, 2760, rfl⟩
abbrev main_v2414 : Ref sig .tc := ⟨.hbm, 2761, rfl⟩
abbrev main_cst_336 : Ref sig .tc := ⟨.hbm, 2762, rfl⟩
abbrev main_v2415 : Ref sig .tc := ⟨.hbm, 2763, rfl⟩
abbrev main_v2416 : Ref sig .tc := ⟨.hbm, 2764, rfl⟩
abbrev main_v2417 : Ref sig .tc := ⟨.hbm, 2765, rfl⟩
abbrev main_c_337 : Ref sig .tc := ⟨.hbm, 2766, rfl⟩
abbrev main_v2418 : Ref sig .tc := ⟨.hbm, 2767, rfl⟩
abbrev main_v2419 : Ref sig .tc := ⟨.hbm, 2768, rfl⟩
abbrev main_cst_338 : Ref sig .tc := ⟨.hbm, 2769, rfl⟩
abbrev main_v2420 : Ref sig .tc := ⟨.hbm, 2770, rfl⟩
abbrev main_cst_339 : Ref sig .tc := ⟨.hbm, 2771, rfl⟩
abbrev main_v2421 : Ref sig .tc := ⟨.hbm, 2772, rfl⟩
abbrev main_v2422 : Ref sig .tc := ⟨.hbm, 2773, rfl⟩
abbrev main_v2423 : Ref sig .tc := ⟨.hbm, 2774, rfl⟩
abbrev main_v2424 : Ref sig .tc := ⟨.hbm, 2775, rfl⟩
abbrev main_v2425 : Ref sig .tc := ⟨.hbm, 2776, rfl⟩
abbrev main_v2426 : Ref sig .tc := ⟨.hbm, 2777, rfl⟩
abbrev main_v2427 : Ref sig .tc := ⟨.hbm, 2778, rfl⟩
abbrev main_v2428 : Ref sig .tc := ⟨.hbm, 2779, rfl⟩
abbrev main_v2429 : Ref sig .tc := ⟨.hbm, 2780, rfl⟩
abbrev main_v2430 : Ref sig .tc := ⟨.hbm, 2781, rfl⟩
abbrev main_v2431 : Ref sig .tc := ⟨.hbm, 2782, rfl⟩
abbrev main_v2432 : Ref sig .tc := ⟨.hbm, 2783, rfl⟩
abbrev main_v2433 : Ref sig .tc := ⟨.hbm, 2784, rfl⟩
abbrev main_cst_340 : Ref sig .tc := ⟨.hbm, 2785, rfl⟩
abbrev main_v2434 : Ref sig .tc := ⟨.hbm, 2786, rfl⟩
abbrev main_cst_341 : Ref sig .tc := ⟨.hbm, 2787, rfl⟩
abbrev main_v2435 : Ref sig .tc := ⟨.hbm, 2788, rfl⟩
abbrev main_v2436 : Ref sig .tc := ⟨.hbm, 2789, rfl⟩
abbrev main_v2437 : Ref sig .tc := ⟨.hbm, 2790, rfl⟩
abbrev main_v2438 : Ref sig .tc := ⟨.hbm, 2791, rfl⟩
abbrev main_v2439 : Ref sig .tc := ⟨.hbm, 2792, rfl⟩
abbrev main_v2440 : Ref sig .tc := ⟨.hbm, 2793, rfl⟩
abbrev main_v2441 : Ref sig .tc := ⟨.hbm, 2794, rfl⟩
abbrev main_cst_342 : Ref sig .tc := ⟨.hbm, 2795, rfl⟩
abbrev main_v2442 : Ref sig .tc := ⟨.hbm, 2796, rfl⟩
abbrev main_v2443 : Ref sig .tc := ⟨.hbm, 2797, rfl⟩
abbrev main_v2444 : Ref sig .tc := ⟨.hbm, 2798, rfl⟩
abbrev main_c_343 : Ref sig .tc := ⟨.hbm, 2799, rfl⟩
abbrev main_v2445 : Ref sig .tc := ⟨.hbm, 2800, rfl⟩
abbrev main_v2446 : Ref sig .tc := ⟨.hbm, 2801, rfl⟩
abbrev main_v2447 : Ref sig .tc := ⟨.hbm, 2802, rfl⟩
abbrev main_v2448 : Ref sig .tc := ⟨.hbm, 2803, rfl⟩
abbrev main_v2449 : Ref sig .tc := ⟨.hbm, 2804, rfl⟩
abbrev main_v2450 : Ref sig .tc := ⟨.hbm, 2805, rfl⟩
abbrev main_v2451 : Ref sig .tc := ⟨.hbm, 2806, rfl⟩
abbrev main_v2452 : Ref sig .tc := ⟨.hbm, 2807, rfl⟩
abbrev main_cst_344 : Ref sig .tc := ⟨.hbm, 2808, rfl⟩
abbrev main_v2453 : Ref sig .tc := ⟨.hbm, 2809, rfl⟩
abbrev main_v2454 : Ref sig .tc := ⟨.hbm, 2810, rfl⟩
abbrev main_v2455 : Ref sig .tc := ⟨.hbm, 2811, rfl⟩
abbrev main_v2456 : Ref sig .tc := ⟨.hbm, 2812, rfl⟩
abbrev main_v2457 : Ref sig .tc := ⟨.hbm, 2813, rfl⟩
abbrev main_v2458 : Ref sig .tc := ⟨.hbm, 2814, rfl⟩
abbrev main_v2459 : Ref sig .tc := ⟨.hbm, 2815, rfl⟩
abbrev main_v2460 : Ref sig .tc := ⟨.hbm, 2816, rfl⟩
abbrev main_v2461 : Ref sig .tc := ⟨.hbm, 2817, rfl⟩
abbrev main_cst_345 : Ref sig .tc := ⟨.hbm, 2818, rfl⟩
abbrev main_v2462 : Ref sig .tc := ⟨.hbm, 2819, rfl⟩
abbrev main_v2463 : Ref sig .tc := ⟨.hbm, 2820, rfl⟩
abbrev main_v2464 : Ref sig .tc := ⟨.hbm, 2821, rfl⟩
abbrev main_v2465 : Ref sig .tc := ⟨.hbm, 2822, rfl⟩
abbrev main_v2466 : Ref sig .tc := ⟨.hbm, 2823, rfl⟩
abbrev main_c_346 : Ref sig .tc := ⟨.hbm, 2824, rfl⟩
abbrev main_v2467 : Ref sig .tc := ⟨.hbm, 2825, rfl⟩
abbrev main_v2468 : Ref sig .tc := ⟨.hbm, 2826, rfl⟩
abbrev main_v2469 : Ref sig .tc := ⟨.hbm, 2827, rfl⟩
abbrev main_v2470 : Ref sig .tc := ⟨.hbm, 2828, rfl⟩
abbrev main_v2471 : Ref sig .tc := ⟨.hbm, 2829, rfl⟩
abbrev main_v2472 : Ref sig .tc := ⟨.hbm, 2830, rfl⟩
abbrev main_v2473 : Ref sig .tc := ⟨.hbm, 2831, rfl⟩
abbrev main_v2474 : Ref sig .tc := ⟨.hbm, 2832, rfl⟩
abbrev main_cst_347 : Ref sig .tc := ⟨.hbm, 2833, rfl⟩
abbrev main_v2475 : Ref sig .tc := ⟨.hbm, 2834, rfl⟩
abbrev main_v2476 : Ref sig .tc := ⟨.hbm, 2835, rfl⟩
abbrev main_v2477 : Ref sig .tc := ⟨.hbm, 2836, rfl⟩
abbrev main_v2478 : Ref sig .tc := ⟨.hbm, 2837, rfl⟩
abbrev main_v2479 : Ref sig .tc := ⟨.hbm, 2838, rfl⟩
abbrev main_v2480 : Ref sig .tc := ⟨.hbm, 2839, rfl⟩
abbrev main_v2481 : Ref sig .tc := ⟨.hbm, 2840, rfl⟩
abbrev main_v2482 : Ref sig .tc := ⟨.hbm, 2841, rfl⟩
abbrev main_v2483 : Ref sig .tc := ⟨.hbm, 2842, rfl⟩
abbrev main_cst_348 : Ref sig .tc := ⟨.hbm, 2843, rfl⟩
abbrev main_v2484 : Ref sig .tc := ⟨.hbm, 2844, rfl⟩
abbrev main_v2485 : Ref sig .tc := ⟨.hbm, 2845, rfl⟩
abbrev main_v2486 : Ref sig .tc := ⟨.hbm, 2846, rfl⟩
abbrev main_v2487 : Ref sig .tc := ⟨.hbm, 2847, rfl⟩
abbrev main_v2488 : Ref sig .tc := ⟨.hbm, 2848, rfl⟩
abbrev main_c_349 : Ref sig .tc := ⟨.hbm, 2849, rfl⟩
abbrev main_v2489 : Ref sig .tc := ⟨.hbm, 2850, rfl⟩
abbrev main_v2490 : Ref sig .tc := ⟨.hbm, 2851, rfl⟩
abbrev main_v2491 : Ref sig .tc := ⟨.hbm, 2852, rfl⟩
abbrev main_v2492 : Ref sig .tc := ⟨.hbm, 2853, rfl⟩
abbrev main_v2493 : Ref sig .tc := ⟨.hbm, 2854, rfl⟩
abbrev main_v2494 : Ref sig .tc := ⟨.hbm, 2855, rfl⟩
abbrev main_v2495 : Ref sig .tc := ⟨.hbm, 2856, rfl⟩
abbrev main_v2496 : Ref sig .tc := ⟨.hbm, 2857, rfl⟩
abbrev main_cst_350 : Ref sig .tc := ⟨.hbm, 2858, rfl⟩
abbrev main_v2497 : Ref sig .tc := ⟨.hbm, 2859, rfl⟩
abbrev main_v2498 : Ref sig .tc := ⟨.hbm, 2860, rfl⟩
abbrev main_v2499 : Ref sig .tc := ⟨.hbm, 2861, rfl⟩
abbrev main_v2500 : Ref sig .tc := ⟨.hbm, 2862, rfl⟩
abbrev main_v2501 : Ref sig .tc := ⟨.hbm, 2863, rfl⟩
abbrev main_v2502 : Ref sig .tc := ⟨.hbm, 2864, rfl⟩
abbrev main_v2503 : Ref sig .tc := ⟨.hbm, 2865, rfl⟩
abbrev main_v2504 : Ref sig .tc := ⟨.hbm, 2866, rfl⟩
abbrev main_v2505 : Ref sig .tc := ⟨.hbm, 2867, rfl⟩
abbrev main_cst_351 : Ref sig .tc := ⟨.hbm, 2868, rfl⟩
abbrev main_v2506 : Ref sig .tc := ⟨.hbm, 2869, rfl⟩
abbrev main_v2507 : Ref sig .tc := ⟨.hbm, 2870, rfl⟩
abbrev main_v2508 : Ref sig .tc := ⟨.hbm, 2871, rfl⟩
abbrev main_v2509 : Ref sig .tc := ⟨.hbm, 2872, rfl⟩
abbrev main_v2510 : Ref sig .tc := ⟨.hbm, 2873, rfl⟩
abbrev main_c_352 : Ref sig .tc := ⟨.hbm, 2874, rfl⟩
abbrev main_v2511 : Ref sig .tc := ⟨.hbm, 2875, rfl⟩
abbrev main_v2512 : Ref sig .tc := ⟨.hbm, 2876, rfl⟩
abbrev main_v2513 : Ref sig .tc := ⟨.hbm, 2877, rfl⟩
abbrev main_v2514 : Ref sig .tc := ⟨.hbm, 2878, rfl⟩
abbrev main_v2515 : Ref sig .tc := ⟨.hbm, 2879, rfl⟩
abbrev main_v2516 : Ref sig .tc := ⟨.hbm, 2880, rfl⟩
abbrev main_v2517 : Ref sig .tc := ⟨.hbm, 2881, rfl⟩
abbrev main_v2518 : Ref sig .tc := ⟨.hbm, 2882, rfl⟩
abbrev main_cst_353 : Ref sig .tc := ⟨.hbm, 2883, rfl⟩
abbrev main_v2519 : Ref sig .tc := ⟨.hbm, 2884, rfl⟩
abbrev main_v2520 : Ref sig .tc := ⟨.hbm, 2885, rfl⟩
abbrev main_v2521 : Ref sig .tc := ⟨.hbm, 2886, rfl⟩
abbrev main_v2522 : Ref sig .tc := ⟨.hbm, 2887, rfl⟩
abbrev main_v2523 : Ref sig .tc := ⟨.hbm, 2888, rfl⟩
abbrev main_v2524 : Ref sig .tc := ⟨.hbm, 2889, rfl⟩
abbrev main_v2525 : Ref sig .tc := ⟨.hbm, 2890, rfl⟩
abbrev main_v2526 : Ref sig .tc := ⟨.hbm, 2891, rfl⟩
abbrev main_v2527 : Ref sig .tc := ⟨.hbm, 2892, rfl⟩
abbrev main_cst_354 : Ref sig .tc := ⟨.hbm, 2893, rfl⟩
abbrev main_v2528 : Ref sig .tc := ⟨.hbm, 2894, rfl⟩
abbrev main_v2529 : Ref sig .tc := ⟨.hbm, 2895, rfl⟩
abbrev main_v2530 : Ref sig .tc := ⟨.hbm, 2896, rfl⟩
abbrev main_v2531 : Ref sig .tc := ⟨.hbm, 2897, rfl⟩
abbrev main_v2532 : Ref sig .tc := ⟨.hbm, 2898, rfl⟩
abbrev main_c_355 : Ref sig .tc := ⟨.hbm, 2899, rfl⟩
abbrev main_v2533 : Ref sig .tc := ⟨.hbm, 2900, rfl⟩
abbrev main_v2534 : Ref sig .tc := ⟨.hbm, 2901, rfl⟩
abbrev main_v2535 : Ref sig .tc := ⟨.hbm, 2902, rfl⟩
abbrev main_v2536 : Ref sig .tc := ⟨.hbm, 2903, rfl⟩
abbrev main_v2537 : Ref sig .tc := ⟨.hbm, 2904, rfl⟩
abbrev main_v2538 : Ref sig .tc := ⟨.hbm, 2905, rfl⟩
abbrev main_v2539 : Ref sig .tc := ⟨.hbm, 2906, rfl⟩
abbrev main_v2540 : Ref sig .tc := ⟨.hbm, 2907, rfl⟩
abbrev main_v2541 : Ref sig .tc := ⟨.hbm, 2908, rfl⟩
abbrev main_v2542 : Ref sig .tc := ⟨.hbm, 2909, rfl⟩
abbrev main_v2543 : Ref sig .tc := ⟨.hbm, 2910, rfl⟩
abbrev main_v2544 : Ref sig .tc := ⟨.hbm, 2911, rfl⟩
abbrev main_v2545 : Ref sig .tc := ⟨.hbm, 2912, rfl⟩
abbrev main_v2546 : Ref sig .tc := ⟨.hbm, 2913, rfl⟩
abbrev main_v2547 : Ref sig .tc := ⟨.hbm, 2914, rfl⟩
abbrev main_v2548 : Ref sig .tc := ⟨.hbm, 2915, rfl⟩
abbrev main_v2549 : Ref sig .tc := ⟨.hbm, 2916, rfl⟩
abbrev main_v2550 : Ref sig .tc := ⟨.hbm, 2917, rfl⟩
abbrev main_v2551 : Ref sig .tc := ⟨.hbm, 2918, rfl⟩
abbrev main_v2552 : Ref sig .tc := ⟨.hbm, 2919, rfl⟩
abbrev main_v2553 : Ref sig .tc := ⟨.hbm, 2920, rfl⟩
abbrev main_v2554 : Ref sig .tc := ⟨.hbm, 2921, rfl⟩
abbrev main_v2555 : Ref sig .tc := ⟨.hbm, 2922, rfl⟩
abbrev main_v2556 : Ref sig .tc := ⟨.hbm, 2923, rfl⟩
abbrev main_v2557 : Ref sig .tc := ⟨.hbm, 2924, rfl⟩
abbrev main_v2558 : Ref sig .tc := ⟨.hbm, 2925, rfl⟩
abbrev main_v2559 : Ref sig .tc := ⟨.hbm, 2926, rfl⟩
abbrev main_v2560 : Ref sig .tc := ⟨.hbm, 2927, rfl⟩
abbrev main_cst_356 : Ref sig .tc := ⟨.hbm, 2928, rfl⟩
abbrev main_v2561 : Ref sig .tc := ⟨.hbm, 2929, rfl⟩
abbrev main_cst_357 : Ref sig .tc := ⟨.hbm, 2930, rfl⟩
abbrev main_v2562 : Ref sig .tc := ⟨.hbm, 2931, rfl⟩
abbrev main_v2563 : Ref sig .tc := ⟨.hbm, 2932, rfl⟩
abbrev main_v2564 : Ref sig .tc := ⟨.hbm, 2933, rfl⟩
abbrev main_v2565 : Ref sig .tc := ⟨.hbm, 2934, rfl⟩
abbrev main_v2566 : Ref sig .tc := ⟨.hbm, 2935, rfl⟩
abbrev main_v2567 : Ref sig .tc := ⟨.hbm, 2936, rfl⟩
abbrev main_v2568 : Ref sig .tc := ⟨.hbm, 2937, rfl⟩
abbrev main_v2569 : Ref sig .tc := ⟨.hbm, 2938, rfl⟩
abbrev main_v2570 : Ref sig .tc := ⟨.hbm, 2939, rfl⟩
abbrev main_v2571 : Ref sig .tc := ⟨.hbm, 2940, rfl⟩
abbrev main_v2572 : Ref sig .tc := ⟨.hbm, 2941, rfl⟩
abbrev main_cst_358 : Ref sig .tc := ⟨.hbm, 2942, rfl⟩
abbrev main_v2573 : Ref sig .tc := ⟨.hbm, 2943, rfl⟩
abbrev main_v2574 : Ref sig .tc := ⟨.hbm, 2944, rfl⟩
abbrev main_v2575 : Ref sig .tc := ⟨.hbm, 2945, rfl⟩
abbrev main_v2576 : Ref sig .tc := ⟨.hbm, 2946, rfl⟩
abbrev main_v2577 : Ref sig .tc := ⟨.hbm, 2947, rfl⟩
abbrev main_v2578 : Ref sig .tc := ⟨.hbm, 2948, rfl⟩
abbrev main_v2579 : Ref sig .tc := ⟨.hbm, 2949, rfl⟩
abbrev main_v2580 : Ref sig .tc := ⟨.hbm, 2950, rfl⟩
abbrev main_v2581 : Ref sig .tc := ⟨.hbm, 2951, rfl⟩
abbrev main_cst_359 : Ref sig .tc := ⟨.hbm, 2952, rfl⟩
abbrev main_v2582 : Ref sig .tc := ⟨.hbm, 2953, rfl⟩
abbrev main_v2583 : Ref sig .tc := ⟨.hbm, 2954, rfl⟩
abbrev main_v2584 : Ref sig .tc := ⟨.hbm, 2955, rfl⟩
abbrev main_v2585 : Ref sig .tc := ⟨.hbm, 2956, rfl⟩
abbrev main_v2586 : Ref sig .tc := ⟨.hbm, 2957, rfl⟩
abbrev main_c_360 : Ref sig .tc := ⟨.hbm, 2958, rfl⟩
abbrev main_v2587 : Ref sig .tc := ⟨.hbm, 2959, rfl⟩
abbrev main_v2588 : Ref sig .tc := ⟨.hbm, 2960, rfl⟩
abbrev main_v2589 : Ref sig .tc := ⟨.hbm, 2961, rfl⟩
abbrev main_v2590 : Ref sig .tc := ⟨.hbm, 2962, rfl⟩
abbrev main_v2591 : Ref sig .tc := ⟨.hbm, 2963, rfl⟩
abbrev main_v2592 : Ref sig .tc := ⟨.hbm, 2964, rfl⟩
abbrev main_v2593 : Ref sig .tc := ⟨.hbm, 2965, rfl⟩
abbrev main_v2594 : Ref sig .tc := ⟨.hbm, 2966, rfl⟩
abbrev main_cst_361 : Ref sig .tc := ⟨.hbm, 2967, rfl⟩
abbrev main_v2595 : Ref sig .tc := ⟨.hbm, 2968, rfl⟩
abbrev main_v2596 : Ref sig .tc := ⟨.hbm, 2969, rfl⟩
abbrev main_v2597 : Ref sig .tc := ⟨.hbm, 2970, rfl⟩
abbrev main_v2598 : Ref sig .tc := ⟨.hbm, 2971, rfl⟩
abbrev main_v2599 : Ref sig .tc := ⟨.hbm, 2972, rfl⟩
abbrev main_v2600 : Ref sig .tc := ⟨.hbm, 2973, rfl⟩
abbrev main_v2601 : Ref sig .tc := ⟨.hbm, 2974, rfl⟩
abbrev main_v2602 : Ref sig .tc := ⟨.hbm, 2975, rfl⟩
abbrev main_v2603 : Ref sig .tc := ⟨.hbm, 2976, rfl⟩
abbrev main_cst_362 : Ref sig .tc := ⟨.hbm, 2977, rfl⟩
abbrev main_v2604 : Ref sig .tc := ⟨.hbm, 2978, rfl⟩
abbrev main_v2605 : Ref sig .tc := ⟨.hbm, 2979, rfl⟩
abbrev main_v2606 : Ref sig .tc := ⟨.hbm, 2980, rfl⟩
abbrev main_v2607 : Ref sig .tc := ⟨.hbm, 2981, rfl⟩
abbrev main_v2608 : Ref sig .tc := ⟨.hbm, 2982, rfl⟩
abbrev main_c_363 : Ref sig .tc := ⟨.hbm, 2983, rfl⟩
abbrev main_v2609 : Ref sig .tc := ⟨.hbm, 2984, rfl⟩
abbrev main_v2610 : Ref sig .tc := ⟨.hbm, 2985, rfl⟩
abbrev main_v2611 : Ref sig .tc := ⟨.hbm, 2986, rfl⟩
abbrev main_v2612 : Ref sig .tc := ⟨.hbm, 2987, rfl⟩
abbrev main_v2613 : Ref sig .tc := ⟨.hbm, 2988, rfl⟩
abbrev main_v2614 : Ref sig .tc := ⟨.hbm, 2989, rfl⟩
abbrev main_v2615 : Ref sig .tc := ⟨.hbm, 2990, rfl⟩
abbrev main_v2616 : Ref sig .tc := ⟨.hbm, 2991, rfl⟩
abbrev main_cst_364 : Ref sig .tc := ⟨.hbm, 2992, rfl⟩
abbrev main_v2617 : Ref sig .tc := ⟨.hbm, 2993, rfl⟩
abbrev main_v2618 : Ref sig .tc := ⟨.hbm, 2994, rfl⟩
abbrev main_v2619 : Ref sig .tc := ⟨.hbm, 2995, rfl⟩
abbrev main_v2620 : Ref sig .tc := ⟨.hbm, 2996, rfl⟩
abbrev main_v2621 : Ref sig .tc := ⟨.hbm, 2997, rfl⟩
abbrev main_v2622 : Ref sig .tc := ⟨.hbm, 2998, rfl⟩
abbrev main_v2623 : Ref sig .tc := ⟨.hbm, 2999, rfl⟩
abbrev main_v2624 : Ref sig .tc := ⟨.hbm, 3000, rfl⟩
abbrev main_v2625 : Ref sig .tc := ⟨.hbm, 3001, rfl⟩
abbrev main_cst_365 : Ref sig .tc := ⟨.hbm, 3002, rfl⟩
abbrev main_v2626 : Ref sig .tc := ⟨.hbm, 3003, rfl⟩
abbrev main_v2627 : Ref sig .tc := ⟨.hbm, 3004, rfl⟩
abbrev main_v2628 : Ref sig .tc := ⟨.hbm, 3005, rfl⟩
abbrev main_v2629 : Ref sig .tc := ⟨.hbm, 3006, rfl⟩
abbrev main_v2630 : Ref sig .tc := ⟨.hbm, 3007, rfl⟩
abbrev main_c_366 : Ref sig .tc := ⟨.hbm, 3008, rfl⟩
abbrev main_v2631 : Ref sig .tc := ⟨.hbm, 3009, rfl⟩
abbrev main_v2632 : Ref sig .tc := ⟨.hbm, 3010, rfl⟩
abbrev main_v2633 : Ref sig .tc := ⟨.hbm, 3011, rfl⟩
abbrev main_v2634 : Ref sig .tc := ⟨.hbm, 3012, rfl⟩
abbrev main_v2635 : Ref sig .tc := ⟨.hbm, 3013, rfl⟩
abbrev main_v2636 : Ref sig .tc := ⟨.hbm, 3014, rfl⟩
abbrev main_v2637 : Ref sig .tc := ⟨.hbm, 3015, rfl⟩
abbrev main_v2638 : Ref sig .tc := ⟨.hbm, 3016, rfl⟩
abbrev main_cst_367 : Ref sig .tc := ⟨.hbm, 3017, rfl⟩
abbrev main_v2639 : Ref sig .tc := ⟨.hbm, 3018, rfl⟩
abbrev main_v2640 : Ref sig .tc := ⟨.hbm, 3019, rfl⟩
abbrev main_v2641 : Ref sig .tc := ⟨.hbm, 3020, rfl⟩
abbrev main_v2642 : Ref sig .tc := ⟨.hbm, 3021, rfl⟩
abbrev main_v2643 : Ref sig .tc := ⟨.hbm, 3022, rfl⟩
abbrev main_v2644 : Ref sig .tc := ⟨.hbm, 3023, rfl⟩
abbrev main_v2645 : Ref sig .tc := ⟨.hbm, 3024, rfl⟩
abbrev main_v2646 : Ref sig .tc := ⟨.hbm, 3025, rfl⟩
abbrev main_v2647 : Ref sig .tc := ⟨.hbm, 3026, rfl⟩
abbrev main_cst_368 : Ref sig .tc := ⟨.hbm, 3027, rfl⟩
abbrev main_v2648 : Ref sig .tc := ⟨.hbm, 3028, rfl⟩
abbrev main_v2649 : Ref sig .tc := ⟨.hbm, 3029, rfl⟩
abbrev main_v2650 : Ref sig .tc := ⟨.hbm, 3030, rfl⟩
abbrev main_v2651 : Ref sig .tc := ⟨.hbm, 3031, rfl⟩
abbrev main_v2652 : Ref sig .tc := ⟨.hbm, 3032, rfl⟩
abbrev main_c_369 : Ref sig .tc := ⟨.hbm, 3033, rfl⟩
abbrev main_v2653 : Ref sig .tc := ⟨.hbm, 3034, rfl⟩
abbrev main_v2654 : Ref sig .tc := ⟨.hbm, 3035, rfl⟩
abbrev main_v2655 : Ref sig .tc := ⟨.hbm, 3036, rfl⟩
abbrev main_v2656 : Ref sig .tc := ⟨.hbm, 3037, rfl⟩
abbrev main_cst_370 : Ref sig .tc := ⟨.hbm, 3038, rfl⟩
abbrev main_v2657 : Ref sig .tc := ⟨.hbm, 3039, rfl⟩
abbrev main_v2658 : Ref sig .tc := ⟨.hbm, 3040, rfl⟩
abbrev main_v2659 : Ref sig .tc := ⟨.hbm, 3041, rfl⟩
abbrev main_c_371 : Ref sig .tc := ⟨.hbm, 3042, rfl⟩
abbrev main_v2660 : Ref sig .tc := ⟨.hbm, 3043, rfl⟩
abbrev main_v2661 : Ref sig .tc := ⟨.hbm, 3044, rfl⟩
abbrev main_cst_372 : Ref sig .tc := ⟨.hbm, 3045, rfl⟩
abbrev main_v2662 : Ref sig .tc := ⟨.hbm, 3046, rfl⟩
abbrev main_cst_373 : Ref sig .tc := ⟨.hbm, 3047, rfl⟩
abbrev main_v2663 : Ref sig .tc := ⟨.hbm, 3048, rfl⟩
abbrev main_v2664 : Ref sig .tc := ⟨.hbm, 3049, rfl⟩
abbrev main_v2665 : Ref sig .tc := ⟨.hbm, 3050, rfl⟩
abbrev main_v2666 : Ref sig .tc := ⟨.hbm, 3051, rfl⟩
abbrev main_v2667 : Ref sig .tc := ⟨.hbm, 3052, rfl⟩
abbrev main_v2668 : Ref sig .tc := ⟨.hbm, 3053, rfl⟩
abbrev main_v2669 : Ref sig .tc := ⟨.hbm, 3054, rfl⟩
abbrev main_v2670 : Ref sig .tc := ⟨.hbm, 3055, rfl⟩
abbrev main_v2671 : Ref sig .tc := ⟨.hbm, 3056, rfl⟩
abbrev main_v2672 : Ref sig .tc := ⟨.hbm, 3057, rfl⟩
abbrev main_v2673 : Ref sig .tc := ⟨.hbm, 3058, rfl⟩
abbrev main_v2674 : Ref sig .tc := ⟨.hbm, 3059, rfl⟩
abbrev main_v2675 : Ref sig .tc := ⟨.hbm, 3060, rfl⟩
abbrev main_cst_374 : Ref sig .tc := ⟨.hbm, 3061, rfl⟩
abbrev main_v2676 : Ref sig .tc := ⟨.hbm, 3062, rfl⟩
abbrev main_cst_375 : Ref sig .tc := ⟨.hbm, 3063, rfl⟩
abbrev main_v2677 : Ref sig .tc := ⟨.hbm, 3064, rfl⟩
abbrev main_v2678 : Ref sig .tc := ⟨.hbm, 3065, rfl⟩
abbrev main_v2679 : Ref sig .tc := ⟨.hbm, 3066, rfl⟩
abbrev main_v2680 : Ref sig .tc := ⟨.hbm, 3067, rfl⟩
abbrev main_v2681 : Ref sig .tc := ⟨.hbm, 3068, rfl⟩
abbrev main_v2682 : Ref sig .tc := ⟨.hbm, 3069, rfl⟩
abbrev main_v2683 : Ref sig .tc := ⟨.hbm, 3070, rfl⟩
abbrev main_cst_376 : Ref sig .tc := ⟨.hbm, 3071, rfl⟩
abbrev main_v2684 : Ref sig .tc := ⟨.hbm, 3072, rfl⟩
abbrev main_v2685 : Ref sig .tc := ⟨.hbm, 3073, rfl⟩
abbrev main_v2686 : Ref sig .tc := ⟨.hbm, 3074, rfl⟩
abbrev main_c_377 : Ref sig .tc := ⟨.hbm, 3075, rfl⟩
abbrev main_v2687 : Ref sig .tc := ⟨.hbm, 3076, rfl⟩
abbrev main_v2688 : Ref sig .tc := ⟨.hbm, 3077, rfl⟩
abbrev main_v2689 : Ref sig .tc := ⟨.hbm, 3078, rfl⟩
abbrev main_v2690 : Ref sig .tc := ⟨.hbm, 3079, rfl⟩
abbrev main_v2691 : Ref sig .tc := ⟨.hbm, 3080, rfl⟩
abbrev main_v2692 : Ref sig .tc := ⟨.hbm, 3081, rfl⟩
abbrev main_v2693 : Ref sig .tc := ⟨.hbm, 3082, rfl⟩
abbrev main_v2694 : Ref sig .tc := ⟨.hbm, 3083, rfl⟩
abbrev main_cst_378 : Ref sig .tc := ⟨.hbm, 3084, rfl⟩
abbrev main_v2695 : Ref sig .tc := ⟨.hbm, 3085, rfl⟩
abbrev main_v2696 : Ref sig .tc := ⟨.hbm, 3086, rfl⟩
abbrev main_v2697 : Ref sig .tc := ⟨.hbm, 3087, rfl⟩
abbrev main_v2698 : Ref sig .tc := ⟨.hbm, 3088, rfl⟩
abbrev main_v2699 : Ref sig .tc := ⟨.hbm, 3089, rfl⟩
abbrev main_v2700 : Ref sig .tc := ⟨.hbm, 3090, rfl⟩
abbrev main_v2701 : Ref sig .tc := ⟨.hbm, 3091, rfl⟩
abbrev main_v2702 : Ref sig .tc := ⟨.hbm, 3092, rfl⟩
abbrev main_v2703 : Ref sig .tc := ⟨.hbm, 3093, rfl⟩
abbrev main_cst_379 : Ref sig .tc := ⟨.hbm, 3094, rfl⟩
abbrev main_v2704 : Ref sig .tc := ⟨.hbm, 3095, rfl⟩
abbrev main_v2705 : Ref sig .tc := ⟨.hbm, 3096, rfl⟩
abbrev main_v2706 : Ref sig .tc := ⟨.hbm, 3097, rfl⟩
abbrev main_v2707 : Ref sig .tc := ⟨.hbm, 3098, rfl⟩
abbrev main_v2708 : Ref sig .tc := ⟨.hbm, 3099, rfl⟩
abbrev main_c_380 : Ref sig .tc := ⟨.hbm, 3100, rfl⟩
abbrev main_v2709 : Ref sig .tc := ⟨.hbm, 3101, rfl⟩
abbrev main_v2710 : Ref sig .tc := ⟨.hbm, 3102, rfl⟩
abbrev main_v2711 : Ref sig .tc := ⟨.hbm, 3103, rfl⟩
abbrev main_v2712 : Ref sig .tc := ⟨.hbm, 3104, rfl⟩
abbrev main_v2713 : Ref sig .tc := ⟨.hbm, 3105, rfl⟩
abbrev main_v2714 : Ref sig .tc := ⟨.hbm, 3106, rfl⟩
abbrev main_v2715 : Ref sig .tc := ⟨.hbm, 3107, rfl⟩
abbrev main_v2716 : Ref sig .tc := ⟨.hbm, 3108, rfl⟩
abbrev main_cst_381 : Ref sig .tc := ⟨.hbm, 3109, rfl⟩
abbrev main_v2717 : Ref sig .tc := ⟨.hbm, 3110, rfl⟩
abbrev main_v2718 : Ref sig .tc := ⟨.hbm, 3111, rfl⟩
abbrev main_v2719 : Ref sig .tc := ⟨.hbm, 3112, rfl⟩
abbrev main_v2720 : Ref sig .tc := ⟨.hbm, 3113, rfl⟩
abbrev main_v2721 : Ref sig .tc := ⟨.hbm, 3114, rfl⟩
abbrev main_v2722 : Ref sig .tc := ⟨.hbm, 3115, rfl⟩
abbrev main_v2723 : Ref sig .tc := ⟨.hbm, 3116, rfl⟩
abbrev main_v2724 : Ref sig .tc := ⟨.hbm, 3117, rfl⟩
abbrev main_v2725 : Ref sig .tc := ⟨.hbm, 3118, rfl⟩
abbrev main_cst_382 : Ref sig .tc := ⟨.hbm, 3119, rfl⟩
abbrev main_v2726 : Ref sig .tc := ⟨.hbm, 3120, rfl⟩
abbrev main_v2727 : Ref sig .tc := ⟨.hbm, 3121, rfl⟩
abbrev main_v2728 : Ref sig .tc := ⟨.hbm, 3122, rfl⟩
abbrev main_v2729 : Ref sig .tc := ⟨.hbm, 3123, rfl⟩
abbrev main_v2730 : Ref sig .tc := ⟨.hbm, 3124, rfl⟩
abbrev main_c_383 : Ref sig .tc := ⟨.hbm, 3125, rfl⟩
abbrev main_v2731 : Ref sig .tc := ⟨.hbm, 3126, rfl⟩
abbrev main_v2732 : Ref sig .tc := ⟨.hbm, 3127, rfl⟩
abbrev main_v2733 : Ref sig .tc := ⟨.hbm, 3128, rfl⟩
abbrev main_v2734 : Ref sig .tc := ⟨.hbm, 3129, rfl⟩
abbrev main_v2735 : Ref sig .tc := ⟨.hbm, 3130, rfl⟩
abbrev main_v2736 : Ref sig .tc := ⟨.hbm, 3131, rfl⟩
abbrev main_v2737 : Ref sig .tc := ⟨.hbm, 3132, rfl⟩
abbrev main_v2738 : Ref sig .tc := ⟨.hbm, 3133, rfl⟩
abbrev main_cst_384 : Ref sig .tc := ⟨.hbm, 3134, rfl⟩
abbrev main_v2739 : Ref sig .tc := ⟨.hbm, 3135, rfl⟩
abbrev main_v2740 : Ref sig .tc := ⟨.hbm, 3136, rfl⟩
abbrev main_v2741 : Ref sig .tc := ⟨.hbm, 3137, rfl⟩
abbrev main_v2742 : Ref sig .tc := ⟨.hbm, 3138, rfl⟩
abbrev main_v2743 : Ref sig .tc := ⟨.hbm, 3139, rfl⟩
abbrev main_v2744 : Ref sig .tc := ⟨.hbm, 3140, rfl⟩
abbrev main_v2745 : Ref sig .tc := ⟨.hbm, 3141, rfl⟩
abbrev main_v2746 : Ref sig .tc := ⟨.hbm, 3142, rfl⟩
abbrev main_v2747 : Ref sig .tc := ⟨.hbm, 3143, rfl⟩
abbrev main_cst_385 : Ref sig .tc := ⟨.hbm, 3144, rfl⟩
abbrev main_v2748 : Ref sig .tc := ⟨.hbm, 3145, rfl⟩
abbrev main_v2749 : Ref sig .tc := ⟨.hbm, 3146, rfl⟩
abbrev main_v2750 : Ref sig .tc := ⟨.hbm, 3147, rfl⟩
abbrev main_v2751 : Ref sig .tc := ⟨.hbm, 3148, rfl⟩
abbrev main_v2752 : Ref sig .tc := ⟨.hbm, 3149, rfl⟩
abbrev main_c_386 : Ref sig .tc := ⟨.hbm, 3150, rfl⟩
abbrev main_v2753 : Ref sig .tc := ⟨.hbm, 3151, rfl⟩
abbrev main_v2754 : Ref sig .tc := ⟨.hbm, 3152, rfl⟩
abbrev main_v2755 : Ref sig .tc := ⟨.hbm, 3153, rfl⟩
abbrev main_v2756 : Ref sig .tc := ⟨.hbm, 3154, rfl⟩
abbrev main_v2757 : Ref sig .tc := ⟨.hbm, 3155, rfl⟩
abbrev main_v2758 : Ref sig .tc := ⟨.hbm, 3156, rfl⟩
abbrev main_v2759 : Ref sig .tc := ⟨.hbm, 3157, rfl⟩
abbrev main_v2760 : Ref sig .tc := ⟨.hbm, 3158, rfl⟩
abbrev main_cst_387 : Ref sig .tc := ⟨.hbm, 3159, rfl⟩
abbrev main_v2761 : Ref sig .tc := ⟨.hbm, 3160, rfl⟩
abbrev main_v2762 : Ref sig .tc := ⟨.hbm, 3161, rfl⟩
abbrev main_v2763 : Ref sig .tc := ⟨.hbm, 3162, rfl⟩
abbrev main_v2764 : Ref sig .tc := ⟨.hbm, 3163, rfl⟩
abbrev main_v2765 : Ref sig .tc := ⟨.hbm, 3164, rfl⟩
abbrev main_v2766 : Ref sig .tc := ⟨.hbm, 3165, rfl⟩
abbrev main_v2767 : Ref sig .tc := ⟨.hbm, 3166, rfl⟩
abbrev main_v2768 : Ref sig .tc := ⟨.hbm, 3167, rfl⟩
abbrev main_v2769 : Ref sig .tc := ⟨.hbm, 3168, rfl⟩
abbrev main_cst_388 : Ref sig .tc := ⟨.hbm, 3169, rfl⟩
abbrev main_v2770 : Ref sig .tc := ⟨.hbm, 3170, rfl⟩
abbrev main_v2771 : Ref sig .tc := ⟨.hbm, 3171, rfl⟩
abbrev main_v2772 : Ref sig .tc := ⟨.hbm, 3172, rfl⟩
abbrev main_v2773 : Ref sig .tc := ⟨.hbm, 3173, rfl⟩
abbrev main_v2774 : Ref sig .tc := ⟨.hbm, 3174, rfl⟩
abbrev main_c_389 : Ref sig .tc := ⟨.hbm, 3175, rfl⟩
abbrev main_v2775 : Ref sig .tc := ⟨.hbm, 3176, rfl⟩
abbrev main_v2776 : Ref sig .tc := ⟨.hbm, 3177, rfl⟩
abbrev main_v2777 : Ref sig .tc := ⟨.hbm, 3178, rfl⟩
abbrev main_v2778 : Ref sig .tc := ⟨.hbm, 3179, rfl⟩
abbrev main_v2779 : Ref sig .tc := ⟨.hbm, 3180, rfl⟩
abbrev main_v2780 : Ref sig .tc := ⟨.hbm, 3181, rfl⟩
abbrev main_v2781 : Ref sig .tc := ⟨.hbm, 3182, rfl⟩
abbrev main_v2782 : Ref sig .tc := ⟨.hbm, 3183, rfl⟩
abbrev main_v2783 : Ref sig .tc := ⟨.hbm, 3184, rfl⟩
abbrev main_v2784 : Ref sig .tc := ⟨.hbm, 3185, rfl⟩
abbrev main_v2785 : Ref sig .tc := ⟨.hbm, 3186, rfl⟩
abbrev main_v2786 : Ref sig .tc := ⟨.hbm, 3187, rfl⟩
abbrev main_v2787 : Ref sig .tc := ⟨.hbm, 3188, rfl⟩
abbrev main_v2788 : Ref sig .tc := ⟨.hbm, 3189, rfl⟩
abbrev main_v2789 : Ref sig .tc := ⟨.hbm, 3190, rfl⟩
abbrev main_v2790 : Ref sig .tc := ⟨.hbm, 3191, rfl⟩
abbrev main_v2791 : Ref sig .tc := ⟨.hbm, 3192, rfl⟩
abbrev main_v2792 : Ref sig .tc := ⟨.hbm, 3193, rfl⟩
abbrev main_v2793 : Ref sig .tc := ⟨.hbm, 3194, rfl⟩
abbrev main_v2794 : Ref sig .tc := ⟨.hbm, 3195, rfl⟩
abbrev main_v2795 : Ref sig .tc := ⟨.hbm, 3196, rfl⟩
abbrev main_v2796 : Ref sig .tc := ⟨.hbm, 3197, rfl⟩
abbrev main_v2797 : Ref sig .tc := ⟨.hbm, 3198, rfl⟩
abbrev main_v2798 : Ref sig .tc := ⟨.hbm, 3199, rfl⟩
abbrev main_v2799 : Ref sig .tc := ⟨.hbm, 3200, rfl⟩
abbrev main_v2800 : Ref sig .tc := ⟨.hbm, 3201, rfl⟩
abbrev main_v2801 : Ref sig .tc := ⟨.hbm, 3202, rfl⟩
abbrev main_v2802 : Ref sig .tc := ⟨.hbm, 3203, rfl⟩
abbrev main_cst_390 : Ref sig .tc := ⟨.hbm, 3204, rfl⟩
abbrev main_v2803 : Ref sig .tc := ⟨.hbm, 3205, rfl⟩
abbrev main_cst_391 : Ref sig .tc := ⟨.hbm, 3206, rfl⟩
abbrev main_v2804 : Ref sig .tc := ⟨.hbm, 3207, rfl⟩
abbrev main_v2805 : Ref sig .tc := ⟨.hbm, 3208, rfl⟩
abbrev main_v2806 : Ref sig .tc := ⟨.hbm, 3209, rfl⟩
abbrev main_v2807 : Ref sig .tc := ⟨.hbm, 3210, rfl⟩
abbrev main_v2808 : Ref sig .tc := ⟨.hbm, 3211, rfl⟩
abbrev main_v2809 : Ref sig .tc := ⟨.hbm, 3212, rfl⟩
abbrev main_v2810 : Ref sig .tc := ⟨.hbm, 3213, rfl⟩
abbrev main_v2811 : Ref sig .tc := ⟨.hbm, 3214, rfl⟩
abbrev main_v2812 : Ref sig .tc := ⟨.hbm, 3215, rfl⟩
abbrev main_v2813 : Ref sig .tc := ⟨.hbm, 3216, rfl⟩
abbrev main_v2814 : Ref sig .tc := ⟨.hbm, 3217, rfl⟩
abbrev main_cst_392 : Ref sig .tc := ⟨.hbm, 3218, rfl⟩
abbrev main_v2815 : Ref sig .tc := ⟨.hbm, 3219, rfl⟩
abbrev main_v2816 : Ref sig .tc := ⟨.hbm, 3220, rfl⟩
abbrev main_v2817 : Ref sig .tc := ⟨.hbm, 3221, rfl⟩
abbrev main_v2818 : Ref sig .tc := ⟨.hbm, 3222, rfl⟩
abbrev main_v2819 : Ref sig .tc := ⟨.hbm, 3223, rfl⟩
abbrev main_v2820 : Ref sig .tc := ⟨.hbm, 3224, rfl⟩
abbrev main_v2821 : Ref sig .tc := ⟨.hbm, 3225, rfl⟩
abbrev main_v2822 : Ref sig .tc := ⟨.hbm, 3226, rfl⟩
abbrev main_v2823 : Ref sig .tc := ⟨.hbm, 3227, rfl⟩
abbrev main_cst_393 : Ref sig .tc := ⟨.hbm, 3228, rfl⟩
abbrev main_v2824 : Ref sig .tc := ⟨.hbm, 3229, rfl⟩
abbrev main_v2825 : Ref sig .tc := ⟨.hbm, 3230, rfl⟩
abbrev main_v2826 : Ref sig .tc := ⟨.hbm, 3231, rfl⟩
abbrev main_v2827 : Ref sig .tc := ⟨.hbm, 3232, rfl⟩
abbrev main_v2828 : Ref sig .tc := ⟨.hbm, 3233, rfl⟩
abbrev main_c_394 : Ref sig .tc := ⟨.hbm, 3234, rfl⟩
abbrev main_v2829 : Ref sig .tc := ⟨.hbm, 3235, rfl⟩
abbrev main_v2830 : Ref sig .tc := ⟨.hbm, 3236, rfl⟩
abbrev main_v2831 : Ref sig .tc := ⟨.hbm, 3237, rfl⟩
abbrev main_v2832 : Ref sig .tc := ⟨.hbm, 3238, rfl⟩
abbrev main_v2833 : Ref sig .tc := ⟨.hbm, 3239, rfl⟩
abbrev main_v2834 : Ref sig .tc := ⟨.hbm, 3240, rfl⟩
abbrev main_v2835 : Ref sig .tc := ⟨.hbm, 3241, rfl⟩
abbrev main_v2836 : Ref sig .tc := ⟨.hbm, 3242, rfl⟩
abbrev main_cst_395 : Ref sig .tc := ⟨.hbm, 3243, rfl⟩
abbrev main_v2837 : Ref sig .tc := ⟨.hbm, 3244, rfl⟩
abbrev main_v2838 : Ref sig .tc := ⟨.hbm, 3245, rfl⟩
abbrev main_v2839 : Ref sig .tc := ⟨.hbm, 3246, rfl⟩
abbrev main_v2840 : Ref sig .tc := ⟨.hbm, 3247, rfl⟩
abbrev main_v2841 : Ref sig .tc := ⟨.hbm, 3248, rfl⟩
abbrev main_v2842 : Ref sig .tc := ⟨.hbm, 3249, rfl⟩
abbrev main_v2843 : Ref sig .tc := ⟨.hbm, 3250, rfl⟩
abbrev main_v2844 : Ref sig .tc := ⟨.hbm, 3251, rfl⟩
abbrev main_v2845 : Ref sig .tc := ⟨.hbm, 3252, rfl⟩
abbrev main_cst_396 : Ref sig .tc := ⟨.hbm, 3253, rfl⟩
abbrev main_v2846 : Ref sig .tc := ⟨.hbm, 3254, rfl⟩
abbrev main_v2847 : Ref sig .tc := ⟨.hbm, 3255, rfl⟩
abbrev main_v2848 : Ref sig .tc := ⟨.hbm, 3256, rfl⟩
abbrev main_v2849 : Ref sig .tc := ⟨.hbm, 3257, rfl⟩
abbrev main_v2850 : Ref sig .tc := ⟨.hbm, 3258, rfl⟩
abbrev main_c_397 : Ref sig .tc := ⟨.hbm, 3259, rfl⟩
abbrev main_v2851 : Ref sig .tc := ⟨.hbm, 3260, rfl⟩
abbrev main_v2852 : Ref sig .tc := ⟨.hbm, 3261, rfl⟩
abbrev main_v2853 : Ref sig .tc := ⟨.hbm, 3262, rfl⟩
abbrev main_v2854 : Ref sig .tc := ⟨.hbm, 3263, rfl⟩
abbrev main_v2855 : Ref sig .tc := ⟨.hbm, 3264, rfl⟩
abbrev main_v2856 : Ref sig .tc := ⟨.hbm, 3265, rfl⟩
abbrev main_v2857 : Ref sig .tc := ⟨.hbm, 3266, rfl⟩
abbrev main_v2858 : Ref sig .tc := ⟨.hbm, 3267, rfl⟩
abbrev main_cst_398 : Ref sig .tc := ⟨.hbm, 3268, rfl⟩
abbrev main_v2859 : Ref sig .tc := ⟨.hbm, 3269, rfl⟩
abbrev main_v2860 : Ref sig .tc := ⟨.hbm, 3270, rfl⟩
abbrev main_v2861 : Ref sig .tc := ⟨.hbm, 3271, rfl⟩
abbrev main_v2862 : Ref sig .tc := ⟨.hbm, 3272, rfl⟩
abbrev main_v2863 : Ref sig .tc := ⟨.hbm, 3273, rfl⟩
abbrev main_v2864 : Ref sig .tc := ⟨.hbm, 3274, rfl⟩
abbrev main_v2865 : Ref sig .tc := ⟨.hbm, 3275, rfl⟩
abbrev main_v2866 : Ref sig .tc := ⟨.hbm, 3276, rfl⟩
abbrev main_v2867 : Ref sig .tc := ⟨.hbm, 3277, rfl⟩
abbrev main_cst_399 : Ref sig .tc := ⟨.hbm, 3278, rfl⟩
abbrev main_v2868 : Ref sig .tc := ⟨.hbm, 3279, rfl⟩
abbrev main_v2869 : Ref sig .tc := ⟨.hbm, 3280, rfl⟩
abbrev main_v2870 : Ref sig .tc := ⟨.hbm, 3281, rfl⟩
abbrev main_v2871 : Ref sig .tc := ⟨.hbm, 3282, rfl⟩
abbrev main_v2872 : Ref sig .tc := ⟨.hbm, 3283, rfl⟩
abbrev main_c_400 : Ref sig .tc := ⟨.hbm, 3284, rfl⟩
abbrev main_v2873 : Ref sig .tc := ⟨.hbm, 3285, rfl⟩
abbrev main_v2874 : Ref sig .tc := ⟨.hbm, 3286, rfl⟩
abbrev main_v2875 : Ref sig .tc := ⟨.hbm, 3287, rfl⟩
abbrev main_v2876 : Ref sig .tc := ⟨.hbm, 3288, rfl⟩
abbrev main_v2877 : Ref sig .tc := ⟨.hbm, 3289, rfl⟩
abbrev main_v2878 : Ref sig .tc := ⟨.hbm, 3290, rfl⟩
abbrev main_v2879 : Ref sig .tc := ⟨.hbm, 3291, rfl⟩
abbrev main_v2880 : Ref sig .tc := ⟨.hbm, 3292, rfl⟩
abbrev main_cst_401 : Ref sig .tc := ⟨.hbm, 3293, rfl⟩
abbrev main_v2881 : Ref sig .tc := ⟨.hbm, 3294, rfl⟩
abbrev main_v2882 : Ref sig .tc := ⟨.hbm, 3295, rfl⟩
abbrev main_v2883 : Ref sig .tc := ⟨.hbm, 3296, rfl⟩
abbrev main_v2884 : Ref sig .tc := ⟨.hbm, 3297, rfl⟩
abbrev main_v2885 : Ref sig .tc := ⟨.hbm, 3298, rfl⟩
abbrev main_v2886 : Ref sig .tc := ⟨.hbm, 3299, rfl⟩
abbrev main_v2887 : Ref sig .tc := ⟨.hbm, 3300, rfl⟩
abbrev main_v2888 : Ref sig .tc := ⟨.hbm, 3301, rfl⟩
abbrev main_v2889 : Ref sig .tc := ⟨.hbm, 3302, rfl⟩
abbrev main_cst_402 : Ref sig .tc := ⟨.hbm, 3303, rfl⟩
abbrev main_v2890 : Ref sig .tc := ⟨.hbm, 3304, rfl⟩
abbrev main_v2891 : Ref sig .tc := ⟨.hbm, 3305, rfl⟩
abbrev main_v2892 : Ref sig .tc := ⟨.hbm, 3306, rfl⟩
abbrev main_v2893 : Ref sig .tc := ⟨.hbm, 3307, rfl⟩
abbrev main_v2894 : Ref sig .tc := ⟨.hbm, 3308, rfl⟩
abbrev main_c_403 : Ref sig .tc := ⟨.hbm, 3309, rfl⟩
abbrev main_v2895 : Ref sig .tc := ⟨.hbm, 3310, rfl⟩
abbrev main_v2896 : Ref sig .tc := ⟨.hbm, 3311, rfl⟩
abbrev main_v2897 : Ref sig .tc := ⟨.hbm, 3312, rfl⟩
abbrev main_v2898 : Ref sig .tc := ⟨.hbm, 3313, rfl⟩
abbrev main_cst_404 : Ref sig .tc := ⟨.hbm, 3314, rfl⟩
abbrev main_v2899 : Ref sig .tc := ⟨.hbm, 3315, rfl⟩
abbrev main_v2900 : Ref sig .tc := ⟨.hbm, 3316, rfl⟩
abbrev main_v2901 : Ref sig .tc := ⟨.hbm, 3317, rfl⟩
abbrev main_c_405 : Ref sig .tc := ⟨.hbm, 3318, rfl⟩
abbrev main_v2902 : Ref sig .tc := ⟨.hbm, 3319, rfl⟩
abbrev main_v2903 : Ref sig .tc := ⟨.hbm, 3320, rfl⟩
abbrev main_cst_406 : Ref sig .tc := ⟨.hbm, 3321, rfl⟩
abbrev main_v2904 : Ref sig .tc := ⟨.hbm, 3322, rfl⟩
abbrev main_cst_407 : Ref sig .tc := ⟨.hbm, 3323, rfl⟩
abbrev main_v2905 : Ref sig .tc := ⟨.hbm, 3324, rfl⟩
abbrev main_v2906 : Ref sig .tc := ⟨.hbm, 3325, rfl⟩
abbrev main_v2907 : Ref sig .tc := ⟨.hbm, 3326, rfl⟩
abbrev main_v2908 : Ref sig .tc := ⟨.hbm, 3327, rfl⟩
abbrev main_v2909 : Ref sig .tc := ⟨.hbm, 3328, rfl⟩
abbrev main_v2910 : Ref sig .tc := ⟨.hbm, 3329, rfl⟩
abbrev main_v2911 : Ref sig .tc := ⟨.hbm, 3330, rfl⟩
abbrev main_v2912 : Ref sig .tc := ⟨.hbm, 3331, rfl⟩
abbrev main_v2913 : Ref sig .tc := ⟨.hbm, 3332, rfl⟩
abbrev main_v2914 : Ref sig .tc := ⟨.hbm, 3333, rfl⟩
abbrev main_v2915 : Ref sig .tc := ⟨.hbm, 3334, rfl⟩
abbrev main_v2916 : Ref sig .tc := ⟨.hbm, 3335, rfl⟩
abbrev main_v2917 : Ref sig .tc := ⟨.hbm, 3336, rfl⟩
abbrev main_cst_408 : Ref sig .tc := ⟨.hbm, 3337, rfl⟩
abbrev main_v2918 : Ref sig .tc := ⟨.hbm, 3338, rfl⟩
abbrev main_cst_409 : Ref sig .tc := ⟨.hbm, 3339, rfl⟩
abbrev main_v2919 : Ref sig .tc := ⟨.hbm, 3340, rfl⟩
abbrev main_v2920 : Ref sig .tc := ⟨.hbm, 3341, rfl⟩
abbrev main_v2921 : Ref sig .tc := ⟨.hbm, 3342, rfl⟩
abbrev main_v2922 : Ref sig .tc := ⟨.hbm, 3343, rfl⟩
abbrev main_v2923 : Ref sig .tc := ⟨.hbm, 3344, rfl⟩
abbrev main_v2924 : Ref sig .tc := ⟨.hbm, 3345, rfl⟩
abbrev main_v2925 : Ref sig .tc := ⟨.hbm, 3346, rfl⟩
abbrev main_cst_410 : Ref sig .tc := ⟨.hbm, 3347, rfl⟩
abbrev main_v2926 : Ref sig .tc := ⟨.hbm, 3348, rfl⟩
abbrev main_v2927 : Ref sig .tc := ⟨.hbm, 3349, rfl⟩
abbrev main_v2928 : Ref sig .tc := ⟨.hbm, 3350, rfl⟩
abbrev main_c_411 : Ref sig .tc := ⟨.hbm, 3351, rfl⟩
abbrev main_v2929 : Ref sig .tc := ⟨.hbm, 3352, rfl⟩
abbrev main_v2930 : Ref sig .tc := ⟨.hbm, 3353, rfl⟩
abbrev main_v2931 : Ref sig .tc := ⟨.hbm, 3354, rfl⟩
abbrev main_v2932 : Ref sig .tc := ⟨.hbm, 3355, rfl⟩
abbrev main_v2933 : Ref sig .tc := ⟨.hbm, 3356, rfl⟩
abbrev main_v2934 : Ref sig .tc := ⟨.hbm, 3357, rfl⟩
abbrev main_v2935 : Ref sig .tc := ⟨.hbm, 3358, rfl⟩
abbrev main_v2936 : Ref sig .tc := ⟨.hbm, 3359, rfl⟩
abbrev main_cst_412 : Ref sig .tc := ⟨.hbm, 3360, rfl⟩
abbrev main_v2937 : Ref sig .tc := ⟨.hbm, 3361, rfl⟩
abbrev main_v2938 : Ref sig .tc := ⟨.hbm, 3362, rfl⟩
abbrev main_v2939 : Ref sig .tc := ⟨.hbm, 3363, rfl⟩
abbrev main_v2940 : Ref sig .tc := ⟨.hbm, 3364, rfl⟩
abbrev main_v2941 : Ref sig .tc := ⟨.hbm, 3365, rfl⟩
abbrev main_v2942 : Ref sig .tc := ⟨.hbm, 3366, rfl⟩
abbrev main_v2943 : Ref sig .tc := ⟨.hbm, 3367, rfl⟩
abbrev main_v2944 : Ref sig .tc := ⟨.hbm, 3368, rfl⟩
abbrev main_v2945 : Ref sig .tc := ⟨.hbm, 3369, rfl⟩
abbrev main_cst_413 : Ref sig .tc := ⟨.hbm, 3370, rfl⟩
abbrev main_v2946 : Ref sig .tc := ⟨.hbm, 3371, rfl⟩
abbrev main_v2947 : Ref sig .tc := ⟨.hbm, 3372, rfl⟩
abbrev main_v2948 : Ref sig .tc := ⟨.hbm, 3373, rfl⟩
abbrev main_v2949 : Ref sig .tc := ⟨.hbm, 3374, rfl⟩
abbrev main_v2950 : Ref sig .tc := ⟨.hbm, 3375, rfl⟩
abbrev main_c_414 : Ref sig .tc := ⟨.hbm, 3376, rfl⟩
abbrev main_v2951 : Ref sig .tc := ⟨.hbm, 3377, rfl⟩
abbrev main_v2952 : Ref sig .tc := ⟨.hbm, 3378, rfl⟩
abbrev main_v2953 : Ref sig .tc := ⟨.hbm, 3379, rfl⟩
abbrev main_v2954 : Ref sig .tc := ⟨.hbm, 3380, rfl⟩
abbrev main_v2955 : Ref sig .tc := ⟨.hbm, 3381, rfl⟩
abbrev main_v2956 : Ref sig .tc := ⟨.hbm, 3382, rfl⟩
abbrev main_v2957 : Ref sig .tc := ⟨.hbm, 3383, rfl⟩
abbrev main_v2958 : Ref sig .tc := ⟨.hbm, 3384, rfl⟩
abbrev main_cst_415 : Ref sig .tc := ⟨.hbm, 3385, rfl⟩
abbrev main_v2959 : Ref sig .tc := ⟨.hbm, 3386, rfl⟩
abbrev main_v2960 : Ref sig .tc := ⟨.hbm, 3387, rfl⟩
abbrev main_v2961 : Ref sig .tc := ⟨.hbm, 3388, rfl⟩
abbrev main_v2962 : Ref sig .tc := ⟨.hbm, 3389, rfl⟩
abbrev main_v2963 : Ref sig .tc := ⟨.hbm, 3390, rfl⟩
abbrev main_v2964 : Ref sig .tc := ⟨.hbm, 3391, rfl⟩
abbrev main_v2965 : Ref sig .tc := ⟨.hbm, 3392, rfl⟩
abbrev main_v2966 : Ref sig .tc := ⟨.hbm, 3393, rfl⟩
abbrev main_v2967 : Ref sig .tc := ⟨.hbm, 3394, rfl⟩
abbrev main_cst_416 : Ref sig .tc := ⟨.hbm, 3395, rfl⟩
abbrev main_v2968 : Ref sig .tc := ⟨.hbm, 3396, rfl⟩
abbrev main_v2969 : Ref sig .tc := ⟨.hbm, 3397, rfl⟩
abbrev main_v2970 : Ref sig .tc := ⟨.hbm, 3398, rfl⟩
abbrev main_v2971 : Ref sig .tc := ⟨.hbm, 3399, rfl⟩
abbrev main_v2972 : Ref sig .tc := ⟨.hbm, 3400, rfl⟩
abbrev main_c_417 : Ref sig .tc := ⟨.hbm, 3401, rfl⟩
abbrev main_v2973 : Ref sig .tc := ⟨.hbm, 3402, rfl⟩
abbrev main_v2974 : Ref sig .tc := ⟨.hbm, 3403, rfl⟩
abbrev main_v2975 : Ref sig .tc := ⟨.hbm, 3404, rfl⟩
abbrev main_v2976 : Ref sig .tc := ⟨.hbm, 3405, rfl⟩
abbrev main_v2977 : Ref sig .tc := ⟨.hbm, 3406, rfl⟩
abbrev main_v2978 : Ref sig .tc := ⟨.hbm, 3407, rfl⟩
abbrev main_v2979 : Ref sig .tc := ⟨.hbm, 3408, rfl⟩
abbrev main_v2980 : Ref sig .tc := ⟨.hbm, 3409, rfl⟩
abbrev main_cst_418 : Ref sig .tc := ⟨.hbm, 3410, rfl⟩
abbrev main_v2981 : Ref sig .tc := ⟨.hbm, 3411, rfl⟩
abbrev main_v2982 : Ref sig .tc := ⟨.hbm, 3412, rfl⟩
abbrev main_v2983 : Ref sig .tc := ⟨.hbm, 3413, rfl⟩
abbrev main_v2984 : Ref sig .tc := ⟨.hbm, 3414, rfl⟩
abbrev main_v2985 : Ref sig .tc := ⟨.hbm, 3415, rfl⟩
abbrev main_v2986 : Ref sig .tc := ⟨.hbm, 3416, rfl⟩
abbrev main_v2987 : Ref sig .tc := ⟨.hbm, 3417, rfl⟩
abbrev main_v2988 : Ref sig .tc := ⟨.hbm, 3418, rfl⟩
abbrev main_v2989 : Ref sig .tc := ⟨.hbm, 3419, rfl⟩
abbrev main_cst_419 : Ref sig .tc := ⟨.hbm, 3420, rfl⟩
abbrev main_v2990 : Ref sig .tc := ⟨.hbm, 3421, rfl⟩
abbrev main_v2991 : Ref sig .tc := ⟨.hbm, 3422, rfl⟩
abbrev main_v2992 : Ref sig .tc := ⟨.hbm, 3423, rfl⟩
abbrev main_v2993 : Ref sig .tc := ⟨.hbm, 3424, rfl⟩
abbrev main_v2994 : Ref sig .tc := ⟨.hbm, 3425, rfl⟩
abbrev main_c_420 : Ref sig .tc := ⟨.hbm, 3426, rfl⟩
abbrev main_v2995 : Ref sig .tc := ⟨.hbm, 3427, rfl⟩
abbrev main_v2996 : Ref sig .tc := ⟨.hbm, 3428, rfl⟩
abbrev main_v2997 : Ref sig .tc := ⟨.hbm, 3429, rfl⟩
abbrev main_v2998 : Ref sig .tc := ⟨.hbm, 3430, rfl⟩
abbrev main_v2999 : Ref sig .tc := ⟨.hbm, 3431, rfl⟩
abbrev main_v3000 : Ref sig .tc := ⟨.hbm, 3432, rfl⟩
abbrev main_v3001 : Ref sig .tc := ⟨.hbm, 3433, rfl⟩
abbrev main_v3002 : Ref sig .tc := ⟨.hbm, 3434, rfl⟩
abbrev main_cst_421 : Ref sig .tc := ⟨.hbm, 3435, rfl⟩
abbrev main_v3003 : Ref sig .tc := ⟨.hbm, 3436, rfl⟩
abbrev main_v3004 : Ref sig .tc := ⟨.hbm, 3437, rfl⟩
abbrev main_v3005 : Ref sig .tc := ⟨.hbm, 3438, rfl⟩
abbrev main_v3006 : Ref sig .tc := ⟨.hbm, 3439, rfl⟩
abbrev main_v3007 : Ref sig .tc := ⟨.hbm, 3440, rfl⟩
abbrev main_v3008 : Ref sig .tc := ⟨.hbm, 3441, rfl⟩
abbrev main_v3009 : Ref sig .tc := ⟨.hbm, 3442, rfl⟩
abbrev main_v3010 : Ref sig .tc := ⟨.hbm, 3443, rfl⟩
abbrev main_v3011 : Ref sig .tc := ⟨.hbm, 3444, rfl⟩
abbrev main_cst_422 : Ref sig .tc := ⟨.hbm, 3445, rfl⟩
abbrev main_v3012 : Ref sig .tc := ⟨.hbm, 3446, rfl⟩
abbrev main_v3013 : Ref sig .tc := ⟨.hbm, 3447, rfl⟩
abbrev main_v3014 : Ref sig .tc := ⟨.hbm, 3448, rfl⟩
abbrev main_v3015 : Ref sig .tc := ⟨.hbm, 3449, rfl⟩
abbrev main_v3016 : Ref sig .tc := ⟨.hbm, 3450, rfl⟩
abbrev main_c_423 : Ref sig .tc := ⟨.hbm, 3451, rfl⟩
abbrev main_v3017 : Ref sig .tc := ⟨.hbm, 3452, rfl⟩
abbrev main_v3018 : Ref sig .tc := ⟨.hbm, 3453, rfl⟩
abbrev main_v3019 : Ref sig .tc := ⟨.hbm, 3454, rfl⟩
abbrev main_v3020 : Ref sig .tc := ⟨.hbm, 3455, rfl⟩
abbrev main_v3021 : Ref sig .tc := ⟨.hbm, 3456, rfl⟩
abbrev main_v3022 : Ref sig .tc := ⟨.hbm, 3457, rfl⟩
abbrev main_v3023 : Ref sig .tc := ⟨.hbm, 3458, rfl⟩
abbrev main_v3024 : Ref sig .tc := ⟨.hbm, 3459, rfl⟩
abbrev main_v3025 : Ref sig .tc := ⟨.hbm, 3460, rfl⟩
abbrev main_v3026 : Ref sig .tc := ⟨.hbm, 3461, rfl⟩
abbrev main_v3027 : Ref sig .tc := ⟨.hbm, 3462, rfl⟩
abbrev main_v3028 : Ref sig .tc := ⟨.hbm, 3463, rfl⟩
abbrev main_v3029 : Ref sig .tc := ⟨.hbm, 3464, rfl⟩
abbrev main_v3030 : Ref sig .tc := ⟨.hbm, 3465, rfl⟩
abbrev main_v3031 : Ref sig .tc := ⟨.hbm, 3466, rfl⟩
abbrev main_v3032 : Ref sig .tc := ⟨.hbm, 3467, rfl⟩
abbrev main_v3033 : Ref sig .tc := ⟨.hbm, 3468, rfl⟩
abbrev main_v3034 : Ref sig .tc := ⟨.hbm, 3469, rfl⟩
abbrev main_v3035 : Ref sig .tc := ⟨.hbm, 3470, rfl⟩
abbrev main_v3036 : Ref sig .tc := ⟨.hbm, 3471, rfl⟩
abbrev main_v3037 : Ref sig .tc := ⟨.hbm, 3472, rfl⟩
abbrev main_v3038 : Ref sig .tc := ⟨.hbm, 3473, rfl⟩
abbrev main_v3039 : Ref sig .tc := ⟨.hbm, 3474, rfl⟩
abbrev main_v3040 : Ref sig .tc := ⟨.hbm, 3475, rfl⟩
abbrev main_v3041 : Ref sig .tc := ⟨.hbm, 3476, rfl⟩
abbrev main_v3042 : Ref sig .tc := ⟨.hbm, 3477, rfl⟩
abbrev main_v3043 : Ref sig .tc := ⟨.hbm, 3478, rfl⟩
abbrev main_v3044 : Ref sig .tc := ⟨.hbm, 3479, rfl⟩
abbrev main_cst_424 : Ref sig .tc := ⟨.hbm, 3480, rfl⟩
abbrev main_v3045 : Ref sig .tc := ⟨.hbm, 3481, rfl⟩
abbrev main_cst_425 : Ref sig .tc := ⟨.hbm, 3482, rfl⟩
abbrev main_v3046 : Ref sig .tc := ⟨.hbm, 3483, rfl⟩
abbrev main_v3047 : Ref sig .tc := ⟨.hbm, 3484, rfl⟩
abbrev main_v3048 : Ref sig .tc := ⟨.hbm, 3485, rfl⟩
abbrev main_v3049 : Ref sig .tc := ⟨.hbm, 3486, rfl⟩
abbrev main_v3050 : Ref sig .tc := ⟨.hbm, 3487, rfl⟩
abbrev main_v3051 : Ref sig .tc := ⟨.hbm, 3488, rfl⟩
abbrev main_v3052 : Ref sig .tc := ⟨.hbm, 3489, rfl⟩
abbrev main_v3053 : Ref sig .tc := ⟨.hbm, 3490, rfl⟩
abbrev main_v3054 : Ref sig .tc := ⟨.hbm, 3491, rfl⟩
abbrev main_v3055 : Ref sig .tc := ⟨.hbm, 3492, rfl⟩
abbrev main_v3056 : Ref sig .tc := ⟨.hbm, 3493, rfl⟩
abbrev main_cst_426 : Ref sig .tc := ⟨.hbm, 3494, rfl⟩
abbrev main_v3057 : Ref sig .tc := ⟨.hbm, 3495, rfl⟩
abbrev main_v3058 : Ref sig .tc := ⟨.hbm, 3496, rfl⟩
abbrev main_v3059 : Ref sig .tc := ⟨.hbm, 3497, rfl⟩
abbrev main_v3060 : Ref sig .tc := ⟨.hbm, 3498, rfl⟩
abbrev main_v3061 : Ref sig .tc := ⟨.hbm, 3499, rfl⟩
abbrev main_v3062 : Ref sig .tc := ⟨.hbm, 3500, rfl⟩
abbrev main_v3063 : Ref sig .tc := ⟨.hbm, 3501, rfl⟩
abbrev main_v3064 : Ref sig .tc := ⟨.hbm, 3502, rfl⟩
abbrev main_v3065 : Ref sig .tc := ⟨.hbm, 3503, rfl⟩
abbrev main_cst_427 : Ref sig .tc := ⟨.hbm, 3504, rfl⟩
abbrev main_v3066 : Ref sig .tc := ⟨.hbm, 3505, rfl⟩
abbrev main_v3067 : Ref sig .tc := ⟨.hbm, 3506, rfl⟩
abbrev main_v3068 : Ref sig .tc := ⟨.hbm, 3507, rfl⟩
abbrev main_v3069 : Ref sig .tc := ⟨.hbm, 3508, rfl⟩
abbrev main_v3070 : Ref sig .tc := ⟨.hbm, 3509, rfl⟩
abbrev main_c_428 : Ref sig .tc := ⟨.hbm, 3510, rfl⟩
abbrev main_v3071 : Ref sig .tc := ⟨.hbm, 3511, rfl⟩
abbrev main_v3072 : Ref sig .tc := ⟨.hbm, 3512, rfl⟩
abbrev main_v3073 : Ref sig .tc := ⟨.hbm, 3513, rfl⟩
abbrev main_v3074 : Ref sig .tc := ⟨.hbm, 3514, rfl⟩
abbrev main_v3075 : Ref sig .tc := ⟨.hbm, 3515, rfl⟩
abbrev main_v3076 : Ref sig .tc := ⟨.hbm, 3516, rfl⟩
abbrev main_v3077 : Ref sig .tc := ⟨.hbm, 3517, rfl⟩
abbrev main_v3078 : Ref sig .tc := ⟨.hbm, 3518, rfl⟩
abbrev main_cst_429 : Ref sig .tc := ⟨.hbm, 3519, rfl⟩
abbrev main_v3079 : Ref sig .tc := ⟨.hbm, 3520, rfl⟩
abbrev main_v3080 : Ref sig .tc := ⟨.hbm, 3521, rfl⟩
abbrev main_v3081 : Ref sig .tc := ⟨.hbm, 3522, rfl⟩
abbrev main_v3082 : Ref sig .tc := ⟨.hbm, 3523, rfl⟩
abbrev main_v3083 : Ref sig .tc := ⟨.hbm, 3524, rfl⟩
abbrev main_v3084 : Ref sig .tc := ⟨.hbm, 3525, rfl⟩
abbrev main_v3085 : Ref sig .tc := ⟨.hbm, 3526, rfl⟩
abbrev main_v3086 : Ref sig .tc := ⟨.hbm, 3527, rfl⟩
abbrev main_v3087 : Ref sig .tc := ⟨.hbm, 3528, rfl⟩
abbrev main_cst_430 : Ref sig .tc := ⟨.hbm, 3529, rfl⟩
abbrev main_v3088 : Ref sig .tc := ⟨.hbm, 3530, rfl⟩
abbrev main_v3089 : Ref sig .tc := ⟨.hbm, 3531, rfl⟩
abbrev main_v3090 : Ref sig .tc := ⟨.hbm, 3532, rfl⟩
abbrev main_v3091 : Ref sig .tc := ⟨.hbm, 3533, rfl⟩
abbrev main_v3092 : Ref sig .tc := ⟨.hbm, 3534, rfl⟩
abbrev main_c_431 : Ref sig .tc := ⟨.hbm, 3535, rfl⟩
abbrev main_v3093 : Ref sig .tc := ⟨.hbm, 3536, rfl⟩
abbrev main_v3094 : Ref sig .tc := ⟨.hbm, 3537, rfl⟩
abbrev main_v3095 : Ref sig .tc := ⟨.hbm, 3538, rfl⟩
abbrev main_v3096 : Ref sig .tc := ⟨.hbm, 3539, rfl⟩
abbrev main_v3097 : Ref sig .tc := ⟨.hbm, 3540, rfl⟩
abbrev main_v3098 : Ref sig .tc := ⟨.hbm, 3541, rfl⟩
abbrev main_v3099 : Ref sig .tc := ⟨.hbm, 3542, rfl⟩
abbrev main_v3100 : Ref sig .tc := ⟨.hbm, 3543, rfl⟩
abbrev main_cst_432 : Ref sig .tc := ⟨.hbm, 3544, rfl⟩
abbrev main_v3101 : Ref sig .tc := ⟨.hbm, 3545, rfl⟩
abbrev main_v3102 : Ref sig .tc := ⟨.hbm, 3546, rfl⟩
abbrev main_v3103 : Ref sig .tc := ⟨.hbm, 3547, rfl⟩
abbrev main_v3104 : Ref sig .tc := ⟨.hbm, 3548, rfl⟩
abbrev main_v3105 : Ref sig .tc := ⟨.hbm, 3549, rfl⟩
abbrev main_v3106 : Ref sig .tc := ⟨.hbm, 3550, rfl⟩
abbrev main_v3107 : Ref sig .tc := ⟨.hbm, 3551, rfl⟩
abbrev main_v3108 : Ref sig .tc := ⟨.hbm, 3552, rfl⟩
abbrev main_v3109 : Ref sig .tc := ⟨.hbm, 3553, rfl⟩
abbrev main_cst_433 : Ref sig .tc := ⟨.hbm, 3554, rfl⟩
abbrev main_v3110 : Ref sig .tc := ⟨.hbm, 3555, rfl⟩
abbrev main_v3111 : Ref sig .tc := ⟨.hbm, 3556, rfl⟩
abbrev main_v3112 : Ref sig .tc := ⟨.hbm, 3557, rfl⟩
abbrev main_v3113 : Ref sig .tc := ⟨.hbm, 3558, rfl⟩
abbrev main_v3114 : Ref sig .tc := ⟨.hbm, 3559, rfl⟩
abbrev main_c_434 : Ref sig .tc := ⟨.hbm, 3560, rfl⟩
abbrev main_v3115 : Ref sig .tc := ⟨.hbm, 3561, rfl⟩
abbrev main_v3116 : Ref sig .tc := ⟨.hbm, 3562, rfl⟩
abbrev main_v3117 : Ref sig .tc := ⟨.hbm, 3563, rfl⟩
abbrev main_v3118 : Ref sig .tc := ⟨.hbm, 3564, rfl⟩
abbrev main_v3119 : Ref sig .tc := ⟨.hbm, 3565, rfl⟩
abbrev main_v3120 : Ref sig .tc := ⟨.hbm, 3566, rfl⟩
abbrev main_v3121 : Ref sig .tc := ⟨.hbm, 3567, rfl⟩
abbrev main_v3122 : Ref sig .tc := ⟨.hbm, 3568, rfl⟩
abbrev main_cst_435 : Ref sig .tc := ⟨.hbm, 3569, rfl⟩
abbrev main_v3123 : Ref sig .tc := ⟨.hbm, 3570, rfl⟩
abbrev main_v3124 : Ref sig .tc := ⟨.hbm, 3571, rfl⟩
abbrev main_v3125 : Ref sig .tc := ⟨.hbm, 3572, rfl⟩
abbrev main_v3126 : Ref sig .tc := ⟨.hbm, 3573, rfl⟩
abbrev main_v3127 : Ref sig .tc := ⟨.hbm, 3574, rfl⟩
abbrev main_v3128 : Ref sig .tc := ⟨.hbm, 3575, rfl⟩
abbrev main_v3129 : Ref sig .tc := ⟨.hbm, 3576, rfl⟩
abbrev main_v3130 : Ref sig .tc := ⟨.hbm, 3577, rfl⟩
abbrev main_v3131 : Ref sig .tc := ⟨.hbm, 3578, rfl⟩
abbrev main_cst_436 : Ref sig .tc := ⟨.hbm, 3579, rfl⟩
abbrev main_v3132 : Ref sig .tc := ⟨.hbm, 3580, rfl⟩
abbrev main_v3133 : Ref sig .tc := ⟨.hbm, 3581, rfl⟩
abbrev main_v3134 : Ref sig .tc := ⟨.hbm, 3582, rfl⟩
abbrev main_v3135 : Ref sig .tc := ⟨.hbm, 3583, rfl⟩
abbrev main_v3136 : Ref sig .tc := ⟨.hbm, 3584, rfl⟩
abbrev main_c_437 : Ref sig .tc := ⟨.hbm, 3585, rfl⟩
abbrev main_v3137 : Ref sig .tc := ⟨.hbm, 3586, rfl⟩
abbrev main_v3138 : Ref sig .tc := ⟨.hbm, 3587, rfl⟩
abbrev main_v3139 : Ref sig .tc := ⟨.hbm, 3588, rfl⟩
abbrev main_v3140 : Ref sig .tc := ⟨.hbm, 3589, rfl⟩
abbrev main_cst_438 : Ref sig .tc := ⟨.hbm, 3590, rfl⟩
abbrev main_v3141 : Ref sig .tc := ⟨.hbm, 3591, rfl⟩
abbrev main_v3142 : Ref sig .tc := ⟨.hbm, 3592, rfl⟩
abbrev main_v3143 : Ref sig .tc := ⟨.hbm, 3593, rfl⟩
abbrev main_c_439 : Ref sig .tc := ⟨.hbm, 3594, rfl⟩
abbrev main_v3144 : Ref sig .tc := ⟨.hbm, 3595, rfl⟩
abbrev main_v3145 : Ref sig .tc := ⟨.hbm, 3596, rfl⟩
abbrev main_cst_440 : Ref sig .tc := ⟨.hbm, 3597, rfl⟩
abbrev main_v3146 : Ref sig .tc := ⟨.hbm, 3598, rfl⟩
abbrev main_cst_441 : Ref sig .tc := ⟨.hbm, 3599, rfl⟩
abbrev main_v3147 : Ref sig .tc := ⟨.hbm, 3600, rfl⟩
abbrev main_v3148 : Ref sig .tc := ⟨.hbm, 3601, rfl⟩
abbrev main_v3149 : Ref sig .tc := ⟨.hbm, 3602, rfl⟩
abbrev main_v3150 : Ref sig .tc := ⟨.hbm, 3603, rfl⟩
abbrev main_v3151 : Ref sig .tc := ⟨.hbm, 3604, rfl⟩
abbrev main_v3152 : Ref sig .tc := ⟨.hbm, 3605, rfl⟩
abbrev main_v3153 : Ref sig .tc := ⟨.hbm, 3606, rfl⟩
abbrev main_v3154 : Ref sig .tc := ⟨.hbm, 3607, rfl⟩
abbrev main_v3155 : Ref sig .tc := ⟨.hbm, 3608, rfl⟩
abbrev main_v3156 : Ref sig .tc := ⟨.hbm, 3609, rfl⟩
abbrev main_v3157 : Ref sig .tc := ⟨.hbm, 3610, rfl⟩
abbrev main_v3158 : Ref sig .tc := ⟨.hbm, 3611, rfl⟩
abbrev main_v3159 : Ref sig .tc := ⟨.hbm, 3612, rfl⟩
abbrev main_cst_442 : Ref sig .tc := ⟨.hbm, 3613, rfl⟩
abbrev main_v3160 : Ref sig .tc := ⟨.hbm, 3614, rfl⟩
abbrev main_cst_443 : Ref sig .tc := ⟨.hbm, 3615, rfl⟩
abbrev main_v3161 : Ref sig .tc := ⟨.hbm, 3616, rfl⟩
abbrev main_v3162 : Ref sig .tc := ⟨.hbm, 3617, rfl⟩
abbrev main_v3163 : Ref sig .tc := ⟨.hbm, 3618, rfl⟩
abbrev main_v3164 : Ref sig .tc := ⟨.hbm, 3619, rfl⟩
abbrev main_v3165 : Ref sig .tc := ⟨.hbm, 3620, rfl⟩
abbrev main_v3166 : Ref sig .tc := ⟨.hbm, 3621, rfl⟩
abbrev main_v3167 : Ref sig .tc := ⟨.hbm, 3622, rfl⟩
abbrev main_cst_444 : Ref sig .tc := ⟨.hbm, 3623, rfl⟩
abbrev main_v3168 : Ref sig .tc := ⟨.hbm, 3624, rfl⟩
abbrev main_v3169 : Ref sig .tc := ⟨.hbm, 3625, rfl⟩
abbrev main_v3170 : Ref sig .tc := ⟨.hbm, 3626, rfl⟩
abbrev main_c_445 : Ref sig .tc := ⟨.hbm, 3627, rfl⟩
abbrev main_v3171 : Ref sig .tc := ⟨.hbm, 3628, rfl⟩
abbrev main_v3172 : Ref sig .tc := ⟨.hbm, 3629, rfl⟩
abbrev main_v3173 : Ref sig .tc := ⟨.hbm, 3630, rfl⟩
abbrev main_v3174 : Ref sig .tc := ⟨.hbm, 3631, rfl⟩
abbrev main_v3175 : Ref sig .tc := ⟨.hbm, 3632, rfl⟩
abbrev main_v3176 : Ref sig .tc := ⟨.hbm, 3633, rfl⟩
abbrev main_v3177 : Ref sig .tc := ⟨.hbm, 3634, rfl⟩
abbrev main_v3178 : Ref sig .tc := ⟨.hbm, 3635, rfl⟩
abbrev main_cst_446 : Ref sig .tc := ⟨.hbm, 3636, rfl⟩
abbrev main_v3179 : Ref sig .tc := ⟨.hbm, 3637, rfl⟩
abbrev main_v3180 : Ref sig .tc := ⟨.hbm, 3638, rfl⟩
abbrev main_v3181 : Ref sig .tc := ⟨.hbm, 3639, rfl⟩
abbrev main_v3182 : Ref sig .tc := ⟨.hbm, 3640, rfl⟩
abbrev main_v3183 : Ref sig .tc := ⟨.hbm, 3641, rfl⟩
abbrev main_v3184 : Ref sig .tc := ⟨.hbm, 3642, rfl⟩
abbrev main_v3185 : Ref sig .tc := ⟨.hbm, 3643, rfl⟩
abbrev main_v3186 : Ref sig .tc := ⟨.hbm, 3644, rfl⟩
abbrev main_v3187 : Ref sig .tc := ⟨.hbm, 3645, rfl⟩
abbrev main_cst_447 : Ref sig .tc := ⟨.hbm, 3646, rfl⟩
abbrev main_v3188 : Ref sig .tc := ⟨.hbm, 3647, rfl⟩
abbrev main_v3189 : Ref sig .tc := ⟨.hbm, 3648, rfl⟩
abbrev main_v3190 : Ref sig .tc := ⟨.hbm, 3649, rfl⟩
abbrev main_v3191 : Ref sig .tc := ⟨.hbm, 3650, rfl⟩
abbrev main_v3192 : Ref sig .tc := ⟨.hbm, 3651, rfl⟩
abbrev main_c_448 : Ref sig .tc := ⟨.hbm, 3652, rfl⟩
abbrev main_v3193 : Ref sig .tc := ⟨.hbm, 3653, rfl⟩
abbrev main_v3194 : Ref sig .tc := ⟨.hbm, 3654, rfl⟩
abbrev main_v3195 : Ref sig .tc := ⟨.hbm, 3655, rfl⟩
abbrev main_v3196 : Ref sig .tc := ⟨.hbm, 3656, rfl⟩
abbrev main_v3197 : Ref sig .tc := ⟨.hbm, 3657, rfl⟩
abbrev main_v3198 : Ref sig .tc := ⟨.hbm, 3658, rfl⟩
abbrev main_v3199 : Ref sig .tc := ⟨.hbm, 3659, rfl⟩
abbrev main_v3200 : Ref sig .tc := ⟨.hbm, 3660, rfl⟩
abbrev main_cst_449 : Ref sig .tc := ⟨.hbm, 3661, rfl⟩
abbrev main_v3201 : Ref sig .tc := ⟨.hbm, 3662, rfl⟩
abbrev main_v3202 : Ref sig .tc := ⟨.hbm, 3663, rfl⟩
abbrev main_v3203 : Ref sig .tc := ⟨.hbm, 3664, rfl⟩
abbrev main_v3204 : Ref sig .tc := ⟨.hbm, 3665, rfl⟩
abbrev main_v3205 : Ref sig .tc := ⟨.hbm, 3666, rfl⟩
abbrev main_v3206 : Ref sig .tc := ⟨.hbm, 3667, rfl⟩
abbrev main_v3207 : Ref sig .tc := ⟨.hbm, 3668, rfl⟩
abbrev main_v3208 : Ref sig .tc := ⟨.hbm, 3669, rfl⟩
abbrev main_v3209 : Ref sig .tc := ⟨.hbm, 3670, rfl⟩
abbrev main_cst_450 : Ref sig .tc := ⟨.hbm, 3671, rfl⟩
abbrev main_v3210 : Ref sig .tc := ⟨.hbm, 3672, rfl⟩
abbrev main_v3211 : Ref sig .tc := ⟨.hbm, 3673, rfl⟩
abbrev main_v3212 : Ref sig .tc := ⟨.hbm, 3674, rfl⟩
abbrev main_v3213 : Ref sig .tc := ⟨.hbm, 3675, rfl⟩
abbrev main_v3214 : Ref sig .tc := ⟨.hbm, 3676, rfl⟩
abbrev main_c_451 : Ref sig .tc := ⟨.hbm, 3677, rfl⟩
abbrev main_v3215 : Ref sig .tc := ⟨.hbm, 3678, rfl⟩
abbrev main_v3216 : Ref sig .tc := ⟨.hbm, 3679, rfl⟩
abbrev main_v3217 : Ref sig .tc := ⟨.hbm, 3680, rfl⟩
abbrev main_v3218 : Ref sig .tc := ⟨.hbm, 3681, rfl⟩
abbrev main_v3219 : Ref sig .tc := ⟨.hbm, 3682, rfl⟩
abbrev main_v3220 : Ref sig .tc := ⟨.hbm, 3683, rfl⟩
abbrev main_v3221 : Ref sig .tc := ⟨.hbm, 3684, rfl⟩
abbrev main_v3222 : Ref sig .tc := ⟨.hbm, 3685, rfl⟩
abbrev main_cst_452 : Ref sig .tc := ⟨.hbm, 3686, rfl⟩
abbrev main_v3223 : Ref sig .tc := ⟨.hbm, 3687, rfl⟩
abbrev main_v3224 : Ref sig .tc := ⟨.hbm, 3688, rfl⟩
abbrev main_v3225 : Ref sig .tc := ⟨.hbm, 3689, rfl⟩
abbrev main_v3226 : Ref sig .tc := ⟨.hbm, 3690, rfl⟩
abbrev main_v3227 : Ref sig .tc := ⟨.hbm, 3691, rfl⟩
abbrev main_v3228 : Ref sig .tc := ⟨.hbm, 3692, rfl⟩
abbrev main_v3229 : Ref sig .tc := ⟨.hbm, 3693, rfl⟩
abbrev main_v3230 : Ref sig .tc := ⟨.hbm, 3694, rfl⟩
abbrev main_v3231 : Ref sig .tc := ⟨.hbm, 3695, rfl⟩
abbrev main_cst_453 : Ref sig .tc := ⟨.hbm, 3696, rfl⟩
abbrev main_v3232 : Ref sig .tc := ⟨.hbm, 3697, rfl⟩
abbrev main_v3233 : Ref sig .tc := ⟨.hbm, 3698, rfl⟩
abbrev main_v3234 : Ref sig .tc := ⟨.hbm, 3699, rfl⟩
abbrev main_v3235 : Ref sig .tc := ⟨.hbm, 3700, rfl⟩
abbrev main_v3236 : Ref sig .tc := ⟨.hbm, 3701, rfl⟩
abbrev main_c_454 : Ref sig .tc := ⟨.hbm, 3702, rfl⟩
abbrev main_v3237 : Ref sig .tc := ⟨.hbm, 3703, rfl⟩
abbrev main_v3238 : Ref sig .tc := ⟨.hbm, 3704, rfl⟩
abbrev main_v3239 : Ref sig .tc := ⟨.hbm, 3705, rfl⟩
abbrev main_v3240 : Ref sig .tc := ⟨.hbm, 3706, rfl⟩
abbrev main_v3241 : Ref sig .tc := ⟨.hbm, 3707, rfl⟩
abbrev main_v3242 : Ref sig .tc := ⟨.hbm, 3708, rfl⟩
abbrev main_v3243 : Ref sig .tc := ⟨.hbm, 3709, rfl⟩
abbrev main_v3244 : Ref sig .tc := ⟨.hbm, 3710, rfl⟩
abbrev main_cst_455 : Ref sig .tc := ⟨.hbm, 3711, rfl⟩
abbrev main_v3245 : Ref sig .tc := ⟨.hbm, 3712, rfl⟩
abbrev main_v3246 : Ref sig .tc := ⟨.hbm, 3713, rfl⟩
abbrev main_v3247 : Ref sig .tc := ⟨.hbm, 3714, rfl⟩
abbrev main_v3248 : Ref sig .tc := ⟨.hbm, 3715, rfl⟩
abbrev main_v3249 : Ref sig .tc := ⟨.hbm, 3716, rfl⟩
abbrev main_v3250 : Ref sig .tc := ⟨.hbm, 3717, rfl⟩
abbrev main_v3251 : Ref sig .tc := ⟨.hbm, 3718, rfl⟩
abbrev main_v3252 : Ref sig .tc := ⟨.hbm, 3719, rfl⟩
abbrev main_v3253 : Ref sig .tc := ⟨.hbm, 3720, rfl⟩
abbrev main_cst_456 : Ref sig .tc := ⟨.hbm, 3721, rfl⟩
abbrev main_v3254 : Ref sig .tc := ⟨.hbm, 3722, rfl⟩
abbrev main_v3255 : Ref sig .tc := ⟨.hbm, 3723, rfl⟩
abbrev main_v3256 : Ref sig .tc := ⟨.hbm, 3724, rfl⟩
abbrev main_v3257 : Ref sig .tc := ⟨.hbm, 3725, rfl⟩
abbrev main_v3258 : Ref sig .tc := ⟨.hbm, 3726, rfl⟩
abbrev main_c_457 : Ref sig .tc := ⟨.hbm, 3727, rfl⟩
abbrev main_v3259 : Ref sig .tc := ⟨.hbm, 3728, rfl⟩
abbrev main_v3260 : Ref sig .tc := ⟨.hbm, 3729, rfl⟩
abbrev main_v3261 : Ref sig .tc := ⟨.hbm, 3730, rfl⟩
abbrev main_v3262 : Ref sig .tc := ⟨.hbm, 3731, rfl⟩
abbrev main_v3263 : Ref sig .tc := ⟨.hbm, 3732, rfl⟩
abbrev main_v3264 : Ref sig .tc := ⟨.hbm, 3733, rfl⟩
abbrev main_v3265 : Ref sig .tc := ⟨.hbm, 3734, rfl⟩
abbrev main_v3266 : Ref sig .tc := ⟨.hbm, 3735, rfl⟩
abbrev main_v3267 : Ref sig .tc := ⟨.hbm, 3736, rfl⟩
abbrev main_v3268 : Ref sig .tc := ⟨.hbm, 3737, rfl⟩
abbrev main_v3269 : Ref sig .tc := ⟨.hbm, 3738, rfl⟩
abbrev main_v3270 : Ref sig .tc := ⟨.hbm, 3739, rfl⟩
abbrev main_v3271 : Ref sig .tc := ⟨.hbm, 3740, rfl⟩
abbrev main_v3272 : Ref sig .tc := ⟨.hbm, 3741, rfl⟩
abbrev main_v3273 : Ref sig .tc := ⟨.hbm, 3742, rfl⟩
abbrev main_v3274 : Ref sig .tc := ⟨.hbm, 3743, rfl⟩
abbrev main_v3275 : Ref sig .tc := ⟨.hbm, 3744, rfl⟩
abbrev main_v3276 : Ref sig .tc := ⟨.hbm, 3745, rfl⟩
abbrev main_v3277 : Ref sig .tc := ⟨.hbm, 3746, rfl⟩
abbrev main_v3278 : Ref sig .tc := ⟨.hbm, 3747, rfl⟩
abbrev main_v3279 : Ref sig .tc := ⟨.hbm, 3748, rfl⟩
abbrev main_v3280 : Ref sig .tc := ⟨.hbm, 3749, rfl⟩
abbrev main_v3281 : Ref sig .tc := ⟨.hbm, 3750, rfl⟩
abbrev main_v3282 : Ref sig .tc := ⟨.hbm, 3751, rfl⟩
abbrev main_v3283 : Ref sig .tc := ⟨.hbm, 3752, rfl⟩
abbrev main_v3284 : Ref sig .tc := ⟨.hbm, 3753, rfl⟩
abbrev main_v3285 : Ref sig .tc := ⟨.hbm, 3754, rfl⟩
abbrev main_v3286 : Ref sig .tc := ⟨.hbm, 3755, rfl⟩
abbrev main_cst_458 : Ref sig .tc := ⟨.hbm, 3756, rfl⟩
abbrev main_v3287 : Ref sig .tc := ⟨.hbm, 3757, rfl⟩
abbrev main_cst_459 : Ref sig .tc := ⟨.hbm, 3758, rfl⟩
abbrev main_v3288 : Ref sig .tc := ⟨.hbm, 3759, rfl⟩
abbrev main_v3289 : Ref sig .tc := ⟨.hbm, 3760, rfl⟩
abbrev main_v3290 : Ref sig .tc := ⟨.hbm, 3761, rfl⟩
abbrev main_v3291 : Ref sig .tc := ⟨.hbm, 3762, rfl⟩
abbrev main_v3292 : Ref sig .tc := ⟨.hbm, 3763, rfl⟩
abbrev main_v3293 : Ref sig .tc := ⟨.hbm, 3764, rfl⟩
abbrev main_v3294 : Ref sig .tc := ⟨.hbm, 3765, rfl⟩
abbrev main_v3295 : Ref sig .tc := ⟨.hbm, 3766, rfl⟩
abbrev main_v3296 : Ref sig .tc := ⟨.hbm, 3767, rfl⟩
abbrev main_v3297 : Ref sig .tc := ⟨.hbm, 3768, rfl⟩
abbrev main_v3298 : Ref sig .tc := ⟨.hbm, 3769, rfl⟩
abbrev main_cst_460 : Ref sig .tc := ⟨.hbm, 3770, rfl⟩
abbrev main_v3299 : Ref sig .tc := ⟨.hbm, 3771, rfl⟩
abbrev main_v3300 : Ref sig .tc := ⟨.hbm, 3772, rfl⟩
abbrev main_v3301 : Ref sig .tc := ⟨.hbm, 3773, rfl⟩
abbrev main_v3302 : Ref sig .tc := ⟨.hbm, 3774, rfl⟩
abbrev main_v3303 : Ref sig .tc := ⟨.hbm, 3775, rfl⟩
abbrev main_v3304 : Ref sig .tc := ⟨.hbm, 3776, rfl⟩
abbrev main_v3305 : Ref sig .tc := ⟨.hbm, 3777, rfl⟩
abbrev main_v3306 : Ref sig .tc := ⟨.hbm, 3778, rfl⟩
abbrev main_v3307 : Ref sig .tc := ⟨.hbm, 3779, rfl⟩
abbrev main_cst_461 : Ref sig .tc := ⟨.hbm, 3780, rfl⟩
abbrev main_v3308 : Ref sig .tc := ⟨.hbm, 3781, rfl⟩
abbrev main_v3309 : Ref sig .tc := ⟨.hbm, 3782, rfl⟩
abbrev main_v3310 : Ref sig .tc := ⟨.hbm, 3783, rfl⟩
abbrev main_v3311 : Ref sig .tc := ⟨.hbm, 3784, rfl⟩
abbrev main_v3312 : Ref sig .tc := ⟨.hbm, 3785, rfl⟩
abbrev main_c_462 : Ref sig .tc := ⟨.hbm, 3786, rfl⟩
abbrev main_v3313 : Ref sig .tc := ⟨.hbm, 3787, rfl⟩
abbrev main_v3314 : Ref sig .tc := ⟨.hbm, 3788, rfl⟩
abbrev main_v3315 : Ref sig .tc := ⟨.hbm, 3789, rfl⟩
abbrev main_v3316 : Ref sig .tc := ⟨.hbm, 3790, rfl⟩
abbrev main_v3317 : Ref sig .tc := ⟨.hbm, 3791, rfl⟩
abbrev main_v3318 : Ref sig .tc := ⟨.hbm, 3792, rfl⟩
abbrev main_v3319 : Ref sig .tc := ⟨.hbm, 3793, rfl⟩
abbrev main_v3320 : Ref sig .tc := ⟨.hbm, 3794, rfl⟩
abbrev main_cst_463 : Ref sig .tc := ⟨.hbm, 3795, rfl⟩
abbrev main_v3321 : Ref sig .tc := ⟨.hbm, 3796, rfl⟩
abbrev main_v3322 : Ref sig .tc := ⟨.hbm, 3797, rfl⟩
abbrev main_v3323 : Ref sig .tc := ⟨.hbm, 3798, rfl⟩
abbrev main_v3324 : Ref sig .tc := ⟨.hbm, 3799, rfl⟩
abbrev main_v3325 : Ref sig .tc := ⟨.hbm, 3800, rfl⟩
abbrev main_v3326 : Ref sig .tc := ⟨.hbm, 3801, rfl⟩
abbrev main_v3327 : Ref sig .tc := ⟨.hbm, 3802, rfl⟩
abbrev main_v3328 : Ref sig .tc := ⟨.hbm, 3803, rfl⟩
abbrev main_v3329 : Ref sig .tc := ⟨.hbm, 3804, rfl⟩
abbrev main_cst_464 : Ref sig .tc := ⟨.hbm, 3805, rfl⟩
abbrev main_v3330 : Ref sig .tc := ⟨.hbm, 3806, rfl⟩
abbrev main_v3331 : Ref sig .tc := ⟨.hbm, 3807, rfl⟩
abbrev main_v3332 : Ref sig .tc := ⟨.hbm, 3808, rfl⟩
abbrev main_v3333 : Ref sig .tc := ⟨.hbm, 3809, rfl⟩
abbrev main_v3334 : Ref sig .tc := ⟨.hbm, 3810, rfl⟩
abbrev main_c_465 : Ref sig .tc := ⟨.hbm, 3811, rfl⟩
abbrev main_v3335 : Ref sig .tc := ⟨.hbm, 3812, rfl⟩
abbrev main_v3336 : Ref sig .tc := ⟨.hbm, 3813, rfl⟩
abbrev main_v3337 : Ref sig .tc := ⟨.hbm, 3814, rfl⟩
abbrev main_v3338 : Ref sig .tc := ⟨.hbm, 3815, rfl⟩
abbrev main_v3339 : Ref sig .tc := ⟨.hbm, 3816, rfl⟩
abbrev main_v3340 : Ref sig .tc := ⟨.hbm, 3817, rfl⟩
abbrev main_v3341 : Ref sig .tc := ⟨.hbm, 3818, rfl⟩
abbrev main_v3342 : Ref sig .tc := ⟨.hbm, 3819, rfl⟩
abbrev main_cst_466 : Ref sig .tc := ⟨.hbm, 3820, rfl⟩
abbrev main_v3343 : Ref sig .tc := ⟨.hbm, 3821, rfl⟩
abbrev main_v3344 : Ref sig .tc := ⟨.hbm, 3822, rfl⟩
abbrev main_v3345 : Ref sig .tc := ⟨.hbm, 3823, rfl⟩
abbrev main_v3346 : Ref sig .tc := ⟨.hbm, 3824, rfl⟩
abbrev main_v3347 : Ref sig .tc := ⟨.hbm, 3825, rfl⟩
abbrev main_v3348 : Ref sig .tc := ⟨.hbm, 3826, rfl⟩
abbrev main_v3349 : Ref sig .tc := ⟨.hbm, 3827, rfl⟩
abbrev main_v3350 : Ref sig .tc := ⟨.hbm, 3828, rfl⟩
abbrev main_v3351 : Ref sig .tc := ⟨.hbm, 3829, rfl⟩
abbrev main_cst_467 : Ref sig .tc := ⟨.hbm, 3830, rfl⟩
abbrev main_v3352 : Ref sig .tc := ⟨.hbm, 3831, rfl⟩
abbrev main_v3353 : Ref sig .tc := ⟨.hbm, 3832, rfl⟩
abbrev main_v3354 : Ref sig .tc := ⟨.hbm, 3833, rfl⟩
abbrev main_v3355 : Ref sig .tc := ⟨.hbm, 3834, rfl⟩
abbrev main_v3356 : Ref sig .tc := ⟨.hbm, 3835, rfl⟩
abbrev main_c_468 : Ref sig .tc := ⟨.hbm, 3836, rfl⟩
abbrev main_v3357 : Ref sig .tc := ⟨.hbm, 3837, rfl⟩
abbrev main_v3358 : Ref sig .tc := ⟨.hbm, 3838, rfl⟩
abbrev main_v3359 : Ref sig .tc := ⟨.hbm, 3839, rfl⟩
abbrev main_v3360 : Ref sig .tc := ⟨.hbm, 3840, rfl⟩
abbrev main_v3361 : Ref sig .tc := ⟨.hbm, 3841, rfl⟩
abbrev main_v3362 : Ref sig .tc := ⟨.hbm, 3842, rfl⟩
abbrev main_v3363 : Ref sig .tc := ⟨.hbm, 3843, rfl⟩
abbrev main_v3364 : Ref sig .tc := ⟨.hbm, 3844, rfl⟩
abbrev main_cst_469 : Ref sig .tc := ⟨.hbm, 3845, rfl⟩
abbrev main_v3365 : Ref sig .tc := ⟨.hbm, 3846, rfl⟩
abbrev main_v3366 : Ref sig .tc := ⟨.hbm, 3847, rfl⟩
abbrev main_v3367 : Ref sig .tc := ⟨.hbm, 3848, rfl⟩
abbrev main_v3368 : Ref sig .tc := ⟨.hbm, 3849, rfl⟩
abbrev main_v3369 : Ref sig .tc := ⟨.hbm, 3850, rfl⟩
abbrev main_v3370 : Ref sig .tc := ⟨.hbm, 3851, rfl⟩
abbrev main_v3371 : Ref sig .tc := ⟨.hbm, 3852, rfl⟩
abbrev main_v3372 : Ref sig .tc := ⟨.hbm, 3853, rfl⟩
abbrev main_v3373 : Ref sig .tc := ⟨.hbm, 3854, rfl⟩
abbrev main_cst_470 : Ref sig .tc := ⟨.hbm, 3855, rfl⟩
abbrev main_v3374 : Ref sig .tc := ⟨.hbm, 3856, rfl⟩
abbrev main_v3375 : Ref sig .tc := ⟨.hbm, 3857, rfl⟩
abbrev main_v3376 : Ref sig .tc := ⟨.hbm, 3858, rfl⟩
abbrev main_v3377 : Ref sig .tc := ⟨.hbm, 3859, rfl⟩
abbrev main_v3378 : Ref sig .tc := ⟨.hbm, 3860, rfl⟩
abbrev main_c_471 : Ref sig .tc := ⟨.hbm, 3861, rfl⟩
abbrev main_v3379 : Ref sig .tc := ⟨.hbm, 3862, rfl⟩
abbrev main_v3380 : Ref sig .tc := ⟨.hbm, 3863, rfl⟩
abbrev main_v3381 : Ref sig .tc := ⟨.hbm, 3864, rfl⟩
abbrev main_v3382 : Ref sig .tc := ⟨.hbm, 3865, rfl⟩
abbrev main_cst_472 : Ref sig .tc := ⟨.hbm, 3866, rfl⟩
abbrev main_v3383 : Ref sig .tc := ⟨.hbm, 3867, rfl⟩
abbrev main_v3384 : Ref sig .tc := ⟨.hbm, 3868, rfl⟩
abbrev main_v3385 : Ref sig .tc := ⟨.hbm, 3869, rfl⟩
abbrev main_c_473 : Ref sig .tc := ⟨.hbm, 3870, rfl⟩
abbrev main_v3386 : Ref sig .tc := ⟨.hbm, 3871, rfl⟩
abbrev main_v3387 : Ref sig .tc := ⟨.hbm, 3872, rfl⟩

abbrev nD : Nat := 1
abbrev τ : Topo := Topo.v7x

variable {F : FTy → Type} [FloatOps F]

class Facts₀ : Prop where
  bcast_S_S32 : S_.BroadcastsInDim S32 (![] : Fin 0 → Fin S32.rank)
  slices_S32x5_S32x4_0_0 : S32x5.Slices ![0, 0] S32x4
  bcast_S32_S32x1_0 : S32.BroadcastsInDim S32x1 (![0] : Fin 1 → Fin S32x1.rank)
  bcast_S32x1_S32x4_0_1 : S32x1.BroadcastsInDim S32x4 (![0, 1] : Fin 2 → Fin S32x4.rank)
  bcast_S32x131072_S32x131072x1_0_1 : S32x131072.BroadcastsInDim S32x131072x1 (![0, 1] : Fin 2 → Fin S32x131072x1.rank)
  bcast_S32x131072x1_S32x131072x3_0_1_2 : S32x131072x1.BroadcastsInDim S32x131072x3 (![0, 1, 2] : Fin 3 → Fin S32x131072x3.rank)
  reducesTo_S32x131072x3_S32_d1_2 : S32x131072x3.ReducesTo [1, 2] S32
  h_S_ : 0 < S_.numel
  concatenates_S32x1_S32x4_S32x5_d1 : Shape.Concatenates [S32x1, S32x4] S32x5 1
  slices_S32x5_S32x1_0_4 : S32x5.Slices ![0, 4] S32x1
  shapeCasts_S32x1_S32 : S32x1.ShapeCasts S32
  bcast_S_S1 : S_.BroadcastsInDim S1 (![] : Fin 0 → Fin S1.rank)
  slices_S32x5_S32x1_0_3 : S32x5.Slices ![0, 3] S32x1
  slices_S32x5_S32x1_0_2 : S32x5.Slices ![0, 2] S32x1
  slices_S32x5_S32x1_0_1 : S32x5.Slices ![0, 1] S32x1
  slices_S32x5_S32x1_0_0 : S32x5.Slices ![0, 0] S32x1
  bcast_S32x1_S32x5_0_1 : S32x1.BroadcastsInDim S32x5 (![0, 1] : Fin 2 → Fin S32x5.rank)
  bcast_S32_S32x1x1_0 : S32.BroadcastsInDim S32x1x1 (![0] : Fin 1 → Fin S32x1x1.rank)
  bcast_S32x1x1_S32x131072x3_0_1_2 : S32x1x1.BroadcastsInDim S32x131072x3 (![0, 1, 2] : Fin 3 → Fin S32x131072x3.rank)
  scatter_S32x5_S1_S32_0_1_1_0_wf : ScatterDims.WF S32x5 S1 S32 [0] [1] [1] 0

variable [Facts₀]

def scatter_S32x5_S1_S32_0_1_1_0 : ScatterDims S32x5 S1 S32 where
  updateWindowDims := [0]
  insertedWindowDims := [1]
  scatterDimsToOperandDims := [1]
  indexVectorDim := 0
  wf := scatter_S32x5_S1_S32_0_1_1_0_wf

class Facts : Prop extends Facts₀ where

variable [Facts]
-- ==== Proof.KHost.lean ====
import proofs.«156042_j46600395162250_1_alg».proof.Proof.Gen.Kernel.Launch
import proofs.«156042_j46600395162250_1_alg».proof.Proof.Gen.Kernel.Skeleton
import proofs.«156042_j46600395162250_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- deciding that two of the 143 references differ, and walking the 111-operation list before the region, recurse
-- deeper than the default allows
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- What core `c`'s TensorCore buffers hold at the moment the region starts: the launched memory `m` carried through
    the 111 host operations that come first. -/
abbrev V0 (c : Dev nD) : Valuation τ sig (Elt F) := StableHlo.after (List.flatten [hostOps0]) (fun b => m (c, b))
/-- `V0` looked up at one TensorCore reference. -/
abbrev V (c : Dev nD) (b : Ref sig .tc) : Buf (Elt F) ((c : Thread nD τ).loc b) := V0 m c (Proc.devRef .tc b)

/-- The host operations before the region allocate no buffer. -/
theorem hostOps0_fresh : (hostOps0 : List (HloOp τ sig (Elt F))).Forall fun op => op.fresh = ∅ := by
  simp only [List.Forall]; repeat' constructor
/-- Nor do the three after it. -/
theorem hostOps1_fresh : (hostOps1 : List (HloOp τ sig (Elt F))).Forall fun op => op.fresh = ∅ := by
  simp only [List.Forall]; repeat' constructor

/-- The program is: host operations, the region, host operations. Running it from `m` therefore comes down to running
    the region from `V`, continued by the three closing reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every buffer a closing reshape touches is an unscoped TensorCore reference; with nothing prefetched, each of those
    is either one of the region's arrays or a buffer the region leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- The closing reshapes allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each closing reshape writes its own result (`main_v81`, `main_v82`, `main_v83`), and none of those is the array
    of any of the ten windows. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The nine arguments are written by no host operation -/

/-- None of the 111 operations before the region has `main_arg0` as its result, so the region meets it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg0` is no window's array and no closing reshape's result, so after the whole program it is still as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- None of the 111 operations before the region has `main_arg1` as its result, so the region meets it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg1` is no window's array and no closing reshape's result, so after the whole program it is still as
    launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the 111 operations before the region has `main_arg2` as its result, so the region meets it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg2` is no window's array and no closing reshape's result, so after the whole program it is still as
    launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the 111 operations before the region has `main_arg3` as its result, so the region meets it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg3` is no window's array and no closing reshape's result, so after the whole program it is still as
    launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the 111 operations before the region has `main_arg4` as its result, so the region meets it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg4` is no window's array and no closing reshape's result, so after the whole program it is still as
    launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- None of the 111 operations before the region has `main_arg5` as its result, so the region meets it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg5` is no window's array and no closing reshape's result, so after the whole program it is still as
    launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- None of the 111 operations before the region has `main_arg6` as its result, so the region meets it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg6` is no window's array and no closing reshape's result, so after the whole program it is still as
    launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- None of the 111 operations before the region has `main_arg7` as its result, so the region meets it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg7` is no window's array and no closing reshape's result, so after the whole program it is still as
    launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- None of the 111 operations before the region has `main_arg8` as its result, so the region meets it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg8` is no window's array and no closing reshape's result, so after the whole program it is still as
    launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## What each window sees at a grid point -/

/-- The block of window `w` at grid point `t`: that window's view at `t`, read from the window's array as the region
    finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is never cut and never idle. So for any proof data that takes its array from `V` and whose body
    leaves the block where it was, the staging buffer in use at a point holds that point's block, whether the
    block was fetched at this point or carried over from the one before (the block index then has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 is never cut and never idle. So for any proof data that takes its array from `V` and whose body
    leaves the block where it was, the staging buffer in use at a point holds that point's block, whether the
    block was fetched at this point or carried over from the one before (the block index then has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 is never cut and never idle. So for any proof data that takes its array from `V` and whose body
    leaves the block where it was, the staging buffer in use at a point holds that point's block, whether the
    block was fetched at this point or carried over from the one before (the block index then has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 is never cut and never idle. So for any proof data that takes its array from `V` and whose body
    leaves the block where it was, the staging buffer in use at a point holds that point's block, whether the
    block was fetched at this point or carried over from the one before (the block index then has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 is never cut and never idle. So for any proof data that takes its array from `V` and whose body
    leaves the block where it was, the staging buffer in use at a point holds that point's block, whether the
    block was fetched at this point or carried over from the one before (the block index then has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 is never cut and never idle. So for any proof data that takes its array from `V` and whose body
    leaves the block where it was, the staging buffer in use at a point holds that point's block, whether the
    block was fetched at this point or carried over from the one before (the block index then has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 is never cut and never idle. So for any proof data that takes its array from `V` and whose body
    leaves the block where it was, the staging buffer in use at a point holds that point's block, whether the
    block was fetched at this point or carried over from the one before (the block index then has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From a run of the region's frame to the frame claim -/

/-- Take any proof data whose arrays are the contents at the region's entry, and a run of the program that ends in the
    pipeline's frame post. That post says every unscoped buffer that is no window's array ends holding what the
    closing reshapes leave of its entry contents. Each of the nine arguments is such a buffer, and by `W_main_argK`
    that value is the launched one: the nine arguments end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.Kernel.Fr

end
-- ==== Proof.KFrame.lean ====
/-
  The frame of the program: @main's host operations, its one region of sixteen grid points, and the three host
  reshapes after it. At every point the body reads the seven input windows' blocks and leaves in each of the three
  output windows' buffers a function of those blocks alone; the region's arrays are the contents the host
  operations before it produced; nothing is owed, every share is full, and the scoped rest is untouched. From that
  proof data and the body's triple the region's launch gives the run, and the run gives the frame: every argument
  array ends as it was launched.
-/
import proofs.«156042_j46600395162250_1_alg».proof.Proof.KHost

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/- What the body leaves in the three output windows' buffers, as functions of the seven input blocks (stated over the
    core, the point's coordinates and the staging memrefs as well, through whose views the body reads). -/
variable (out7 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec F S2x1x393216 .f32 → Vec F S2x1x393216 .f32 → Vec F S2x1x5 .f32 → Vec F S2x1x5 .f32 → Vec F S2x1x5 .f32 → Vec F S2x1x1 .f32 → Vec F S2x1x14 .f32 → Vec F S2x1x393216 .f32)
  (out8 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec F S2x1x393216 .f32 → Vec F S2x1x393216 .f32 → Vec F S2x1x5 .f32 → Vec F S2x1x5 .f32 → Vec F S2x1x5 .f32 → Vec F S2x1x1 .f32 → Vec F S2x1x14 .f32 → Vec F S2x1x5 .f32)
  (out9 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec F S2x1x393216 .f32 → Vec F S2x1x393216 .f32 → Vec F S2x1x5 .f32 → Vec F S2x1x5 .f32 → Vec F S2x1x5 .f32 → Vec F S2x1x1 .f32 → Vec F S2x1x14 .f32 → Vec F S2x1x5 .f32)

/-- The body's triple over those functions: on whole staging memrefs, the inputs' at their contents and the outputs'
    at anything, the body runs to the continuation holding the inputs' as they were and each output's at its function
    of the inputs'. -/
def SoundKernel : Prop :=
  ∀ (c : Dev nD) (E : Set ℕ) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 : Vec F S2x1x5 .f32) (x3 : Vec F S2x1x5 .f32) (x4 : Vec F S2x1x5 .f32) (x5 : Vec F S2x1x1 .f32) (x6 : Vec F S2x1x14 .f32) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7 c i arg1 harg1 arg2 harg2 arg3 harg3 arg4 harg4 arg5 harg5 arg6 harg6 arg7 harg7 arg8 harg8 arg9 harg9 arg10 harg10 x0 x1 x2 x3 x4 x5 x6) ∗ owns (c : Thread nD τ) arg9 fullShare (out8 c i arg1 harg1 arg2 harg2 arg3 harg3 arg4 harg4 arg5 harg5 arg6 harg6 arg7 harg7 arg8 harg8 arg9 harg9 arg10 harg10 x0 x1 x2 x3 x4 x5 x6) ∗ owns (c : Thread nD τ) arg10 fullShare (out9 c i arg1 harg1 arg2 harg2 arg3 harg3 arg4 harg4 arg5 harg5 arg6 harg6 arg7 harg7 arg8 harg8 arg9 harg9 arg10 harg10 x0 x1 x2 x3 x4 x5 x6)) -∗ K ⟨⟩))
      ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K

/-! ## The pipeline's proof data -/

/-- The arrays as the region finds them; after the body at point `t` each input's buffer at its block and each
    output's at its function of the input blocks; the scoped rest and the generator register untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t)
    | ⟨8, _⟩ => out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t)
    | ⟨9, _⟩ => out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m out7 out8 out9 0 c).A w = V m c (Pipeline.arrRef spec0 w) := by
  dsimp only [dats]

theorem after0_0 (c : Dev nD) (t : Fin cfg0.N) : (dats m out7 out8 out9 0 c).after 0 t = iblk m c 0 t := by dsimp only [dats]
theorem after0_1 (c : Dev nD) (t : Fin cfg0.N) : (dats m out7 out8 out9 0 c).after 1 t = iblk m c 1 t := by dsimp only [dats]
theorem after0_2 (c : Dev nD) (t : Fin cfg0.N) : (dats m out7 out8 out9 0 c).after 2 t = iblk m c 2 t := by dsimp only [dats]
theorem after0_3 (c : Dev nD) (t : Fin cfg0.N) : (dats m out7 out8 out9 0 c).after 3 t = iblk m c 3 t := by dsimp only [dats]
theorem after0_4 (c : Dev nD) (t : Fin cfg0.N) : (dats m out7 out8 out9 0 c).after 4 t = iblk m c 4 t := by dsimp only [dats]
theorem after0_5 (c : Dev nD) (t : Fin cfg0.N) : (dats m out7 out8 out9 0 c).after 5 t = iblk m c 5 t := by dsimp only [dats]
theorem after0_6 (c : Dev nD) (t : Fin cfg0.N) : (dats m out7 out8 out9 0 c).after 6 t = iblk m c 6 t := by dsimp only [dats]
theorem after0_7 (c : Dev nD) (t : Fin cfg0.N) : (dats m out7 out8 out9 0 c).after 7 t = out7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) := by dsimp only [dats]
theorem after0_8 (c : Dev nD) (t : Fin cfg0.N) : (dats m out7 out8 out9 0 c).after 8 t = out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) := by dsimp only [dats]
theorem after0_9 (c : Dev nD) (t : Fin cfg0.N) : (dats m out7 out8 out9 0 c).after 9 t = out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m out7 out8 out9 0 c).before 0 t d = iblk m c 0 t :=
  before0_0_of m (dats m out7 out8 out9 0 c) (A_eq m out7 out8 out9 c 0) (after0_0 m out7 out8 out9 c) t d
theorem before0_1 (c : Dev nD) (t : Fin cfg0.N) (d) : (dats m out7 out8 out9 0 c).before 1 t d = iblk m c 1 t :=
  before0_1_of m (dats m out7 out8 out9 0 c) (A_eq m out7 out8 out9 c 1) (after0_1 m out7 out8 out9 c) t d
theorem before0_2 (c : Dev nD) (t : Fin cfg0.N) (d) : (dats m out7 out8 out9 0 c).before 2 t d = iblk m c 2 t :=
  before0_2_of m (dats m out7 out8 out9 0 c) (A_eq m out7 out8 out9 c 2) (after0_2 m out7 out8 out9 c) t d
theorem before0_3 (c : Dev nD) (t : Fin cfg0.N) (d) : (dats m out7 out8 out9 0 c).before 3 t d = iblk m c 3 t :=
  before0_3_of m (dats m out7 out8 out9 0 c) (A_eq m out7 out8 out9 c 3) (after0_3 m out7 out8 out9 c) t d
theorem before0_4 (c : Dev nD) (t : Fin cfg0.N) (d) : (dats m out7 out8 out9 0 c).before 4 t d = iblk m c 4 t :=
  before0_4_of m (dats m out7 out8 out9 0 c) (A_eq m out7 out8 out9 c 4) (after0_4 m out7 out8 out9 c) t d
theorem before0_5 (c : Dev nD) (t : Fin cfg0.N) (d) : (dats m out7 out8 out9 0 c).before 5 t d = iblk m c 5 t :=
  before0_5_of m (dats m out7 out8 out9 0 c) (A_eq m out7 out8 out9 c 5) (after0_5 m out7 out8 out9 c) t d
theorem before0_6 (c : Dev nD) (t : Fin cfg0.N) (d) : (dats m out7 out8 out9 0 c).before 6 t d = iblk m c 6 t :=
  before0_6_of m (dats m out7 out8 out9 0 c) (A_eq m out7 out8 out9 c 6) (after0_6 m out7 out8 out9 c) t d

/-! ## The body obligation, at a generic point -/

/-- What the body is called with at point `t`, the windows one by one, -/
def bodyPre (c : Dev nD) (t : Fin cfg0.N) : sProp 𝕄 :=
  iprop((dats m out7 out8 out9 0 c).Φ t.castSucc ∗ (dats m out7 out8 out9 0 c).owesAt () t.castSucc
    ∗ (∃ d, owns (c : Thread nD τ) (st0_0 t) fullShare ((dats m out7 out8 out9 0 c).before 0 t d))
    ∗ (∃ d, owns (c : Thread nD τ) (st0_1 t) fullShare ((dats m out7 out8 out9 0 c).before 1 t d))
    ∗ (∃ d, owns (c : Thread nD τ) (st0_2 t) fullShare ((dats m out7 out8 out9 0 c).before 2 t d))
    ∗ (∃ d, owns (c : Thread nD τ) (st0_3 t) fullShare ((dats m out7 out8 out9 0 c).before 3 t d))
    ∗ (∃ d, owns (c : Thread nD τ) (st0_4 t) fullShare ((dats m out7 out8 out9 0 c).before 4 t d))
    ∗ (∃ d, owns (c : Thread nD τ) (st0_5 t) fullShare ((dats m out7 out8 out9 0 c).before 5 t d))
    ∗ (∃ d, owns (c : Thread nD τ) (st0_6 t) fullShare ((dats m out7 out8 out9 0 c).before 6 t d))
    ∗ (∃ d, owns (c : Thread nD τ) (st0_7 t) fullShare ((dats m out7 out8 out9 0 c).before 7 t d))
    ∗ (∃ d, owns (c : Thread nD τ) (st0_8 t) fullShare ((dats m out7 out8 out9 0 c).before 8 t d))
    ∗ (∃ d, owns (c : Thread nD τ) (st0_9 t) fullShare ((dats m out7 out8 out9 0 c).before 9 t d)))

/-- and what it returns. -/
def bodyPost (c : Dev nD) (t : Fin cfg0.N) : sProp 𝕄 :=
  iprop((dats m out7 out8 out9 0 c).Φ t.succ ∗ (dats m out7 out8 out9 0 c).owesAt () t.succ
    ∗ owns (c : Thread nD τ) (st0_0 t) fullShare ((dats m out7 out8 out9 0 c).after 0 t)
    ∗ owns (c : Thread nD τ) (st0_1 t) fullShare ((dats m out7 out8 out9 0 c).after 1 t)
    ∗ owns (c : Thread nD τ) (st0_2 t) fullShare ((dats m out7 out8 out9 0 c).after 2 t)
    ∗ owns (c : Thread nD τ) (st0_3 t) fullShare ((dats m out7 out8 out9 0 c).after 3 t)
    ∗ owns (c : Thread nD τ) (st0_4 t) fullShare ((dats m out7 out8 out9 0 c).after 4 t)
    ∗ owns (c : Thread nD τ) (st0_5 t) fullShare ((dats m out7 out8 out9 0 c).after 5 t)
    ∗ owns (c : Thread nD τ) (st0_6 t) fullShare ((dats m out7 out8 out9 0 c).after 6 t)
    ∗ owns (c : Thread nD τ) (st0_7 t) fullShare ((dats m out7 out8 out9 0 c).after 7 t)
    ∗ owns (c : Thread nD τ) (st0_8 t) fullShare ((dats m out7 out8 out9 0 c).after 8 t)
    ∗ owns (c : Thread nD τ) (st0_9 t) fullShare ((dats m out7 out8 out9 0 c).after 9 t))

variable (hsound : SoundKernel (F := F) out7 out8 out9)
include hsound

/-- The body at any point: the inputs' memrefs hold their blocks, so the triple applies; the invariant and the
    core's debt pass through unread. -/
theorem sound_body (c : Dev nD) (t : Fin cfg0.N) :
    bodyPre m out7 out8 out9 c t ⊢ wp frame (wpE (defs₀ (F := F)) Variants.none c none) Set.univ (bodyAt0 t) (fun _ => bodyPost m out7 out8 out9 c t) := by
  unfold bodyPre bodyPost bodyAt0
  simp only [before0_0, before0_1, before0_2, before0_3, before0_4, before0_5, before0_6]
  rw [show (dats m out7 out8 out9 0 c).Φ t.succ = (dats m out7 out8 out9 0 c).Φ t.castSucc from rfl,
    show (dats m out7 out8 out9 0 c).owesAt () t.succ = (dats m out7 out8 out9 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (hsound c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m out7 out8 out9 0 c) (defs₀ (F := F)) Variants.none () Set.univ := fun t => by
  rw [bigSep_W0, bigSep_W0]
  exact sound_body m out7 out8 out9 hsound c t

/-! ## The run and the frame -/

set_option backward.isDefEq.respectTransparency.types false in
/-- Every weakly fair execution of @main terminates, and every final state has every array of the pipeline at what
    the proof data's write-backs make it and every other unscoped buffer as the lines after the region leave it. -/
theorem run_main : θ_run defs (onTc (τ := τ) (main (F := F))) (s₀ m ρ) (Pipeline.FramePost cfgs (dats m out7 out8 out9) 0 (Pipeline.afterTail₀ cfgs (dats m out7 out8 out9) 0 (V0 m) [hostOps1])) :=
  Pipeline.θ_run_frame_around cfgs (dats m out7 out8 out9) (0 : Fin 1) launch0 defs₀ Variants.none m ρ main
    (hbody := fun c => (body_obligation m out7 out8 out9 hsound c).loose) (hshare := fun c => (dats m out7 out8 out9 0 c).share_full fun _ => rfl)
    (howed := fun _ _ => rfl) (V₀ := V0 m) (opss := [hostOps1]) (hsub := sfx_sub) (hfresh := sfx_fresh) (hkeep := sfx_keeps)
    (hmain := hmain m Variants.none) (hA := A_eq m out7 out8 out9) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m out7 out8 out9) (A_eq m out7 out8 out9) (run_main m ρ out7 out8 out9 hsound)

end Cert.Kernel.Fr

end
-- ==== Proof.KBody.lean ====
import proofs.«156042_j46600395162250_1_alg».proof.Proof.Gen.Kernel.Skeleton
import Idealize.ShloMosaic.Lib.Pipeline.FrameBody
import Idealize.ShloMosaic.Lib.Ring
import Idealize.ShloMosaic.Lib.Tactic

/-!
# The body's run

The one kernel function of the program is a straight line: it loads its seven inputs' staging memrefs through
literal unit rectangles, computes on pure vectors (fourteen unrolled steps of the thermostat recurrence, as named
payloads over the values loaded), and at its end stores one whole block into each of its three outputs' memrefs.
Here: the body's triple on any whole staging memrefs, as a subtype whose witness is the list of pieces each output's
memref ends with (`kernelRun`); those pieces cover their blocks (`cover7`, `cover8`, `cover9`), so what each
output's memref holds after the body is the canonical contents of its pieces (`out7`, `out8`, `out9`), whatever it
held before; and the triple restated at those contents (`sound_kernel`).
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any whole staging memrefs: a subtype the run finds -/

set_option maxHeartbeats 4000000 in
/-- What the body's stores leave in each output's staging memref, as pieces (last first; the three components are
    the lists of `arg8`, `arg9`, `arg10`), WITH the proof that on whole staging memrefs — the inputs' at contents that
    read `x0 … x6`, the outputs' at anything — the body runs to the continuation holding the inputs' as they were and
    each output's buffer with its pieces written. The printed function is its skeleton; each load through a unit
    rectangle of an input's memref reads that rectangle of the contents held, each payload is a value over the values
    read before it, and each of the three stores writes one piece over the whole block. The pieces are the witness:
    they are fixed when the buffers are handed to the continuation. -/
noncomputable def kernelRun (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) :
    { L : List (View.Piece (Elt F) S2x1x393216 .f32) × List (View.Piece (Elt F) S2x1x5 .f32) × List (View.Piece (Elt F) S2x1x5 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2.1) ∗ (∃ f, arg10.view.loc (c : Thread nD τ) ↦[arg10.view.set]{fullShare} arg10.view.writes (Elt F) f L.2.2)) -∗ K ⟨⟩))
          ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K } := by
  refine ⟨(?_, ?_, ?_), fun E K => ?run⟩
  case run =>
    simp only [cc0__nhc_kernel_eq_skeleton]; unfold cc0__nhc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    -- a whole memref's contents are determined by what they read
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; iexact H8
    iexists _; iexact H9

/-! ## What the body leaves in each output's memref -/

/-- The one piece the body leaves in `arg8`'s memref is its whole block (a unit rectangle at the origin of the block's extents), so the pieces cover it. -/
theorem cover7 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (y : S2x1x393216.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1.1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1.1 S2x1x393216.size (by sl_kernel_rfl) y

/-- What `arg8`'s staging memref holds after the body: the canonical contents of its pieces — the payload of the body's one store there, a value over the inputs' contents `x0 … x6` through the loads' readings of the inputs' memrefs. -/
def out7 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) : Vec F S2x1x393216 .f32 :=
  View.canon (kernelRun c i arg1 harg1 arg2 harg2 arg3 harg3 arg4 harg4 arg5 harg5 arg6 harg6 arg7 harg7 arg8 harg8 arg9 harg9 arg10 harg10 x0 x1 x2 x3 x4 x5 x6).1.1

/-- The one piece the body leaves in `arg9`'s memref is its whole block (a unit rectangle at the origin of the block's extents), so the pieces cover it. -/
theorem cover8 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (y : S2x1x5.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1.2.1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1.2.1 S2x1x5.size (by sl_kernel_rfl) y

/-- What `arg9`'s staging memref holds after the body: the canonical contents of its pieces — the payload of the body's one store there, a value over the inputs' contents `x0 … x6` through the loads' readings of the inputs' memrefs. -/
def out8 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) : Vec F S2x1x5 .f32 :=
  View.canon (kernelRun c i arg1 harg1 arg2 harg2 arg3 harg3 arg4 harg4 arg5 harg5 arg6 harg6 arg7 harg7 arg8 harg8 arg9 harg9 arg10 harg10 x0 x1 x2 x3 x4 x5 x6).1.2.1

/-- The one piece the body leaves in `arg10`'s memref is its whole block (a unit rectangle at the origin of the block's extents), so the pieces cover it. -/
theorem cover9 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (y : S2x1x5.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1.2.2, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1.2.2 S2x1x5.size (by sl_kernel_rfl) y

/-- What `arg10`'s staging memref holds after the body: the canonical contents of its pieces — the payload of the body's one store there, a value over the inputs' contents `x0 … x6` through the loads' readings of the inputs' memrefs. -/
def out9 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) : Vec F S2x1x5 .f32 :=
  View.canon (kernelRun c i arg1 harg1 arg2 harg2 arg3 harg3 arg4 harg4 arg5 harg5 arg6 harg6 arg7 harg7 arg8 harg8 arg9 harg9 arg10 harg10 x0 x1 x2 x3 x4 x5 x6).1.2.2

/-! ## The body's triple -/

set_option maxHeartbeats 1000000 in
/-- The kernel body on whole staging memrefs, the inputs' at contents `x0 … x6` and the outputs' at anything, runs to
    the continuation holding the inputs' as they were and each output's at `out7`, `out8`, `out9` of the inputs': the
    run's triple, with each output's written pieces read back as their canonical contents (they cover the block, so
    what the memref held before does not matter). -/
theorem sound_kernel (c : Dev nD) (E : Set ℕ) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 c i arg1 harg1 arg2 harg2 arg3 harg3 arg4 harg4 arg5 harg5 arg6 harg6 arg7 harg7 arg8 harg8 arg9 harg9 arg10 harg10 x0 x1 x2 x3 x4 x5 x6) ∗ owns (c : Thread nD τ) arg9 fullShare (out8 c i arg1 harg1 arg2 harg2 arg3 harg3 arg4 harg4 arg5 harg5 arg6 harg6 arg7 harg7 arg8 harg8 arg9 harg9 arg10 harg10 x0 x1 x2 x3 x4 x5 x6) ∗ owns (c : Thread nD τ) arg10 fullShare (out9 c i arg1 harg1 arg2 harg2 arg3 harg3 arg4 harg4 arg5 harg5 arg6 harg6 arg7 harg7 arg8 harg8 arg9 harg9 arg10 harg10 x0 x1 x2 x3 x4 x5 x6)) -∗ K ⟨⟩))
      ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K := by
  iintro ⟨H0, H1, H2, H3, H4, H5, H6, H7, H8, H9, Hk⟩
  iapply ((kernelRun c i arg1 harg1 arg2 harg2 arg3 harg3 arg4 harg4 arg5 harg5 arg6 harg6 arg7 harg7 arg8 harg8 arg9 harg9 arg10 harg10 x0 x1 x2 x3 x4 x5 x6).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, ⟨%e7, H7⟩, ⟨%e8, H8⟩, ⟨%e9, H9⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns out7 out8 out9
  isplitl [H7]
  · iexists _; isplitr
    swap; · iexact H7
    ipureintro; exact View.read_writes_eq_canon _ _ _ (cover7 c i arg1 harg1 arg2 harg2 arg3 harg3 arg4 harg4 arg5 harg5 arg6 harg6 arg7 harg7 arg8 harg8 arg9 harg9 arg10 harg10 x0 x1 x2 x3 x4 x5 x6)
  isplitl [H8]
  · iexists _; isplitr
    swap; · iexact H8
    ipureintro; exact View.read_writes_eq_canon _ _ _ (cover8 c i arg1 harg1 arg2 harg2 arg3 harg3 arg4 harg4 arg5 harg5 arg6 harg6 arg7 harg7 arg8 harg8 arg9 harg9 arg10 harg10 x0 x1 x2 x3 x4 x5 x6)
  iexists _; isplitr
  swap; · iexact H9
  ipureintro; exact View.read_writes_eq_canon _ _ _ (cover9 c i arg1 harg1 arg2 harg2 arg3 harg3 arg4 harg4 arg5 harg5 arg6 harg6 arg7 harg7 arg8 harg8 arg9 harg9 arg10 harg10 x0 x1 x2 x3 x4 x5 x6)

end Cert.Kernel.Fr

end
-- ==== Proof.KIBody.lean ====
import proofs.«156042_j46600395162250_1_alg».proof.Proof.Gen.KernelIdeal.Skeleton
import Idealize.ShloMosaic.Lib.Pipeline.FrameBody
import Idealize.ShloMosaic.Lib.Ring
import Idealize.ShloMosaic.Lib.Tactic

/-!
# The body's run

The one kernel function of the program is a straight line: it loads its seven inputs' staging memrefs through
literal unit rectangles, computes on pure vectors (fourteen unrolled steps of the thermostat recurrence, as named
payloads over the values loaded), and at its end stores one whole block into each of its three outputs' memrefs.
Here: the body's triple on any whole staging memrefs, as a subtype whose witness is the list of pieces each output's
memref ends with (`kernelRun`); those pieces cover their blocks (`cover7`, `cover8`, `cover9`), so what each
output's memref holds after the body is the canonical contents of its pieces (`out7`, `out8`, `out9`), whatever it
held before; and the triple restated at those contents (`sound_kernel`).
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any whole staging memrefs: a subtype the run finds -/

set_option maxHeartbeats 4000000 in
/-- What the body's stores leave in each output's staging memref, as pieces (last first; the three components are
    the lists of `arg8`, `arg9`, `arg10`), WITH the proof that on whole staging memrefs — the inputs' at contents that
    read `x0 … x6`, the outputs' at anything — the body runs to the continuation holding the inputs' as they were and
    each output's buffer with its pieces written. The printed function is its skeleton; each load through a unit
    rectangle of an input's memref reads that rectangle of the contents held, each payload is a value over the values
    read before it, and each of the three stores writes one piece over the whole block. The pieces are the witness:
    they are fixed when the buffers are handed to the continuation. -/
noncomputable def kernelRun (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) :
    { L : List (View.Piece (Elt F) S2x1x393216 .f32) × List (View.Piece (Elt F) S2x1x5 .f32) × List (View.Piece (Elt F) S2x1x5 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2.1) ∗ (∃ f, arg10.view.loc (c : Thread nD τ) ↦[arg10.view.set]{fullShare} arg10.view.writes (Elt F) f L.2.2)) -∗ K ⟨⟩))
          ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K } := by
  refine ⟨(?_, ?_, ?_), fun E K => ?run⟩
  case run =>
    simp only [cc0__nhc_kernel_eq_skeleton]; unfold cc0__nhc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    -- a whole memref's contents are determined by what they read
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; iexact H8
    iexists _; iexact H9

/-! ## What the body leaves in each output's memref -/

/-- The one piece the body leaves in `arg8`'s memref is its whole block (a unit rectangle at the origin of the block's extents), so the pieces cover it. -/
theorem cover7 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (y : S2x1x393216.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1.1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1.1 S2x1x393216.size (by sl_kernel_rfl) y

/-- What `arg8`'s staging memref holds after the body: the canonical contents of its pieces — the payload of the body's one store there, a value over the inputs' contents `x0 … x6` through the loads' readings of the inputs' memrefs. -/
def out7 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) : Vec F S2x1x393216 .f32 :=
  View.canon (kernelRun c i arg1 harg1 arg2 harg2 arg3 harg3 arg4 harg4 arg5 harg5 arg6 harg6 arg7 harg7 arg8 harg8 arg9 harg9 arg10 harg10 x0 x1 x2 x3 x4 x5 x6).1.1

/-- The one piece the body leaves in `arg9`'s memref is its whole block (a unit rectangle at the origin of the block's extents), so the pieces cover it. -/
theorem cover8 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (y : S2x1x5.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1.2.1, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1.2.1 S2x1x5.size (by sl_kernel_rfl) y

/-- What `arg9`'s staging memref holds after the body: the canonical contents of its pieces — the payload of the body's one store there, a value over the inputs' contents `x0 … x6` through the loads' readings of the inputs' memrefs. -/
def out8 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) : Vec F S2x1x5 .f32 :=
  View.canon (kernelRun c i arg1 harg1 arg2 harg2 arg3 harg3 arg4 harg4 arg5 harg5 arg6 harg6 arg7 harg7 arg8 harg8 arg9 harg9 arg10 harg10 x0 x1 x2 x3 x4 x5 x6).1.2.1

/-- The one piece the body leaves in `arg10`'s memref is its whole block (a unit rectangle at the origin of the block's extents), so the pieces cover it. -/
theorem cover9 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (y : S2x1x5.Idx) :
    ∃ pc ∈ (kernelRun c i arg1 harg1 arg2 harg2 arg3 harg3 arg4 harg4 arg5 harg5 arg6 harg6 arg7 harg7 arg8 harg8 arg9 harg9 arg10 harg10 x0 x1 x2 x3 x4 x5 x6).1.2.2, y ∈ pc.1.set :=
  View.cover_of_tiledL (kernelRun c i arg1 harg1 arg2 harg2 arg3 harg3 arg4 harg4 arg5 harg5 arg6 harg6 arg7 harg7 arg8 harg8 arg9 harg9 arg10 harg10 x0 x1 x2 x3 x4 x5 x6).1.2.2 S2x1x5.size (by sl_kernel_rfl) y

/-- What `arg10`'s staging memref holds after the body: the canonical contents of its pieces — the payload of the body's one store there, a value over the inputs' contents `x0 … x6` through the loads' readings of the inputs' memrefs. -/
def out9 (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) : Vec F S2x1x5 .f32 :=
  View.canon (kernelRun c i arg1 harg1 arg2 harg2 arg3 harg3 arg4 harg4 arg5 harg5 arg6 harg6 arg7 harg7 arg8 harg8 arg9 harg9 arg10 harg10 x0 x1 x2 x3 x4 x5 x6).1.2.2

/-! ## The body's triple -/

set_option maxHeartbeats 1000000 in
/-- The kernel body on whole staging memrefs, the inputs' at contents `x0 … x6` and the outputs' at anything, runs to
    the continuation holding the inputs' as they were and each output's at `out7`, `out8`, `out9` of the inputs': the
    run's triple, with each output's written pieces read back as their canonical contents (they cover the block, so
    what the memref held before does not matter). -/
theorem sound_kernel (c : Dev nD) (E : Set ℕ) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 x3 x4 : Vec F S2x1x5 .f32) (x5 : Vec F S2x1x1 .f32) (x6 : Vec F S2x1x14 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 c i arg1 harg1 arg2 harg2 arg3 harg3 arg4 harg4 arg5 harg5 arg6 harg6 arg7 harg7 arg8 harg8 arg9 harg9 arg10 harg10 x0 x1 x2 x3 x4 x5 x6) ∗ owns (c : Thread nD τ) arg9 fullShare (out8 c i arg1 harg1 arg2 harg2 arg3 harg3 arg4 harg4 arg5 harg5 arg6 harg6 arg7 harg7 arg8 harg8 arg9 harg9 arg10 harg10 x0 x1 x2 x3 x4 x5 x6) ∗ owns (c : Thread nD τ) arg10 fullShare (out9 c i arg1 harg1 arg2 harg2 arg3 harg3 arg4 harg4 arg5 harg5 arg6 harg6 arg7 harg7 arg8 harg8 arg9 harg9 arg10 harg10 x0 x1 x2 x3 x4 x5 x6)) -∗ K ⟨⟩))
      ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K := by
  iintro ⟨H0, H1, H2, H3, H4, H5, H6, H7, H8, H9, Hk⟩
  iapply ((kernelRun c i arg1 harg1 arg2 harg2 arg3 harg3 arg4 harg4 arg5 harg5 arg6 harg6 arg7 harg7 arg8 harg8 arg9 harg9 arg10 harg10 x0 x1 x2 x3 x4 x5 x6).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, ⟨%e7, H7⟩, ⟨%e8, H8⟩, ⟨%e9, H9⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns out7 out8 out9
  isplitl [H7]
  · iexists _; isplitr
    swap; · iexact H7
    ipureintro; exact View.read_writes_eq_canon _ _ _ (cover7 c i arg1 harg1 arg2 harg2 arg3 harg3 arg4 harg4 arg5 harg5 arg6 harg6 arg7 harg7 arg8 harg8 arg9 harg9 arg10 harg10 x0 x1 x2 x3 x4 x5 x6)
  isplitl [H8]
  · iexists _; isplitr
    swap; · iexact H8
    ipureintro; exact View.read_writes_eq_canon _ _ _ (cover8 c i arg1 harg1 arg2 harg2 arg3 harg3 arg4 harg4 arg5 harg5 arg6 harg6 arg7 harg7 arg8 harg8 arg9 harg9 arg10 harg10 x0 x1 x2 x3 x4 x5 x6)
  iexists _; isplitr
  swap; · iexact H9
  ipureintro; exact View.read_writes_eq_canon _ _ _ (cover9 c i arg1 harg1 arg2 harg2 arg3 harg3 arg4 harg4 arg5 harg5 arg6 harg6 arg7 harg7 arg8 harg8 arg9 harg9 arg10 harg10 x0 x1 x2 x3 x4 x5 x6)

end Cert.KernelIdeal.Fr

end
-- ==== Proof.KIHost.lean ====
import proofs.«156042_j46600395162250_1_alg».proof.Proof.Gen.KernelIdeal.Launch
import proofs.«156042_j46600395162250_1_alg».proof.Proof.Gen.KernelIdeal.Skeleton
import proofs.«156042_j46600395162250_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- deciding that two of the 143 references differ, and walking the 111-operation list before the region, recurse
-- deeper than the default allows
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- What core `c`'s TensorCore buffers hold at the moment the region starts: the launched memory `m` carried through
    the 111 host operations that come first. -/
abbrev V0 (c : Dev nD) : Valuation τ sig (Elt F) := StableHlo.after (List.flatten [hostOps0]) (fun b => m (c, b))
/-- `V0` looked up at one TensorCore reference. -/
abbrev V (c : Dev nD) (b : Ref sig .tc) : Buf (Elt F) ((c : Thread nD τ).loc b) := V0 m c (Proc.devRef .tc b)

/-- The host operations before the region allocate no buffer. -/
theorem hostOps0_fresh : (hostOps0 : List (HloOp τ sig (Elt F))).Forall fun op => op.fresh = ∅ := by
  simp only [List.Forall]; repeat' constructor
/-- Nor do the three after it. -/
theorem hostOps1_fresh : (hostOps1 : List (HloOp τ sig (Elt F))).Forall fun op => op.fresh = ∅ := by
  simp only [List.Forall]; repeat' constructor

/-- The program is: host operations, the region, host operations. Running it from `m` therefore comes down to running
    the region from `V`, continued by the three closing reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every buffer a closing reshape touches is an unscoped TensorCore reference; with nothing prefetched, each of those
    is either one of the region's arrays or a buffer the region leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- The closing reshapes allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each closing reshape writes its own result (`main_v81`, `main_v82`, `main_v83`), and none of those is the array
    of any of the ten windows. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The nine arguments are written by no host operation -/

/-- None of the 111 operations before the region has `main_arg0` as its result, so the region meets it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg0` is no window's array and no closing reshape's result, so after the whole program it is still as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- None of the 111 operations before the region has `main_arg1` as its result, so the region meets it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg1` is no window's array and no closing reshape's result, so after the whole program it is still as
    launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- None of the 111 operations before the region has `main_arg2` as its result, so the region meets it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg2` is no window's array and no closing reshape's result, so after the whole program it is still as
    launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- None of the 111 operations before the region has `main_arg3` as its result, so the region meets it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg3` is no window's array and no closing reshape's result, so after the whole program it is still as
    launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- None of the 111 operations before the region has `main_arg4` as its result, so the region meets it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg4` is no window's array and no closing reshape's result, so after the whole program it is still as
    launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- None of the 111 operations before the region has `main_arg5` as its result, so the region meets it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg5` is no window's array and no closing reshape's result, so after the whole program it is still as
    launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- None of the 111 operations before the region has `main_arg6` as its result, so the region meets it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg6` is no window's array and no closing reshape's result, so after the whole program it is still as
    launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- None of the 111 operations before the region has `main_arg7` as its result, so the region meets it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg7` is no window's array and no closing reshape's result, so after the whole program it is still as
    launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- None of the 111 operations before the region has `main_arg8` as its result, so the region meets it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- `main_arg8` is no window's array and no closing reshape's result, so after the whole program it is still as
    launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## What each window sees at a grid point -/

/-- The block of window `w` at grid point `t`: that window's view at `t`, read from the window's array as the region
    finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 is never cut and never idle. So for any proof data that takes its array from `V` and whose body
    leaves the block where it was, the staging buffer in use at a point holds that point's block, whether the
    block was fetched at this point or carried over from the one before (the block index then has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 is never cut and never idle. So for any proof data that takes its array from `V` and whose body
    leaves the block where it was, the staging buffer in use at a point holds that point's block, whether the
    block was fetched at this point or carried over from the one before (the block index then has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 is never cut and never idle. So for any proof data that takes its array from `V` and whose body
    leaves the block where it was, the staging buffer in use at a point holds that point's block, whether the
    block was fetched at this point or carried over from the one before (the block index then has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 is never cut and never idle. So for any proof data that takes its array from `V` and whose body
    leaves the block where it was, the staging buffer in use at a point holds that point's block, whether the
    block was fetched at this point or carried over from the one before (the block index then has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 is never cut and never idle. So for any proof data that takes its array from `V` and whose body
    leaves the block where it was, the staging buffer in use at a point holds that point's block, whether the
    block was fetched at this point or carried over from the one before (the block index then has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 is never cut and never idle. So for any proof data that takes its array from `V` and whose body
    leaves the block where it was, the staging buffer in use at a point holds that point's block, whether the
    block was fetched at this point or carried over from the one before (the block index then has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 is never cut and never idle. So for any proof data that takes its array from `V` and whose body
    leaves the block where it was, the staging buffer in use at a point holds that point's block, whether the
    block was fetched at this point or carried over from the one before (the block index then has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From a run of the region's frame to the frame claim -/

/-- Take any proof data whose arrays are the contents at the region's entry, and a run of the program that ends in the
    pipeline's frame post. That post says every unscoped buffer that is no window's array ends holding what the
    closing reshapes leave of its entry contents. Each of the nine arguments is such a buffer, and by `W_main_argK`
    that value is the launched one: the nine arguments end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.KernelIdeal.Fr

end
-- ==== Proof.KIFrame.lean ====
/-
  The frame of the program: @main's host operations, its one region of sixteen grid points, and the three host
  reshapes after it. At every point the body reads the seven input windows' blocks and leaves in each of the three
  output windows' buffers a function of those blocks alone; the region's arrays are the contents the host
  operations before it produced; nothing is owed, every share is full, and the scoped rest is untouched. From that
  proof data and the body's triple the region's launch gives the run, and the run gives the frame: every argument
  array ends as it was launched.
-/
import proofs.«156042_j46600395162250_1_alg».proof.Proof.KIHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/- What the body leaves in the three output windows' buffers, as functions of the seven input blocks (stated over the
    core, the point's coordinates and the staging memrefs as well, through whose views the body reads). -/
variable (out7 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec F S2x1x393216 .f32 → Vec F S2x1x393216 .f32 → Vec F S2x1x5 .f32 → Vec F S2x1x5 .f32 → Vec F S2x1x5 .f32 → Vec F S2x1x1 .f32 → Vec F S2x1x14 .f32 → Vec F S2x1x393216 .f32)
  (out8 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec F S2x1x393216 .f32 → Vec F S2x1x393216 .f32 → Vec F S2x1x5 .f32 → Vec F S2x1x5 .f32 → Vec F S2x1x5 .f32 → Vec F S2x1x1 .f32 → Vec F S2x1x14 .f32 → Vec F S2x1x5 .f32)
  (out9 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec F S2x1x393216 .f32 → Vec F S2x1x393216 .f32 → Vec F S2x1x5 .f32 → Vec F S2x1x5 .f32 → Vec F S2x1x5 .f32 → Vec F S2x1x1 .f32 → Vec F S2x1x14 .f32 → Vec F S2x1x5 .f32)

/-- The body's triple over those functions: on whole staging memrefs, the inputs' at their contents and the outputs'
    at anything, the body runs to the continuation holding the inputs' as they were and each output's at its function
    of the inputs'. -/
def SoundKernel : Prop :=
  ∀ (c : Dev nD) (E : Set ℕ) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x1x393216 .f32) (x1 : Vec F S2x1x393216 .f32) (x2 : Vec F S2x1x5 .f32) (x3 : Vec F S2x1x5 .f32) (x4 : Vec F S2x1x5 .f32) (x5 : Vec F S2x1x1 .f32) (x6 : Vec F S2x1x14 .f32) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7 c i arg1 harg1 arg2 harg2 arg3 harg3 arg4 harg4 arg5 harg5 arg6 harg6 arg7 harg7 arg8 harg8 arg9 harg9 arg10 harg10 x0 x1 x2 x3 x4 x5 x6) ∗ owns (c : Thread nD τ) arg9 fullShare (out8 c i arg1 harg1 arg2 harg2 arg3 harg3 arg4 harg4 arg5 harg5 arg6 harg6 arg7 harg7 arg8 harg8 arg9 harg9 arg10 harg10 x0 x1 x2 x3 x4 x5 x6) ∗ owns (c : Thread nD τ) arg10 fullShare (out9 c i arg1 harg1 arg2 harg2 arg3 harg3 arg4 harg4 arg5 harg5 arg6 harg6 arg7 harg7 arg8 harg8 arg9 harg9 arg10 harg10 x0 x1 x2 x3 x4 x5 x6)) -∗ K ⟨⟩))
      ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K

/-! ## The pipeline's proof data -/

/-- The arrays as the region finds them; after the body at point `t` each input's buffer at its block and each
    output's at its function of the input blocks; the scoped rest and the generator register untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t)
    | ⟨8, _⟩ => out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t)
    | ⟨9, _⟩ => out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m out7 out8 out9 0 c).A w = V m c (Pipeline.arrRef spec0 w) := by
  dsimp only [dats]

theorem after0_0 (c : Dev nD) (t : Fin cfg0.N) : (dats m out7 out8 out9 0 c).after 0 t = iblk m c 0 t := by dsimp only [dats]
theorem after0_1 (c : Dev nD) (t : Fin cfg0.N) : (dats m out7 out8 out9 0 c).after 1 t = iblk m c 1 t := by dsimp only [dats]
theorem after0_2 (c : Dev nD) (t : Fin cfg0.N) : (dats m out7 out8 out9 0 c).after 2 t = iblk m c 2 t := by dsimp only [dats]
theorem after0_3 (c : Dev nD) (t : Fin cfg0.N) : (dats m out7 out8 out9 0 c).after 3 t = iblk m c 3 t := by dsimp only [dats]
theorem after0_4 (c : Dev nD) (t : Fin cfg0.N) : (dats m out7 out8 out9 0 c).after 4 t = iblk m c 4 t := by dsimp only [dats]
theorem after0_5 (c : Dev nD) (t : Fin cfg0.N) : (dats m out7 out8 out9 0 c).after 5 t = iblk m c 5 t := by dsimp only [dats]
theorem after0_6 (c : Dev nD) (t : Fin cfg0.N) : (dats m out7 out8 out9 0 c).after 6 t = iblk m c 6 t := by dsimp only [dats]
theorem after0_7 (c : Dev nD) (t : Fin cfg0.N) : (dats m out7 out8 out9 0 c).after 7 t = out7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) := by dsimp only [dats]
theorem after0_8 (c : Dev nD) (t : Fin cfg0.N) : (dats m out7 out8 out9 0 c).after 8 t = out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) := by dsimp only [dats]
theorem after0_9 (c : Dev nD) (t : Fin cfg0.N) : (dats m out7 out8 out9 0 c).after 9 t = out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m out7 out8 out9 0 c).before 0 t d = iblk m c 0 t :=
  before0_0_of m (dats m out7 out8 out9 0 c) (A_eq m out7 out8 out9 c 0) (after0_0 m out7 out8 out9 c) t d
theorem before0_1 (c : Dev nD) (t : Fin cfg0.N) (d) : (dats m out7 out8 out9 0 c).before 1 t d = iblk m c 1 t :=
  before0_1_of m (dats m out7 out8 out9 0 c) (A_eq m out7 out8 out9 c 1) (after0_1 m out7 out8 out9 c) t d
theorem before0_2 (c : Dev nD) (t : Fin cfg0.N) (d) : (dats m out7 out8 out9 0 c).before 2 t d = iblk m c 2 t :=
  before0_2_of m (dats m out7 out8 out9 0 c) (A_eq m out7 out8 out9 c 2) (after0_2 m out7 out8 out9 c) t d
theorem before0_3 (c : Dev nD) (t : Fin cfg0.N) (d) : (dats m out7 out8 out9 0 c).before 3 t d = iblk m c 3 t :=
  before0_3_of m (dats m out7 out8 out9 0 c) (A_eq m out7 out8 out9 c 3) (after0_3 m out7 out8 out9 c) t d
theorem before0_4 (c : Dev nD) (t : Fin cfg0.N) (d) : (dats m out7 out8 out9 0 c).before 4 t d = iblk m c 4 t :=
  before0_4_of m (dats m out7 out8 out9 0 c) (A_eq m out7 out8 out9 c 4) (after0_4 m out7 out8 out9 c) t d
theorem before0_5 (c : Dev nD) (t : Fin cfg0.N) (d) : (dats m out7 out8 out9 0 c).before 5 t d = iblk m c 5 t :=
  before0_5_of m (dats m out7 out8 out9 0 c) (A_eq m out7 out8 out9 c 5) (after0_5 m out7 out8 out9 c) t d
theorem before0_6 (c : Dev nD) (t : Fin cfg0.N) (d) : (dats m out7 out8 out9 0 c).before 6 t d = iblk m c 6 t :=
  before0_6_of m (dats m out7 out8 out9 0 c) (A_eq m out7 out8 out9 c 6) (after0_6 m out7 out8 out9 c) t d

/-! ## The body obligation, at a generic point -/

/-- What the body is called with at point `t`, the windows one by one, -/
def bodyPre (c : Dev nD) (t : Fin cfg0.N) : sProp 𝕄 :=
  iprop((dats m out7 out8 out9 0 c).Φ t.castSucc ∗ (dats m out7 out8 out9 0 c).owesAt () t.castSucc
    ∗ (∃ d, owns (c : Thread nD τ) (st0_0 t) fullShare ((dats m out7 out8 out9 0 c).before 0 t d))
    ∗ (∃ d, owns (c : Thread nD τ) (st0_1 t) fullShare ((dats m out7 out8 out9 0 c).before 1 t d))
    ∗ (∃ d, owns (c : Thread nD τ) (st0_2 t) fullShare ((dats m out7 out8 out9 0 c).before 2 t d))
    ∗ (∃ d, owns (c : Thread nD τ) (st0_3 t) fullShare ((dats m out7 out8 out9 0 c).before 3 t d))
    ∗ (∃ d, owns (c : Thread nD τ) (st0_4 t) fullShare ((dats m out7 out8 out9 0 c).before 4 t d))
    ∗ (∃ d, owns (c : Thread nD τ) (st0_5 t) fullShare ((dats m out7 out8 out9 0 c).before 5 t d))
    ∗ (∃ d, owns (c : Thread nD τ) (st0_6 t) fullShare ((dats m out7 out8 out9 0 c).before 6 t d))
    ∗ (∃ d, owns (c : Thread nD τ) (st0_7 t) fullShare ((dats m out7 out8 out9 0 c).before 7 t d))
    ∗ (∃ d, owns (c : Thread nD τ) (st0_8 t) fullShare ((dats m out7 out8 out9 0 c).before 8 t d))
    ∗ (∃ d, owns (c : Thread nD τ) (st0_9 t) fullShare ((dats m out7 out8 out9 0 c).before 9 t d)))

/-- and what it returns. -/
def bodyPost (c : Dev nD) (t : Fin cfg0.N) : sProp 𝕄 :=
  iprop((dats m out7 out8 out9 0 c).Φ t.succ ∗ (dats m out7 out8 out9 0 c).owesAt () t.succ
    ∗ owns (c : Thread nD τ) (st0_0 t) fullShare ((dats m out7 out8 out9 0 c).after 0 t)
    ∗ owns (c : Thread nD τ) (st0_1 t) fullShare ((dats m out7 out8 out9 0 c).after 1 t)
    ∗ owns (c : Thread nD τ) (st0_2 t) fullShare ((dats m out7 out8 out9 0 c).after 2 t)
    ∗ owns (c : Thread nD τ) (st0_3 t) fullShare ((dats m out7 out8 out9 0 c).after 3 t)
    ∗ owns (c : Thread nD τ) (st0_4 t) fullShare ((dats m out7 out8 out9 0 c).after 4 t)
    ∗ owns (c : Thread nD τ) (st0_5 t) fullShare ((dats m out7 out8 out9 0 c).after 5 t)
    ∗ owns (c : Thread nD τ) (st0_6 t) fullShare ((dats m out7 out8 out9 0 c).after 6 t)
    ∗ owns (c : Thread nD τ) (st0_7 t) fullShare ((dats m out7 out8 out9 0 c).after 7 t)
    ∗ owns (c : Thread nD τ) (st0_8 t) fullShare ((dats m out7 out8 out9 0 c).after 8 t)
    ∗ owns (c : Thread nD τ) (st0_9 t) fullShare ((dats m out7 out8 out9 0 c).after 9 t))

variable (hsound : SoundKernel (F := F) out7 out8 out9)
include hsound

/-- The body at any point: the inputs' memrefs hold their blocks, so the triple applies; the invariant and the
    core's debt pass through unread. -/
theorem sound_body (c : Dev nD) (t : Fin cfg0.N) :
    bodyPre m out7 out8 out9 c t ⊢ wp frame (wpE (defs₀ (F := F)) Variants.none c none) Set.univ (bodyAt0 t) (fun _ => bodyPost m out7 out8 out9 c t) := by
  unfold bodyPre bodyPost bodyAt0
  simp only [before0_0, before0_1, before0_2, before0_3, before0_4, before0_5, before0_6]
  rw [show (dats m out7 out8 out9 0 c).Φ t.succ = (dats m out7 out8 out9 0 c).Φ t.castSucc from rfl,
    show (dats m out7 out8 out9 0 c).owesAt () t.succ = (dats m out7 out8 out9 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (hsound c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m out7 out8 out9 0 c) (defs₀ (F := F)) Variants.none () Set.univ := fun t => by
  rw [bigSep_W0, bigSep_W0]
  exact sound_body m out7 out8 out9 hsound c t

/-! ## The run and the frame -/

set_option backward.isDefEq.respectTransparency.types false in
/-- Every weakly fair execution of @main terminates, and every final state has every array of the pipeline at what
    the proof data's write-backs make it and every other unscoped buffer as the lines after the region leave it. -/
theorem run_main : θ_run defs (onTc (τ := τ) (main (F := F))) (s₀ m ρ) (Pipeline.FramePost cfgs (dats m out7 out8 out9) 0 (Pipeline.afterTail₀ cfgs (dats m out7 out8 out9) 0 (V0 m) [hostOps1])) :=
  Pipeline.θ_run_frame_around cfgs (dats m out7 out8 out9) (0 : Fin 1) launch0 defs₀ Variants.none m ρ main
    (hbody := fun c => (body_obligation m out7 out8 out9 hsound c).loose) (hshare := fun c => (dats m out7 out8 out9 0 c).share_full fun _ => rfl)
    (howed := fun _ _ => rfl) (V₀ := V0 m) (opss := [hostOps1]) (hsub := sfx_sub) (hfresh := sfx_fresh) (hkeep := sfx_keeps)
    (hmain := hmain m Variants.none) (hA := A_eq m out7 out8 out9) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m out7 out8 out9) (A_eq m out7 out8 out9) (run_main m ρ out7 out8 out9 hsound)

end Cert.KernelIdeal.Fr

end
-- ==== Proof.Spec.lean ====
/-
  The thermostat recurrence both programs compute, for ONE batch entry, on the extended reals.

  One batch entry carries: the momenta `p` of its 131072 atoms, three components each, laid out flat
  (component `3 n + d` belongs to atom `n`); the chain positions `q` and chain momenta `r` of a
  Nose–Hoover chain of length five. Its parameters: the mass `μ` attached to each momentum
  component (an atom's mass, repeated for its three components), the chain masses `M`, and `k = k_B T`.

  One substep of size `δ` (with `δh` standing for `δ / 2` and `δq` for `δ / 4`):
    forces   g₀ = Σ_j p_j² / μ_j − k · dof,   g_{c+1} = r_c² / M_c − k;
    kick     the last chain momentum by g₄ · δh;
    sweep    down the chain, j = 3, 2, 1, 0:  f = exp(−r_{j+1} / M_{j+1} · δq),  r_j ← (r_j f + g_j δh) f;
    drift    q_c ← q_c + r_c / M_c · δ;   scale every momentum by exp(−r₀ / M₀ · δ);
    then the forces again from the scaled momenta and the ORIGINAL chain momenta, the sweep again,
    and the kick of the last chain momentum again.
  Fourteen substeps follow one another (two rounds of seven Suzuki–Yoshida weights).
-/
import Idealize.ShloMosaic.PureOps.Ideal

noncomputable section

namespace Cert.Nhc

open Idealize.ShloMosaic

/-- Momentum components of one batch entry: 131072 atoms, three each. -/
abbrev ND : ℕ := 393216

/-- The number of degrees of freedom, as the programs spell it: the float 393216.0. -/
def dof : EReal := Ideal.ofBits .f32 0x48C00000#32

/-- The parameters of one batch entry. -/
structure Par where
  μ : Fin ND → EReal
  M : Fin 5 → EReal
  k : EReal

/-- The state of one batch entry. -/
structure St where
  p : Fin ND → EReal
  q : Fin 5 → EReal
  r : Fin 5 → EReal

/-- Twice the kinetic energy of the atoms: Σ_j p_j² / μ_j. -/
def kin (P : Par) (p : Fin ND → EReal) : EReal := ∑ j : Fin ND, Ideal.div (p j * p j) (P.μ j)

/-- The forces on the chain: the first from the atoms' kinetic energy, the others from the chain's own. -/
def force (P : Par) (p : Fin ND → EReal) (r : Fin 5 → EReal) : Fin 5 → EReal :=
  ![kin P p - P.k * dof,
    Ideal.div (r 0 * r 0) (P.M 0) - P.k,
    Ideal.div (r 1 * r 1) (P.M 1) - P.k,
    Ideal.div (r 2 * r 2) (P.M 2) - P.k,
    Ideal.div (r 3 * r 3) (P.M 3) - P.k]

/-- The damping factor a chain momentum `x` of mass `M c` applies to its neighbour below over a quarter step. -/
def damp (P : Par) (δq : EReal) (x : EReal) (c : Fin 5) : EReal :=
  Ideal.exp (Ideal.div (-x) (P.M c) * δq)

/-- One sweep down the chain, `j = 3, 2, 1, 0`: each momentum damped, kicked by its force over a half step,
    damped again, by the momentum above it as ALREADY updated. The last one is untouched. -/
def sweep (P : Par) (δh δq : EReal) (r g : Fin 5 → EReal) : Fin 5 → EReal :=
  let r3 := (r 3 * damp P δq (r 4) 4 + g 3 * δh) * damp P δq (r 4) 4
  let r2 := (r 2 * damp P δq r3 3 + g 2 * δh) * damp P δq r3 3
  let r1 := (r 1 * damp P δq r2 2 + g 1 * δh) * damp P δq r2 2
  let r0 := (r 0 * damp P δq r1 1 + g 0 * δh) * damp P δq r1 1
  ![r0, r1, r2, r3, r 4]

/-- The chain momenta after the first half of a substep. -/
def half1 (P : Par) (δh δq : EReal) (s : St) : Fin 5 → EReal :=
  let g := force P s.p s.r
  sweep P δh δq (Function.update s.r 4 (s.r 4 + g 4 * δh)) g

/-- The factor every atomic momentum is scaled by in a substep. -/
def scale (P : Par) (δ δh δq : EReal) (s : St) : EReal :=
  Ideal.exp (Ideal.div (-(half1 P δh δq s 0)) (P.M 0) * δ)

/-- One substep. -/
def step (P : Par) (δ δh δq : EReal) (s : St) : St :=
  let mc := half1 P δh δq s
  let p' : Fin ND → EReal := fun j => s.p j * scale P δ δh δq s
  let g2 := force P p' s.r
  let mc' := sweep P δh δq mc g2
  { p := p'
    q := fun c => s.q c + Ideal.div (mc c) (P.M c) * δ
    r := Function.update mc' 4 (mc' 4 + g2 4 * δh) }

/-- The fourteen substeps in order, `half` and `quarter` saying how a program forms `δ / 2` and `δ / 4`. -/
def run (P : Par) (half quarter : EReal → EReal) (δ : Fin 14 → EReal) (s : St) : St :=
  (List.finRange 14).foldl (fun s i => step P (δ i) (half (δ i)) (quarter (δ i)) s) s

/-- The seven Suzuki–Yoshida weights as the programs spell them (float words), repeated for the two rounds. -/
def weight : Fin 14 → EReal :=
  ![Ideal.ofBits .f32 0x3F48D5E2#32, Ideal.ofBits .f32 0x3E713A1B#32, Ideal.ofBits .f32 0xBF96BE38#32,
    Ideal.ofBits .f32 0x3FA85806#32, Ideal.ofBits .f32 0xBF96BE38#32, Ideal.ofBits .f32 0x3E713A1B#32,
    Ideal.ofBits .f32 0x3F48D5E2#32,
    Ideal.ofBits .f32 0x3F48D5E2#32, Ideal.ofBits .f32 0x3E713A1B#32, Ideal.ofBits .f32 0xBF96BE38#32,
    Ideal.ofBits .f32 0x3FA85806#32, Ideal.ofBits .f32 0xBF96BE38#32, Ideal.ofBits .f32 0x3E713A1B#32,
    Ideal.ofBits .f32 0x3F48D5E2#32]

/-- The size of substep `i` for a batch entry with time step `dt`, from the global step `stp`:
    `dt · (stp · w_i / 2)`, the quotient by the float 2.0. -/
def delta (dt stp : EReal) (i : Fin 14) : EReal :=
  dt * Ideal.div (stp * weight i) (Ideal.ofBits .f32 0x40000000#32)

/-- How the kernel halves and quarters a step: products with the floats 0.5 and 0.25. -/
def halfK (x : EReal) : EReal := x * Ideal.ofBits .f32 0x3F000000#32
def quarterK (x : EReal) : EReal := x * Ideal.ofBits .f32 0x3E800000#32
/-- How the reference does: quotients by the floats 2.0 and 4.0. -/
def halfR (x : EReal) : EReal := Ideal.div x (Ideal.ofBits .f32 0x40000000#32)
def quarterR (x : EReal) : EReal := Ideal.div x (Ideal.ofBits .f32 0x40800000#32)

end Cert.Nhc

end
-- ==== Proof.SpecArr.lean ====
/-
  The thermostat recurrence over the programs' ARRAYS: 32 batch entries, each run by itself.

  The arguments: momenta [32, 131072, 3], masses [32, 131072], k_B T [32], time steps [32], chain positions,
  chain momenta and chain masses [32, 5], and the global step (a scalar). Batch entry `b` has the state and the
  parameters read off row `b`; momentum component `j` of an entry is component `j % 3` of atom `j / 3`, and carries
  that atom's mass. Each result array holds, row by row, the entry's state after the fourteen substeps.
-/
import proofs.«156042_j46600395162250_1_alg».proof.Proof.Spec
import Idealize.ShloMosaic.Lib.ValueIdx

noncomputable section

namespace Cert.Nhc

open Idealize.ShloMosaic Idealize.ShloMosaic.ValueIdx

abbrev A3 : Shape := ⟨3, ![32, 131072, 3]⟩
abbrev A2 : Shape := ⟨2, ![32, 131072]⟩
abbrev A1 : Shape := ⟨1, ![32]⟩
abbrev A25 : Shape := ⟨2, ![32, 5]⟩
abbrev A0 : Shape := ⟨0, ![]⟩

/-- The atom a flat momentum component belongs to, -/
def atomOf (j : Fin ND) : Fin 131072 := ⟨j.val / 3, by have h : j.val < 393216 := j.isLt; omega⟩
/-- which of its three components it is, -/
def compOf (j : Fin ND) : Fin 3 := ⟨j.val % 3, Nat.mod_lt _ (by decide)⟩
/-- and the flat position of component `d` of atom `n`. -/
def flat (n : Fin 131072) (d : Fin 3) : Fin ND :=
  ⟨3 * n.val + d.val, by have := n.isLt; have := d.isLt; show 3 * n.val + d.val < 393216; omega⟩

theorem atomOf_flat (n : Fin 131072) (d : Fin 3) : atomOf (flat n d) = n := by
  apply Fin.ext; have := d.isLt; simp only [atomOf, flat]; omega
theorem compOf_flat (n : Fin 131072) (d : Fin 3) : compOf (flat n d) = d := by
  apply Fin.ext; have := d.isLt; simp only [compOf, flat]; omega
theorem flat_atomOf_compOf (j : Fin ND) : flat (atomOf j) (compOf j) = j := by
  apply Fin.ext; simp only [atomOf, compOf, flat]; omega

/-- The programs' nine arguments, less the positions neither reads. -/
structure Args where
  mom : A3.Idx → EReal
  mas : A2.Idx → EReal
  kbt : A1.Idx → EReal
  dtm : A1.Idx → EReal
  posn : A25.Idx → EReal
  momn : A25.Idx → EReal
  masn : A25.Idx → EReal
  stp : A0.Idx → EReal

/-- Batch entry `b`'s parameters, -/
def Args.par (a : Args) (b : Fin 32) : Par :=
  { μ := fun j => a.mas (ix2 b (atomOf j)), M := fun k => a.masn (ix2 b k), k := a.kbt (ix1 b) }
/-- its state at launch, -/
def Args.st0 (a : Args) (b : Fin 32) : St :=
  { p := fun j => a.mom (ix3 b (atomOf j) (compOf j)), q := fun k => a.posn (ix2 b k), r := fun k => a.momn (ix2 b k) }
/-- its substep sizes, -/
def Args.deltas (a : Args) (b : Fin 32) : Fin 14 → EReal := Cert.Nhc.delta (a.dtm (ix1 b)) (a.stp ix0)
/-- and its state after the fourteen substeps. -/
def Args.fin (a : Args) (half quarter : EReal → EReal) (b : Fin 32) : St :=
  run (a.par b) half quarter (a.deltas b) (a.st0 b)

/-- The momenta after the run, as the result array [32, 131072, 3]. -/
def Gp (a : Args) (half quarter : EReal → EReal) : A3.Idx → EReal :=
  fun i => (a.fin half quarter (i 0)).p (flat (i 1) (i 2))
/-- The chain positions after the run, [32, 5]. -/
def Gq (a : Args) (half quarter : EReal → EReal) : A25.Idx → EReal :=
  fun i => (a.fin half quarter (i 0)).q (i 1)
/-- The chain momenta after the run, [32, 5]. -/
def Gr (a : Args) (half quarter : EReal → EReal) : A25.Idx → EReal :=
  fun i => (a.fin half quarter (i 0)).r (i 1)

end Cert.Nhc

end
-- ==== Proof.SpecBlk.lean ====
/-
  The recurrence on one BLOCK of the kernel's grid: two batch entries, held as vectors of shape [2, 1, ·].
  Entry `b` of a block has its momenta and masses along the last axis of the two long vectors, its chain
  positions, momenta and masses in the five columns of three short ones, its k_B T in a one-column vector, and its
  fourteen substep sizes in the columns of the last.
-/
import proofs.«156042_j46600395162250_1_alg».proof.Proof.Spec
import Idealize.ShloMosaic.Lib.ValueIdx

noncomputable section

namespace Cert.Nhc

open Idealize.ShloMosaic Idealize.ShloMosaic.ValueIdx

abbrev B3 : Shape := ⟨3, ![2, 1, 393216]⟩
abbrev B5 : Shape := ⟨3, ![2, 1, 5]⟩
abbrev B1 : Shape := ⟨3, ![2, 1, 1]⟩
abbrev B14 : Shape := ⟨3, ![2, 1, 14]⟩

/-- Entry `b`'s parameters, read off the block's masses, chain masses and k_B T. -/
def blkPar (mas : B3.Idx → EReal) (masn : B5.Idx → EReal) (kbt : B1.Idx → EReal) (b : Fin 2) : Par :=
  { μ := fun j => mas (ix3 b 0 j), M := fun k => masn (ix3 b 0 k), k := kbt (ix3 b 0 0) }

/-- Entry `b`'s state, read off the block's momenta, chain positions and chain momenta. -/
def blkSt (mom : B3.Idx → EReal) (posn momn : B5.Idx → EReal) (b : Fin 2) : St :=
  { p := fun j => mom (ix3 b 0 j), q := fun k => posn (ix3 b 0 k), r := fun k => momn (ix3 b 0 k) }

/-- Entry `b`'s substep sizes. -/
def blkDelta (dea : B14.Idx → EReal) (b : Fin 2) : Fin 14 → EReal := fun s => dea (ix3 b 0 s)

/-- Entry `b`'s state after the fourteen substeps, the halves and quarters formed as products with 0.5 and 0.25.
    The arguments in the order of the kernel's operands: momenta, masses, chain momenta, chain positions, chain
    masses, k_B T, substep sizes. -/
def blkFin (mom mas : B3.Idx → EReal) (momn posn masn : B5.Idx → EReal) (kbt : B1.Idx → EReal) (dea : B14.Idx → EReal)
    (b : Fin 2) : St :=
  run (blkPar mas masn kbt b) halfK quarterK (blkDelta dea b) (blkSt mom posn momn b)

end Cert.Nhc

end
-- ==== Proof.KIValueA.lean ====
/-
  From blocks to arrays, for the idealized kernel. Grid point `t` handles batch entries `2 t` and `2 t + 1`: every
  window's block at `t` is rows `2 t, 2 t + 1` of its array, whole along the other two axes. The arrays the region
  finds are the host operations' results: the momenta and the (repeated) masses flattened to [32, 1, 393216], the
  three chain arrays and k_B T reshaped, the fourteen substep sizes side by side. So the seven input blocks at `t`,
  read at local entry `b`, are entry `2 t + b`'s parameters, state and substep sizes, and what the body leaves there is
  that entry's state after the fourteen substeps. The sixteen blocks of each output window tile its array, so each
  output array holds every entry's final state; the three reshapes after the region put it in the results' shapes.
-/
import proofs.«156042_j46600395162250_1_alg».proof.Proof.KIFrame
import proofs.«156042_j46600395162250_1_alg».proof.Proof.SpecArr
import proofs.«156042_j46600395162250_1_alg».proof.Proof.SpecBlk
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Nhc (Args Gp Gq Gr blkFin blkPar blkSt blkDelta halfK quarterK atomOf compOf flat)

variable (m : (ℓ : Loc nD τ sig) → Buf (Elt Ideal) ℓ) (ρ : Dev nD → PrngReg)

variable (out7 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec Ideal S2x1x393216 .f32 → Vec Ideal S2x1x393216 .f32 → Vec Ideal S2x1x5 .f32 → Vec Ideal S2x1x5 .f32 → Vec Ideal S2x1x5 .f32 → Vec Ideal S2x1x1 .f32 → Vec Ideal S2x1x14 .f32 → Vec Ideal S2x1x393216 .f32)
  (out8 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec Ideal S2x1x393216 .f32 → Vec Ideal S2x1x393216 .f32 → Vec Ideal S2x1x5 .f32 → Vec Ideal S2x1x5 .f32 → Vec Ideal S2x1x5 .f32 → Vec Ideal S2x1x1 .f32 → Vec Ideal S2x1x14 .f32 → Vec Ideal S2x1x5 .f32)
  (out9 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec Ideal S2x1x393216 .f32 → Vec Ideal S2x1x393216 .f32 → Vec Ideal S2x1x5 .f32 → Vec Ideal S2x1x5 .f32 → Vec Ideal S2x1x5 .f32 → Vec Ideal S2x1x1 .f32 → Vec Ideal S2x1x14 .f32 → Vec Ideal S2x1x5 .f32)

/-- The program's arguments on core `c`, as launched. -/
def argsK (c : Dev nD) : Args :=
  { mom := m ((c : Thread nD τ).loc main_arg1), mas := m ((c : Thread nD τ).loc main_arg2),
    kbt := m ((c : Thread nD τ).loc main_arg3), dtm := m ((c : Thread nD τ).loc main_arg4),
    posn := m ((c : Thread nD τ).loc main_arg5), momn := m ((c : Thread nD τ).loc main_arg6),
    masn := m ((c : Thread nD τ).loc main_arg7), stp := m ((c : Thread nD τ).loc main_arg8) }

/-- The batch entry that local entry `b` of grid point `t` is. -/
def row (t : Fin cfg0.N) (b : Fin 2) : Fin 32 :=
  ⟨2 * t.val + b.val, by have h : t.val < 16 := lt_of_lt_of_eq t.isLt N_0; have := b.isLt; omega⟩

/-- The printed index maps, decided over the grid: every window's block index at point `t` is `(t, 0, 0)`. -/
theorem idx_facts : ∀ t : Fin cfg0.N,
    (win0_0.index t (0 : Fin 3) = t.val ∧ win0_0.index t (1 : Fin 3) = 0 ∧ win0_0.index t (2 : Fin 3) = 0) ∧
    (win0_1.index t (0 : Fin 3) = t.val ∧ win0_1.index t (1 : Fin 3) = 0 ∧ win0_1.index t (2 : Fin 3) = 0) ∧
    (win0_2.index t (0 : Fin 3) = t.val ∧ win0_2.index t (1 : Fin 3) = 0 ∧ win0_2.index t (2 : Fin 3) = 0) ∧
    (win0_3.index t (0 : Fin 3) = t.val ∧ win0_3.index t (1 : Fin 3) = 0 ∧ win0_3.index t (2 : Fin 3) = 0) ∧
    (win0_4.index t (0 : Fin 3) = t.val ∧ win0_4.index t (1 : Fin 3) = 0 ∧ win0_4.index t (2 : Fin 3) = 0) ∧
    (win0_5.index t (0 : Fin 3) = t.val ∧ win0_5.index t (1 : Fin 3) = 0 ∧ win0_5.index t (2 : Fin 3) = 0) ∧
    (win0_6.index t (0 : Fin 3) = t.val ∧ win0_6.index t (1 : Fin 3) = 0 ∧ win0_6.index t (2 : Fin 3) = 0) ∧
    (win0_7.index t (0 : Fin 3) = t.val ∧ win0_7.index t (1 : Fin 3) = 0 ∧ win0_7.index t (2 : Fin 3) = 0) ∧
    (win0_8.index t (0 : Fin 3) = t.val ∧ win0_8.index t (1 : Fin 3) = 0 ∧ win0_8.index t (2 : Fin 3) = 0) ∧
    (win0_9.index t (0 : Fin 3) = t.val ∧ win0_9.index t (1 : Fin 3) = 0 ∧ win0_9.index t (2 : Fin 3) = 0) :=
  (by decide +kernel : ∀ t : Fin grid0.N, _)

/-- Window 0's block at `t`, embedded in its array: local entry `b` is row `2 t + b`. -/
theorem emb0 (t : Fin cfg0.N) (b : Fin 2) (z : Fin 1) (j : Fin 393216) :
    ((cfg0.win 0).blk t).view.emb (ix3 b z j) = ix3 (row t b) z j := by
  obtain ⟨e0, e1, e2⟩ := (idx_facts t).1
  have hz : z.val = 0 := by have := z.isLt; omega
  funext a; apply Fin.ext
  match a with
  | ⟨0, _⟩ => show win0_0.index t (0 : Fin 3) * 2 + 1 * b.val = 2 * t.val + b.val; omega
  | ⟨1, _⟩ => show win0_0.index t (1 : Fin 3) * 1 + 1 * z.val = z.val; omega
  | ⟨2, _⟩ => show win0_0.index t (2 : Fin 3) * 393216 + 1 * j.val = j.val; omega

/-- Window 1's block at `t`, embedded in its array: local entry `b` is row `2 t + b`. -/
theorem emb1 (t : Fin cfg0.N) (b : Fin 2) (z : Fin 1) (j : Fin 393216) :
    ((cfg0.win 1).blk t).view.emb (ix3 b z j) = ix3 (row t b) z j := by
  obtain ⟨e0, e1, e2⟩ := (idx_facts t).2.1
  have hz : z.val = 0 := by have := z.isLt; omega
  funext a; apply Fin.ext
  match a with
  | ⟨0, _⟩ => show win0_1.index t (0 : Fin 3) * 2 + 1 * b.val = 2 * t.val + b.val; omega
  | ⟨1, _⟩ => show win0_1.index t (1 : Fin 3) * 1 + 1 * z.val = z.val; omega
  | ⟨2, _⟩ => show win0_1.index t (2 : Fin 3) * 393216 + 1 * j.val = j.val; omega

/-- Window 2's block at `t`, embedded in its array: local entry `b` is row `2 t + b`. -/
theorem emb2 (t : Fin cfg0.N) (b : Fin 2) (z : Fin 1) (j : Fin 5) :
    ((cfg0.win 2).blk t).view.emb (ix3 b z j) = ix3 (row t b) z j := by
  obtain ⟨e0, e1, e2⟩ := (idx_facts t).2.2.1
  have hz : z.val = 0 := by have := z.isLt; omega
  funext a; apply Fin.ext
  match a with
  | ⟨0, _⟩ => show win0_2.index t (0 : Fin 3) * 2 + 1 * b.val = 2 * t.val + b.val; omega
  | ⟨1, _⟩ => show win0_2.index t (1 : Fin 3) * 1 + 1 * z.val = z.val; omega
  | ⟨2, _⟩ => show win0_2.index t (2 : Fin 3) * 5 + 1 * j.val = j.val; omega

/-- Window 3's block at `t`, embedded in its array: local entry `b` is row `2 t + b`. -/
theorem emb3 (t : Fin cfg0.N) (b : Fin 2) (z : Fin 1) (j : Fin 5) :
    ((cfg0.win 3).blk t).view.emb (ix3 b z j) = ix3 (row t b) z j := by
  obtain ⟨e0, e1, e2⟩ := (idx_facts t).2.2.2.1
  have hz : z.val = 0 := by have := z.isLt; omega
  funext a; apply Fin.ext
  match a with
  | ⟨0, _⟩ => show win0_3.index t (0 : Fin 3) * 2 + 1 * b.val = 2 * t.val + b.val; omega
  | ⟨1, _⟩ => show win0_3.index t (1 : Fin 3) * 1 + 1 * z.val = z.val; omega
  | ⟨2, _⟩ => show win0_3.index t (2 : Fin 3) * 5 + 1 * j.val = j.val; omega

/-- Window 4's block at `t`, embedded in its array: local entry `b` is row `2 t + b`. -/
theorem emb4 (t : Fin cfg0.N) (b : Fin 2) (z : Fin 1) (j : Fin 5) :
    ((cfg0.win 4).blk t).view.emb (ix3 b z j) = ix3 (row t b) z j := by
  obtain ⟨e0, e1, e2⟩ := (idx_facts t).2.2.2.2.1
  have hz : z.val = 0 := by have := z.isLt; omega
  funext a; apply Fin.ext
  match a with
  | ⟨0, _⟩ => show win0_4.index t (0 : Fin 3) * 2 + 1 * b.val = 2 * t.val + b.val; omega
  | ⟨1, _⟩ => show win0_4.index t (1 : Fin 3) * 1 + 1 * z.val = z.val; omega
  | ⟨2, _⟩ => show win0_4.index t (2 : Fin 3) * 5 + 1 * j.val = j.val; omega

/-- Window 5's block at `t`, embedded in its array: local entry `b` is row `2 t + b`. -/
theorem emb5 (t : Fin cfg0.N) (b : Fin 2) (z : Fin 1) (j : Fin 1) :
    ((cfg0.win 5).blk t).view.emb (ix3 b z j) = ix3 (row t b) z j := by
  obtain ⟨e0, e1, e2⟩ := (idx_facts t).2.2.2.2.2.1
  have hz : z.val = 0 := by have := z.isLt; omega
  funext a; apply Fin.ext
  match a with
  | ⟨0, _⟩ => show win0_5.index t (0 : Fin 3) * 2 + 1 * b.val = 2 * t.val + b.val; omega
  | ⟨1, _⟩ => show win0_5.index t (1 : Fin 3) * 1 + 1 * z.val = z.val; omega
  | ⟨2, _⟩ => show win0_5.index t (2 : Fin 3) * 1 + 1 * j.val = j.val; omega

/-- Window 6's block at `t`, embedded in its array: local entry `b` is row `2 t + b`. -/
theorem emb6 (t : Fin cfg0.N) (b : Fin 2) (z : Fin 1) (j : Fin 14) :
    ((cfg0.win 6).blk t).view.emb (ix3 b z j) = ix3 (row t b) z j := by
  obtain ⟨e0, e1, e2⟩ := (idx_facts t).2.2.2.2.2.2.1
  have hz : z.val = 0 := by have := z.isLt; omega
  funext a; apply Fin.ext
  match a with
  | ⟨0, _⟩ => show win0_6.index t (0 : Fin 3) * 2 + 1 * b.val = 2 * t.val + b.val; omega
  | ⟨1, _⟩ => show win0_6.index t (1 : Fin 3) * 1 + 1 * z.val = z.val; omega
  | ⟨2, _⟩ => show win0_6.index t (2 : Fin 3) * 14 + 1 * j.val = j.val; omega

/-- Window 7's block at `t`, embedded in its array: local entry `b` is row `2 t + b`. -/
theorem emb7 (t : Fin cfg0.N) (b : Fin 2) (z : Fin 1) (j : Fin 393216) :
    ((cfg0.win 7).blk t).view.emb (ix3 b z j) = ix3 (row t b) z j := by
  obtain ⟨e0, e1, e2⟩ := (idx_facts t).2.2.2.2.2.2.2.1
  have hz : z.val = 0 := by have := z.isLt; omega
  funext a; apply Fin.ext
  match a with
  | ⟨0, _⟩ => show win0_7.index t (0 : Fin 3) * 2 + 1 * b.val = 2 * t.val + b.val; omega
  | ⟨1, _⟩ => show win0_7.index t (1 : Fin 3) * 1 + 1 * z.val = z.val; omega
  | ⟨2, _⟩ => show win0_7.index t (2 : Fin 3) * 393216 + 1 * j.val = j.val; omega

/-- Window 8's block at `t`, embedded in its array: local entry `b` is row `2 t + b`. -/
theorem emb8 (t : Fin cfg0.N) (b : Fin 2) (z : Fin 1) (j : Fin 5) :
    ((cfg0.win 8).blk t).view.emb (ix3 b z j) = ix3 (row t b) z j := by
  obtain ⟨e0, e1, e2⟩ := (idx_facts t).2.2.2.2.2.2.2.2.1
  have hz : z.val = 0 := by have := z.isLt; omega
  funext a; apply Fin.ext
  match a with
  | ⟨0, _⟩ => show win0_8.index t (0 : Fin 3) * 2 + 1 * b.val = 2 * t.val + b.val; omega
  | ⟨1, _⟩ => show win0_8.index t (1 : Fin 3) * 1 + 1 * z.val = z.val; omega
  | ⟨2, _⟩ => show win0_8.index t (2 : Fin 3) * 5 + 1 * j.val = j.val; omega

/-- Window 9's block at `t`, embedded in its array: local entry `b` is row `2 t + b`. -/
theorem emb9 (t : Fin cfg0.N) (b : Fin 2) (z : Fin 1) (j : Fin 5) :
    ((cfg0.win 9).blk t).view.emb (ix3 b z j) = ix3 (row t b) z j := by
  obtain ⟨e0, e1, e2⟩ := (idx_facts t).2.2.2.2.2.2.2.2.2
  have hz : z.val = 0 := by have := z.isLt; omega
  funext a; apply Fin.ext
  match a with
  | ⟨0, _⟩ => show win0_9.index t (0 : Fin 3) * 2 + 1 * b.val = 2 * t.val + b.val; omega
  | ⟨1, _⟩ => show win0_9.index t (1 : Fin 3) * 1 + 1 * z.val = z.val; omega
  | ⟨2, _⟩ => show win0_9.index t (2 : Fin 3) * 5 + 1 * j.val = j.val; omega

/-! ## Three families of facts, stated here and used as hypotheses below -/

/-- The host operations before the region, read at an index: the arrays the region finds. -/
structure HostVals : Prop where
  v71 : ∀ (c : Dev nD) (b : Fin 32) (z : Fin 1) (j : Fin 393216), V m c main_v71 (ix3 b z j) = (argsK m c).mom (ix3 b (atomOf j) (compOf j))
  v74 : ∀ (c : Dev nD) (b : Fin 32) (z : Fin 1) (j : Fin 393216), V m c main_v74 (ix3 b z j) = (argsK m c).mas (ix2 b (atomOf j))
  v75 : ∀ (c : Dev nD) (b : Fin 32) (z : Fin 1) (k : Fin 5), V m c main_v75 (ix3 b z k) = (argsK m c).momn (ix2 b k)
  v76 : ∀ (c : Dev nD) (b : Fin 32) (z : Fin 1) (k : Fin 5), V m c main_v76 (ix3 b z k) = (argsK m c).posn (ix2 b k)
  v77 : ∀ (c : Dev nD) (b : Fin 32) (z : Fin 1) (k : Fin 5), V m c main_v77 (ix3 b z k) = (argsK m c).masn (ix2 b k)
  v78 : ∀ (c : Dev nD) (b : Fin 32) (z z' : Fin 1), V m c main_v78 (ix3 b z z') = (argsK m c).kbt (ix1 b)
  v79 : ∀ (c : Dev nD) (b : Fin 32) (z : Fin 1) (s : Fin 14), V m c main_v79 (ix3 b z s) = (argsK m c).deltas b s

/-- The three reshapes after the region, read at an index. -/
structure TailVals (dats : (p : Fin 1) → (c : Dev nD) → Dat τ (Elt Ideal) Unit ℕ (UR sig nD τ) ℕ (cfgs p) c) : Prop where
  v81 : ∀ (c : Dev nD) (b : Fin 32) (n : Fin 131072) (d : Fin 3),
    Pipeline.afterTail₀ cfgs dats 0 (V0 m) [hostOps1] c main_v81 (ix3 b n d) = (dats 0 c).arrAt 7 cfg0.N (ix3 b (0 : Fin 1) (flat n d))
  v82 : ∀ (c : Dev nD) (b : Fin 32) (k : Fin 5),
    Pipeline.afterTail₀ cfgs dats 0 (V0 m) [hostOps1] c main_v82 (ix2 b k) = (dats 0 c).arrAt 8 cfg0.N (ix3 b (0 : Fin 1) k)
  v83 : ∀ (c : Dev nD) (b : Fin 32) (k : Fin 5),
    Pipeline.afterTail₀ cfgs dats 0 (V0 m) [hostOps1] c main_v83 (ix2 b k) = (dats 0 c).arrAt 9 cfg0.N (ix3 b (0 : Fin 1) k)

/-- What the body leaves, read at an index: the block's entries after the fourteen substeps. -/
structure BlockVals : Prop where
  o7 : ∀ (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole) (x0 : Vec Ideal S2x1x393216 .f32) (x1 : Vec Ideal S2x1x393216 .f32) (x2 : Vec Ideal S2x1x5 .f32) (x3 : Vec Ideal S2x1x5 .f32) (x4 : Vec Ideal S2x1x5 .f32) (x5 : Vec Ideal S2x1x1 .f32) (x6 : Vec Ideal S2x1x14 .f32) (b : Fin 2) (j : Fin 393216),
    out7 c i arg1 harg1 arg2 harg2 arg3 harg3 arg4 harg4 arg5 harg5 arg6 harg6 arg7 harg7 arg8 harg8 arg9 harg9 arg10 harg10 x0 x1 x2 x3 x4 x5 x6 (ix3 b 0 j) = (blkFin x0 x1 x2 x3 x4 x5 x6 b).p j
  o8 : ∀ (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole) (x0 : Vec Ideal S2x1x393216 .f32) (x1 : Vec Ideal S2x1x393216 .f32) (x2 : Vec Ideal S2x1x5 .f32) (x3 : Vec Ideal S2x1x5 .f32) (x4 : Vec Ideal S2x1x5 .f32) (x5 : Vec Ideal S2x1x1 .f32) (x6 : Vec Ideal S2x1x14 .f32) (b : Fin 2) (k : Fin 5),
    out8 c i arg1 harg1 arg2 harg2 arg3 harg3 arg4 harg4 arg5 harg5 arg6 harg6 arg7 harg7 arg8 harg8 arg9 harg9 arg10 harg10 x0 x1 x2 x3 x4 x5 x6 (ix3 b 0 k) = (blkFin x0 x1 x2 x3 x4 x5 x6 b).q k
  o9 : ∀ (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole) (x0 : Vec Ideal S2x1x393216 .f32) (x1 : Vec Ideal S2x1x393216 .f32) (x2 : Vec Ideal S2x1x5 .f32) (x3 : Vec Ideal S2x1x5 .f32) (x4 : Vec Ideal S2x1x5 .f32) (x5 : Vec Ideal S2x1x1 .f32) (x6 : Vec Ideal S2x1x14 .f32) (b : Fin 2) (k : Fin 5),
    out9 c i arg1 harg1 arg2 harg2 arg3 harg3 arg4 harg4 arg5 harg5 arg6 harg6 arg7 harg7 arg8 harg8 arg9 harg9 arg10 harg10 x0 x1 x2 x3 x4 x5 x6 (ix3 b 0 k) = (blkFin x0 x1 x2 x3 x4 x5 x6 b).r k

end Cert.KernelIdeal.Fr

end
-- ==== Proof.KIValueB.lean ====
/-
  The seven input windows' blocks at a grid point, read at a local entry: block `t` of a window is rows `2 t` and
  `2 t + 1` of the array the region finds, so local entry `b` reads row `2 t + b` of it.
-/
import proofs.«156042_j46600395162250_1_alg».proof.Proof.KIValueA
import proofs.«156042_j46600395162250_1_alg».proof.Proof.SpecArr
import proofs.«156042_j46600395162250_1_alg».proof.Proof.SpecBlk
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Nhc (Args Gp Gq Gr blkFin blkPar blkSt blkDelta halfK quarterK atomOf compOf flat)

variable (m : (ℓ : Loc nD τ sig) → Buf (Elt Ideal) ℓ)

set_option maxHeartbeats 2000000

/-- Window 0's block at `t`, read at an index of the window's own block shape: the view's read, spelled out. -/
theorem iblk0_read (c : Dev nD) (t : Fin cfg0.N) (y : ((cfg0.win 0).xblock (cfg0.grid.coords t)).Idx) :
    iblk m c 0 t y = _root_.cast (congrArg (Elt Ideal) ((cfg0.win 0).blk t).view.elt_eq)
      (V m c (Pipeline.arrRef spec0 0) (((cfg0.win 0).blk t).view.emb y)) := rfl

/-- Window 0's array is `main_v71`. -/
theorem iblk0_arr (c : Dev nD) : V m c (Pipeline.arrRef spec0 0) = V m c main_v71 := rfl

/-- The view's element type is the array's: the cast does nothing. -/
theorem iblk0_cast (t : Fin cfg0.N) (z : Elt Ideal (Pipeline.arrRef spec0 0).ty.elt) :
    _root_.cast (congrArg (Elt Ideal) ((cfg0.win 0).blk t).view.elt_eq) z = z := rfl

/-- Window 0's block at `t` reads `main_v71` at the index the view embeds. -/
theorem iblk0_emb (c : Dev nD) (t : Fin cfg0.N) (y : ((cfg0.win 0).xblock (cfg0.grid.coords t)).Idx) :
    iblk m c 0 t y = V m c main_v71 (((cfg0.win 0).blk t).view.emb y) :=
  (iblk0_read m c t y).trans ((iblk0_cast t _).trans (congrFun (iblk0_arr m c) _))

theorem iblk0_fun (c : Dev nD) (t : Fin cfg0.N) :
    (iblk m c 0 t : S2x1x393216.Idx → EReal) = fun y => V m c main_v71 (ix3 (row t (y 0)) (y 1) (y 2)) := by
  funext y
  obtain ⟨b, z, j, rfl⟩ : ∃ (b : Fin 2) (z : Fin 1) (j : Fin 393216), y = ix3 b z j := ⟨y 0, y 1, y 2, eq_ix3 y⟩
  rw [iblk0_emb m c t (ix3 b z j), emb0]
  rfl

/-- Window 1's block at `t`, read at an index of the window's own block shape: the view's read, spelled out. -/
theorem iblk1_read (c : Dev nD) (t : Fin cfg0.N) (y : ((cfg0.win 1).xblock (cfg0.grid.coords t)).Idx) :
    iblk m c 1 t y = _root_.cast (congrArg (Elt Ideal) ((cfg0.win 1).blk t).view.elt_eq)
      (V m c (Pipeline.arrRef spec0 1) (((cfg0.win 1).blk t).view.emb y)) := rfl

/-- Window 1's array is `main_v74`. -/
theorem iblk1_arr (c : Dev nD) : V m c (Pipeline.arrRef spec0 1) = V m c main_v74 := rfl

/-- The view's element type is the array's: the cast does nothing. -/
theorem iblk1_cast (t : Fin cfg0.N) (z : Elt Ideal (Pipeline.arrRef spec0 1).ty.elt) :
    _root_.cast (congrArg (Elt Ideal) ((cfg0.win 1).blk t).view.elt_eq) z = z := rfl

/-- Window 1's block at `t` reads `main_v74` at the index the view embeds. -/
theorem iblk1_emb (c : Dev nD) (t : Fin cfg0.N) (y : ((cfg0.win 1).xblock (cfg0.grid.coords t)).Idx) :
    iblk m c 1 t y = V m c main_v74 (((cfg0.win 1).blk t).view.emb y) :=
  (iblk1_read m c t y).trans ((iblk1_cast t _).trans (congrFun (iblk1_arr m c) _))

theorem iblk1_fun (c : Dev nD) (t : Fin cfg0.N) :
    (iblk m c 1 t : S2x1x393216.Idx → EReal) = fun y => V m c main_v74 (ix3 (row t (y 0)) (y 1) (y 2)) := by
  funext y
  obtain ⟨b, z, j, rfl⟩ : ∃ (b : Fin 2) (z : Fin 1) (j : Fin 393216), y = ix3 b z j := ⟨y 0, y 1, y 2, eq_ix3 y⟩
  rw [iblk1_emb m c t (ix3 b z j), emb1]
  rfl

/-- Window 2's block at `t`, read at an index of the window's own block shape: the view's read, spelled out. -/
theorem iblk2_read (c : Dev nD) (t : Fin cfg0.N) (y : ((cfg0.win 2).xblock (cfg0.grid.coords t)).Idx) :
    iblk m c 2 t y = _root_.cast (congrArg (Elt Ideal) ((cfg0.win 2).blk t).view.elt_eq)
      (V m c (Pipeline.arrRef spec0 2) (((cfg0.win 2).blk t).view.emb y)) := rfl

/-- Window 2's array is `main_v75`. -/
theorem iblk2_arr (c : Dev nD) : V m c (Pipeline.arrRef spec0 2) = V m c main_v75 := rfl

/-- The view's element type is the array's: the cast does nothing. -/
theorem iblk2_cast (t : Fin cfg0.N) (z : Elt Ideal (Pipeline.arrRef spec0 2).ty.elt) :
    _root_.cast (congrArg (Elt Ideal) ((cfg0.win 2).blk t).view.elt_eq) z = z := rfl

/-- Window 2's block at `t` reads `main_v75` at the index the view embeds. -/
theorem iblk2_emb (c : Dev nD) (t : Fin cfg0.N) (y : ((cfg0.win 2).xblock (cfg0.grid.coords t)).Idx) :
    iblk m c 2 t y = V m c main_v75 (((cfg0.win 2).blk t).view.emb y) :=
  (iblk2_read m c t y).trans ((iblk2_cast t _).trans (congrFun (iblk2_arr m c) _))

theorem iblk2_fun (c : Dev nD) (t : Fin cfg0.N) :
    (iblk m c 2 t : S2x1x5.Idx → EReal) = fun y => V m c main_v75 (ix3 (row t (y 0)) (y 1) (y 2)) := by
  funext y
  obtain ⟨b, z, j, rfl⟩ : ∃ (b : Fin 2) (z : Fin 1) (j : Fin 5), y = ix3 b z j := ⟨y 0, y 1, y 2, eq_ix3 y⟩
  rw [iblk2_emb m c t (ix3 b z j), emb2]
  rfl

/-- Window 3's block at `t`, read at an index of the window's own block shape: the view's read, spelled out. -/
theorem iblk3_read (c : Dev nD) (t : Fin cfg0.N) (y : ((cfg0.win 3).xblock (cfg0.grid.coords t)).Idx) :
    iblk m c 3 t y = _root_.cast (congrArg (Elt Ideal) ((cfg0.win 3).blk t).view.elt_eq)
      (V m c (Pipeline.arrRef spec0 3) (((cfg0.win 3).blk t).view.emb y)) := rfl

/-- Window 3's array is `main_v76`. -/
theorem iblk3_arr (c : Dev nD) : V m c (Pipeline.arrRef spec0 3) = V m c main_v76 := rfl

/-- The view's element type is the array's: the cast does nothing. -/
theorem iblk3_cast (t : Fin cfg0.N) (z : Elt Ideal (Pipeline.arrRef spec0 3).ty.elt) :
    _root_.cast (congrArg (Elt Ideal) ((cfg0.win 3).blk t).view.elt_eq) z = z := rfl

/-- Window 3's block at `t` reads `main_v76` at the index the view embeds. -/
theorem iblk3_emb (c : Dev nD) (t : Fin cfg0.N) (y : ((cfg0.win 3).xblock (cfg0.grid.coords t)).Idx) :
    iblk m c 3 t y = V m c main_v76 (((cfg0.win 3).blk t).view.emb y) :=
  (iblk3_read m c t y).trans ((iblk3_cast t _).trans (congrFun (iblk3_arr m c) _))

theorem iblk3_fun (c : Dev nD) (t : Fin cfg0.N) :
    (iblk m c 3 t : S2x1x5.Idx → EReal) = fun y => V m c main_v76 (ix3 (row t (y 0)) (y 1) (y 2)) := by
  funext y
  obtain ⟨b, z, j, rfl⟩ : ∃ (b : Fin 2) (z : Fin 1) (j : Fin 5), y = ix3 b z j := ⟨y 0, y 1, y 2, eq_ix3 y⟩
  rw [iblk3_emb m c t (ix3 b z j), emb3]
  rfl

/-- Window 4's block at `t`, read at an index of the window's own block shape: the view's read, spelled out. -/
theorem iblk4_read (c : Dev nD) (t : Fin cfg0.N) (y : ((cfg0.win 4).xblock (cfg0.grid.coords t)).Idx) :
    iblk m c 4 t y = _root_.cast (congrArg (Elt Ideal) ((cfg0.win 4).blk t).view.elt_eq)
      (V m c (Pipeline.arrRef spec0 4) (((cfg0.win 4).blk t).view.emb y)) := rfl

/-- Window 4's array is `main_v77`. -/
theorem iblk4_arr (c : Dev nD) : V m c (Pipeline.arrRef spec0 4) = V m c main_v77 := rfl

/-- The view's element type is the array's: the cast does nothing. -/
theorem iblk4_cast (t : Fin cfg0.N) (z : Elt Ideal (Pipeline.arrRef spec0 4).ty.elt) :
    _root_.cast (congrArg (Elt Ideal) ((cfg0.win 4).blk t).view.elt_eq) z = z := rfl

/-- Window 4's block at `t` reads `main_v77` at the index the view embeds. -/
theorem iblk4_emb (c : Dev nD) (t : Fin cfg0.N) (y : ((cfg0.win 4).xblock (cfg0.grid.coords t)).Idx) :
    iblk m c 4 t y = V m c main_v77 (((cfg0.win 4).blk t).view.emb y) :=
  (iblk4_read m c t y).trans ((iblk4_cast t _).trans (congrFun (iblk4_arr m c) _))

theorem iblk4_fun (c : Dev nD) (t : Fin cfg0.N) :
    (iblk m c 4 t : S2x1x5.Idx → EReal) = fun y => V m c main_v77 (ix3 (row t (y 0)) (y 1) (y 2)) := by
  funext y
  obtain ⟨b, z, j, rfl⟩ : ∃ (b : Fin 2) (z : Fin 1) (j : Fin 5), y = ix3 b z j := ⟨y 0, y 1, y 2, eq_ix3 y⟩
  rw [iblk4_emb m c t (ix3 b z j), emb4]
  rfl

/-- Window 5's block at `t`, read at an index of the window's own block shape: the view's read, spelled out. -/
theorem iblk5_read (c : Dev nD) (t : Fin cfg0.N) (y : ((cfg0.win 5).xblock (cfg0.grid.coords t)).Idx) :
    iblk m c 5 t y = _root_.cast (congrArg (Elt Ideal) ((cfg0.win 5).blk t).view.elt_eq)
      (V m c (Pipeline.arrRef spec0 5) (((cfg0.win 5).blk t).view.emb y)) := rfl

/-- Window 5's array is `main_v78`. -/
theorem iblk5_arr (c : Dev nD) : V m c (Pipeline.arrRef spec0 5) = V m c main_v78 := rfl

/-- The view's element type is the array's: the cast does nothing. -/
theorem iblk5_cast (t : Fin cfg0.N) (z : Elt Ideal (Pipeline.arrRef spec0 5).ty.elt) :
    _root_.cast (congrArg (Elt Ideal) ((cfg0.win 5).blk t).view.elt_eq) z = z := rfl

/-- Window 5's block at `t` reads `main_v78` at the index the view embeds. -/
theorem iblk5_emb (c : Dev nD) (t : Fin cfg0.N) (y : ((cfg0.win 5).xblock (cfg0.grid.coords t)).Idx) :
    iblk m c 5 t y = V m c main_v78 (((cfg0.win 5).blk t).view.emb y) :=
  (iblk5_read m c t y).trans ((iblk5_cast t _).trans (congrFun (iblk5_arr m c) _))

theorem iblk5_fun (c : Dev nD) (t : Fin cfg0.N) :
    (iblk m c 5 t : S2x1x1.Idx → EReal) = fun y => V m c main_v78 (ix3 (row t (y 0)) (y 1) (y 2)) := by
  funext y
  obtain ⟨b, z, j, rfl⟩ : ∃ (b : Fin 2) (z : Fin 1) (j : Fin 1), y = ix3 b z j := ⟨y 0, y 1, y 2, eq_ix3 y⟩
  rw [iblk5_emb m c t (ix3 b z j), emb5]
  rfl

/-- Window 6's block at `t`, read at an index of the window's own block shape: the view's read, spelled out. -/
theorem iblk6_read (c : Dev nD) (t : Fin cfg0.N) (y : ((cfg0.win 6).xblock (cfg0.grid.coords t)).Idx) :
    iblk m c 6 t y = _root_.cast (congrArg (Elt Ideal) ((cfg0.win 6).blk t).view.elt_eq)
      (V m c (Pipeline.arrRef spec0 6) (((cfg0.win 6).blk t).view.emb y)) := rfl

/-- Window 6's array is `main_v79`. -/
theorem iblk6_arr (c : Dev nD) : V m c (Pipeline.arrRef spec0 6) = V m c main_v79 := rfl

/-- The view's element type is the array's: the cast does nothing. -/
theorem iblk6_cast (t : Fin cfg0.N) (z : Elt Ideal (Pipeline.arrRef spec0 6).ty.elt) :
    _root_.cast (congrArg (Elt Ideal) ((cfg0.win 6).blk t).view.elt_eq) z = z := rfl

/-- Window 6's block at `t` reads `main_v79` at the index the view embeds. -/
theorem iblk6_emb (c : Dev nD) (t : Fin cfg0.N) (y : ((cfg0.win 6).xblock (cfg0.grid.coords t)).Idx) :
    iblk m c 6 t y = V m c main_v79 (((cfg0.win 6).blk t).view.emb y) :=
  (iblk6_read m c t y).trans ((iblk6_cast t _).trans (congrFun (iblk6_arr m c) _))

theorem iblk6_fun (c : Dev nD) (t : Fin cfg0.N) :
    (iblk m c 6 t : S2x1x14.Idx → EReal) = fun y => V m c main_v79 (ix3 (row t (y 0)) (y 1) (y 2)) := by
  funext y
  obtain ⟨b, z, j, rfl⟩ : ∃ (b : Fin 2) (z : Fin 1) (j : Fin 14), y = ix3 b z j := ⟨y 0, y 1, y 2, eq_ix3 y⟩
  rw [iblk6_emb m c t (ix3 b z j), emb6]
  rfl

end Cert.KernelIdeal.Fr

end
-- ==== Proof.KIValueC.lean ====
/-
  From blocks to arrays. The seven input blocks at grid point `t`, read at local entry `b`, are batch entry
  `2 t + b`'s parameters, state and substep sizes; what the body leaves in the three output blocks there is that
  entry's state after the fourteen substeps; the sixteen blocks of each output window tile its array; and the three
  reshapes after the region put the arrays in the results' shapes.
-/
import proofs.«156042_j46600395162250_1_alg».proof.Proof.KIValueB
import proofs.«156042_j46600395162250_1_alg».proof.Proof.SpecArr
import proofs.«156042_j46600395162250_1_alg».proof.Proof.SpecBlk
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Nhc (Args Gp Gq Gr blkFin blkPar blkSt blkDelta halfK quarterK atomOf compOf flat)

variable (m : (ℓ : Loc nD τ sig) → Buf (Elt Ideal) ℓ) (ρ : Dev nD → PrngReg)

variable (out7 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec Ideal S2x1x393216 .f32 → Vec Ideal S2x1x393216 .f32 → Vec Ideal S2x1x5 .f32 → Vec Ideal S2x1x5 .f32 → Vec Ideal S2x1x5 .f32 → Vec Ideal S2x1x1 .f32 → Vec Ideal S2x1x14 .f32 → Vec Ideal S2x1x393216 .f32)
  (out8 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec Ideal S2x1x393216 .f32 → Vec Ideal S2x1x393216 .f32 → Vec Ideal S2x1x5 .f32 → Vec Ideal S2x1x5 .f32 → Vec Ideal S2x1x5 .f32 → Vec Ideal S2x1x1 .f32 → Vec Ideal S2x1x14 .f32 → Vec Ideal S2x1x5 .f32)
  (out9 : (c : Dev nD) → grid0.Coords → (arg1 : Memref sig .tc .vmem S2x1x393216 .f32) → arg1.IsWhole → (arg2 : Memref sig .tc .vmem S2x1x393216 .f32) → arg2.IsWhole → (arg3 : Memref sig .tc .vmem S2x1x5 .f32) → arg3.IsWhole → (arg4 : Memref sig .tc .vmem S2x1x5 .f32) → arg4.IsWhole → (arg5 : Memref sig .tc .vmem S2x1x5 .f32) → arg5.IsWhole → (arg6 : Memref sig .tc .vmem S2x1x1 .f32) → arg6.IsWhole → (arg7 : Memref sig .tc .vmem S2x1x14 .f32) → arg7.IsWhole → (arg8 : Memref sig .tc .vmem S2x1x393216 .f32) → arg8.IsWhole → (arg9 : Memref sig .tc .vmem S2x1x5 .f32) → arg9.IsWhole → (arg10 : Memref sig .tc .vmem S2x1x5 .f32) → arg10.IsWhole → Vec Ideal S2x1x393216 .f32 → Vec Ideal S2x1x393216 .f32 → Vec Ideal S2x1x5 .f32 → Vec Ideal S2x1x5 .f32 → Vec Ideal S2x1x5 .f32 → Vec Ideal S2x1x1 .f32 → Vec Ideal S2x1x14 .f32 → Vec Ideal S2x1x5 .f32)

variable (hH : HostVals m) (hB : BlockVals out7 out8 out9)

/- The blocks are used through their read-off lemmas only; their definition stays folded. -/
attribute [local irreducible] iblk

/-- Two parameter sets with the same masses, chain masses and k_B T are one. -/
theorem par_ext {P Q : Cert.Nhc.Par} (hμ : P.μ = Q.μ) (hM : P.M = Q.M) (hk : P.k = Q.k) : P = Q := by
  cases P; cases Q; cases hμ; cases hM; cases hk; rfl

/-- Two states with the same momenta, chain positions and chain momenta are one. -/
theorem st_ext {s s' : Cert.Nhc.St} (hp : s.p = s'.p) (hq : s.q = s'.q) (hr : s.r = s'.r) : s = s' := by
  cases s; cases s'; cases hp; cases hq; cases hr; rfl

/-- The run of equal parameters, substep sizes and states. -/
theorem run_congr {P P' : Cert.Nhc.Par} {δ δ' : Fin 14 → EReal} {s s' : Cert.Nhc.St} (hP : P = P') (hδ : δ = δ') (hs : s = s') :
    Cert.Nhc.run P halfK quarterK δ s = Cert.Nhc.run P' halfK quarterK δ' s' := by
  cases hP; cases hδ; cases hs; rfl

/-! Each input window's block at `t`, at local entry `b`: the array's row `2 t + b`. -/

theorem iblk0_at (c : Dev nD) (t : Fin cfg0.N) (b : Fin 2) (z : Fin 1) (j : Fin 393216) :
    iblk m c 0 t (ix3 b z j) = V m c main_v71 (ix3 (row t b) z j) := by
  rw [iblk0_emb m c t (ix3 b z j), emb0]

theorem iblk1_at (c : Dev nD) (t : Fin cfg0.N) (b : Fin 2) (z : Fin 1) (j : Fin 393216) :
    iblk m c 1 t (ix3 b z j) = V m c main_v74 (ix3 (row t b) z j) := by
  rw [iblk1_emb m c t (ix3 b z j), emb1]

theorem iblk2_at (c : Dev nD) (t : Fin cfg0.N) (b : Fin 2) (z : Fin 1) (j : Fin 5) :
    iblk m c 2 t (ix3 b z j) = V m c main_v75 (ix3 (row t b) z j) := by
  rw [iblk2_emb m c t (ix3 b z j), emb2]

theorem iblk3_at (c : Dev nD) (t : Fin cfg0.N) (b : Fin 2) (z : Fin 1) (j : Fin 5) :
    iblk m c 3 t (ix3 b z j) = V m c main_v76 (ix3 (row t b) z j) := by
  rw [iblk3_emb m c t (ix3 b z j), emb3]

theorem iblk4_at (c : Dev nD) (t : Fin cfg0.N) (b : Fin 2) (z : Fin 1) (j : Fin 5) :
    iblk m c 4 t (ix3 b z j) = V m c main_v77 (ix3 (row t b) z j) := by
  rw [iblk4_emb m c t (ix3 b z j), emb4]

theorem iblk5_at (c : Dev nD) (t : Fin cfg0.N) (b : Fin 2) (z : Fin 1) (j : Fin 1) :
    iblk m c 5 t (ix3 b z j) = V m c main_v78 (ix3 (row t b) z j) := by
  rw [iblk5_emb m c t (ix3 b z j), emb5]

theorem iblk6_at (c : Dev nD) (t : Fin cfg0.N) (b : Fin 2) (z : Fin 1) (j : Fin 14) :
    iblk m c 6 t (ix3 b z j) = V m c main_v79 (ix3 (row t b) z j) := by
  rw [iblk6_emb m c t (ix3 b z j), emb6]

section
include hH

/-! ## The input blocks at a point are the entries' data -/

/-- The seven input blocks at `t`, read at local entry `b`: entry `2 t + b`'s state after the run. -/
theorem blk_entry (c : Dev nD) (t : Fin cfg0.N) (b : Fin 2) :
    blkFin (iblk m c 0 t) (iblk m c 1 t) (iblk m c 2 t) (iblk m c 3 t) (iblk m c 4 t) (iblk m c 5 t) (iblk m c 6 t) b = (argsK m c).fin halfK quarterK (row t b) := by
  unfold Cert.Nhc.blkFin Cert.Nhc.Args.fin
  exact run_congr
    (par_ext (funext fun j => (iblk1_at m c t b 0 j).trans (hH.v74 c (row t b) 0 j))
      (funext fun k => (iblk4_at m c t b 0 k).trans (hH.v77 c (row t b) 0 k))
      ((iblk5_at m c t b 0 0).trans (hH.v78 c (row t b) 0 0)))
    (funext fun s => (iblk6_at m c t b 0 s).trans (hH.v79 c (row t b) 0 s))
    (st_ext (funext fun j => (iblk0_at m c t b 0 j).trans (hH.v71 c (row t b) 0 j))
      (funext fun k => (iblk3_at m c t b 0 k).trans (hH.v76 c (row t b) 0 k))
      (funext fun k => (iblk2_at m c t b 0 k).trans (hH.v75 c (row t b) 0 k)))

end

/-! ## The output arrays -/

/-- What the three output windows' arrays end holding: every entry's state after the run, the momenta flat. -/
def G7 (c : Dev nD) : S32x1x393216.Idx → EReal := fun i => ((argsK m c).fin halfK quarterK (i 0)).p (i 2)
def G8 (c : Dev nD) : S32x1x5.Idx → EReal := fun i => ((argsK m c).fin halfK quarterK (i 0)).q (i 2)
def G9 (c : Dev nD) : S32x1x5.Idx → EReal := fun i => ((argsK m c).fin halfK quarterK (i 0)).r (i 2)

section
include hH hB

/-- What point `t` writes back of window 7 is block `t` of `G7`. -/
theorem flushed7_eq (c : Dev nD) (t : Fin cfg0.N) :
    (dats m out7 out8 out9 0 c).flushed 7 t = ((cfg0.win 7).blk t).view.read (Elt Ideal) (G7 m c) := by
  show (cfg0.win 7).cut (grid0.coords t) ((dats m out7 out8 out9 0 c).after 7 t) = _
  rw [after0_7]
  funext y
  obtain ⟨b, z, j, rfl⟩ : ∃ (b : Fin 2) (z : Fin 1) (j : Fin 393216), y = ix3 b z j := ⟨y 0, y 1, y 2, eq_ix3 y⟩
  obtain rfl : z = 0 := Fin.ext (by have := z.isLt; omega)
  show out7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) (ix3 b 0 j) = G7 m c (((cfg0.win 7).blk t).view.emb (ix3 b 0 j))
  rw [hB.o7, blk_entry m hH c t b, emb7]
  rfl

theorem flushed8_eq (c : Dev nD) (t : Fin cfg0.N) :
    (dats m out7 out8 out9 0 c).flushed 8 t = ((cfg0.win 8).blk t).view.read (Elt Ideal) (G8 m c) := by
  show (cfg0.win 8).cut (grid0.coords t) ((dats m out7 out8 out9 0 c).after 8 t) = _
  rw [after0_8]
  funext y
  obtain ⟨b, z, k, rfl⟩ : ∃ (b : Fin 2) (z : Fin 1) (k : Fin 5), y = ix3 b z k := ⟨y 0, y 1, y 2, eq_ix3 y⟩
  obtain rfl : z = 0 := Fin.ext (by have := z.isLt; omega)
  show out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) (ix3 b 0 k) = G8 m c (((cfg0.win 8).blk t).view.emb (ix3 b 0 k))
  rw [hB.o8, blk_entry m hH c t b, emb8]
  rfl

theorem flushed9_eq (c : Dev nD) (t : Fin cfg0.N) :
    (dats m out7 out8 out9 0 c).flushed 9 t = ((cfg0.win 9).blk t).view.read (Elt Ideal) (G9 m c) := by
  show (cfg0.win 9).cut (grid0.coords t) ((dats m out7 out8 out9 0 c).after 9 t) = _
  rw [after0_9]
  funext y
  obtain ⟨b, z, k, rfl⟩ : ∃ (b : Fin 2) (z : Fin 1) (k : Fin 5), y = ix3 b z k := ⟨y 0, y 1, y 2, eq_ix3 y⟩
  obtain rfl : z = 0 := Fin.ext (by have := z.isLt; omega)
  show out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (iblk m c 0 t) (iblk m c 1 t) (iblk m c 2 t) (iblk m c 3 t) (iblk m c 4 t) (iblk m c 5 t) (iblk m c 6 t) (ix3 b 0 k) = G9 m c (((cfg0.win 9).blk t).view.emb (ix3 b 0 k))
  rw [hB.o9, blk_entry m hH c t b, emb9]
  rfl

end

/-! ## The blocks tile the arrays -/

/-- An index of array 7 is in point `t`'s block iff each coordinate is in the block's range on its axis. -/
theorem mem_blk7 (t : Fin cfg0.N) (i : S32x1x393216.Idx) :
    i ∈ ((cfg0.win 7).blk t).view.set ↔ ∀ a : Fin 3, win0_7.index t a * S2x1x393216.size a ≤ (i a).val ∧ (i a).val < win0_7.index t a * S2x1x393216.size a + S2x1x393216.size a := by
  show i ∈ ((View.whole main_v80_0).slice (win0_7.rect t)).set ↔ _
  rw [View.set_slice_whole, Rect.mem_set_unit]
  exact Iff.rfl

/-- Every index of array 7 lies in the block of the point that handles its row's pair. -/
theorem tile7 (i : S32x1x393216.Idx) : ∃ t : Fin cfg0.N, (cfg0.win 7).flush t = true ∧ i ∈ ((cfg0.win 7).blk t).view.set := by
  have hi0 : (i 0).val < 32 := (i 0).isLt
  have hi1 : (i 1).val < 1 := (i 1).isLt
  have hi2 : (i 2).val < 393216 := (i 2).isLt
  have hN : (i 0).val / 2 < cfg0.N := by rw [show cfg0.N = grid0.N from rfl, N_0]; omega
  obtain ⟨e0, e1, e2⟩ := (idx_facts (⟨(i 0).val / 2, hN⟩ : Fin cfg0.N)).2.2.2.2.2.2.2.1
  refine ⟨⟨(i 0).val / 2, hN⟩, flush0_7 _, ?_⟩
  rw [mem_blk7]
  intro a
  match a with
  | ⟨0, _⟩ => show win0_7.index ⟨(i 0).val / 2, hN⟩ (0 : Fin 3) * 2 ≤ (i 0).val ∧ (i 0).val < win0_7.index ⟨(i 0).val / 2, hN⟩ (0 : Fin 3) * 2 + 2; rw [e0]; show (i 0).val / 2 * 2 ≤ (i 0).val ∧ (i 0).val < (i 0).val / 2 * 2 + 2; omega
  | ⟨1, _⟩ => show win0_7.index ⟨(i 0).val / 2, hN⟩ (1 : Fin 3) * 1 ≤ (i 1).val ∧ (i 1).val < win0_7.index ⟨(i 0).val / 2, hN⟩ (1 : Fin 3) * 1 + 1; rw [e1]; omega
  | ⟨2, _⟩ => show win0_7.index ⟨(i 0).val / 2, hN⟩ (2 : Fin 3) * 393216 ≤ (i 2).val ∧ (i 2).val < win0_7.index ⟨(i 0).val / 2, hN⟩ (2 : Fin 3) * 393216 + 393216; rw [e2]; omega

/-- An index of array 8 is in point `t`'s block iff each coordinate is in the block's range on its axis. -/
theorem mem_blk8 (t : Fin cfg0.N) (i : S32x1x5.Idx) :
    i ∈ ((cfg0.win 8).blk t).view.set ↔ ∀ a : Fin 3, win0_8.index t a * S2x1x5.size a ≤ (i a).val ∧ (i a).val < win0_8.index t a * S2x1x5.size a + S2x1x5.size a := by
  show i ∈ ((View.whole main_v80_1).slice (win0_8.rect t)).set ↔ _
  rw [View.set_slice_whole, Rect.mem_set_unit]
  exact Iff.rfl

/-- Every index of array 8 lies in the block of the point that handles its row's pair. -/
theorem tile8 (i : S32x1x5.Idx) : ∃ t : Fin cfg0.N, (cfg0.win 8).flush t = true ∧ i ∈ ((cfg0.win 8).blk t).view.set := by
  have hi0 : (i 0).val < 32 := (i 0).isLt
  have hi1 : (i 1).val < 1 := (i 1).isLt
  have hi2 : (i 2).val < 5 := (i 2).isLt
  have hN : (i 0).val / 2 < cfg0.N := by rw [show cfg0.N = grid0.N from rfl, N_0]; omega
  obtain ⟨e0, e1, e2⟩ := (idx_facts (⟨(i 0).val / 2, hN⟩ : Fin cfg0.N)).2.2.2.2.2.2.2.2.1
  refine ⟨⟨(i 0).val / 2, hN⟩, flush0_8 _, ?_⟩
  rw [mem_blk8]
  intro a
  match a with
  | ⟨0, _⟩ => show win0_8.index ⟨(i 0).val / 2, hN⟩ (0 : Fin 3) * 2 ≤ (i 0).val ∧ (i 0).val < win0_8.index ⟨(i 0).val / 2, hN⟩ (0 : Fin 3) * 2 + 2; rw [e0]; show (i 0).val / 2 * 2 ≤ (i 0).val ∧ (i 0).val < (i 0).val / 2 * 2 + 2; omega
  | ⟨1, _⟩ => show win0_8.index ⟨(i 0).val / 2, hN⟩ (1 : Fin 3) * 1 ≤ (i 1).val ∧ (i 1).val < win0_8.index ⟨(i 0).val / 2, hN⟩ (1 : Fin 3) * 1 + 1; rw [e1]; omega
  | ⟨2, _⟩ => show win0_8.index ⟨(i 0).val / 2, hN⟩ (2 : Fin 3) * 5 ≤ (i 2).val ∧ (i 2).val < win0_8.index ⟨(i 0).val / 2, hN⟩ (2 : Fin 3) * 5 + 5; rw [e2]; omega

/-- An index of array 9 is in point `t`'s block iff each coordinate is in the block's range on its axis. -/
theorem mem_blk9 (t : Fin cfg0.N) (i : S32x1x5.Idx) :
    i ∈ ((cfg0.win 9).blk t).view.set ↔ ∀ a : Fin 3, win0_9.index t a * S2x1x5.size a ≤ (i a).val ∧ (i a).val < win0_9.index t a * S2x1x5.size a + S2x1x5.size a := by
  show i ∈ ((View.whole main_v80_2).slice (win0_9.rect t)).set ↔ _
  rw [View.set_slice_whole, Rect.mem_set_unit]
  exact Iff.rfl

/-- Every index of array 9 lies in the block of the point that handles its row's pair. -/
theorem tile9 (i : S32x1x5.Idx) : ∃ t : Fin cfg0.N, (cfg0.win 9).flush t = true ∧ i ∈ ((cfg0.win 9).blk t).view.set := by
  have hi0 : (i 0).val < 32 := (i 0).isLt
  have hi1 : (i 1).val < 1 := (i 1).isLt
  have hi2 : (i 2).val < 5 := (i 2).isLt
  have hN : (i 0).val / 2 < cfg0.N := by rw [show cfg0.N = grid0.N from rfl, N_0]; omega
  obtain ⟨e0, e1, e2⟩ := (idx_facts (⟨(i 0).val / 2, hN⟩ : Fin cfg0.N)).2.2.2.2.2.2.2.2.2
  refine ⟨⟨(i 0).val / 2, hN⟩, flush0_9 _, ?_⟩
  rw [mem_blk9]
  intro a
  match a with
  | ⟨0, _⟩ => show win0_9.index ⟨(i 0).val / 2, hN⟩ (0 : Fin 3) * 2 ≤ (i 0).val ∧ (i 0).val < win0_9.index ⟨(i 0).val / 2, hN⟩ (0 : Fin 3) * 2 + 2; rw [e0]; show (i 0).val / 2 * 2 ≤ (i 0).val ∧ (i 0).val < (i 0).val / 2 * 2 + 2; omega
  | ⟨1, _⟩ => show win0_9.index ⟨(i 0).val / 2, hN⟩ (1 : Fin 3) * 1 ≤ (i 1).val ∧ (i 1).val < win0_9.index ⟨(i 0).val / 2, hN⟩ (1 : Fin 3) * 1 + 1; rw [e1]; omega
  | ⟨2, _⟩ => show win0_9.index ⟨(i 0).val / 2, hN⟩ (2 : Fin 3) * 5 ≤ (i 2).val ∧ (i 2).val < win0_9.index ⟨(i 0).val / 2, hN⟩ (2 : Fin 3) * 5 + 5; rw [e2]; omega

section
include hH hB

/-- The three output arrays after the region. -/
theorem final7 (c : Dev nD) : (dats m out7 out8 out9 0 c).arrAt 7 cfg0.N = G7 m c :=
  (dats m out7 out8 out9 0 c).arrAt_eq_of_cover 7 (G7 m c) (fun t _ => flushed7_eq m out7 out8 out9 hH hB c t) tile7
theorem final8 (c : Dev nD) : (dats m out7 out8 out9 0 c).arrAt 8 cfg0.N = G8 m c :=
  (dats m out7 out8 out9 0 c).arrAt_eq_of_cover 8 (G8 m c) (fun t _ => flushed8_eq m out7 out8 out9 hH hB c t) tile8
theorem final9 (c : Dev nD) : (dats m out7 out8 out9 0 c).arrAt 9 cfg0.N = G9 m c :=
  (dats m out7 out8 out9 0 c).arrAt_eq_of_cover 9 (G9 m c) (fun t _ => flushed9_eq m out7 out8 out9 hH hB c t) tile9

/-! ## The run, read -/

/-- Every weakly fair execution of the idealized kernel's @main terminates with the three results holding every
    batch entry's state after the fourteen substeps, and the arguments as launched. -/
theorem kernel_run (hT : TailVals m (dats m out7 out8 out9)) (hsound : SoundKernel (F := Ideal) out7 out8 out9) :
    θ_run defs (onTc (τ := τ) (main (F := Ideal))) ⟨m, fun _ => 0, ρ⟩ (fun r => ∀ c : Dev nD,
      r.2.mem ((c.tc : Thread nD τ).loc main_v81) = Gp (argsK m c) halfK quarterK
      ∧ r.2.mem ((c.tc : Thread nD τ).loc main_v82) = Gq (argsK m c) halfK quarterK
      ∧ r.2.mem ((c.tc : Thread nD τ).loc main_v83) = Gr (argsK m c) halfK quarterK
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      ((h c).2 main_v81 (Pipeline.mem_restRefs_of main_v81 (by decide) (by decide))).trans (funext fun i => by
        obtain ⟨b, n, d, rfl⟩ : ∃ (b : Fin 32) (n : Fin 131072) (d : Fin 3), i = ix3 b n d := ⟨i 0, i 1, i 2, eq_ix3 i⟩
        rw [hT.v81, final7 m out7 out8 out9 hH hB c]; rfl),
      ((h c).2 main_v82 (Pipeline.mem_restRefs_of main_v82 (by decide) (by decide))).trans (funext fun i => by
        obtain ⟨b, k, rfl⟩ : ∃ (b : Fin 32) (k : Fin 5), i = ix2 b k := ⟨i 0, i 1, eq_ix2 i⟩
        rw [hT.v82, final8 m out7 out8 out9 hH hB c]; rfl),
      ((h c).2 main_v83 (Pipeline.mem_restRefs_of main_v83 (by decide) (by decide))).trans (funext fun i => by
        obtain ⟨b, k, rfl⟩ : ∃ (b : Fin 32) (k : Fin 5), i = ix2 b k := ⟨i 0, i 1, eq_ix2 i⟩
        rw [hT.v83, final9 m out7 out8 out9 hH hB c]; rfl),
      ((h c).2 main_arg0 (Pipeline.mem_restRefs_of main_arg0 (by decide) (by decide))).trans (W_main_arg0 m (dats m out7 out8 out9) c),
      ((h c).2 main_arg1 (Pipeline.mem_restRefs_of main_arg1 (by decide) (by decide))).trans (W_main_arg1 m (dats m out7 out8 out9) c),
      ((h c).2 main_arg2 (Pipeline.mem_restRefs_of main_arg2 (by decide) (by decide))).trans (W_main_arg2 m (dats m out7 out8 out9) c),
      ((h c).2 main_arg3 (Pipeline.mem_restRefs_of main_arg3 (by decide) (by decide))).trans (W_main_arg3 m (dats m out7 out8 out9) c),
      ((h c).2 main_arg4 (Pipeline.mem_restRefs_of main_arg4 (by decide) (by decide))).trans (W_main_arg4 m (dats m out7 out8 out9) c),
      ((h c).2 main_arg5 (Pipeline.mem_restRefs_of main_arg5 (by decide) (by decide))).trans (W_main_arg5 m (dats m out7 out8 out9) c),
      ((h c).2 main_arg6 (Pipeline.mem_restRefs_of main_arg6 (by decide) (by decide))).trans (W_main_arg6 m (dats m out7 out8 out9) c),
      ((h c).2 main_arg7 (Pipeline.mem_restRefs_of main_arg7 (by decide) (by decide))).trans (W_main_arg7 m (dats m out7 out8 out9) c),
      ((h c).2 main_arg8 (Pipeline.mem_restRefs_of main_arg8 (by decide) (by decide))).trans (W_main_arg8 m (dats m out7 out8 out9) c)⟩)
    (run_main m ρ out7 out8 out9 hsound)

end

end Cert.KernelIdeal.Fr

end
-- ==== Proof.KIHostVal.lean ====
import proofs.«156042_j46600395162250_1_alg».proof.Proof.KIHost
import proofs.«156042_j46600395162250_1_alg».proof.Proof.SpecArr
import Idealize.ShloMosaic.Lib.Pipeline.Value
import Idealize.ShloMosaic.Lib.ValueIdx
import Idealize.ShloMosaic.Lib.ValueLayout
import Idealize.ShloMosaic.Lib.StableHlo.Run

-- telling two of the 143 references apart, once per host operation, recurses deeper than the default allows
set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ)

/-! ## The region's input arrays, entry by entry

Over the extended reals. Each array a window stages is what a few host operations make of the program's arguments;
read at one index it is one entry of one argument, or (the substep sizes) a product of two. Rows are indexed by the
batch entry `b`; the unit axis the host reshapes insert is `z`. -/

/-- The momenta: [32, 131072, 3] reshaped to [32, 1, 393216]. Flat component `j` of a row is component `j % 3` of
    atom `j / 3`, both positions being `393216 b + j` in row-major order. -/
theorem V_v71 (c : Dev nD) (b : Fin 32) (z : Fin 1) (j : Fin 393216) :
    V m c main_v71 (ix3 b z j) = m ((c : Thread nD τ).loc main_arg1) (ix3 b (Cert.Nhc.atomOf j) (Cert.Nhc.compOf j)) := by
  have e : (V m c main_v71 : S32x1x393216.Idx → EReal)
      = shapeCast S32x1x393216 (m ((c : Thread nD τ).loc main_arg1)) shapeCasts_S32x131072x3_S32x1x393216 := by
    show StableHlo.after hostOps0 (fun b => m (c, b)) (Proc.devRef .tc main_v71) = _
    after_results_simp
    rfl
  rw [e]
  refine shapeCast_apply _ _ (ix3 b z j) (ix3 b (Cert.Nhc.atomOf j) (Cert.Nhc.compOf j)) ?_
  rw [Shape.rowMajor_val_three, Shape.rowMajor_val_three]
  have hz := z.isLt
  show (b.val * 131072 + j.val / 3) * 3 + j.val % 3 = (b.val * 1 + z.val) * 393216 + j.val
  omega

/-- The masses: [32, 131072] repeated along a new last axis of length 3, then flattened to [32, 393216] and given
    the unit axis. Flat component `j` therefore carries the mass of atom `j / 3`. -/
theorem V_v74 (c : Dev nD) (b : Fin 32) (z : Fin 1) (j : Fin 393216) :
    V m c main_v74 (ix3 b z j) = m ((c : Thread nD τ).loc main_arg2) (ix2 b (Cert.Nhc.atomOf j)) := by
  have e : (V m c main_v74 : S32x1x393216.Idx → EReal)
      = shapeCast S32x1x393216 (shapeCast S32x393216 (broadcastInDim S32x131072x3 ![0, 1] bcast_S32x131072_S32x131072x3_0_1 (m ((c : Thread nD τ).loc main_arg2)))
          shapeCasts_S32x131072x3_S32x393216) shapeCasts_S32x393216_S32x1x393216 := by
    show StableHlo.after hostOps0 (fun b => m (c, b)) (Proc.devRef .tc main_v74) = _
    after_results_simp
    rfl
  rw [e]
  have hz := z.isLt
  refine (shapeCast_apply _ _ (ix3 b z j) (ix2 b j) ?_).trans ?_
  · rw [Shape.rowMajor_val_three, Shape.rowMajor_val_two]
    show b.val * 393216 + j.val = (b.val * 1 + z.val) * 393216 + j.val
    omega
  refine (shapeCast_apply _ _ (ix2 b j) (ix3 b (Cert.Nhc.atomOf j) (Cert.Nhc.compOf j)) ?_).trans ?_
  · rw [Shape.rowMajor_val_three, Shape.rowMajor_val_two]
    show (b.val * 131072 + j.val / 3) * 3 + j.val % 3 = b.val * 393216 + j.val
    omega
  exact broadcastInDim_apply _ _ _ (ix3 b (Cert.Nhc.atomOf j) (Cert.Nhc.compOf j)) (ix2 b (Cert.Nhc.atomOf j))
    (fun a => match a with | ⟨0, _⟩ => rfl | ⟨1, _⟩ => rfl)

/-- Argument 6, [32, 5], given the unit axis. -/
theorem V_v75 (c : Dev nD) (b : Fin 32) (z : Fin 1) (k : Fin 5) :
    V m c main_v75 (ix3 b z k) = m ((c : Thread nD τ).loc main_arg6) (ix2 b k) := by
  have e : (V m c main_v75 : S32x1x5.Idx → EReal)
      = shapeCast S32x1x5 (m ((c : Thread nD τ).loc main_arg6)) shapeCasts_S32x5_S32x1x5 := by
    show StableHlo.after hostOps0 (fun b => m (c, b)) (Proc.devRef .tc main_v75) = _
    after_results_simp
    rfl
  rw [e]
  refine shapeCast_apply _ _ (ix3 b z k) (ix2 b k) ?_
  rw [Shape.rowMajor_val_three, Shape.rowMajor_val_two]
  have hz := z.isLt
  show b.val * 5 + k.val = (b.val * 1 + z.val) * 5 + k.val
  omega

/-- Argument 5, [32, 5], given the unit axis. -/
theorem V_v76 (c : Dev nD) (b : Fin 32) (z : Fin 1) (k : Fin 5) :
    V m c main_v76 (ix3 b z k) = m ((c : Thread nD τ).loc main_arg5) (ix2 b k) := by
  have e : (V m c main_v76 : S32x1x5.Idx → EReal)
      = shapeCast S32x1x5 (m ((c : Thread nD τ).loc main_arg5)) shapeCasts_S32x5_S32x1x5 := by
    show StableHlo.after hostOps0 (fun b => m (c, b)) (Proc.devRef .tc main_v76) = _
    after_results_simp
    rfl
  rw [e]
  refine shapeCast_apply _ _ (ix3 b z k) (ix2 b k) ?_
  rw [Shape.rowMajor_val_three, Shape.rowMajor_val_two]
  have hz := z.isLt
  show b.val * 5 + k.val = (b.val * 1 + z.val) * 5 + k.val
  omega

/-- Argument 7, [32, 5], given the unit axis. -/
theorem V_v77 (c : Dev nD) (b : Fin 32) (z : Fin 1) (k : Fin 5) :
    V m c main_v77 (ix3 b z k) = m ((c : Thread nD τ).loc main_arg7) (ix2 b k) := by
  have e : (V m c main_v77 : S32x1x5.Idx → EReal)
      = shapeCast S32x1x5 (m ((c : Thread nD τ).loc main_arg7)) shapeCasts_S32x5_S32x1x5 := by
    show StableHlo.after hostOps0 (fun b => m (c, b)) (Proc.devRef .tc main_v77) = _
    after_results_simp
    rfl
  rw [e]
  refine shapeCast_apply _ _ (ix3 b z k) (ix2 b k) ?_
  rw [Shape.rowMajor_val_three, Shape.rowMajor_val_two]
  have hz := z.isLt
  show b.val * 5 + k.val = (b.val * 1 + z.val) * 5 + k.val
  omega

/-- `k_B T`: [32] reshaped to [32, 1, 1]. -/
theorem V_v78 (c : Dev nD) (b : Fin 32) (z z' : Fin 1) :
    V m c main_v78 (ix3 b z z') = m ((c : Thread nD τ).loc main_arg3) (ix1 b) := by
  have e : (V m c main_v78 : S32x1x1.Idx → EReal)
      = shapeCast S32x1x1 (m ((c : Thread nD τ).loc main_arg3)) shapeCasts_S32_S32x1x1 := by
    show StableHlo.after hostOps0 (fun b => m (c, b)) (Proc.devRef .tc main_v78) = _
    after_results_simp
    rfl
  rw [e]
  refine shapeCast_apply _ _ (ix3 b z z') (ix1 b) ?_
  rw [Shape.rowMajor_val_three, Shape.rowMajor_val_one]
  have hz := z.isLt
  have hz' := z'.isLt
  show b.val = (b.val * 1 + z.val) * 1 + z'.val
  omega

/-! ## The substep sizes

Array `main_v79` is built in three stages: fourteen columns, each the time steps [32] times the scalar
`stp · w / 2` for one weight `w` (the first 98 host operations); the columns joined side by side into [32, 14];
the unit axis. The first stage is read off column by column, the other two for any contents of the columns. -/

/-- One column: the time steps times `stp · w / 2` (the global step times the weight whose float word is `w`,
    divided by the float 2.0), as a [32, 1] array. -/
def piece (c : Dev nD) (w : BitVec 32) : S32x1.Idx → EReal :=
  broadcastInDim S32x1 ![0] bcast_S32_S32x1_0
    (mulf (F := Ideal) (s := S32) (φ := .f32) (m ((c : Thread nD τ).loc main_arg4))
      (broadcastInDim S32 ![] bcast_S_S32
        (Host.divf (F := Ideal) (s := S_) (φ := .f32)
          (mulf (F := Ideal) (s := S_) (φ := .f32) (m ((c : Thread nD τ).loc main_arg8)) (constant (F := Ideal) S_ .f32 w))
          (constant (F := Ideal) S_ .f32 0x40000000#32))))

/-- One entry of a column, from the entry's time step `dt` and the global step `stp`. -/
def col (dt stp : EReal) (w : BitVec 32) : EReal :=
  dt * Ideal.div (stp * Ideal.ofBits .f32 w) (Ideal.ofBits .f32 0x40000000#32)

/-- Row `b` of a column. -/
theorem piece_apply (c : Dev nD) (w : BitVec 32) (b : Fin 32) (z : Fin 1) :
    piece m c w (ix2 b z) = col (m ((c : Thread nD τ).loc main_arg4) (ix1 b)) (m ((c : Thread nD τ).loc main_arg8) ix0) w := by
  unfold piece
  refine (broadcastInDim_apply _ _ _ (ix2 b z) (ix1 b) (fun a => match a with | ⟨0, _⟩ => rfl)).trans ?_
  rw [mulf_apply, broadcastInDim_apply _ _ _ (ix1 b) ix0 (fun a => a.elim0)]
  rfl

/-- Running one stretch of host operations and then another is running the two written one after the other. -/
theorem after_append (l₁ l₂ : List (HloOp τ sig (Elt Ideal))) (G : Valuation τ sig (Elt Ideal)) :
    StableHlo.after (l₁ ++ l₂) G = StableHlo.after l₂ (StableHlo.after l₁ G) := by
  induction l₁ generalizing G with
  | nil => rfl
  | cons op ops ih => exact ih (op.result G)

set_option maxHeartbeats 4000000 in
/-- The last thirteen host operations, from ANY contents `G` of the buffers: `main_v79` is the fourteen columns
    `main_v56 … main_v69` as `G` has them, joined and given the unit axis (none of the thirteen writes a column). -/
theorem tail_v79 (G : Valuation τ sig (Elt Ideal)) :
    StableHlo.after (List.drop 98 hostOps0) G (Proc.devRef .tc main_v79)
      = (shapeCast S32x1x14 (concatenate S32x14 1
         [⟨S32x1, G (Proc.devRef .tc main_v56)⟩,
          ⟨S32x1, G (Proc.devRef .tc main_v57)⟩,
          ⟨S32x1, G (Proc.devRef .tc main_v58)⟩,
          ⟨S32x1, G (Proc.devRef .tc main_v59)⟩,
          ⟨S32x1, G (Proc.devRef .tc main_v60)⟩,
          ⟨S32x1, G (Proc.devRef .tc main_v61)⟩,
          ⟨S32x1, G (Proc.devRef .tc main_v62)⟩,
          ⟨S32x1, G (Proc.devRef .tc main_v63)⟩,
          ⟨S32x1, G (Proc.devRef .tc main_v64)⟩,
          ⟨S32x1, G (Proc.devRef .tc main_v65)⟩,
          ⟨S32x1, G (Proc.devRef .tc main_v66)⟩,
          ⟨S32x1, G (Proc.devRef .tc main_v67)⟩,
          ⟨S32x1, G (Proc.devRef .tc main_v68)⟩,
          ⟨S32x1, G (Proc.devRef .tc main_v69)⟩]
         concatenates_S32x1_S32x1_S32x1_S32x1_S32x1_S32x1_S32x1_S32x1_S32x1_S32x1_S32x1_S32x1_S32x1_S32x1_S32x14_d1) shapeCasts_S32x14_S32x1x14 : S32x1x14.Idx → EReal) := by
  simp only [hostOps0, List.drop_succ_cons, List.drop_zero]
  simp (disch := decide) only [StableHlo.after_cons, StableHlo.after_nil,
      StableHlo.nullary_result', StableHlo.unary_result', StableHlo.binary_result', StableHlo.reshape_result', StableHlo.nary_result',
      StableHlo.nullary_result_ne', StableHlo.unary_result_ne', StableHlo.binary_result_ne', StableHlo.reshape_result_ne',
      StableHlo.nary_result_ne', Matrix.cons_val]
  rfl

/-! The fourteen columns after the first 98 host operations, in order: the weights' float words are those of
`Cert.Nhc.weight`. -/

theorem pre_v56 (c : Dev nD) :
    StableHlo.after (List.take 98 hostOps0) (fun b => m (c, b)) (Proc.devRef .tc main_v56) = piece m c 0x3F48D5E2#32 := by
  simp only [hostOps0, List.take_succ_cons, List.take_zero]
  after_results_simp
  rfl

theorem pre_v57 (c : Dev nD) :
    StableHlo.after (List.take 98 hostOps0) (fun b => m (c, b)) (Proc.devRef .tc main_v57) = piece m c 0x3E713A1B#32 := by
  simp only [hostOps0, List.take_succ_cons, List.take_zero]
  after_results_simp
  rfl

theorem pre_v58 (c : Dev nD) :
    StableHlo.after (List.take 98 hostOps0) (fun b => m (c, b)) (Proc.devRef .tc main_v58) = piece m c 0xBF96BE38#32 := by
  simp only [hostOps0, List.take_succ_cons, List.take_zero]
  after_results_simp
  rfl

theorem pre_v59 (c : Dev nD) :
    StableHlo.after (List.take 98 hostOps0) (fun b => m (c, b)) (Proc.devRef .tc main_v59) = piece m c 0x3FA85806#32 := by
  simp only [hostOps0, List.take_succ_cons, List.take_zero]
  after_results_simp
  rfl

theorem pre_v60 (c : Dev nD) :
    StableHlo.after (List.take 98 hostOps0) (fun b => m (c, b)) (Proc.devRef .tc main_v60) = piece m c 0xBF96BE38#32 := by
  simp only [hostOps0, List.take_succ_cons, List.take_zero]
  after_results_simp
  rfl

theorem pre_v61 (c : Dev nD) :
    StableHlo.after (List.take 98 hostOps0) (fun b => m (c, b)) (Proc.devRef .tc main_v61) = piece m c 0x3E713A1B#32 := by
  simp only [hostOps0, List.take_succ_cons, List.take_zero]
  after_results_simp
  rfl

theorem pre_v62 (c : Dev nD) :
    StableHlo.after (List.take 98 hostOps0) (fun b => m (c, b)) (Proc.devRef .tc main_v62) = piece m c 0x3F48D5E2#32 := by
  simp only [hostOps0, List.take_succ_cons, List.take_zero]
  after_results_simp
  rfl

theorem pre_v63 (c : Dev nD) :
    StableHlo.after (List.take 98 hostOps0) (fun b => m (c, b)) (Proc.devRef .tc main_v63) = piece m c 0x3F48D5E2#32 := by
  simp only [hostOps0, List.take_succ_cons, List.take_zero]
  after_results_simp
  rfl

theorem pre_v64 (c : Dev nD) :
    StableHlo.after (List.take 98 hostOps0) (fun b => m (c, b)) (Proc.devRef .tc main_v64) = piece m c 0x3E713A1B#32 := by
  simp only [hostOps0, List.take_succ_cons, List.take_zero]
  after_results_simp
  rfl

theorem pre_v65 (c : Dev nD) :
    StableHlo.after (List.take 98 hostOps0) (fun b => m (c, b)) (Proc.devRef .tc main_v65) = piece m c 0xBF96BE38#32 := by
  simp only [hostOps0, List.take_succ_cons, List.take_zero]
  after_results_simp
  rfl

theorem pre_v66 (c : Dev nD) :
    StableHlo.after (List.take 98 hostOps0) (fun b => m (c, b)) (Proc.devRef .tc main_v66) = piece m c 0x3FA85806#32 := by
  simp only [hostOps0, List.take_succ_cons, List.take_zero]
  after_results_simp
  rfl

theorem pre_v67 (c : Dev nD) :
    StableHlo.after (List.take 98 hostOps0) (fun b => m (c, b)) (Proc.devRef .tc main_v67) = piece m c 0xBF96BE38#32 := by
  simp only [hostOps0, List.take_succ_cons, List.take_zero]
  after_results_simp
  rfl

theorem pre_v68 (c : Dev nD) :
    StableHlo.after (List.take 98 hostOps0) (fun b => m (c, b)) (Proc.devRef .tc main_v68) = piece m c 0x3E713A1B#32 := by
  simp only [hostOps0, List.take_succ_cons, List.take_zero]
  after_results_simp
  rfl

theorem pre_v69 (c : Dev nD) :
    StableHlo.after (List.take 98 hostOps0) (fun b => m (c, b)) (Proc.devRef .tc main_v69) = piece m c 0x3F48D5E2#32 := by
  simp only [hostOps0, List.take_succ_cons, List.take_zero]
  after_results_simp
  rfl

set_option maxHeartbeats 4000000 in
/-- The substep sizes at an entry: entry `(b, s)` of `main_v79` is row `b` of column `s`, the entry's time step
    times `stp · w_s / 2`. -/
theorem V_v79 (c : Dev nD) (b : Fin 32) (z : Fin 1) (s : Fin 14) :
    V m c main_v79 (ix3 b z s) = Cert.Nhc.delta (m ((c : Thread nD τ).loc main_arg4) (ix1 b)) (m ((c : Thread nD τ).loc main_arg8) ix0) s := by
  have hs : StableHlo.after hostOps0 (fun b => m (c, b))
      = StableHlo.after (List.drop 98 hostOps0) (StableHlo.after (List.take 98 hostOps0) (fun b => m (c, b))) := by
    rw [← after_append, List.take_append_drop]
  have e : (V m c main_v79 : S32x1x14.Idx → EReal)
      = shapeCast S32x1x14 (concatenate S32x14 1
         [⟨S32x1, piece m c 0x3F48D5E2#32⟩,
          ⟨S32x1, piece m c 0x3E713A1B#32⟩,
          ⟨S32x1, piece m c 0xBF96BE38#32⟩,
          ⟨S32x1, piece m c 0x3FA85806#32⟩,
          ⟨S32x1, piece m c 0xBF96BE38#32⟩,
          ⟨S32x1, piece m c 0x3E713A1B#32⟩,
          ⟨S32x1, piece m c 0x3F48D5E2#32⟩,
          ⟨S32x1, piece m c 0x3F48D5E2#32⟩,
          ⟨S32x1, piece m c 0x3E713A1B#32⟩,
          ⟨S32x1, piece m c 0xBF96BE38#32⟩,
          ⟨S32x1, piece m c 0x3FA85806#32⟩,
          ⟨S32x1, piece m c 0xBF96BE38#32⟩,
          ⟨S32x1, piece m c 0x3E713A1B#32⟩,
          ⟨S32x1, piece m c 0x3F48D5E2#32⟩]
         concatenates_S32x1_S32x1_S32x1_S32x1_S32x1_S32x1_S32x1_S32x1_S32x1_S32x1_S32x1_S32x1_S32x1_S32x1_S32x14_d1) shapeCasts_S32x14_S32x1x14 := by
    show StableHlo.after hostOps0 (fun b => m (c, b)) (Proc.devRef .tc main_v79) = _
    rw [hs, tail_v79, pre_v56 m c, pre_v57 m c, pre_v58 m c, pre_v59 m c, pre_v60 m c, pre_v61 m c, pre_v62 m c, pre_v63 m c, pre_v64 m c, pre_v65 m c, pre_v66 m c, pre_v67 m c, pre_v68 m c, pre_v69 m c]
  rw [e]
  have hz := z.isLt
  refine (shapeCast_apply _ _ (ix3 b z s) (ix2 b s) ?_).trans ?_
  · rw [Shape.rowMajor_val_three, Shape.rowMajor_val_two]
    show b.val * 14 + s.val = (b.val * 1 + z.val) * 14 + s.val
    omega
  fin_cases s
  · refine Eq.trans (concatenate_apply_piece (t := S32x14) (1 : Fin 2) _ _ (ix2 b (0 : Fin 14)) 0 ?_ S32x1 (piece m c 0x3F48D5E2#32) ?_ rfl 0 ?_ (ix2 b 0) ?_ ?_)
      ((piece_apply m c _ b 0).trans rfl)
    · exact (by decide : (0 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (1 : Fin 14)) 1 ?_ S32x1 (piece m c 0x3E713A1B#32) ?_ rfl 1 ?_ (ix2 b 0) ?_ ?_)
      ((piece_apply m c _ b 0).trans rfl)
    · exact (by decide : (1 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (2 : Fin 14)) 2 ?_ S32x1 (piece m c 0xBF96BE38#32) ?_ rfl 2 ?_ (ix2 b 0) ?_ ?_)
      ((piece_apply m c _ b 0).trans rfl)
    · exact (by decide : (2 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (3 : Fin 14)) 3 ?_ S32x1 (piece m c 0x3FA85806#32) ?_ rfl 3 ?_ (ix2 b 0) ?_ ?_)
      ((piece_apply m c _ b 0).trans rfl)
    · exact (by decide : (3 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (4 : Fin 14)) 4 ?_ S32x1 (piece m c 0xBF96BE38#32) ?_ rfl 4 ?_ (ix2 b 0) ?_ ?_)
      ((piece_apply m c _ b 0).trans rfl)
    · exact (by decide : (4 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (5 : Fin 14)) 5 ?_ S32x1 (piece m c 0x3E713A1B#32) ?_ rfl 5 ?_ (ix2 b 0) ?_ ?_)
      ((piece_apply m c _ b 0).trans rfl)
    · exact (by decide : (5 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (6 : Fin 14)) 6 ?_ S32x1 (piece m c 0x3F48D5E2#32) ?_ rfl 6 ?_ (ix2 b 0) ?_ ?_)
      ((piece_apply m c _ b 0).trans rfl)
    · exact (by decide : (6 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (7 : Fin 14)) 7 ?_ S32x1 (piece m c 0x3F48D5E2#32) ?_ rfl 7 ?_ (ix2 b 0) ?_ ?_)
      ((piece_apply m c _ b 0).trans rfl)
    · exact (by decide : (7 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (8 : Fin 14)) 8 ?_ S32x1 (piece m c 0x3E713A1B#32) ?_ rfl 8 ?_ (ix2 b 0) ?_ ?_)
      ((piece_apply m c _ b 0).trans rfl)
    · exact (by decide : (8 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (9 : Fin 14)) 9 ?_ S32x1 (piece m c 0xBF96BE38#32) ?_ rfl 9 ?_ (ix2 b 0) ?_ ?_)
      ((piece_apply m c _ b 0).trans rfl)
    · exact (by decide : (9 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (10 : Fin 14)) 10 ?_ S32x1 (piece m c 0x3FA85806#32) ?_ rfl 10 ?_ (ix2 b 0) ?_ ?_)
      ((piece_apply m c _ b 0).trans rfl)
    · exact (by decide : (10 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (11 : Fin 14)) 11 ?_ S32x1 (piece m c 0xBF96BE38#32) ?_ rfl 11 ?_ (ix2 b 0) ?_ ?_)
      ((piece_apply m c _ b 0).trans rfl)
    · exact (by decide : (11 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (12 : Fin 14)) 12 ?_ S32x1 (piece m c 0x3E713A1B#32) ?_ rfl 12 ?_ (ix2 b 0) ?_ ?_)
      ((piece_apply m c _ b 0).trans rfl)
    · exact (by decide : (12 : ℕ) < 14)
    · rfl
    · rfl
    · exact fun a ha => match a with | ⟨0, _⟩ => rfl | ⟨1, _⟩ => absurd rfl ha
    · rfl
  · refine Eq.trans (concatenate_apply_piece (t := S32x14) (1 : Fin 2) _ _ (ix2 b (13 : Fin 14)) 13 ?_ S32x1 (piece m c 0x3F48D5E2#32) ?_ rfl 13 ?_ (ix2 b 0) ?_ ?_)
      ((piece_apply m c _ b 0).trans rfl)
    · exact (by decide : (13 : ℕ) < 14)
    · rfl
    · rfl
    · exact fun a ha => match a with | ⟨0, _⟩ => rfl | ⟨1, _⟩ => absurd rfl ha
    · rfl

/-! ## The program's results, entry by entry

The three reshapes after the region read the region's output arrays as the pipeline leaves them (`arrAt … N`): the
momenta go back from [32, 1, 393216] to [32, 131072, 3], the chain arrays from [32, 1, 5] to [32, 5]. -/

/-- The resulting momenta: component `d` of atom `n` is flat component `3 n + d` of output array 7. -/
theorem T_v81 (dats : (p : Fin 1) → (c : Dev nD) → Dat τ (Elt Ideal) Unit ℕ (UR sig nD τ) ℕ (cfgs p) c) (c : Dev nD)
    (b : Fin 32) (z : Fin 1) (n : Fin 131072) (d : Fin 3) :
    Pipeline.afterTail₀ cfgs dats 0 (V0 m) [hostOps1] c main_v81 (ix3 b n d) = (dats 0 c).arrAt 7 cfg0.N (ix3 b z (Cert.Nhc.flat n d)) := by
  have e : (Pipeline.afterTail₀ cfgs dats 0 (V0 m) [hostOps1] c main_v81 : S32x131072x3.Idx → EReal)
      = shapeCast S32x131072x3 ((dats 0 c).arrAt 7 cfg0.N : S32x1x393216.Idx → EReal) shapeCasts_S32x1x393216_S32x131072x3 := by
    unfold Pipeline.afterTail₀
    show StableHlo.after hostOps1 _ (Proc.devRef .tc main_v81) = _
    after_results
    rw [Pipeline.withArrays_arr spec0 launch0.win.arr_inj c _ _ 7]
    rfl
  rw [e]
  refine shapeCast_apply _ _ (ix3 b n d) (ix3 b z (Cert.Nhc.flat n d)) ?_
  rw [Shape.rowMajor_val_three, Shape.rowMajor_val_three]
  have hz := z.isLt
  show (b.val * 1 + z.val) * 393216 + (3 * n.val + d.val) = (b.val * 131072 + n.val) * 3 + d.val
  omega

/-- The second result, [32, 5]: output array 8 without its unit axis. -/
theorem T_v82 (dats : (p : Fin 1) → (c : Dev nD) → Dat τ (Elt Ideal) Unit ℕ (UR sig nD τ) ℕ (cfgs p) c) (c : Dev nD)
    (b : Fin 32) (z : Fin 1) (k : Fin 5) :
    Pipeline.afterTail₀ cfgs dats 0 (V0 m) [hostOps1] c main_v82 (ix2 b k) = (dats 0 c).arrAt 8 cfg0.N (ix3 b z k) := by
  have e : (Pipeline.afterTail₀ cfgs dats 0 (V0 m) [hostOps1] c main_v82 : S32x5.Idx → EReal)
      = shapeCast S32x5 ((dats 0 c).arrAt 8 cfg0.N : S32x1x5.Idx → EReal) shapeCasts_S32x1x5_S32x5 := by
    unfold Pipeline.afterTail₀
    show StableHlo.after hostOps1 _ (Proc.devRef .tc main_v82) = _
    after_results
    rw [Pipeline.withArrays_arr spec0 launch0.win.arr_inj c _ _ 8]
    rfl
  rw [e]
  refine shapeCast_apply _ _ (ix2 b k) (ix3 b z k) ?_
  rw [Shape.rowMajor_val_three, Shape.rowMajor_val_two]
  have hz := z.isLt
  show (b.val * 1 + z.val) * 5 + k.val = b.val * 5 + k.val
  omega

/-- The third result, [32, 5]: output array 9 without its unit axis. -/
theorem T_v83 (dats : (p : Fin 1) → (c : Dev nD) → Dat τ (Elt Ideal) Unit ℕ (UR sig nD τ) ℕ (cfgs p) c) (c : Dev nD)
    (b : Fin 32) (z : Fin 1) (k : Fin 5) :
    Pipeline.afterTail₀ cfgs dats 0 (V0 m) [hostOps1] c main_v83 (ix2 b k) = (dats 0 c).arrAt 9 cfg0.N (ix3 b z k) := by
  have e : (Pipeline.afterTail₀ cfgs dats 0 (V0 m) [hostOps1] c main_v83 : S32x5.Idx → EReal)
      = shapeCast S32x5 ((dats 0 c).arrAt 9 cfg0.N : S32x1x5.Idx → EReal) shapeCasts_S32x1x5_S32x5 := by
    unfold Pipeline.afterTail₀
    show StableHlo.after hostOps1 _ (Proc.devRef .tc main_v83) = _
    after_results
    rw [Pipeline.withArrays_arr spec0 launch0.win.arr_inj c _ _ 9]
    rfl
  rw [e]
  refine shapeCast_apply _ _ (ix2 b k) (ix3 b z k) ?_
  rw [Shape.rowMajor_val_three, Shape.rowMajor_val_two]
  have hz := z.isLt
  show (b.val * 1 + z.val) * 5 + k.val = b.val * 5 + k.val
  omega

end Cert.KernelIdeal.Fr

end
-- ==== Proof.KIVals.lean ====
import proofs.«156042_j46600395162250_1_alg».proof.Proof.KIHostVal
import proofs.«156042_j46600395162250_1_alg».proof.Proof.KIValueA

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

/-- The arrays the region finds, entry by entry, in terms of the program's arguments `argsK`: the momenta, the
    repeated masses, the three chain arrays, `k_B T`, and the fourteen substep sizes of every batch entry. -/
theorem hostVals (m : (ℓ : Loc nD τ sig) → Buf (Elt Ideal) ℓ) : HostVals m :=
  { v71 := fun c b z j => V_v71 m c b z j
    v74 := fun c b z j => V_v74 m c b z j
    v75 := fun c b z k => V_v75 m c b z k
    v76 := fun c b z k => V_v76 m c b z k
    v77 := fun c b z k => V_v77 m c b z k
    v78 := fun c b z z' => V_v78 m c b z z'
    v79 := fun c b z s => V_v79 m c b z s }

/-- The program's three results, entry by entry, in terms of the region's output arrays as the pipeline leaves them. -/
theorem tailVals (m : (ℓ : Loc nD τ sig) → Buf (Elt Ideal) ℓ)
    (dats : (p : Fin 1) → (c : Dev nD) → Dat τ (Elt Ideal) Unit ℕ (UR sig nD τ) ℕ (cfgs p) c) : TailVals m dats :=
  { v81 := fun c b n d => T_v81 m dats c b 0 n d
    v82 := fun c b k => T_v82 m dats c b 0 k
    v83 := fun c b k => T_v83 m dats c b 0 k }

end Cert.KernelIdeal.Fr

end
-- ==== Proof.LibNhcAlgebra.lean ====
/-
  General facts about the thermostat recurrence of Spec.lean, none of them about a program.

  Halving and quartering: the product with the float 0.5 (0.25) and the quotient by the float 2.0 (4.0) are
  one function on the extended reals, since a quotient by a nonzero real is the product with its reciprocal,
  at the infinities too. So the fourteen substeps run the same under either spelling.

  The kinetic sum: one program adds the 393216 terms along one flat axis, the other adds them over the 131072 atoms
  and their three components; flat position 3 n + d is component d of atom n, and a finite sum in a commutative
  monoid does not depend on how its index set is cut, so the two sums are one. Each program's sum is read here
  at a result index as a plain sum over coordinates.
-/
import Idealize.ShloMosaic.PureOps.Ideal
import Idealize.ShloMosaic.PureOps.Ideal.Laws
import Idealize.ShloMosaic.Lib.ValueIdx
import Idealize.ShloMosaic.Lib.IdealHost
import Mathlib.Logic.Equiv.Fin.Basic
import Mathlib.Data.Fintype.BigOperators
import Mathlib.Algebra.BigOperators.Group.Finset.Basic
import proofs.«156042_j46600395162250_1_alg».proof.Proof.Spec

noncomputable section

namespace Cert.Nhc

open Idealize.ShloMosaic Idealize.ShloMosaic.ValueIdx

/-! ## The float words -/

/-- The word `0x3F000000` denotes the real `1/2`. -/
theorem ofBits_half : Ideal.ofBits .f32 0x3F000000#32 = (((1 / 2 : ℝ)) : EReal) := by
  simp [Ideal.ofBits, Ideal.ieee, -EReal.coe_mul]; norm_num

/-- The word `0x3E800000` denotes the real `1/4`. -/
theorem ofBits_quarter : Ideal.ofBits .f32 0x3E800000#32 = (((1 / 4 : ℝ)) : EReal) := by
  simp [Ideal.ofBits, Ideal.ieee, -EReal.coe_mul]; norm_num

/-- The word `0x40000000` denotes the real `2`. -/
theorem ofBits_two : Ideal.ofBits .f32 0x40000000#32 = ((2 : ℝ) : EReal) := by
  simp [Ideal.ofBits, Ideal.ieee, -EReal.coe_mul]; norm_num

/-- The word `0x40800000` denotes the real `4`. -/
theorem ofBits_four : Ideal.ofBits .f32 0x40800000#32 = ((4 : ℝ) : EReal) := by
  simp [Ideal.ofBits, Ideal.ieee, -EReal.coe_mul]; norm_num

/-- The word `0x00000000` denotes `0`. -/
theorem ofBits_zero : Ideal.ofBits .f32 0x00000000#32 = 0 := by
  simp [Ideal.ofBits, Ideal.ieee]

/-! ## Halving and quartering -/

/-- The product with `0.5` is the quotient by `2.0`. -/
theorem halfK_eq_halfR : halfK = halfR := by
  funext x
  rw [halfK, halfR, ofBits_half, ofBits_two, Ideal.div_coe (by norm_num : (2 : ℝ) ≠ 0)]

/-- The product with `0.25` is the quotient by `4.0`. -/
theorem quarterK_eq_quarterR : quarterK = quarterR := by
  funext x
  rw [quarterK, quarterR, ofBits_quarter, ofBits_four, Ideal.div_coe (by norm_num : (4 : ℝ) ≠ 0)]

/-- The fourteen substeps run the same whichever way the half and quarter steps are formed. -/
theorem run_K_eq_run_R (P : Par) (δ : Fin 14 → EReal) (s : St) :
    run P halfK quarterK δ s = run P halfR quarterR δ s := by
  rw [halfK_eq_halfR, quarterK_eq_quarterR]

/-! ## A flat sum as a double sum -/

/-- The position `b n + d` of component `d` of item `n`, among `a` items of `b` components each, is below `a b`. -/
theorem flat_lt {a b : ℕ} (n : Fin a) (d : Fin b) : b * n.val + d.val < a * b :=
  calc b * n.val + d.val < b * n.val + b := Nat.add_lt_add_left d.isLt _
    _ = b * (n.val + 1) := (Nat.mul_succ b n.val).symm
    _ ≤ b * a := Nat.mul_le_mul_left b n.isLt
    _ = a * b := Nat.mul_comm b a

/-- A sum over `a b` flat positions is the sum over the `a` items of the sums over each item's `b` components,
    position `b n + d` being component `d` of item `n`. -/
theorem sum_flat {M : Type*} [AddCommMonoid M] {a b N : ℕ} (h : a * b = N) (f : Fin N → M) :
    ∑ j : Fin N, f j = ∑ n : Fin a, ∑ d : Fin b, f ⟨b * n.val + d.val, h ▸ flat_lt n d⟩ := by
  subst h
  rw [← Equiv.sum_comp finProdFinEquiv f, Fintype.sum_prod_type]
  refine Finset.sum_congr rfl fun n _ => Finset.sum_congr rfl fun d _ => congrArg f (Fin.ext ?_)
  show d.val + b * n.val = b * n.val + d.val
  exact Nat.add_comm _ _

/-- The 393216 momentum components summed flat are the 131072 atoms' three components each, summed atom by atom:
    component `3 n + d` is component `d` of atom `n`. -/
theorem sum_components (f : Fin 393216 → EReal) :
    ∑ j : Fin 393216, f j
      = ∑ n : Fin 131072, ∑ d : Fin 3, f ⟨3 * n.val + d.val, flat_lt (a := 131072) n d⟩ :=
  sum_flat (a := 131072) (b := 3) rfl f

/-! ## The two programs' sums read at an index -/

abbrev S2x1x393216 : Shape := ⟨3, ![2, 1, 393216]⟩
abbrev S2x1 : Shape := ⟨2, ![2, 1]⟩
abbrev S32x131072x3 : Shape := ⟨3, ![32, 131072, 3]⟩
abbrev S32 : Shape := ⟨1, ![32]⟩
abbrev S_ : Shape := ⟨0, ![]⟩

/-- The kernel's sum over the last axis of a `[2, 1, 393216]` vector, at `(b, z)`: the sum of the row's 393216 entries. -/
theorem multiReduction_last_apply (v : FVec Ideal S2x1x393216 .f32)
    (h₁ : S2x1x393216.Reduces [2] S2x1) (h₂ : FKind.Formats .f32)
    (h₃ : (0x00000000#32 : BitVec 32) = FKind.add.neutral .f32 h₂) (b : Fin 2) (z : Fin 1) :
    multiReduction (F := Ideal) .add [2] S2x1 v 0x00000000#32 h₁ h₂ h₃ (ix2 b z)
      = ∑ j : Fin 393216, v (ix3 b z j) := by
  rw [Ideal.multiReduction_add_single v _ h₁ h₂ h₃ (ix2 b z)]
  refine Finset.sum_congr rfl fun k _ => congrArg v ?_
  funext c
  match c with
  | ⟨0, _⟩ => rfl
  | ⟨1, _⟩ => rfl
  | ⟨2, _⟩ => rfl

/-- An index of a `[32, 131072, 3]` array drops, over axes 1 and 2, to its first coordinate. -/
theorem drop_atoms_val (h : S32x131072x3.ReducesTo [1, 2] S32) (i : S32x131072x3.Idx) :
    (h.drop i (0 : Fin 1)).val = (i (0 : Fin 3)).val :=
  h.drop_apply_val_of_eq i (0 : Fin 1) (0 : Fin 3)

/-- The reference's sum over axes 1 and 2 of a `[32, 131072, 3]` array, at `b`: the initial value plus the sum over
    the 131072 atoms of the sums of each atom's three entries. -/
theorem hostReduceAdd_atoms_apply (x : FVec Ideal S32x131072x3 .f32) (z : FVec Ideal S_ .f32)
    (h : S32x131072x3.ReducesTo [1, 2] S32) (hu : 0 < S_.numel) (b : Fin 32) :
    Host.reduceAdd (F := Ideal) x z h hu (ix1 b)
      = z ix0 + ∑ n : Fin 131072, ∑ d : Fin 3, x (ix3 b n d) := by
  rw [hostReduceAdd_apply, eq_ix0 (Shape.Idx.first hu)]
  unfold Ideal.hostReduceAdd
  refine congrArg (fun t : EReal => z ix0 + t) ?_
  rw [← Fintype.sum_prod_type' (fun (n : Fin 131072) (d : Fin 3) => x (ix3 b n d))]
  have key : ∀ i : S32x131072x3.Idx, h.drop i = ix1 b → ix3 b (i (1 : Fin 3)) (i (2 : Fin 3)) = i := by
    intro i hi
    have h0 : (i (0 : Fin 3)).val = b.val := by
      rw [← drop_atoms_val h i, hi]
    funext c
    match c with
    | ⟨0, _⟩ => exact Fin.ext h0.symm
    | ⟨1, _⟩ => rfl
    | ⟨2, _⟩ => rfl
  refine Finset.sum_nbij' (fun i => ((i (1 : Fin 3) : Fin 131072), (i (2 : Fin 3) : Fin 3)))
    (fun p => ix3 b p.1 p.2) ?_ ?_ ?_ ?_ ?_
  · intro i _; simp only [Finset.mem_univ]
  · intro p _
    refine Finset.mem_filter.2 ⟨Finset.mem_univ _, ?_⟩
    funext c
    match c with
    | ⟨0, _⟩ => exact Fin.ext (drop_atoms_val h (ix3 b p.1 p.2))
  · intro i hi; exact key i (Finset.mem_filter.1 hi).2
  · intro p _; rfl
  · intro i hi; exact congrArg x (key i (Finset.mem_filter.1 hi).2).symm

/-- With the zero constant as initial value the reference's sum is the bare double sum. -/
theorem hostReduceAdd_atoms_zero_apply (x : FVec Ideal S32x131072x3 .f32)
    (h : S32x131072x3.ReducesTo [1, 2] S32) (hu : 0 < S_.numel) (b : Fin 32) :
    Host.reduceAdd (F := Ideal) x (constant (F := Ideal) S_ .f32 0x00000000#32) h hu (ix1 b)
      = ∑ n : Fin 131072, ∑ d : Fin 3, x (ix3 b n d) := by
  rw [hostReduceAdd_atoms_apply, constant_apply, ofBits_zero, zero_add]

/-! ## Both sums as the flat sum of one family of terms -/

/-- The kernel's sum, when the row's entry at `j` is the term `f j`. -/
theorem multiReduction_last_eq_sum (v : FVec Ideal S2x1x393216 .f32)
    (h₁ : S2x1x393216.Reduces [2] S2x1) (h₂ : FKind.Formats .f32)
    (h₃ : (0x00000000#32 : BitVec 32) = FKind.add.neutral .f32 h₂) (b : Fin 2) (z : Fin 1)
    (f : Fin 393216 → EReal) (hf : ∀ j : Fin 393216, v (ix3 b z j) = f j) :
    multiReduction (F := Ideal) .add [2] S2x1 v 0x00000000#32 h₁ h₂ h₃ (ix2 b z) = ∑ j : Fin 393216, f j := by
  rw [multiReduction_last_apply]
  exact Finset.sum_congr rfl fun j _ => hf j

/-- The reference's sum, when the entry of atom `n`, component `d` is the term `f (3 n + d)`. -/
theorem hostReduceAdd_atoms_eq_sum (x : FVec Ideal S32x131072x3 .f32) (z : FVec Ideal S_ .f32)
    (h : S32x131072x3.ReducesTo [1, 2] S32) (hu : 0 < S_.numel) (b : Fin 32)
    (f : Fin 393216 → EReal)
    (hf : ∀ (n : Fin 131072) (d : Fin 3), x (ix3 b n d) = f ⟨3 * n.val + d.val, flat_lt (a := 131072) n d⟩) :
    Host.reduceAdd (F := Ideal) x z h hu (ix1 b) = z ix0 + ∑ j : Fin 393216, f j := by
  rw [hostReduceAdd_atoms_apply, sum_components f]
  exact congrArg (fun t : EReal => z ix0 + t)
    (Finset.sum_congr rfl fun n _ => Finset.sum_congr rfl fun d _ => hf n d)

/-- Twice the kinetic energy, atom by atom: the specification's flat sum cut into the atoms' three components. -/
theorem kin_eq_atoms (P : Par) (p : Fin ND → EReal) :
    kin P p = ∑ n : Fin 131072, ∑ d : Fin 3,
      Ideal.div (p ⟨3 * n.val + d.val, flat_lt (a := 131072) n d⟩ * p ⟨3 * n.val + d.val, flat_lt (a := 131072) n d⟩)
        (P.μ ⟨3 * n.val + d.val, flat_lt (a := 131072) n d⟩) :=
  sum_components fun j => Ideal.div (p j * p j) (P.μ j)

end Cert.Nhc

end
-- ==== Proof.KStep.lean ====
/-
  One substep of the kernel, on its vectors.

  The kernel works on a block of two batch entries. A long vector `[2, 1, 393216]` holds, for each of the two, its
  393216 momentum components (or their masses); a short vector `[2, 1, 1]` holds one number for each of the two
  (k_B T, a chain mass, a chain momentum, a chain position, the substep size). Every operation is elementwise,
  except the sum along the long axis, which leaves one number per entry, and the scaling of the momenta, which
  spreads one number per entry along the long axis. So, read at entry `b`, each vector expression below is the
  scalar expression of Spec.lean on the numbers read at `b`; the half and quarter steps are products with the
  floats 0.5 and 0.25; a negation is written `0 - x`.

  The definitions spell the operations in the kernel's order; the lemmas after them read each at an entry.
-/
import Idealize.ShloMosaic.PureOps.Ideal
import Idealize.ShloMosaic.PureOps.Ideal.Laws
import Idealize.ShloMosaic.Lib.ValueIdx
import Idealize.ShloMosaic.Lib.Pipeline.Value
import proofs.«156042_j46600395162250_1_alg».proof.Proof.Spec
import proofs.«156042_j46600395162250_1_alg».proof.Proof.SpecArr
import proofs.«156042_j46600395162250_1_alg».proof.Proof.LibNhcAlgebra

noncomputable section

namespace Cert.Nhc.K

open Idealize.ShloMosaic Idealize.ShloMosaic.ValueIdx

/-- One number for each of the block's two entries. -/
abbrev S2x1x1 : Shape := ⟨3, ![2, 1, 1]⟩

theorem hred : S2x1x393216.Reduces [2] S2x1 := by decide
theorem hcast : S2x1.ShapeCasts S2x1x1 := by decide
theorem hbc : S2x1x1.Broadcasts S2x1x393216 := by decide

section Defs

variable {F : FTy → Type} [FloatOps F]

/-- The float `w` for each of the two entries. -/
def kConst (w : BitVec 32) : FVec F S2x1x1 .f32 := broadcast S2x1x1 (Scalar.ofBits .f32 w)

/-- The first force: the sum of p² / μ along the long axis, less k_B T times the float 393216.0. -/
def kForce0 (p mu : FVec F S2x1x393216 .f32) (kbt : FVec F S2x1x1 .f32) : FVec F S2x1x1 .f32 :=
  subf (shapeCast S2x1x1 (multiReduction .add [2] S2x1 (divf (mulf p p) mu) 0x00000000#32 hred (.inl rfl) rfl) hcast)
    (mulf kbt (kConst 0x48C00000#32))

/-- A chain force: r² / M less k_B T. -/
def kForceC (kbt M r : FVec F S2x1x1 .f32) : FVec F S2x1x1 .f32 := subf (divf (mulf r r) M) kbt

/-- The half step: the product with the float 0.5. -/
def kHalf (dea : FVec F S2x1x1 .f32) : FVec F S2x1x1 .f32 := mulf dea (kConst 0x3F000000#32)

/-- The quarter step: the product with the float 0.25. -/
def kQuarter (dea : FVec F S2x1x1 .f32) : FVec F S2x1x1 .f32 := mulf dea (kConst 0x3E800000#32)

/-- The kick of the last chain momentum by its force over a half step. -/
def kKick (r4 g4 dea : FVec F S2x1x1 .f32) : FVec F S2x1x1 .f32 := addf r4 (mulf g4 (kHalf dea))

/-- The damping factor of the chain momentum `x` of mass `M` over a quarter step: exp((0 - x) / M · δ/4). -/
def kDamp (x M dea : FVec F S2x1x1 .f32) : FVec F S2x1x1 .f32 :=
  exp (mulf (divf (subf (kConst 0x00000000#32) x) M) (kQuarter dea))

/-- One row of the sweep: the momentum `r` damped by `f`, kicked by its force `g` over a half step, damped again. -/
def kSweepRow (r g f dea : FVec F S2x1x1 .f32) : FVec F S2x1x1 .f32 :=
  mulf (addf (mulf r f) (mulf g (kHalf dea))) f

/-- The drift of a chain position by its momentum over the whole substep. -/
def kDrift (q r M dea : FVec F S2x1x1 .f32) : FVec F S2x1x1 .f32 := addf q (mulf (divf r M) dea)

/-- The factor the momenta are scaled by: exp((0 - r₀) / M₀ · δ). -/
def kScaleFactor (r0 M0 dea : FVec F S2x1x1 .f32) : FVec F S2x1x1 .f32 :=
  exp (mulf (divf (subf (kConst 0x00000000#32) r0) M0) dea)

/-- The momenta scaled, the factor spread along the long axis. -/
def kScale (p : FVec F S2x1x393216 .f32) (r0 M0 dea : FVec F S2x1x1 .f32) : FVec F S2x1x393216 .f32 :=
  mulf p (broadcastTo S2x1x393216 (kScaleFactor r0 M0 dea) hbc)

end Defs

/-- Five short vectors: one per link of the chain. -/
structure K5 (F : FTy → Type) where
  x0 : FVec F S2x1x1 .f32
  x1 : FVec F S2x1x1 .f32
  x2 : FVec F S2x1x1 .f32
  x3 : FVec F S2x1x1 .f32
  x4 : FVec F S2x1x1 .f32

/-- The parameters of the block's two entries: the masses of the momentum components, k_B T, the chain masses. -/
structure KPar (F : FTy → Type) where
  mu : FVec F S2x1x393216 .f32
  kbt : FVec F S2x1x1 .f32
  M : K5 F

/-- The state of the block's two entries: the momenta, the chain positions, the chain momenta. -/
structure KSt (F : FTy → Type) where
  p : FVec F S2x1x393216 .f32
  q : K5 F
  r : K5 F

section Defs

variable {F : FTy → Type} [FloatOps F]

/-- The five forces, from the momenta `p` and the chain momenta `r`. -/
def kForce (P : KPar F) (p : FVec F S2x1x393216 .f32) (r : K5 F) : K5 F :=
  ⟨kForce0 p P.mu P.kbt, kForceC P.kbt P.M.x0 r.x0, kForceC P.kbt P.M.x1 r.x1, kForceC P.kbt P.M.x2 r.x2,
    kForceC P.kbt P.M.x3 r.x3⟩

/-- The sweep down the chain, rows 3, 2, 1, 0, each damped by the row above as already updated; the last is untouched. -/
def kSweep (P : KPar F) (dea : FVec F S2x1x1 .f32) (r g : K5 F) : K5 F :=
  let r3 := kSweepRow r.x3 g.x3 (kDamp r.x4 P.M.x4 dea) dea
  let r2 := kSweepRow r.x2 g.x2 (kDamp r3 P.M.x3 dea) dea
  let r1 := kSweepRow r.x1 g.x1 (kDamp r2 P.M.x2 dea) dea
  let r0 := kSweepRow r.x0 g.x0 (kDamp r1 P.M.x1 dea) dea
  ⟨r0, r1, r2, r3, r.x4⟩

/-- The chain momenta after the first half of a substep: forces, the kick of the last, the sweep. -/
def kHalf1 (P : KPar F) (dea : FVec F S2x1x1 .f32) (s : KSt F) : K5 F :=
  let g := kForce P s.p s.r
  kSweep P dea ⟨s.r.x0, s.r.x1, s.r.x2, s.r.x3, kKick s.r.x4 g.x4 dea⟩ g

/-- One substep of the kernel. -/
def kStep (P : KPar F) (dea : FVec F S2x1x1 .f32) (s : KSt F) : KSt F :=
  let mc := kHalf1 P dea s
  let p' := kScale s.p mc.x0 P.M.x0 dea
  let g2 := kForce P p' s.r
  let mc' := kSweep P dea mc g2
  { p := p'
    q := ⟨kDrift s.q.x0 mc.x0 P.M.x0 dea, kDrift s.q.x1 mc.x1 P.M.x1 dea, kDrift s.q.x2 mc.x2 P.M.x2 dea,
      kDrift s.q.x3 mc.x3 P.M.x3 dea, kDrift s.q.x4 mc.x4 P.M.x4 dea⟩
    r := ⟨mc'.x0, mc'.x1, mc'.x2, mc'.x3, kKick mc'.x4 g2.x4 dea⟩ }

/-- The substeps of a list of sizes, one after the other. -/
def kRunList (P : KPar F) {ι : Type} (dea : ι → FVec F S2x1x1 .f32) (l : List ι) (s : KSt F) : KSt F :=
  l.foldl (fun s i => kStep P (dea i) s) s

end Defs

/-! ## Reading a vector at an entry -/

/-- The number a short vector holds for entry `b`. -/
def rd (x : FVec Ideal S2x1x1 .f32) (b : Fin 2) : EReal := x (ix3 b 0 0)

/-- The components a long vector holds for entry `b`. -/
def rdN (p : FVec Ideal S2x1x393216 .f32) (b : Fin 2) : Fin ND → EReal := fun j => p (ix3 b 0 j)

/-- The five numbers five short vectors hold for entry `b`. -/
def K5.rd (x : K5 Ideal) (b : Fin 2) : Fin 5 → EReal := ![K.rd x.x0 b, K.rd x.x1 b, K.rd x.x2 b, K.rd x.x3 b, K.rd x.x4 b]

/-- Entry `b`'s parameters. -/
def KPar.rd (P : KPar Ideal) (b : Fin 2) : Par := { μ := rdN P.mu b, M := P.M.rd b, k := K.rd P.kbt b }

/-- Entry `b`'s state. -/
def KSt.rd (s : KSt Ideal) (b : Fin 2) : St := { p := rdN s.p b, q := s.q.rd b, r := s.r.rd b }

/-! ## The operations read at an index -/

section Read

/-- Two states with the same momenta, chain positions and chain momenta are one state. -/
theorem St_ext {s t : St} (hp : s.p = t.p) (hq : s.q = t.q) (hr : s.r = t.r) : s = t := by
  cases s; cases t; cases hp; cases hq; cases hr; rfl

/-- Replacing the last of five numbers. -/
theorem update4 (v : Fin 5 → EReal) (x : EReal) : Function.update v 4 x = ![v 0, v 1, v 2, v 3, x] := by
  funext c
  match c with
  | ⟨0, _⟩ => rfl
  | ⟨1, _⟩ => rfl
  | ⟨2, _⟩ => rfl
  | ⟨3, _⟩ => rfl
  | ⟨4, _⟩ => rfl

/-- Five numbers are the list of their values. -/
theorem vec5_eta (v : Fin 5 → EReal) : v = ![v 0, v 1, v 2, v 3, v 4] := by
  funext c
  match c with
  | ⟨0, _⟩ => rfl
  | ⟨1, _⟩ => rfl
  | ⟨2, _⟩ => rfl
  | ⟨3, _⟩ => rfl
  | ⟨4, _⟩ => rfl

variable (b : Fin 2)

theorem kConst_apply (w : BitVec 32) (i : S2x1x1.Idx) : kConst (F := Ideal) w i = Ideal.ofBits .f32 w := rfl

theorem kHalf_apply (dea : FVec Ideal S2x1x1 .f32) (i : S2x1x1.Idx) : kHalf dea i = halfK (dea i) := rfl

theorem kQuarter_apply (dea : FVec Ideal S2x1x1 .f32) (i : S2x1x1.Idx) : kQuarter dea i = quarterK (dea i) := rfl

theorem kForceC_apply (kbt M r : FVec Ideal S2x1x1 .f32) (i : S2x1x1.Idx) :
    kForceC kbt M r i = Ideal.div (r i * r i) (M i) - kbt i := rfl

theorem kKick_apply (r4 g4 dea : FVec Ideal S2x1x1 .f32) (i : S2x1x1.Idx) :
    kKick r4 g4 dea i = r4 i + g4 i * halfK (dea i) := rfl

/-- The kernel's `0 - x` is `-x`. -/
theorem kDamp_apply (x M dea : FVec Ideal S2x1x1 .f32) (i : S2x1x1.Idx) :
    kDamp x M dea i = Ideal.exp (Ideal.div (-(x i)) (M i) * quarterK (dea i)) := by
  show Ideal.exp (Ideal.div (Ideal.ofBits .f32 0x00000000#32 - x i) (M i) * quarterK (dea i)) = _
  rw [ofBits_zero, zero_sub]

theorem kSweepRow_apply (r g f dea : FVec Ideal S2x1x1 .f32) (i : S2x1x1.Idx) :
    kSweepRow r g f dea i = (r i * f i + g i * halfK (dea i)) * f i := rfl

theorem kDrift_apply (q r M dea : FVec Ideal S2x1x1 .f32) (i : S2x1x1.Idx) :
    kDrift q r M dea i = q i + Ideal.div (r i) (M i) * dea i := rfl

theorem kScaleFactor_apply (r0 M0 dea : FVec Ideal S2x1x1 .f32) (i : S2x1x1.Idx) :
    kScaleFactor r0 M0 dea i = Ideal.exp (Ideal.div (-(r0 i)) (M0 i) * dea i) := by
  show Ideal.exp (Ideal.div (Ideal.ofBits .f32 0x00000000#32 - r0 i) (M0 i) * dea i) = _
  rw [ofBits_zero, zero_sub]

/-- The scaled momenta at component `j` of entry `b`: the momentum times the entry's factor. -/
theorem kScale_apply (p : FVec Ideal S2x1x393216 .f32) (r0 M0 dea : FVec Ideal S2x1x1 .f32) (j : Fin 393216) :
    kScale p r0 M0 dea (ix3 b 0 j) = p (ix3 b 0 j) * kScaleFactor r0 M0 dea (ix3 b 0 0) := by
  show p (ix3 b 0 j) * broadcastTo S2x1x393216 (kScaleFactor r0 M0 dea) hbc (ix3 b 0 j) = _
  rw [broadcastTo_apply (kScaleFactor r0 M0 dea) hbc (ix3 b 0 j) (ix3 b 0 0) (by
    intro a
    match a with
    | ⟨0, _⟩ => rfl
    | ⟨1, _⟩ => rfl
    | ⟨2, _⟩ => rfl)]

/-- The first force at entry `b`: the entry's Σ p² / μ less k_B T times the float 393216.0. -/
theorem kForce0_apply (p mu : FVec Ideal S2x1x393216 .f32) (kbt : FVec Ideal S2x1x1 .f32) :
    kForce0 p mu kbt (ix3 b 0 0)
      = (∑ j : Fin 393216, Ideal.div (p (ix3 b 0 j) * p (ix3 b 0 j)) (mu (ix3 b 0 j))) - kbt (ix3 b 0 0) * dof := by
  show shapeCast S2x1x1 (multiReduction (F := Ideal) .add [2] S2x1 (divf (mulf p p) mu) 0x00000000#32 hred (.inl rfl) rfl)
      hcast (ix3 b 0 0) - kbt (ix3 b 0 0) * dof = _
  rw [shapeCast_apply _ hcast (ix3 b 0 0) (ix2 b 0) (by
    rw [Shape.rowMajor_val_two, Shape.rowMajor_val_three]
    show b.val * 1 + 0 = (b.val * 1 + 0) * 1 + 0
    omega)]
  exact congrArg (fun t : EReal => t - kbt (ix3 b 0 0) * dof)
    (multiReduction_last_apply (divf (mulf p p) mu) hred _ _ b 0)

end Read

/-! ## The pieces of a substep read at an entry -/

section Pieces

variable (P : KPar Ideal) (dea : FVec Ideal S2x1x1 .f32) (b : Fin 2)

/-- The five forces at entry `b` are the specification's forces on the entry's numbers. -/
theorem kForce_rd (p : FVec Ideal S2x1x393216 .f32) (r : K5 Ideal) :
    (kForce P p r).rd b = force (P.rd b) (rdN p b) (r.rd b) := by
  have h0 : K.rd (kForce0 p P.mu P.kbt) b = kin (P.rd b) (rdN p b) - (P.rd b).k * dof := kForce0_apply b p P.mu P.kbt
  show ![K.rd (kForce0 p P.mu P.kbt) b, _, _, _, _] = _
  rw [h0]
  rfl

/-- One row of the sweep at entry `b`. -/
theorem kSweepRow_rd (r g x M : FVec Ideal S2x1x1 .f32) :
    K.rd (kSweepRow r g (kDamp x M dea) dea) b
      = (K.rd r b * Ideal.exp (Ideal.div (-(K.rd x b)) (K.rd M b) * quarterK (K.rd dea b)) + K.rd g b * halfK (K.rd dea b))
          * Ideal.exp (Ideal.div (-(K.rd x b)) (K.rd M b) * quarterK (K.rd dea b)) := by
  show kSweepRow r g (kDamp x M dea) dea (ix3 b 0 0) = _
  rw [kSweepRow_apply, kDamp_apply]
  rfl

/-- The sweep at entry `b` is the specification's sweep on the entry's numbers. -/
theorem kSweep_rd (r g : K5 Ideal) :
    (kSweep P dea r g).rd b
      = sweep (P.rd b) (halfK (K.rd dea b)) (quarterK (K.rd dea b)) (r.rd b) (g.rd b) := by
  show ![K.rd (kSweepRow r.x0 g.x0 (kDamp _ P.M.x1 dea) dea) b, K.rd (kSweepRow r.x1 g.x1 (kDamp _ P.M.x2 dea) dea) b,
      K.rd (kSweepRow r.x2 g.x2 (kDamp _ P.M.x3 dea) dea) b, K.rd (kSweepRow r.x3 g.x3 (kDamp r.x4 P.M.x4 dea) dea) b,
      K.rd r.x4 b] = _
  simp only [kSweepRow_rd]
  rfl

/-- The chain momenta after the first half of a substep, at entry `b`. -/
theorem kHalf1_rd (s : KSt Ideal) :
    (kHalf1 P dea s).rd b = half1 (P.rd b) (halfK (K.rd dea b)) (quarterK (K.rd dea b)) (s.rd b) := by
  have hg := kForce_rd P b s.p s.r
  have hk : (K5.rd ⟨s.r.x0, s.r.x1, s.r.x2, s.r.x3, kKick s.r.x4 (kForce P s.p s.r).x4 dea⟩ b)
      = Function.update (s.r.rd b) 4 ((s.r.rd b) 4 + ((kForce P s.p s.r).rd b) 4 * halfK (K.rd dea b)) := by
    rw [update4]
    funext c
    match c with
    | ⟨0, _⟩ => rfl
    | ⟨1, _⟩ => rfl
    | ⟨2, _⟩ => rfl
    | ⟨3, _⟩ => rfl
    | ⟨4, _⟩ => rfl
  show (kSweep P dea ⟨s.r.x0, s.r.x1, s.r.x2, s.r.x3, kKick s.r.x4 (kForce P s.p s.r).x4 dea⟩ (kForce P s.p s.r)).rd b = _
  rw [kSweep_rd, hk, hg]
  rfl

end Pieces

/-! ## The substep, and the substeps one after the other, read at an entry -/

section Step

variable (P : KPar Ideal) (b : Fin 2)

/-- One substep of the kernel, read at entry `b`, is the specification's substep of the entry's state, the half
    and quarter steps formed as products with 0.5 and 0.25. -/
theorem kStep_rd (dea : FVec Ideal S2x1x1 .f32) (s : KSt Ideal) :
    (kStep P dea s).rd b
      = step (P.rd b) (K.rd dea b) (halfK (K.rd dea b)) (quarterK (K.rd dea b)) (s.rd b) := by
  have hmc := kHalf1_rd P dea b s
  have hp : rdN (kScale s.p (kHalf1 P dea s).x0 P.M.x0 dea) b
      = fun j => (s.rd b).p j * scale (P.rd b) (K.rd dea b) (halfK (K.rd dea b)) (quarterK (K.rd dea b)) (s.rd b) := by
    funext j
    show kScale s.p (kHalf1 P dea s).x0 P.M.x0 dea (ix3 b 0 j) = _
    rw [kScale_apply, kScaleFactor_apply]
    show _ * Ideal.exp (Ideal.div (-(((kHalf1 P dea s).rd b) 0)) ((P.rd b).M 0) * K.rd dea b) = _
    rw [hmc]
    rfl
  have hg2 := kForce_rd P b (kScale s.p (kHalf1 P dea s).x0 P.M.x0 dea) s.r
  rw [hp] at hg2
  have hmc' := kSweep_rd P dea b (kHalf1 P dea s) (kForce P (kScale s.p (kHalf1 P dea s).x0 P.M.x0 dea) s.r)
  rw [hmc, hg2] at hmc'
  apply St_ext
  · exact hp
  · have hq : ∀ c : Fin 5, ((kStep P dea s).rd b).q c
        = (s.rd b).q c + Ideal.div (((kHalf1 P dea s).rd b) c) ((P.rd b).M c) * K.rd dea b := by
      intro c
      match c with
      | ⟨0, _⟩ => rfl
      | ⟨1, _⟩ => rfl
      | ⟨2, _⟩ => rfl
      | ⟨3, _⟩ => rfl
      | ⟨4, _⟩ => rfl
    funext c
    rw [hq c, hmc]
    rfl
  · have hr : ((kStep P dea s).rd b).r
        = Function.update ((kSweep P dea (kHalf1 P dea s) (kForce P (kScale s.p (kHalf1 P dea s).x0 P.M.x0 dea) s.r)).rd b) 4
            (((kSweep P dea (kHalf1 P dea s) (kForce P (kScale s.p (kHalf1 P dea s).x0 P.M.x0 dea) s.r)).rd b) 4
              + ((kForce P (kScale s.p (kHalf1 P dea s).x0 P.M.x0 dea) s.r).rd b) 4 * halfK (K.rd dea b)) := by
      rw [update4]
      rfl
    rw [hr, hmc', hg2]
    rfl

/-- Substeps one after the other, read at entry `b`. -/
theorem kRunList_rd {ι : Type} (dea : ι → FVec Ideal S2x1x1 .f32) (l : List ι) (s : KSt Ideal) :
    (kRunList P dea l s).rd b
      = l.foldl (fun s i => step (P.rd b) (K.rd (dea i) b) (halfK (K.rd (dea i) b)) (quarterK (K.rd (dea i) b)) s)
          (s.rd b) := by
  induction l generalizing s with
  | nil => rfl
  | cons i l ih =>
    show (kRunList P dea l (kStep P (dea i) s)).rd b = _
    rw [ih, kStep_rd]
    rfl

/-- The kernel's fourteen substeps, read at entry `b`, are the specification's run of the entry. -/
theorem kRun_rd (dea : Fin 14 → FVec Ideal S2x1x1 .f32) (S : KSt Ideal) :
    (kRunList P dea (List.finRange 14) S).rd b
      = run (P.rd b) halfK quarterK (fun i => K.rd (dea i) b) (S.rd b) := by
  rw [kRunList_rd]
  rfl

end Step

end Cert.Nhc.K

end
-- ==== Proof.KBlockSpec.lean ====
/-
  The kernel's fourteen substeps on a block, read at an entry, are the block's run of Spec.lean; and the two
  five-column results are their columns.

  The block's parameters, state and substep sizes are read off the kernel's vectors entry by entry; when those
  readings are the block's own (the hypotheses), the fourteen substeps at entry `b` are the run of entry `b`.
  A vector `[2, 1, 5]` put together from five vectors `[2, 1, 1]` along the last axis holds, in column `k`, the
  `k`-th of them.
-/
import Idealize.ShloMosaic.PureOps.Ideal
import Idealize.ShloMosaic.Lib.ValueIdx
import Idealize.ShloMosaic.Lib.Pipeline.Value
import proofs.«156042_j46600395162250_1_alg».proof.Proof.Spec
import proofs.«156042_j46600395162250_1_alg».proof.Proof.SpecBlk
import proofs.«156042_j46600395162250_1_alg».proof.Proof.KStep

noncomputable section

namespace Cert.Nhc.K

open Idealize.ShloMosaic Idealize.ShloMosaic.ValueIdx

/-- Five numbers for each of the block's two entries. -/
abbrev S2x1x5 : Shape := ⟨3, ![2, 1, 5]⟩

/-! ## The fourteen substeps are the block's run -/

/-- If the kernel's parameter vectors, state vectors and substep-size vectors read, at every entry, as the block's
    parameters, state and substep sizes, then its fourteen substeps read at entry `b` as the block's run of `b`. -/
theorem kRun_blk (x0 x1 : B3.Idx → EReal) (x2 x3 x4 : B5.Idx → EReal) (x5 : B1.Idx → EReal) (x6 : B14.Idx → EReal)
    (P : KPar Ideal) (S : KSt Ideal) (dea : Fin 14 → FVec Ideal S2x1x1 .f32)
    (hP : ∀ b, P.rd b = blkPar x1 x4 x5 b) (hS : ∀ b, S.rd b = blkSt x0 x3 x2 b)
    (hd : ∀ b s, K.rd (dea s) b = blkDelta x6 b s) (b : Fin 2) :
    (kRunList P dea (List.finRange 14) S).rd b = blkFin x0 x1 x2 x3 x4 x5 x6 b := by
  rw [kRun_rd, hP, hS, show (fun i => K.rd (dea i) b) = blkDelta x6 b from funext fun s => hd b s]
  rfl

/-- The same, field by field: the momenta, the chain positions and the chain momenta the fourteen substeps leave. -/
theorem kRun_blk_p (x0 x1 : B3.Idx → EReal) (x2 x3 x4 : B5.Idx → EReal) (x5 : B1.Idx → EReal) (x6 : B14.Idx → EReal)
    (P : KPar Ideal) (S : KSt Ideal) (dea : Fin 14 → FVec Ideal S2x1x1 .f32)
    (hP : ∀ b, P.rd b = blkPar x1 x4 x5 b) (hS : ∀ b, S.rd b = blkSt x0 x3 x2 b)
    (hd : ∀ b s, K.rd (dea s) b = blkDelta x6 b s) (b : Fin 2) (j : Fin ND) :
    (kRunList P dea (List.finRange 14) S).p (ix3 b 0 j) = (blkFin x0 x1 x2 x3 x4 x5 x6 b).p j :=
  congrFun (congrArg St.p (kRun_blk x0 x1 x2 x3 x4 x5 x6 P S dea hP hS hd b)) j

theorem kRun_blk_q (x0 x1 : B3.Idx → EReal) (x2 x3 x4 : B5.Idx → EReal) (x5 : B1.Idx → EReal) (x6 : B14.Idx → EReal)
    (P : KPar Ideal) (S : KSt Ideal) (dea : Fin 14 → FVec Ideal S2x1x1 .f32)
    (hP : ∀ b, P.rd b = blkPar x1 x4 x5 b) (hS : ∀ b, S.rd b = blkSt x0 x3 x2 b)
    (hd : ∀ b s, K.rd (dea s) b = blkDelta x6 b s) (b : Fin 2) (k : Fin 5) :
    ((kRunList P dea (List.finRange 14) S).q.rd b) k = (blkFin x0 x1 x2 x3 x4 x5 x6 b).q k :=
  congrFun (congrArg St.q (kRun_blk x0 x1 x2 x3 x4 x5 x6 P S dea hP hS hd b)) k

theorem kRun_blk_r (x0 x1 : B3.Idx → EReal) (x2 x3 x4 : B5.Idx → EReal) (x5 : B1.Idx → EReal) (x6 : B14.Idx → EReal)
    (P : KPar Ideal) (S : KSt Ideal) (dea : Fin 14 → FVec Ideal S2x1x1 .f32)
    (hP : ∀ b, P.rd b = blkPar x1 x4 x5 b) (hS : ∀ b, S.rd b = blkSt x0 x3 x2 b)
    (hd : ∀ b s, K.rd (dea s) b = blkDelta x6 b s) (b : Fin 2) (k : Fin 5) :
    ((kRunList P dea (List.finRange 14) S).r.rd b) k = (blkFin x0 x1 x2 x3 x4 x5 x6 b).r k :=
  congrFun (congrArg St.r (kRun_blk x0 x1 x2 x3 x4 x5 x6 P S dea hP hS hd b)) k

/-! ## Five columns put together -/

/-- Column `k` of five `[2, 1, 1]` vectors put together along the last axis is the `k`-th vector. -/
theorem cat5_apply (a0 a1 a2 a3 a4 : FVec Ideal S2x1x1 .f32)
    (h : Shape.Concatenates (([⟨S2x1x1, a0⟩, ⟨S2x1x1, a1⟩, ⟨S2x1x1, a2⟩, ⟨S2x1x1, a3⟩, ⟨S2x1x1, a4⟩] :
      List ((s : Shape) × (s.Idx → Ideal .f32))).map (·.1)) S2x1x5 2)
    (b : Fin 2) (k : Fin 5) :
    concatenate S2x1x5 2 [⟨S2x1x1, a0⟩, ⟨S2x1x1, a1⟩, ⟨S2x1x1, a2⟩, ⟨S2x1x1, a3⟩, ⟨S2x1x1, a4⟩] h (ix3 b 0 k)
      = (K5.rd ⟨a0, a1, a2, a3, a4⟩ b) k := by
  have hi : ∀ (k' : Fin 5) (c : Fin S2x1x1.rank), c.cast (rfl : S2x1x1.rank = S2x1x5.rank) ≠ (2 : Fin 3) →
      ((ix3 b (0 : Fin 1) (0 : Fin 1) : S2x1x1.Idx) c).val = ((ix3 b (0 : Fin 1) k' : S2x1x5.Idx) (c.cast rfl)).val := by
    intro k' c hc
    match c with
    | ⟨0, _⟩ => rfl
    | ⟨1, _⟩ => rfl
    | ⟨2, _⟩ => exact absurd rfl hc
  match k with
  | ⟨0, _⟩ =>
    refine concatenate_apply_piece (t := S2x1x5) (2 : Fin 3) _ h (ix3 b (0 : Fin 1) (0 : Fin 5)) 0 ?_ S2x1x1 a0 rfl rfl 0 rfl
      (ix3 b (0 : Fin 1) (0 : Fin 1)) (hi 0) ?_
    · show (0 : ℕ) < 5
      omega
    · first | rfl | decide
  | ⟨1, _⟩ =>
    refine concatenate_apply_piece (t := S2x1x5) (2 : Fin 3) _ h (ix3 b (0 : Fin 1) (1 : Fin 5)) 1 ?_ S2x1x1 a1 rfl rfl 1 rfl
      (ix3 b (0 : Fin 1) (0 : Fin 1)) (hi 1) ?_
    · show (1 : ℕ) < 5
      omega
    · first | rfl | decide
  | ⟨2, _⟩ =>
    refine concatenate_apply_piece (t := S2x1x5) (2 : Fin 3) _ h (ix3 b (0 : Fin 1) (2 : Fin 5)) 2 ?_ S2x1x1 a2 rfl rfl 2 rfl
      (ix3 b (0 : Fin 1) (0 : Fin 1)) (hi 2) ?_
    · show (2 : ℕ) < 5
      omega
    · first | rfl | decide
  | ⟨3, _⟩ =>
    refine concatenate_apply_piece (t := S2x1x5) (2 : Fin 3) _ h (ix3 b (0 : Fin 1) (3 : Fin 5)) 3 ?_ S2x1x1 a3 rfl rfl 3 rfl
      (ix3 b (0 : Fin 1) (0 : Fin 1)) (hi 3) ?_
    · show (3 : ℕ) < 5
      omega
    · first | rfl | decide
  | ⟨4, _⟩ =>
    refine concatenate_apply_piece (t := S2x1x5) (2 : Fin 3) _ h (ix3 b (0 : Fin 1) (4 : Fin 5)) 4 ?_ S2x1x1 a4 rfl rfl 4 rfl
      (ix3 b (0 : Fin 1) (0 : Fin 1)) (hi 4) ?_
    · show (4 : ℕ) < 5
      omega
    · first | rfl | decide

end Cert.Nhc.K

end
-- ==== Proof.KIBlock.lean ====
import proofs.«156042_j46600395162250_1_alg».proof.Proof.KIBody
import proofs.«156042_j46600395162250_1_alg».proof.Proof.SpecBlk
import proofs.«156042_j46600395162250_1_alg».proof.Proof.KStep
import proofs.«156042_j46600395162250_1_alg».proof.Proof.KBlockSpec
import Idealize.ShloMosaic.Lib.ValueIdx
import Idealize.ShloMosaic.Lib.Pipeline.Value
import Idealize.ShloMosaic.Lib.WholeRead
import Idealize.ShloMosaic.Lib.Tactic

/-!
# What the body leaves, read at an index

Between two substeps the body holds the state of the recurrence on the block's two entries: the momenta, the five
chain positions, the five chain momenta, as vectors. The state after substep s is the kernel's substep
(`Cert.Nhc.K.kStep`) applied to the state after substep s − 1, with substep size number s and the parameters loaded.
So the three blocks the body stores are the fourteen substeps of the state loaded; read at an entry of the block,
they are the state of the recurrence on that entry after its fourteen substeps.
-/

set_option maxRecDepth 16384

noncomputable section

namespace Cert.KernelIdeal.Fr

open Cert.KernelIdeal Cert.KernelIdeal.Gen
open Idealize.ShloMosaic Idealize.ShloMosaic.Tactic Idealize.ShloMosaic.ValueIdx
open Cert.Nhc.K (KPar KSt K5 kStep kRunList kKick)

variable {F : FTy → Type} [FloatOps F]

/-! ## The parameters, the substep sizes and the state between substeps -/

/-- The block's parameters as loaded: the masses, k_B T, the five chain masses. -/
def kP (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KPar F :=
  ⟨(kernelRun.sl.v3 c arg2 harg2 x1), (kernelRun.sl.v5 c arg6 harg6 x5), ⟨(kernelRun.sl.v7 c arg5 harg5 x4), (kernelRun.sl.v9 c arg5 harg5 x4), (kernelRun.sl.v11 c arg5 harg5 x4), (kernelRun.sl.v13 c arg5 harg5 x4), (kernelRun.sl.v15 c arg5 harg5 x4)⟩⟩

/-- The fourteen substep sizes as loaded, column by column. -/
def kDea (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : Fin 14 → FVec F S2x1x1 .f32 :=
  ![(kernelRun.sl.r_8 c arg7 harg7 x6),
    (kernelRun.sl.r_40 c arg7 harg7 x6),
    (kernelRun.sl.r_67 c arg7 harg7 x6),
    (kernelRun.sl.r_98 c arg7 harg7 x6),
    (kernelRun.sl.r_122 c arg7 harg7 x6),
    (kernelRun.sl.r_149 c arg7 harg7 x6),
    (kernelRun.sl.r_172 c arg7 harg7 x6),
    (kernelRun.sl.r_200 c arg7 harg7 x6),
    (kernelRun.sl.r_227 c arg7 harg7 x6),
    (kernelRun.sl.r_257 c arg7 harg7 x6),
    (kernelRun.sl.r_286 c arg7 harg7 x6),
    (kernelRun.sl.r_313 c arg7 harg7 x6),
    (kernelRun.sl.r_341 c arg7 harg7 x6),
    (kernelRun.sl.r_366 c arg7 harg7 x6)]

/-- The state before the first substep: the momenta, the chain positions and the chain momenta as loaded. -/
def kN0 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.v1 c arg1 harg1 x0),
   ⟨(kernelRun.sl.r_3 c arg4 harg4 x3), (kernelRun.sl.r_4 c arg4 harg4 x3), (kernelRun.sl.r_5 c arg4 harg4 x3), (kernelRun.sl.r_6 c arg4 harg4 x3), (kernelRun.sl.r_7 c arg4 harg4 x3)⟩,
   ⟨(kernelRun.sl.v17 c arg3 harg3 x2), (kernelRun.sl.v19 c arg3 harg3 x2), (kernelRun.sl.v21 c arg3 harg3 x2), (kernelRun.sl.r_1 c arg3 harg3 x2), (kernelRun.sl.r_2 c arg3 harg3 x2)⟩⟩

/-- The state after substep 1. -/
def kN1 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_27 c arg1 harg1 arg2 harg2 arg3 harg3 arg5 harg5 arg6 harg6 arg7 harg7 x0 x1 x2 x4 x5 x6),
   ⟨(kernelRun.sl.r_22 c arg1 harg1 arg2 harg2 arg3 harg3 arg4 harg4 arg5 harg5 arg6 harg6 arg7 harg7 x0 x1 x2 x3 x4 x5 x6), (kernelRun.sl.r_23 c arg3 harg3 arg4 harg4 arg5 harg5 arg6 harg6 arg7 harg7 x2 x3 x4 x5 x6), (kernelRun.sl.r_24 c arg3 harg3 arg4 harg4 arg5 harg5 arg6 harg6 arg7 harg7 x2 x3 x4 x5 x6), (kernelRun.sl.r_25 c arg3 harg3 arg4 harg4 arg5 harg5 arg6 harg6 arg7 harg7 x2 x3 x4 x5 x6), (kernelRun.sl.r_26 c arg3 harg3 arg4 harg4 arg5 harg5 arg6 harg6 arg7 harg7 x2 x3 x4 x5 x6)⟩,
   ⟨(kernelRun.sl.r_38 c arg1 harg1 arg2 harg2 arg3 harg3 arg5 harg5 arg6 harg6 arg7 harg7 x0 x1 x2 x4 x5 x6), (kernelRun.sl.r_37 c arg3 harg3 arg5 harg5 arg6 harg6 arg7 harg7 x2 x4 x5 x6), (kernelRun.sl.r_36 c arg3 harg3 arg5 harg5 arg6 harg6 arg7 harg7 x2 x4 x5 x6), (kernelRun.sl.r_35 c arg3 harg3 arg5 harg5 arg6 harg6 arg7 harg7 x2 x4 x5 x6), (kernelRun.sl.r_39 c arg3 harg3 arg5 harg5 arg6 harg6 arg7 harg7 x2 x4 x5 x6)⟩⟩

/-- The state after substep 2 (its last chain momentum written as the kick of the swept one by the last force over a half step). -/
def kN2 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_56 c arg1 harg1 arg2 harg2 arg3 harg3 arg5 harg5 arg6 harg6 arg7 harg7 x0 x1 x2 x4 x5 x6),
   ⟨(kernelRun.sl.r_51 c arg1 harg1 arg2 harg2 arg3 harg3 arg4 harg4 arg5 harg5 arg6 harg6 arg7 harg7 x0 x1 x2 x3 x4 x5 x6), (kernelRun.sl.r_52 c arg1 harg1 arg2 harg2 arg3 harg3 arg4 harg4 arg5 harg5 arg6 harg6 arg7 harg7 x0 x1 x2 x3 x4 x5 x6), (kernelRun.sl.r_53 c arg3 harg3 arg4 harg4 arg5 harg5 arg6 harg6 arg7 harg7 x2 x3 x4 x5 x6), (kernelRun.sl.r_54 c arg3 harg3 arg4 harg4 arg5 harg5 arg6 harg6 arg7 harg7 x2 x3 x4 x5 x6), (kernelRun.sl.r_55 c arg3 harg3 arg4 harg4 arg5 harg5 arg6 harg6 arg7 harg7 x2 x3 x4 x5 x6)⟩,
   ⟨(kernelRun.sl.r_66 c arg1 harg1 arg2 harg2 arg3 harg3 arg5 harg5 arg6 harg6 arg7 harg7 x0 x1 x2 x4 x5 x6), (kernelRun.sl.r_65 c arg1 harg1 arg2 harg2 arg3 harg3 arg5 harg5 arg6 harg6 arg7 harg7 x0 x1 x2 x4 x5 x6), (kernelRun.sl.r_62 c arg3 harg3 arg5 harg5 arg6 harg6 arg7 harg7 x2 x4 x5 x6), (kernelRun.sl.r_61 c arg3 harg3 arg5 harg5 arg6 harg6 arg7 harg7 x2 x4 x5 x6), (kKick (kernelRun.sl.r_43 c arg3 harg3 arg5 harg5 arg6 harg6 arg7 harg7 x2 x4 x5 x6) (kernelRun.sl.r_60 c arg3 harg3 arg5 harg5 arg6 harg6 arg7 harg7 x2 x4 x5 x6) (kernelRun.sl.r_40 c arg7 harg7 x6))⟩⟩

/-- The state after substep 3. -/
def kN3 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_85 c arg1 harg1 arg2 harg2 arg3 harg3 arg5 harg5 arg6 harg6 arg7 harg7 x0 x1 x2 x4 x5 x6),
   ⟨(kernelRun.sl.r_80 c arg1 harg1 arg2 harg2 arg3 harg3 arg4 harg4 arg5 harg5 arg6 harg6 arg7 harg7 x0 x1 x2 x3 x4 x5 x6), (kernelRun.sl.r_81 c arg1 harg1 arg2 harg2 arg3 harg3 arg4 harg4 arg5 harg5 arg6 harg6 arg7 harg7 x0 x1 x2 x3 x4 x5 x6), (kernelRun.sl.r_82 c arg1 harg1 arg2 harg2 arg3 harg3 arg4 harg4 arg5 harg5 arg6 harg6 arg7 harg7 x0 x1 x2 x3 x4 x5 x6), (kernelRun.sl.r_83 c arg3 harg3 arg4 harg4 arg5 harg5 arg6 harg6 arg7 harg7 x2 x3 x4 x5 x6), (kernelRun.sl.r_84 c arg3 harg3 arg4 harg4 arg5 harg5 arg6 harg6 arg7 harg7 x2 x3 x4 x5 x6)⟩,
   ⟨(kernelRun.sl.r_96 c arg1 harg1 arg2 harg2 arg3 harg3 arg5 harg5 arg6 harg6 arg7 harg7 x0 x1 x2 x4 x5 x6), (kernelRun.sl.r_95 c arg1 harg1 arg2 harg2 arg3 harg3 arg5 harg5 arg6 harg6 arg7 harg7 x0 x1 x2 x4 x5 x6), (kernelRun.sl.r_94 c arg1 harg1 arg2 harg2 arg3 harg3 arg5 harg5 arg6 harg6 arg7 harg7 x0 x1 x2 x4 x5 x6), (kernelRun.sl.r_93 c arg3 harg3 arg5 harg5 arg6 harg6 arg7 harg7 x2 x4 x5 x6), (kernelRun.sl.r_97 c arg3 harg3 arg5 harg5 arg6 harg6 arg7 harg7 x2 x4 x5 x6)⟩⟩

/-- The state after substep 4 (its last chain momentum written as the kick of the swept one by the last force over a half step). -/
def kN4 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_111 c arg1 harg1 arg2 harg2 arg3 harg3 arg5 harg5 arg6 harg6 arg7 harg7 x0 x1 x2 x4 x5 x6),
   ⟨(kernelRun.sl.r_106 c arg1 harg1 arg2 harg2 arg3 harg3 arg4 harg4 arg5 harg5 arg6 harg6 arg7 harg7 x0 x1 x2 x3 x4 x5 x6), (kernelRun.sl.r_107 c arg1 harg1 arg2 harg2 arg3 harg3 arg4 harg4 arg5 harg5 arg6 harg6 arg7 harg7 x0 x1 x2 x3 x4 x5 x6), (kernelRun.sl.r_108 c arg1 harg1 arg2 harg2 arg3 harg3 arg4 harg4 arg5 harg5 arg6 harg6 arg7 harg7 x0 x1 x2 x3 x4 x5 x6), (kernelRun.sl.r_109 c arg1 harg1 arg2 harg2 arg3 harg3 arg4 harg4 arg5 harg5 arg6 harg6 arg7 harg7 x0 x1 x2 x3 x4 x5 x6), (kernelRun.sl.r_110 c arg3 harg3 arg4 harg4 arg5 harg5 arg6 harg6 arg7 harg7 x2 x3 x4 x5 x6)⟩,
   ⟨(kernelRun.sl.r_121 c arg1 harg1 arg2 harg2 arg3 harg3 arg5 harg5 arg6 harg6 arg7 harg7 x0 x1 x2 x4 x5 x6), (kernelRun.sl.r_120 c arg1 harg1 arg2 harg2 arg3 harg3 arg5 harg5 arg6 harg6 arg7 harg7 x0 x1 x2 x4 x5 x6), (kernelRun.sl.r_116 c arg1 harg1 arg2 harg2 arg3 harg3 arg5 harg5 arg6 harg6 arg7 harg7 x0 x1 x2 x4 x5 x6), (kernelRun.sl.r_115 c arg1 harg1 arg2 harg2 arg3 harg3 arg5 harg5 arg6 harg6 arg7 harg7 x0 x1 x2 x4 x5 x6), (kKick (kernelRun.sl.r_101 c arg3 harg3 arg5 harg5 arg6 harg6 arg7 harg7 x2 x4 x5 x6) (kernelRun.sl.r_114 c arg3 harg3 arg5 harg5 arg6 harg6 arg7 harg7 x2 x4 x5 x6) (kernelRun.sl.r_98 c arg7 harg7 x6))⟩⟩

/-- The state after substep 5. -/
def kN5 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_139 c arg1 harg1 arg2 harg2 arg3 harg3 arg5 harg5 arg6 harg6 arg7 harg7 x0 x1 x2 x4 x5 x6),
   ⟨(kernelRun.sl.r_134 c arg1 harg1 arg2 harg2 arg3 harg3 arg4 harg4 arg5 harg5 arg6 harg6 arg7 harg7 x0 x1 x2 x3 x4 x5 x6), (kernelRun.sl.r_135 c arg1 harg1 arg2 harg2 arg3 harg3 arg4 harg4 arg5 harg5 arg6 harg6 arg7 harg7 x0 x1 x2 x3 x4 x5 x6), (kernelRun.sl.r_136 c arg1 harg1 arg2 harg2 arg3 harg3 arg4 harg4 arg5 harg5 arg6 harg6 arg7 harg7 x0 x1 x2 x3 x4 x5 x6), (kernelRun.sl.r_137 c arg1 harg1 arg2 harg2 arg3 harg3 arg4 harg4 arg5 harg5 arg6 harg6 arg7 harg7 x0 x1 x2 x3 x4 x5 x6), (kernelRun.sl.r_138 c arg1 harg1 arg2 harg2 arg3 harg3 arg4 harg4 arg5 harg5 arg6 harg6 arg7 harg7 x0 x1 x2 x3 x4 x5 x6)⟩,
   ⟨(kernelRun.sl.r_147 c arg1 harg1 arg2 harg2 arg3 harg3 arg5 harg5 arg6 harg6 arg7 harg7 x0 x1 x2 x4 x5 x6), (kernelRun.sl.r_146 c arg1 harg1 arg2 harg2 arg3 harg3 arg5 harg5 arg6 harg6 arg7 harg7 x0 x1 x2 x4 x5 x6), (kernelRun.sl.r_145 c arg1 harg1 arg2 harg2 arg3 harg3 arg5 harg5 arg6 harg6 arg7 harg7 x0 x1 x2 x4 x5 x6), (kernelRun.sl.r_144 c arg1 harg1 arg2 harg2 arg3 harg3 arg5 harg5 arg6 harg6 arg7 harg7 x0 x1 x2 x4 x5 x6), (kernelRun.sl.r_148 c arg1 harg1 arg2 harg2 arg3 harg3 arg5 harg5 arg6 harg6 arg7 harg7 x0 x1 x2 x4 x5 x6)⟩⟩

/-- The state after substep 6 (its last chain momentum written as the kick of the swept one by the last force over a half step). -/
def kN6 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_164 c arg1 harg1 arg2 harg2 arg3 harg3 arg5 harg5 arg6 harg6 arg7 harg7 x0 x1 x2 x4 x5 x6),
   ⟨(kernelRun.sl.r_159 c arg1 harg1 arg2 harg2 arg3 harg3 arg4 harg4 arg5 harg5 arg6 harg6 arg7 harg7 x0 x1 x2 x3 x4 x5 x6), (kernelRun.sl.r_160 c arg1 harg1 arg2 harg2 arg3 harg3 arg4 harg4 arg5 harg5 arg6 harg6 arg7 harg7 x0 x1 x2 x3 x4 x5 x6), (kernelRun.sl.r_161 c arg1 harg1 arg2 harg2 arg3 harg3 arg4 harg4 arg5 harg5 arg6 harg6 arg7 harg7 x0 x1 x2 x3 x4 x5 x6), (kernelRun.sl.r_162 c arg1 harg1 arg2 harg2 arg3 harg3 arg4 harg4 arg5 harg5 arg6 harg6 arg7 harg7 x0 x1 x2 x3 x4 x5 x6), (kernelRun.sl.r_163 c arg1 harg1 arg2 harg2 arg3 harg3 arg4 harg4 arg5 harg5 arg6 harg6 arg7 harg7 x0 x1 x2 x3 x4 x5 x6)⟩,
   ⟨(kernelRun.sl.r_171 c arg1 harg1 arg2 harg2 arg3 harg3 arg5 harg5 arg6 harg6 arg7 harg7 x0 x1 x2 x4 x5 x6), (kernelRun.sl.r_170 c arg1 harg1 arg2 harg2 arg3 harg3 arg5 harg5 arg6 harg6 arg7 harg7 x0 x1 x2 x4 x5 x6), (kernelRun.sl.r_169 c arg1 harg1 arg2 harg2 arg3 harg3 arg5 harg5 arg6 harg6 arg7 harg7 x0 x1 x2 x4 x5 x6), (kernelRun.sl.r_168 c arg1 harg1 arg2 harg2 arg3 harg3 arg5 harg5 arg6 harg6 arg7 harg7 x0 x1 x2 x4 x5 x6), (kKick (kernelRun.sl.r_153 c arg1 harg1 arg2 harg2 arg3 harg3 arg5 harg5 arg6 harg6 arg7 harg7 x0 x1 x2 x4 x5 x6) (kernelRun.sl.r_167 c arg1 harg1 arg2 harg2 arg3 harg3 arg5 harg5 arg6 harg6 arg7 harg7 x0 x1 x2 x4 x5 x6) (kernelRun.sl.r_149 c arg7 harg7 x6))⟩⟩

/-- The state after substep 7. -/
def kN7 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_189 c arg1 harg1 arg2 harg2 arg3 harg3 arg5 harg5 arg6 harg6 arg7 harg7 x0 x1 x2 x4 x5 x6),
   ⟨(kernelRun.sl.r_184 c arg1 harg1 arg2 harg2 arg3 harg3 arg4 harg4 arg5 harg5 arg6 harg6 arg7 harg7 x0 x1 x2 x3 x4 x5 x6), (kernelRun.sl.r_185 c arg1 harg1 arg2 harg2 arg3 harg3 arg4 harg4 arg5 harg5 arg6 harg6 arg7 harg7 x0 x1 x2 x3 x4 x5 x6), (kernelRun.sl.r_186 c arg1 harg1 arg2 harg2 arg3 harg3 arg4 harg4 arg5 harg5 arg6 harg6 arg7 harg7 x0 x1 x2 x3 x4 x5 x6), (kernelRun.sl.r_187 c arg1 harg1 arg2 harg2 arg3 harg3 arg4 harg4 arg5 harg5 arg6 harg6 arg7 harg7 x0 x1 x2 x3 x4 x5 x6), (kernelRun.sl.r_188 c arg1 harg1 arg2 harg2 arg3 harg3 arg4 harg4 arg5 harg5 arg6 harg6 arg7 harg7 x0 x1 x2 x3 x4 x5 x6)⟩,
   ⟨(kernelRun.sl.r_198 c arg1 harg1 arg2 harg2 arg3 harg3 arg5 harg5 arg6 harg6 arg7 harg7 x0 x1 x2 x4 x5 x6), (kernelRun.sl.r_197 c arg1 harg1 arg2 harg2 arg3 harg3 arg5 harg5 arg6 harg6 arg7 harg7 x0 x1 x2 x4 x5 x6), (kernelRun.sl.r_196 c arg1 harg1 arg2 harg2 arg3 harg3 arg5 harg5 arg6 harg6 arg7 harg7 x0 x1 x2 x4 x5 x6), (kernelRun.sl.r_194 c arg1 harg1 arg2 harg2 arg3 harg3 arg5 harg5 arg6 harg6 arg7 harg7 x0 x1 x2 x4 x5 x6), (kernelRun.sl.r_199 c arg1 harg1 arg2 harg2 arg3 harg3 arg5 harg5 arg6 harg6 arg7 harg7 x0 x1 x2 x4 x5 x6)⟩⟩

/-- The state after substep 8 (its last chain momentum written as the kick of the swept one by the last force over a half step). -/
def kN8 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_217 c arg1 harg1 arg2 harg2 arg3 harg3 arg5 harg5 arg6 harg6 arg7 harg7 x0 x1 x2 x4 x5 x6),
   ⟨(kernelRun.sl.r_212 c arg1 harg1 arg2 harg2 arg3 harg3 arg4 harg4 arg5 harg5 arg6 harg6 arg7 harg7 x0 x1 x2 x3 x4 x5 x6), (kernelRun.sl.r_213 c arg1 harg1 arg2 harg2 arg3 harg3 arg4 harg4 arg5 harg5 arg6 harg6 arg7 harg7 x0 x1 x2 x3 x4 x5 x6), (kernelRun.sl.r_214 c arg1 harg1 arg2 harg2 arg3 harg3 arg4 harg4 arg5 harg5 arg6 harg6 arg7 harg7 x0 x1 x2 x3 x4 x5 x6), (kernelRun.sl.r_215 c arg1 harg1 arg2 harg2 arg3 harg3 arg4 harg4 arg5 harg5 arg6 harg6 arg7 harg7 x0 x1 x2 x3 x4 x5 x6), (kernelRun.sl.r_216 c arg1 harg1 arg2 harg2 arg3 harg3 arg4 harg4 arg5 harg5 arg6 harg6 arg7 harg7 x0 x1 x2 x3 x4 x5 x6)⟩,
   ⟨(kernelRun.sl.r_226 c arg1 harg1 arg2 harg2 arg3 harg3 arg5 harg5 arg6 harg6 arg7 harg7 x0 x1 x2 x4 x5 x6), (kernelRun.sl.r_224 c arg1 harg1 arg2 harg2 arg3 harg3 arg5 harg5 arg6 harg6 arg7 harg7 x0 x1 x2 x4 x5 x6), (kernelRun.sl.r_223 c arg1 harg1 arg2 harg2 arg3 harg3 arg5 harg5 arg6 harg6 arg7 harg7 x0 x1 x2 x4 x5 x6), (kernelRun.sl.r_222 c arg1 harg1 arg2 harg2 arg3 harg3 arg5 harg5 arg6 harg6 arg7 harg7 x0 x1 x2 x4 x5 x6), (kKick (kernelRun.sl.r_205 c arg1 harg1 arg2 harg2 arg3 harg3 arg5 harg5 arg6 harg6 arg7 harg7 x0 x1 x2 x4 x5 x6) (kernelRun.sl.r_221 c arg1 harg1 arg2 harg2 arg3 harg3 arg5 harg5 arg6 harg6 arg7 harg7 x0 x1 x2 x4 x5 x6) (kernelRun.sl.r_200 c arg7 harg7 x6))⟩⟩

/-- The state after substep 9. -/
def kN9 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_245 c arg1 harg1 arg2 harg2 arg3 harg3 arg5 harg5 arg6 harg6 arg7 harg7 x0 x1 x2 x4 x5 x6),
   ⟨(kernelRun.sl.r_239 c arg1 harg1 arg2 harg2 arg3 harg3 arg4 harg4 arg5 harg5 arg6 harg6 arg7 harg7 x0 x1 x2 x3 x4 x5 x6), (kernelRun.sl.r_240 c arg1 harg1 arg2 harg2 arg3 harg3 arg4 harg4 arg5 harg5 arg6 harg6 arg7 harg7 x0 x1 x2 x3 x4 x5 x6), (kernelRun.sl.r_241 c arg1 harg1 arg2 harg2 arg3 harg3 arg4 harg4 arg5 harg5 arg6 harg6 arg7 harg7 x0 x1 x2 x3 x4 x5 x6), (kernelRun.sl.r_243 c arg1 harg1 arg2 harg2 arg3 harg3 arg4 harg4 arg5 harg5 arg6 harg6 arg7 harg7 x0 x1 x2 x3 x4 x5 x6), (kernelRun.sl.r_244 c arg1 harg1 arg2 harg2 arg3 harg3 arg4 harg4 arg5 harg5 arg6 harg6 arg7 harg7 x0 x1 x2 x3 x4 x5 x6)⟩,
   ⟨(kernelRun.sl.r_255 c arg1 harg1 arg2 harg2 arg3 harg3 arg5 harg5 arg6 harg6 arg7 harg7 x0 x1 x2 x4 x5 x6), (kernelRun.sl.r_254 c arg1 harg1 arg2 harg2 arg3 harg3 arg5 harg5 arg6 harg6 arg7 harg7 x0 x1 x2 x4 x5 x6), (kernelRun.sl.r_253 c arg1 harg1 arg2 harg2 arg3 harg3 arg5 harg5 arg6 harg6 arg7 harg7 x0 x1 x2 x4 x5 x6), (kernelRun.sl.r_250 c arg1 harg1 arg2 harg2 arg3 harg3 arg5 harg5 arg6 harg6 arg7 harg7 x0 x1 x2 x4 x5 x6), (kernelRun.sl.r_256 c arg1 harg1 arg2 harg2 arg3 harg3 arg5 harg5 arg6 harg6 arg7 harg7 x0 x1 x2 x4 x5 x6)⟩⟩

/-- The state after substep 10 (its last chain momentum written as the kick of the swept one by the last force over a half step). -/
def kN10 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_273 c arg1 harg1 arg2 harg2 arg3 harg3 arg5 harg5 arg6 harg6 arg7 harg7 x0 x1 x2 x4 x5 x6),
   ⟨(kernelRun.sl.r_268 c arg1 harg1 arg2 harg2 arg3 harg3 arg4 harg4 arg5 harg5 arg6 harg6 arg7 harg7 x0 x1 x2 x3 x4 x5 x6), (kernelRun.sl.r_269 c arg1 harg1 arg2 harg2 arg3 harg3 arg4 harg4 arg5 harg5 arg6 harg6 arg7 harg7 x0 x1 x2 x3 x4 x5 x6), (kernelRun.sl.r_270 c arg1 harg1 arg2 harg2 arg3 harg3 arg4 harg4 arg5 harg5 arg6 harg6 arg7 harg7 x0 x1 x2 x3 x4 x5 x6), (kernelRun.sl.r_271 c arg1 harg1 arg2 harg2 arg3 harg3 arg4 harg4 arg5 harg5 arg6 harg6 arg7 harg7 x0 x1 x2 x3 x4 x5 x6), (kernelRun.sl.r_272 c arg1 harg1 arg2 harg2 arg3 harg3 arg4 harg4 arg5 harg5 arg6 harg6 arg7 harg7 x0 x1 x2 x3 x4 x5 x6)⟩,
   ⟨(kernelRun.sl.r_285 c arg1 harg1 arg2 harg2 arg3 harg3 arg5 harg5 arg6 harg6 arg7 harg7 x0 x1 x2 x4 x5 x6), (kernelRun.sl.r_282 c arg1 harg1 arg2 harg2 arg3 harg3 arg5 harg5 arg6 harg6 arg7 harg7 x0 x1 x2 x4 x5 x6), (kernelRun.sl.r_281 c arg1 harg1 arg2 harg2 arg3 harg3 arg5 harg5 arg6 harg6 arg7 harg7 x0 x1 x2 x4 x5 x6), (kernelRun.sl.r_280 c arg1 harg1 arg2 harg2 arg3 harg3 arg5 harg5 arg6 harg6 arg7 harg7 x0 x1 x2 x4 x5 x6), (kKick (kernelRun.sl.r_260 c arg1 harg1 arg2 harg2 arg3 harg3 arg5 harg5 arg6 harg6 arg7 harg7 x0 x1 x2 x4 x5 x6) (kernelRun.sl.r_279 c arg1 harg1 arg2 harg2 arg3 harg3 arg5 harg5 arg6 harg6 arg7 harg7 x0 x1 x2 x4 x5 x6) (kernelRun.sl.r_257 c arg7 harg7 x6))⟩⟩

/-- The state after substep 11. -/
def kN11 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_301 c arg1 harg1 arg2 harg2 arg3 harg3 arg5 harg5 arg6 harg6 arg7 harg7 x0 x1 x2 x4 x5 x6),
   ⟨(kernelRun.sl.r_295 c arg1 harg1 arg2 harg2 arg3 harg3 arg4 harg4 arg5 harg5 arg6 harg6 arg7 harg7 x0 x1 x2 x3 x4 x5 x6), (kernelRun.sl.r_296 c arg1 harg1 arg2 harg2 arg3 harg3 arg4 harg4 arg5 harg5 arg6 harg6 arg7 harg7 x0 x1 x2 x3 x4 x5 x6), (kernelRun.sl.r_297 c arg1 harg1 arg2 harg2 arg3 harg3 arg4 harg4 arg5 harg5 arg6 harg6 arg7 harg7 x0 x1 x2 x3 x4 x5 x6), (kernelRun.sl.r_298 c arg1 harg1 arg2 harg2 arg3 harg3 arg4 harg4 arg5 harg5 arg6 harg6 arg7 harg7 x0 x1 x2 x3 x4 x5 x6), (kernelRun.sl.r_300 c arg1 harg1 arg2 harg2 arg3 harg3 arg4 harg4 arg5 harg5 arg6 harg6 arg7 harg7 x0 x1 x2 x3 x4 x5 x6)⟩,
   ⟨(kernelRun.sl.r_311 c arg1 harg1 arg2 harg2 arg3 harg3 arg5 harg5 arg6 harg6 arg7 harg7 x0 x1 x2 x4 x5 x6), (kernelRun.sl.r_310 c arg1 harg1 arg2 harg2 arg3 harg3 arg5 harg5 arg6 harg6 arg7 harg7 x0 x1 x2 x4 x5 x6), (kernelRun.sl.r_309 c arg1 harg1 arg2 harg2 arg3 harg3 arg5 harg5 arg6 harg6 arg7 harg7 x0 x1 x2 x4 x5 x6), (kernelRun.sl.r_305 c arg1 harg1 arg2 harg2 arg3 harg3 arg5 harg5 arg6 harg6 arg7 harg7 x0 x1 x2 x4 x5 x6), (kernelRun.sl.r_312 c arg1 harg1 arg2 harg2 arg3 harg3 arg5 harg5 arg6 harg6 arg7 harg7 x0 x1 x2 x4 x5 x6)⟩⟩

/-- The state after substep 12 (its last chain momentum written as the kick of the swept one by the last force over a half step). -/
def kN12 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_328 c arg1 harg1 arg2 harg2 arg3 harg3 arg5 harg5 arg6 harg6 arg7 harg7 x0 x1 x2 x4 x5 x6),
   ⟨(kernelRun.sl.r_323 c arg1 harg1 arg2 harg2 arg3 harg3 arg4 harg4 arg5 harg5 arg6 harg6 arg7 harg7 x0 x1 x2 x3 x4 x5 x6), (kernelRun.sl.r_324 c arg1 harg1 arg2 harg2 arg3 harg3 arg4 harg4 arg5 harg5 arg6 harg6 arg7 harg7 x0 x1 x2 x3 x4 x5 x6), (kernelRun.sl.r_325 c arg1 harg1 arg2 harg2 arg3 harg3 arg4 harg4 arg5 harg5 arg6 harg6 arg7 harg7 x0 x1 x2 x3 x4 x5 x6), (kernelRun.sl.r_326 c arg1 harg1 arg2 harg2 arg3 harg3 arg4 harg4 arg5 harg5 arg6 harg6 arg7 harg7 x0 x1 x2 x3 x4 x5 x6), (kernelRun.sl.r_327 c arg1 harg1 arg2 harg2 arg3 harg3 arg4 harg4 arg5 harg5 arg6 harg6 arg7 harg7 x0 x1 x2 x3 x4 x5 x6)⟩,
   ⟨(kernelRun.sl.r_340 c arg1 harg1 arg2 harg2 arg3 harg3 arg5 harg5 arg6 harg6 arg7 harg7 x0 x1 x2 x4 x5 x6), (kernelRun.sl.r_336 c arg1 harg1 arg2 harg2 arg3 harg3 arg5 harg5 arg6 harg6 arg7 harg7 x0 x1 x2 x4 x5 x6), (kernelRun.sl.r_335 c arg1 harg1 arg2 harg2 arg3 harg3 arg5 harg5 arg6 harg6 arg7 harg7 x0 x1 x2 x4 x5 x6), (kernelRun.sl.r_334 c arg1 harg1 arg2 harg2 arg3 harg3 arg5 harg5 arg6 harg6 arg7 harg7 x0 x1 x2 x4 x5 x6), (kKick (kernelRun.sl.r_318 c arg1 harg1 arg2 harg2 arg3 harg3 arg5 harg5 arg6 harg6 arg7 harg7 x0 x1 x2 x4 x5 x6) (kernelRun.sl.r_333 c arg1 harg1 arg2 harg2 arg3 harg3 arg5 harg5 arg6 harg6 arg7 harg7 x0 x1 x2 x4 x5 x6) (kernelRun.sl.r_313 c arg7 harg7 x6))⟩⟩

/-- The state after substep 13. -/
def kN13 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_357 c arg1 harg1 arg2 harg2 arg3 harg3 arg5 harg5 arg6 harg6 arg7 harg7 x0 x1 x2 x4 x5 x6),
   ⟨(kernelRun.sl.r_351 c arg1 harg1 arg2 harg2 arg3 harg3 arg4 harg4 arg5 harg5 arg6 harg6 arg7 harg7 x0 x1 x2 x3 x4 x5 x6), (kernelRun.sl.r_352 c arg1 harg1 arg2 harg2 arg3 harg3 arg4 harg4 arg5 harg5 arg6 harg6 arg7 harg7 x0 x1 x2 x3 x4 x5 x6), (kernelRun.sl.r_353 c arg1 harg1 arg2 harg2 arg3 harg3 arg4 harg4 arg5 harg5 arg6 harg6 arg7 harg7 x0 x1 x2 x3 x4 x5 x6), (kernelRun.sl.r_354 c arg1 harg1 arg2 harg2 arg3 harg3 arg4 harg4 arg5 harg5 arg6 harg6 arg7 harg7 x0 x1 x2 x3 x4 x5 x6), (kernelRun.sl.r_355 c arg1 harg1 arg2 harg2 arg3 harg3 arg4 harg4 arg5 harg5 arg6 harg6 arg7 harg7 x0 x1 x2 x3 x4 x5 x6)⟩,
   ⟨(kernelRun.sl.r_364 c arg1 harg1 arg2 harg2 arg3 harg3 arg5 harg5 arg6 harg6 arg7 harg7 x0 x1 x2 x4 x5 x6), (kernelRun.sl.r_363 c arg1 harg1 arg2 harg2 arg3 harg3 arg5 harg5 arg6 harg6 arg7 harg7 x0 x1 x2 x4 x5 x6), (kernelRun.sl.r_362 c arg1 harg1 arg2 harg2 arg3 harg3 arg5 harg5 arg6 harg6 arg7 harg7 x0 x1 x2 x4 x5 x6), (kernelRun.sl.r_361 c arg1 harg1 arg2 harg2 arg3 harg3 arg5 harg5 arg6 harg6 arg7 harg7 x0 x1 x2 x4 x5 x6), (kernelRun.sl.r_365 c arg1 harg1 arg2 harg2 arg3 harg3 arg5 harg5 arg6 harg6 arg7 harg7 x0 x1 x2 x4 x5 x6)⟩⟩

/-- The state after substep 14. -/
def kN14 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) : KSt F :=
  ⟨(kernelRun.sl.r_383 c arg1 harg1 arg2 harg2 arg3 harg3 arg5 harg5 arg6 harg6 arg7 harg7 x0 x1 x2 x4 x5 x6),
   ⟨(kernelRun.sl.r_378 c arg1 harg1 arg2 harg2 arg3 harg3 arg4 harg4 arg5 harg5 arg6 harg6 arg7 harg7 x0 x1 x2 x3 x4 x5 x6), (kernelRun.sl.r_379 c arg1 harg1 arg2 harg2 arg3 harg3 arg4 harg4 arg5 harg5 arg6 harg6 arg7 harg7 x0 x1 x2 x3 x4 x5 x6), (kernelRun.sl.r_380 c arg1 harg1 arg2 harg2 arg3 harg3 arg4 harg4 arg5 harg5 arg6 harg6 arg7 harg7 x0 x1 x2 x3 x4 x5 x6), (kernelRun.sl.r_381 c arg1 harg1 arg2 harg2 arg3 harg3 arg4 harg4 arg5 harg5 arg6 harg6 arg7 harg7 x0 x1 x2 x3 x4 x5 x6), (kernelRun.sl.r_382 c arg1 harg1 arg2 harg2 arg3 harg3 arg4 harg4 arg5 harg5 arg6 harg6 arg7 harg7 x0 x1 x2 x3 x4 x5 x6)⟩,
   ⟨(kernelRun.sl.r_393 c arg1 harg1 arg2 harg2 arg3 harg3 arg5 harg5 arg6 harg6 arg7 harg7 x0 x1 x2 x4 x5 x6), (kernelRun.sl.r_392 c arg1 harg1 arg2 harg2 arg3 harg3 arg5 harg5 arg6 harg6 arg7 harg7 x0 x1 x2 x4 x5 x6), (kernelRun.sl.r_391 c arg1 harg1 arg2 harg2 arg3 harg3 arg5 harg5 arg6 harg6 arg7 harg7 x0 x1 x2 x4 x5 x6), (kernelRun.sl.r_390 c arg1 harg1 arg2 harg2 arg3 harg3 arg5 harg5 arg6 harg6 arg7 harg7 x0 x1 x2 x4 x5 x6), (kernelRun.sl.r_394 c arg1 harg1 arg2 harg2 arg3 harg3 arg5 harg5 arg6 harg6 arg7 harg7 x0 x1 x2 x4 x5 x6)⟩⟩

/-! ## One substep from one state to the next -/

/-- The state after substep 1 is the kernel's substep applied to the state loaded, with substep size number 1. -/
theorem step1 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN1 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 0) (kN0 c arg1 harg1 arg2 harg2 arg3 harg3 arg4 harg4 arg5 harg5 arg6 harg6 arg7 harg7 x0 x1 x2 x3 x4 x5 x6) := by
  sl_kernel_rfl

/-- The state after substep 2 is the kernel's substep applied to the state after substep 1, with substep size number 2. -/
theorem step2 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN2 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 1) (kN1 c arg1 harg1 arg2 harg2 arg3 harg3 arg4 harg4 arg5 harg5 arg6 harg6 arg7 harg7 x0 x1 x2 x3 x4 x5 x6) := by
  sl_kernel_rfl

/-- The state after substep 3 is the kernel's substep applied to the state after substep 2, with substep size number 3. -/
theorem step3 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN3 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 2) (kN2 c arg1 harg1 arg2 harg2 arg3 harg3 arg4 harg4 arg5 harg5 arg6 harg6 arg7 harg7 x0 x1 x2 x3 x4 x5 x6) := by
  sl_kernel_rfl

/-- The state after substep 4 is the kernel's substep applied to the state after substep 3, with substep size number 4. -/
theorem step4 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN4 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 3) (kN3 c arg1 harg1 arg2 harg2 arg3 harg3 arg4 harg4 arg5 harg5 arg6 harg6 arg7 harg7 x0 x1 x2 x3 x4 x5 x6) := by
  sl_kernel_rfl

/-- The state after substep 5 is the kernel's substep applied to the state after substep 4, with substep size number 5. -/
theorem step5 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN5 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 4) (kN4 c arg1 harg1 arg2 harg2 arg3 harg3 arg4 harg4 arg5 harg5 arg6 harg6 arg7 harg7 x0 x1 x2 x3 x4 x5 x6) := by
  sl_kernel_rfl

/-- The state after substep 6 is the kernel's substep applied to the state after substep 5, with substep size number 6. -/
theorem step6 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN6 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 5) (kN5 c arg1 harg1 arg2 harg2 arg3 harg3 arg4 harg4 arg5 harg5 arg6 harg6 arg7 harg7 x0 x1 x2 x3 x4 x5 x6) := by
  sl_kernel_rfl

/-- The state after substep 7 is the kernel's substep applied to the state after substep 6, with substep size number 7. -/
theorem step7 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN7 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 6) (kN6 c arg1 harg1 arg2 harg2 arg3 harg3 arg4 harg4 arg5 harg5 arg6 harg6 arg7 harg7 x0 x1 x2 x3 x4 x5 x6) := by
  sl_kernel_rfl

/-- The state after substep 8 is the kernel's substep applied to the state after substep 7, with substep size number 8. -/
theorem step8 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN8 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 7) (kN7 c arg1 harg1 arg2 harg2 arg3 harg3 arg4 harg4 arg5 harg5 arg6 harg6 arg7 harg7 x0 x1 x2 x3 x4 x5 x6) := by
  sl_kernel_rfl

/-- The state after substep 9 is the kernel's substep applied to the state after substep 8, with substep size number 9. -/
theorem step9 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN9 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 8) (kN8 c arg1 harg1 arg2 harg2 arg3 harg3 arg4 harg4 arg5 harg5 arg6 harg6 arg7 harg7 x0 x1 x2 x3 x4 x5 x6) := by
  sl_kernel_rfl

/-- The state after substep 10 is the kernel's substep applied to the state after substep 9, with substep size number 10. -/
theorem step10 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN10 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 9) (kN9 c arg1 harg1 arg2 harg2 arg3 harg3 arg4 harg4 arg5 harg5 arg6 harg6 arg7 harg7 x0 x1 x2 x3 x4 x5 x6) := by
  sl_kernel_rfl

/-- The state after substep 11 is the kernel's substep applied to the state after substep 10, with substep size number 11. -/
theorem step11 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN11 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 10) (kN10 c arg1 harg1 arg2 harg2 arg3 harg3 arg4 harg4 arg5 harg5 arg6 harg6 arg7 harg7 x0 x1 x2 x3 x4 x5 x6) := by
  sl_kernel_rfl

/-- The state after substep 12 is the kernel's substep applied to the state after substep 11, with substep size number 12. -/
theorem step12 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN12 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 11) (kN11 c arg1 harg1 arg2 harg2 arg3 harg3 arg4 harg4 arg5 harg5 arg6 harg6 arg7 harg7 x0 x1 x2 x3 x4 x5 x6) := by
  sl_kernel_rfl

/-- The state after substep 13 is the kernel's substep applied to the state after substep 12, with substep size number 13. -/
theorem step13 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN13 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 12) (kN12 c arg1 harg1 arg2 harg2 arg3 harg3 arg4 harg4 arg5 harg5 arg6 harg6 arg7 harg7 x0 x1 x2 x3 x4 x5 x6) := by
  sl_kernel_rfl

/-- The state after substep 14 is the kernel's substep applied to the state after substep 13, with substep size number 14. -/
theorem step14 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN14 c arg1 harg1 arg2 harg2 arg3 harg3 arg4 harg4 arg5 harg5 arg6 harg6 arg7 harg7 x0 x1 x2 x3 x4 x5 x6 = kStep (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6 13) (kN13 c arg1 harg1 arg2 harg2 arg3 harg3 arg4 harg4 arg5 harg5 arg6 harg6 arg7 harg7 x0 x1 x2 x3 x4 x5 x6) := by
  sl_kernel_rfl

/-! ## The fourteen substeps -/

/-- The substeps of the sizes 0, …, 13 in order are the fourteen substeps one after the other. -/
theorem kRunList14 (P : KPar F) (dea : Fin 14 → FVec F S2x1x1 .f32) (S : KSt F) :
    kRunList P dea (List.finRange 14) S = (kStep P (dea 13) (kStep P (dea 12) (kStep P (dea 11) (kStep P (dea 10) (kStep P (dea 9) (kStep P (dea 8) (kStep P (dea 7) (kStep P (dea 6) (kStep P (dea 5) (kStep P (dea 4) (kStep P (dea 3) (kStep P (dea 2) (kStep P (dea 1) (kStep P (dea 0) S)))))))))))))) := by
  sl_kernel_rfl

/-- The state after substep 14 is the fourteen substeps of the state loaded. -/
theorem kN14_eq (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kN14 c arg1 harg1 arg2 harg2 arg3 harg3 arg4 harg4 arg5 harg5 arg6 harg6 arg7 harg7 x0 x1 x2 x3 x4 x5 x6 = kRunList (kP c arg1 harg1 arg2 harg2 arg3 harg3 arg4 harg4 arg5 harg5 arg6 harg6 arg7 harg7 x0 x1 x2 x3 x4 x5 x6) (kDea c arg1 harg1 arg2 harg2 arg3 harg3 arg4 harg4 arg5 harg5 arg6 harg6 arg7 harg7 x0 x1 x2 x3 x4 x5 x6) (List.finRange 14) (kN0 c arg1 harg1 arg2 harg2 arg3 harg3 arg4 harg4 arg5 harg5 arg6 harg6 arg7 harg7 x0 x1 x2 x3 x4 x5 x6) := by
  rw [kRunList14, step14, step13, step12, step11, step10, step9, step8, step7, step6, step5, step4, step3, step2, step1]

/-! ## What the loads read, at an entry

A load through a unit rectangle of a whole memref held at the contents that read `x` reads `x` at the rectangle's
placement of the index; the shape cast to the same shape is the identity. -/

theorem rd_p (c : Dev nD) (arg1 : Memref sig .tc .vmem S2x1x393216 .f32) (harg1 : arg1.IsWhole) (x0 : Vec Ideal S2x1x393216 .f32) (b : Fin 2) (j : Fin 393216) :
    kernelRun.sl.v1 c arg1 harg1 x0 (ix3 b 0 j) = x0 (ix3 b 0 j) := by
  simp only [kernelRun.sl.v1, shapeCast_self, Memref.IsWhole.readAt_unread]
  congr 1; funext a; refine Fin.ext ?_
  fin_cases a <;> simp [LoadRect.idx, Rect.toLoadRect, Rect.unit]

theorem rd_mu (c : Dev nD) (arg2 : Memref sig .tc .vmem S2x1x393216 .f32) (harg2 : arg2.IsWhole) (x1 : Vec Ideal S2x1x393216 .f32) (b : Fin 2) (j : Fin 393216) :
    kernelRun.sl.v3 c arg2 harg2 x1 (ix3 b 0 j) = x1 (ix3 b 0 j) := by
  simp only [kernelRun.sl.v3, shapeCast_self, Memref.IsWhole.readAt_unread]
  congr 1; funext a; refine Fin.ext ?_
  fin_cases a <;> simp [LoadRect.idx, Rect.toLoadRect, Rect.unit]

theorem rd_kbt (c : Dev nD) (arg6 : Memref sig .tc .vmem S2x1x1 .f32) (harg6 : arg6.IsWhole) (x5 : Vec Ideal S2x1x1 .f32) (b : Fin 2) :
    kernelRun.sl.v5 c arg6 harg6 x5 (ix3 b 0 0) = x5 (ix3 b 0 0) := by
  simp only [kernelRun.sl.v5, shapeCast_self, Memref.IsWhole.readAt_unread]
  congr 1; funext a; refine Fin.ext ?_
  fin_cases a <;> simp [LoadRect.idx, Rect.toLoadRect, Rect.unit]

theorem rd_M0 (c : Dev nD) (arg5 : Memref sig .tc .vmem S2x1x5 .f32) (harg5 : arg5.IsWhole) (x4 : Vec Ideal S2x1x5 .f32) (b : Fin 2) :
    kernelRun.sl.v7 c arg5 harg5 x4 (ix3 b 0 0) = x4 (ix3 b 0 0) := by
  simp only [kernelRun.sl.v7, shapeCast_self, Memref.IsWhole.readAt_unread]
  congr 1; funext a; refine Fin.ext ?_
  fin_cases a <;> simp [LoadRect.idx, Rect.toLoadRect, Rect.unit]

theorem rd_M1 (c : Dev nD) (arg5 : Memref sig .tc .vmem S2x1x5 .f32) (harg5 : arg5.IsWhole) (x4 : Vec Ideal S2x1x5 .f32) (b : Fin 2) :
    kernelRun.sl.v9 c arg5 harg5 x4 (ix3 b 0 0) = x4 (ix3 b 0 1) := by
  simp only [kernelRun.sl.v9, shapeCast_self, Memref.IsWhole.readAt_unread]
  congr 1; funext a; refine Fin.ext ?_
  fin_cases a <;> simp [LoadRect.idx, Rect.toLoadRect, Rect.unit]

theorem rd_M2 (c : Dev nD) (arg5 : Memref sig .tc .vmem S2x1x5 .f32) (harg5 : arg5.IsWhole) (x4 : Vec Ideal S2x1x5 .f32) (b : Fin 2) :
    kernelRun.sl.v11 c arg5 harg5 x4 (ix3 b 0 0) = x4 (ix3 b 0 2) := by
  simp only [kernelRun.sl.v11, shapeCast_self, Memref.IsWhole.readAt_unread]
  congr 1; funext a; refine Fin.ext ?_
  fin_cases a <;> simp [LoadRect.idx, Rect.toLoadRect, Rect.unit]

theorem rd_M3 (c : Dev nD) (arg5 : Memref sig .tc .vmem S2x1x5 .f32) (harg5 : arg5.IsWhole) (x4 : Vec Ideal S2x1x5 .f32) (b : Fin 2) :
    kernelRun.sl.v13 c arg5 harg5 x4 (ix3 b 0 0) = x4 (ix3 b 0 3) := by
  simp only [kernelRun.sl.v13, shapeCast_self, Memref.IsWhole.readAt_unread]
  congr 1; funext a; refine Fin.ext ?_
  fin_cases a <;> simp [LoadRect.idx, Rect.toLoadRect, Rect.unit]

theorem rd_M4 (c : Dev nD) (arg5 : Memref sig .tc .vmem S2x1x5 .f32) (harg5 : arg5.IsWhole) (x4 : Vec Ideal S2x1x5 .f32) (b : Fin 2) :
    kernelRun.sl.v15 c arg5 harg5 x4 (ix3 b 0 0) = x4 (ix3 b 0 4) := by
  simp only [kernelRun.sl.v15, shapeCast_self, Memref.IsWhole.readAt_unread]
  congr 1; funext a; refine Fin.ext ?_
  fin_cases a <;> simp [LoadRect.idx, Rect.toLoadRect, Rect.unit]

theorem rd_r0 (c : Dev nD) (arg3 : Memref sig .tc .vmem S2x1x5 .f32) (harg3 : arg3.IsWhole) (x2 : Vec Ideal S2x1x5 .f32) (b : Fin 2) :
    kernelRun.sl.v17 c arg3 harg3 x2 (ix3 b 0 0) = x2 (ix3 b 0 0) := by
  simp only [kernelRun.sl.v17, shapeCast_self, Memref.IsWhole.readAt_unread]
  congr 1; funext a; refine Fin.ext ?_
  fin_cases a <;> simp [LoadRect.idx, Rect.toLoadRect, Rect.unit]

theorem rd_r1 (c : Dev nD) (arg3 : Memref sig .tc .vmem S2x1x5 .f32) (harg3 : arg3.IsWhole) (x2 : Vec Ideal S2x1x5 .f32) (b : Fin 2) :
    kernelRun.sl.v19 c arg3 harg3 x2 (ix3 b 0 0) = x2 (ix3 b 0 1) := by
  simp only [kernelRun.sl.v19, shapeCast_self, Memref.IsWhole.readAt_unread]
  congr 1; funext a; refine Fin.ext ?_
  fin_cases a <;> simp [LoadRect.idx, Rect.toLoadRect, Rect.unit]

theorem rd_r2 (c : Dev nD) (arg3 : Memref sig .tc .vmem S2x1x5 .f32) (harg3 : arg3.IsWhole) (x2 : Vec Ideal S2x1x5 .f32) (b : Fin 2) :
    kernelRun.sl.v21 c arg3 harg3 x2 (ix3 b 0 0) = x2 (ix3 b 0 2) := by
  simp only [kernelRun.sl.v21, shapeCast_self, Memref.IsWhole.readAt_unread]
  congr 1; funext a; refine Fin.ext ?_
  fin_cases a <;> simp [LoadRect.idx, Rect.toLoadRect, Rect.unit]

theorem rd_r3 (c : Dev nD) (arg3 : Memref sig .tc .vmem S2x1x5 .f32) (harg3 : arg3.IsWhole) (x2 : Vec Ideal S2x1x5 .f32) (b : Fin 2) :
    kernelRun.sl.r_1 c arg3 harg3 x2 (ix3 b 0 0) = x2 (ix3 b 0 3) := by
  simp only [kernelRun.sl.r_1, k0_pay13, kernelRun.sl.r, shapeCast_self, Memref.IsWhole.readAt_unread]
  congr 1; funext a; refine Fin.ext ?_
  fin_cases a <;> simp [LoadRect.idx, Rect.toLoadRect, Rect.unit]

theorem rd_r4 (c : Dev nD) (arg3 : Memref sig .tc .vmem S2x1x5 .f32) (harg3 : arg3.IsWhole) (x2 : Vec Ideal S2x1x5 .f32) (b : Fin 2) :
    kernelRun.sl.r_2 c arg3 harg3 x2 (ix3 b 0 0) = x2 (ix3 b 0 4) := by
  simp only [kernelRun.sl.r_2, k0_pay14, shapeCast_self, Memref.IsWhole.readAt_unread]
  congr 1; funext a; refine Fin.ext ?_
  fin_cases a <;> simp [LoadRect.idx, Rect.toLoadRect, Rect.unit]

theorem rd_q0 (c : Dev nD) (arg4 : Memref sig .tc .vmem S2x1x5 .f32) (harg4 : arg4.IsWhole) (x3 : Vec Ideal S2x1x5 .f32) (b : Fin 2) :
    kernelRun.sl.r_3 c arg4 harg4 x3 (ix3 b 0 0) = x3 (ix3 b 0 0) := by
  simp only [kernelRun.sl.r_3, k0_pay15, shapeCast_self, Memref.IsWhole.readAt_unread]
  congr 1; funext a; refine Fin.ext ?_
  fin_cases a <;> simp [LoadRect.idx, Rect.toLoadRect, Rect.unit]

theorem rd_q1 (c : Dev nD) (arg4 : Memref sig .tc .vmem S2x1x5 .f32) (harg4 : arg4.IsWhole) (x3 : Vec Ideal S2x1x5 .f32) (b : Fin 2) :
    kernelRun.sl.r_4 c arg4 harg4 x3 (ix3 b 0 0) = x3 (ix3 b 0 1) := by
  simp only [kernelRun.sl.r_4, k0_pay16, shapeCast_self, Memref.IsWhole.readAt_unread]
  congr 1; funext a; refine Fin.ext ?_
  fin_cases a <;> simp [LoadRect.idx, Rect.toLoadRect, Rect.unit]

theorem rd_q2 (c : Dev nD) (arg4 : Memref sig .tc .vmem S2x1x5 .f32) (harg4 : arg4.IsWhole) (x3 : Vec Ideal S2x1x5 .f32) (b : Fin 2) :
    kernelRun.sl.r_5 c arg4 harg4 x3 (ix3 b 0 0) = x3 (ix3 b 0 2) := by
  simp only [kernelRun.sl.r_5, k0_pay17, shapeCast_self, Memref.IsWhole.readAt_unread]
  congr 1; funext a; refine Fin.ext ?_
  fin_cases a <;> simp [LoadRect.idx, Rect.toLoadRect, Rect.unit]

theorem rd_q3 (c : Dev nD) (arg4 : Memref sig .tc .vmem S2x1x5 .f32) (harg4 : arg4.IsWhole) (x3 : Vec Ideal S2x1x5 .f32) (b : Fin 2) :
    kernelRun.sl.r_6 c arg4 harg4 x3 (ix3 b 0 0) = x3 (ix3 b 0 3) := by
  simp only [kernelRun.sl.r_6, k0_pay18, shapeCast_self, Memref.IsWhole.readAt_unread]
  congr 1; funext a; refine Fin.ext ?_
  fin_cases a <;> simp [LoadRect.idx, Rect.toLoadRect, Rect.unit]

theorem rd_q4 (c : Dev nD) (arg4 : Memref sig .tc .vmem S2x1x5 .f32) (harg4 : arg4.IsWhole) (x3 : Vec Ideal S2x1x5 .f32) (b : Fin 2) :
    kernelRun.sl.r_7 c arg4 harg4 x3 (ix3 b 0 0) = x3 (ix3 b 0 4) := by
  simp only [kernelRun.sl.r_7, k0_pay19, shapeCast_self, Memref.IsWhole.readAt_unread]
  congr 1; funext a; refine Fin.ext ?_
  fin_cases a <;> simp [LoadRect.idx, Rect.toLoadRect, Rect.unit]

theorem rd_dea0 (c : Dev nD) (arg7 : Memref sig .tc .vmem S2x1x14 .f32) (harg7 : arg7.IsWhole) (x6 : Vec Ideal S2x1x14 .f32) (b : Fin 2) :
    kernelRun.sl.r_8 c arg7 harg7 x6 (ix3 b 0 0) = x6 (ix3 b 0 0) := by
  simp only [kernelRun.sl.r_8, k0_pay20, shapeCast_self, Memref.IsWhole.readAt_unread]
  congr 1; funext a; refine Fin.ext ?_
  fin_cases a <;> simp [LoadRect.idx, Rect.toLoadRect, Rect.unit]

theorem rd_dea1 (c : Dev nD) (arg7 : Memref sig .tc .vmem S2x1x14 .f32) (harg7 : arg7.IsWhole) (x6 : Vec Ideal S2x1x14 .f32) (b : Fin 2) :
    kernelRun.sl.r_40 c arg7 harg7 x6 (ix3 b 0 0) = x6 (ix3 b 0 1) := by
  simp only [kernelRun.sl.r_40, k0_pay52, shapeCast_self, Memref.IsWhole.readAt_unread]
  congr 1; funext a; refine Fin.ext ?_
  fin_cases a <;> simp [LoadRect.idx, Rect.toLoadRect, Rect.unit]

theorem rd_dea2 (c : Dev nD) (arg7 : Memref sig .tc .vmem S2x1x14 .f32) (harg7 : arg7.IsWhole) (x6 : Vec Ideal S2x1x14 .f32) (b : Fin 2) :
    kernelRun.sl.r_67 c arg7 harg7 x6 (ix3 b 0 0) = x6 (ix3 b 0 2) := by
  simp only [kernelRun.sl.r_67, k0_pay79, shapeCast_self, Memref.IsWhole.readAt_unread]
  congr 1; funext a; refine Fin.ext ?_
  fin_cases a <;> simp [LoadRect.idx, Rect.toLoadRect, Rect.unit]

theorem rd_dea3 (c : Dev nD) (arg7 : Memref sig .tc .vmem S2x1x14 .f32) (harg7 : arg7.IsWhole) (x6 : Vec Ideal S2x1x14 .f32) (b : Fin 2) :
    kernelRun.sl.r_98 c arg7 harg7 x6 (ix3 b 0 0) = x6 (ix3 b 0 3) := by
  simp only [kernelRun.sl.r_98, k0_pay111, shapeCast_self, Memref.IsWhole.readAt_unread]
  congr 1; funext a; refine Fin.ext ?_
  fin_cases a <;> simp [LoadRect.idx, Rect.toLoadRect, Rect.unit]

theorem rd_dea4 (c : Dev nD) (arg7 : Memref sig .tc .vmem S2x1x14 .f32) (harg7 : arg7.IsWhole) (x6 : Vec Ideal S2x1x14 .f32) (b : Fin 2) :
    kernelRun.sl.r_122 c arg7 harg7 x6 (ix3 b 0 0) = x6 (ix3 b 0 4) := by
  simp only [kernelRun.sl.r_122, k0_pay137, shapeCast_self, Memref.IsWhole.readAt_unread]
  congr 1; funext a; refine Fin.ext ?_
  fin_cases a <;> simp [LoadRect.idx, Rect.toLoadRect, Rect.unit]

theorem rd_dea5 (c : Dev nD) (arg7 : Memref sig .tc .vmem S2x1x14 .f32) (harg7 : arg7.IsWhole) (x6 : Vec Ideal S2x1x14 .f32) (b : Fin 2) :
    kernelRun.sl.r_149 c arg7 harg7 x6 (ix3 b 0 0) = x6 (ix3 b 0 5) := by
  simp only [kernelRun.sl.r_149, k0_pay166, shapeCast_self, Memref.IsWhole.readAt_unread]
  congr 1; funext a; refine Fin.ext ?_
  fin_cases a <;> simp [LoadRect.idx, Rect.toLoadRect, Rect.unit]

theorem rd_dea6 (c : Dev nD) (arg7 : Memref sig .tc .vmem S2x1x14 .f32) (harg7 : arg7.IsWhole) (x6 : Vec Ideal S2x1x14 .f32) (b : Fin 2) :
    kernelRun.sl.r_172 c arg7 harg7 x6 (ix3 b 0 0) = x6 (ix3 b 0 6) := by
  simp only [kernelRun.sl.r_172, k0_pay191, shapeCast_self, Memref.IsWhole.readAt_unread]
  congr 1; funext a; refine Fin.ext ?_
  fin_cases a <;> simp [LoadRect.idx, Rect.toLoadRect, Rect.unit]

theorem rd_dea7 (c : Dev nD) (arg7 : Memref sig .tc .vmem S2x1x14 .f32) (harg7 : arg7.IsWhole) (x6 : Vec Ideal S2x1x14 .f32) (b : Fin 2) :
    kernelRun.sl.r_200 c arg7 harg7 x6 (ix3 b 0 0) = x6 (ix3 b 0 7) := by
  simp only [kernelRun.sl.r_200, k0_pay220, shapeCast_self, Memref.IsWhole.readAt_unread]
  congr 1; funext a; refine Fin.ext ?_
  fin_cases a <;> simp [LoadRect.idx, Rect.toLoadRect, Rect.unit]

theorem rd_dea8 (c : Dev nD) (arg7 : Memref sig .tc .vmem S2x1x14 .f32) (harg7 : arg7.IsWhole) (x6 : Vec Ideal S2x1x14 .f32) (b : Fin 2) :
    kernelRun.sl.r_227 c arg7 harg7 x6 (ix3 b 0 0) = x6 (ix3 b 0 8) := by
  simp only [kernelRun.sl.r_227, k0_pay248, shapeCast_self, Memref.IsWhole.readAt_unread]
  congr 1; funext a; refine Fin.ext ?_
  fin_cases a <;> simp [LoadRect.idx, Rect.toLoadRect, Rect.unit]

theorem rd_dea9 (c : Dev nD) (arg7 : Memref sig .tc .vmem S2x1x14 .f32) (harg7 : arg7.IsWhole) (x6 : Vec Ideal S2x1x14 .f32) (b : Fin 2) :
    kernelRun.sl.r_257 c arg7 harg7 x6 (ix3 b 0 0) = x6 (ix3 b 0 9) := by
  simp only [kernelRun.sl.r_257, k0_pay278, shapeCast_self, Memref.IsWhole.readAt_unread]
  congr 1; funext a; refine Fin.ext ?_
  fin_cases a <;> simp [LoadRect.idx, Rect.toLoadRect, Rect.unit]

theorem rd_dea10 (c : Dev nD) (arg7 : Memref sig .tc .vmem S2x1x14 .f32) (harg7 : arg7.IsWhole) (x6 : Vec Ideal S2x1x14 .f32) (b : Fin 2) :
    kernelRun.sl.r_286 c arg7 harg7 x6 (ix3 b 0 0) = x6 (ix3 b 0 10) := by
  simp only [kernelRun.sl.r_286, k0_pay307, shapeCast_self, Memref.IsWhole.readAt_unread]
  congr 1; funext a; refine Fin.ext ?_
  fin_cases a <;> simp [LoadRect.idx, Rect.toLoadRect, Rect.unit]

theorem rd_dea11 (c : Dev nD) (arg7 : Memref sig .tc .vmem S2x1x14 .f32) (harg7 : arg7.IsWhole) (x6 : Vec Ideal S2x1x14 .f32) (b : Fin 2) :
    kernelRun.sl.r_313 c arg7 harg7 x6 (ix3 b 0 0) = x6 (ix3 b 0 11) := by
  simp only [kernelRun.sl.r_313, k0_pay335, shapeCast_self, Memref.IsWhole.readAt_unread]
  congr 1; funext a; refine Fin.ext ?_
  fin_cases a <;> simp [LoadRect.idx, Rect.toLoadRect, Rect.unit]

theorem rd_dea12 (c : Dev nD) (arg7 : Memref sig .tc .vmem S2x1x14 .f32) (harg7 : arg7.IsWhole) (x6 : Vec Ideal S2x1x14 .f32) (b : Fin 2) :
    kernelRun.sl.r_341 c arg7 harg7 x6 (ix3 b 0 0) = x6 (ix3 b 0 12) := by
  simp only [kernelRun.sl.r_341, k0_pay365, shapeCast_self, Memref.IsWhole.readAt_unread]
  congr 1; funext a; refine Fin.ext ?_
  fin_cases a <;> simp [LoadRect.idx, Rect.toLoadRect, Rect.unit]

theorem rd_dea13 (c : Dev nD) (arg7 : Memref sig .tc .vmem S2x1x14 .f32) (harg7 : arg7.IsWhole) (x6 : Vec Ideal S2x1x14 .f32) (b : Fin 2) :
    kernelRun.sl.r_366 c arg7 harg7 x6 (ix3 b 0 0) = x6 (ix3 b 0 13) := by
  simp only [kernelRun.sl.r_366, k0_pay392, shapeCast_self, Memref.IsWhole.readAt_unread]
  congr 1; funext a; refine Fin.ext ?_
  fin_cases a <;> simp [LoadRect.idx, Rect.toLoadRect, Rect.unit]

/-! ## The parameters, the first state and the sizes, read at an entry -/

theorem hP (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec Ideal S2x1x393216 .f32) (x1 : Vec Ideal S2x1x393216 .f32) (x2 x3 x4 : Vec Ideal S2x1x5 .f32) (x5 : Vec Ideal S2x1x1 .f32) (x6 : Vec Ideal S2x1x14 .f32) (b : Fin 2) :
    (kP c arg1 harg1 arg2 harg2 arg3 harg3 arg4 harg4 arg5 harg5 arg6 harg6 arg7 harg7 x0 x1 x2 x3 x4 x5 x6).rd b = Cert.Nhc.blkPar x1 x4 x5 b := by
  have hμ : Cert.Nhc.K.rdN (kP c arg1 harg1 arg2 harg2 arg3 harg3 arg4 harg4 arg5 harg5 arg6 harg6 arg7 harg7 x0 x1 x2 x3 x4 x5 x6).mu b = fun j => x1 (ix3 b 0 j) :=
    funext fun j => rd_mu c arg2 harg2 x1 b j
  have hM : (kP c arg1 harg1 arg2 harg2 arg3 harg3 arg4 harg4 arg5 harg5 arg6 harg6 arg7 harg7 x0 x1 x2 x3 x4 x5 x6).M.rd b = fun k => x4 (ix3 b 0 k) := by
    refine Eq.trans ?_ (Cert.Nhc.K.vec5_eta _).symm
    simp only [kP, Cert.Nhc.K.K5.rd, Cert.Nhc.K.rd, rd_M0, rd_M1, rd_M2, rd_M3, rd_M4]
  have hk : Cert.Nhc.K.rd (kP c arg1 harg1 arg2 harg2 arg3 harg3 arg4 harg4 arg5 harg5 arg6 harg6 arg7 harg7 x0 x1 x2 x3 x4 x5 x6).kbt b = x5 (ix3 b 0 0) := rd_kbt c arg6 harg6 x5 b
  unfold Cert.Nhc.K.KPar.rd Cert.Nhc.blkPar
  rw [hμ, hM, hk]

theorem hS (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec Ideal S2x1x393216 .f32) (x1 : Vec Ideal S2x1x393216 .f32) (x2 x3 x4 : Vec Ideal S2x1x5 .f32) (x5 : Vec Ideal S2x1x1 .f32) (x6 : Vec Ideal S2x1x14 .f32) (b : Fin 2) :
    (kN0 c arg1 harg1 arg2 harg2 arg3 harg3 arg4 harg4 arg5 harg5 arg6 harg6 arg7 harg7 x0 x1 x2 x3 x4 x5 x6).rd b = Cert.Nhc.blkSt x0 x3 x2 b := by
  have hp : Cert.Nhc.K.rdN (kN0 c arg1 harg1 arg2 harg2 arg3 harg3 arg4 harg4 arg5 harg5 arg6 harg6 arg7 harg7 x0 x1 x2 x3 x4 x5 x6).p b = fun j => x0 (ix3 b 0 j) :=
    funext fun j => rd_p c arg1 harg1 x0 b j
  have hq : (kN0 c arg1 harg1 arg2 harg2 arg3 harg3 arg4 harg4 arg5 harg5 arg6 harg6 arg7 harg7 x0 x1 x2 x3 x4 x5 x6).q.rd b = fun k => x3 (ix3 b 0 k) := by
    refine Eq.trans ?_ (Cert.Nhc.K.vec5_eta _).symm
    simp only [kN0, Cert.Nhc.K.K5.rd, Cert.Nhc.K.rd, rd_q0, rd_q1, rd_q2, rd_q3, rd_q4]
  have hr : (kN0 c arg1 harg1 arg2 harg2 arg3 harg3 arg4 harg4 arg5 harg5 arg6 harg6 arg7 harg7 x0 x1 x2 x3 x4 x5 x6).r.rd b = fun k => x2 (ix3 b 0 k) := by
    refine Eq.trans ?_ (Cert.Nhc.K.vec5_eta _).symm
    simp only [kN0, Cert.Nhc.K.K5.rd, Cert.Nhc.K.rd, rd_r0, rd_r1, rd_r2, rd_r3, rd_r4]
  unfold Cert.Nhc.K.KSt.rd Cert.Nhc.blkSt
  rw [hp, hq, hr]

theorem kDea_0 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 0 = (kernelRun.sl.r_8 c arg7 harg7 x6) := by
  sl_kernel_rfl

theorem kDea_1 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 1 = (kernelRun.sl.r_40 c arg7 harg7 x6) := by
  sl_kernel_rfl

theorem kDea_2 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 2 = (kernelRun.sl.r_67 c arg7 harg7 x6) := by
  sl_kernel_rfl

theorem kDea_3 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 3 = (kernelRun.sl.r_98 c arg7 harg7 x6) := by
  sl_kernel_rfl

theorem kDea_4 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 4 = (kernelRun.sl.r_122 c arg7 harg7 x6) := by
  sl_kernel_rfl

theorem kDea_5 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 5 = (kernelRun.sl.r_149 c arg7 harg7 x6) := by
  sl_kernel_rfl

theorem kDea_6 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 6 = (kernelRun.sl.r_172 c arg7 harg7 x6) := by
  sl_kernel_rfl

theorem kDea_7 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 7 = (kernelRun.sl.r_200 c arg7 harg7 x6) := by
  sl_kernel_rfl

theorem kDea_8 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 8 = (kernelRun.sl.r_227 c arg7 harg7 x6) := by
  sl_kernel_rfl

theorem kDea_9 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 9 = (kernelRun.sl.r_257 c arg7 harg7 x6) := by
  sl_kernel_rfl

theorem kDea_10 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 10 = (kernelRun.sl.r_286 c arg7 harg7 x6) := by
  sl_kernel_rfl

theorem kDea_11 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 11 = (kernelRun.sl.r_313 c arg7 harg7 x6) := by
  sl_kernel_rfl

theorem kDea_12 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 12 = (kernelRun.sl.r_341 c arg7 harg7 x6) := by
  sl_kernel_rfl

theorem kDea_13 (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec F S2x1x393216 .f32) (x1 : Vec F S2x1x393216 .f32) (x2 x3 x4 : Vec F S2x1x5 .f32) (x5 : Vec F S2x1x1 .f32) (x6 : Vec F S2x1x14 .f32) :
    kDea c arg1 harg1 arg2 harg2 arg3 harg3 arg4 harg4 arg5 harg5 arg6 harg6 arg7 harg7 x0 x1 x2 x3 x4 x5 x6 13 = (kernelRun.sl.r_366 c arg7 harg7 x6) := by
  sl_kernel_rfl

theorem hd (c : Dev nD) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (x0 : Vec Ideal S2x1x393216 .f32) (x1 : Vec Ideal S2x1x393216 .f32) (x2 x3 x4 : Vec Ideal S2x1x5 .f32) (x5 : Vec Ideal S2x1x1 .f32) (x6 : Vec Ideal S2x1x14 .f32) (b : Fin 2) (s : Fin 14) :
    Cert.Nhc.K.rd (kDea c arg1 harg1 arg2 harg2 arg3 harg3 arg4 harg4 arg5 harg5 arg6 harg6 arg7 harg7 x0 x1 x2 x3 x4 x5 x6 s) b = Cert.Nhc.blkDelta x6 b s := by
  unfold Cert.Nhc.K.rd Cert.Nhc.blkDelta
  fin_cases s
  · show kDea c arg1 harg1 arg2 harg2 arg3 harg3 arg4 harg4 arg5 harg5 arg6 harg6 arg7 harg7 x0 x1 x2 x3 x4 x5 x6 0 (ix3 b 0 0) = x6 (ix3 b 0 0)
    rw [kDea_0]; exact rd_dea0 c arg7 harg7 x6 b
  · show kDea c arg1 harg1 arg2 harg2 arg3 harg3 arg4 harg4 arg5 harg5 arg6 harg6 arg7 harg7 x0 x1 x2 x3 x4 x5 x6 1 (ix3 b 0 0) = x6 (ix3 b 0 1)
    rw [kDea_1]; exact rd_dea1 c arg7 harg7 x6 b
  · show kDea c arg1 harg1 arg2 harg2 arg3 harg3 arg4 harg4 arg5 harg5 arg6 harg6 arg7 harg7 x0 x1 x2 x3 x4 x5 x6 2 (ix3 b 0 0) = x6 (ix3 b 0 2)
    rw [kDea_2]; exact rd_dea2 c arg7 harg7 x6 b
  · show kDea c arg1 harg1 arg2 harg2 arg3 harg3 arg4 harg4 arg5 harg5 arg6 harg6 arg7 harg7 x0 x1 x2 x3 x4 x5 x6 3 (ix3 b 0 0) = x6 (ix3 b 0 3)
    rw [kDea_3]; exact rd_dea3 c arg7 harg7 x6 b
  · show kDea c arg1 harg1 arg2 harg2 arg3 harg3 arg4 harg4 arg5 harg5 arg6 harg6 arg7 harg7 x0 x1 x2 x3 x4 x5 x6 4 (ix3 b 0 0) = x6 (ix3 b 0 4)
    rw [kDea_4]; exact rd_dea4 c arg7 harg7 x6 b
  · show kDea c arg1 harg1 arg2 harg2 arg3 harg3 arg4 harg4 arg5 harg5 arg6 harg6 arg7 harg7 x0 x1 x2 x3 x4 x5 x6 5 (ix3 b 0 0) = x6 (ix3 b 0 5)
    rw [kDea_5]; exact rd_dea5 c arg7 harg7 x6 b
  · show kDea c arg1 harg1 arg2 harg2 arg3 harg3 arg4 harg4 arg5 harg5 arg6 harg6 arg7 harg7 x0 x1 x2 x3 x4 x5 x6 6 (ix3 b 0 0) = x6 (ix3 b 0 6)
    rw [kDea_6]; exact rd_dea6 c arg7 harg7 x6 b
  · show kDea c arg1 harg1 arg2 harg2 arg3 harg3 arg4 harg4 arg5 harg5 arg6 harg6 arg7 harg7 x0 x1 x2 x3 x4 x5 x6 7 (ix3 b 0 0) = x6 (ix3 b 0 7)
    rw [kDea_7]; exact rd_dea7 c arg7 harg7 x6 b
  · show kDea c arg1 harg1 arg2 harg2 arg3 harg3 arg4 harg4 arg5 harg5 arg6 harg6 arg7 harg7 x0 x1 x2 x3 x4 x5 x6 8 (ix3 b 0 0) = x6 (ix3 b 0 8)
    rw [kDea_8]; exact rd_dea8 c arg7 harg7 x6 b
  · show kDea c arg1 harg1 arg2 harg2 arg3 harg3 arg4 harg4 arg5 harg5 arg6 harg6 arg7 harg7 x0 x1 x2 x3 x4 x5 x6 9 (ix3 b 0 0) = x6 (ix3 b 0 9)
    rw [kDea_9]; exact rd_dea9 c arg7 harg7 x6 b
  · show kDea c arg1 harg1 arg2 harg2 arg3 harg3 arg4 harg4 arg5 harg5 arg6 harg6 arg7 harg7 x0 x1 x2 x3 x4 x5 x6 10 (ix3 b 0 0) = x6 (ix3 b 0 10)
    rw [kDea_10]; exact rd_dea10 c arg7 harg7 x6 b
  · show kDea c arg1 harg1 arg2 harg2 arg3 harg3 arg4 harg4 arg5 harg5 arg6 harg6 arg7 harg7 x0 x1 x2 x3 x4 x5 x6 11 (ix3 b 0 0) = x6 (ix3 b 0 11)
    rw [kDea_11]; exact rd_dea11 c arg7 harg7 x6 b
  · show kDea c arg1 harg1 arg2 harg2 arg3 harg3 arg4 harg4 arg5 harg5 arg6 harg6 arg7 harg7 x0 x1 x2 x3 x4 x5 x6 12 (ix3 b 0 0) = x6 (ix3 b 0 12)
    rw [kDea_12]; exact rd_dea12 c arg7 harg7 x6 b
  · show kDea c arg1 harg1 arg2 harg2 arg3 harg3 arg4 harg4 arg5 harg5 arg6 harg6 arg7 harg7 x0 x1 x2 x3 x4 x5 x6 13 (ix3 b 0 0) = x6 (ix3 b 0 13)
    rw [kDea_13]; exact rd_dea13 c arg7 harg7 x6 b

/-! ## The three outputs, read at an index -/

theorem zeros3 : (![0, 0, 0] : Fin 3 → ℕ) = fun _ => 0 := by
  funext a; fin_cases a <;> rfl

/-- The block the body leaves in `arg8`'s memref is the momenta after the fourteen substeps. -/
theorem out7_eq (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec Ideal S2x1x393216 .f32) (x1 : Vec Ideal S2x1x393216 .f32) (x2 x3 x4 : Vec Ideal S2x1x5 .f32) (x5 : Vec Ideal S2x1x1 .f32) (x6 : Vec Ideal S2x1x14 .f32) :
    out7 c i arg1 harg1 arg2 harg2 arg3 harg3 arg4 harg4 arg5 harg5 arg6 harg6 arg7 harg7 arg8 harg8 arg9 harg9 arg10 harg10 x0 x1 x2 x3 x4 x5 x6 = (kN14 c arg1 harg1 arg2 harg2 arg3 harg3 arg4 harg4 arg5 harg5 arg6 harg6 arg7 harg7 x0 x1 x2 x3 x4 x5 x6).p := by
  unfold out7
  exact View.canon_unit_zero zeros3 _ _

/-- The block the body leaves in `arg9`'s memref is the five chain positions, column by column. -/
theorem out8_eq (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec Ideal S2x1x393216 .f32) (x1 : Vec Ideal S2x1x393216 .f32) (x2 x3 x4 : Vec Ideal S2x1x5 .f32) (x5 : Vec Ideal S2x1x1 .f32) (x6 : Vec Ideal S2x1x14 .f32) :
    out8 c i arg1 harg1 arg2 harg2 arg3 harg3 arg4 harg4 arg5 harg5 arg6 harg6 arg7 harg7 arg8 harg8 arg9 harg9 arg10 harg10 x0 x1 x2 x3 x4 x5 x6 = (kernelRun.sl.r_395 c arg1 harg1 arg2 harg2 arg3 harg3 arg4 harg4 arg5 harg5 arg6 harg6 arg7 harg7 x0 x1 x2 x3 x4 x5 x6) := by
  unfold out8
  exact View.canon_unit_zero zeros3 _ _

/-- The block the body leaves in `arg10`'s memref is the five chain momenta, column by column. -/
theorem out9_eq (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec Ideal S2x1x393216 .f32) (x1 : Vec Ideal S2x1x393216 .f32) (x2 x3 x4 : Vec Ideal S2x1x5 .f32) (x5 : Vec Ideal S2x1x1 .f32) (x6 : Vec Ideal S2x1x14 .f32) :
    out9 c i arg1 harg1 arg2 harg2 arg3 harg3 arg4 harg4 arg5 harg5 arg6 harg6 arg7 harg7 arg8 harg8 arg9 harg9 arg10 harg10 x0 x1 x2 x3 x4 x5 x6 = k0_pay1 (kernelRun.sl.r_390 c arg1 harg1 arg2 harg2 arg3 harg3 arg5 harg5 arg6 harg6 arg7 harg7 x0 x1 x2 x4 x5 x6) (kernelRun.sl.r_391 c arg1 harg1 arg2 harg2 arg3 harg3 arg5 harg5 arg6 harg6 arg7 harg7 x0 x1 x2 x4 x5 x6) (kernelRun.sl.r_392 c arg1 harg1 arg2 harg2 arg3 harg3 arg5 harg5 arg6 harg6 arg7 harg7 x0 x1 x2 x4 x5 x6) (kernelRun.sl.r_393 c arg1 harg1 arg2 harg2 arg3 harg3 arg5 harg5 arg6 harg6 arg7 harg7 x0 x1 x2 x4 x5 x6) (kernelRun.sl.r_394 c arg1 harg1 arg2 harg2 arg3 harg3 arg5 harg5 arg6 harg6 arg7 harg7 x0 x1 x2 x4 x5 x6) := by
  unfold out9
  exact View.canon_unit_zero zeros3 _ _

theorem out7_apply (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec Ideal S2x1x393216 .f32) (x1 : Vec Ideal S2x1x393216 .f32) (x2 x3 x4 : Vec Ideal S2x1x5 .f32) (x5 : Vec Ideal S2x1x1 .f32) (x6 : Vec Ideal S2x1x14 .f32) (b : Fin 2) (j : Fin 393216) :
    out7 c i arg1 harg1 arg2 harg2 arg3 harg3 arg4 harg4 arg5 harg5 arg6 harg6 arg7 harg7 arg8 harg8 arg9 harg9 arg10 harg10 x0 x1 x2 x3 x4 x5 x6 (ix3 b 0 j) = (Cert.Nhc.blkFin x0 x1 x2 x3 x4 x5 x6 b).p j := by
  rw [out7_eq, kN14_eq]
  exact Cert.Nhc.K.kRun_blk_p x0 x1 x2 x3 x4 x5 x6 _ _ _ (hP c arg1 harg1 arg2 harg2 arg3 harg3 arg4 harg4 arg5 harg5 arg6 harg6 arg7 harg7 x0 x1 x2 x3 x4 x5 x6) (hS c arg1 harg1 arg2 harg2 arg3 harg3 arg4 harg4 arg5 harg5 arg6 harg6 arg7 harg7 x0 x1 x2 x3 x4 x5 x6) (hd c arg1 harg1 arg2 harg2 arg3 harg3 arg4 harg4 arg5 harg5 arg6 harg6 arg7 harg7 x0 x1 x2 x3 x4 x5 x6) b j

theorem out8_apply (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec Ideal S2x1x393216 .f32) (x1 : Vec Ideal S2x1x393216 .f32) (x2 x3 x4 : Vec Ideal S2x1x5 .f32) (x5 : Vec Ideal S2x1x1 .f32) (x6 : Vec Ideal S2x1x14 .f32) (b : Fin 2) (k : Fin 5) :
    out8 c i arg1 harg1 arg2 harg2 arg3 harg3 arg4 harg4 arg5 harg5 arg6 harg6 arg7 harg7 arg8 harg8 arg9 harg9 arg10 harg10 x0 x1 x2 x3 x4 x5 x6 (ix3 b 0 k) = (Cert.Nhc.blkFin x0 x1 x2 x3 x4 x5 x6 b).q k := by
  rw [out8_eq]
  simp only [kernelRun.sl.r_395, k0_pay424]
  rw [Cert.Nhc.K.cat5_apply]
  show ((kN14 c arg1 harg1 arg2 harg2 arg3 harg3 arg4 harg4 arg5 harg5 arg6 harg6 arg7 harg7 x0 x1 x2 x3 x4 x5 x6).q.rd b) k = _
  rw [kN14_eq]
  exact Cert.Nhc.K.kRun_blk_q x0 x1 x2 x3 x4 x5 x6 _ _ _ (hP c arg1 harg1 arg2 harg2 arg3 harg3 arg4 harg4 arg5 harg5 arg6 harg6 arg7 harg7 x0 x1 x2 x3 x4 x5 x6) (hS c arg1 harg1 arg2 harg2 arg3 harg3 arg4 harg4 arg5 harg5 arg6 harg6 arg7 harg7 x0 x1 x2 x3 x4 x5 x6) (hd c arg1 harg1 arg2 harg2 arg3 harg3 arg4 harg4 arg5 harg5 arg6 harg6 arg7 harg7 x0 x1 x2 x3 x4 x5 x6) b k

theorem out9_apply (c : Dev nD) (i : grid0.Coords) (arg1 : Memref sig .tc .vmem S2x1x393216 .f32) (harg1 : arg1.IsWhole) (arg2 : Memref sig .tc .vmem S2x1x393216 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x1x393216 .f32) (harg8 : arg8.IsWhole) (arg9 : Memref sig .tc .vmem S2x1x5 .f32) (harg9 : arg9.IsWhole) (arg10 : Memref sig .tc .vmem S2x1x5 .f32) (harg10 : arg10.IsWhole)
    (x0 : Vec Ideal S2x1x393216 .f32) (x1 : Vec Ideal S2x1x393216 .f32) (x2 x3 x4 : Vec Ideal S2x1x5 .f32) (x5 : Vec Ideal S2x1x1 .f32) (x6 : Vec Ideal S2x1x14 .f32) (b : Fin 2) (k : Fin 5) :
    out9 c i arg1 harg1 arg2 harg2 arg3 harg3 arg4 harg4 arg5 harg5 arg6 harg6 arg7 harg7 arg8 harg8 arg9 harg9 arg10 harg10 x0 x1 x2 x3 x4 x5 x6 (ix3 b 0 k) = (Cert.Nhc.blkFin x0 x1 x2 x3 x4 x5 x6 b).r k := by
  rw [out9_eq]
  simp only [k0_pay1]
  rw [Cert.Nhc.K.cat5_apply]
  show ((kN14 c arg1 harg1 arg2 harg2 arg3 harg3 arg4 harg4 arg5 harg5 arg6 harg6 arg7 harg7 x0 x1 x2 x3 x4 x5 x6).r.rd b) k = _
  rw [kN14_eq]
  exact Cert.Nhc.K.kRun_blk_r x0 x1 x2 x3 x4 x5 x6 _ _ _ (hP c arg1 harg1 arg2 harg2 arg3 harg3 arg4 harg4 arg5 harg5 arg6 harg6 arg7 harg7 x0 x1 x2 x3 x4 x5 x6) (hS c arg1 harg1 arg2 harg2 arg3 harg3 arg4 harg4 arg5 harg5 arg6 harg6 arg7 harg7 x0 x1 x2 x3 x4 x5 x6) (hd c arg1 harg1 arg2 harg2 arg3 harg3 arg4 harg4 arg5 harg5 arg6 harg6 arg7 harg7 x0 x1 x2 x3 x4 x5 x6) b k

end Cert.KernelIdeal.Fr

end
-- ==== Proof.KIBlockVals.lean ====
import proofs.«156042_j46600395162250_1_alg».proof.Proof.KIBlock
import proofs.«156042_j46600395162250_1_alg».proof.Proof.KIValueA

/-!
# The body's outputs at an index, gathered

What the body leaves in its three outputs' memrefs, read at an index, is the state of the recurrence on the block's
entry after the fourteen substeps: the three read-offs as one record.
-/

noncomputable section

namespace Cert.KernelIdeal.Fr

open Cert.KernelIdeal Cert.KernelIdeal.Gen
open Idealize.ShloMosaic

/-- The momenta, the chain positions and the chain momenta the body leaves, each read at an index. -/
theorem blockVals : BlockVals (out7 (F := Ideal)) (out8 (F := Ideal)) (out9 (F := Ideal)) :=
  { o7 := fun c i arg1 harg1 arg2 harg2 arg3 harg3 arg4 harg4 arg5 harg5 arg6 harg6 arg7 harg7 arg8 harg8 arg9 harg9 arg10 harg10 x0 x1 x2 x3 x4 x5 x6 b j =>
      out7_apply c i arg1 harg1 arg2 harg2 arg3 harg3 arg4 harg4 arg5 harg5 arg6 harg6 arg7 harg7 arg8 harg8 arg9 harg9 arg10 harg10 x0 x1 x2 x3 x4 x5 x6 b j
    o8 := fun c i arg1 harg1 arg2 harg2 arg3 harg3 arg4 harg4 arg5 harg5 arg6 harg6 arg7 harg7 arg8 harg8 arg9 harg9 arg10 harg10 x0 x1 x2 x3 x4 x5 x6 b k =>
      out8_apply c i arg1 harg1 arg2 harg2 arg3 harg3 arg4 harg4 arg5 harg5 arg6 harg6 arg7 harg7 arg8 harg8 arg9 harg9 arg10 harg10 x0 x1 x2 x3 x4 x5 x6 b k
    o9 := fun c i arg1 harg1 arg2 harg2 arg3 harg3 arg4 harg4 arg5 harg5 arg6 harg6 arg7 harg7 arg8 harg8 arg9 harg9 arg10 harg10 x0 x1 x2 x3 x4 x5 x6 b k =>
      out9_apply c i arg1 harg1 arg2 harg2 arg3 harg3 arg4 harg4 arg5 harg5 arg6 harg6 arg7 harg7 arg8 harg8 arg9 harg9 arg10 harg10 x0 x1 x2 x3 x4 x5 x6 b k }

end Cert.KernelIdeal.Fr

end
-- ==== Proof.LibScatterColumn.lean ====
import Idealize.ShloMosaic.PureOps.ShapeOps
import Idealize.ShloMosaic.PureOps.Ideal
import Idealize.ShloMosaic.Lib.ValueIdx

/-!
# A scatter that updates one column

`x.at[:, c].set(u)` and `x.at[:, c].add(u)` for a `[32, 5]` array `x`, a literal column `c` and a length-32 vector
`u` are one `stablehlo.scatter` with a single scatter index: the updates' one axis is a window axis going to the
operand's row axis, the column axis is inserted, and the scatter index names the column. `Host.scatter` is the left
fold, over the update indices in row-major order, of "replace the element at the update's result index by the body
applied to it and the update".

* `foldl_pointStep_of_not_mem`, `foldl_pointStep_of_mem`: a fold of point updates at pairwise distinct positions
  writes each position at most once, from its initial value.
* `resultIdx?_column`: update `j` lands at row `j 0`, column `c`.
* `scatter_column_apply`: the scatter read at `(b, k)` is `f (x (b, k)) (u b)` when `k = c` and `x (b, k)` otherwise;
  `scatter_column_apply_idx` at an arbitrary index; `scatter_column_set_apply` and `scatter_column_add_apply` for the
  two bodies.
-/

namespace Cert.Nhc

open Idealize.ShloMosaic Idealize.ShloMosaic.ValueIdx

section Fold
variable {ι κ α : Type} [DecidableEq κ]

/-- One step of a point-update fold: the element at position `g n` is replaced by `f` of its old value and `v n`. -/
def pointStep (f : α → α → α) (g : ι → κ) (v : ι → α) (r : κ → α) (n : ι) : κ → α :=
  fun i' => if i' = g n then f (r (g n)) (v n) else r i'

/-- A position none of the updates lands at keeps its value through the fold. -/
theorem foldl_pointStep_of_not_mem (f : α → α → α) (g : ι → κ) (v : ι → α) (l : List ι) (x : κ → α) (i' : κ)
    (h : ∀ n ∈ l, g n ≠ i') : l.foldl (pointStep f g v) x i' = x i' := by
  induction l generalizing x with
  | nil => rfl
  | cons a l ih =>
    rw [List.foldl_cons, ih _ (fun n hn => h n (List.mem_cons_of_mem _ hn))]
    unfold pointStep
    rw [if_neg (fun e => h a (List.mem_cons_self ..) e.symm)]

/-- When the positions of the updates are pairwise distinct, the position of update `n` ends at `f` of its
    INITIAL value and `v n`: it is written exactly once. -/
theorem foldl_pointStep_of_mem (f : α → α → α) (g : ι → κ) (v : ι → α) (l : List ι) (x : κ → α)
    (hnd : (l.map g).Nodup) (n : ι) (hn : n ∈ l) : l.foldl (pointStep f g v) x (g n) = f (x (g n)) (v n) := by
  induction l generalizing x with
  | nil => cases hn
  | cons a l ih =>
    rw [List.map_cons, List.nodup_cons] at hnd
    rw [List.foldl_cons]
    rcases List.mem_cons.1 hn with rfl | hn'
    · rw [foldl_pointStep_of_not_mem f g v l _ _ (fun m hm e => hnd.1 (by rw [← e]; exact List.mem_map_of_mem hm))]
      unfold pointStep
      rw [if_pos rfl]
    · rw [ih _ hnd.2 hn']
      unfold pointStep
      rw [if_neg (fun e => hnd.1 (by rw [← e]; exact List.mem_map_of_mem hn'))]

end Fold

section Column
variable {α : Type}

/-- A literal column number below five, written as a 32-bit integer, reads back signed as itself. -/
theorem toInt_ofNat_col (c : Fin 5) : (BitVec.ofNat 32 c.val).toInt = (c.val : Int) := by
  fin_cases c <;> rfl

/-- THE RESULT INDEX of update `j` (one per row) under the dimension numbers of `x.at[:, c]`: the updates' one
    axis is the window axis going to the operand's row axis, the column axis is inserted and is the one the single
    scatter index names. Update `j` lands at row `j 0`, column `c`, always inside the operand. -/
theorem resultIdx?_column (d : ScatterDims ⟨2, ![32, 5]⟩ ⟨1, ![1]⟩ ⟨1, ![32]⟩)
    (hu : d.updateWindowDims = [0]) (hi : d.insertedWindowDims = [1]) (hs : d.scatterDimsToOperandDims = [1])
    (hv : d.indexVectorDim = 0) (c : Fin 5) (idx : IVec ⟨1, ![1]⟩ 32) (hidx : ∀ k, idx k = BitVec.ofNat 32 c.val)
    (j : (⟨1, ![32]⟩ : Shape).Idx) :
    d.resultIdx? j idx = some (ix2 (j 0) c) := by
  obtain ⟨uw, iw, sd, iv, wf⟩ := d
  dsimp only at hu hi hs hv
  subst hu hi hs hv
  have hs0 : ScatterDims.start ⟨[0], [1], [1], 0, wf⟩ j idx 0 = 0 := by
    unfold ScatterDims.start
    rw [dif_neg (show (0 : Fin 2) ∉ ([1] : List (Fin 2)) by decide)]
  have hs1 : ScatterDims.start ⟨[0], [1], [1], 0, wf⟩ j idx 1 = (c.val : Int) := by
    unfold ScatterDims.start
    rw [dif_pos (show (1 : Fin 2) ∈ ([1] : List (Fin 2)) by decide), hidx, toInt_ofNat_col]
  have hw0 : ScatterDims.window ⟨[0], [1], [1], 0, wf⟩ j 0 = (j 0).val := by
    unfold ScatterDims.window
    rw [dif_pos (show (0 : Fin 2) ∈ (⟨2, ![32, 5]⟩ : Shape).kept [1] by decide)]
    rfl
  have hw1 : ScatterDims.window ⟨[0], [1], [1], 0, wf⟩ j 1 = 0 := by
    unfold ScatterDims.window
    rw [dif_neg (show (1 : Fin 2) ∉ (⟨2, ![32, 5]⟩ : Shape).kept [1] by decide)]
  have key : ∀ a : Fin 2, ScatterDims.start ⟨[0], [1], [1], 0, wf⟩ j idx a
      + (ScatterDims.window ⟨[0], [1], [1], 0, wf⟩ j a : Int)
      = (((ix2 (j 0) c : (⟨2, ![32, 5]⟩ : Shape).Idx) a).val : Int) := by
    rw [Fin.forall_fin_two]
    refine ⟨?_, ?_⟩
    · rw [hs0, hw0, Int.zero_add]
    · rw [hs1, hw1]; simp
  unfold ScatterDims.resultIdx?
  rw [dif_pos (fun a => by
    rw [key a]
    exact ⟨Int.natCast_nonneg _, by exact_mod_cast ((ix2 (j 0) c : (⟨2, ![32, 5]⟩ : Shape).Idx) a).isLt⟩)]
  congr 1
  funext a
  refine Fin.ext ?_
  simp only [key a, Int.toNat_natCast]
  rfl

/-- THE COLUMN SCATTER READ AT `(b, k)`. Under the dimension numbers of `x.at[:, c]` and the single scatter index
    `c`, update `n` (one per row, taken in row-major order) lands at `(n, c)`: the landing positions are pairwise
    distinct, so every element of column `c` is written exactly once — by `f` of its INITIAL value and its row's
    update — and every other element is left alone. -/
theorem scatter_column_apply (d : ScatterDims ⟨2, ![32, 5]⟩ ⟨1, ![1]⟩ ⟨1, ![32]⟩)
    (hu : d.updateWindowDims = [0]) (hi : d.insertedWindowDims = [1]) (hs : d.scatterDimsToOperandDims = [1])
    (hv : d.indexVectorDim = 0) (f : α → α → α) (x : (⟨2, ![32, 5]⟩ : Shape).Idx → α)
    (c : Fin 5) (idx : IVec ⟨1, ![1]⟩ 32) (hidx : ∀ k, idx k = BitVec.ofNat 32 c.val)
    (u : (⟨1, ![32]⟩ : Shape).Idx → α) (b : Fin 32) (k : Fin 5) :
    Host.scatter d f x idx u (ix2 b k) = if k = c then f (x (ix2 b k)) (u (ix1 b)) else x (ix2 b k) := by
  have hfold : Host.scatter d f x idx u
      = (List.finRange (⟨1, ![32]⟩ : Shape).numel).foldl
          (pointStep f (fun n => (ix2 (((⟨1, ![32]⟩ : Shape).rowMajor.symm n) 0) c : (⟨2, ![32, 5]⟩ : Shape).Idx))
            (fun n => u ((⟨1, ![32]⟩ : Shape).rowMajor.symm n))) x := by
    unfold Host.scatter
    congr 1
    funext r n
    rw [resultIdx?_column d hu hi hs hv c idx hidx]
    rfl
  rw [hfold]
  by_cases hk : k = c
  · subst hk
    rw [if_pos rfl]
    have hinj : Function.Injective
        (fun n => (ix2 (((⟨1, ![32]⟩ : Shape).rowMajor.symm n) 0) k : (⟨2, ![32, 5]⟩ : Shape).Idx)) := by
      intro n m e
      have h0 : ((⟨1, ![32]⟩ : Shape).rowMajor.symm n) 0 = ((⟨1, ![32]⟩ : Shape).rowMajor.symm m) 0 := congrFun e 0
      apply (⟨1, ![32]⟩ : Shape).rowMajor.symm.injective
      rw [eq_ix1 ((⟨1, ![32]⟩ : Shape).rowMajor.symm n), eq_ix1 ((⟨1, ![32]⟩ : Shape).rowMajor.symm m), h0]
    have := foldl_pointStep_of_mem f
      (fun n => (ix2 (((⟨1, ![32]⟩ : Shape).rowMajor.symm n) 0) k : (⟨2, ![32, 5]⟩ : Shape).Idx))
      (fun n => u ((⟨1, ![32]⟩ : Shape).rowMajor.symm n)) (List.finRange _) x
      ((List.nodup_finRange _).map hinj) ((⟨1, ![32]⟩ : Shape).rowMajor (ix1 b)) (List.mem_finRange _)
    simp only [Equiv.symm_apply_apply] at this
    exact this
  · rw [if_neg hk]
    apply foldl_pointStep_of_not_mem
    intro n _ e
    exact hk (congrFun e 1).symm

/-- The same read at an arbitrary index `i` of the operand, its coordinates compared as numbers. -/
theorem scatter_column_apply_idx (d : ScatterDims ⟨2, ![32, 5]⟩ ⟨1, ![1]⟩ ⟨1, ![32]⟩)
    (hu : d.updateWindowDims = [0]) (hi : d.insertedWindowDims = [1]) (hs : d.scatterDimsToOperandDims = [1])
    (hv : d.indexVectorDim = 0) (f : α → α → α) (x : (⟨2, ![32, 5]⟩ : Shape).Idx → α)
    (c : Fin 5) (idx : IVec ⟨1, ![1]⟩ 32) (hidx : ∀ k, idx k = BitVec.ofNat 32 c.val)
    (u : (⟨1, ![32]⟩ : Shape).Idx → α) (i : (⟨2, ![32, 5]⟩ : Shape).Idx) :
    Host.scatter d f x idx u i = if (i 1).val = c.val then f (x i) (u (ix1 (i 0))) else x i := by
  obtain ⟨b, k, rfl⟩ : ∃ (b : Fin 32) (k : Fin 5), i = ix2 b k := ⟨i 0, i 1, eq_ix2 i⟩
  show Host.scatter d f x idx u (ix2 b k) = if k.val = c.val then f (x (ix2 b k)) (u (ix1 b)) else x (ix2 b k)
  rw [scatter_column_apply d hu hi hs hv f x c idx hidx u b k]
  by_cases hk : k = c
  · rw [if_pos hk, if_pos (congrArg Fin.val hk)]
  · rw [if_neg hk, if_neg (fun e => hk (Fin.ext e))]

/-- `x.at[:, c].set(u)` — the scatter whose body returns the update: column `c` becomes `u`, the other columns
    stay. -/
theorem scatter_column_set_apply (d : ScatterDims ⟨2, ![32, 5]⟩ ⟨1, ![1]⟩ ⟨1, ![32]⟩)
    (hu : d.updateWindowDims = [0]) (hi : d.insertedWindowDims = [1]) (hs : d.scatterDimsToOperandDims = [1])
    (hv : d.indexVectorDim = 0) (x : (⟨2, ![32, 5]⟩ : Shape).Idx → α)
    (c : Fin 5) (idx : IVec ⟨1, ![1]⟩ 32) (hidx : ∀ k, idx k = BitVec.ofNat 32 c.val)
    (u : (⟨1, ![32]⟩ : Shape).Idx → α) (b : Fin 32) (k : Fin 5) :
    Host.scatter d (fun _ v => v) x idx u (ix2 b k) = if k = c then u (ix1 b) else x (ix2 b k) :=
  scatter_column_apply d hu hi hs hv (fun _ v => v) x c idx hidx u b k

/-- `x.at[:, c].add(u)` over the extended reals — the scatter whose body adds: column `c` becomes `x + u`, one
    addition per element, the other columns stay. -/
theorem scatter_column_add_apply {φ : FTy} (d : ScatterDims ⟨2, ![32, 5]⟩ ⟨1, ![1]⟩ ⟨1, ![32]⟩)
    (hu : d.updateWindowDims = [0]) (hi : d.insertedWindowDims = [1]) (hs : d.scatterDimsToOperandDims = [1])
    (hv : d.indexVectorDim = 0) (x : (⟨2, ![32, 5]⟩ : Shape).Idx → Ideal φ)
    (c : Fin 5) (idx : IVec ⟨1, ![1]⟩ 32) (hidx : ∀ k, idx k = BitVec.ofNat 32 c.val)
    (u : (⟨1, ![32]⟩ : Shape).Idx → Ideal φ) (b : Fin 32) (k : Fin 5) :
    Host.scatter d FloatOps.addf x idx u (ix2 b k) = if k = c then x (ix2 b k) + u (ix1 b) else x (ix2 b k) :=
  scatter_column_apply d hu hi hs hv FloatOps.addf x c idx hidx u b k

end Column

end Cert.Nhc
-- ==== Proof.RefStageD.lean ====
/-
  The reference's forces on the chain, read row by row.

  The forces array `[32, 5]` is the concatenation along the columns of a `[32, 1]` piece — the atoms' kinetic sum
  Σ p² / μ over the 131072 atoms and their three components, less `k · dof` — and a `[32, 4]` piece — the first four
  chain momenta squared over their masses, less `k`. Row `b` of it is the specification's `force` at the row's
  parameters, the row's momenta laid out flat (component `3 n + d` of atom `n`), and the row's chain momenta.
-/
import proofs.«156042_j46600395162250_1_alg».proof.ReferenceIdeal
import proofs.«156042_j46600395162250_1_alg».proof.Proof.SpecArr
import proofs.«156042_j46600395162250_1_alg».proof.Proof.LibNhcAlgebra
import Idealize.ShloMosaic.Lib.Pipeline.Value
import Idealize.ShloMosaic.Lib.IdealHost
import Idealize.ShloMosaic.Lib.ValueIdx

noncomputable section

namespace Cert.Nhc.Ref

open Idealize.ShloMosaic Idealize.ShloMosaic.ValueIdx Cert.ReferenceIdeal Cert.ReferenceIdeal.Facts₀

variable [Facts₀]

/-- The reference's kinetic sum of row `b` — the squares of the momenta over the masses, an atom's mass repeated for
    its three components, summed over atoms and components from the zero constant — is the specification's flat sum
    `kin` at the row's masses and momenta. -/
theorem kinArr_apply (mom : FVec Ideal ReferenceIdeal.S32x131072x3 .f32) (mas : FVec Ideal S32x131072 .f32) (kbt : FVec Ideal ReferenceIdeal.S32 .f32) (r masn : FVec Ideal S32x5 .f32) (b : Fin 32) :
    (Host.reduceAdd (Host.divf (mulf mom mom) (broadcastInDim ReferenceIdeal.S32x131072x3 ![0, 1, 2] bcast_S32x131072x1_S32x131072x3_0_1_2 (broadcastInDim S32x131072x1 ![0, 1] bcast_S32x131072_S32x131072x1_0_1 mas))) (constant ReferenceIdeal.S_ .f32 0x00000000#32) reducesTo_S32x131072x3_S32_d1_2 h_S_) (ix1 b)
      = kin { μ := fun j => mas (ix2 b (atomOf j)), M := fun k => masn (ix2 b k), k := kbt (ix1 b) }
          (fun j => mom (ix3 b (atomOf j) (compOf j))) := by
  rw [hostReduceAdd_atoms_zero_apply, kin_eq_atoms]
  refine Finset.sum_congr rfl fun n _ => Finset.sum_congr rfl fun d _ => ?_
  have e1 : broadcastInDim ReferenceIdeal.S32x131072x3 ![0, 1, 2] bcast_S32x131072x1_S32x131072x3_0_1_2
      (broadcastInDim S32x131072x1 ![0, 1] bcast_S32x131072_S32x131072x1_0_1 mas) (ix3 b n d) = mas (ix2 b n) := by
    rw [broadcastInDim_apply _ _ _ (ix3 b n d) (ix3 b n (0 : Fin 1))
      (fun a => by match a with | ⟨0, _⟩ => rfl | ⟨1, _⟩ => rfl | ⟨2, _⟩ => rfl)]
    exact broadcastInDim_apply _ _ _ (ix3 b n (0 : Fin 1)) (ix2 b n)
      (fun a => by match a with | ⟨0, _⟩ => rfl | ⟨1, _⟩ => rfl)
  rw [hostDivf_apply, mulf_apply, e1]
  show _ = Ideal.div (mom (ix3 b (atomOf (flat n d)) (compOf (flat n d))) * mom (ix3 b (atomOf (flat n d)) (compOf (flat n d))))
    (mas (ix2 b (atomOf (flat n d))))
  rw [atomOf_flat, compOf_flat]

/-- A row's temperature broadcast to a one-column array reads the row's temperature. -/
theorem bcast_col_apply (kbt : FVec Ideal ReferenceIdeal.S32 .f32) (b : Fin 32) (z : Fin 1) :
    broadcastInDim S32x1 ![0] bcast_S32_S32x1_0 kbt (ix2 b z) = kbt (ix1 b) :=
  broadcastInDim_apply _ _ _ (ix2 b z) (ix1 b) (fun a => by match a with | ⟨0, _⟩ => rfl)

/-- Column 0 of the forces array at row `b`: the kinetic sum less `k · dof`. -/
theorem force_row_zero (mom : FVec Ideal ReferenceIdeal.S32x131072x3 .f32) (mas : FVec Ideal S32x131072 .f32) (kbt : FVec Ideal ReferenceIdeal.S32 .f32) (r masn : FVec Ideal S32x5 .f32) (b : Fin 32) :
    (concatenate S32x5 1 [⟨S32x1, (broadcastInDim S32x1 ![0] bcast_S32_S32x1_0 (subf (Host.reduceAdd (Host.divf (mulf mom mom) (broadcastInDim ReferenceIdeal.S32x131072x3 ![0, 1, 2] bcast_S32x131072x1_S32x131072x3_0_1_2 (broadcastInDim S32x131072x1 ![0, 1] bcast_S32x131072_S32x131072x1_0_1 mas))) (constant ReferenceIdeal.S_ .f32 0x00000000#32) reducesTo_S32x131072x3_S32_d1_2 h_S_) (mulf kbt (broadcastInDim ReferenceIdeal.S32 ![] bcast_S_S32 (constant ReferenceIdeal.S_ .f32 0x48C00000#32)))))⟩, ⟨S32x4, (subf (extractStridedSlice S32x4 ![0, 0] (Host.divf (mulf r r) masn) slices_S32x5_S32x4_0_0) (broadcastInDim S32x4 ![0, 1] bcast_S32x1_S32x4_0_1 (broadcastInDim S32x1 ![0] bcast_S32_S32x1_0 kbt)))⟩] concatenates_S32x1_S32x4_S32x5_d1 : FVec Ideal S32x5 .f32) (ix2 b 0)
      = kin { μ := fun j => mas (ix2 b (atomOf j)), M := fun k => masn (ix2 b k), k := kbt (ix1 b) } (fun j => mom (ix3 b (atomOf j) (compOf j))) - kbt (ix1 b) * dof := by
  rw [concatenate_pair_apply_left (t := S32x5) (s₁ := S32x1) (s₂ := S32x4) (1 : Fin 2) _ _ concatenates_S32x1_S32x4_S32x5_d1 (ix2 b (0 : Fin 5)) rfl (ix2 b (0 : Fin 1) : S32x1.Idx)
    (fun a => by match a with | ⟨0, _⟩ => rfl | ⟨1, _⟩ => rfl)]
  rw [bcast_col_apply, subf_apply, kinArr_apply mom mas kbt r masn b, mulf_apply, broadcastInDim_scalar_apply, constant_apply]
  rfl

/-- Column `c + 1` of the forces array at row `b`: chain momentum `c` squared over its mass, less `k`. -/
theorem force_row_succ (mom : FVec Ideal ReferenceIdeal.S32x131072x3 .f32) (mas : FVec Ideal S32x131072 .f32) (kbt : FVec Ideal ReferenceIdeal.S32 .f32) (r masn : FVec Ideal S32x5 .f32) (b : Fin 32) (c : Fin 4) :
    (concatenate S32x5 1 [⟨S32x1, (broadcastInDim S32x1 ![0] bcast_S32_S32x1_0 (subf (Host.reduceAdd (Host.divf (mulf mom mom) (broadcastInDim ReferenceIdeal.S32x131072x3 ![0, 1, 2] bcast_S32x131072x1_S32x131072x3_0_1_2 (broadcastInDim S32x131072x1 ![0, 1] bcast_S32x131072_S32x131072x1_0_1 mas))) (constant ReferenceIdeal.S_ .f32 0x00000000#32) reducesTo_S32x131072x3_S32_d1_2 h_S_) (mulf kbt (broadcastInDim ReferenceIdeal.S32 ![] bcast_S_S32 (constant ReferenceIdeal.S_ .f32 0x48C00000#32)))))⟩, ⟨S32x4, (subf (extractStridedSlice S32x4 ![0, 0] (Host.divf (mulf r r) masn) slices_S32x5_S32x4_0_0) (broadcastInDim S32x4 ![0, 1] bcast_S32x1_S32x4_0_1 (broadcastInDim S32x1 ![0] bcast_S32_S32x1_0 kbt)))⟩] concatenates_S32x1_S32x4_S32x5_d1 : FVec Ideal S32x5 .f32) (ix2 b c.succ)
      = Ideal.div (r (ix2 b c.castSucc) * r (ix2 b c.castSucc)) (masn (ix2 b c.castSucc)) - kbt (ix1 b) := by
  rw [concatenate_pair_apply_right (t := S32x5) (s₁ := S32x1) (s₂ := S32x4) (1 : Fin 2) _ _ concatenates_S32x1_S32x4_S32x5_d1 (ix2 b c.succ) rfl rfl (ix2 b c : S32x4.Idx)
    (fun a ha => by
      match a with
      | ⟨0, _⟩ => rfl
      | ⟨1, _⟩ => exact absurd rfl ha)
    (Fin.val_succ c).symm]
  rw [subf_apply, extractStridedSlice_apply (s := S32x5) (t := S32x4) _ _ _ (ix2 b c : S32x4.Idx) (ix2 b c.castSucc : S32x5.Idx)
    (fun a => by
      match a with
      | ⟨0, _⟩ => exact (Nat.zero_add _).symm
      | ⟨1, _⟩ => exact (Nat.zero_add _).symm)]
  rw [hostDivf_apply, mulf_apply]
  rw [broadcastInDim_apply (s := S32x1) (t := S32x4) _ _ _ (ix2 b c : S32x4.Idx) (ix2 b (0 : Fin 1) : S32x1.Idx)
    (fun a => by match a with | ⟨0, _⟩ => rfl | ⟨1, _⟩ => rfl), bcast_col_apply]

/-- THE FORCES OF ROW `b`: the reference's forces array — the atoms' kinetic sum less `k · dof` in column 0, each chain
    momentum's `r² / M − k` in the column after its own — is, row by row, the specification's `force` at the row's
    parameters, momenta and chain momenta. -/
theorem force_row (mom : FVec Ideal ReferenceIdeal.S32x131072x3 .f32) (mas : FVec Ideal S32x131072 .f32) (kbt : FVec Ideal ReferenceIdeal.S32 .f32) (r masn : FVec Ideal S32x5 .f32) (b : Fin 32) :
    (fun k : Fin 5 => (concatenate S32x5 1 [⟨S32x1, (broadcastInDim S32x1 ![0] bcast_S32_S32x1_0 (subf (Host.reduceAdd (Host.divf (mulf mom mom) (broadcastInDim ReferenceIdeal.S32x131072x3 ![0, 1, 2] bcast_S32x131072x1_S32x131072x3_0_1_2 (broadcastInDim S32x131072x1 ![0, 1] bcast_S32x131072_S32x131072x1_0_1 mas))) (constant ReferenceIdeal.S_ .f32 0x00000000#32) reducesTo_S32x131072x3_S32_d1_2 h_S_) (mulf kbt (broadcastInDim ReferenceIdeal.S32 ![] bcast_S_S32 (constant ReferenceIdeal.S_ .f32 0x48C00000#32)))))⟩, ⟨S32x4, (subf (extractStridedSlice S32x4 ![0, 0] (Host.divf (mulf r r) masn) slices_S32x5_S32x4_0_0) (broadcastInDim S32x4 ![0, 1] bcast_S32x1_S32x4_0_1 (broadcastInDim S32x1 ![0] bcast_S32_S32x1_0 kbt)))⟩] concatenates_S32x1_S32x4_S32x5_d1 : FVec Ideal S32x5 .f32) (ix2 b k))
      = Cert.Nhc.force { μ := fun j => mas (ix2 b (atomOf j)), M := fun k => masn (ix2 b k), k := kbt (ix1 b) } (fun j => mom (ix3 b (atomOf j) (compOf j))) (fun k => r (ix2 b k)) := by
  funext k
  refine Fin.cases ?_ (fun c => ?_) k
  · rw [force_row_zero]
    rfl
  · rw [force_row_succ]
    unfold force
    rw [Matrix.cons_val_succ]
    fin_cases c <;> rfl

end Cert.Nhc.Ref

end
-- ==== Proof.RefValue.lean ====
/-
  The reference program's three results are the thermostat recurrence's arrays.

  The reference runs fourteen substeps over whole arrays: the momenta [32, 131072, 3], the chain positions and
  chain momenta [32, 5]. Each stage of a substep — the substep size, the chain forces, the kick of the last chain
  momentum, the damping factors, the column updates of a sweep, the scaling of the momenta, the drift of the chain
  positions — is written here as a function of arrays, spelled as the program spells it, and read at an index:
  row `b` of every stage is the recurrence's stage for batch entry `b` (Spec.lean), the 32 rows never mixing.
  So one substep of the arrays is, row by row, one `step`; fourteen of them, folded over the fourteen weight words,
  are the `run`; and the program's named intermediate results are these array substeps one after another: the
  momenta, the chain positions and the chain momenta a substep hands on are the array substep, at that substep's
  weight word, of the three the substep before hands on (the arguments, for the first).
-/
import proofs.«156042_j46600395162250_1_alg».proof.Proof.SpecArr
import proofs.«156042_j46600395162250_1_alg».proof.Proof.RefRunC
import proofs.«156042_j46600395162250_1_alg».proof.Proof.LibScatterColumn
import proofs.«156042_j46600395162250_1_alg».proof.Proof.RefStageD
import Idealize.ShloMosaic.Lib.IdealHost
import Idealize.ShloMosaic.Lib.Pipeline.Value
import Idealize.ShloMosaic.Lib.ValueIdx
import Idealize.ShloMosaic.Lib.ValueLayout

noncomputable section

namespace Cert.Nhc.Ref

open Idealize.ShloMosaic Idealize.ShloMosaic.ValueIdx Cert.ReferenceIdeal Facts₀

/-! ## The reference's stages as functions of arrays -/

abbrev V3 := FVec Ideal ReferenceIdeal.S32x131072x3 .f32
abbrev V2 := FVec Ideal S32x131072 .f32
abbrev V1 := FVec Ideal ReferenceIdeal.S32 .f32
abbrev V25 := FVec Ideal S32x5 .f32
abbrev Vs := FVec Ideal ReferenceIdeal.S_ .f32

/-- Column `c` of a [32, 5] array can be cut out as a [32, 1] slice. -/
theorem slicesCol (c : Fin 5) : S32x5.Slices ![0, c.val] S32x1 :=
  match c with
  | ⟨0, _⟩ => slices_S32x5_S32x1_0_0
  | ⟨1, _⟩ => slices_S32x5_S32x1_0_1
  | ⟨2, _⟩ => slices_S32x5_S32x1_0_2
  | ⟨3, _⟩ => slices_S32x5_S32x1_0_3
  | ⟨4, _⟩ => slices_S32x5_S32x1_0_4

/-- Column `c` of a [32, 5] array, as a [32] vector. -/
def col (c : Fin 5) (x : V25) : V1 :=
  shapeCast ReferenceIdeal.S32 (extractStridedSlice S32x1 ![0, c.val] x (slicesCol c)) shapeCasts_S32x1_S32

/-- The index vector naming column `c`. -/
def idxCol (c : Fin 5) : IVec S1 32 :=
  broadcastInDim S1 ![] bcast_S_S1 (constantI ReferenceIdeal.S_ 32 (BitVec.ofNat 32 c.val))

/-- The substep size: dt · (stp · w / 2). -/
def rDelta (dtm : V1) (stp : Vs) (w : BitVec 32) : V1 :=
  mulf dtm (broadcastInDim ReferenceIdeal.S32 ![] bcast_S_S32 (Host.divf (mulf stp (constant ReferenceIdeal.S_ .f32 w)) (constant ReferenceIdeal.S_ .f32 0x40000000#32)))

/-- δ / 2 and δ / 4. -/
def halfV (δ : V1) : V1 := Host.divf δ (broadcastInDim ReferenceIdeal.S32 ![] bcast_S_S32 (constant ReferenceIdeal.S_ .f32 0x40000000#32))
def quarterV (δ : V1) : V1 := Host.divf δ (broadcastInDim ReferenceIdeal.S32 ![] bcast_S_S32 (constant ReferenceIdeal.S_ .f32 0x40800000#32))

/-- The chain forces: the kinetic force beside the four chain forces. -/
def rForce (mom : V3) (mas : V2) (kbt : V1) (r masn : V25) : V25 :=
  concatenate S32x5 1 [⟨S32x1, (broadcastInDim S32x1 ![0] bcast_S32_S32x1_0 (subf (Host.reduceAdd (Host.divf (mulf mom mom) (broadcastInDim ReferenceIdeal.S32x131072x3 ![0, 1, 2] bcast_S32x131072x1_S32x131072x3_0_1_2 (broadcastInDim S32x131072x1 ![0, 1] bcast_S32x131072_S32x131072x1_0_1 mas))) (constant ReferenceIdeal.S_ .f32 0x00000000#32) reducesTo_S32x131072x3_S32_d1_2 h_S_) (mulf kbt (broadcastInDim ReferenceIdeal.S32 ![] bcast_S_S32 (constant ReferenceIdeal.S_ .f32 0x48C00000#32)))))⟩, ⟨S32x4, (subf (extractStridedSlice S32x4 ![0, 0] (Host.divf (mulf r r) masn) slices_S32x5_S32x4_0_0) (broadcastInDim S32x4 ![0, 1] bcast_S32x1_S32x4_0_1 (broadcastInDim S32x1 ![0] bcast_S32_S32x1_0 kbt)))⟩] concatenates_S32x1_S32x4_S32x5_d1

/-- The kick of the last chain momentum by its force over a half step. -/
def rKick (r g : V25) (δ : V1) : V25 :=
  Host.scatter scatter_S32x5_S1_S32_0_1_1_0 FloatOps.addf r (idxCol 4) (mulf (col 4 g) (halfV δ))

/-- The damping factor from chain momentum `c` over a quarter step. -/
def rDamp (c : Fin 5) (r masn : V25) (δ : V1) : V1 :=
  Host.exp (mulf (Host.divf (Host.negf (col c r)) (col c masn)) (quarterV δ))

/-- Column `c` damped, kicked over a half step, damped again. -/
def rSet (c : Fin 5) (r g : V25) (δ f : V1) : V25 :=
  Host.scatter scatter_S32x5_S1_S32_0_1_1_0 (fun _ b => b) r (idxCol c) (mulf (addf (mulf (col c r) f) (mulf (col c g) (halfV δ))) f)

/-- One sweep down the chain. -/
def rSweep (r g masn : V25) (δ : V1) : V25 :=
  let r3 := rSet 3 r g δ (rDamp 4 r masn δ)
  let r2 := rSet 2 r3 g δ (rDamp 3 r3 masn δ)
  let r1 := rSet 1 r2 g δ (rDamp 2 r2 masn δ)
  rSet 0 r1 g δ (rDamp 1 r1 masn δ)

/-- Every momentum scaled by the factor from chain momentum 0 over the whole substep. -/
def rScale (mom : V3) (mc masn : V25) (δ : V1) : V3 :=
  mulf mom (broadcastInDim ReferenceIdeal.S32x131072x3 ![0, 1, 2] bcast_S32x1x1_S32x131072x3_0_1_2 (broadcastInDim S32x1x1 ![0] bcast_S32_S32x1x1_0 (Host.exp (mulf (Host.divf (Host.negf (col 0 mc)) (col 0 masn)) δ))))

/-- The drift of the chain positions. -/
def rDrift (mc masn : V25) (δ : V1) : V25 :=
  mulf (Host.divf mc masn) (broadcastInDim S32x5 ![0, 1] bcast_S32x1_S32x5_0_1 (broadcastInDim S32x1 ![0] bcast_S32_S32x1_0 δ))

/-! ## The stages read at an index -/

/-- Column `c` read at row `b`. -/
theorem col_apply (c : Fin 5) (x : V25) (b : Fin 32) : col c x (ix1 b) = x (ix2 b c) := by
  unfold col
  rw [shapeCast_apply (k := ix2 b (0 : Fin 1)) _ _ _ (by
    rw [Shape.rowMajor_val_two, Shape.rowMajor_val_one]
    show b.val * 1 + 0 = b.val
    omega)]
  exact slice2_axis1_apply c.val x (slicesCol c) b (0 : Fin 1) c (by simp)

theorem bcastScalar_apply (x : Vs) (b : Fin 32) :
    broadcastInDim ReferenceIdeal.S32 ![] bcast_S_S32 x (ix1 b) = x ix0 :=
  broadcastInDim_scalar_apply _ _ _

theorem rDelta_apply (dtm : V1) (stp : Vs) (w : BitVec 32) (b : Fin 32) :
    rDelta dtm stp w (ix1 b)
      = dtm (ix1 b) * Ideal.div (stp ix0 * Ideal.ofBits .f32 w) (Ideal.ofBits .f32 0x40000000#32) := by
  unfold rDelta
  rw [mulf_apply, broadcastInDim_scalar_apply]
  rfl

theorem halfV_apply (δ : V1) (b : Fin 32) : halfV δ (ix1 b) = halfR (δ (ix1 b)) := by
  unfold halfV
  rw [hostDivf_apply, broadcastInDim_scalar_apply]
  rfl

theorem quarterV_apply (δ : V1) (b : Fin 32) : quarterV δ (ix1 b) = quarterR (δ (ix1 b)) := by
  unfold quarterV
  rw [hostDivf_apply, broadcastInDim_scalar_apply]
  rfl

theorem idxCol_apply (c : Fin 5) (k : S1.Idx) : idxCol c k = BitVec.ofNat 32 c.val := by
  unfold idxCol
  rw [broadcastInDim_scalar_apply]
  rfl

theorem rKick_apply (r g : V25) (δ : V1) (b : Fin 32) (k : Fin 5) :
    rKick r g δ (ix2 b k)
      = if k = 4 then r (ix2 b k) + g (ix2 b 4) * halfR (δ (ix1 b)) else r (ix2 b k) := by
  unfold rKick
  rw [scatter_column_add_apply _ rfl rfl rfl rfl r 4 (idxCol 4) (idxCol_apply 4)]
  show (if k = 4 then r (ix2 b k) + col 4 g (ix1 b) * halfV δ (ix1 b) else _) = _
  rw [col_apply, halfV_apply]

theorem rDamp_apply (c : Fin 5) (r masn : V25) (δ : V1) (b : Fin 32) :
    rDamp c r masn δ (ix1 b)
      = Ideal.exp (Ideal.div (-(r (ix2 b c))) (masn (ix2 b c)) * quarterR (δ (ix1 b))) := by
  show Ideal.exp (Ideal.div (-(col c r (ix1 b))) (col c masn (ix1 b)) * quarterV δ (ix1 b)) = _
  rw [col_apply, col_apply, quarterV_apply]

theorem rSet_apply (c : Fin 5) (r g : V25) (δ f : V1) (b : Fin 32) (k : Fin 5) :
    rSet c r g δ f (ix2 b k)
      = if k = c then (r (ix2 b c) * f (ix1 b) + g (ix2 b c) * halfR (δ (ix1 b))) * f (ix1 b)
        else r (ix2 b k) := by
  unfold rSet
  rw [scatter_column_set_apply _ rfl rfl rfl rfl r c (idxCol c) (idxCol_apply c)]
  show (if k = c then (col c r (ix1 b) * f (ix1 b) + col c g (ix1 b) * halfV δ (ix1 b)) * f (ix1 b) else _) = _
  rw [col_apply, col_apply, halfV_apply]

theorem rScale_apply (mom : V3) (mc masn : V25) (δ : V1) (b : Fin 32) (n : Fin 131072) (d : Fin 3) :
    rScale mom mc masn δ (ix3 b n d)
      = mom (ix3 b n d) * Ideal.exp (Ideal.div (-(mc (ix2 b 0))) (masn (ix2 b 0)) * δ (ix1 b)) := by
  unfold rScale
  rw [mulf_apply,
    broadcastInDim_apply _ _ _ (ix3 b n d) (ix3 b (0 : Fin 1) (0 : Fin 1)) (fun a => by
      match a with
      | ⟨0, _⟩ => rfl
      | ⟨1, _⟩ => rfl
      | ⟨2, _⟩ => rfl),
    broadcastInDim_apply _ _ _ (ix3 b (0 : Fin 1) (0 : Fin 1)) (ix1 b) (fun a => by
      match a with
      | ⟨0, _⟩ => rfl)]
  show _ * Ideal.exp (Ideal.div (-(col 0 mc (ix1 b))) (col 0 masn (ix1 b)) * δ (ix1 b)) = _
  rw [col_apply, col_apply]

theorem rDrift_apply (mc masn : V25) (δ : V1) (b : Fin 32) (k : Fin 5) :
    rDrift mc masn δ (ix2 b k) = Ideal.div (mc (ix2 b k)) (masn (ix2 b k)) * δ (ix1 b) := by
  unfold rDrift
  rw [mulf_apply, hostDivf_apply,
    broadcastInDim_apply _ _ _ (ix2 b k) (ix2 b (0 : Fin 1)) (fun a => by
      match a with
      | ⟨0, _⟩ => rfl
      | ⟨1, _⟩ => rfl),
    broadcastInDim_apply _ _ _ (ix2 b (0 : Fin 1)) (ix1 b) (fun a => by
      match a with
      | ⟨0, _⟩ => rfl)]

/-! ## Rows: batch entry `b`'s part of an array -/

/-- Row `b` of a [32, 5] array. -/
def row (x : V25) (b : Fin 32) : Fin 5 → EReal := fun k => x (ix2 b k)
/-- Row `b` of the momenta, laid out flat. -/
def rowp (mom : V3) (b : Fin 32) : Fin ND → EReal := fun j => mom (ix3 b (atomOf j) (compOf j))
/-- Batch entry `b`'s parameters, from the arrays. -/
def parOf (mas : V2) (kbt : V1) (masn : V25) (b : Fin 32) : Par :=
  { μ := fun j => mas (ix2 b (atomOf j)), M := fun k => masn (ix2 b k), k := kbt (ix1 b) }

theorem rKick_row (r g : V25) (δ : V1) (b : Fin 32) :
    row (rKick r g δ) b = Function.update (row r b) 4 (row r b 4 + row g b 4 * halfR (δ (ix1 b))) := by
  funext k
  show rKick r g δ (ix2 b k) = _
  rw [rKick_apply, Function.update_apply]
  by_cases hk : k = 4
  · rw [if_pos hk, if_pos hk, hk]; rfl
  · rw [if_neg hk, if_neg hk]; rfl

theorem rScale_rowp (mom : V3) (mc masn : V25) (δ : V1) (b : Fin 32) :
    rowp (rScale mom mc masn δ) b
      = fun j => rowp mom b j * Ideal.exp (Ideal.div (-(row mc b 0)) (row masn b 0) * δ (ix1 b)) := by
  funext j
  exact rScale_apply mom mc masn δ b (atomOf j) (compOf j)

theorem rSweep_row (r g masn : V25) (δ : V1) (mas : V2) (kbt : V1) (b : Fin 32) :
    row (rSweep r g masn δ) b
      = sweep (parOf mas kbt masn b) (halfR (δ (ix1 b))) (quarterR (δ (ix1 b))) (row r b) (row g b) := by
  funext k
  match k with
  | 0 => simp only [row, rSweep, rSet_apply, rDamp_apply, Fin.reduceEq, ↓reduceIte, Fin.isValue]; rfl
  | 1 => simp only [row, rSweep, rSet_apply, rDamp_apply, Fin.reduceEq, ↓reduceIte, Fin.isValue]; rfl
  | 2 => simp only [row, rSweep, rSet_apply, rDamp_apply, Fin.reduceEq, ↓reduceIte, Fin.isValue]; rfl
  | 3 => simp only [row, rSweep, rSet_apply, rDamp_apply, Fin.reduceEq, ↓reduceIte, Fin.isValue]; rfl
  | 4 => simp only [row, rSweep, rSet_apply, rDamp_apply, Fin.reduceEq, ↓reduceIte, Fin.isValue]; rfl

/-! ## One substep over the arrays -/

/-- The chain forces of row `b` are the recurrence's. -/
theorem rForce_row (mom : V3) (mas : V2) (kbt : V1) (r masn : V25) (b : Fin 32) :
    row (rForce mom mas kbt r masn) b = force (parOf mas kbt masn b) (rowp mom b) (row r b) :=
  force_row mom mas kbt r masn b

def sDelta (a : Args) (w : BitVec 32) : V1 := rDelta a.dtm a.stp w
def sForce (a : Args) (mom : V3) (r : V25) : V25 := rForce mom a.mas a.kbt r a.masn
def sMc (a : Args) (w : BitVec 32) (mom : V3) (r : V25) : V25 :=
  rSweep (rKick r (sForce a mom r) (sDelta a w)) (sForce a mom r) a.masn (sDelta a w)
def sMom (a : Args) (w : BitVec 32) (mom : V3) (r : V25) : V3 :=
  rScale mom (sMc a w mom r) a.masn (sDelta a w)
def sChain (a : Args) (w : BitVec 32) (mom : V3) (r : V25) : V25 :=
  rKick (rSweep (sMc a w mom r) (sForce a (sMom a w mom r) r) a.masn (sDelta a w))
    (sForce a (sMom a w mom r) r) (sDelta a w)
def sDrift (a : Args) (w : BitVec 32) (mom : V3) (r : V25) : V25 :=
  rDrift (sMc a w mom r) a.masn (sDelta a w)

/-- The size of the substep of weight word `w` for batch entry `b`. -/
def dl (a : Args) (w : BitVec 32) (b : Fin 32) : EReal :=
  a.dtm (ix1 b) * Ideal.div (a.stp ix0 * Ideal.ofBits .f32 w) (Ideal.ofBits .f32 0x40000000#32)

/-- One substep of the arrays is, row by row, one substep of the recurrence. -/
theorem substep_row (a : Args) (w : BitVec 32) (mom : V3) (r : V25) (b : Fin 32) (q : Fin 5 → EReal) :
    step (a.par b) (dl a w b) (halfR (dl a w b)) (quarterR (dl a w b)) ⟨rowp mom b, q, row r b⟩
      = ⟨rowp (sMom a w mom r) b, fun k => q k + sDrift a w mom r (ix2 b k), row (sChain a w mom r) b⟩ := by
  have hδ : sDelta a w (ix1 b) = dl a w b := rDelta_apply _ _ _ _
  have hg : ∀ m : V3, row (sForce a m r) b = force (a.par b) (rowp m b) (row r b) :=
    fun m => rForce_row m a.mas a.kbt r a.masn b
  have hmc : row (sMc a w mom r) b
      = half1 (a.par b) (halfR (dl a w b)) (quarterR (dl a w b)) ⟨rowp mom b, q, row r b⟩ := by
    unfold sMc
    rw [rSweep_row _ _ _ _ a.mas a.kbt, rKick_row, hg, hδ]
    rfl
  have hp : rowp (sMom a w mom r) b
      = (step (a.par b) (dl a w b) (halfR (dl a w b)) (quarterR (dl a w b)) ⟨rowp mom b, q, row r b⟩).p := by
    unfold sMom
    rw [rScale_rowp, hmc, hδ]
    rfl
  have hr : row (sChain a w mom r) b
      = (step (a.par b) (dl a w b) (halfR (dl a w b)) (quarterR (dl a w b)) ⟨rowp mom b, q, row r b⟩).r := by
    unfold sChain
    rw [rKick_row, rSweep_row _ _ _ _ a.mas a.kbt, hg, hmc, hp, hδ]
    rfl
  have hq : (fun k => q k + sDrift a w mom r (ix2 b k))
      = (step (a.par b) (dl a w b) (halfR (dl a w b)) (quarterR (dl a w b)) ⟨rowp mom b, q, row r b⟩).q := by
    funext k
    unfold sDrift
    rw [rDrift_apply, hδ]
    show _ = q k + Ideal.div (half1 (a.par b) (halfR (dl a w b)) (quarterR (dl a w b)) ⟨rowp mom b, q, row r b⟩ k) (a.masn (ix2 b k)) * dl a w b
    rw [← hmc]
    rfl
  rw [hp, hr, hq]

/-! ## The fourteen substeps -/

/-- The fourteen weight words, in order. -/
def wts : List (BitVec 32) :=
  [0x3F48D5E2#32, 0x3E713A1B#32, 0xBF96BE38#32, 0x3FA85806#32, 0xBF96BE38#32, 0x3E713A1B#32, 0x3F48D5E2#32,
   0x3F48D5E2#32, 0x3E713A1B#32, 0xBF96BE38#32, 0x3FA85806#32, 0xBF96BE38#32, 0x3E713A1B#32, 0x3F48D5E2#32]

/-- One substep of the three arrays a substep hands on: the momenta, the chain positions, the chain momenta. -/
def aStep (a : Args) (x : V3 × V25 × V25) (w : BitVec 32) : V3 × V25 × V25 :=
  (sMom a w x.1 x.2.2, addf x.2.1 (sDrift a w x.1 x.2.2), sChain a w x.1 x.2.2)

/-- Batch entry `b`'s state, read off the three arrays. -/
def stOf (x : V3 × V25 × V25) (b : Fin 32) : St := ⟨rowp x.1 b, row x.2.1 b, row x.2.2 b⟩

theorem aStep_row (a : Args) (x : V3 × V25 × V25) (w : BitVec 32) (b : Fin 32) :
    step (a.par b) (dl a w b) (halfR (dl a w b)) (quarterR (dl a w b)) (stOf x b) = stOf (aStep a x w) b :=
  substep_row a w x.1 x.2.2 b (row x.2.1 b)

theorem foldl_row (a : Args) (b : Fin 32) (ws : List (BitVec 32)) : ∀ x : V3 × V25 × V25,
    (ws.map (fun w => dl a w b)).foldl (fun s δ => step (a.par b) δ (halfR δ) (quarterR δ) s) (stOf x b)
      = stOf (ws.foldl (aStep a) x) b := by
  induction ws with
  | nil => intro x; rfl
  | cons w ws ih =>
    intro x
    rw [List.map_cons, List.foldl_cons, List.foldl_cons, aStep_row]
    exact ih _

/-- The substep sizes of batch entry `b`, in order, are those of the fourteen weight words. -/
theorem deltas_list (a : Args) (b : Fin 32) :
    (List.finRange 14).map (a.deltas b) = wts.map (fun w => dl a w b) := by
  rfl

/-- Batch entry `b`'s state after the run, read off the arrays after fourteen array substeps. -/
theorem fin_eq (a : Args) (b : Fin 32) :
    a.fin halfR quarterR b = stOf (wts.foldl (aStep a) (a.mom, a.posn, a.momn)) b := by
  rw [← foldl_row a b wts, ← deltas_list, List.foldl_map]
  rfl

/-! ## The reference's run -/

open Idealize.SL.Sem Idealize.ShloMosaic.TcCoe Cert.ReferenceIdeal.Value

/-- The reference's arguments as the recurrence's. -/
def argsOf (V0 : Valuation τ sig (Elt Ideal)) : Cert.Nhc.Args :=
  { mom := V0 (Proc.devRef .tc main_arg1), mas := V0 (Proc.devRef .tc main_arg2), kbt := V0 (Proc.devRef .tc main_arg3),
    dtm := V0 (Proc.devRef .tc main_arg4), posn := V0 (Proc.devRef .tc main_arg5), momn := V0 (Proc.devRef .tc main_arg6),
    masn := V0 (Proc.devRef .tc main_arg7), stp := V0 (Proc.devRef .tc main_arg8) }

/-- Substep 1 of the arrays, by the names the run gives its results. -/
theorem link1 (V0 : Valuation τ sig (Elt Ideal)) :
    aStep (argsOf V0) (((argsOf V0).mom : V3), ((argsOf V0).posn : V25), ((argsOf V0).momn : V25)) 0x3F48D5E2#32
      = ((res_main_v130 V0 : V3), (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0)))) : V25), (res_main_v241 V0 : V25)) := rfl

/-- Substep 2 of the arrays, by the names the run gives its results. -/
theorem link2 (V0 : Valuation τ sig (Elt Ideal)) :
    aStep (argsOf V0) ((res_main_v130 V0 : V3), (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0)))) : V25), (res_main_v241 V0 : V25)) 0x3E713A1B#32
      = ((res_main_v372 V0 : V3), (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0)))) : V25), (res_main_v483 V0 : V25)) := rfl

/-- Substep 3 of the arrays, by the names the run gives its results. -/
theorem link3 (V0 : Valuation τ sig (Elt Ideal)) :
    aStep (argsOf V0) ((res_main_v372 V0 : V3), (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0)))) : V25), (res_main_v483 V0 : V25)) 0xBF96BE38#32
      = ((res_main_v614 V0 : V3), (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0)))) : V25), (res_main_v725 V0 : V25)) := rfl

/-- Substep 4 of the arrays, by the names the run gives its results. -/
theorem link4 (V0 : Valuation τ sig (Elt Ideal)) :
    aStep (argsOf V0) ((res_main_v614 V0 : V3), (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0)))) : V25), (res_main_v725 V0 : V25)) 0x3FA85806#32
      = ((res_main_v856 V0 : V3), (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0)))) : V25), (res_main_v967 V0 : V25)) := rfl

/-- Substep 5 of the arrays, by the names the run gives its results. -/
theorem link5 (V0 : Valuation τ sig (Elt Ideal)) :
    aStep (argsOf V0) ((res_main_v856 V0 : V3), (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0)))) : V25), (res_main_v967 V0 : V25)) 0xBF96BE38#32
      = ((res_main_v1098 V0 : V3), (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0)))) : V25), (res_main_v1209 V0 : V25)) := rfl

/-- Substep 6 of the arrays, by the names the run gives its results. -/
theorem link6 (V0 : Valuation τ sig (Elt Ideal)) :
    aStep (argsOf V0) ((res_main_v1098 V0 : V3), (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0)))) : V25), (res_main_v1209 V0 : V25)) 0x3E713A1B#32
      = ((res_main_v1340 V0 : V3), (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0)))) : V25), (res_main_v1451 V0 : V25)) := rfl

/-- Substep 7 of the arrays, by the names the run gives its results. -/
theorem link7 (V0 : Valuation τ sig (Elt Ideal)) :
    aStep (argsOf V0) ((res_main_v1340 V0 : V3), (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0)))) : V25), (res_main_v1451 V0 : V25)) 0x3F48D5E2#32
      = ((res_main_v1582 V0 : V3), (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0)))) : V25), (res_main_v1693 V0 : V25)) := rfl

/-- Substep 8 of the arrays, by the names the run gives its results. -/
theorem link8 (V0 : Valuation τ sig (Elt Ideal)) :
    aStep (argsOf V0) ((res_main_v1582 V0 : V3), (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0)))) : V25), (res_main_v1693 V0 : V25)) 0x3F48D5E2#32
      = ((res_main_v1824 V0 : V3), (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0)))) : V25), (res_main_v1935 V0 : V25)) := rfl

/-- Substep 9 of the arrays, by the names the run gives its results. -/
theorem link9 (V0 : Valuation τ sig (Elt Ideal)) :
    aStep (argsOf V0) ((res_main_v1824 V0 : V3), (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0)))) : V25), (res_main_v1935 V0 : V25)) 0x3E713A1B#32
      = ((res_main_v2066 V0 : V3), (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0)))) : V25), (res_main_v2177 V0 : V25)) := rfl

/-- Substep 10 of the arrays, by the names the run gives its results. -/
theorem link10 (V0 : Valuation τ sig (Elt Ideal)) :
    aStep (argsOf V0) ((res_main_v2066 V0 : V3), (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0)))) : V25), (res_main_v2177 V0 : V25)) 0xBF96BE38#32
      = ((res_main_v2308 V0 : V3), (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0)))) : V25), (res_main_v2419 V0 : V25)) := rfl

/-- Substep 11 of the arrays, by the names the run gives its results. -/
theorem link11 (V0 : Valuation τ sig (Elt Ideal)) :
    aStep (argsOf V0) ((res_main_v2308 V0 : V3), (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0)))) : V25), (res_main_v2419 V0 : V25)) 0x3FA85806#32
      = ((res_main_v2550 V0 : V3), (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0)))) : V25), (res_main_v2661 V0 : V25)) := rfl

/-- Substep 12 of the arrays, by the names the run gives its results. -/
theorem link12 (V0 : Valuation τ sig (Elt Ideal)) :
    aStep (argsOf V0) ((res_main_v2550 V0 : V3), (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0)))) : V25), (res_main_v2661 V0 : V25)) 0xBF96BE38#32
      = ((res_main_v2792 V0 : V3), (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0)))) : V25), (res_main_v2903 V0 : V25)) := rfl

/-- Substep 13 of the arrays, by the names the run gives its results. -/
theorem link13 (V0 : Valuation τ sig (Elt Ideal)) :
    aStep (argsOf V0) ((res_main_v2792 V0 : V3), (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0)))) : V25), (res_main_v2903 V0 : V25)) 0x3E713A1B#32
      = ((res_main_v3034 V0 : V3), (addf (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))) (mulf (Host.divf (res_main_v3018 V0) (V0 (Proc.devRef .tc main_arg7))) (broadcastInDim S32x5 ![0, 1] bcast_S32x1_S32x5_0_1 (broadcastInDim S32x1 ![0] bcast_S32_S32x1_0 (res_main_v2907 V0)))) : V25), (res_main_v3145 V0 : V25)) := rfl

/-- Substep 14 of the arrays, by the names the run gives its results. -/
theorem link14 (V0 : Valuation τ sig (Elt Ideal)) :
    aStep (argsOf V0) ((res_main_v3034 V0 : V3), (addf (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))) (mulf (Host.divf (res_main_v3018 V0) (V0 (Proc.devRef .tc main_arg7))) (broadcastInDim S32x5 ![0, 1] bcast_S32x1_S32x5_0_1 (broadcastInDim S32x1 ![0] bcast_S32_S32x1_0 (res_main_v2907 V0)))) : V25), (res_main_v3145 V0 : V25)) 0x3F48D5E2#32
      = ((res_main_v3276 V0 : V3), (addf (addf (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))) (mulf (Host.divf (res_main_v3018 V0) (V0 (Proc.devRef .tc main_arg7))) (broadcastInDim S32x5 ![0, 1] bcast_S32x1_S32x5_0_1 (broadcastInDim S32x1 ![0] bcast_S32_S32x1_0 (res_main_v2907 V0))))) (mulf (Host.divf (res_main_v3260 V0) (V0 (Proc.devRef .tc main_arg7))) (broadcastInDim S32x5 ![0, 1] bcast_S32x1_S32x5_0_1 (broadcastInDim S32x1 ![0] bcast_S32_S32x1_0 (res_main_v3149 V0)))) : V25), (Host.scatter scatter_S32x5_S1_S32_0_1_1_0 FloatOps.addf (Host.scatter scatter_S32x5_S1_S32_0_1_1_0 (fun _ b => b) (res_main_v3358 V0) (broadcastInDim S1 ![] bcast_S_S1 (constantI ReferenceIdeal.S_ 32 0#32)) (mulf (addf (mulf (shapeCast _ (extractStridedSlice S32x1 ![0, 0] (res_main_v3358 V0) slices_S32x5_S32x1_0_0) shapeCasts_S32x1_S32) (res_main_v3368 V0)) (mulf (shapeCast _ (extractStridedSlice S32x1 ![0, 0] (res_main_v3292 V0) slices_S32x5_S32x1_0_0) shapeCasts_S32x1_S32) (Host.divf (res_main_v3149 V0) (broadcastInDim ReferenceIdeal.S32 ![] bcast_S_S32 (constant ReferenceIdeal.S_ .f32 0x40000000#32))))) (res_main_v3368 V0))) (broadcastInDim S1 ![] bcast_S_S1 (constantI ReferenceIdeal.S_ 32 4#32)) (mulf (shapeCast _ (extractStridedSlice S32x1 ![0, 4] (res_main_v3292 V0) slices_S32x5_S32x1_0_4) shapeCasts_S32x1_S32) (Host.divf (res_main_v3149 V0) (broadcastInDim ReferenceIdeal.S32 ![] bcast_S_S32 (constant ReferenceIdeal.S_ .f32 0x40000000#32)))) : V25)) := rfl

/-- The arrays after the fourteen substeps, by the names the run gives them. -/
theorem links (V0 : Valuation τ sig (Elt Ideal)) :
    wts.foldl (aStep (argsOf V0)) ((argsOf V0).mom, (argsOf V0).posn, (argsOf V0).momn)
      = ((res_main_v3276 V0 : V3), (addf (addf (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))) (mulf (Host.divf (res_main_v3018 V0) (V0 (Proc.devRef .tc main_arg7))) (broadcastInDim S32x5 ![0, 1] bcast_S32x1_S32x5_0_1 (broadcastInDim S32x1 ![0] bcast_S32_S32x1_0 (res_main_v2907 V0))))) (mulf (Host.divf (res_main_v3260 V0) (V0 (Proc.devRef .tc main_arg7))) (broadcastInDim S32x5 ![0, 1] bcast_S32x1_S32x5_0_1 (broadcastInDim S32x1 ![0] bcast_S32_S32x1_0 (res_main_v3149 V0)))) : V25), (Host.scatter scatter_S32x5_S1_S32_0_1_1_0 FloatOps.addf (Host.scatter scatter_S32x5_S1_S32_0_1_1_0 (fun _ b => b) (res_main_v3358 V0) (broadcastInDim S1 ![] bcast_S_S1 (constantI ReferenceIdeal.S_ 32 0#32)) (mulf (addf (mulf (shapeCast _ (extractStridedSlice S32x1 ![0, 0] (res_main_v3358 V0) slices_S32x5_S32x1_0_0) shapeCasts_S32x1_S32) (res_main_v3368 V0)) (mulf (shapeCast _ (extractStridedSlice S32x1 ![0, 0] (res_main_v3292 V0) slices_S32x5_S32x1_0_0) shapeCasts_S32x1_S32) (Host.divf (res_main_v3149 V0) (broadcastInDim ReferenceIdeal.S32 ![] bcast_S_S32 (constant ReferenceIdeal.S_ .f32 0x40000000#32))))) (res_main_v3368 V0))) (broadcastInDim S1 ![] bcast_S_S1 (constantI ReferenceIdeal.S_ 32 4#32)) (mulf (shapeCast _ (extractStridedSlice S32x1 ![0, 4] (res_main_v3292 V0) slices_S32x5_S32x1_0_4) shapeCasts_S32x1_S32) (Host.divf (res_main_v3149 V0) (broadcastInDim ReferenceIdeal.S32 ![] bcast_S_S32 (constant ReferenceIdeal.S_ .f32 0x40000000#32)))) : V25)) := by
  simp only [wts, List.foldl_cons, List.foldl_nil]
  rw [link1, link2, link3, link4, link5, link6, link7, link8, link9, link10, link11, link12, link13, link14]

/-- The momenta the reference returns are the recurrence's after the run. -/
theorem out0_eq (V0 : Valuation τ sig (Elt Ideal)) :
    res_main_v3276 (F := Ideal) V0 = Gp (argsOf V0) halfR quarterR := by
  refine funext fun (i : ReferenceIdeal.S32x131072x3.Idx) => ?_
  obtain ⟨b, n, d, rfl⟩ : ∃ (b : Fin 32) (n : Fin 131072) (d : Fin 3), i = ix3 b n d :=
    ⟨i 0, i 1, i 2, eq_ix3 i⟩
  have h := congrArg (fun s : St => s.p (flat n d)) (fin_eq (argsOf V0) b)
  rw [links] at h
  have e : ix3 b (atomOf (flat n d)) (compOf (flat n d)) = ix3 b n d := by
    rw [atomOf_flat, compOf_flat]
  exact (congrArg (res_main_v3276 V0 : V3) e).symm.trans h.symm

/-- The chain positions the reference returns are the recurrence's after the run. -/
theorem out1_eq (V0 : Valuation τ sig (Elt Ideal)) :
    (addf (addf (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))) (mulf (Host.divf (res_main_v3018 V0) (V0 (Proc.devRef .tc main_arg7))) (broadcastInDim S32x5 ![0, 1] bcast_S32x1_S32x5_0_1 (broadcastInDim S32x1 ![0] bcast_S32_S32x1_0 (res_main_v2907 V0))))) (mulf (Host.divf (res_main_v3260 V0) (V0 (Proc.devRef .tc main_arg7))) (broadcastInDim S32x5 ![0, 1] bcast_S32x1_S32x5_0_1 (broadcastInDim S32x1 ![0] bcast_S32_S32x1_0 (res_main_v3149 V0)))) : V25) = Gq (argsOf V0) halfR quarterR := by
  refine funext fun (i : S32x5.Idx) => ?_
  have h := congrArg (fun s : St => s.q (i 1)) (fin_eq (argsOf V0) (i 0))
  rw [links] at h
  exact (congrArg _ (eq_ix2 i)).trans h.symm

/-- The chain momenta the reference returns are the recurrence's after the run. -/
theorem out2_eq (V0 : Valuation τ sig (Elt Ideal)) :
    (Host.scatter scatter_S32x5_S1_S32_0_1_1_0 FloatOps.addf (Host.scatter scatter_S32x5_S1_S32_0_1_1_0 (fun _ b => b) (res_main_v3358 V0) (broadcastInDim S1 ![] bcast_S_S1 (constantI ReferenceIdeal.S_ 32 0#32)) (mulf (addf (mulf (shapeCast _ (extractStridedSlice S32x1 ![0, 0] (res_main_v3358 V0) slices_S32x5_S32x1_0_0) shapeCasts_S32x1_S32) (res_main_v3368 V0)) (mulf (shapeCast _ (extractStridedSlice S32x1 ![0, 0] (res_main_v3292 V0) slices_S32x5_S32x1_0_0) shapeCasts_S32x1_S32) (Host.divf (res_main_v3149 V0) (broadcastInDim ReferenceIdeal.S32 ![] bcast_S_S32 (constant ReferenceIdeal.S_ .f32 0x40000000#32))))) (res_main_v3368 V0))) (broadcastInDim S1 ![] bcast_S_S1 (constantI ReferenceIdeal.S_ 32 4#32)) (mulf (shapeCast _ (extractStridedSlice S32x1 ![0, 4] (res_main_v3292 V0) slices_S32x5_S32x1_0_4) shapeCasts_S32x1_S32) (Host.divf (res_main_v3149 V0) (broadcastInDim ReferenceIdeal.S32 ![] bcast_S_S32 (constant ReferenceIdeal.S_ .f32 0x40000000#32)))) : V25) = Gr (argsOf V0) halfR quarterR := by
  refine funext fun (i : S32x5.Idx) => ?_
  have h := congrArg (fun s : St => s.r (i 1)) (fin_eq (argsOf V0) (i 0))
  rw [links] at h
  exact (congrArg _ (eq_ix2 i)).trans h.symm

end Cert.Nhc.Ref

end
-- ==== Proof.Claims.lean ====
/-
  The five claims, assembled.

  The two kernels' frames: the launch of the one region over the body's triple. The reference's frame: its run with
  the results dropped. The idealization rewrote nothing, so it preserves trivially. The algebraic claim: the
  idealized kernel ends with every batch entry's state after the fourteen substeps, halves and quarters of a substep
  formed as products with 0.5 and 0.25; the reference ends with the same, formed as quotients by 2 and 4; on the
  extended reals those are the same numbers, and the two programs read the same arguments.
-/
import proofs.«156042_j46600395162250_1_alg».proof.Defs
import proofs.«156042_j46600395162250_1_alg».proof.Proof.KFrame
import proofs.«156042_j46600395162250_1_alg».proof.Proof.KBody
import proofs.«156042_j46600395162250_1_alg».proof.Proof.KIBody
import proofs.«156042_j46600395162250_1_alg».proof.Proof.KIValueC
import proofs.«156042_j46600395162250_1_alg».proof.Proof.KIVals
import proofs.«156042_j46600395162250_1_alg».proof.Proof.KIBlockVals
import proofs.«156042_j46600395162250_1_alg».proof.Proof.RefValue
import proofs.«156042_j46600395162250_1_alg».proof.Proof.LibNhcAlgebra
import proofs.«156042_j46600395162250_1_alg».proof.Proof.Gen.Kernel
import proofs.«156042_j46600395162250_1_alg».proof.Proof.Gen.KernelIdeal
import proofs.«156042_j46600395162250_1_alg».proof.Proof.Gen.ReferenceIdeal
import proofs.«156042_j46600395162250_1_alg».proof.Proof.RefRun10
import proofs.«156042_j46600395162250_1_alg».proof.Proof.Gen.Pre_finite_inputs

set_option maxRecDepth 16384

noncomputable section

namespace Cert.Proof.NhcClaims

open Idealize.ShloMosaic Idealize.ShloMosaic.TcCoe Idealize.ShloMosaic.ValueIdx Idealize.SL.Sem
open Cert.Nhc (Args Gp Gq Gr halfK quarterK halfR quarterR)

theorem frame_k : Cert.frame_Kernel := fun m ρ _ =>
  Cert.Kernel.Fr.frame m ρ Cert.Kernel.Fr.out7 Cert.Kernel.Fr.out8 Cert.Kernel.Fr.out9 Cert.Kernel.Fr.sound_kernel

theorem frame_ki : Cert.frame_KernelIdeal := fun m ρ _ =>
  Cert.KernelIdeal.Fr.frame m ρ Cert.KernelIdeal.Fr.out7 Cert.KernelIdeal.Fr.out8 Cert.KernelIdeal.Fr.out9 Cert.KernelIdeal.Fr.sound_kernel

theorem frame_r : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The two programs' arguments, as launched, are the same arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.Nhc.Ref.argsOf (StableHlo.launchContents m' c) = Cert.KernelIdeal.Fr.argsK m c := by
  obtain ⟨h0, h1, h2, h3, h4, h5, h6, h7, h8⟩ := h
  exact congr (congr (congr (congr (congr (congr (congr (congrArg Cert.Nhc.Args.mk h1) h2) h3) h4) h5) h6) h7) h8

theorem algebraic : Cert.algebraic_KernelIdeal_ReferenceIdeal := by
  intro m ρ m' ρ' _ hagree
  refine ⟨fun c => Gp (Cert.KernelIdeal.Fr.argsK m c) halfK quarterK, fun c => Gq (Cert.KernelIdeal.Fr.argsK m c) halfK quarterK,
    fun c => Gr (Cert.KernelIdeal.Fr.argsK m c) halfK quarterK,
    Cert.KernelIdeal.Fr.kernel_run m ρ _ _ _ (Cert.KernelIdeal.Fr.hostVals m) Cert.KernelIdeal.Fr.blockVals (Cert.KernelIdeal.Fr.tailVals m _) Cert.KernelIdeal.Fr.sound_kernel, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.Nhc.Ref.out0_eq, args_eq m m' c (hagree c), Cert.Nhc.halfK_eq_halfR, Cert.Nhc.quarterK_eq_quarterR]
  · rw [Cert.Nhc.Ref.out1_eq, args_eq m m' c (hagree c), Cert.Nhc.halfK_eq_halfR, Cert.Nhc.quarterK_eq_quarterR]
  · rw [Cert.Nhc.Ref.out2_eq, args_eq m m' c (hagree c), Cert.Nhc.halfK_eq_halfR, Cert.Nhc.quarterK_eq_quarterR]

end Cert.Proof.NhcClaims

end
-- ==== Proof.lean ====
/-
  The certificate of a Nose–Hoover-chain thermostat kernel against its plain reference.

  Both programs advance 32 independent batch entries — the momenta of 131072 atoms and a thermostat chain of length
  five each — through fourteen substeps of the chain's integrator. The kernel handles two entries per grid point and
  keeps an entry's momenta flat along one axis; the reference works on the whole arrays. The claims are assembled in
  Proof/Claims.lean from: the specification of one entry's recurrence on the extended reals (Proof/Spec.lean and its
  array and block forms); the kernel's frame (host side, the body's triple, the launch) at both instances; what the
  idealized kernel's blocks and arrays hold; and what the reference's run holds.
-/
import proofs.«156042_j46600395162250_1_alg».proof.Defs
import proofs.«156042_j46600395162250_1_alg».proof.Proof.Claims
import proofs.«156042_j46600395162250_1_alg».proof.Proof.Gen.Kernel
import proofs.«156042_j46600395162250_1_alg».proof.Proof.Gen.KernelIdeal
import proofs.«156042_j46600395162250_1_alg».proof.Proof.Gen.ReferenceIdeal
import proofs.«156042_j46600395162250_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    NhcClaims.frame_k, NhcClaims.frame_ki, NhcClaims.frame_r, NhcClaims.preserves, NhcClaims.algebraic⟩

end Cert.Proof

end
